-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x64 : Shape := ⟨2, ![1000000, 64]⟩
abbrev S1000x64 : Shape := ⟨2, ![1000, 64]⟩
abbrev S16384 : Shape := ⟨1, ![16384]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg5 : IVec S16384 32) (main_arg6 : IVec S16384 32) (main_v29 : IVec S_ 1) (main_v31 : IVec S16384 1) (main_v32 : IVec S16384 32) : IVec S_ 1 :=
  let main_v33 : IVec S16384 1 := cmpi .sle main_arg5 main_v32
  let main_v34 : IVec S16384 1 := andi main_v31 main_v33
  let main_c_13 : IVec S_ 1 := constantI S_ 1 1#1
  let main_v35 : IVec S_ 1 := (fun x v => Host.reduce IntOp.andi x v reducesTo_S16384_S_d0 h_S_) main_v34 main_c_13
  let main_v36 : IVec S_ 1 := andi main_v29 main_v35
  let main_c_14 : IVec S_ 32 := constantI S_ 32 0#32
  let main_v37 : IVec S16384 32 := broadcastInDim S16384 ![] bcast_S_S16384 main_c_14
  let main_v38 : IVec S16384 1 := cmpi .sge main_arg6 main_v37
  let main_c_15 : IVec S_ 32 := constantI S_ 32 999999#32
  let main_v39 : IVec S16384 32 := broadcastInDim S16384 ![] bcast_S_S16384 main_c_15
  let main_v40 : IVec S16384 1 := cmpi .sle main_arg6 main_v39
  let main_v41 : IVec S16384 1 := andi main_v38 main_v40
  let main_c_16 : IVec S_ 1 := constantI S_ 1 1#1
  let main_v42 : IVec S_ 1 := (fun x v => Host.reduce IntOp.andi x v reducesTo_S16384_S_d0 h_S_) main_v41 main_c_16
  let main_v43 : IVec S_ 1 := andi main_v36 main_v42
  main_v43

def fn_part1 {F : FTy → Type} [FloatOps F] (main_arg3 : IVec S16384 32) (main_arg4 : IVec S16384 32) (main_arg5 : IVec S16384 32) (main_arg6 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 999#32
  let main_v18 : IVec S16384 32 := broadcastInDim S16384 ![] bcast_S_S16384 main_c_6
  let main_v19 : IVec S16384 1 := cmpi .sle main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384 32 := broadcastInDim S16384 ![] bcast_S_S16384 main_c_8
  let main_v24 : IVec S16384 1 := cmpi .sge main_arg4 main_v23
  let main_c_9 : IVec S_ 32 := constantI S_ 32 999999#32
  let main_v25 : IVec S16384 32 := broadcastInDim S16384 ![] bcast_S_S16384 main_c_9
  let main_v26 : IVec S16384 1 := cmpi .sle main_arg4 main_v25
  let main_v27 : IVec S16384 1 := andi main_v24 main_v26
  let main_c_10 : IVec S_ 1 := constantI S_ 1 1#1
  let main_v28 : IVec S_ 1 := (fun x v => Host.reduce IntOp.andi x v reducesTo_S16384_S_d0 h_S_) main_v27 main_c_10
  let main_v29 : IVec S_ 1 := andi main_v22 main_v28
  let main_c_11 : IVec S_ 32 := constantI S_ 32 0#32
  let main_v30 : IVec S16384 32 := broadcastInDim S16384 ![] bcast_S_S16384 main_c_11
  let main_v31 : IVec S16384 1 := cmpi .sge main_arg5 main_v30
  let main_c_12 : IVec S_ 32 := constantI S_ 32 999999#32
  let main_v32 : IVec S16384 32 := broadcastInDim S16384 ![] bcast_S_S16384 main_c_12
  fn_part2 (F := F) main_arg5 main_arg6 main_v29 main_v31 main_v32

def fn {F : FTy → Type} [FloatOps F] (main_arg0 : FVec F S1000000x64 .f32) (main_arg1 : FVec F S1000x64 .f32) (main_arg2 : IVec S16384 32) (main_arg3 : IVec S16384 32) (main_arg4 : IVec S16384 32) (main_arg5 : IVec S16384 32) (main_arg6 : IVec S16384 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 999999#32
  let main_v11 : IVec S16384 32 := broadcastInDim S16384 ![] bcast_S_S16384 main_c_3
  let main_v12 : IVec S16384 1 := cmpi .sle main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_arg4 main_arg5 main_arg6 main_v15 main_c_5
-- ==== Kernel.lean ====
abbrev S1000000x64 : Shape := ⟨2, ![1000000, 64]⟩
abbrev S1000x64 : Shape := ⟨2, ![1000, 64]⟩
abbrev S16384 : Shape := ⟨1, ![16384]⟩
abbrev S64x1000000 : Shape := ⟨2, ![64, 1000000]⟩
abbrev S1600x64 : Shape := ⟨2, ![1600, 64]⟩
abbrev S800x64 : Shape := ⟨2, ![800, 64]⟩
abbrev S800x128 : Shape := ⟨2, ![800, 128]⟩
abbrev S500000x128 : Shape := ⟨2, ![500000, 128]⟩
abbrev S64x12800 : Shape := ⟨2, ![64, 12800]⟩
abbrev S6400x128 : Shape := ⟨2, ![6400, 128]⟩
abbrev S_ : Shape := ⟨0, ![]⟩
abbrev S12800x64 : Shape := ⟨2, ![12800, 64]⟩
abbrev S6400x64 : Shape := ⟨2, ![6400, 64]⟩
abbrev S500x128 : Shape := ⟨2, ![500, 128]⟩
abbrev S65536 : Shape := ⟨1, ![65536]⟩
abbrev S512x128 : Shape := ⟨2, ![512, 128]⟩
abbrev S128x128 : Shape := ⟨2, ![128, 128]⟩
abbrev S16384x128 : Shape := ⟨2, ![16384, 128]⟩
abbrev S20x128 : Shape := ⟨2, ![20, 128]⟩
abbrev S4x128 : Shape := ⟨2, ![4, 128]⟩
abbrev S1x128 : Shape := ⟨2, ![1, 128]⟩
abbrev S128 : Shape := ⟨1, ![128]⟩
abbrev S4x16384 : Shape := ⟨2, ![4, 16384]⟩
abbrev S1x16384 : Shape := ⟨2, ![1, 16384]⟩
abbrev S16384x1 : Shape := ⟨2, ![16384, 1]⟩
abbrev S1x1 : Shape := ⟨2, ![1, 1]⟩
abbrev S2048x128 : Shape := ⟨2, ![2048, 128]⟩
abbrev S2048x1 : Shape := ⟨2, ![2048, 1]⟩
abbrev S2048x64 : Shape := ⟨2, ![2048, 64]⟩
abbrev S2048 : Shape := ⟨1, ![2048]⟩
abbrev S1x2048 : Shape := ⟨2, ![1, 2048]⟩
abbrev S1 : Shape := ⟨1, ![1]⟩

abbrev nBuf : Table → Nat
  | .hbm => 146
  | .local .tc .vmem => 17
  | .local .scVector .vmem => 3
  | _ => 0

abbrev hbmTy0_0 (i : Nat) : BufTy := match i % 128 with
  | 0 => ⟨S1000000x64, .f32⟩
  | 1 => ⟨S1000x64, .f32⟩
  | 2 => ⟨S16384, .i32⟩
  | 3 => ⟨S16384, .i32⟩
  | 4 => ⟨S16384, .i32⟩
  | 5 => ⟨S16384, .i32⟩
  | 6 => ⟨S16384, .i32⟩
  | 7 => ⟨S64x1000000, .f32⟩
  | 8 => ⟨S1600x64, .f32⟩
  | 9 => ⟨S800x64, .f32⟩
  | 10 => ⟨S800x64, .f32⟩
  | 11 => ⟨S800x128, .f32⟩
  | 12 => ⟨S500000x128, .f32⟩
  | 13 => ⟨S500x128, .f32⟩
  | 14 => ⟨S65536, .i32⟩
  | 15 => ⟨S_, .i32⟩
  | 16 => ⟨S_, .i32⟩
  | 17 => ⟨S65536, .i32⟩
  | 18 => ⟨S65536, .i32⟩
  | 19 => ⟨S65536, .i32⟩
  | 20 => ⟨S_, .i32⟩
  | 21 => ⟨S65536, .i32⟩
  | 22 => ⟨S65536, .i1⟩
  | 23 => ⟨S65536, .i32⟩
  | 24 => ⟨S65536, .i32⟩
  | 25 => ⟨S_, .i32⟩
  | 26 => ⟨S65536, .i32⟩
  | 27 => ⟨S65536, .i1⟩
  | 28 => ⟨S65536, .i1⟩
  | 29 => ⟨S_, .i32⟩
  | 30 => ⟨S65536, .i32⟩
  | 31 => ⟨S65536, .i32⟩
  | 32 => ⟨S65536, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S65536, .i32⟩
  | 40 => ⟨S65536, .i32⟩
  | 41 => ⟨S_, .i32⟩
  | 42 => ⟨S65536, .i32⟩
  | 43 => ⟨S65536, .i1⟩
  | 44 => ⟨S_, .i32⟩
  | 45 => ⟨S65536, .i32⟩
  | 46 => ⟨S65536, .i1⟩
  | 47 => ⟨S_, .i32⟩
  | 48 => ⟨S_, .i1⟩
  | 49 => ⟨S65536, .i1⟩
  | 50 => ⟨S65536, .i1⟩
  | 51 => ⟨S65536, .i1⟩
  | 52 => ⟨S65536, .i32⟩
  | 53 => ⟨S65536, .i32⟩
  | 54 => ⟨S65536, .i32⟩
  | 55 => ⟨S_, .i32⟩
  | 56 => ⟨S65536, .i32⟩
  | 57 => ⟨S65536, .i1⟩
  | 58 => ⟨S_, .i32⟩
  | 59 => ⟨S_, .i32⟩
  | 60 => ⟨S65536, .i32⟩
  | 61 => ⟨S65536, .i32⟩
  | 62 => ⟨S65536, .i32⟩
  | 63 => ⟨S_, .i32⟩
  | 64 => ⟨S65536, .i32⟩
  | 65 => ⟨S65536, .i32⟩
  | 66 => ⟨S_, .i32⟩
  | 67 => ⟨S65536, .i32⟩
  | 68 => ⟨S65536, .i32⟩
  | 69 => ⟨S65536, .i32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S65536, .i32⟩
  | 77 => ⟨S_, .i32⟩
  | 78 => ⟨S65536, .i32⟩
  | 79 => ⟨S65536, .i1⟩
  | 80 => ⟨S_, .i32⟩
  | 81 => ⟨S65536, .i32⟩
  | 82 => ⟨S65536, .i1⟩
  | 83 => ⟨S_, .i32⟩
  | 84 => ⟨S65536, .i32⟩
  | 85 => ⟨S65536, .i1⟩
  | 86 => ⟨S65536, .i1⟩
  | 87 => ⟨S65536, .i1⟩
  | 88 => ⟨S65536, .i32⟩
  | 89 => ⟨S65536, .i32⟩
  | 90 => ⟨S65536, .i32⟩
  | 91 => ⟨S65536, .i32⟩
  | 92 => ⟨S65536, .i32⟩
  | 93 => ⟨S65536, .i32⟩
  | 94 => ⟨S65536, .i32⟩
  | 95 => ⟨S65536, .i1⟩
  | 96 => ⟨S65536, .i32⟩
  | 97 => ⟨S_, .i32⟩
  | 98 => ⟨S65536, .i32⟩
  | 99 => ⟨S65536, .i1⟩
  | 100 => ⟨S65536, .i1⟩
  | 101 => ⟨S_, .i32⟩
  | 102 => ⟨S65536, .i32⟩
  | 103 => ⟨S65536, .i32⟩
  | 104 => ⟨S65536, .i32⟩
  | 105 => ⟨S_, .i32⟩
  | 106 => ⟨S16384, .i32⟩
  | 107 => ⟨S16384, .i32⟩
  | 108 => ⟨S_, .i32⟩
  | 109 => ⟨S16384, .i32⟩
  | 110 => ⟨S16384, .i32⟩
  | 111 => ⟨S512x128, .i32⟩
  | 112 => ⟨S128x128, .i32⟩
  | 113 => ⟨S16384x128, .f32⟩
  | 114 => ⟨S16384x128, .f32⟩
  | 115 => ⟨S16384x128, .f32⟩
  | 116 => ⟨S16384x128, .f32⟩
  | 117 => ⟨S16384x128, .f32⟩
  | 118 => ⟨S4x16384, .i32⟩
  | 119 => ⟨S1x16384, .i32⟩
  | 120 => ⟨S16384, .i32⟩
  | 121 => ⟨S1x16384, .i32⟩
  | 122 => ⟨S16384, .i32⟩
  | 123 => ⟨S_, .i32⟩
  | 124 => ⟨S16384, .i32⟩
  | 125 => ⟨S16384, .i32⟩
  | 126 => ⟨S16384, .i32⟩
  | 127 => ⟨S1x16384, .i32⟩
  | _ => ⟨S1000000x64, .f32⟩

abbrev hbmTy0_1 (i : Nat) : BufTy := match i % 128 with
  | 0 => ⟨S16384, .i32⟩
  | 1 => ⟨S_, .i32⟩
  | 2 => ⟨S16384, .i32⟩
  | 3 => ⟨S16384, .i32⟩
  | 4 => ⟨S16384, .i32⟩
  | 5 => ⟨S1x16384, .i32⟩
  | 6 => ⟨S16384, .i32⟩
  | 7 => ⟨S_, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i32⟩
  | 14 => ⟨S16384, .i32⟩
  | 15 => ⟨S16384x1, .i32⟩
  | 16 => ⟨S1x1, .f32⟩
  | 17 => ⟨S_, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (nBuf tb) → BufTy
  | .hbm, ⟨i, _⟩ => hbmTy i
  | .local .tc .vmem, ⟨0, _⟩ => ⟨S64x12800, .f32⟩
  | .local .tc .vmem, ⟨1, _⟩ => ⟨S64x12800, .f32⟩
  | .local .tc .vmem, ⟨2, _⟩ => ⟨S6400x128, .f32⟩
  | .local .tc .vmem, ⟨3, _⟩ => ⟨S6400x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S2048x128, .f32⟩
  | .local .tc .vmem, ⟨9, _⟩ => ⟨S2048x128, .f32⟩
  | .local .tc .vmem, ⟨10, _⟩ => ⟨S2048x128, .f32⟩
  | .local .tc .vmem, ⟨11, _⟩ => ⟨S2048x128, .f32⟩
  | .local .tc .vmem, ⟨12, _⟩ => ⟨S2048x128, .f32⟩
  | .local .tc .vmem, ⟨13, _⟩ => ⟨S2048x128, .f32⟩
  | .local .tc .vmem, ⟨14, _⟩ => ⟨S2048x1, .i32⟩
  | .local .tc .vmem, ⟨15, _⟩ => ⟨S2048x1, .i32⟩
  | .local .tc .vmem, ⟨16, _⟩ => ⟨S1x1, .f32⟩
  | .local .scVector .vmem, ⟨0, _⟩ => ⟨S20x128, .i32⟩
  | .local .scVector .vmem, ⟨1, _⟩ => ⟨S128x128, .f32⟩
  | .local .scVector .vmem, ⟨2, _⟩ => ⟨S128x128, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v9 : Ref sig .tc := ⟨.hbm, 54, rfl⟩
abbrev main_c_1 : Ref sig .tc := ⟨.hbm, 55, rfl⟩
abbrev main_v10 : Ref sig .tc := ⟨.hbm, 56, rfl⟩
abbrev main_v11 : Ref sig .tc := ⟨.hbm, 57, rfl⟩
abbrev main_c_2 : Ref sig .tc := ⟨.hbm, 58, rfl⟩
abbrev main_c_3 : Ref sig .tc := ⟨.hbm, 59, rfl⟩
abbrev main_call2_v0 : Ref sig .tc := ⟨.hbm, 60, rfl⟩
abbrev main_call2_v1 : Ref sig .tc := ⟨.hbm, 61, rfl⟩
abbrev main_v12 : Ref sig .tc := ⟨.hbm, 62, rfl⟩
abbrev main_c_4 : Ref sig .tc := ⟨.hbm, 63, rfl⟩
abbrev main_v13 : Ref sig .tc := ⟨.hbm, 64, rfl⟩
abbrev main_v14 : Ref sig .tc := ⟨.hbm, 65, rfl⟩
abbrev main_c_5 : Ref sig .tc := ⟨.hbm, 66, rfl⟩
abbrev main_v15 : Ref sig .tc := ⟨.hbm, 67, rfl⟩
abbrev main_v16 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_v2 : Ref sig .tc := ⟨.hbm, 72, rfl⟩
abbrev main_call3_c_0 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_v6 : Ref sig .tc := ⟨.hbm, 78, rfl⟩
abbrev main_call3_v7 : Ref sig .tc := ⟨.hbm, 79, rfl⟩
abbrev main_call3_c_2 : Ref sig .tc := ⟨.hbm, 80, rfl⟩
abbrev main_call3_v8 : Ref sig .tc := ⟨.hbm, 81, rfl⟩
abbrev main_call3_v9 : Ref sig .tc := ⟨.hbm, 82, rfl⟩
abbrev main_call3_c_3 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v17 : Ref sig .tc := ⟨.hbm, 89, rfl⟩
abbrev main_v18 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c_0 : Ref sig .tc := ⟨.hbm, 101, rfl⟩
abbrev main_call4_v9 : Ref sig .tc := ⟨.hbm, 102, rfl⟩
abbrev main_call4_v10 : Ref sig .tc := ⟨.hbm, 103, rfl⟩
abbrev main_v19 : Ref sig .tc := ⟨.hbm, 104, rfl⟩
abbrev main_c_6 : Ref sig .tc := ⟨.hbm, 105, rfl⟩
abbrev main_v20 : Ref sig .tc := ⟨.hbm, 106, rfl⟩
abbrev main_v21 : Ref sig .tc := ⟨.hbm, 107, rfl⟩
abbrev main_c_7 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26_0 : Ref sig .tc := ⟨.hbm, 113, rfl⟩
abbrev main_v26_1 : Ref sig .tc := ⟨.hbm, 114, rfl⟩
abbrev main_v26_2 : Ref sig .tc := ⟨.hbm, 115, rfl⟩
abbrev main_v26_3 : Ref sig .tc := ⟨.hbm, 116, rfl⟩
abbrev main_v26_4 : Ref sig .tc := ⟨.hbm, 117, rfl⟩
abbrev main_v27 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_c_8 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_v35 : Ref sig .tc := ⟨.hbm, 127, rfl⟩
abbrev main_v36 : Ref sig .tc := ⟨.hbm, 128, rfl⟩
abbrev main_c_9 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_c_10 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_c_11 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v5_scv : Ref sig .scVector := ⟨.hbm, 12, rfl⟩
abbrev main_v6_scv : Ref sig .scVector := ⟨.hbm, 13, rfl⟩
abbrev main_v24_scv : Ref sig .scVector := ⟨.hbm, 111, rfl⟩
abbrev main_v25_scv : Ref sig .scVector := ⟨.hbm, 112, rfl⟩
abbrev main_v26_0_scv : Ref sig .scVector := ⟨.hbm, 113, rfl⟩
abbrev main_v26_1_scv : Ref sig .scVector := ⟨.hbm, 114, rfl⟩
abbrev main_v26_2_scv : Ref sig .scVector := ⟨.hbm, 115, rfl⟩
abbrev main_v26_3_scv : Ref sig .scVector := ⟨.hbm, 116, rfl⟩
abbrev main_v26_4_scv : Ref sig .scVector := ⟨.hbm, 117, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc2_sem5_0 : DmaSem sig := 41
abbrev cc2_sem5_1 : DmaSem sig := 42
abbrev cc2_sem6_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
@[reducible] def k0_t1_loop : Scf.Loop 32 :=
  let c0_i32_1 : BitVec 32 := 0#32
  let c39_i32 : BitVec 32 := 39#32
  let v2 : BitVec 32 := Scalar.addi c0_i32_1 c39_i32
  let c1_i32 : BitVec 32 := 1#32
  ⟨c0_i32_1, v2, c1_i32⟩
def k0_mult2 (k0_t1 : Fin k0_t1_loop.trips) : BitVec 32 :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c1_i32_12 : BitVec 32 := 1#32
  let v10 : BitVec 32 := Scalar.addi v9 c1_i32_12
  let c12800_i32 : BitVec 32 := 12800#32
  let v11 : BitVec 32 := Scalar.muli v10 c12800_i32
  v11
def k0_off1 (k0_t1 : Fin k0_t1_loop.trips) : Fin 2 → Nat :=
  let c0_i32_13 : BitVec 32 := 0#32
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c1_i32_12 : BitVec 32 := 1#32
  let v10 : BitVec 32 := Scalar.addi v9 c1_i32_12
  let c12800_i32 : BitVec 32 := 12800#32
  let v11 : BitVec 32 := Scalar.muli v10 c12800_i32
  let v12 : BitVec 32 := v11
  ![0, v12.toNat]
def k0_mult3 (k0_t1 : Fin k0_t1_loop.trips) : BitVec 32 :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c6400_i32 : BitVec 32 := 6400#32
  let v28 : BitVec 32 := Scalar.muli v9 c6400_i32
  v28
def k0_off2 (k0_t1 : Fin k0_t1_loop.trips) : Fin 2 → Nat :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c6400_i32 : BitVec 32 := 6400#32
  let v28 : BitVec 32 := Scalar.muli v9 c6400_i32
  let v29 : BitVec 32 := v28
  let c0_i32_22 : BitVec 32 := 0#32
  ![v29.toNat, 0]
def k0_cond2 (k0_t1 : Fin k0_t1_loop.trips) : BitVec 1 :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c38_i32 : BitVec 32 := 38#32
  let v31 : BitVec 1 := Scalar.cmpi .slt v8 c38_i32
  let v32 : BitVec 32 := Scalar.extui v31
  let c0_i32_23 : BitVec 32 := 0#32
  let v33 : BitVec 1 := Scalar.cmpi .ne v32 c0_i32_23
  v33

def k0_mult4 (k0_t1 : Fin k0_t1_loop.trips) : BitVec 32 :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c2_i32_37 : BitVec 32 := 2#32
  let v52 : BitVec 32 := Scalar.addi v9 c2_i32_37
  let c12800_i32_38 : BitVec 32 := 12800#32
  let v53 : BitVec 32 := Scalar.muli v52 c12800_i32_38
  v53
def k0_off3 (k0_t1 : Fin k0_t1_loop.trips) : Fin 2 → Nat :=
  let c0_i32_39 : BitVec 32 := 0#32
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c2_i32_37 : BitVec 32 := 2#32
  let v52 : BitVec 32 := Scalar.addi v9 c2_i32_37
  let c12800_i32_38 : BitVec 32 := 12800#32
  let v53 : BitVec 32 := Scalar.muli v52 c12800_i32_38
  let v54 : BitVec 32 := v53
  ![0, v54.toNat]
def k0_mult5 (k0_t1 : Fin k0_t1_loop.trips) : BitVec 32 :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c1_i32_34 : BitVec 32 := 1#32
  let v48 : BitVec 32 := Scalar.addi v9 c1_i32_34
  let c6400_i32_35 : BitVec 32 := 6400#32
  let v49 : BitVec 32 := Scalar.muli v48 c6400_i32_35
  v49
def k0_off4 (k0_t1 : Fin k0_t1_loop.trips) : Fin 2 → Nat :=
  let c0_i32_11 : BitVec 32 := 0#32
  let c0_i32_1 : BitVec 32 := 0#32
  let c1_i32 : BitVec 32 := 1#32
  let arg11 : BitVec 32 := Scf.iv c0_i32_1 c1_i32 k0_t1
  let c1_i32_10 : BitVec 32 := 1#32
  let v7 : BitVec 32 := Scalar.muli arg11 c1_i32_10
  let v8 : BitVec 32 := Scalar.addi c0_i32_11 v7
  let c2_i32 : BitVec 32 := 2#32
  let v9 : BitVec 32 := Scalar.muli v8 c2_i32
  let c1_i32_34 : BitVec 32 := 1#32
  let v48 : BitVec 32 := Scalar.addi v9 c1_i32_34
  let c6400_i32_35 : BitVec 32 := 6400#32
  let v49 : BitVec 32 := Scalar.muli v48 c6400_i32_35
  let v50 : BitVec 32 := v49
  let c0_i32_36 : BitVec 32 := 0#32
  ![v50.toNat, 0]
abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi c0_i32 v2
  let c0_i32_209_r0 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_3 : BitVec 32 := 4#32
  let v10 : BitVec 32 := Scalar.muli v1 c4_i32_3
  let c0_i32_209_r4 : BitVec 32 := 0#32
  ![v10.toNat, 0]
def k1_off3 (i : grid1.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v20 : BitVec 32 := Scalar.muli v1 c4_i32_15
  let v21 : BitVec 32 := Scalar.addi v20 c0_i32_16
  let c128_i32_17 : BitVec 32 := 128#32
  let v22 : BitVec 32 := Scalar.muli v21 c128_i32_17
  let c0_i32_207_r5 : BitVec 32 := 0#32
  ![v22.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  slices_S1000000x64_S1600x64_998400_0 : S1000000x64.Slices ![998400, 0] S1600x64
  slices_S1600x64_S800x64_0_0 : S1600x64.Slices ![0, 0] S800x64
  slices_S1600x64_S800x64_800_0 : S1600x64.Slices ![800, 0] S800x64
  concatenates_S800x64_S800x64_S800x128_d1 : Shape.Concatenates [S800x64, S800x64] S800x128 1
  inb_S64x1000000_S64x12800_0_0 : ∀ a, (![0, 0] : Fin 2 → Nat) a + S64x12800.size a ≤ S64x1000000.size a
  inb_S500000x128_S6400x128_0_0 : ∀ a, (![0, 0] : Fin 2 → Nat) a + S6400x128.size a ≤ S500000x128.size a
  inb_S64x12800_S64x12800_0_0 : ∀ a, (![0, 0] : Fin 2 → Nat) a + S64x12800.size a ≤ S64x12800.size a
  h_S64x12800 : 0 < S64x12800.numel
  transposes_S64x12800_p1_0_S12800x64 : S64x12800.Transposes [1, 0] S12800x64
  slices_S12800x64_o0_0_S6400x64 : S12800x64.Slices ![0, 0] S6400x64
  inb_S6400x128_S6400x64_0_0 : ∀ a, (![0, 0] : Fin 2 → Nat) a + S6400x64.size a ≤ S6400x128.size a
  h_S6400x64 : 0 < S6400x64.numel
  shapeCasts_S6400x64_S6400x64 : S6400x64.ShapeCasts S6400x64
  slices_S12800x64_o6400_0_S6400x64 : S12800x64.Slices ![6400, 0] S6400x64
  inb_S6400x128_S6400x64_0_64 : ∀ a, (![0, 64] : Fin 2 → Nat) a + S6400x64.size a ≤ S6400x128.size a
  inb_S500000x128_S800x128_499200_0 : ∀ a, (![499200, 0] : Fin 2 → Nat) a + S800x128.size a ≤ S500000x128.size a
  shapeCasts_S1000x64_S500x128 : S1000x64.ShapeCasts S500x128
  concatenates_S16384_S16384_S16384_S16384_S65536_d0 : Shape.Concatenates [S16384, S16384, S16384, S16384] S65536 0
  bcast_S_S65536 : S_.BroadcastsInDim S65536 (![] : Fin 0 → Fin S65536.rank)
  bcast_S_S16384 : S_.BroadcastsInDim S16384 (![] : Fin 0 → Fin S16384.rank)
  shapeCasts_S65536_S512x128 : S65536.ShapeCasts S512x128
  shapeCasts_S16384_S128x128 : S16384.ShapeCasts S128x128
  inb_S20x128_S4x128_0_0 : ∀ a, (![0, 0] : Fin 2 → Nat) a + S4x128.size a ≤ S20x128.size a
  inb_S20x128_S4x128_4_0 : ∀ a, (![4, 0] : Fin 2 → Nat) a + S4x128.size a ≤ S20x128.size a
  inb_S20x128_S4x128_8_0 : ∀ a, (![8, 0] : Fin 2 → Nat) a + S4x128.size a ≤ S20x128.size a
  inb_S20x128_S4x128_12_0 : ∀ a, (![12, 0] : Fin 2 → Nat) a + S4x128.size a ≤ S20x128.size a
  inb_S20x128_S4x128_16_0 : ∀ a, (![16, 0] : Fin 2 → Nat) a + S4x128.size a ≤ S20x128.size a
  inb_S20x128_S1x128_0_0 : ∀ a, (![0, 0] : Fin 2 → Nat) a + S1x128.size a ≤ S20x128.size a
  squeezes_S1x128_S128 : S1x128.Squeezes S128
  inb_S500000x128_S500000x128_0_0 : ∀ a, (![0, 0] : Fin 2 → Nat) a + S500000x128.size a ≤ S500000x128.size a
  gathers_S500000x128_S128x128 : S500000x128.Gathers 0 S128x128
  inb_S20x128_S1x128_1_0 : ∀ a, (![1, 0] : Fin 2 → Nat) a + S1x128.size a ≤ S20x128.size a
  inb_S20x128_S1x128_2_0 : ∀ a, (![2, 0] : Fin 2 → Nat) a + S1x128.size a ≤ S20x128.size a
  inb_S20x128_S1x128_3_0 : ∀ a, (![3, 0] : Fin 2 → Nat) a + S1x128.size a ≤ S20x128.size a
  inb_S20x128_S1x128_4_0 : ∀ a, (![4, 0] : Fin 2 → Nat) a + S1x128.size a ≤ S20x128.size a
  inb_S20x128_S1x128_5_0 : ∀ a, (![5, 0] : Fin 2 → Nat) a + S1x128.size a ≤ S20x128.size a
  inb_S20x128_S1x128_6_0 : ∀ a, (![6, 0] : Fin 2 → Nat) a + S1x128.size a ≤ S20x128.size a
  inb_S20x128_S1x128_7_0 : ∀ a, (![7, 0] : Fin 2 → Nat) a + S1x128.size a ≤ S20x128.size a
  inb_S20x128_S1x128_8_0 : ∀ a, (![8, 0] : Fin 2 → Nat) a + S1x128.size a ≤ S20x128.size a
  inb_S20x128_S1x128_9_0 : ∀ a, (![9, 0] : Fin 2 → Nat) a + S1x128.size a ≤ S20x128.size a
  inb_S20x128_S1x128_10_0 : ∀ a, (![10, 0] : Fin 2 → Nat) a + S1x128.size a ≤ S20x128.size a
  inb_S20x128_S1x128_11_0 : ∀ a, (![11, 0] : Fin 2 → Nat) a + S1x128.size a ≤ S20x128.size a
  inb_S20x128_S1x128_12_0 : ∀ a, (![12, 0] : Fin 2 → Nat) a + S1x128.size a ≤ S20x128.size a
  inb_S20x128_S1x128_13_0 : ∀ a, (![13, 0] : Fin 2 → Nat) a + S1x128.size a ≤ S20x128.size a
  inb_S20x128_S1x128_14_0 : ∀ a, (![14, 0] : Fin 2 → Nat) a + S1x128.size a ≤ S20x128.size a
  inb_S20x128_S1x128_15_0 : ∀ a, (![15, 0] : Fin 2 → Nat) a + S1x128.size a ≤ S20x128.size a
  inb_S20x128_S1x128_16_0 : ∀ a, (![16, 0] : Fin 2 → Nat) a + S1x128.size a ≤ S20x128.size a
  inb_S500x128_S500x128_0_0 : ∀ a, (![0, 0] : Fin 2 → Nat) a + S500x128.size a ≤ S500x128.size a
  gathers_S500x128_S128x128 : S500x128.Gathers 0 S128x128
  inb_S20x128_S1x128_17_0 : ∀ a, (![17, 0] : Fin 2 → Nat) a + S1x128.size a ≤ S20x128.size a
  inb_S20x128_S1x128_18_0 : ∀ a, (![18, 0] : Fin 2 → Nat) a + S1x128.size a ≤ S20x128.size a
  inb_S20x128_S1x128_19_0 : ∀ a, (![19, 0] : Fin 2 → Nat) a + S1x128.size a ≤ S20x128.size a
  shapeCasts_S65536_S4x16384 : S65536.ShapeCasts S4x16384
  slices_S4x16384_S1x16384_0_0 : S4x16384.Slices ![0, 0] S1x16384
  shapeCasts_S1x16384_S16384 : S1x16384.ShapeCasts S16384
  slices_S4x16384_S1x16384_1_0 : S4x16384.Slices ![1, 0] S1x16384
  slices_S4x16384_S1x16384_2_0 : S4x16384.Slices ![2, 0] S1x16384
  slices_S4x16384_S1x16384_3_0 : S4x16384.Slices ![3, 0] S1x16384
  shapeCasts_S16384_S16384x1 : S16384.ShapeCasts S16384x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_64_S2048x64 : S2048x128.Slices ![0, 64] S2048x64
  slices_S2048x128_o0_0_S2048x64 : S2048x128.Slices ![0, 0] S2048x64
  broadcasts_S2048x1_S2048x64 : S2048x1.Broadcasts S2048x64
  reduces_S2048x64_S2048 : S2048x64.Reduces [1] S2048
  shapeCasts_S2048_S2048x1 : S2048.ShapeCasts S2048x1
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hcc0_scratch4 : 0 + S_.numel ≤ 44
  hcc0_scratch5 : 1 + S_.numel ≤ 44
  hcc0_scratch6 : 2 + S_.numel ≤ 44
  hcc0_scratch7 : 3 + S_.numel ≤ 44
  hcc1_scratch3 : 4 + S_.numel ≤ 44
  hcc1_scratch4 : 5 + S_.numel ≤ 44
  hcc1_scoped0 : 6 + S_.numel ≤ 44
  hcc1_scoped1 : 7 + S_.numel ≤ 44
  hcc1_scoped2 : 8 + S_.numel ≤ 44
  hcc1_scoped3 : 9 + S_.numel ≤ 44
  hcc1_scoped4 : 10 + S_.numel ≤ 44
  hcc1_scoped5 : 11 + S_.numel ≤ 44
  hcc1_scoped6 : 12 + S_.numel ≤ 44
  hcc1_scoped7 : 13 + S_.numel ≤ 44
  hcc1_scoped8 : 14 + S_.numel ≤ 44
  hcc1_scoped9 : 15 + S_.numel ≤ 44
  hcc1_scoped10 : 16 + S_.numel ≤ 44
  hcc1_scoped11 : 17 + S_.numel ≤ 44
  hcc1_scoped12 : 18 + S_.numel ≤ 44
  hcc1_scoped13 : 19 + S_.numel ≤ 44
  hcc1_scoped14 : 20 + S_.numel ≤ 44
  hcc1_scoped15 : 21 + S_.numel ≤ 44
  hcc1_scoped16 : 22 + S_.numel ≤ 44
  hcc1_scoped17 : 23 + S_.numel ≤ 44
  hcc1_scoped18 : 24 + S_.numel ≤ 44
  hcc1_scoped19 : 25 + S_.numel ≤ 44
  hcc1_scoped20 : 26 + S_.numel ≤ 44
  hcc1_scoped21 : 27 + S_.numel ≤ 44
  hcc1_scoped22 : 28 + S_.numel ≤ 44
  hcc1_scoped23 : 29 + S_.numel ≤ 44
  hcc1_scoped24 : 30 + S_.numel ≤ 44
  hscKind : ∀ q, scKind q ≠ .tc
  hscCore : ∀ q, scNCore q ≤ τ.nSC
  hscSub : ∀ q, scNSub q ≤ τ.nSub
  k0_mult1_dvd : 128 ∣ k0_mult1.toNat
  k0_t1_ok : k0_t1_loop.OK
  k0_mult2_dvd : ∀ k0_t1 : Fin k0_t1_loop.trips, 128 ∣ (k0_mult2 k0_t1).toNat
  k0_off1_inb : ∀ k0_t1 : Fin k0_t1_loop.trips, ∀ a, (k0_off1 k0_t1) a + S64x12800.size a ≤ S64x1000000.size a
  k0_mult3_dvd : ∀ k0_t1 : Fin k0_t1_loop.trips, 8 ∣ (k0_mult3 k0_t1).toNat
  k0_off2_inb : ∀ k0_t1 : Fin k0_t1_loop.trips, ∀ a, (k0_off2 k0_t1) a + S6400x128.size a ≤ S500000x128.size a
  k0_mult4_dvd : ∀ k0_t1 : Fin k0_t1_loop.trips, ∀ (k0_h2 : k0_cond2 k0_t1 = 1#1), 128 ∣ (k0_mult4 k0_t1).toNat
  k0_off3_inb : ∀ k0_t1 : Fin k0_t1_loop.trips, ∀ (k0_h2 : k0_cond2 k0_t1 = 1#1), ∀ a, (k0_off3 k0_t1) a + S64x12800.size a ≤ S64x1000000.size a
  k0_mult5_dvd : ∀ k0_t1 : Fin k0_t1_loop.trips, 8 ∣ (k0_mult5 k0_t1).toNat
  k0_off4_inb : ∀ k0_t1 : Fin k0_t1_loop.trips, ∀ a, (k0_off4 k0_t1) a + S6400x128.size a ≤ S500000x128.size a
  hcore1 : grid1.bound 0 ≤ τ.nSC
  hsub1 : grid1.bound 1 ≤ τ.nSub
  k1_off1_inb : ∀ i : grid1.Coords, ∀ (r : Fin 4), ∀ a, (k1_off1 i (BitVec.ofNat 32 (128 * r.val))) a + S4x128.size a ≤ S512x128.size a
  k1_off2_inb : ∀ i : grid1.Coords, ∀ a, (k1_off2 i) a + S4x128.size a ≤ S128x128.size a
  k1_off3_inb : ∀ i : grid1.Coords, ∀ (r : Fin 4), ∀ a, (k1_off3 i (BitVec.ofNat 32 r.val)) a + S128x128.size a ≤ S16384x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S16384x128.size a
  hwx2_3 : ∀ i : grid2.Coords, EltTy.bits .f32 = 32 ∨ (Rect.block (s := S16384x128) S2048x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S16384x128.size a
  hwx2_4 : ∀ i : grid2.Coords, EltTy.bits .f32 = 32 ∨ (Rect.block (s := S16384x128) S2048x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S16384x1.size a
  hwx2_5 : ∀ i : grid2.Coords, EltTy.bits .i32 = 32 ∨ (Rect.block (s := S16384x1) S2048x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc1_scratch3 : DmaSems sig S_ := SemArray.consecutive 4 S_ hcc1_scratch3
abbrev cc1_scratch4 : DmaSems sig S_ := SemArray.consecutive 5 S_ hcc1_scratch4
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
abbrev cc1_scoped5 : DmaSems sig S_ := SemArray.consecutive 11 S_ hcc1_scoped5
abbrev cc1_scoped6 : DmaSems sig S_ := SemArray.consecutive 12 S_ hcc1_scoped6
abbrev cc1_scoped7 : DmaSems sig S_ := SemArray.consecutive 13 S_ hcc1_scoped7
abbrev cc1_scoped8 : DmaSems sig S_ := SemArray.consecutive 14 S_ hcc1_scoped8
abbrev cc1_scoped9 : DmaSems sig S_ := SemArray.consecutive 15 S_ hcc1_scoped9
abbrev cc1_scoped10 : DmaSems sig S_ := SemArray.consecutive 16 S_ hcc1_scoped10
abbrev cc1_scoped11 : DmaSems sig S_ := SemArray.consecutive 17 S_ hcc1_scoped11
abbrev cc1_scoped12 : DmaSems sig S_ := SemArray.consecutive 18 S_ hcc1_scoped12
abbrev cc1_scoped13 : DmaSems sig S_ := SemArray.consecutive 19 S_ hcc1_scoped13
abbrev cc1_scoped14 : DmaSems sig S_ := SemArray.consecutive 20 S_ hcc1_scoped14
abbrev cc1_scoped15 : DmaSems sig S_ := SemArray.consecutive 21 S_ hcc1_scoped15
abbrev cc1_scoped16 : DmaSems sig S_ := SemArray.consecutive 22 S_ hcc1_scoped16
abbrev cc1_scoped17 : DmaSems sig S_ := SemArray.consecutive 23 S_ hcc1_scoped17
abbrev cc1_scoped18 : DmaSems sig S_ := SemArray.consecutive 24 S_ hcc1_scoped18
abbrev cc1_scoped19 : DmaSems sig S_ := SemArray.consecutive 25 S_ hcc1_scoped19
abbrev cc1_scoped20 : DmaSems sig S_ := SemArray.consecutive 26 S_ hcc1_scoped20
abbrev cc1_scoped21 : DmaSems sig S_ := SemArray.consecutive 27 S_ hcc1_scoped21
abbrev cc1_scoped22 : DmaSems sig S_ := SemArray.consecutive 28 S_ hcc1_scoped22
abbrev cc1_scoped23 : DmaSems sig S_ := SemArray.consecutive 29 S_ hcc1_scoped23
abbrev cc1_scoped24 : DmaSems sig S_ := SemArray.consecutive 30 S_ hcc1_scoped24

abbrev win0 : Fin 0 → Pipeline.Window sig grid0 := Fin.elim0
abbrev spec0 : Fin 0 → Pipeline.WinSpec sig grid0.rank := Fin.elim0

abbrev win2_0 : Pipeline.Window sig grid2 :=
  Pipeline.Window.ofSpec (Memref.whole main_v26_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_2) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_3) S2048x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26_4) S2048x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2048x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1000000x64 : Shape := ⟨2, ![1000000, 64]⟩
abbrev S1000x64 : Shape := ⟨2, ![1000, 64]⟩
abbrev S16384 : Shape := ⟨1, ![16384]⟩
abbrev S_ : Shape := ⟨0, ![]⟩
abbrev S1000000 : Shape := ⟨1, ![1000000]⟩
abbrev S1000000x1 : Shape := ⟨2, ![1000000, 1]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 153
  | .vmem => 0
  | .smem => 0
  | _ => 0

abbrev hbmTy0_0 (i : Nat) : BufTy := match i % 128 with
  | 0 => ⟨S1000000x64, .f32⟩
  | 1 => ⟨S1000x64, .f32⟩
  | 2 => ⟨S16384, .i32⟩
  | 3 => ⟨S16384, .i32⟩
  | 4 => ⟨S16384, .i32⟩
  | 5 => ⟨S16384, .i32⟩
  | 6 => ⟨S16384, .i32⟩
  | 7 => ⟨S1000000x64, .f32⟩
  | 8 => ⟨S_, .f32⟩
  | 9 => ⟨S1000000, .f32⟩
  | 10 => ⟨S1000000x1, .f32⟩
  | 11 => ⟨S1000000x1, .f32⟩
  | 12 => ⟨S_, .f32⟩
  | 13 => ⟨S1000000x1, .f32⟩
  | 14 => ⟨S1000000x1, .f32⟩
  | 15 => ⟨S1000000x64, .f32⟩
  | 16 => ⟨S1000000x64, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x64, .f32⟩
  | 36 => ⟨S16384x64, .i1⟩
  | 37 => ⟨S_, .f32⟩
  | 38 => ⟨S16384x64, .f32⟩
  | 39 => ⟨S16384x64, .f32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x64, .f32⟩
  | 59 => ⟨S16384x64, .i1⟩
  | 60 => ⟨S_, .f32⟩
  | 61 => ⟨S16384x64, .f32⟩
  | 62 => ⟨S16384x64, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S1, .i32⟩
  | 72 => ⟨S_, .i32⟩
  | 73 => ⟨S16384x1, .i32⟩
  | 74 => ⟨S16384x1, .i1⟩
  | 75 => ⟨S1x1, .i32⟩
  | 76 => ⟨S16384x1, .i32⟩
  | 77 => ⟨S16384x1, .i1⟩
  | 78 => ⟨S16384x1, .i1⟩
  | 79 => ⟨S_, .i1⟩
  | 80 => ⟨S16384, .i1⟩
  | 81 => ⟨S16384x64, .f32⟩
  | 82 => ⟨S16384x64, .i1⟩
  | 83 => ⟨S_, .f32⟩
  | 84 => ⟨S16384x64, .f32⟩
  | 85 => ⟨S16384x64, .f32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S1, .i32⟩
  | 95 => ⟨S_, .i32⟩
  | 96 => ⟨S16384x1, .i32⟩
  | 97 => ⟨S16384x1, .i1⟩
  | 98 => ⟨S1x1, .i32⟩
  | 99 => ⟨S16384x1, .i32⟩
  | 100 => ⟨S16384x1, .i1⟩
  | 101 => ⟨S16384x1, .i1⟩
  | 102 => ⟨S_, .i1⟩
  | 103 => ⟨S16384, .i1⟩
  | 104 => ⟨S16384x64, .f32⟩
  | 105 => ⟨S16384x64, .i1⟩
  | 106 => ⟨S_, .f32⟩
  | 107 => ⟨S16384x64, .f32⟩
  | 108 => ⟨S16384x64, .f32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S1, .i32⟩
  | 118 => ⟨S_, .i32⟩
  | 119 => ⟨S16384x1, .i32⟩
  | 120 => ⟨S16384x1, .i1⟩
  | 121 => ⟨S1x1, .i32⟩
  | 122 => ⟨S16384x1, .i32⟩
  | 123 => ⟨S16384x1, .i1⟩
  | 124 => ⟨S16384x1, .i1⟩
  | 125 => ⟨S_, .i1⟩
  | 126 => ⟨S16384, .i1⟩
  | 127 => ⟨S16384x64, .f32⟩
  | _ => ⟨S1000000x64, .f32⟩

abbrev hbmTy0_1 (i : Nat) : BufTy := match i % 128 with
  | 0 => ⟨S16384x64, .i1⟩
  | 1 => ⟨S_, .f32⟩
  | 2 => ⟨S16384x64, .f32⟩
  | 3 => ⟨S16384x64, .f32⟩
  | 4 => ⟨S16384x64, .f32⟩
  | 5 => ⟨S16384x64, .f32⟩
  | 6 => ⟨S16384x64, .f32⟩
  | 7 => ⟨S_, .f32⟩
  | 8 => ⟨S16384, .f32⟩
  | 9 => ⟨S16384x64, .f32⟩
  | 10 => ⟨S16384x64, .f32⟩
  | 11 => ⟨S16384x64, .f32⟩
  | 12 => ⟨S_, .f32⟩
  | 13 => ⟨S16384, .f32⟩
  | 14 => ⟨S_, .f32⟩
  | 15 => ⟨S16384, .f32⟩
  | 16 => ⟨S16384, .f32⟩
  | 17 => ⟨S16384, .f32⟩
  | 18 => ⟨S_, .f32⟩
  | 19 => ⟨S16384, .f32⟩
  | 20 => ⟨S16384, .f32⟩
  | 21 => ⟨S_, .f32⟩
  | 22 => ⟨S_, .f32⟩
  | 23 => ⟨S_, .f32⟩
  | 24 => ⟨S_, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v5 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v6 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v7 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v8 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_call5_cst : Ref sig .tc := ⟨.hbm, 129, rfl⟩
abbrev main_call5_v15 : Ref sig .tc := ⟨.hbm, 130, rfl⟩
abbrev main_v9 : Ref sig .tc := ⟨.hbm, 131, rfl⟩
abbrev main_v10 : Ref sig .tc := ⟨.hbm, 132, rfl⟩
abbrev main_v11 : Ref sig .tc := ⟨.hbm, 133, rfl⟩
abbrev main_v12 : Ref sig .tc := ⟨.hbm, 134, rfl⟩
abbrev main_cst_0 : Ref sig .tc := ⟨.hbm, 135, rfl⟩
abbrev main_v13 : Ref sig .tc := ⟨.hbm, 136, rfl⟩
abbrev main_v14 : Ref sig .tc := ⟨.hbm, 137, rfl⟩
abbrev main_v15 : Ref sig .tc := ⟨.hbm, 138, rfl⟩
abbrev main_v16 : Ref sig .tc := ⟨.hbm, 139, rfl⟩
abbrev main_cst_1 : Ref sig .tc := ⟨.hbm, 140, rfl⟩
abbrev main_v17 : Ref sig .tc := ⟨.hbm, 141, rfl⟩
abbrev main_cst_2 : Ref sig .tc := ⟨.hbm, 142, rfl⟩
abbrev main_v18 : Ref sig .tc := ⟨.hbm, 143, rfl⟩
abbrev main_v19 : Ref sig .tc := ⟨.hbm, 144, rfl⟩
abbrev main_v20 : Ref sig .tc := ⟨.hbm, 145, rfl⟩
abbrev main_cst_3 : Ref sig .tc := ⟨.hbm, 146, rfl⟩
abbrev main_v21 : Ref sig .tc := ⟨.hbm, 147, rfl⟩
abbrev main_v22 : Ref sig .tc := ⟨.hbm, 148, rfl⟩
abbrev main_cst_4 : Ref sig .tc := ⟨.hbm, 149, rfl⟩
abbrev main_v23 : Ref sig .tc := ⟨.hbm, 150, rfl⟩
abbrev main_cst_5 : Ref sig .tc := ⟨.hbm, 151, rfl⟩
abbrev main_v24 : Ref sig .tc := ⟨.hbm, 152, rfl⟩

abbrev nD : Nat := 1
abbrev τ : Topo := Topo.v7x

variable {F : FTy → Type} [FloatOps F]

class Facts₀ : Prop where
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf

class Facts : Prop extends Facts₀ where

variable [Facts]
-- ==== Proof.Common.lean ====
/-
  What every module of this proof shares: the program as the SparseCore launch theorem sees it (its configuration, the
  body table of its three kernels, the variants), and the resource algebra — the launch handshakes' rounds, the
  TensorCore pipelines' rounds, and the counters of the kernels' own copies, side by side.
-/
import proofs.«205037_g73117523247527_cont_9to1c4b_608_48_alg».proof.Defs
import proofs.«205037_g73117523247527_cont_9to1c4b_608_48_alg».proof.Proof.Gen.KernelIdeal
import proofs.«205037_g73117523247527_cont_9to1c4b_608_48_alg».proof.Proof.Gen.KernelIdeal.Skeleton
import proofs.«205037_g73117523247527_cont_9to1c4b_608_48_alg».proof.Proof.Gen.KernelIdeal.Launch
import proofs.«205037_g73117523247527_cont_9to1c4b_608_48_alg».proof.Proof.Gen.KernelIdeal.Points
import proofs.«205037_g73117523247527_cont_9to1c4b_608_48_alg».proof.Proof.Gen.KernelIdeal.Loops
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernels' own. -/
abbrev ΛP : Labels := Pipeline.Sig Λ₀ (Fin 2) fun p => (pcfgs (F := F) p).Adm
/-- The one SparseCore call (the row gather on 2 × 16 vector subcores). -/
abbrev K : SparseCore.Cfg τ sig (ΛP (F := F)) 1 := sc (F := F)
theorem nCore_zero : (K (F := F)).nCore 0 = 2 := rfl
theorem nSub_zero : (K (F := F)).nSub 0 = 16 := rfl
/-- The body table under the pipelines' labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' rounds. -/
abbrev UP : Type := URounds (GSem nD τ sig) Unit
/-- Handshakes, then pipelines beside the copies' counters. -/
abbrev UU : Type := UH × (UP × Counters)

/-- The handshakes' rounds are the left factor. -/
abbrev EH : Emb UH (MT nD τ sig (HIx 1) (Elt F) ℕ UU ℕ) := embL
/-- The pipelines' rounds are the left factor of the right factor. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KI

end
-- ==== Proof.HostOps.lean ====
/-
  The host operations of @main, stretch by stretch, in program order: each list is the run of consecutive
  StableHLO operations between two lines of @main that are no host operation (in order: Prog.lift (.customCall (SparseCore.inner (Pipeline.entry 0)) ()) ; sc.run d 0 ; Prog.lift (.customCall (SparseCore.inner (Pipeline.entry 1)) ())),
  every operation spelt as the program prints it, a module-local function's operations listed at its call over
  that call's buffer record. A table: nothing is proved here.
-/
import proofs.«205037_g73117523247527_cont_9to1c4b_608_48_alg».proof.Proof.Common

noncomputable section

namespace Cert.Proof.KI

open Cert.KernelIdeal Cert.KernelIdeal.Gen
open Idealize.ShloMosaic

variable {F : FTy → Type} [FloatOps F]

/-- 5 operations. -/
abbrev opsA1 : List (HloOp τ sig (Elt F)) :=
  [ StableHlo.unary main_arg0 main_v0 ((transpose S64x1000000 [1, 0] · transposes_S1000000x64_S64x1000000_1_0) : (⟨S1000000x64, .f32⟩ : BufTy).Contents (Elt F) → (⟨S64x1000000, .f32⟩ : BufTy).Contents (Elt F)),
    StableHlo.unary main_arg0 main_v1 ((extractStridedSlice S1600x64 ![998400, 0] · slices_S1000000x64_S1600x64_998400_0) : (⟨S1000000x64, .f32⟩ : BufTy).Contents (Elt F) → (⟨S1600x64, .f32⟩ : BufTy).Contents (Elt F)),
    StableHlo.unary main_v1 main_v2 ((extractStridedSlice S800x64 ![0, 0] · slices_S1600x64_S800x64_0_0) : (⟨S1600x64, .f32⟩ : BufTy).Contents (Elt F) → (⟨S800x64, .f32⟩ : BufTy).Contents (Elt F)),
    StableHlo.unary main_v1 main_v3 ((extractStridedSlice S800x64 ![800, 0] · slices_S1600x64_S800x64_800_0) : (⟨S1600x64, .f32⟩ : BufTy).Contents (Elt F) → (⟨S800x64, .f32⟩ : BufTy).Contents (Elt F)),
    StableHlo.binary main_v2 main_v3 main_v4 ((fun a b => concatenate S800x128 1 [⟨S800x64, a⟩, ⟨S800x64, b⟩] concatenates_S800x64_S800x64_S800x128_d1) : (⟨S800x64, .f32⟩ : BufTy).Contents (Elt F) → (⟨S800x64, .f32⟩ : BufTy).Contents (Elt F) → (⟨S800x128, .f32⟩ : BufTy).Contents (Elt F)) ]

/-- 100 operations. -/
abbrev opsA2 : List (HloOp τ sig (Elt F)) :=
  [ StableHlo.reshape main_arg1 main_v6 rfl shapeCasts_S1000x64_S500x128,
    StableHlo.nary ![main_arg2, main_arg4, main_arg5, main_arg6] main_v7 (fun u => concatenate S65536 0 [⟨S16384, u 0⟩, ⟨S16384, u 1⟩, ⟨S16384, u 2⟩, ⟨S16384, u 3⟩] concatenates_S16384_S16384_S16384_S16384_S65536_d0),
    StableHlo.nullary main_c (constantI S_ 32 12800#32),
    StableHlo.TRef.unary (.of main_c : StableHlo.TRef sig ⟨S_, .i32⟩) main_call0.v0 id,
    StableHlo.TRef.unary main_call0.v0 main_call0.v1 (broadcastInDim S65536 ![] bcast_S_S65536),
    StableHlo.TRef.binary (.of main_v7 : StableHlo.TRef sig ⟨S65536, .i32⟩) main_call0.v1 main_call0.v2 Host.divsi,
    StableHlo.TRef.unary (.of main_v7 : StableHlo.TRef sig ⟨S65536, .i32⟩) main_call0.v3 signi,
    StableHlo.TRef.unary main_call0.v0 main_call0.v4 signi,
    StableHlo.TRef.unary main_call0.v4 main_call0.v5 (broadcastInDim S65536 ![] bcast_S_S65536),
    StableHlo.TRef.binary main_call0.v3 main_call0.v5 main_call0.v6 (cmpi .ne),
    StableHlo.TRef.unary main_call0.v0 main_call0.v7 (broadcastInDim S65536 ![] bcast_S_S65536),
    StableHlo.TRef.binary (.of main_v7 : StableHlo.TRef sig ⟨S65536, .i32⟩) main_call0.v7 main_call0.v8 Host.remsi,
    StableHlo.TRef.nullary main_call0.c (constantI S_ 32 0#32),
    StableHlo.TRef.unary main_call0.c main_call0.v9 (broadcastInDim S65536 ![] bcast_S_S65536),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S65536 ![] bcast_S_S65536),
    StableHlo.TRef.binary main_call0.v2 main_call0.v12 main_call0.v13 subi,
    StableHlo.TRef.ternary main_call0.v11 main_call0.v13 main_call0.v2 main_call0.call0.v0 select,
    StableHlo.nullary main_c_0 (constantI S_ 32 12800#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S65536 ![] bcast_S_S65536),
    StableHlo.TRef.binary (.of main_v7 : StableHlo.TRef sig ⟨S65536, .i32⟩) main_call1.v3 main_call1.v4 Host.remsi,
    StableHlo.TRef.nullary main_call1.c_1 (constantI S_ 32 0#32),
    StableHlo.TRef.unary main_call1.c_1 main_call1.v5 (broadcastInDim S65536 ![] bcast_S_S65536),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S65536 ![] bcast_S_S65536),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S65536 ![] bcast_S_S65536),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S65536 ![] bcast_S_S65536),
    StableHlo.TRef.binary main_call1.v4 main_call1.v13 main_call1.v14 addi,
    StableHlo.TRef.ternary main_call1.v12 main_call1.v14 main_call1.v4 main_call1.v15 select,
    StableHlo.nullary main_c_1 (constantI S_ 32 78#32),
    StableHlo.unary main_c_1 main_v10 (broadcastInDim S65536 ![] bcast_S_S65536 : (⟨S_, .i32⟩ : BufTy).Contents (Elt F) → (⟨S65536, .i32⟩ : BufTy).Contents (Elt F)),
    StableHlo.binary main_v8 main_v10 main_v11 (cmpi .sge : (⟨S65536, .i32⟩ : BufTy).Contents (Elt F) → (⟨S65536, .i32⟩ : BufTy).Contents (Elt F) → (⟨S65536, .i1⟩ : BufTy).Contents (Elt F)),
    StableHlo.nullary main_c_2 (constantI S_ 32 800#32),
    StableHlo.nullary main_c_3 (constantI S_ 32 6400#32),
    StableHlo.TRef.unary (.of main_c_2 : StableHlo.TRef sig ⟨S_, .i32⟩) main_call2.v0 (broadcastInDim S65536 ![] bcast_S_S65536),
    StableHlo.TRef.unary (.of main_c_3 : StableHlo.TRef sig ⟨S_, .i32⟩) main_call2.v1 (broadcastInDim S65536 ![] bcast_S_S65536),
    StableHlo.TRef.ternary (.of main_v11 : StableHlo.TRef sig ⟨S65536, .i1⟩) main_call2.v0 main_call2.v1 main_call2.v2 select,
    StableHlo.nullary main_c_4 (constantI S_ 32 78#32),
    StableHlo.unary main_c_4 main_v13 (broadcastInDim S65536 ![] bcast_S_S65536 : (⟨S_, .i32⟩ : BufTy).Contents (Elt F) → (⟨S65536, .i32⟩ : BufTy).Contents (Elt F)),
    StableHlo.binary main_v8 main_v13 main_v14 (minsi : (⟨S65536, .i32⟩ : BufTy).Contents (Elt F) → (⟨S65536, .i32⟩ : BufTy).Contents (Elt F) → (⟨S65536, .i32⟩ : BufTy).Contents (Elt F)),
    StableHlo.nullary main_c_5 (constantI S_ 32 6400#32),
    StableHlo.unary main_c_5 main_v15 (broadcastInDim S65536 ![] bcast_S_S65536 : (⟨S_, .i32⟩ : BufTy).Contents (Elt F) → (⟨S65536, .i32⟩ : BufTy).Contents (Elt F)),
    StableHlo.binary main_v14 main_v15 main_v16 (muli : (⟨S65536, .i32⟩ : BufTy).Contents (Elt F) → (⟨S65536, .i32⟩ : BufTy).Contents (Elt F) → (⟨S65536, .i32⟩ : BufTy).Contents (Elt F)),
    StableHlo.TRef.unary (.of main_v12 : StableHlo.TRef sig ⟨S65536, .i32⟩) main_call3.v0 id,
    StableHlo.TRef.nullary main_call3.c (constantI S_ 32 0#32),
    StableHlo.TRef.unary main_call3.c main_call3.v1 (broadcastInDim S65536 ![] bcast_S_S65536),
    StableHlo.TRef.binary main_call3.v0 main_call3.v1 main_call3.v2 (cmpi .eq),
    StableHlo.TRef.nullary main_call3.c_0 (constantI S_ 32 1#32),
    StableHlo.TRef.unary main_call3.c_0 main_call3.v3 (broadcastInDim S65536 ![] bcast_S_S65536),
    StableHlo.TRef.ternary main_call3.v2 main_call3.v3 main_call3.v0 main_call3.call0.v0 select,
    StableHlo.TRef.binary (.of main_v9 : StableHlo.TRef sig ⟨S65536, .i32⟩) main_call3.call0.v0 main_call3.v5 Host.remsi,
    StableHlo.TRef.nullary main_call3.c_1 (constantI S_ 32 0#32),
    StableHlo.TRef.unary main_call3.c_1 main_call3.v6 (broadcastInDim S65536 ![] bcast_S_S65536),
    StableHlo.TRef.binary main_call3.v5 main_call3.v6 main_call3.v7 (cmpi .ne),
    StableHlo.TRef.nullary main_call3.c_2 (constantI S_ 32 0#32),
    StableHlo.TRef.unary main_call3.c_2 main_call3.v8 (broadcastInDim S65536 ![] bcast_S_S65536),
    StableHlo.TRef.binary main_call3.v5 main_call3.v8 main_call3.v9 (cmpi .slt),
    StableHlo.TRef.nullary main_call3.c_3 (constantI S_ 32 0#32),
    StableHlo.TRef.unary main_call3.c_3 main_call3.v10 (broadcastInDim S65536 ![] bcast_S_S65536),
    StableHlo.TRef.binary main_call3.call0.v0 main_call3.v10 main_call3.v11 (cmpi .slt),
    StableHlo.TRef.binary main_call3.v9 main_call3.v11 main_call3.v12 (cmpi .ne),
    StableHlo.TRef.binary main_call3.v12 main_call3.v7 main_call3.v13 andi,
    StableHlo.TRef.binary main_call3.v5 main_call3.call0.v0 main_call3.v14 addi,
    StableHlo.TRef.ternary main_call3.v13 main_call3.v14 main_call3.v5 main_call3.v15 select,
    StableHlo.binary main_v16 main_v17 main_v18 (addi : (⟨S65536, .i32⟩ : BufTy).Contents (Elt F) → (⟨S65536, .i32⟩ : BufTy).Contents (Elt F) → (⟨S65536, .i32⟩ : BufTy).Contents (Elt F)),
    StableHlo.TRef.unary (.of main_v12 : StableHlo.TRef sig ⟨S65536, .i32⟩) main_call4.v0 id,
    StableHlo.TRef.binary (.of main_v9 : StableHlo.TRef sig ⟨S65536, .i32⟩) main_call4.v0 main_call4.v1 Host.divsi,
    StableHlo.TRef.unary (.of main_v9 : StableHlo.TRef sig ⟨S65536, .i32⟩) main_call4.v2 signi,
    StableHlo.TRef.unary main_call4.v0 main_call4.v3 signi,
    StableHlo.TRef.binary main_call4.v2 main_call4.v3 main_call4.v4 (cmpi .ne),
    StableHlo.TRef.binary (.of main_v9 : StableHlo.TRef sig ⟨S65536, .i32⟩) main_call4.v0 main_call4.v5 Host.remsi,
    StableHlo.TRef.nullary main_call4.c (constantI S_ 32 0#32),
    StableHlo.TRef.unary main_call4.c main_call4.v6 (broadcastInDim S65536 ![] bcast_S_S65536),
    StableHlo.TRef.binary main_call4.v5 main_call4.v6 main_call4.v7 (cmpi .ne),
    StableHlo.TRef.binary main_call4.v4 main_call4.v7 main_call4.v8 andi,
    StableHlo.TRef.nullary main_call4.c_0 (constantI S_ 32 1#32),
    StableHlo.TRef.unary main_call4.c_0 main_call4.v9 (broadcastInDim S65536 ![] bcast_S_S65536),
    StableHlo.TRef.binary main_call4.v1 main_call4.v9 main_call4.v10 subi,
    StableHlo.TRef.ternary main_call4.v8 main_call4.v10 main_call4.v1 main_call4.call0.v0 select,
    StableHlo.nullary main_c_6 (constantI S_ 32 1#32),
    StableHlo.unary main_c_6 main_v20 (broadcastInDim S16384 ![] bcast_S_S16384 : (⟨S_, .i32⟩ : BufTy).Contents (Elt F) → (⟨S16384, .i32⟩ : BufTy).Contents (Elt F)),
    StableHlo.binary main_arg3 main_v20 main_v21 (Host.shrsi : (⟨S16384, .i32⟩ : BufTy).Contents (Elt F) → (⟨S16384, .i32⟩ : BufTy).Contents (Elt F) → (⟨S16384, .i32⟩ : BufTy).Contents (Elt F)),
    StableHlo.nullary main_c_7 (constantI S_ 32 1#32),
    StableHlo.unary main_c_7 main_v22 (broadcastInDim S16384 ![] bcast_S_S16384 : (⟨S_, .i32⟩ : BufTy).Contents (Elt F) → (⟨S16384, .i32⟩ : BufTy).Contents (Elt F)),
    StableHlo.binary main_arg3 main_v22 main_v23 (andi : (⟨S16384, .i32⟩ : BufTy).Contents (Elt F) → (⟨S16384, .i32⟩ : BufTy).Contents (Elt F) → (⟨S16384, .i32⟩ : BufTy).Contents (Elt F)),
    StableHlo.reshape main_v18 main_v24 rfl shapeCasts_S65536_S512x128,
    StableHlo.reshape main_v21 main_v25 rfl shapeCasts_S16384_S128x128 ]

/-- 26 operations. -/
abbrev opsB1 : List (HloOp τ sig (Elt F)) :=
  [ StableHlo.reshape main_v19 main_v27 rfl shapeCasts_S65536_S4x16384,
    StableHlo.unary main_v27 main_v28 ((extractStridedSlice S1x16384 ![0, 0] · slices_S4x16384_S1x16384_0_0) : (⟨S4x16384, .i32⟩ : BufTy).Contents (Elt F) → (⟨S1x16384, .i32⟩ : BufTy).Contents (Elt F)),
    StableHlo.reshape main_v28 main_v29 rfl shapeCasts_S1x16384_S16384,
    StableHlo.unary main_v27 main_v30 ((extractStridedSlice S1x16384 ![1, 0] · slices_S4x16384_S1x16384_1_0) : (⟨S4x16384, .i32⟩ : BufTy).Contents (Elt F) → (⟨S1x16384, .i32⟩ : BufTy).Contents (Elt F)),
    StableHlo.reshape main_v30 main_v31 rfl shapeCasts_S1x16384_S16384,
    StableHlo.nullary main_c_8 (constantI S_ 32 1#32),
    StableHlo.unary main_c_8 main_v32 (broadcastInDim S16384 ![] bcast_S_S16384 : (⟨S_, .i32⟩ : BufTy).Contents (Elt F) → (⟨S16384, .i32⟩ : BufTy).Contents (Elt F)),
    StableHlo.binary main_v31 main_v32 main_v33 (Host.shli : (⟨S16384, .i32⟩ : BufTy).Contents (Elt F) → (⟨S16384, .i32⟩ : BufTy).Contents (Elt F) → (⟨S16384, .i32⟩ : BufTy).Contents (Elt F)),
    StableHlo.binary main_v29 main_v33 main_v34 (ori : (⟨S16384, .i32⟩ : BufTy).Contents (Elt F) → (⟨S16384, .i32⟩ : BufTy).Contents (Elt F) → (⟨S16384, .i32⟩ : BufTy).Contents (Elt F)),
    StableHlo.unary main_v27 main_v35 ((extractStridedSlice S1x16384 ![2, 0] · slices_S4x16384_S1x16384_2_0) : (⟨S4x16384, .i32⟩ : BufTy).Contents (Elt F) → (⟨S1x16384, .i32⟩ : BufTy).Contents (Elt F)),
    StableHlo.reshape main_v35 main_v36 rfl shapeCasts_S1x16384_S16384,
    StableHlo.nullary main_c_9 (constantI S_ 32 2#32),
    StableHlo.unary main_c_9 main_v37 (broadcastInDim S16384 ![] bcast_S_S16384 : (⟨S_, .i32⟩ : BufTy).Contents (Elt F) → (⟨S16384, .i32⟩ : BufTy).Contents (Elt F)),
    StableHlo.binary main_v36 main_v37 main_v38 (Host.shli : (⟨S16384, .i32⟩ : BufTy).Contents (Elt F) → (⟨S16384, .i32⟩ : BufTy).Contents (Elt F) → (⟨S16384, .i32⟩ : BufTy).Contents (Elt F)),
    StableHlo.binary main_v34 main_v38 main_v39 (ori : (⟨S16384, .i32⟩ : BufTy).Contents (Elt F) → (⟨S16384, .i32⟩ : BufTy).Contents (Elt F) → (⟨S16384, .i32⟩ : BufTy).Contents (Elt F)),
    StableHlo.unary main_v27 main_v40 ((extractStridedSlice S1x16384 ![3, 0] · slices_S4x16384_S1x16384_3_0) : (⟨S4x16384, .i32⟩ : BufTy).Contents (Elt F) → (⟨S1x16384, .i32⟩ : BufTy).Contents (Elt F)),
    StableHlo.reshape main_v40 main_v41 rfl shapeCasts_S1x16384_S16384,
    StableHlo.nullary main_c_10 (constantI S_ 32 3#32),
    StableHlo.unary main_c_10 main_v42 (broadcastInDim S16384 ![] bcast_S_S16384 : (⟨S_, .i32⟩ : BufTy).Contents (Elt F) → (⟨S16384, .i32⟩ : BufTy).Contents (Elt F)),
    StableHlo.binary main_v41 main_v42 main_v43 (Host.shli : (⟨S16384, .i32⟩ : BufTy).Contents (Elt F) → (⟨S16384, .i32⟩ : BufTy).Contents (Elt F) → (⟨S16384, .i32⟩ : BufTy).Contents (Elt F)),
    StableHlo.binary main_v39 main_v43 main_v44 (ori : (⟨S16384, .i32⟩ : BufTy).Contents (Elt F) → (⟨S16384, .i32⟩ : BufTy).Contents (Elt F) → (⟨S16384, .i32⟩ : BufTy).Contents (Elt F)),
    StableHlo.nullary main_c_11 (constantI S_ 32 4#32),
    StableHlo.unary main_c_11 main_v45 (broadcastInDim S16384 ![] bcast_S_S16384 : (⟨S_, .i32⟩ : BufTy).Contents (Elt F) → (⟨S16384, .i32⟩ : BufTy).Contents (Elt F)),
    StableHlo.binary main_v23 main_v45 main_v46 (Host.shli : (⟨S16384, .i32⟩ : BufTy).Contents (Elt F) → (⟨S16384, .i32⟩ : BufTy).Contents (Elt F) → (⟨S16384, .i32⟩ : BufTy).Contents (Elt F)),
    StableHlo.binary main_v44 main_v46 main_v47 (ori : (⟨S16384, .i32⟩ : BufTy).Contents (Elt F) → (⟨S16384, .i32⟩ : BufTy).Contents (Elt F) → (⟨S16384, .i32⟩ : BufTy).Contents (Elt F)),
    StableHlo.reshape main_v47 main_v48 rfl shapeCasts_S16384_S16384x1 ]

/-- 1 operations. -/
abbrev opsB2 : List (HloOp τ sig (Elt F)) :=
  [ StableHlo.reshape main_v49 main_v50 rfl shapeCasts_S1x1_S_ ]

end Cert.Proof.KI

end
-- ==== Proof.IdxArith.lean ====
/-
  Pure facts about 32-bit words: the index arithmetic that sends an entity index to a row of the
  table packed two rows to one and to the half of that row it lies in, the same for a relation index,
  and the packing of five half-selectors into one word with its reading back bit by bit.

  An entity index `e` in `[0, 1000000)` lies in block `e / 12800` at offset `e % 12800`. The first 78
  blocks are full: block `b` holds its first 6400 entities in the left halves of packed rows
  `6400 b … 6400 b + 6399` and its last 6400 in the right halves. What is left, the 1600 entities from
  998400 on, is packed the same way at half width 800 from packed row 499200 on. So the packed row is
  `min (e / 12800) 78 * 6400 + (e % 12800) % h` and the half is `(e % 12800) / h`, with `h = 800` in
  the tail and `6400` before it. A relation index `r` lies in packed row `r / 2`, half `r % 2`.

  The divisions and remainders are the floor division and the remainder of the divisor's sign, each
  computed from the truncating operation and a correction by the signs; on a non-negative dividend
  and a positive divisor the correction never fires and both are the unsigned operations.
-/
import Idealize.ShloMosaic.PureOps.Vector

namespace Cert.Proof.IdxArith
open Idealize.ShloMosaic

/-! ## The scalar word expressions, one element of each elementwise array operation -/

/-- The sign of a word read as a two's-complement integer: `-1`, `0` or `1`. -/
def sgnW (x : BitVec 32) : BitVec 32 := if x = 0 then 0 else if x.msb then -1 else 1

/-- Floor division of words: the truncating quotient, less one where the signs of dividend and
    divisor differ and the truncating remainder is not zero. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32)
    (IntOp.divsi .host x d)

/-- A divisor with zero replaced by one. -/
def nzW (d : BitVec 32) : BitVec 32 := Scalar.select (IntOp.cmpi .eq d 0#32) 1#32 d

/-- The remainder with the divisor's sign: the truncating remainder by the divisor made nonzero,
    plus that divisor where the remainder is not zero and its sign differs from the divisor's. -/
def floorModW (x d : BitVec 32) : BitVec 32 :=
  Scalar.select
    (IntOp.andi
      (IntOp.cmpi .ne (IntOp.cmpi .slt (IntOp.remsi .host x (nzW d)) 0#32) (IntOp.cmpi .slt (nzW d) 0#32))
      (IntOp.cmpi .ne (IntOp.remsi .host x (nzW d)) 0#32))
    (IntOp.addi (IntOp.remsi .host x (nzW d)) (nzW d))
    (IntOp.remsi .host x (nzW d))

/-- The block of an entity index: `e // 12800`. -/
def blkW (w : BitVec 32) : BitVec 32 := floorDivW w 12800#32
/-- The offset of an entity index in its block: `e % 12800`. -/
def remW (w : BitVec 32) : BitVec 32 := floorModW w 12800#32
/-- The half width of the block: 800 in the tail (block 78 on), 6400 before it. -/
def hwW (w : BitVec 32) : BitVec 32 := Scalar.select (IntOp.cmpi .sge (blkW w) 78#32) 800#32 6400#32
/-- The packed row of an entity index. -/
def epairW (w : BitVec 32) : BitVec 32 :=
  IntOp.addi (IntOp.muli (IntOp.minsi (blkW w) 78#32) 6400#32) (floorModW (remW w) (hwW w))
/-- The half of its packed row an entity index lies in. -/
def eparW (w : BitVec 32) : BitVec 32 := floorDivW (remW w) (hwW w)
/-- The packed row of a relation index: `r >> 1`. -/
def rpairW (r : BitVec 32) : BitVec 32 := IntOp.shrsi .host r 1#32
/-- The half of its packed row a relation index lies in: `r & 1`. -/
def rparW (r : BitVec 32) : BitVec 32 := IntOp.andi r 1#32
/-- Five half-selectors packed into one word: `b0 | b1 << 1 | b2 << 2 | b3 << 3 | b4 << 4`. -/
def packW (b0 b1 b2 b3 b4 : BitVec 32) : BitVec 32 :=
  IntOp.ori (IntOp.ori (IntOp.ori (IntOp.ori b0 (IntOp.shli .host b1 1#32)) (IntOp.shli .host b2 2#32))
    (IntOp.shli .host b3 3#32)) (IntOp.shli .host b4 4#32)
/-- Bit `k` of a packed word, read as a condition: `((p >> k) & 1) != 0`. -/
def readBitW (k p : BitVec 32) : BitVec 1 :=
  IntOp.cmpi .ne (IntOp.andi (IntOp.shrsi .vector p k) 1#32) 0#32

/-! ### The array operations at one index are these expressions (each by unfolding) -/

section Elementwise
variable {s : Shape}

theorem signi_apply (x : IVec s 32) (i : s.Idx) : signi x i = sgnW (x i) := rfl

/-- Floor division as the array operations compute it, at one index. -/
theorem floorDiv_apply (x d : IVec s 32) (i : s.Idx) :
    select (andi (cmpi .ne (signi x) (signi d)) (cmpi .ne (Host.remsi x d) (constantI s 32 0#32)))
      (subi (Host.divsi x d) (constantI s 32 1#32)) (Host.divsi x d) i = floorDivW (x i) (d i) := rfl

/-- The remainder of the divisor's sign as the array operations compute it, at one index. -/
theorem floorMod_apply (x d : IVec s 32) (i : s.Idx) :
    select
      (andi
        (cmpi .ne
          (cmpi .slt (Host.remsi x (select (cmpi .eq d (constantI s 32 0#32)) (constantI s 32 1#32) d))
            (constantI s 32 0#32))
          (cmpi .slt (select (cmpi .eq d (constantI s 32 0#32)) (constantI s 32 1#32) d) (constantI s 32 0#32)))
        (cmpi .ne (Host.remsi x (select (cmpi .eq d (constantI s 32 0#32)) (constantI s 32 1#32) d))
          (constantI s 32 0#32)))
      (addi (Host.remsi x (select (cmpi .eq d (constantI s 32 0#32)) (constantI s 32 1#32) d))
        (select (cmpi .eq d (constantI s 32 0#32)) (constantI s 32 1#32) d))
      (Host.remsi x (select (cmpi .eq d (constantI s 32 0#32)) (constantI s 32 1#32) d)) i
      = floorModW (x i) (d i) := rfl

end Elementwise

/-! ## Small facts about the one-bit conditions -/

theorem select_zero {α : Type} (a b : α) : Scalar.select 0#1 a b = b := by
  unfold Scalar.select; rw [if_neg (by decide)]

theorem select_one {α : Type} (a b : α) : Scalar.select 1#1 a b = a := by
  unfold Scalar.select; rw [if_pos (by decide)]

theorem select_ofBool {α : Type} (c : Bool) (a b : α) :
    Scalar.select (BitVec.ofBool c) a b = if c then a else b := by
  cases c
  · exact select_zero a b
  · exact select_one a b

/-! ## Truncating division and remainder of a non-negative word by a positive one -/

/-- A word whose sign bit is clear and a nonzero divisor whose sign bit is clear are not at the
    corner of signed division. -/
theorem not_corner {x y : BitVec 32} (hx : x.msb = false) (hy0 : y ≠ 0) : ¬ IntOp.SDivCorner x y := by
  rintro (h | ⟨h, -⟩)
  · exact hy0 h
  · rw [h] at hx; exact absurd hx (by decide)

theorem divsi_eq_udiv (u : ArithUnit) {x y : BitVec 32} (hx : x.msb = false) (hy : y.msb = false)
    (hy0 : y ≠ 0) : IntOp.divsi u x y = x / y := by
  unfold IntOp.divsi
  rw [if_neg (not_corner hx hy0), BitVec.sdiv_eq, hx, hy]
  rfl

theorem remsi_eq_umod (u : ArithUnit) {x y : BitVec 32} (hx : x.msb = false) (hy : y.msb = false)
    (hy0 : y ≠ 0) : IntOp.remsi u x y = x % y := by
  unfold IntOp.remsi
  rw [if_neg (not_corner hx hy0), BitVec.srem_eq, hx, hy]

theorem msb_umod_of_msb {x y : BitVec 32} (hx : x.msb = false) : (x % y).msb = false := by
  rw [BitVec.msb_umod, hx]; rfl

theorem sgnW_pos {d : BitVec 32} (hd : d.msb = false) (hd0 : d ≠ 0) : sgnW d = 1 := by
  unfold sgnW; rw [if_neg hd0, hd]; rfl

/-- On a non-negative dividend and a positive divisor floor division is the unsigned division. -/
theorem floorDivW_of_nonneg {x d : BitVec 32} (hx : x.msb = false) (hd : d.msb = false) (hd0 : d ≠ 0) :
    floorDivW x d = x / d := by
  unfold floorDivW
  rw [divsi_eq_udiv .host hx hd hd0, remsi_eq_umod .host hx hd hd0, sgnW_pos hd hd0]
  have hc : IntOp.andi (IntOp.cmpi .ne (sgnW x) 1) (IntOp.cmpi .ne (x % d) 0#32) = 0#1 := by
    by_cases h0 : x = 0
    · subst h0
      have : (0 : BitVec 32) % d = 0#32 := BitVec.zero_umod
      rw [this]
      show _ &&& BitVec.ofBool ((0#32) != 0#32) = 0#1
      exact BitVec.and_zero
    · have : sgnW x = 1 := sgnW_pos hx h0
      rw [this]
      show BitVec.ofBool ((1 : BitVec 32) != 1) &&& _ = 0#1
      exact BitVec.zero_and
  rw [hc, select_zero]

theorem nzW_of_ne {d : BitVec 32} (hd0 : d ≠ 0) : nzW d = d := by
  unfold nzW
  have : IntOp.cmpi .eq d 0#32 = 0#1 := by
    show BitVec.ofBool (d == 0#32) = 0#1
    have hb : (d == 0#32) = false := beq_eq_false_iff_ne.mpr hd0
    rw [hb]; rfl
  rw [this, select_zero]

/-- On a non-negative dividend and a positive divisor the remainder of the divisor's sign is the
    unsigned remainder. -/
theorem floorModW_of_nonneg {x d : BitVec 32} (hx : x.msb = false) (hd : d.msb = false) (hd0 : d ≠ 0) :
    floorModW x d = x % d := by
  unfold floorModW
  rw [nzW_of_ne hd0, remsi_eq_umod .host hx hd hd0]
  have hc : IntOp.cmpi .ne (IntOp.cmpi .slt (x % d) 0#32) (IntOp.cmpi .slt d 0#32) = 0#1 := by
    show BitVec.ofBool (BitVec.ofBool ((x % d).slt 0#32) != BitVec.ofBool (d.slt 0#32)) = 0#1
    rw [BitVec.slt_zero_eq_msb, BitVec.slt_zero_eq_msb, msb_umod_of_msb hx, hd]; rfl
  rw [hc]
  show Scalar.select (0#1 &&& _) _ _ = _
  rw [BitVec.zero_and, select_zero]

/-! ## Words in range -/

theorem msb_of_toInt_nonneg {w : BitVec 32} (h0 : 0 ≤ w.toInt) : w.msb = false := by
  rw [BitVec.msb_eq_toInt]; exact decide_eq_false (by omega)

theorem msb_of_lt {x : BitVec 32} (h : x.toNat < 2147483648) : x.msb = false := by
  have hp : (2 : Nat) ^ 32 = 4294967296 := by decide
  exact BitVec.msb_eq_false_iff_two_mul_lt.mpr (by omega)

theorem slt_of_msb {a b : BitVec 32} (ha : a.msb = false) (hb : b.msb = false) :
    a.slt b = decide (a.toNat < b.toNat) := by
  rw [BitVec.slt_eq_decide, BitVec.toInt_eq_toNat_of_msb ha, BitVec.toInt_eq_toNat_of_msb hb]
  exact decide_eq_decide.mpr Int.ofNat_lt

theorem sle_of_msb {a b : BitVec 32} (ha : a.msb = false) (hb : b.msb = false) :
    a.sle b = decide (a.toNat ≤ b.toNat) := by
  rw [BitVec.sle_eq_decide, BitVec.toInt_eq_toNat_of_msb ha, BitVec.toInt_eq_toNat_of_msb hb]
  exact decide_eq_decide.mpr Int.ofNat_le

/-! ## The entity index -/

/-- What the packed row and the half of an entity index in range are, and how the index is read
    back from them. -/
theorem epair_spec (w : BitVec 32) (h0 : 0 ≤ w.toInt) (h1 : w.toInt ≤ 999999) :
    (epairW w).toNat < 500000 ∧ (eparW w = 0#32 ∨ eparW w = 1#32) ∧
    (if w.toNat < 998400 then
        (epairW w).toNat = w.toNat / 12800 * 6400 + w.toNat % 12800 % 6400 ∧
        (eparW w).toNat = w.toNat % 12800 / 6400
      else
        (epairW w).toNat = 499200 + (w.toNat - 998400) % 800 ∧
        (eparW w).toNat = (w.toNat - 998400) / 800) ∧
    w.toNat =
      (if (epairW w).toNat < 499200 then
        (epairW w).toNat / 6400 * 12800 + (eparW w).toNat * 6400 + (epairW w).toNat % 6400
      else 998400 + (eparW w).toNat * 800 + ((epairW w).toNat - 499200)) := by
  have hm : w.msb = false := msb_of_toInt_nonneg h0
  have hn : w.toNat ≤ 999999 := by
    have := BitVec.toInt_eq_toNat_of_msb hm
    omega
  have hp32 : (2 : Nat) ^ 32 = 4294967296 := by decide
  -- block and offset
  have hblk : blkW w = w / 12800#32 := floorDivW_of_nonneg hm (by decide) (by decide)
  have hrem : remW w = w % 12800#32 := floorModW_of_nonneg hm (by decide) (by decide)
  have hB : (blkW w).toNat = w.toNat / 12800 := by rw [hblk, BitVec.toNat_udiv]; rfl
  have hR : (remW w).toNat = w.toNat % 12800 := by rw [hrem, BitVec.toNat_umod]; rfl
  have hBm : (blkW w).msb = false := msb_of_lt (by omega)
  have hRm : (remW w).msb = false := msb_of_lt (by omega)
  -- the half width
  have hH : hwW w = if 78 ≤ w.toNat / 12800 then 800#32 else 6400#32 := by
    unfold hwW
    show Scalar.select (BitVec.ofBool ((78#32).sle (blkW w))) _ _ = _
    rw [select_ofBool, sle_of_msb (by decide) hBm, hB]
    have h78 : (78#32).toNat = 78 := rfl
    rw [h78]
    simp only [decide_eq_true_eq]
  have hHn : (hwW w).toNat = if 78 ≤ w.toNat / 12800 then 800 else 6400 := by
    rw [hH]; split <;> rfl
  have hHm : (hwW w).msb = false := msb_of_lt (by rw [hHn]; split <;> omega)
  have hH0 : hwW w ≠ 0 := by
    intro h
    have : (hwW w).toNat = 0 := by rw [h]; rfl
    rw [hHn] at this; split at this <;> omega
  -- the block clamped to the tail's
  have hmin : (IntOp.minsi (blkW w) 78#32).toNat = if w.toNat / 12800 < 78 then w.toNat / 12800 else 78 := by
    unfold IntOp.minsi
    rw [slt_of_msb hBm (by decide), hB]
    have h78 : (78#32).toNat = 78 := rfl
    rw [h78]
    by_cases h : w.toNat / 12800 < 78
    · rw [if_pos h, if_pos (by simpa using h), hB]
    · rw [if_neg h, if_neg (by simpa using h)]; rfl
  -- the two results as numbers
  have hP : (epairW w).toNat =
      (if w.toNat / 12800 < 78 then w.toNat / 12800 else 78) * 6400
        + w.toNat % 12800 % (if 78 ≤ w.toNat / 12800 then 800 else 6400) := by
    unfold epairW
    rw [floorModW_of_nonneg hRm hHm hH0]
    show (IntOp.minsi (blkW w) 78#32 * 6400#32 + remW w % hwW w).toNat = _
    rw [BitVec.toNat_add, BitVec.toNat_mul, BitVec.toNat_umod, hmin, hR, hHn]
    have h6400 : (6400#32).toNat = 6400 := rfl
    rw [h6400, hp32]
    split <;> split <;> omega
  have hQ : (eparW w).toNat = w.toNat % 12800 / (if 78 ≤ w.toNat / 12800 then 800 else 6400) := by
    unfold eparW
    rw [floorDivW_of_nonneg hRm hHm hH0, BitVec.toNat_udiv, hR, hHn]
  have hQ01 : (eparW w).toNat = 0 ∨ (eparW w).toNat = 1 := by
    rw [hQ]; split <;> omega
  refine ⟨?_, ?_, ?_, ?_⟩
  · rw [hP]; split <;> split <;> omega
  · rcases hQ01 with h | h
    · exact Or.inl (BitVec.eq_of_toNat_eq (by rw [h]; rfl))
    · exact Or.inr (BitVec.eq_of_toNat_eq (by rw [h]; rfl))
  · rw [hP, hQ]; split <;> split <;> split <;> omega
  · rw [hP, hQ]; split <;> split <;> split <;> omega

/-! ## The relation index -/

/-- What the packed row and the half of a relation index in range are, and how the index is read
    back from them. -/
theorem rpair_spec (r : BitVec 32) (h0 : 0 ≤ r.toInt) (h1 : r.toInt ≤ 999) :
    (rpairW r).toNat < 500 ∧ (rparW r = 0#32 ∨ rparW r = 1#32) ∧
    r.toNat = 2 * (rpairW r).toNat + (rparW r).toNat := by
  have hm : r.msb = false := msb_of_toInt_nonneg h0
  have hn : r.toNat ≤ 999 := by
    have := BitVec.toInt_eq_toNat_of_msb hm
    omega
  have hP : (rpairW r).toNat = r.toNat / 2 := by
    unfold rpairW IntOp.shrsi
    rw [if_pos (by decide), BitVec.sshiftRight_eq', BitVec.sshiftRight_eq_of_msb_false hm,
      BitVec.toNat_ushiftRight, Nat.shiftRight_eq_div_pow]
    rfl
  have hQ : (rparW r).toNat = r.toNat % 2 := by
    unfold rparW IntOp.andi
    rw [BitVec.toNat_and]
    exact Nat.and_one_is_mod _
  refine ⟨by omega, ?_, by omega⟩
  have hQ01 : (rparW r).toNat = 0 ∨ (rparW r).toNat = 1 := by omega
  rcases hQ01 with h | h
  · exact Or.inl (BitVec.eq_of_toNat_eq (by rw [h]; rfl))
  · exact Or.inr (BitVec.eq_of_toNat_eq (by rw [h]; rfl))

/-! ## Packing the five half-selectors and reading them back -/

/-- A choice by a one-bit condition that is set exactly when `P` holds is the choice by `P`. -/
theorem select_eq_ite {α : Type} {c : BitVec 1} {P : Prop} [Decidable P] (h : c = 1#1 ↔ P) (a b : α) :
    Scalar.select c a b = if P then a else b := by
  have h' : c = 1 ↔ P := h
  unfold Scalar.select
  by_cases hP : P
  · rw [if_pos hP, if_pos (h'.mpr hP)]
  · rw [if_neg hP, if_neg (fun hc => hP (h'.mp hc))]

/-- Each of five words that are `0` or `1`, packed at bits 0 … 4 of one word, is read back at its
    bit: the reading is set exactly where the word was `1`. -/
theorem readBit_pack (b0 b1 b2 b3 b4 : BitVec 32)
    (h0 : b0 = 0#32 ∨ b0 = 1#32) (h1 : b1 = 0#32 ∨ b1 = 1#32) (h2 : b2 = 0#32 ∨ b2 = 1#32)
    (h3 : b3 = 0#32 ∨ b3 = 1#32) (h4 : b4 = 0#32 ∨ b4 = 1#32) :
    (readBitW 0#32 (packW b0 b1 b2 b3 b4) = 1#1 ↔ b0 = 1#32) ∧
    (readBitW 1#32 (packW b0 b1 b2 b3 b4) = 1#1 ↔ b1 = 1#32) ∧
    (readBitW 2#32 (packW b0 b1 b2 b3 b4) = 1#1 ↔ b2 = 1#32) ∧
    (readBitW 3#32 (packW b0 b1 b2 b3 b4) = 1#1 ↔ b3 = 1#32) ∧
    (readBitW 4#32 (packW b0 b1 b2 b3 b4) = 1#1 ↔ b4 = 1#32) := by
  rcases h0 with rfl | rfl <;> rcases h1 with rfl | rfl <;> rcases h2 with rfl | rfl <;>
    rcases h3 with rfl | rfl <;> rcases h4 with rfl | rfl <;> decide

end Cert.Proof.IdxArith
-- ==== Proof.Host.lean ====
/-
  @main's host side. The TensorCore's program is two host programs around the SparseCore call, each a stretch of
  StableHLO operations, a pallas_call's entry, and another stretch; here: that equation, the side facts a run of a
  stretch asks of its operations (they touch TensorCore references only and write no buffer fresh), and what the
  stretches leave in the buffers the kernels read.
-/
import proofs.«205037_g73117523247527_cont_9to1c4b_608_48_alg».proof.Proof.HostOps
import proofs.«205037_g73117523247527_cont_9to1c4b_608_48_alg».proof.Proof.IdxArith

noncomputable section

namespace Cert.Proof.KI

open Cert.KernelIdeal Cert.KernelIdeal.Gen
open Idealize.ShloMosaic
open Idealize.SL.Sem

variable {F : FTy → Type} [FloatOps F]

/-! ## @main as two host programs around the SparseCore call -/

/-- The TensorCore's host program up to the SparseCore call, at the pipelines' labels: the first stretch, the first
    pallas_call's entry, the second stretch. -/
abbrev hostA : Prog (TpuEff nD τ sig (Elt F) (ΛP (F := F)) .tc) PUnit :=
  StableHlo.seq opsA1 >>= fun _ => Prog.op (.customCall (Pipeline.entry 0) ()) fun _ => StableHlo.seq opsA2

/-- The TensorCore's host program after the SparseCore call: the third stretch, the last pallas_call's entry, the
    closing reshape. -/
abbrev hostB : Prog (TpuEff nD τ sig (Elt F) (ΛP (F := F)) .tc) PUnit :=
  StableHlo.seq opsB1 >>= fun _ => Prog.op (.customCall (Pipeline.entry 1) ()) fun _ => StableHlo.seq opsB2

set_option maxRecDepth 8192 in
set_option maxHeartbeats 4000000 in
/-- @main is the two host programs around the SparseCore call: the module-local functions unfolded at their calls and
    the records at their fields, both sides are one chain of steps once sequencing is reassociated. -/
theorem main_eq (d : Dev nD) :
    main (F := F) d
      = (SparseCore.liftProg (hostA (F := F)) >>= fun _ => (sc (F := F)).run d 0 >>= fun _ => SparseCore.liftProg (hostB (F := F))) := by
  simp only [main, main_part0, main_part1, fn_floor_divide.body, fn_remainder.body, fn_where_1.body, fn_remainder_2.body,
    fn_floor_divide_3.body, fn_where.body, fn_where_0.body, hostA, hostB, opsA1, opsA2, opsB1, opsB2, StableHlo.seq,
    SparseCore.liftProg, inlProg_bind, inlProg_op, inlProg_ret, Prog.lift, bind_assoc, pure_bind]
  rfl

/-! ## What a run of a stretch asks of its operations -/

section Side
open StableHlo

/-- A property of every element of a literal list, from the conjunction over the list. -/
private theorem forall_mem_of_forall {α : Type} {p : α → Prop} {l : List α} (h : l.Forall p) : ∀ x ∈ l, p x :=
  List.forall_iff_forall_mem.mp h

/-- The first stretch touches TensorCore references only. -/
theorem opsA1_sub : ∀ op ∈ (opsA1 : List (HloOp τ sig (Elt F))), op.bufs ⊆ tcRefs τ sig := by
  refine forall_mem_of_forall ?_
  simp only [opsA1, List.Forall, nullary_bufs_sub, unary_bufs_sub, binary_bufs_sub, ternary_bufs_sub, reshape_bufs_sub,
    nary_bufs_sub, and_self]
/-- The second stretch touches TensorCore references only. -/
theorem opsA2_sub : ∀ op ∈ (opsA2 : List (HloOp τ sig (Elt F))), op.bufs ⊆ tcRefs τ sig := by
  refine forall_mem_of_forall ?_
  simp only [opsA2, List.Forall, nullary_bufs_sub, unary_bufs_sub, binary_bufs_sub, ternary_bufs_sub, reshape_bufs_sub,
    nary_bufs_sub, and_self]
/-- The third stretch touches TensorCore references only. -/
theorem opsB1_sub : ∀ op ∈ (opsB1 : List (HloOp τ sig (Elt F))), op.bufs ⊆ tcRefs τ sig := by
  refine forall_mem_of_forall ?_
  simp only [opsB1, List.Forall, nullary_bufs_sub, unary_bufs_sub, binary_bufs_sub, ternary_bufs_sub, reshape_bufs_sub,
    nary_bufs_sub, and_self]
/-- The closing reshape touches TensorCore references only. -/
theorem opsB2_sub : ∀ op ∈ (opsB2 : List (HloOp τ sig (Elt F))), op.bufs ⊆ tcRefs τ sig := by
  refine forall_mem_of_forall ?_
  simp only [opsB2, List.Forall, nullary_bufs_sub, unary_bufs_sub, binary_bufs_sub, ternary_bufs_sub, reshape_bufs_sub,
    nary_bufs_sub, and_self]

/-- No operation of the first stretch writes a buffer fresh. -/
theorem opsA1_fresh : ∀ op ∈ (opsA1 : List (HloOp τ sig (Elt F))), op.fresh = ∅ := by
  refine forall_mem_of_forall ?_
  simp only [opsA1, List.Forall]
  repeat' constructor
/-- No operation of the second stretch writes a buffer fresh. -/
theorem opsA2_fresh : ∀ op ∈ (opsA2 : List (HloOp τ sig (Elt F))), op.fresh = ∅ := by
  refine forall_mem_of_forall ?_
  simp only [opsA2, List.Forall]
  repeat' constructor
/-- No operation of the third stretch writes a buffer fresh. -/
theorem opsB1_fresh : ∀ op ∈ (opsB1 : List (HloOp τ sig (Elt F))), op.fresh = ∅ := by
  refine forall_mem_of_forall ?_
  simp only [opsB1, List.Forall]
  repeat' constructor
/-- The closing reshape writes no buffer fresh. -/
theorem opsB2_fresh : ∀ op ∈ (opsB2 : List (HloOp τ sig (Elt F))), op.fresh = ∅ := by
  refine forall_mem_of_forall ?_
  simp only [opsB2, List.Forall]
  repeat' constructor

end Side

/-! ## What the stretches compute

For a stretch run from contents `V`: the buffers the kernels read, as pure terms of `V` at the buffers the stretch
reads; and the buffers it leaves alone. -/

section Values
open StableHlo
open Cert.Proof.IdxArith

/-- The contents of the buffers after a stretch, in one pass: each operation's result at its own buffer is its
    function's value, at any other reference what was there (the references told apart by computation); a concatenate of
    four references reads each operand at its own reference; the typed references' transports are the identity at
    literal references. -/
macro "host_results" : tactic =>
  `(tactic| (simp (disch := decide) only [StableHlo.after_cons, StableHlo.after_nil,
      StableHlo.nullary_result', StableHlo.unary_result', StableHlo.binary_result', StableHlo.ternary_result',
      StableHlo.reshape_result', StableHlo.nary4_result',
      StableHlo.nullary_result_ne', StableHlo.unary_result_ne', StableHlo.binary_result_ne', StableHlo.ternary_result_ne',
      StableHlo.reshape_result_ne', StableHlo.nary_result_ne',
      StableHlo.TRef.ofBuf, StableHlo.TRef.toBuf, cast_eq, id_eq]))

variable (V : Valuation τ sig (Elt F))

/-- The four entity-index inputs one after another, as the second stretch concatenates them. -/
abbrev entCat : IVec S65536 32 :=
  concatenate S65536 0 [⟨S16384, V (Proc.devRef .tc main_arg2)⟩, ⟨S16384, V (Proc.devRef .tc main_arg4)⟩,
    ⟨S16384, V (Proc.devRef .tc main_arg5)⟩, ⟨S16384, V (Proc.devRef .tc main_arg6)⟩]
    concatenates_S16384_S16384_S16384_S16384_S65536_d0

/-! ### The first stretch -/

/-- The entity table transposed. -/
theorem A1_v0 :
    after opsA1 V (Proc.devRef .tc main_v0)
      = transpose S64x1000000 [1, 0] (V (Proc.devRef .tc main_arg0)) transposes_S1000000x64_S64x1000000_1_0 := by
  host_results

/-- The table's last 1600 rows, the first 800 beside the last 800. -/
theorem A1_v4 :
    after opsA1 V (Proc.devRef .tc main_v4)
      = concatenate S800x128 1
          [⟨S800x64, extractStridedSlice S800x64 ![0, 0]
              (extractStridedSlice S1600x64 ![998400, 0] (V (Proc.devRef .tc main_arg0)) slices_S1000000x64_S1600x64_998400_0)
              slices_S1600x64_S800x64_0_0⟩,
           ⟨S800x64, extractStridedSlice S800x64 ![800, 0]
              (extractStridedSlice S1600x64 ![998400, 0] (V (Proc.devRef .tc main_arg0)) slices_S1000000x64_S1600x64_998400_0)
              slices_S1600x64_S800x64_800_0⟩]
          concatenates_S800x64_S800x64_S800x128_d1 := by
  host_results
  rfl

theorem A1_arg0 :
    after opsA1 V (Proc.devRef .tc main_arg0) = V (Proc.devRef .tc main_arg0) := by host_results
theorem A1_arg1 :
    after opsA1 V (Proc.devRef .tc main_arg1) = V (Proc.devRef .tc main_arg1) := by host_results
theorem A1_arg2 :
    after opsA1 V (Proc.devRef .tc main_arg2) = V (Proc.devRef .tc main_arg2) := by host_results
theorem A1_arg3 :
    after opsA1 V (Proc.devRef .tc main_arg3) = V (Proc.devRef .tc main_arg3) := by host_results
theorem A1_arg4 :
    after opsA1 V (Proc.devRef .tc main_arg4) = V (Proc.devRef .tc main_arg4) := by host_results
theorem A1_arg5 :
    after opsA1 V (Proc.devRef .tc main_arg5) = V (Proc.devRef .tc main_arg5) := by host_results
theorem A1_arg6 :
    after opsA1 V (Proc.devRef .tc main_arg6) = V (Proc.devRef .tc main_arg6) := by host_results

/-! ### The second stretch -/

/-- The relation table, two rows to one. -/
theorem A2_v6 :
    after opsA2 V (Proc.devRef .tc main_v6)
      = shapeCast S500x128 (V (Proc.devRef .tc main_arg1)) shapeCasts_S1000x64_S500x128 := by
  host_results
  rfl

set_option maxRecDepth 8192 in
set_option maxHeartbeats 2000000 in
/-- Every entity index's packed row. -/
theorem A2_v18 : after opsA2 V (Proc.devRef .tc main_v18) = fun i => epairW (entCat V i) := by
  host_results
  rfl

set_option maxRecDepth 8192 in
set_option maxHeartbeats 2000000 in
/-- Every entity index's half of its packed row. -/
theorem A2_v19 : after opsA2 V (Proc.devRef .tc main_v19) = fun i => eparW (entCat V i) := by
  host_results
  rfl

/-- Every relation index's packed row. -/
theorem A2_v21 : after opsA2 V (Proc.devRef .tc main_v21) = fun i => rpairW (V (Proc.devRef .tc main_arg3) i) := by
  host_results
  rfl

/-- Every relation index's half of its packed row. -/
theorem A2_v23 : after opsA2 V (Proc.devRef .tc main_v23) = fun i => rparW (V (Proc.devRef .tc main_arg3) i) := by
  host_results
  rfl

set_option maxRecDepth 8192 in
set_option maxHeartbeats 2000000 in
/-- The entity indices' packed rows, 128 to a row. -/
theorem A2_v24 :
    after opsA2 V (Proc.devRef .tc main_v24)
      = shapeCast S512x128 (fun i => epairW (entCat V i)) shapeCasts_S65536_S512x128 := by
  host_results
  rfl

/-- The relation indices' packed rows, 128 to a row. -/
theorem A2_v25 :
    after opsA2 V (Proc.devRef .tc main_v25)
      = shapeCast S128x128 (fun i => rpairW (V (Proc.devRef .tc main_arg3) i)) shapeCasts_S16384_S128x128 := by
  host_results
  rfl

theorem A2_arg0 :
    after opsA2 V (Proc.devRef .tc main_arg0) = V (Proc.devRef .tc main_arg0) := by host_results
theorem A2_arg1 :
    after opsA2 V (Proc.devRef .tc main_arg1) = V (Proc.devRef .tc main_arg1) := by host_results
theorem A2_arg2 :
    after opsA2 V (Proc.devRef .tc main_arg2) = V (Proc.devRef .tc main_arg2) := by host_results
theorem A2_arg3 :
    after opsA2 V (Proc.devRef .tc main_arg3) = V (Proc.devRef .tc main_arg3) := by host_results
theorem A2_arg4 :
    after opsA2 V (Proc.devRef .tc main_arg4) = V (Proc.devRef .tc main_arg4) := by host_results
theorem A2_arg5 :
    after opsA2 V (Proc.devRef .tc main_arg5) = V (Proc.devRef .tc main_arg5) := by host_results
theorem A2_arg6 :
    after opsA2 V (Proc.devRef .tc main_arg6) = V (Proc.devRef .tc main_arg6) := by host_results
theorem A2_v0 :
    after opsA2 V (Proc.devRef .tc main_v0) = V (Proc.devRef .tc main_v0) := by host_results
theorem A2_v4 :
    after opsA2 V (Proc.devRef .tc main_v4) = V (Proc.devRef .tc main_v4) := by host_results
theorem A2_v5 :
    after opsA2 V (Proc.devRef .tc main_v5) = V (Proc.devRef .tc main_v5) := by host_results

/-! ### The third stretch -/

/-- Row `k` of the 65536 halves read as four rows of 16384: the halves of input `k`'s indices. -/
abbrev halfRow (e : IVec S65536 32) (k : Nat) (h : S4x16384.Slices ![k, 0] S1x16384) : IVec S16384 32 :=
  shapeCast S16384 (extractStridedSlice S1x16384 ![k, 0] (shapeCast S4x16384 e shapeCasts_S65536_S4x16384) h)
    shapeCasts_S1x16384_S16384

/-- The five half-selectors of each sample in one word, before the closing reshape. -/
theorem B1_v47 :
    after opsB1 V (Proc.devRef .tc main_v47)
      = fun i => packW (halfRow (V (Proc.devRef .tc main_v19)) 0 slices_S4x16384_S1x16384_0_0 i)
          (halfRow (V (Proc.devRef .tc main_v19)) 1 slices_S4x16384_S1x16384_1_0 i)
          (halfRow (V (Proc.devRef .tc main_v19)) 2 slices_S4x16384_S1x16384_2_0 i)
          (halfRow (V (Proc.devRef .tc main_v19)) 3 slices_S4x16384_S1x16384_3_0 i)
          (V (Proc.devRef .tc main_v23) i) := by
  host_results
  rfl

/-- The five half-selectors of each sample in one word, one to a row. -/
theorem B1_v48 :
    after opsB1 V (Proc.devRef .tc main_v48)
      = shapeCast S16384x1
          (fun i => packW (halfRow (V (Proc.devRef .tc main_v19)) 0 slices_S4x16384_S1x16384_0_0 i)
            (halfRow (V (Proc.devRef .tc main_v19)) 1 slices_S4x16384_S1x16384_1_0 i)
            (halfRow (V (Proc.devRef .tc main_v19)) 2 slices_S4x16384_S1x16384_2_0 i)
            (halfRow (V (Proc.devRef .tc main_v19)) 3 slices_S4x16384_S1x16384_3_0 i)
            (V (Proc.devRef .tc main_v23) i))
          shapeCasts_S16384_S16384x1 := by
  host_results
  rfl

theorem B1_arg0 :
    after opsB1 V (Proc.devRef .tc main_arg0) = V (Proc.devRef .tc main_arg0) := by host_results
theorem B1_arg1 :
    after opsB1 V (Proc.devRef .tc main_arg1) = V (Proc.devRef .tc main_arg1) := by host_results
theorem B1_arg2 :
    after opsB1 V (Proc.devRef .tc main_arg2) = V (Proc.devRef .tc main_arg2) := by host_results
theorem B1_arg3 :
    after opsB1 V (Proc.devRef .tc main_arg3) = V (Proc.devRef .tc main_arg3) := by host_results
theorem B1_arg4 :
    after opsB1 V (Proc.devRef .tc main_arg4) = V (Proc.devRef .tc main_arg4) := by host_results
theorem B1_arg5 :
    after opsB1 V (Proc.devRef .tc main_arg5) = V (Proc.devRef .tc main_arg5) := by host_results
theorem B1_arg6 :
    after opsB1 V (Proc.devRef .tc main_arg6) = V (Proc.devRef .tc main_arg6) := by host_results
theorem B1_v26_0 :
    after opsB1 V (Proc.devRef .tc main_v26_0) = V (Proc.devRef .tc main_v26_0) := by host_results
theorem B1_v26_1 :
    after opsB1 V (Proc.devRef .tc main_v26_1) = V (Proc.devRef .tc main_v26_1) := by host_results
theorem B1_v26_2 :
    after opsB1 V (Proc.devRef .tc main_v26_2) = V (Proc.devRef .tc main_v26_2) := by host_results
theorem B1_v26_3 :
    after opsB1 V (Proc.devRef .tc main_v26_3) = V (Proc.devRef .tc main_v26_3) := by host_results
theorem B1_v26_4 :
    after opsB1 V (Proc.devRef .tc main_v26_4) = V (Proc.devRef .tc main_v26_4) := by host_results

/-! ### The closing reshape -/

/-- The loss, as a scalar. -/
theorem B2_v50 :
    after opsB2 V (Proc.devRef .tc main_v50) = shapeCast S_ (V (Proc.devRef .tc main_v49)) shapeCasts_S1x1_S_ := by
  host_results
  rfl

theorem B2_arg0 :
    after opsB2 V (Proc.devRef .tc main_arg0) = V (Proc.devRef .tc main_arg0) := by host_results
theorem B2_arg1 :
    after opsB2 V (Proc.devRef .tc main_arg1) = V (Proc.devRef .tc main_arg1) := by host_results
theorem B2_arg2 :
    after opsB2 V (Proc.devRef .tc main_arg2) = V (Proc.devRef .tc main_arg2) := by host_results
theorem B2_arg3 :
    after opsB2 V (Proc.devRef .tc main_arg3) = V (Proc.devRef .tc main_arg3) := by host_results
theorem B2_arg4 :
    after opsB2 V (Proc.devRef .tc main_arg4) = V (Proc.devRef .tc main_arg4) := by host_results
theorem B2_arg5 :
    after opsB2 V (Proc.devRef .tc main_arg5) = V (Proc.devRef .tc main_arg5) := by host_results
theorem B2_arg6 :
    after opsB2 V (Proc.devRef .tc main_arg6) = V (Proc.devRef .tc main_arg6) := by host_results

end Values

end Cert.Proof.KI

end
-- ==== Proof.LaunchDefs.lean ====
/-
  Definitions the launch and its stretches share: what the SparseCore call carries, the launch element, the two
  pipelines' tables and proof-data family, and the TensorCore's state between calls split into what it owes and the rest.
-/
import proofs.«205037_g73117523247527_cont_9to1c4b_608_48_alg».proof.Proof.Common
import proofs.«205037_g73117523247527_cont_9to1c4b_608_48_alg».proof.Proof.Host
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What the one SparseCore call carries: per SparseCore its operands' shares and result rows (`st`, `dn`), per vector
    subcore its task's (`go`, `td`); nothing of the launch's is consumed by the kernel (`x`). -/
def P (st dn : Dev nD → Fin 2 → sProp (MT nD τ sig (HIx 1) (Elt F) ℕ UU ℕ)) (go td : Dev nD → Fin 2 → Fin 16 → sProp (MT nD τ sig (HIx 1) (Elt F) ℕ UU ℕ)) :
    (K (F := F)).Pay (nD := nD) (Val := Elt F) (Name := ℕ) (U := UU) where
  st := fun q d c => match q with | 0 => st d (Fin.cast nCore_zero c)
  dn := fun q d c => match q with | 0 => dn d (Fin.cast nCore_zero c)
  go := fun q d c i => match q with | 0 => go d (Fin.cast nCore_zero c) (Fin.cast nSub_zero i)
  td := fun q d c i => match q with | 0 => td d (Fin.cast nCore_zero c) (Fin.cast nSub_zero i)
  x := fun _ _ => iprop(emp)

/-- The launch element: the handshakes' rounds, the pipelines' staging cells' rounds, no copy counted yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- The tables of the two pipelines: neither prefetches anything. -/
abbrev adm : (p : Fin 2) → (pcfgs (F := F) p).Adm := fun p => (cfgs p).toPCfg_adm

/-- The proof data of the two pipelines as one family, a literal match on the pipeline. -/
def pdats (dat0 : (c : Dev nD) → Pipeline.Dat τ (Elt F) (HIx 1) ℕ UU ℕ (Pipeline.pin (pcfgs (F := F)) adm 0) c)
    (dat1 : (c : Dev nD) → Pipeline.Dat τ (Elt F) (HIx 1) ℕ UU ℕ (Pipeline.pin (pcfgs (F := F)) adm 1) c) :
    (p : Fin 2) → (c : Dev nD) → Pipeline.Dat τ (Elt F) (HIx 1) ℕ UU ℕ (Pipeline.pin (pcfgs (F := F)) adm p) c
  | ⟨0, _⟩ => dat0
  | ⟨1, _⟩ => dat1

/-- What @main starts from beside the launch's deal: the two pipelines' staging cells' ghost state; -/
abbrev G (d : Dev nD) : sProp 𝕄 := Pipeline.ghostOn (pcfgs (F := F)) adm EP Finset.univ d
/-- and what is left of it after the first region: the second pipeline's. -/
abbrev G1 (d : Dev nD) : sProp 𝕄 := Pipeline.ghostOn (pcfgs (F := F)) adm EP (Finset.univ.erase 0) d

/-- What the TensorCore owes before call `n`, its recorded pairs bounded (the first conjunct of the launch's state of it). -/
abbrev owesT (d : Dev nD) (n : ℕ) : sProp 𝕄 :=
  iprop(∃ W, ⌜(K (F := F)).WBelow (T d) W (8 * n)⌝ ∗ owes (T d) ((K (F := F)).Otc d n) W)

/-- The rest of the launch's state of the TensorCore before call `n`. -/
abbrev restT (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : ((K (F := F)).tcSt EH d n : sProp 𝕄) = iprop(owesT (F := F) d n ∗ restT (F := F) d n) := rfl

/-- The bound on the pairs the TensorCore's waits may have recorded before call `n`. -/
def boundT (d : Dev nD) (n : ℕ) : Set (SemLoc sig × HIx 1) := {p | (K (F := F)).lev (T d, p.1) p.2 ≤ 8 * n}

theorem none_mem_boundT (d : Dev nD) (n : ℕ) (sm : SemLoc sig) : (sm, (none : HIx 1)) ∈ boundT (F := F) d n := Nat.zero_le _

end Cert.Proof.KI

end
-- ==== Proof.Launch.lean ====
/-
  The launch: from the launch element and the stretches of @main on the TensorCore to the program's run. @main is
  host operations and the packing region; the SparseCore call, to which the nine arrays it touches are handed and from
  which they are taken back; host operations and the loss region. The stretches, the hand-over and the tiles' obligations
  enter as hypotheses; this module composes them.
-/
import proofs.«205037_g73117523247527_cont_9to1c4b_608_48_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type}

local notation "𝕄" => MT nD τ sig (HIx 1) (Elt F) ℕ UU ℕ

variable (m : (ℓ : Loc nD τ sig) → Buf (Elt F) ℓ) (ρ : Dev nD → PrngReg)
variable (st dn : Dev nD → Fin 2 → sProp (MT nD τ sig (HIx 1) (Elt F) ℕ UU ℕ)) (go td : Dev nD → Fin 2 → Fin 16 → sProp (MT nD τ sig (HIx 1) (Elt F) ℕ UU ℕ))

/-! ## The launch element -/

theorem bigSep_emp' {I : Type} (s : Finset I) : (bigSep s fun _ => iprop(emp)) = (iprop(emp) : sProp 𝕄) := BI.bigSep_emp_const s
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P st dn go td).x q thr) := by
  unfold u₀
  iintro Hu
  ihave H := (ownU_pair _ _) $$ Hu
  icases H with ⟨HH, HR⟩
  ihave H2 := (show (BI.own ((embR (nD := nD) (τ := τ) (sig := sig) (Ix := HIx 1) (Val := Elt F) (Name := ℕ) (A := UH) (B := UP × Counters) (Lvl := ℕ))
      (initOf (Pipeline.cells (nD := nD) (τ := τ) cfgs cellOf_inj) (Pipeline.launchToks (nD := nD) (τ := τ) cfgs cellOf_inj), (1 : Counters))) : sProp 𝕄)
      ⊢ iprop(BI.own (EP (initOf (Pipeline.cells (nD := nD) (τ := τ) cfgs cellOf_inj) (Pipeline.launchToks (nD := nD) (τ := τ) cfgs cellOf_inj))) ∗ BI.own (((Emb.inr : Emb Counters (UP × Counters)).trans embR) (1 : Counters)))
      from own_pair_emb _ _ _) $$ HR
  icases H2 with ⟨HP, -⟩
  imod (Pipeline.fund_ghost (nD := nD) (τ := τ) (Val := Elt F) (Ix := HIx 1) (Name := ℕ) (U := UU) (Lvl := ℕ) cfgs EP cellOf_inj) $$ HP with ⟨Hcells, Htoks⟩
  imodintro
  isplitl [HH]; · iexact HH
  isplitl [Hcells Htoks]
  · unfold G Pipeline.ghostOn Pipeline.PerCore.ghostOn
    simp only [bigSep_sep']
    isplitl [Hcells]
    · iexact Hcells
    · iexact Htoks
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## @main on the TensorCore -/

variable [FloatOps F]

variable (VA VS VB : Dev nD → Valuation τ sig (Elt F)) (T9 : Finset (DevRef τ sig)) (hT9 : T9 ⊆ Pipeline.ucRefs τ sig)
variable (FIN : Dev nD → sProp (MT nD τ sig (HIx 1) (Elt F) ℕ UU ℕ))

variable (stretchA : ∀ d : Dev nD, iprop(levAts (K (F := F)).L (K (F := F)).lev ∗ boundary (T d) ∗ (held (T d) (Pipeline.ucRefs τ sig) (launchContents m d) : sProp (MT nD τ sig (HIx 1) (Elt F) ℕ UU ℕ)) ∗ owesT (F := F) d 0 ∗ G (F := F) d)
    ⊢ wp frame (wpE (D (F := F)) 𝒱 (T d) none) Set.univ (hostA (F := F)) fun _ =>
        iprop(boundary (T d) ∗ (held (T d) (Pipeline.ucRefs τ sig) (VA d) : sProp (MT nD τ sig (HIx 1) (Elt F) ℕ UU ℕ)) ∗ owesT (F := F) d 0 ∗ G1 (F := F) d))
variable (stretchB : ∀ d : Dev nD, iprop(levAts (K (F := F)).L (K (F := F)).lev ∗ boundary (T d) ∗ (held (T d) (Pipeline.ucRefs τ sig) (VS d) : sProp (MT nD τ sig (HIx 1) (Elt F) ℕ UU ℕ)) ∗ owesT (F := F) d 1 ∗ G1 (F := F) d)
    ⊢ wp frame (wpE (D (F := F)) 𝒱 (T d) none) Set.univ (hostB (F := F)) fun _ =>
        iprop(boundary (T d) ∗ (held (T d) (Pipeline.ucRefs τ sig) (VB d) : sProp (MT nD τ sig (HIx 1) (Elt F) ℕ UU ℕ)) ∗ owesT (F := F) d 1))
variable (hand : ∀ d : Dev nD, (held (T d) T9 (VA d) : sProp (MT nD τ sig (HIx 1) (Elt F) ℕ UU ℕ)) ⊢ bigSep Finset.univ fun c : Fin ((K (F := F)).nCore 0) => (P st dn go td).st 0 d c)
variable (back : ∀ d : Dev nD, (bigSep Finset.univ fun c : Fin ((K (F := F)).nCore 0) => (P st dn go td).dn 0 d c) ⊢ (held (T d) T9 (VS d) : sProp (MT nD τ sig (HIx 1) (Elt F) ℕ UU ℕ)))
variable (hVS : ∀ d, ∀ b ∈ Pipeline.ucRefs τ sig \ T9, VS d b = VA d b)
variable (hFIN : ∀ d : Dev nD, (held (T d) (Pipeline.ucRefs τ sig) (VB d) : sProp (MT nD τ sig (HIx 1) (Elt F) ℕ UU ℕ)) ⊢ FIN d)

include stretchA stretchB hand back hVS hFIN hT9 in
theorem hmain (κ : GSem nD τ sig → ℕ) (d : Dev nD) :
    iprop((K (F := F)).ctx EH (P st dn go td) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [show (unscopedBufs d (fun b => m ((SparseCore.T d).loc b)) : sProp 𝕄) = held (T d) (Pipeline.ucRefs τ sig) (launchContents m d) from
    Pipeline.unscopedBufs_held d (launchContents m d), main_eq, wp_bind, tcSt_eq, tcSt_eq]
  iintro ⟨#Hctx, ⟨HO, Hrest⟩, ⟨Hb, Hheld, -, -⟩, HG⟩
  ihave #Hlev := (SparseCore.Cfg.ctx_levAts (K := K (F := F)) (EH := EH) (P := P st dn go td) κ) $$ Hctx
  -- the first stretch: host operations, the packing region, host operations
  iapply ((K (F := F)).wp_liftProg (D (F := F)) 𝒱 (T d) Set.univ none (hostA (F := F)) _)
  iapply (wp_wand_r frame _ Set.univ)
  isplitl [Hb Hheld HO HG]
  · iapply (stretchA d)
    isplitr; · iexact Hlev
    isplitl [Hb]; · iexact Hb
    isplitl [Hheld]; · iexact Hheld
    isplitl [HO]; · iexact HO
    iexact HG
  iintro %_ ⟨Hb, Hheld, HO, HG1⟩
  rw [wp_bind]
  -- the SparseCore call: the nine arrays handed over and taken back
  ihave Hh := (Entails.of_eq (StableHlo.held_sub_split (Ix := HIx 1) (Name := ℕ) (U := UU) (Lvl := ℕ) (T d) hT9 (VA d))) $$ Hheld
  icases Hh with ⟨H9, Hoth⟩
  iapply ((K (F := F)).wp_run (D (F := F)) 𝒱 (EH := EH) (P := P st dn go td) κ d 0)
  simp only [Fin.val_zero, Nat.zero_add]
  isplitr; · iexact Hctx
  isplitl [HO Hrest]
  · rw [tcSt_eq]; isplitl [HO] <;> iassumption
  isplitl [H9]; · iapply (hand d); iexact H9
  iintro ⟨Hst, Hdn⟩
  ihave H9 := (back d) $$ Hdn
  ihave Hst' := (Entails.of_eq (tcSt_eq (F := F) d 1)) $$ Hst
  icases Hst' with ⟨HO, Hrest⟩
  -- the second stretch: host operations, the loss region, the reshape
  iapply ((K (F := F)).wp_liftProg (D (F := F)) 𝒱 (T d) Set.univ none (hostB (F := F)) _)
  iapply (wp_wand_r frame _ Set.univ)
  isplitl [Hb H9 Hoth HO HG1]
  · iapply (stretchB d)
    isplitr; · iexact Hlev
    isplitl [Hb]; · iexact Hb
    isplitl [H9 Hoth]
    · rw [StableHlo.held_sub_split (T d) hT9 (VS d), StableHlo.held_congr (T d) (hVS d)]
      isplitl [H9] <;> iassumption
    isplitl [HO]; · iexact HO
    iexact HG1
  iintro %_ ⟨-, Hheld, HO⟩
  isplitl [HO Hrest]
  · isplitl [HO] <;> iassumption
  iapply (hFIN d); iexact Hheld

/-! ## What the final memory says -/

abbrev r_v50 : DevRef τ sig := Proc.devRef .tc (main_v50 : Ref sig .tc)
abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)

/-- The result and the seven arguments. -/
def R8 : Finset (DevRef τ sig) := {r_v50, r_arg0, r_arg1, r_arg2, r_arg3, r_arg4, r_arg5, r_arg6}

theorem R8_sub : R8 ⊆ Pipeline.ucRefs τ sig := by decide

/-- What @main leaves the claim: the result and the seven arguments at the final valuation. -/
def FIN8 (W : Dev nD → Valuation τ sig (Elt F)) (d : Dev nD) : sProp 𝕄 := held (T d) R8 (W d)

theorem held_R8 (d : Dev nD) (W : Valuation τ sig (Elt F)) :
    (held (T d) R8 W : sProp 𝕄) = iprop(((d, r_v50) ↦{fullShare} W r_v50) ∗ ((d, r_arg0) ↦{fullShare} W r_arg0) ∗ ((d, r_arg1) ↦{fullShare} W r_arg1)
      ∗ ((d, r_arg2) ↦{fullShare} W r_arg2) ∗ ((d, r_arg3) ↦{fullShare} W r_arg3) ∗ ((d, r_arg4) ↦{fullShare} W r_arg4)
      ∗ ((d, r_arg5) ↦{fullShare} W r_arg5) ∗ ((d, r_arg6) ↦{fullShare} W r_arg6)) := by
  unfold held R8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hFIN8 (W : Dev nD → Valuation τ sig (Elt F)) (d : Dev nD) : (held (T d) (Pipeline.ucRefs τ sig) (W d) : sProp 𝕄) ⊢ FIN8 W d := by
  unfold FIN8
  rw [StableHlo.held_sub_split (T d) R8_sub (W d)]
  exact sep_elim_left

/-- The final memory holds the result and the arguments at the final valuation. -/
def fq8 (W : Dev nD → Valuation τ sig (Elt F)) (d : Dev nD) (s' : Phys nD τ sig (Elt F)) : Prop :=
  s'.mem.mem (d, r_v50) = W d r_v50 ∧ s'.mem.mem (d, r_arg0) = W d r_arg0 ∧ s'.mem.mem (d, r_arg1) = W d r_arg1 ∧ s'.mem.mem (d, r_arg2) = W d r_arg2
    ∧ s'.mem.mem (d, r_arg3) = W d r_arg3 ∧ s'.mem.mem (d, r_arg4) = W d r_arg4 ∧ s'.mem.mem (d, r_arg5) = W d r_arg5 ∧ s'.mem.mem (d, r_arg6) = W d r_arg6

theorem hfin8 (W : Dev nD → Valuation τ sig (Elt F)) (d : Dev nD) (s' : Phys nD τ sig (Elt F)) : iprop(FIN8 W d ∗ SI s') ⊢ (⌜fq8 W d s'⌝ : sProp 𝕄) := by
  unfold FIN8
  rw [held_R8]
  iintro ⟨⟨H0, H1, H2, H3, H4, H5, H6, H7⟩, HSI⟩
  ihave H := (persistent_entails_right (SI_pointsTo_agree (st := s') (ℓ := (d, r_v50)) (I := Finset.univ) (q := fullShare) (f := W d r_v50))) $$ [HSI H0]
  · isplitl [HSI] <;> iassumption
  icases H with ⟨%h0, HSI, -⟩
  ihave H := (persistent_entails_right (SI_pointsTo_agree (st := s') (ℓ := (d, r_arg0)) (I := Finset.univ) (q := fullShare) (f := W d r_arg0))) $$ [HSI H1]
  · isplitl [HSI] <;> iassumption
  icases H with ⟨%h1, HSI, -⟩
  ihave H := (persistent_entails_right (SI_pointsTo_agree (st := s') (ℓ := (d, r_arg1)) (I := Finset.univ) (q := fullShare) (f := W d r_arg1))) $$ [HSI H2]
  · isplitl [HSI] <;> iassumption
  icases H with ⟨%h2, HSI, -⟩
  ihave H := (persistent_entails_right (SI_pointsTo_agree (st := s') (ℓ := (d, r_arg2)) (I := Finset.univ) (q := fullShare) (f := W d r_arg2))) $$ [HSI H3]
  · isplitl [HSI] <;> iassumption
  icases H with ⟨%h3, HSI, -⟩
  ihave H := (persistent_entails_right (SI_pointsTo_agree (st := s') (ℓ := (d, r_arg3)) (I := Finset.univ) (q := fullShare) (f := W d r_arg3))) $$ [HSI H4]
  · isplitl [HSI] <;> iassumption
  icases H with ⟨%h4, HSI, -⟩
  ihave H := (persistent_entails_right (SI_pointsTo_agree (st := s') (ℓ := (d, r_arg4)) (I := Finset.univ) (q := fullShare) (f := W d r_arg4))) $$ [HSI H5]
  · isplitl [HSI] <;> iassumption
  icases H with ⟨%h5, HSI, -⟩
  ihave H := (persistent_entails_right (SI_pointsTo_agree (st := s') (ℓ := (d, r_arg5)) (I := Finset.univ) (q := fullShare) (f := W d r_arg5))) $$ [HSI H6]
  · isplitl [HSI] <;> iassumption
  icases H with ⟨%h6, HSI, -⟩
  ihave H := (SI_pointsTo_agree (st := s') (ℓ := (d, r_arg6)) (I := Finset.univ) (q := fullShare) (f := W d r_arg6)) $$ [HSI H7]
  · isplitl [HSI] <;> iassumption
  icases H with %h7
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => h7 i (Finset.mem_univ i)⟩

/-! ## The program's run -/

/-- The run's post: on every device the result and the arguments at the final valuation. -/
def QC8 (W : Dev nD → Valuation τ sig (Elt F)) : PUnit × MemSt nD τ sig (Elt F) → Prop := fun r => ∀ c : Dev nD,
  r.2.mem (c, r_v50) = W c r_v50 ∧ r.2.mem (c, r_arg0) = W c r_arg0 ∧ r.2.mem (c, r_arg1) = W c r_arg1 ∧ r.2.mem (c, r_arg2) = W c r_arg2
    ∧ r.2.mem (c, r_arg3) = W c r_arg3 ∧ r.2.mem (c, r_arg4) = W c r_arg4 ∧ r.2.mem (c, r_arg5) = W c r_arg5 ∧ r.2.mem (c, r_arg6) = W c r_arg6

include stretchA stretchB hand back hVS hT9 in
theorem run_main [∀ e, Nonempty (Elt F e)] [(P st dn go td).IsStorable]
    (htile : (K (F := F)).TileObl (D (F := F)) 𝒱 (P st dn go td) v₀ 0) (hsplit : (K (F := F)).VecSplit' (P st dn go td) 0) :
    θ_run (Cert.KernelIdeal.defs (F := F)) (Cert.KernelIdeal.threads (F := F)) ⟨m, fun _ => 0, ρ⟩ (QC8 VB) :=
  SparseCore.Cfg.θ_run_sc (K := K (F := F)) (D := D (F := F)) (𝒱 := 𝒱) (EH := EH) (P := P st dn go td) facts v₀
    (fun q hq => match q with | 0 => nomatch hq)
    (fun q _ => match q with | 0 => htile)
    (fun q _ => match q with | 0 => SparseCore.Cfg.VecSplit.of_plain hsplit)
    m ρ main (fun d => G (F := F) d) (FIN8 VB) (u₀ (F := F)) (sep_elim_left.trans (hu₀ st dn go td))
    (hmain m ρ st dn go td VA VS VB T9 hT9 (FIN8 VB) stretchA stretchB hand back hVS (hFIN8 VB)) (fq8 VB) (hfin8 VB) (QC8 VB) (fun _ h => h)

end Cert.Proof.KI

end
-- ==== Proof.Split.lean ====
/-
  How the SparseCore call's operands are dealt to its 2 × 16 vector subcores and gathered again.

  Four arrays are only read, each by every subcore: the packed entity table (500000 × 128), the relation table
  (500 × 128) and the two index arrays (512 × 128 and 128 × 128). Each of them is held whole by every subcore at a share:
  the full share is cut into two pieces, one per SparseCore, and each piece into sixteen, one per subcore. The five
  results (16384 × 128 each) are cut into 128 chunks of 128 rows; subcore `s` of SparseCore `c` owns, in full, the four
  chunks `8 s + 4 c + j`, `j < 4`, of every result. The shares of one array compose to the full share, the 128 chunks
  are pairwise disjoint and cover a result; so the nine arrays held whole ARE the thirty-two subcores' holdings, and the
  way back is the same equation read from right to left, at whatever contents the results then have.
-/
import proofs.«205037_g73117523247527_cont_9to1c4b_608_48_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## General facts -/

/-- Equal assertions entail one another. -/
theorem entails_of_eq {P Q : sProp 𝕄} (h : P = Q) : P ⊢ Q := by subst h; exact BI.Entails.refl _

/-- Separating conjunction is associative, as an equation. -/
theorem sep_assoc_eq (P Q R : sProp 𝕄) : (iprop((P ∗ Q) ∗ R) : sProp 𝕄) = iprop(P ∗ Q ∗ R) :=
  BI.Entails.antisymm _root_.Idealize.SL.BI.sep_assoc _root_.Idealize.SL.BI.sep_assoc'

/-- A family over four indices, written out. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- Elements held at a share are held, at once, at the shares of a cut in two stages: the share cut into `m` pieces,
    every piece cut into `n`. -/
theorem pointsTo_cut_twice {ℓ : Loc nD τ sig} (I : Finset (Idx ℓ)) (f : Buf (Elt F) ℓ) (q : PosShare TreeShare)
    {m n : ℕ} (hm : 0 < m) (hn : 0 < n) :
    (ℓ ↦[I]{q} f : sProp 𝕄)
      = bigSep Finset.univ fun a : Fin m => bigSep Finset.univ fun b : Fin n => ℓ ↦[I]{pieceOf (pieceOf q m hm a) n hn b} f := by
  rw [pointsTo_piecesOf I f hm q]
  exact bigSep_congr fun a _ => pointsTo_piecesOf I f hn _

/-- A buffer held whole is held piece by piece, over pairwise disjoint pieces that cover it. -/
theorem pointsTo_cover {ℓ : Loc nD τ sig} {J : Type} [Fintype J] (A : J → Finset (Idx ℓ))
    (hd : ∀ t ∈ (Finset.univ : Finset J), ∀ t' ∈ (Finset.univ : Finset J), t ≠ t' → Disjoint (A t) (A t'))
    (hc : (Finset.univ : Finset J).biUnion A = Finset.univ) (q : PosShare TreeShare) (f : Buf (Elt F) ℓ) :
    (ℓ ↦{q} f : sProp 𝕄) = bigSep Finset.univ fun t => ℓ ↦[A t]{q} f := by
  rw [← pointsTo_biUnion Finset.univ A hd, hc]

/-! ## The shares of the arrays that are only read -/

/-- The share of subcore `s` of SparseCore `c`: piece `s` of the sixteen that piece `c` of the two pieces of the
    full share is cut into. -/
def leafShare (c : Fin 2) (s : Fin 16) : PosShare TreeShare := pieceOf (pieceOf fullShare 2 (by decide) c) 16 (by decide) s

/-- A buffer held whole at the full share is held whole by every subcore at its share. -/
theorem whole_shares {ℓ : Loc nD τ sig} (X : Buf (Elt F) ℓ) :
    (ℓ ↦{fullShare} X : sProp 𝕄) = bigSep Finset.univ fun c : Fin 2 => bigSep Finset.univ fun s : Fin 16 => ℓ ↦{leafShare c s} X :=
  pointsTo_cut_twice Finset.univ X fullShare (by decide) (by decide)

/-! ## The chunks of a result -/

theorem chunkDiv : 128 ∣ S16384x128.size 0 := ⟨128, rfl⟩
/-- Rows `[128 g, 128 g + 128)` of a 16384 × 128 array. -/
abbrev chunkRect (g : Fin 128) : Rect S16384x128 := Rect.part (s := S16384x128) (a₀ := 0) chunkDiv g

local notation "r0V" => (Memref.whole Cert.KernelIdeal.main_v26_0_scv : Memref Cert.KernelIdeal.sig Kind.scVector Space.hbm Cert.KernelIdeal.S16384x128 EltTy.f32)
local notation "r1V" => (Memref.whole Cert.KernelIdeal.main_v26_1_scv : Memref Cert.KernelIdeal.sig Kind.scVector Space.hbm Cert.KernelIdeal.S16384x128 EltTy.f32)
local notation "r2V" => (Memref.whole Cert.KernelIdeal.main_v26_2_scv : Memref Cert.KernelIdeal.sig Kind.scVector Space.hbm Cert.KernelIdeal.S16384x128 EltTy.f32)
local notation "r3V" => (Memref.whole Cert.KernelIdeal.main_v26_3_scv : Memref Cert.KernelIdeal.sig Kind.scVector Space.hbm Cert.KernelIdeal.S16384x128 EltTy.f32)
local notation "r4V" => (Memref.whole Cert.KernelIdeal.main_v26_4_scv : Memref Cert.KernelIdeal.sig Kind.scVector Space.hbm Cert.KernelIdeal.S16384x128 EltTy.f32)

/-- The elements of chunk `g`, as the set of that slice of a whole result. -/
abbrev chunkSet (g : Fin 128) : Finset S16384x128.Idx := ((r0V).view.slice (chunkRect g)).set

theorem chunkSet_eq (g : Fin 128) : chunkSet g = (chunkRect g).set := by
  show ((View.whole (main_v26_0_scv : Ref sig .scVector)).slice (chunkRect g)).set = _
  rw [View.set_slice]; exact Finset.map_refl
/-- The same slice of any of the other results has the same elements. -/
theorem chunkSet_r1 (g : Fin 128) : ((r1V).view.slice (chunkRect g)).set = chunkSet g := by
  rw [chunkSet_eq]
  show ((View.whole (main_v26_1_scv : Ref sig .scVector)).slice (chunkRect g)).set = _
  rw [View.set_slice]; exact Finset.map_refl
theorem chunkSet_r2 (g : Fin 128) : ((r2V).view.slice (chunkRect g)).set = chunkSet g := by
  rw [chunkSet_eq]
  show ((View.whole (main_v26_2_scv : Ref sig .scVector)).slice (chunkRect g)).set = _
  rw [View.set_slice]; exact Finset.map_refl
theorem chunkSet_r3 (g : Fin 128) : ((r3V).view.slice (chunkRect g)).set = chunkSet g := by
  rw [chunkSet_eq]
  show ((View.whole (main_v26_3_scv : Ref sig .scVector)).slice (chunkRect g)).set = _
  rw [View.set_slice]; exact Finset.map_refl
theorem chunkSet_r4 (g : Fin 128) : ((r4V).view.slice (chunkRect g)).set = chunkSet g := by
  rw [chunkSet_eq]
  show ((View.whole (main_v26_4_scv : Ref sig .scVector)).slice (chunkRect g)).set = _
  rw [View.set_slice]; exact Finset.map_refl

theorem chunks_disjoint : ∀ g ∈ (Finset.univ : Finset (Fin 128)), ∀ g' ∈ (Finset.univ : Finset (Fin 128)), g ≠ g' → Disjoint (chunkSet g) (chunkSet g') :=
  fun g _ g' _ h => by rw [chunkSet_eq, chunkSet_eq]; exact Rect.part_disjoint chunkDiv h
theorem chunks_cover : (Finset.univ : Finset (Fin 128)).biUnion chunkSet = Finset.univ :=
  (Finset.biUnion_congr rfl fun g _ => chunkSet_eq g).trans (Rect.biUnion_part chunkDiv)

/-- Chunk `8 s + 4 c + j`: the `j`-th of the four chunks of subcore `s` of SparseCore `c`. -/
def chunkIx (c : Fin 2) (s : Fin 16) (j : Fin 4) : Fin 128 :=
  ⟨8 * s.val + 4 * c.val + j.val, by have := c.isLt; have := s.isLt; have := j.isLt; omega⟩

theorem chunkIx_val (c : Fin 2) (s : Fin 16) (j : Fin 4) : (chunkIx c s j).val = 8 * s.val + 4 * c.val + j.val := rfl

/-- Every chunk is exactly one subcore's, at exactly one place among its four. -/
def chunkEquiv : Fin 2 × Fin 16 × Fin 4 ≃ Fin 128 where
  toFun p := chunkIx p.1 p.2.1 p.2.2
  invFun g := (⟨g.val / 4 % 2, Nat.mod_lt _ (by decide)⟩, ⟨g.val / 8, by have := g.isLt; omega⟩, ⟨g.val % 4, Nat.mod_lt _ (by decide)⟩)
  left_inv := by
    rintro ⟨c, s, j⟩
    have hc := c.isLt; have hs := s.isLt; have hj := j.isLt
    refine Prod.ext (Fin.ext ?_) (Prod.ext (Fin.ext ?_) (Fin.ext ?_))
    · show (8 * s.val + 4 * c.val + j.val) / 4 % 2 = c.val; omega
    · show (8 * s.val + 4 * c.val + j.val) / 8 = s.val; omega
    · show (8 * s.val + 4 * c.val + j.val) % 4 = j.val; omega
  right_inv := by
    intro g
    refine Fin.ext ?_
    show 8 * (g.val / 8) + 4 * (g.val / 4 % 2) + g.val % 4 = g.val
    omega

/-- A family over the 128 chunks, dealt to the subcores. -/
theorem chunks_tiles (Φ : Fin 128 → sProp 𝕄) :
    bigSep Finset.univ Φ
      = bigSep Finset.univ fun c : Fin 2 => bigSep Finset.univ fun s : Fin 16 => bigSep Finset.univ fun j : Fin 4 => Φ (chunkIx c s j) := by
  rw [bigSep_univ_equiv chunkEquiv Φ, bigSep_univ_prod]
  refine bigSep_congr fun c _ => ?_
  rw [bigSep_univ_prod]
  rfl

/-- Two unit-stride rectangles at equal offsets and of equal sizes are one rectangle. -/
theorem rect_unit_congr {sh : Shape} {off off' size size' : Fin sh.rank → ℕ} (ho : off = off') (hs : size = size')
    (p : ∀ a, off a + size a ≤ sh.size a) (p' : ∀ a, off' a + size' a ≤ sh.size a) : Rect.unit off size p = Rect.unit off' size' p' := by
  subst ho; subst hs; rfl

/-- The window of 128 rows at row `128 g` is chunk `g`. -/
theorem window_rect (g : Fin 128) (off : Fin 2 → ℕ) (hoff : off = ![128 * g.val, 0]) (inb : ∀ a, off a + S128x128.size a ≤ S16384x128.size a) :
    Rect.unit (s := S16384x128) off S128x128.size inb = chunkRect g := by
  refine rect_unit_congr ?_ ?_ inb _
  · rw [hoff]; funext a
    match a with
    | 0 => show 128 * g.val = g.val * 128; exact Nat.mul_comm _ _
    | 1 => rfl
  · funext a
    match a with
    | 0 => rfl
    | 1 => rfl

/-- Such a window of a whole result has chunk `g`'s elements. -/
theorem window_set_r0 (g : Fin 128) (off : Fin 2 → ℕ) (hoff : off = ![128 * g.val, 0]) (inb : ∀ a, off a + S128x128.size a ≤ S16384x128.size a) :
    ((r0V).slice (Rect.unit (s := S16384x128) off S128x128.size inb) (fun _ => rfl)).view.set = chunkSet g := by
  show ((r0V).view.slice (Rect.unit (s := S16384x128) off S128x128.size inb)).set = ((r0V).view.slice (chunkRect g)).set
  rw [window_rect g off hoff inb]
theorem window_set_r1 (g : Fin 128) (off : Fin 2 → ℕ) (hoff : off = ![128 * g.val, 0]) (inb : ∀ a, off a + S128x128.size a ≤ S16384x128.size a) :
    ((r1V).slice (Rect.unit (s := S16384x128) off S128x128.size inb) (fun _ => rfl)).view.set = chunkSet g := by
  show ((r1V).view.slice (Rect.unit (s := S16384x128) off S128x128.size inb)).set = _
  rw [window_rect g off hoff inb]; exact chunkSet_r1 g
theorem window_set_r2 (g : Fin 128) (off : Fin 2 → ℕ) (hoff : off = ![128 * g.val, 0]) (inb : ∀ a, off a + S128x128.size a ≤ S16384x128.size a) :
    ((r2V).slice (Rect.unit (s := S16384x128) off S128x128.size inb) (fun _ => rfl)).view.set = chunkSet g := by
  show ((r2V).view.slice (Rect.unit (s := S16384x128) off S128x128.size inb)).set = _
  rw [window_rect g off hoff inb]; exact chunkSet_r2 g
theorem window_set_r3 (g : Fin 128) (off : Fin 2 → ℕ) (hoff : off = ![128 * g.val, 0]) (inb : ∀ a, off a + S128x128.size a ≤ S16384x128.size a) :
    ((r3V).slice (Rect.unit (s := S16384x128) off S128x128.size inb) (fun _ => rfl)).view.set = chunkSet g := by
  show ((r3V).view.slice (Rect.unit (s := S16384x128) off S128x128.size inb)).set = _
  rw [window_rect g off hoff inb]; exact chunkSet_r3 g
theorem window_set_r4 (g : Fin 128) (off : Fin 2 → ℕ) (hoff : off = ![128 * g.val, 0]) (inb : ∀ a, off a + S128x128.size a ≤ S16384x128.size a) :
    ((r4V).slice (Rect.unit (s := S16384x128) off S128x128.size inb) (fun _ => rfl)).view.set = chunkSet g := by
  show ((r4V).view.slice (Rect.unit (s := S16384x128) off S128x128.size inb)).set = _
  rw [window_rect g off hoff inb]; exact chunkSet_r4 g

/-- The SparseCore and the subcore of a tile of the call's grid. -/
abbrev coreOf (L : grid1.Coords) : Fin 2 := Fin.cast (rfl : grid1.bound 0 = 2) (L 0)
abbrev subOf (L : grid1.Coords) : Fin 16 := Fin.cast (rfl : grid1.bound 1 = 16) (L 1)

/-- The row offset the tile at `L` computes for its `j`-th window is its `j`-th chunk's. -/
theorem tile_off (L : grid1.Coords) (j : Fin 4) :
    k1_off3 L (BitVec.ofNat 32 j.val) = ![128 * (chunkIx (coreOf L) (subOf L) j).val, 0] := by
  have h : 1024 * (L 1).val + 512 * (L 0).val + 128 * j.val = 128 * (chunkIx (coreOf L) (subOf L) j).val := by
    rw [chunkIx_val]; show _ = 128 * (8 * (L 1).val + 4 * (L 0).val + j.val); omega
  rw [k1_off3_eq L j, h]

/-- The `j`-th window of the tile at `L` in each result has the elements of the tile's `j`-th chunk. -/
theorem tile_window_r0 (L : grid1.Coords) (j : Fin 4) :
    ((r0V).slice (Rect.unit (s := S16384x128) (k1_off3 L (BitVec.ofNat 32 j.val)) S128x128.size (k1_off3_inb L j)) (fun _ => rfl)).view.set
      = chunkSet (chunkIx (coreOf L) (subOf L) j) :=
  window_set_r0 _ _ (tile_off L j) _
theorem tile_window_r1 (L : grid1.Coords) (j : Fin 4) :
    ((r1V).slice (Rect.unit (s := S16384x128) (k1_off3 L (BitVec.ofNat 32 j.val)) S128x128.size (k1_off3_inb L j)) (fun _ => rfl)).view.set
      = chunkSet (chunkIx (coreOf L) (subOf L) j) :=
  window_set_r1 _ _ (tile_off L j) _
theorem tile_window_r2 (L : grid1.Coords) (j : Fin 4) :
    ((r2V).slice (Rect.unit (s := S16384x128) (k1_off3 L (BitVec.ofNat 32 j.val)) S128x128.size (k1_off3_inb L j)) (fun _ => rfl)).view.set
      = chunkSet (chunkIx (coreOf L) (subOf L) j) :=
  window_set_r2 _ _ (tile_off L j) _
theorem tile_window_r3 (L : grid1.Coords) (j : Fin 4) :
    ((r3V).slice (Rect.unit (s := S16384x128) (k1_off3 L (BitVec.ofNat 32 j.val)) S128x128.size (k1_off3_inb L j)) (fun _ => rfl)).view.set
      = chunkSet (chunkIx (coreOf L) (subOf L) j) :=
  window_set_r3 _ _ (tile_off L j) _
theorem tile_window_r4 (L : grid1.Coords) (j : Fin 4) :
    ((r4V).slice (Rect.unit (s := S16384x128) (k1_off3 L (BitVec.ofNat 32 j.val)) S128x128.size (k1_off3_inb L j)) (fun _ => rfl)).view.set
      = chunkSet (chunkIx (coreOf L) (subOf L) j) :=
  window_set_r4 _ _ (tile_off L j) _

/-- A result held whole is, chunk place by chunk place, every subcore's chunk at that place. -/
theorem whole_chunks_flat {ℓ : Loc nD τ sig} (A : Fin 128 → Finset (Idx ℓ))
    (hd : ∀ g ∈ (Finset.univ : Finset (Fin 128)), ∀ g' ∈ (Finset.univ : Finset (Fin 128)), g ≠ g' → Disjoint (A g) (A g'))
    (hc : (Finset.univ : Finset (Fin 128)).biUnion A = Finset.univ) (Y : Buf (Elt F) ℓ) :
    (ℓ ↦{fullShare} Y : sProp 𝕄) = iprop(
      (bigSep Finset.univ fun c : Fin 2 => bigSep Finset.univ fun s : Fin 16 => ℓ ↦[A (chunkIx c s 0)]{fullShare} Y)
      ∗ (bigSep Finset.univ fun c : Fin 2 => bigSep Finset.univ fun s : Fin 16 => ℓ ↦[A (chunkIx c s 1)]{fullShare} Y)
      ∗ (bigSep Finset.univ fun c : Fin 2 => bigSep Finset.univ fun s : Fin 16 => ℓ ↦[A (chunkIx c s 2)]{fullShare} Y)
      ∗ (bigSep Finset.univ fun c : Fin 2 => bigSep Finset.univ fun s : Fin 16 => ℓ ↦[A (chunkIx c s 3)]{fullShare} Y)) := by
  rw [pointsTo_cover A hd hc, chunks_tiles]
  simp only [bigSep_fin_four, bigSep_sep']

/-! ## What a subcore holds, what a SparseCore holds -/

abbrev loc5 (d : Dev nD) : Loc nD τ sig := (SparseCore.T d).loc main_v5
abbrev loc6 (d : Dev nD) : Loc nD τ sig := (SparseCore.T d).loc main_v6
abbrev loc24 (d : Dev nD) : Loc nD τ sig := (SparseCore.T d).loc main_v24
abbrev loc25 (d : Dev nD) : Loc nD τ sig := (SparseCore.T d).loc main_v25
abbrev locR0 (d : Dev nD) : Loc nD τ sig := (SparseCore.T d).loc main_v26_0
abbrev locR1 (d : Dev nD) : Loc nD τ sig := (SparseCore.T d).loc main_v26_1
abbrev locR2 (d : Dev nD) : Loc nD τ sig := (SparseCore.T d).loc main_v26_2
abbrev locR3 (d : Dev nD) : Loc nD τ sig := (SparseCore.T d).loc main_v26_3
abbrev locR4 (d : Dev nD) : Loc nD τ sig := (SparseCore.T d).loc main_v26_4

section Holdings

variable (d : Dev nD) (c : Fin 2) (s : Fin 16)
variable (X5 : Buf (Elt F) (loc5 d)) (X6 : Buf (Elt F) (loc6 d)) (X24 : Buf (Elt F) (loc24 d)) (X25 : Buf (Elt F) (loc25 d))
variable (Y0 : Buf (Elt F) (locR0 d)) (Y1 : Buf (Elt F) (locR1 d)) (Y2 : Buf (Elt F) (locR2 d)) (Y3 : Buf (Elt F) (locR3 d)) (Y4 : Buf (Elt F) (locR4 d))
variable (G0 : Buf (Elt F) (locR0 d)) (G1 : Buf (Elt F) (locR1 d)) (G2 : Buf (Elt F) (locR2 d)) (G3 : Buf (Elt F) (locR3 d)) (G4 : Buf (Elt F) (locR4 d))

/-- What subcore `s` of SparseCore `c` is handed: its share of each array that is only read, whole; its four chunks of each
    result, in full, the results at contents `Y0 … Y4` (result by result, chunk by chunk). -/
def subGo : sProp 𝕄 :=
  iprop((loc5 d ↦{leafShare c s} X5) ∗ (loc6 d ↦{leafShare c s} X6) ∗ (loc24 d ↦{leafShare c s} X24) ∗ (loc25 d ↦{leafShare c s} X25)
    ∗ (locR0 d ↦[chunkSet (chunkIx c s 0)]{fullShare} Y0) ∗ (locR0 d ↦[chunkSet (chunkIx c s 1)]{fullShare} Y0) ∗ (locR0 d ↦[chunkSet (chunkIx c s 2)]{fullShare} Y0) ∗ (locR0 d ↦[chunkSet (chunkIx c s 3)]{fullShare} Y0)
    ∗ (locR1 d ↦[chunkSet (chunkIx c s 0)]{fullShare} Y1) ∗ (locR1 d ↦[chunkSet (chunkIx c s 1)]{fullShare} Y1) ∗ (locR1 d ↦[chunkSet (chunkIx c s 2)]{fullShare} Y1) ∗ (locR1 d ↦[chunkSet (chunkIx c s 3)]{fullShare} Y1)
    ∗ (locR2 d ↦[chunkSet (chunkIx c s 0)]{fullShare} Y2) ∗ (locR2 d ↦[chunkSet (chunkIx c s 1)]{fullShare} Y2) ∗ (locR2 d ↦[chunkSet (chunkIx c s 2)]{fullShare} Y2) ∗ (locR2 d ↦[chunkSet (chunkIx c s 3)]{fullShare} Y2)
    ∗ (locR3 d ↦[chunkSet (chunkIx c s 0)]{fullShare} Y3) ∗ (locR3 d ↦[chunkSet (chunkIx c s 1)]{fullShare} Y3) ∗ (locR3 d ↦[chunkSet (chunkIx c s 2)]{fullShare} Y3) ∗ (locR3 d ↦[chunkSet (chunkIx c s 3)]{fullShare} Y3)
    ∗ (locR4 d ↦[chunkSet (chunkIx c s 0)]{fullShare} Y4) ∗ (locR4 d ↦[chunkSet (chunkIx c s 1)]{fullShare} Y4) ∗ (locR4 d ↦[chunkSet (chunkIx c s 2)]{fullShare} Y4) ∗ locR4 d ↦[chunkSet (chunkIx c s 3)]{fullShare} Y4)

/-- What it hands back: the same, its chunks of the results at the contents `G0 … G4`. -/
abbrev subTd : sProp 𝕄 := subGo d c s X5 X6 X24 X25 G0 G1 G2 G3 G4

/-- What SparseCore `c` is handed: its sixteen subcores' holdings. -/
def coreSt : sProp 𝕄 := bigSep Finset.univ fun s : Fin 16 => subGo d c s X5 X6 X24 X25 Y0 Y1 Y2 Y3 Y4

/-- What it hands back. -/
abbrev coreDn : sProp 𝕄 := coreSt d c X5 X6 X24 X25 G0 G1 G2 G3 G4

theorem coreSt_eq : coreSt d c X5 X6 X24 X25 Y0 Y1 Y2 Y3 Y4 = bigSep Finset.univ fun s : Fin 16 => subGo d c s X5 X6 X24 X25 Y0 Y1 Y2 Y3 Y4 := rfl

set_option synthInstance.maxSize 4096 in
set_option synthInstance.maxHeartbeats 400000 in
instance subGo_storable : BI.Storable (upEmb : UEmb _ 𝕄) (subGo d c s X5 X6 X24 X25 Y0 Y1 Y2 Y3 Y4) := by
  unfold subGo; infer_instance
instance coreSt_storable : BI.Storable (upEmb : UEmb _ 𝕄) (coreSt d c X5 X6 X24 X25 Y0 Y1 Y2 Y3 Y4) := by
  unfold coreSt; infer_instance

/-- A SparseCore's holding is its subcores' holdings, and their holdings at the end are its own. -/
theorem split_core :
    coreSt d c X5 X6 X24 X25 Y0 Y1 Y2 Y3 Y4 ⊢ |={Set.univ}=> iprop(
      (bigSep Finset.univ fun s : Fin 16 => subGo d c s X5 X6 X24 X25 Y0 Y1 Y2 Y3 Y4)
      ∗ ((bigSep Finset.univ fun s : Fin 16 => subTd d c s X5 X6 X24 X25 G0 G1 G2 G3 G4) -∗ coreDn d c X5 X6 X24 X25 G0 G1 G2 G3 G4)) := by
  unfold coreDn coreSt
  iintro H; imodintro
  isplitl [H]; · iexact H
  iintro H'; iexact H'

/-- The nine arrays held whole at the full share are the two SparseCores' holdings. -/
theorem whole_eq_cores :
    (iprop((loc5 d ↦{fullShare} X5) ∗ (loc6 d ↦{fullShare} X6) ∗ (loc24 d ↦{fullShare} X24) ∗ (loc25 d ↦{fullShare} X25)
      ∗ (locR0 d ↦{fullShare} Y0) ∗ (locR1 d ↦{fullShare} Y1) ∗ (locR2 d ↦{fullShare} Y2) ∗ (locR3 d ↦{fullShare} Y3) ∗ (locR4 d ↦{fullShare} Y4)) : sProp 𝕄)
      = bigSep Finset.univ fun c : Fin 2 => coreSt d c X5 X6 X24 X25 Y0 Y1 Y2 Y3 Y4 := by
  rw [whole_shares X5, whole_shares X6, whole_shares X24, whole_shares X25,
    whole_chunks_flat (ℓ := locR0 d) chunkSet chunks_disjoint chunks_cover Y0, whole_chunks_flat (ℓ := locR1 d) chunkSet chunks_disjoint chunks_cover Y1,
    whole_chunks_flat (ℓ := locR2 d) chunkSet chunks_disjoint chunks_cover Y2, whole_chunks_flat (ℓ := locR3 d) chunkSet chunks_disjoint chunks_cover Y3,
    whole_chunks_flat (ℓ := locR4 d) chunkSet chunks_disjoint chunks_cover Y4]
  unfold coreSt subGo
  simp only [bigSep_sep', sep_assoc_eq]

/-- What the TensorCore holds at the call is what the two SparseCores are handed. -/
theorem hand_over :
    (iprop((loc5 d ↦{fullShare} X5) ∗ (loc6 d ↦{fullShare} X6) ∗ (loc24 d ↦{fullShare} X24) ∗ (loc25 d ↦{fullShare} X25)
      ∗ (locR0 d ↦{fullShare} Y0) ∗ (locR1 d ↦{fullShare} Y1) ∗ (locR2 d ↦{fullShare} Y2) ∗ (locR3 d ↦{fullShare} Y3) ∗ (locR4 d ↦{fullShare} Y4)) : sProp 𝕄)
      ⊢ bigSep Finset.univ fun c : Fin 2 => coreSt d c X5 X6 X24 X25 Y0 Y1 Y2 Y3 Y4 :=
  entails_of_eq (whole_eq_cores d X5 X6 X24 X25 Y0 Y1 Y2 Y3 Y4)

/-- What the two SparseCores hand back is the nine arrays whole at the full share: the arrays that were only read at
    their contents, the results at `G0 … G4`. -/
theorem take_back :
    (bigSep Finset.univ fun c : Fin 2 => coreDn d c X5 X6 X24 X25 G0 G1 G2 G3 G4)
      ⊢ (iprop((loc5 d ↦{fullShare} X5) ∗ (loc6 d ↦{fullShare} X6) ∗ (loc24 d ↦{fullShare} X24) ∗ (loc25 d ↦{fullShare} X25)
      ∗ (locR0 d ↦{fullShare} G0) ∗ (locR1 d ↦{fullShare} G1) ∗ (locR2 d ↦{fullShare} G2) ∗ (locR3 d ↦{fullShare} G3) ∗ (locR4 d ↦{fullShare} G4)) : sProp 𝕄) :=
  entails_of_eq (whole_eq_cores d X5 X6 X24 X25 G0 G1 G2 G3 G4).symm

end Holdings

/-! ## The call's own index types -/

/-- A family over the call's SparseCores is one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
/-- A family over the call's subcores is one over `Fin 16`. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A split stated over `Fin 2` and `Fin 16` is one over the call's own SparseCores and subcores. -/
theorem split_call (st dn : Dev nD → Fin 2 → sProp 𝕄) (go td : Dev nD → Fin 2 → Fin 16 → sProp 𝕄)
    (h : ∀ d c, st d c ⊢ |={Set.univ}=> iprop((bigSep Finset.univ fun s : Fin 16 => go d c s) ∗ ((bigSep Finset.univ fun s : Fin 16 => td d c s) -∗ dn d c)))
    (d : Dev nD) (c : Fin ((K (F := F)).nCore 0)) :
    st d (Fin.cast nCore_zero c) ⊢ |={Set.univ}=> iprop(
      (bigSep Finset.univ fun i : Fin ((K (F := F)).nSub 0) => go d (Fin.cast nCore_zero c) (Fin.cast nSub_zero i))
      ∗ ((bigSep Finset.univ fun i : Fin ((K (F := F)).nSub 0) => td d (Fin.cast nCore_zero c) (Fin.cast nSub_zero i)) -∗ dn d (Fin.cast nCore_zero c))) := by
  rw [bigSep_subs (F := F) (fun s => go d (Fin.cast nCore_zero c) s), bigSep_subs (F := F) (fun s => td d (Fin.cast nCore_zero c) s)]
  exact h d _

end Cert.Proof.KI

end
-- ==== Proof.HandOver.lean ====
/-
  The TensorCore's side of the SparseCore call. Before the call the TensorCore holds its nine arrays whole, at a
  valuation; that is what the call hands the two SparseCores. After it the SparseCores hand back the same arrays, the
  four that were only read unchanged and the five results at their new contents; that is the nine arrays held at the
  valuation updated at the five results. Every other array is untouched by the update.
-/
import proofs.«205037_g73117523247527_cont_9to1c4b_608_48_alg».proof.Proof.Split
import proofs.«205037_g73117523247527_cont_9to1c4b_608_48_alg».proof.Proof.LaunchDefs

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The nine arrays of the call -/

abbrev r5' : DevRef τ sig := Proc.devRef .tc (main_v5 : Ref sig .tc)
abbrev r6' : DevRef τ sig := Proc.devRef .tc (main_v6 : Ref sig .tc)
abbrev r24' : DevRef τ sig := Proc.devRef .tc (main_v24 : Ref sig .tc)
abbrev r25' : DevRef τ sig := Proc.devRef .tc (main_v25 : Ref sig .tc)
abbrev o0' : DevRef τ sig := Proc.devRef .tc (main_v26_0 : Ref sig .tc)
abbrev o1' : DevRef τ sig := Proc.devRef .tc (main_v26_1 : Ref sig .tc)
abbrev o2' : DevRef τ sig := Proc.devRef .tc (main_v26_2 : Ref sig .tc)
abbrev o3' : DevRef τ sig := Proc.devRef .tc (main_v26_3 : Ref sig .tc)
abbrev o4' : DevRef τ sig := Proc.devRef .tc (main_v26_4 : Ref sig .tc)

/-- The four arrays the call only reads and its five results. -/
def T9 : Finset (DevRef τ sig) := {r5', r6', r24', r25', o0', o1', o2', o3', o4'}

theorem mem_T9 {b : DevRef τ sig} :
    b ∈ T9 ↔ b = r5' ∨ b = r6' ∨ b = r24' ∨ b = r25' ∨ b = o0' ∨ b = o1' ∨ b = o2' ∨ b = o3' ∨ b = o4' := by
  unfold T9; simp only [Finset.mem_insert, Finset.mem_singleton]

/-- All nine are arrays of the TensorCore that no region scopes. -/
theorem T9_sub : T9 ⊆ Pipeline.ucRefs τ sig := by
  intro b hb
  rcases mem_T9.mp hb with rfl | rfl | rfl | rfl | rfl | rfl | rfl | rfl | rfl <;>
    exact Finset.mem_filter.mpr ⟨StableHlo.devRef_mem_tcRefs _, by decide⟩

/-- The nine arrays held at a valuation, one by one. -/
theorem held_T9 (d : Dev nD) (W : Valuation τ sig (Elt F)) :
    (held (SparseCore.T d) T9 W : sProp 𝕄)
      = iprop((loc5 d ↦{fullShare} W r5') ∗ (loc6 d ↦{fullShare} W r6') ∗ (loc24 d ↦{fullShare} W r24') ∗ (loc25 d ↦{fullShare} W r25')
        ∗ (locR0 d ↦{fullShare} W o0') ∗ (locR1 d ↦{fullShare} W o1') ∗ (locR2 d ↦{fullShare} W o2') ∗ (locR3 d ↦{fullShare} W o3')
        ∗ locR4 d ↦{fullShare} W o4') := by
  unfold held T9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The valuation after the call -/

section Call

variable (VA : Dev nD → Valuation τ sig (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- The valuation with the five results at their new contents. -/
def VS (d : Dev nD) : Valuation τ sig (Elt F) :=
  Function.update (Function.update (Function.update (Function.update (Function.update (VA d) o0' (G0 d)) o1' (G1 d)) o2' (G2 d)) o3' (G3 d)) o4' (G4 d)

/-- Away from the five results nothing changed. -/
theorem VS_of_ne (d : Dev nD) {b : DevRef τ sig} (h0 : b ≠ o0') (h1 : b ≠ o1') (h2 : b ≠ o2') (h3 : b ≠ o3') (h4 : b ≠ o4') :
    VS VA G0 G1 G2 G3 G4 d b = VA d b := by
  unfold VS
  rw [Function.update_of_ne h4, Function.update_of_ne h3, Function.update_of_ne h2, Function.update_of_ne h1, Function.update_of_ne h0]

theorem VS_r5 (d : Dev nD) : VS VA G0 G1 G2 G3 G4 d r5' = VA d r5' := VS_of_ne VA G0 G1 G2 G3 G4 d (by decide) (by decide) (by decide) (by decide) (by decide)
theorem VS_r6 (d : Dev nD) : VS VA G0 G1 G2 G3 G4 d r6' = VA d r6' := VS_of_ne VA G0 G1 G2 G3 G4 d (by decide) (by decide) (by decide) (by decide) (by decide)
theorem VS_r24 (d : Dev nD) : VS VA G0 G1 G2 G3 G4 d r24' = VA d r24' := VS_of_ne VA G0 G1 G2 G3 G4 d (by decide) (by decide) (by decide) (by decide) (by decide)
theorem VS_r25 (d : Dev nD) : VS VA G0 G1 G2 G3 G4 d r25' = VA d r25' := VS_of_ne VA G0 G1 G2 G3 G4 d (by decide) (by decide) (by decide) (by decide) (by decide)
theorem VS_o0 (d : Dev nD) : VS VA G0 G1 G2 G3 G4 d o0' = G0 d := by
  unfold VS
  rw [Function.update_of_ne (show o0' ≠ o4' by decide), Function.update_of_ne (show o0' ≠ o3' by decide),
    Function.update_of_ne (show o0' ≠ o2' by decide), Function.update_of_ne (show o0' ≠ o1' by decide), Function.update_self]
theorem VS_o1 (d : Dev nD) : VS VA G0 G1 G2 G3 G4 d o1' = G1 d := by
  unfold VS
  rw [Function.update_of_ne (show o1' ≠ o4' by decide), Function.update_of_ne (show o1' ≠ o3' by decide),
    Function.update_of_ne (show o1' ≠ o2' by decide), Function.update_self]
theorem VS_o2 (d : Dev nD) : VS VA G0 G1 G2 G3 G4 d o2' = G2 d := by
  unfold VS
  rw [Function.update_of_ne (show o2' ≠ o4' by decide), Function.update_of_ne (show o2' ≠ o3' by decide), Function.update_self]
theorem VS_o3 (d : Dev nD) : VS VA G0 G1 G2 G3 G4 d o3' = G3 d := by
  unfold VS
  rw [Function.update_of_ne (show o3' ≠ o4' by decide), Function.update_self]
theorem VS_o4 (d : Dev nD) : VS VA G0 G1 G2 G3 G4 d o4' = G4 d := by
  unfold VS
  rw [Function.update_self]

/-- Every unscoped array outside the nine is where it was. -/
theorem hVS : ∀ d, ∀ b ∈ Pipeline.ucRefs τ sig \ T9, VS VA G0 G1 G2 G3 G4 d b = VA d b := by
  intro d b hb
  have hn : b ∉ T9 := (Finset.mem_sdiff.mp hb).2
  have hn' := fun h => hn (mem_T9.mpr h)
  exact VS_of_ne VA G0 G1 G2 G3 G4 d (fun h => hn' (by simp [h])) (fun h => hn' (by simp [h])) (fun h => hn' (by simp [h]))
    (fun h => hn' (by simp [h])) (fun h => hn' (by simp [h]))

/-! ## What the call carries -/

/-- What the call hands SparseCore `c`, -/
def cSt (d : Dev nD) (c : Fin 2) : sProp 𝕄 := coreSt d c (VA d r5') (VA d r6') (VA d r24') (VA d r25') (VA d o0') (VA d o1') (VA d o2') (VA d o3') (VA d o4')
/-- what it gets back, -/
def cDn (d : Dev nD) (c : Fin 2) : sProp 𝕄 := coreDn d c (VA d r5') (VA d r6') (VA d r24') (VA d r25') (G0 d) (G1 d) (G2 d) (G3 d) (G4 d)
/-- what subcore `s` of it is handed, -/
def tGo (d : Dev nD) (c : Fin 2) (s : Fin 16) : sProp 𝕄 := subGo d c s (VA d r5') (VA d r6') (VA d r24') (VA d r25') (VA d o0') (VA d o1') (VA d o2') (VA d o3') (VA d o4')
/-- and what that hands back. -/
def tTd (d : Dev nD) (c : Fin 2) (s : Fin 16) : sProp 𝕄 := subTd d c s (VA d r5') (VA d r6') (VA d r24') (VA d r25') (G0 d) (G1 d) (G2 d) (G3 d) (G4 d)

/-- The call's payloads. -/
abbrev Pc : (K (F := F)).Pay (nD := nD) (Val := Elt F) (Name := ℕ) (U := UU) := P (cSt VA) (cDn VA G0 G1 G2 G3 G4) (tGo VA) (tTd VA G0 G1 G2 G3 G4)

instance Pc_storable : (Pc VA G0 G1 G2 G3 G4).IsStorable where
  st q d c := match q with
    | 0 => (coreSt_storable d (Fin.cast nCore_zero c) (VA d r5') (VA d r6') (VA d r24') (VA d r25') (VA d o0') (VA d o1') (VA d o2') (VA d o3') (VA d o4') : BI.Storable (upEmb : UEmb _ 𝕄) _)
  dn q d c := match q with
    | 0 => (coreSt_storable d (Fin.cast nCore_zero c) (VA d r5') (VA d r6') (VA d r24') (VA d r25') (G0 d) (G1 d) (G2 d) (G3 d) (G4 d) : BI.Storable (upEmb : UEmb _ 𝕄) _)
  go q d c i := match q with
    | 0 => (subGo_storable d (Fin.cast nCore_zero c) (Fin.cast nSub_zero i) (VA d r5') (VA d r6') (VA d r24') (VA d r25') (VA d o0') (VA d o1') (VA d o2') (VA d o3') (VA d o4') : BI.Storable (upEmb : UEmb _ 𝕄) _)
  td q d c i := match q with
    | 0 => (subGo_storable d (Fin.cast nCore_zero c) (Fin.cast nSub_zero i) (VA d r5') (VA d r6') (VA d r24') (VA d r25') (G0 d) (G1 d) (G2 d) (G3 d) (G4 d) : BI.Storable (upEmb : UEmb _ 𝕄) _)

/-- The nine arrays the TensorCore holds are what the call hands the SparseCores. -/
theorem hand (d : Dev nD) :
    (held (SparseCore.T d) T9 (VA d) : sProp 𝕄) ⊢ bigSep Finset.univ fun c : Fin ((K (F := F)).nCore 0) => (Pc VA G0 G1 G2 G3 G4).st 0 d c := by
  show _ ⊢ bigSep Finset.univ fun c : Fin ((K (F := F)).nCore 0) => cSt VA d (Fin.cast nCore_zero c)
  rw [bigSep_cores (F := F) (fun c => cSt VA d c), held_T9]
  exact hand_over d (VA d r5') (VA d r6') (VA d r24') (VA d r25') (VA d o0') (VA d o1') (VA d o2') (VA d o3') (VA d o4')

/-- What the SparseCores hand back is the nine arrays held at the valuation after the call. -/
theorem back (d : Dev nD) :
    (bigSep Finset.univ fun c : Fin ((K (F := F)).nCore 0) => (Pc VA G0 G1 G2 G3 G4).dn 0 d c) ⊢ (held (SparseCore.T d) T9 (VS VA G0 G1 G2 G3 G4 d) : sProp 𝕄) := by
  show (bigSep Finset.univ fun c : Fin ((K (F := F)).nCore 0) => cDn VA G0 G1 G2 G3 G4 d (Fin.cast nCore_zero c)) ⊢ _
  rw [bigSep_cores (F := F) (fun c => cDn VA G0 G1 G2 G3 G4 d c), held_T9, VS_r5, VS_r6, VS_r24, VS_r25, VS_o0, VS_o1, VS_o2, VS_o3, VS_o4]
  exact take_back d (VA d r5') (VA d r6') (VA d r24') (VA d r25') (G0 d) (G1 d) (G2 d) (G3 d) (G4 d)

/-- Each SparseCore's operands split into its subcores' and gather again. -/
theorem vecSplit : (K (F := F)).VecSplit' (Pc VA G0 G1 G2 G3 G4) 0 := fun d c =>
  split_call (cSt VA) (cDn VA G0 G1 G2 G3 G4) (tGo VA) (tTd VA G0 G1 G2 G3 G4)
    (fun d c => split_core d c (VA d r5') (VA d r6') (VA d r24') (VA d r25') (VA d o0') (VA d o1') (VA d o2') (VA d o3') (VA d o4') (G0 d) (G1 d) (G2 d) (G3 d) (G4 d)) d c

end Call

end Cert.Proof.KI

end
-- ==== Proof.PackPick.lean ====
/-
  The data movement of the packed tables: two rows laid side by side in one packed row, the packed
  row taken at the pair index, and a half chosen by the parity give back the row's own entries.

  The entity table has 1000000 rows of 64 entries. Its first 998400 rows are 78 blocks of 12800: block
  `b` puts its first 6400 rows in the left halves (columns 0 … 63) of packed rows `6400 b … 6400 b + 6399`
  and its last 6400 rows in the right halves (columns 64 … 127). The last 1600 rows are packed the same
  way at half width 800 into packed rows `499200 … 499999`. So the left or right half `q` of packed row
  `p` holds row `(p / 6400) · 12800 + q · 6400 + p % 6400` before the tail and row
  `998400 + q · 800 + (p - 499200)` in it: exactly the reading of an entity index back from its
  packed row and half. The relation table's 1000 rows are paired in order: the half `q` of packed row
  `p` holds row `2 p + q`.
-/
import proofs.«205037_g73117523247527_cont_9to1c4b_608_48_alg».proof.Proof.IdxArith

namespace Cert.Proof.PackPick

open Idealize.ShloMosaic Cert.Proof

variable {α : Type}

/-! ## The packed tables -/

/-- The entity row that half `q` of packed row `p` holds. -/
def entIdx (p q : ℕ) : ℕ :=
  if p < 499200 then p / 6400 * 12800 + q * 6400 + p % 6400 else 998400 + q * 800 + (p - 499200)

theorem entIdx_lt {p q : ℕ} (hp : p < 500000) (hq : q < 2) : entIdx p q < 1000000 := by
  unfold entIdx; split <;> omega

/-- The entity table packed two rows to one. -/
def packedE (E : Fin 1000000 → Fin 64 → α) (r : Fin 500000) (c : Fin 128) : α :=
  if hr : r.val < 499200 then
    if hc : c.val < 64 then
      E ⟨r.val / 6400 * 12800 + r.val % 6400, by omega⟩ ⟨c.val, hc⟩
    else
      E ⟨r.val / 6400 * 12800 + 6400 + r.val % 6400, by omega⟩ ⟨c.val - 64, by omega⟩
  else
    if hc : c.val < 64 then
      E ⟨998400 + (r.val - 499200), by omega⟩ ⟨c.val, hc⟩
    else
      E ⟨998400 + 800 + (r.val - 499200), by omega⟩ ⟨c.val - 64, by omega⟩

/-- The relation table packed two rows to one: the row-major reading of `1000 × 64` as `500 × 128`. -/
def packedR (R : Fin 1000 → Fin 64 → α) (p : Fin 500) (c : Fin 128) : α :=
  R ⟨2 * p.val + c.val / 64, by omega⟩ ⟨c.val % 64, by omega⟩

/-- Entries of a table at equal row and column numbers are equal. -/
theorem table_congr {n m : ℕ} (T : Fin n → Fin m → α) {a a' : Fin n} {b b' : Fin m}
    (ha : a.val = a'.val) (hb : b.val = b'.val) : T a b = T a' b' := by
  rw [Fin.ext ha, Fin.ext hb]

/-- The packed entity table through the row each half holds. -/
theorem packedE_eq (E : Fin 1000000 → Fin 64 → α) (r : Fin 500000) (c : Fin 128) :
    packedE E r c
      = E ⟨entIdx r.val (c.val / 64), entIdx_lt r.isLt (by omega)⟩ ⟨c.val % 64, by omega⟩ := by
  have hr := r.isLt
  have hc := c.isLt
  unfold packedE
  split <;> split <;>
    exact table_congr E (by dsimp only; unfold entIdx; split <;> omega) (by dsimp only; omega)

/-- The left half of a packed entity row. -/
theorem packedE_lo (E : Fin 1000000 → Fin 64 → α) (r : Fin 500000) (j : Fin 64) :
    packedE E r ⟨j.val, by omega⟩ = E ⟨entIdx r.val 0, entIdx_lt r.isLt (by omega)⟩ j := by
  rw [packedE_eq]
  exact table_congr E (by dsimp only; rw [Nat.div_eq_of_lt j.isLt]) (by dsimp only; exact Nat.mod_eq_of_lt j.isLt)

/-- The right half of a packed entity row. -/
theorem packedE_hi (E : Fin 1000000 → Fin 64 → α) (r : Fin 500000) (j : Fin 64) :
    packedE E r ⟨64 + j.val, by omega⟩ = E ⟨entIdx r.val 1, entIdx_lt r.isLt (by omega)⟩ j := by
  rw [packedE_eq]
  have h1 : (64 + j.val) / 64 = 1 := by omega
  exact table_congr E (by dsimp only; rw [h1]) (by dsimp only; omega)

/-! ## Words in range as row numbers -/

theorem ent_toNat_lt {w : BitVec 32} (h0 : 0 ≤ w.toInt) (h1 : w.toInt ≤ 999999) : w.toNat < 1000000 := by
  have := BitVec.toInt_eq_toNat_of_msb (IdxArith.msb_of_toInt_nonneg h0)
  omega

theorem rel_toNat_lt {r : BitVec 32} (h0 : 0 ≤ r.toInt) (h1 : r.toInt ≤ 999) : r.toNat < 1000 := by
  have := BitVec.toInt_eq_toNat_of_msb (IdxArith.msb_of_toInt_nonneg h0)
  omega

theorem epair_lt {w : BitVec 32} (h0 : 0 ≤ w.toInt) (h1 : w.toInt ≤ 999999) :
    (IdxArith.epairW w).toNat < 500000 := (IdxArith.epair_spec w h0 h1).1

theorem rpair_lt {r : BitVec 32} (h0 : 0 ≤ r.toInt) (h1 : r.toInt ≤ 999) :
    (IdxArith.rpairW r).toNat < 500 := (IdxArith.rpair_spec r h0 h1).1

/-! ## Picking the half by the parity gives the row back -/

/-- The packed entity row at the pair index of `w`, its half chosen by the parity of `w`, is row `w`. -/
theorem pick_packedE (E : Fin 1000000 → Fin 64 → α) (w : BitVec 32) (h0 : 0 ≤ w.toInt)
    (h1 : w.toInt ≤ 999999) (j : Fin 64) :
    (if IdxArith.eparW w = 1#32 then
        packedE E ⟨(IdxArith.epairW w).toNat, epair_lt h0 h1⟩ ⟨64 + j.val, by omega⟩
      else packedE E ⟨(IdxArith.epairW w).toNat, epair_lt h0 h1⟩ ⟨j.val, by omega⟩)
      = E ⟨w.toNat, ent_toNat_lt h0 h1⟩ j := by
  obtain ⟨-, hq, -, hinv⟩ := IdxArith.epair_spec w h0 h1
  have hinv' : w.toNat = entIdx (IdxArith.epairW w).toNat (IdxArith.eparW w).toNat := hinv
  rcases hq with hq | hq
  · have hq0 : (IdxArith.eparW w).toNat = 0 := by rw [hq]; rfl
    rw [if_neg (by rw [hq]; decide), packedE_lo]
    exact table_congr E (by dsimp only; rw [hinv', hq0]) rfl
  · have hq1 : (IdxArith.eparW w).toNat = 1 := by rw [hq]; rfl
    rw [if_pos hq, packedE_hi]
    exact table_congr E (by dsimp only; rw [hinv', hq1]) rfl

/-- The packed relation row at the pair index of `r`, its half chosen by the parity of `r`, is row `r`. -/
theorem pick_packedR (R : Fin 1000 → Fin 64 → α) (r : BitVec 32) (h0 : 0 ≤ r.toInt)
    (h1 : r.toInt ≤ 999) (j : Fin 64) :
    (if IdxArith.rparW r = 1#32 then
        packedR R ⟨(IdxArith.rpairW r).toNat, rpair_lt h0 h1⟩ ⟨64 + j.val, by omega⟩
      else packedR R ⟨(IdxArith.rpairW r).toNat, rpair_lt h0 h1⟩ ⟨j.val, by omega⟩)
      = R ⟨r.toNat, rel_toNat_lt h0 h1⟩ j := by
  obtain ⟨-, hq, hinv⟩ := IdxArith.rpair_spec r h0 h1
  have hj := j.isLt
  rcases hq with hq | hq
  · have hq0 : (IdxArith.rparW r).toNat = 0 := by rw [hq]; rfl
    rw [if_neg (by rw [hq]; decide)]
    unfold packedR
    exact table_congr R (by dsimp only; omega) (by dsimp only; omega)
  · have hq1 : (IdxArith.rparW r).toNat = 1 := by rw [hq]; rfl
    rw [if_pos hq]
    unfold packedR
    exact table_congr R (by dsimp only; omega) (by dsimp only; omega)

/-! ## The same with the parities packed into one word and read back bit by bit -/

section Packed
variable (E : Fin 1000000 → Fin 64 → α) (R : Fin 1000 → Fin 64 → α)
  (w0 w1 w2 w3 r : BitVec 32)
  (h00 : 0 ≤ w0.toInt) (h01 : w0.toInt ≤ 999999) (h10 : 0 ≤ w1.toInt) (h11 : w1.toInt ≤ 999999)
  (h20 : 0 ≤ w2.toInt) (h21 : w2.toInt ≤ 999999) (h30 : 0 ≤ w3.toInt) (h31 : w3.toInt ≤ 999999)
  (hr0 : 0 ≤ r.toInt) (hr1 : r.toInt ≤ 999)

/-- The five parities in one word. -/
def pbits (w0 w1 w2 w3 r : BitVec 32) : BitVec 32 :=
  IdxArith.packW (IdxArith.eparW w0) (IdxArith.eparW w1) (IdxArith.eparW w2) (IdxArith.eparW w3)
    (IdxArith.rparW r)

include h00 h01 h10 h11 h20 h21 h30 h31 hr0 hr1

/-- Each bit of the packed word is set exactly where its parity is one. -/
theorem readBit_pbits :
    (IdxArith.readBitW 0#32 (pbits w0 w1 w2 w3 r) = 1#1 ↔ IdxArith.eparW w0 = 1#32) ∧
    (IdxArith.readBitW 1#32 (pbits w0 w1 w2 w3 r) = 1#1 ↔ IdxArith.eparW w1 = 1#32) ∧
    (IdxArith.readBitW 2#32 (pbits w0 w1 w2 w3 r) = 1#1 ↔ IdxArith.eparW w2 = 1#32) ∧
    (IdxArith.readBitW 3#32 (pbits w0 w1 w2 w3 r) = 1#1 ↔ IdxArith.eparW w3 = 1#32) ∧
    (IdxArith.readBitW 4#32 (pbits w0 w1 w2 w3 r) = 1#1 ↔ IdxArith.rparW r = 1#32) :=
  IdxArith.readBit_pack _ _ _ _ _ (IdxArith.epair_spec w0 h00 h01).2.1 (IdxArith.epair_spec w1 h10 h11).2.1
    (IdxArith.epair_spec w2 h20 h21).2.1 (IdxArith.epair_spec w3 h30 h31).2.1
    (IdxArith.rpair_spec r hr0 hr1).2.1

theorem pick_bit0 (j : Fin 64) :
    Scalar.select (IdxArith.readBitW 0#32 (pbits w0 w1 w2 w3 r))
        (packedE E ⟨(IdxArith.epairW w0).toNat, epair_lt h00 h01⟩ ⟨64 + j.val, by omega⟩)
        (packedE E ⟨(IdxArith.epairW w0).toNat, epair_lt h00 h01⟩ ⟨j.val, by omega⟩)
      = E ⟨w0.toNat, ent_toNat_lt h00 h01⟩ j := by
  rw [IdxArith.select_eq_ite (readBit_pbits w0 w1 w2 w3 r h00 h01 h10 h11 h20 h21 h30 h31 hr0 hr1).1]
  exact pick_packedE E w0 h00 h01 j

theorem pick_bit1 (j : Fin 64) :
    Scalar.select (IdxArith.readBitW 1#32 (pbits w0 w1 w2 w3 r))
        (packedE E ⟨(IdxArith.epairW w1).toNat, epair_lt h10 h11⟩ ⟨64 + j.val, by omega⟩)
        (packedE E ⟨(IdxArith.epairW w1).toNat, epair_lt h10 h11⟩ ⟨j.val, by omega⟩)
      = E ⟨w1.toNat, ent_toNat_lt h10 h11⟩ j := by
  rw [IdxArith.select_eq_ite (readBit_pbits w0 w1 w2 w3 r h00 h01 h10 h11 h20 h21 h30 h31 hr0 hr1).2.1]
  exact pick_packedE E w1 h10 h11 j

theorem pick_bit2 (j : Fin 64) :
    Scalar.select (IdxArith.readBitW 2#32 (pbits w0 w1 w2 w3 r))
        (packedE E ⟨(IdxArith.epairW w2).toNat, epair_lt h20 h21⟩ ⟨64 + j.val, by omega⟩)
        (packedE E ⟨(IdxArith.epairW w2).toNat, epair_lt h20 h21⟩ ⟨j.val, by omega⟩)
      = E ⟨w2.toNat, ent_toNat_lt h20 h21⟩ j := by
  rw [IdxArith.select_eq_ite (readBit_pbits w0 w1 w2 w3 r h00 h01 h10 h11 h20 h21 h30 h31 hr0 hr1).2.2.1]
  exact pick_packedE E w2 h20 h21 j

theorem pick_bit3 (j : Fin 64) :
    Scalar.select (IdxArith.readBitW 3#32 (pbits w0 w1 w2 w3 r))
        (packedE E ⟨(IdxArith.epairW w3).toNat, epair_lt h30 h31⟩ ⟨64 + j.val, by omega⟩)
        (packedE E ⟨(IdxArith.epairW w3).toNat, epair_lt h30 h31⟩ ⟨j.val, by omega⟩)
      = E ⟨w3.toNat, ent_toNat_lt h30 h31⟩ j := by
  rw [IdxArith.select_eq_ite (readBit_pbits w0 w1 w2 w3 r h00 h01 h10 h11 h20 h21 h30 h31 hr0 hr1).2.2.2.1]
  exact pick_packedE E w3 h30 h31 j

theorem pick_bit4 (j : Fin 64) :
    Scalar.select (IdxArith.readBitW 4#32 (pbits w0 w1 w2 w3 r))
        (packedR R ⟨(IdxArith.rpairW r).toNat, rpair_lt hr0 hr1⟩ ⟨64 + j.val, by omega⟩)
        (packedR R ⟨(IdxArith.rpairW r).toNat, rpair_lt hr0 hr1⟩ ⟨j.val, by omega⟩)
      = R ⟨r.toNat, rel_toNat_lt hr0 hr1⟩ j := by
  rw [IdxArith.select_eq_ite (readBit_pbits w0 w1 w2 w3 r h00 h01 h10 h11 h20 h21 h30 h31 hr0 hr1).2.2.2.2]
  exact pick_packedR R r hr0 hr1 j

end Packed

end Cert.Proof.PackPick
-- ==== Proof.PackedDef.lean ====
/-
  What the packing kernel leaves, as an array: packed row `r` before the tail reads the transposed
  entity table at entity `(r / 6400) · 12800 + (c / 64) · 6400 + r % 6400`, entry `c % 64`, where `c` is the
  column; a packed row of the tail is a row of the tail array as it stands. With the transposed table
  and the tail array read off the entity table, this is the entity table packed two rows to one.
-/
import proofs.«205037_g73117523247527_cont_9to1c4b_608_48_alg».proof.Proof.PackPick
import Idealize.ShloMosaic.Lib.ValueIdx

namespace Cert.Proof.KI

open Idealize.ShloMosaic Idealize.ShloMosaic.ValueIdx Cert.Proof

variable {α : Type}

/-- The packed entity table from the transposed table `X0` and the tail array `X4`. -/
def packedVal (X0 : (⟨2, ![64, 1000000]⟩ : Shape).Idx → α) (X4 : (⟨2, ![800, 128]⟩ : Shape).Idx → α) :
    (⟨2, ![500000, 128]⟩ : Shape).Idx → α :=
  fun x =>
    if h : (x 0).val < 499200 then
      X0 (ix2 ⟨(x 1).val % 64, by omega⟩
        ⟨(x 0).val / 6400 * 12800 + (x 1).val / 64 * 6400 + (x 0).val % 6400, by
          have h1 := idx2_lt1 x
          omega⟩)
    else
      X4 (ix2 ⟨(x 0).val - 499200, by
          have h0 := idx2_lt0 x
          omega⟩
        ⟨(x 1).val, idx2_lt1 x⟩)

/-- Entries of an array at equal coordinates are equal. -/
theorem ix2_congr {n0 n1 : ℕ} (T : (⟨2, ![n0, n1]⟩ : Shape).Idx → α) {a a' : Fin n0} {b b' : Fin n1}
    (ha : a.val = a'.val) (hb : b.val = b'.val) : T (ix2 a b) = T (ix2 a' b') := by
  rw [Fin.ext ha, Fin.ext hb]

section Apply
variable (X0 : (⟨2, ![64, 1000000]⟩ : Shape).Idx → α) (X4 : (⟨2, ![800, 128]⟩ : Shape).Idx → α)
  (r : Fin 500000) (col : Fin 128)

/-- A packed row before the tail reads the transposed table. -/
theorem packedVal_apply_lo (h : r.val < 499200) :
    packedVal X0 X4 (ix2 r col)
      = X0 (ix2 ⟨col.val % 64, by omega⟩
          ⟨r.val / 6400 * 12800 + col.val / 64 * 6400 + r.val % 6400, by omega⟩) := by
  unfold packedVal
  rw [dif_pos (show ((ix2 r col : (⟨2, ![500000, 128]⟩ : Shape).Idx) 0).val < 499200 from h)]

/-- A packed row of the tail is the tail array's row. -/
theorem packedVal_apply_hi (h : ¬ r.val < 499200) :
    packedVal X0 X4 (ix2 r col) = X4 (ix2 ⟨r.val - 499200, by omega⟩ col) := by
  unfold packedVal
  rw [dif_neg (show ¬ ((ix2 r col : (⟨2, ![500000, 128]⟩ : Shape).Idx) 0).val < 499200 from h)]

end Apply

/-- With the transposed table and the tail array read off the entity table, the packed array is the entity
    table packed two rows to one. -/
theorem packedVal_eq_packedE (E : (⟨2, ![1000000, 64]⟩ : Shape).Idx → α)
    (X0 : (⟨2, ![64, 1000000]⟩ : Shape).Idx → α) (X4 : (⟨2, ![800, 128]⟩ : Shape).Idx → α)
    (h0 : ∀ (j : Fin 64) (i : Fin 1000000), X0 (ix2 j i) = E (ix2 i j))
    (h4 : ∀ (j : Fin 800) (c : Fin 128),
      X4 (ix2 j c) = E (ix2 ⟨998400 + j.val + 800 * (c.val / 64), by omega⟩ ⟨c.val % 64, by omega⟩))
    (r : Fin 500000) (col : Fin 128) :
    packedVal X0 X4 (ix2 r col) = PackPick.packedE (fun i j => E (ix2 i j)) r col := by
  have hr := r.isLt
  have hc := col.isLt
  rw [PackPick.packedE_eq]
  by_cases h : r.val < 499200
  · rw [packedVal_apply_lo X0 X4 r col h, h0]
    exact ix2_congr E (by dsimp only; unfold PackPick.entIdx; rw [if_pos h]) rfl
  · rw [packedVal_apply_hi X0 X4 r col h, h4]
    exact ix2_congr E (by dsimp only; unfold PackPick.entIdx; rw [if_neg h]; omega) rfl

end Cert.Proof.KI
-- ==== Proof.Pack.lean ====
/-
  TensorCore kernel 0 of the program, the packing of the entity table: the transposed table `x` (64 × 1000000) is read in
  78 chunks of 12800 columns by the kernel's own copies into two buffers in turn, each chunk is transposed and its two halves
  of 6400 rows laid side by side into a 6400 × 128 block, and the block is copied out into 6400 rows of the result `o`
  (500000 × 128); the last 800 rows of `o` are a copy of the second operand. One copy is outstanding on each of the four
  semaphores at a time and no buffer is touched while a copy into or out of it is pending. The counted loop of 39 trips
  (two chunks a trip) is gone through once, at a symbolic trip, by an invariant that carries the copies in flight from
  one trip to the next.
-/
import proofs.«205037_g73117523247527_cont_9to1c4b_608_48_alg».proof.Proof.Common
import proofs.«205037_g73117523247527_cont_9to1c4b_608_48_alg».proof.Proof.PackedDef
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Names -/

/-- The contents type of buffer `b` on core `c`. -/
abbrev Bf (c : Dev nD) (b : Ref sig .tc) : Type := Buf (Elt F) ((Memref.whole b).view.loc (c.tc : Thread nD τ))
/-- Buffer `b` of core `c` held whole at share `q` and contents `f`. -/
abbrev pt (c : Dev nD) (b : Ref sig .tc) (q : PosShare TreeShare) (f : Bf (F := F) c b) : sProp 𝕄 :=
  (Memref.whole b).view.loc (c.tc : Thread nD τ) ↦{q} f
/-- Elements `S` of buffer `b` of core `c` held at share `q` and contents `f`. -/
abbrev ptOn (c : Dev nD) (b : Ref sig .tc) (S : Finset (Idx ((Memref.whole b).view.loc (c.tc : Thread nD τ)))) (q : PosShare TreeShare) (f : Bf (F := F) c b) : sProp 𝕄 :=
  (Memref.whole b).view.loc (c.tc : Thread nD τ) ↦[S]{q} f
/-- The counter of one of the kernel's own DMA semaphores. -/
abbrev cell (c : Dev nD) (a : DmaSems sig S_) (v : ℕ) : sProp 𝕄 := semVal ((c.tc : Thread nD τ), SemLoc.dma a.sem) v
/-- A copy of the kernel's in flight on its semaphore `a`, delivering `D` at its wait. -/
abbrev fly (c : Dev nD) (a : DmaSems sig S_) (D : sProp 𝕄) : sProp 𝕄 :=
  Transfers.Flight countersEmb (c.tc : Thread nD τ) (SemLoc.dma a.sem) default 102400 D
/-- The two read shares of the table, one for each semaphore its chunks are copied on. -/
abbrev tok (q : PosShare TreeShare) (i : Fin 2) : PosShare TreeShare := Transfers.shareTok q 2 i

/-- The trip's first guard (`k > 0`), as the region computes it from the induction variable. -/
def cond1 (k : Fin k0_t1_loop.trips) : BitVec 1 :=
  Scalar.cmpi .ne (Scalar.extui (Scalar.cmpi .sgt (Scalar.addi 0#32 (Scalar.muli (Scf.iv 0#32 1#32 k) 1#32)) 0#32) : BitVec 32) 0#32
theorem cond1_iff : ∀ k : Fin k0_t1_loop.trips, cond1 k = 1#1 ↔ 0 < k.val := by decide +kernel
theorem cond2_iff : ∀ k : Fin k0_t1_loop.trips, k0_cond2 k = 1#1 ↔ k.val < 38 := by decide +kernel
theorem cond1_pos {k : Fin k0_t1_loop.trips} (h : 0 < k.val) : cond1 k = 1#1 := (cond1_iff k).2 h
theorem cond1_neg {k : Fin k0_t1_loop.trips} (h : k.val = 0) : ¬ cond1 k = 1#1 := fun e => absurd ((cond1_iff k).1 e) (by omega)
theorem cond2_pos {k : Fin k0_t1_loop.trips} (h : k.val < 38) : k0_cond2 k = 1#1 := (cond2_iff k).2 h
theorem cond2_neg {k : Fin k0_t1_loop.trips} (h : ¬ k.val < 38) : ¬ k0_cond2 k = 1#1 := fun e => h ((cond2_iff k).1 e)
/-- A window of the transposed table as the kernel slices it: 64 rows, 12800 columns from `off`. -/
abbrev inW (off : Fin 2 → Nat) (h : ∀ a, off a + S64x12800.size a ≤ S64x1000000.size a) : Memref sig .tc .hbm S64x12800 .f32 :=
  (Memref.whole main_v0).slice (Rect.unit (s := S64x1000000) off S64x12800.size h) (fun _ => rfl)

/-- A window of the packed table as the kernel slices it: 6400 rows from `off`, all 128 columns. -/
abbrev outW (off : Fin 2 → Nat) (h : ∀ a, off a + S6400x128.size a ≤ S500000x128.size a) : Memref sig .tc .hbm S6400x128 .f32 :=
  (Memref.whole main_v5).slice (Rect.unit (s := S500000x128) off S6400x128.size h) (fun _ => rfl)

/-- Two such windows whose row ranges do not meet share no element. -/
theorem outW_disjoint (o₁ o₂ : Fin 2 → Nat) (h₁ : ∀ a, o₁ a + S6400x128.size a ≤ S500000x128.size a) (h₂ : ∀ a, o₂ a + S6400x128.size a ≤ S500000x128.size a)
    (hsep : o₁ 0 + 6400 ≤ o₂ 0 ∨ o₂ 0 + 6400 ≤ o₁ 0) : Disjoint (outW o₁ h₁).view.set (outW o₂ h₂).view.set :=
  View.disjoint_slice_of_sep (Memref.whole main_v5).view _ _ 0 rfl rfl hsep

/-! ## Pieces of one array put back together -/

section Join
variable {ℓ : Loc nD τ sig} {A B A' B' : Finset (Idx ℓ)} {q : PosShare TreeShare} {fA fB f : Buf (Elt F) ℓ}

/-- Two landed windows `A`, `B` rejoin what is held of the array less them and less two later windows `A'`, `B'`. -/
theorem rejoin_step (hAB : Disjoint A B) (hAA' : Disjoint A A') (hAB' : Disjoint A B') (hBA' : Disjoint B A') (hBB' : Disjoint B B') :
    iprop((ℓ ↦[A]{q} fA) ∗ (ℓ ↦[B]{q} fB) ∗ (ℓ ↦[(((Finset.univ \ A) \ B) \ A') \ B']{q} f))
      ⊢ (ℓ ↦[(Finset.univ \ A') \ B']{q} (A.piecewise fA (B.piecewise fB f)) : sProp 𝕄) := by
  have hset : (((Finset.univ \ A) \ B) \ A') \ B' = (((Finset.univ \ A') \ B') \ A) \ B := by
    ext i; simp only [Finset.mem_sdiff, Finset.mem_univ, true_and]; tauto
  have hA : A ⊆ (Finset.univ \ A') \ B' := fun i hi =>
    Finset.mem_sdiff.2 ⟨Finset.mem_sdiff.2 ⟨Finset.mem_univ _, Finset.disjoint_left.1 hAA' hi⟩, Finset.disjoint_left.1 hAB' hi⟩
  have hB : B ⊆ ((Finset.univ \ A') \ B') \ A := fun i hi =>
    Finset.mem_sdiff.2 ⟨Finset.mem_sdiff.2 ⟨Finset.mem_sdiff.2 ⟨Finset.mem_univ _, Finset.disjoint_left.1 hBA' hi⟩, Finset.disjoint_left.1 hBB' hi⟩,
      Finset.disjoint_right.1 hAB hi⟩
  rw [hset]
  iintro ⟨HA, HB, HR⟩
  iapply (pointsTo_join_subset hA)
  isplitl [HA]; · iexact HA
  iapply (pointsTo_join_subset hB)
  isplitl [HB]; · iexact HB
  iexact HR

/-- Two landed windows rejoin what is held of the array less them: the array whole. -/
theorem rejoin_last (hAB : Disjoint A B) :
    iprop((ℓ ↦[A]{q} fA) ∗ (ℓ ↦[B]{q} fB) ∗ (ℓ ↦[(Finset.univ \ A) \ B]{q} f))
      ⊢ (ℓ ↦{q} (A.piecewise fA (B.piecewise fB f)) : sProp 𝕄) := by
  have hB : B ⊆ Finset.univ \ A := fun i hi => Finset.mem_sdiff.2 ⟨Finset.mem_univ _, Finset.disjoint_right.1 hAB hi⟩
  iintro ⟨HA, HB, HR⟩
  iapply (pointsTo_join_subset (Finset.subset_univ A))
  isplitl [HA]; · iexact HA
  iapply (pointsTo_join_subset hB)
  isplitl [HB]; · iexact HB
  iexact HR

end Join

/-- A wait of the kernel's own records a pair at the kernel's index. -/
theorem recorded_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.1 hp with rfl | hp
  · exact Or.inr rfl
  · exact h p hp

/-! ## What the kernel computes -/

/-- The packed table as one function of the transposed table `X0` (64 × 1000000) and the tail `X4` (800 × 128): row
    `r < 499200` of the result, with `b = r / 6400` and `j = r % 6400`, holds columns `12800 b + j` and
    `12800 b + 6400 + j` of `X0` side by side (64 words each); row `499200 + j` holds row `j` of `X4`. -/
def packed {c : Dev nD} (X0 : Bf (F := F) c main_v0) (X4 : Bf (F := F) c main_v4) : Bf (F := F) c main_v5 := packedVal X0 X4

/-! ## Values -/

/-- The low half of a chunk transposed: entry `(a, b)` is the chunk's `(b, a)`. -/
theorem lo_apply (v : Vec F S64x12800 .f32) (a : Fin 6400) (b : Fin 64) :
    k0_pay5 v (ix2 a b) = v (ix2 b ⟨a.val, by omega⟩) := by
  unfold k0_pay5 k0_pay4
  dsimp only
  rw [shapeCast_self]
  rw [extractStridedSlice_apply ![0, 0] _ _ (ix2 a b) (ix2 (⟨a.val, by omega⟩ : Fin 12800) b)
    (fun d => match d with | ⟨0, _⟩ => by simp | ⟨1, _⟩ => by simp)]
  exact transpose_ix2_apply v _ _ b

/-- The high half: entry `(a, b)` is the chunk's `(b, 6400 + a)`. -/
theorem hi_apply (v : Vec F S64x12800 .f32) (a : Fin 6400) (b : Fin 64) :
    k0_pay6 v (ix2 a b) = v (ix2 b ⟨6400 + a.val, by omega⟩) := by
  unfold k0_pay6 k0_pay4
  dsimp only
  rw [shapeCast_self]
  rw [extractStridedSlice_apply ![6400, 0] _ _ (ix2 a b) (ix2 (⟨6400 + a.val, by omega⟩ : Fin 12800) b)
    (fun d => match d with | ⟨0, _⟩ => by simp | ⟨1, _⟩ => by simp)]
  exact transpose_ix2_apply v _ _ b

/-- The same two halves as the second buffer's trip spells them. -/
theorem lo_apply' (v : Vec F S64x12800 .f32) (a : Fin 6400) (b : Fin 64) :
    k0_pay2 v (ix2 a b) = v (ix2 b ⟨a.val, by omega⟩) := by
  unfold k0_pay2 k0_pay1
  dsimp only
  rw [shapeCast_self]
  rw [extractStridedSlice_apply ![0, 0] _ _ (ix2 a b) (ix2 (⟨a.val, by omega⟩ : Fin 12800) b)
    (fun d => match d with | ⟨0, _⟩ => by simp | ⟨1, _⟩ => by simp)]
  exact transpose_ix2_apply v _ _ b

theorem hi_apply' (v : Vec F S64x12800 .f32) (a : Fin 6400) (b : Fin 64) :
    k0_pay3 v (ix2 a b) = v (ix2 b ⟨6400 + a.val, by omega⟩) := by
  unfold k0_pay3 k0_pay1
  dsimp only
  rw [shapeCast_self]
  rw [extractStridedSlice_apply ![6400, 0] _ _ (ix2 a b) (ix2 (⟨6400 + a.val, by omega⟩ : Fin 12800) b)
    (fun d => match d with | ⟨0, _⟩ => by simp | ⟨1, _⟩ => by simp)]
  exact transpose_ix2_apply v _ _ b

/-- A unit-stride window of a whole buffer reads the buffer at the window's indices. -/
theorem read_window {κ : Kind} (b : Ref sig κ) (r : Rect b.ty.shape) (f : b.ty.Contents (Elt F)) (j : r.shape.Idx) :
    ((View.whole b).slice r).read (Elt F) f j = f (r.emb j) := by
  rw [View.read_apply]; simp

section Vals
variable {c : Dev nD} (X0 : Bf (F := F) c main_v0) (X4 : Bf (F := F) c main_v4)

/-- A window of the table reads the table at the window's indices. -/
theorem inW_read (off : Fin 2 → Nat) (hoff : ∀ a, off a + S64x12800.size a ≤ S64x1000000.size a) (a : Fin 64) (b : Fin 12800) :
    (inW off hoff).view.read (Elt F) X0 (ix2 a b)
      = X0 (ix2 ⟨off 0 + a.val, by have := hoff 0; simp at this; omega⟩ ⟨off 1 + b.val, by have := hoff 1; simp at this; omega⟩) := by
  have h := read_window (F := F) main_v0 (Rect.unit (s := S64x1000000) off S64x12800.size hoff) X0 (ix2 a b)
  refine Eq.trans h ?_
  refine congrArg X0 (funext fun d => Fin.ext ?_)
  match d with
  | ⟨0, _⟩ => show off 0 + 1 * a.val = off 0 + a.val; omega
  | ⟨1, _⟩ => show off 1 + 1 * b.val = off 1 + b.val; omega

/-- The input buffer read whole, once a chunk has landed in it: the table at the chunk's window. -/
theorem vec0 (g : Bf (F := F) c cc0_scratch0) (off : Fin 2 → Nat) (hoff : ∀ a, off a + S64x12800.size a ≤ S64x1000000.size a) (a : Fin 64) (b : Fin 12800) :
    View.readAt (Elt F) (Memref.whole cc0_scratch0).view (Rect.unit (s := S64x12800) ![0, 0] S64x12800.size inb_S64x12800_S64x12800_0_0).toLoadRect
        (View.write (Elt F) (Memref.whole cc0_scratch0).view g (ReadAs.same.apply ((inW off hoff).view.read (Elt F) X0)) Finset.univ) (ix2 a b)
      = X0 (ix2 ⟨off 0 + a.val, by have := hoff 0; simp at this; omega⟩ ⟨off 1 + b.val, by have := hoff 1; simp at this; omega⟩) := by
  have h := read_window (F := F) cc0_scratch0 (Rect.unit (s := S64x12800) ![0, 0] S64x12800.size inb_S64x12800_S64x12800_0_0)
    (View.write (Elt F) (View.whole cc0_scratch0) g (ReadAs.same.apply ((inW off hoff).view.read (Elt F) X0)) Finset.univ) (ix2 a b)
  refine Eq.trans h ?_
  rw [View.write_whole_univ]
  have e : (Rect.unit (s := S64x12800) ![0, 0] S64x12800.size inb_S64x12800_S64x12800_0_0).emb (ix2 a b) = ix2 a b :=
    funext fun d => Fin.ext (match d with
      | ⟨0, _⟩ => by show 0 + 1 * a.val = a.val; omega
      | ⟨1, _⟩ => by show 0 + 1 * b.val = b.val; omega)
  rw [e]
  exact inW_read X0 off hoff a b

/-- The input buffer read whole, once a chunk has landed in it: the table at the chunk's window. -/
theorem vec1 (g : Bf (F := F) c cc0_scratch1) (off : Fin 2 → Nat) (hoff : ∀ a, off a + S64x12800.size a ≤ S64x1000000.size a) (a : Fin 64) (b : Fin 12800) :
    View.readAt (Elt F) (Memref.whole cc0_scratch1).view (Rect.unit (s := S64x12800) ![0, 0] S64x12800.size inb_S64x12800_S64x12800_0_0).toLoadRect
        (View.write (Elt F) (Memref.whole cc0_scratch1).view g (ReadAs.same.apply ((inW off hoff).view.read (Elt F) X0)) Finset.univ) (ix2 a b)
      = X0 (ix2 ⟨off 0 + a.val, by have := hoff 0; simp at this; omega⟩ ⟨off 1 + b.val, by have := hoff 1; simp at this; omega⟩) := by
  have h := read_window (F := F) cc0_scratch1 (Rect.unit (s := S64x12800) ![0, 0] S64x12800.size inb_S64x12800_S64x12800_0_0)
    (View.write (Elt F) (View.whole cc0_scratch1) g (ReadAs.same.apply ((inW off hoff).view.read (Elt F) X0)) Finset.univ) (ix2 a b)
  refine Eq.trans h ?_
  rw [View.write_whole_univ]
  have e : (Rect.unit (s := S64x12800) ![0, 0] S64x12800.size inb_S64x12800_S64x12800_0_0).emb (ix2 a b) = ix2 a b :=
    funext fun d => Fin.ext (match d with
      | ⟨0, _⟩ => by show 0 + 1 * a.val = a.val; omega
      | ⟨1, _⟩ => by show 0 + 1 * b.val = b.val; omega)
  rw [e]
  exact inW_read X0 off hoff a b

/-- The block the kernel makes of chunk `m`: rows `[6400 m, 6400 m + 6400)` of the packed table. -/
theorem block0 (z : Bf (F := F) c cc0_scratch2) (v : Vec F S64x12800 .f32) (m : ℕ) (hm : m < 78)
    (hv : ∀ (a : Fin 64) (b : Fin 12800), v (ix2 a b) = X0 (ix2 a ⟨12800 * m + b.val, by omega⟩)) (j : S6400x128.Idx) :
    (Memref.whole cc0_scratch2).view.writes (Elt F) z
        [⟨Rect.unit (s := S6400x128) ![0, 64] S6400x64.size inb_S6400x128_S6400x64_0_64, k0_pay6 v⟩,
          ⟨Rect.unit (s := S6400x128) ![0, 0] S6400x64.size inb_S6400x128_S6400x64_0_0, k0_pay5 v⟩] j
      = packed X0 X4 (ix2 ⟨6400 * m + (j 0).val, by have := idx2_lt0 j; omega⟩ ⟨(j 1).val, idx2_lt1 j⟩) := by
  let G : S6400x128.Idx → Elt F .f32 := fun j => packed X0 X4 (ix2 ⟨6400 * m + (j 0).val, by have := idx2_lt0 j; omega⟩ ⟨(j 1).val, idx2_lt1 j⟩)
  let L : List (View.Piece (Elt F) S6400x128 .f32) :=
    [⟨Rect.unit (s := S6400x128) ![0, 64] S6400x64.size inb_S6400x128_S6400x64_0_64, k0_pay6 v⟩,
      ⟨Rect.unit (s := S6400x128) ![0, 0] S6400x64.size inb_S6400x128_S6400x64_0_0, k0_pay5 v⟩]
  have hp : ∀ p ∈ L, ∀ x : p.1.shape.Idx, p.2 x = G (p.1.emb x) := by
    intro p hp x
    simp only [L, List.mem_cons, List.mem_nil_iff, or_false] at hp
    rcases hp with rfl | rfl
    · obtain ⟨a, b, rfl⟩ : ∃ (a : Fin 6400) (b : Fin 64), x = ix2 a b := ⟨x 0, x 1, eq_ix2 x⟩
      show k0_pay6 v (ix2 a b) = packedVal X0 X4 _
      rw [hi_apply, hv, packedVal_apply_lo X0 X4 _ _ (show 6400 * m + (0 + 1 * a.val) < 499200 by omega)]
      exact ix2_congr X0 (show b.val = (64 + 1 * b.val) % 64 by omega)
        (show 12800 * m + (6400 + a.val) = (6400 * m + (0 + 1 * a.val)) / 6400 * 12800 + (64 + 1 * b.val) / 64 * 6400 + (6400 * m + (0 + 1 * a.val)) % 6400 by omega)
    · obtain ⟨a, b, rfl⟩ : ∃ (a : Fin 6400) (b : Fin 64), x = ix2 a b := ⟨x 0, x 1, eq_ix2 x⟩
      show k0_pay5 v (ix2 a b) = packedVal X0 X4 _
      rw [lo_apply, hv, packedVal_apply_lo X0 X4 _ _ (show 6400 * m + (0 + 1 * a.val) < 499200 by omega)]
      exact ix2_congr X0 (show b.val = (0 + 1 * b.val) % 64 by omega)
        (show 12800 * m + a.val = (6400 * m + (0 + 1 * a.val)) / 6400 * 12800 + (0 + 1 * b.val) / 64 * 6400 + (6400 * m + (0 + 1 * a.val)) % 6400 by omega)
  have hc : ∃ p ∈ L, j ∈ p.1.set := by
    have h0 := idx2_lt0 j
    have h1 := idx2_lt1 j
    by_cases hc : (j 1).val < 64
    · refine ⟨⟨Rect.unit (s := S6400x128) ![0, 0] S6400x64.size inb_S6400x128_S6400x64_0_0, k0_pay5 v⟩, List.mem_cons_of_mem _ List.mem_cons_self, ?_⟩
      show j ∈ (Rect.unit (s := S6400x128) ![0, 0] S6400x64.size inb_S6400x128_S6400x64_0_0).set
      refine Rect.mem_set_unit.2 fun a => ?_
      match a with
      | ⟨0, _⟩ => exact ⟨Nat.zero_le _, by show (j 0).val < 0 + 6400; omega⟩
      | ⟨1, _⟩ => exact ⟨Nat.zero_le _, by show (j 1).val < 0 + 64; omega⟩
    · refine ⟨⟨Rect.unit (s := S6400x128) ![0, 64] S6400x64.size inb_S6400x128_S6400x64_0_64, k0_pay6 v⟩, List.mem_cons_self, ?_⟩
      show j ∈ (Rect.unit (s := S6400x128) ![0, 64] S6400x64.size inb_S6400x128_S6400x64_0_64).set
      refine Rect.mem_set_unit.2 fun a => ?_
      match a with
      | ⟨0, _⟩ => exact ⟨Nat.zero_le _, by show (j 0).val < 0 + 6400; omega⟩
      | ⟨1, _⟩ => exact ⟨by show 64 ≤ (j 1).val; omega, by show (j 1).val < 64 + 64; omega⟩
  have key := View.read_writes_apply_of_pieces (View.whole cc0_scratch2) z G L hp j hc
  rw [View.read_whole] at key
  exact key

/-- The block the kernel makes of chunk `m`: rows `[6400 m, 6400 m + 6400)` of the packed table. -/
theorem block1 (z : Bf (F := F) c cc0_scratch3) (v : Vec F S64x12800 .f32) (m : ℕ) (hm : m < 78)
    (hv : ∀ (a : Fin 64) (b : Fin 12800), v (ix2 a b) = X0 (ix2 a ⟨12800 * m + b.val, by omega⟩)) (j : S6400x128.Idx) :
    (Memref.whole cc0_scratch3).view.writes (Elt F) z
        [⟨Rect.unit (s := S6400x128) ![0, 64] S6400x64.size inb_S6400x128_S6400x64_0_64, k0_pay3 v⟩,
          ⟨Rect.unit (s := S6400x128) ![0, 0] S6400x64.size inb_S6400x128_S6400x64_0_0, k0_pay2 v⟩] j
      = packed X0 X4 (ix2 ⟨6400 * m + (j 0).val, by have := idx2_lt0 j; omega⟩ ⟨(j 1).val, idx2_lt1 j⟩) := by
  let G : S6400x128.Idx → Elt F .f32 := fun j => packed X0 X4 (ix2 ⟨6400 * m + (j 0).val, by have := idx2_lt0 j; omega⟩ ⟨(j 1).val, idx2_lt1 j⟩)
  let L : List (View.Piece (Elt F) S6400x128 .f32) :=
    [⟨Rect.unit (s := S6400x128) ![0, 64] S6400x64.size inb_S6400x128_S6400x64_0_64, k0_pay3 v⟩,
      ⟨Rect.unit (s := S6400x128) ![0, 0] S6400x64.size inb_S6400x128_S6400x64_0_0, k0_pay2 v⟩]
  have hp : ∀ p ∈ L, ∀ x : p.1.shape.Idx, p.2 x = G (p.1.emb x) := by
    intro p hp x
    simp only [L, List.mem_cons, List.mem_nil_iff, or_false] at hp
    rcases hp with rfl | rfl
    · obtain ⟨a, b, rfl⟩ : ∃ (a : Fin 6400) (b : Fin 64), x = ix2 a b := ⟨x 0, x 1, eq_ix2 x⟩
      show k0_pay3 v (ix2 a b) = packedVal X0 X4 _
      rw [hi_apply', hv, packedVal_apply_lo X0 X4 _ _ (show 6400 * m + (0 + 1 * a.val) < 499200 by omega)]
      exact ix2_congr X0 (show b.val = (64 + 1 * b.val) % 64 by omega)
        (show 12800 * m + (6400 + a.val) = (6400 * m + (0 + 1 * a.val)) / 6400 * 12800 + (64 + 1 * b.val) / 64 * 6400 + (6400 * m + (0 + 1 * a.val)) % 6400 by omega)
    · obtain ⟨a, b, rfl⟩ : ∃ (a : Fin 6400) (b : Fin 64), x = ix2 a b := ⟨x 0, x 1, eq_ix2 x⟩
      show k0_pay2 v (ix2 a b) = packedVal X0 X4 _
      rw [lo_apply', hv, packedVal_apply_lo X0 X4 _ _ (show 6400 * m + (0 + 1 * a.val) < 499200 by omega)]
      exact ix2_congr X0 (show b.val = (0 + 1 * b.val) % 64 by omega)
        (show 12800 * m + a.val = (6400 * m + (0 + 1 * a.val)) / 6400 * 12800 + (0 + 1 * b.val) / 64 * 6400 + (6400 * m + (0 + 1 * a.val)) % 6400 by omega)
  have hc : ∃ p ∈ L, j ∈ p.1.set := by
    have h0 := idx2_lt0 j
    have h1 := idx2_lt1 j
    by_cases hc : (j 1).val < 64
    · refine ⟨⟨Rect.unit (s := S6400x128) ![0, 0] S6400x64.size inb_S6400x128_S6400x64_0_0, k0_pay2 v⟩, List.mem_cons_of_mem _ List.mem_cons_self, ?_⟩
      show j ∈ (Rect.unit (s := S6400x128) ![0, 0] S6400x64.size inb_S6400x128_S6400x64_0_0).set
      refine Rect.mem_set_unit.2 fun a => ?_
      match a with
      | ⟨0, _⟩ => exact ⟨Nat.zero_le _, by show (j 0).val < 0 + 6400; omega⟩
      | ⟨1, _⟩ => exact ⟨Nat.zero_le _, by show (j 1).val < 0 + 64; omega⟩
    · refine ⟨⟨Rect.unit (s := S6400x128) ![0, 64] S6400x64.size inb_S6400x128_S6400x64_0_64, k0_pay3 v⟩, List.mem_cons_self, ?_⟩
      show j ∈ (Rect.unit (s := S6400x128) ![0, 64] S6400x64.size inb_S6400x128_S6400x64_0_64).set
      refine Rect.mem_set_unit.2 fun a => ?_
      match a with
      | ⟨0, _⟩ => exact ⟨Nat.zero_le _, by show (j 0).val < 0 + 6400; omega⟩
      | ⟨1, _⟩ => exact ⟨by show 64 ≤ (j 1).val; omega, by show (j 1).val < 64 + 64; omega⟩
  have key := View.read_writes_apply_of_pieces (View.whole cc0_scratch3) z G L hp j hc
  rw [View.read_whole] at key
  exact key

/-- Rows `[o 0, o 0 + 6400)` of the result lie in the window at `o` (all 128 columns). -/
theorem mem_outW (o : Fin 2 → Nat) (h : ∀ a, o a + S6400x128.size a ≤ S500000x128.size a) (ho1 : o 1 = 0) (i : S500000x128.Idx)
    (h1 : o 0 ≤ (i 0).val) (h2 : (i 0).val < o 0 + 6400) : i ∈ (outW o h).view.set := by
  have e : (outW o h).view.set = (Rect.unit (s := S500000x128) o S6400x128.size h).set := View.set_slice_whole main_v5 _
  rw [e]
  refine Rect.mem_set_unit.2 fun a => ?_
  match a with
  | ⟨0, _⟩ => exact ⟨h1, h2⟩
  | ⟨1, _⟩ => exact ⟨by show o 1 ≤ (i 1).val; omega, by have := idx2_lt1 i; show (i 1).val < o 1 + 128; omega⟩

/-- What a copy of the block of chunk `m` leaves on its window of the result: the packed table there. -/
theorem land_val (o : Fin 2 → Nat) (h : ∀ a, o a + S6400x128.size a ≤ S500000x128.size a) (m : ℕ) (hm : m < 78) (ho0 : o 0 = 6400 * m) (ho1 : o 1 = 0)
    (y : Bf (F := F) c main_v5) (w : S6400x128.Idx → Elt F .f32)
    (hw : ∀ j : S6400x128.Idx, w j = packed X0 X4 (ix2 ⟨6400 * m + (j 0).val, by have := idx2_lt0 j; omega⟩ ⟨(j 1).val, idx2_lt1 j⟩)) :
    ∀ i : S500000x128.Idx, i ∈ (outW o h).view.set → View.write (Elt F) (outW o h).view y w Finset.univ i = packed X0 X4 i := by
  intro i hi
  obtain ⟨j, -, rfl⟩ := Finset.mem_map.mp hi
  rw [View.write_emb_of_mem _ _ (Finset.mem_univ j)]
  simp only [cast_eq]
  rw [hw]
  refine congrArg (packed X0 X4) (funext fun d => Fin.ext ?_)
  match d with
  | ⟨0, _⟩ => show 6400 * m + (j 0).val = o 0 + 1 * (j 0).val; omega
  | ⟨1, _⟩ => show (j 1).val = o 1 + 1 * (j 1).val; omega

/-- The result's contents off the two windows in flight, after a trip: rows below the trip's are the packed table's. -/
theorem rest_step (oA oB : Fin 2 → Nat) (hA : ∀ a, oA a + S6400x128.size a ≤ S500000x128.size a) (hB : ∀ a, oB a + S6400x128.size a ≤ S500000x128.size a)
    (o2 o4 : Fin 2 → Nat) (h2 : ∀ a, o2 a + S6400x128.size a ≤ S500000x128.size a) (h4 : ∀ a, o4 a + S6400x128.size a ≤ S500000x128.size a)
    (k : ℕ) (e2 : o2 = ![12800 * k, 0]) (e4 : o4 = ![12800 * k + 6400, 0])
    (yA yB yR : Bf (F := F) c main_v5) (w2 w4 : S6400x128.Idx → Elt F .f32)
    (VA : ∀ i : S500000x128.Idx, i ∈ (outW oA hA).view.set → yA i = packed X0 X4 i) (VB : ∀ i : S500000x128.Idx, i ∈ (outW oB hB).view.set → yB i = packed X0 X4 i)
    (VR : ∀ i : S500000x128.Idx, i ∉ (outW oA hA).view.set → i ∉ (outW oB hB).view.set → (i 0).val < 12800 * k → yR i = packed X0 X4 i) :
    ∀ i : S500000x128.Idx, i ∉ (outW o2 h2).view.set → i ∉ (outW o4 h4).view.set → (i 0).val < 12800 * (k + 1) →
      ((outW oA hA).view.set).piecewise yA (((outW oB hB).view.set).piecewise yB
        (View.write (Elt F) (outW o4 h4).view (View.write (Elt F) (outW o2 h2).view yR w2 Finset.univ) w4 Finset.univ)) i = packed X0 X4 i := by
  intro i hi2 hi4 hlt
  by_cases hiA : i ∈ (outW oA hA).view.set
  · rw [Finset.piecewise_eq_of_mem _ _ _ hiA]; exact VA i hiA
  rw [Finset.piecewise_eq_of_notMem _ _ _ hiA]
  by_cases hiB : i ∈ (outW oB hB).view.set
  · rw [Finset.piecewise_eq_of_mem _ _ _ hiB]; exact VB i hiB
  rw [Finset.piecewise_eq_of_notMem _ _ _ hiB]
  have n4 : i ∉ (outW o4 h4).view.setOn Finset.univ := by rw [View.setOn_univ]; exact hi4
  have n2 : i ∉ (outW o2 h2).view.setOn Finset.univ := by rw [View.setOn_univ]; exact hi2
  refine Eq.trans (View.write_of_not_mem (v := (outW o4 h4).view) _ w4 Finset.univ n4) ?_
  refine Eq.trans (View.write_of_not_mem (v := (outW o2 h2).view) yR w2 Finset.univ n2) ?_
  refine VR i hiA hiB ?_
  by_contra hge
  have hge : 12800 * k ≤ (i 0).val := by omega
  by_cases hmid : (i 0).val < 12800 * k + 6400
  · exact hi2 (mem_outW o2 h2 (by rw [e2]; rfl) i (by rw [e2]; exact hge) (by rw [e2]; exact hmid))
  · exact hi4 (mem_outW o4 h4 (by rw [e4]; rfl) i (by rw [e4]; show 12800 * k + 6400 ≤ (i 0).val; omega) (by rw [e4]; show (i 0).val < 12800 * k + 6400 + 6400; omega))

/-- The same after the first trip: no row lies below the first two windows. -/
theorem rest_first (o2 o4 : Fin 2 → Nat) (h2 : ∀ a, o2 a + S6400x128.size a ≤ S500000x128.size a) (h4 : ∀ a, o4 a + S6400x128.size a ≤ S500000x128.size a)
    (k : ℕ) (hk : k = 0) (e2 : o2 = ![12800 * k, 0]) (e4 : o4 = ![12800 * k + 6400, 0]) (y : Bf (F := F) c main_v5) :
    ∀ i : S500000x128.Idx, i ∉ (outW o2 h2).view.set → i ∉ (outW o4 h4).view.set → (i 0).val < 12800 * (k + 1) → y i = packed X0 X4 i := by
  subst hk
  intro i hi2 hi4 hlt
  exfalso
  by_cases hmid : (i 0).val < 6400
  · exact hi2 (mem_outW o2 h2 (by rw [e2]; rfl) i (by rw [e2]; exact Nat.zero_le _) (by rw [e2]; show (i 0).val < 12800 * 0 + 6400; omega))
  · exact hi4 (mem_outW o4 h4 (by rw [e4]; rfl) i (by rw [e4]; show 12800 * 0 + 6400 ≤ (i 0).val; omega) (by rw [e4]; show (i 0).val < 12800 * 0 + 6400 + 6400; omega))

/-- After the last trip and the tail copy the result is the packed table. -/
theorem final_val (oA oB : Fin 2 → Nat) (hA : ∀ a, oA a + S6400x128.size a ≤ S500000x128.size a) (hB : ∀ a, oB a + S6400x128.size a ≤ S500000x128.size a)
    (yA yB yR : Bf (F := F) c main_v5)
    (VA : ∀ i : S500000x128.Idx, i ∈ (outW oA hA).view.set → yA i = packed X0 X4 i) (VB : ∀ i : S500000x128.Idx, i ∈ (outW oB hB).view.set → yB i = packed X0 X4 i)
    (VR : ∀ i : S500000x128.Idx, i ∉ (outW oA hA).view.set → i ∉ (outW oB hB).view.set → (i 0).val < 12800 * 39 → yR i = packed X0 X4 i) :
    (Memref.whole main_v5).view.writes (Elt F) (((outW oA hA).view.set).piecewise yA (((outW oB hB).view.set).piecewise yB yR))
        [⟨Rect.unit (s := S500000x128) ![499200, 0] S800x128.size inb_S500000x128_S800x128_499200_0,
          ReadAs.same.apply ((Memref.whole main_v4).view.read (Elt F) X4)⟩]
      = packed X0 X4 := by
  funext i
  have h0 := idx2_lt0 i
  have h1 := idx2_lt1 i
  show ((View.whole main_v5).slice (Rect.unit (s := S500000x128) ![499200, 0] S800x128.size inb_S500000x128_S800x128_499200_0)).write (Elt F)
      (((outW oA hA).view.set).piecewise yA (((outW oB hB).view.set).piecewise yB yR)) X4 Finset.univ i = packed X0 X4 i
  by_cases hi : (i 0).val < 499200
  · have hn : i ∉ ((View.whole main_v5).slice (Rect.unit (s := S500000x128) ![499200, 0] S800x128.size inb_S500000x128_S800x128_499200_0)).setOn Finset.univ := by
      rw [View.setOn_univ, View.set_slice_whole]
      intro hm
      have := (Rect.mem_set_unit.1 hm 0).1
      have : 499200 ≤ (i 0).val := this
      omega
    refine Eq.trans (View.write_of_not_mem _ X4 Finset.univ hn) ?_
    by_cases hiA : i ∈ (outW oA hA).view.set
    · rw [Finset.piecewise_eq_of_mem _ _ _ hiA]; exact VA i hiA
    rw [Finset.piecewise_eq_of_notMem _ _ _ hiA]
    by_cases hiB : i ∈ (outW oB hB).view.set
    · rw [Finset.piecewise_eq_of_mem _ _ _ hiB]; exact VB i hiB
    rw [Finset.piecewise_eq_of_notMem _ _ _ hiB]
    exact VR i hiA hiB (by omega)
  · have hm : i ∈ (Rect.unit (s := S500000x128) ![499200, 0] S800x128.size inb_S500000x128_S800x128_499200_0).set :=
      Rect.mem_set_unit.2 fun a => match a with
        | ⟨0, _⟩ => ⟨by show 499200 ≤ (i 0).val; omega, by show (i 0).val < 499200 + 800; omega⟩
        | ⟨1, _⟩ => ⟨Nat.zero_le _, by show (i 1).val < 0 + 128; omega⟩
    obtain ⟨j, rfl⟩ := (Rect.unit (s := S500000x128) ![499200, 0] S800x128.size inb_S500000x128_S800x128_499200_0).exists_idx_of_mem hm
    refine Eq.trans (View.write_emb_of_mem (v := (View.whole main_v5).slice (Rect.unit (s := S500000x128) ![499200, 0] S800x128.size inb_S500000x128_S800x128_499200_0)) _ X4 (Finset.mem_univ j)) ?_
    simp only [cast_eq]
    obtain ⟨a, b, rfl⟩ : ∃ (a : Fin 800) (b : Fin 128), j = ix2 a b := ⟨j 0, j 1, eq_ix2 j⟩
    show X4 (ix2 a b) = packedVal X0 X4 _
    have e : (Rect.unit (s := S500000x128) ![499200, 0] S800x128.size inb_S500000x128_S800x128_499200_0).idx (ix2 a b)
        = ix2 (⟨499200 + a.val, by omega⟩ : Fin 500000) b :=
      funext fun d => Fin.ext (match d with
        | ⟨0, _⟩ => by show 499200 + 1 * a.val = 499200 + a.val; omega
        | ⟨1, _⟩ => by show 0 + 1 * b.val = b.val; omega)
    rw [e, packedVal_apply_hi X0 X4 _ _ (show ¬ (499200 + a.val) < 499200 by omega)]
    exact ix2_congr X4 (show a.val = 499200 + a.val - 499200 by omega) rfl

/-! ### The same facts with the contents written out as the trip's operations leave them -/

/-- The whole-buffer load's rectangle, and the two half-block store rectangles, as the program spells them. -/
abbrev RL : LoadRect S64x12800 := (Rect.unit (s := S64x12800) ![0, 0] S64x12800.size inb_S64x12800_S64x12800_0_0).toLoadRect
abbrev R0 : Rect S6400x128 := Rect.unit (s := S6400x128) ![0, 0] S6400x64.size inb_S6400x128_S6400x64_0_0
abbrev R64 : Rect S6400x128 := Rect.unit (s := S6400x128) ![0, 64] S6400x64.size inb_S6400x128_S6400x64_0_64
/-- The two halves of a chunk transposed, spelt out. -/
abbrev hiOf (v : Vec F S64x12800 .f32) : FVec F S6400x64 .f32 :=
  shapeCast S6400x64 (extractStridedSlice S6400x64 ![6400, 0] (transpose S12800x64 [1, 0] v transposes_S64x12800_p1_0_S12800x64) slices_S12800x64_o6400_0_S6400x64) shapeCasts_S6400x64_S6400x64
abbrev loOf (v : Vec F S64x12800 .f32) : FVec F S6400x64 .f32 :=
  shapeCast S6400x64 (extractStridedSlice S6400x64 ![0, 0] (transpose S12800x64 [1, 0] v transposes_S64x12800_p1_0_S12800x64) slices_S12800x64_o0_0_S6400x64) shapeCasts_S6400x64_S6400x64
theorem hiOf_eq (v : Vec F S64x12800 .f32) : hiOf v = k0_pay6 v := rfl
theorem loOf_eq (v : Vec F S64x12800 .f32) : loOf v = k0_pay5 v := rfl

/-- What a block buffer read whole hands a copy is the buffer's contents. -/
theorem read_all2 (f : Bf (F := F) c cc0_scratch2) :
    (ReadAs.same.apply (View.read (Elt F) (Memref.whole cc0_scratch2).view f) : S6400x128.Idx → Elt F .f32) = f := rfl
theorem read_all3 (f : Bf (F := F) c cc0_scratch3) :
    (ReadAs.same.apply (View.read (Elt F) (Memref.whole cc0_scratch3).view f) : S6400x128.Idx → Elt F .f32) = f := rfl

/-- The first block of a trip lands at the packed table. -/
theorem landed0 (g : Bf (F := F) c cc0_scratch0) (off : Fin 2 → Nat) (hoff : ∀ a, off a + S64x12800.size a ≤ S64x1000000.size a)
    (m : ℕ) (hm : m < 78) (e0 : off 0 = 0) (e1 : off 1 = 12800 * m)
    (z : Bf (F := F) c cc0_scratch2) (y : Bf (F := F) c main_v5)
    (o : Fin 2 → Nat) (h : ∀ a, o a + S6400x128.size a ≤ S500000x128.size a) (ho0 : o 0 = 6400 * m) (ho1 : o 1 = 0) :
    ∀ i : S500000x128.Idx, i ∈ (outW o h).view.set →
      View.write (Elt F) (outW o h).view y
        (ReadAs.same.apply (View.read (Elt F) (Memref.whole cc0_scratch2).view
          ((Memref.whole cc0_scratch2).view.writes (Elt F) z
            [⟨R64, hiOf (View.readAt (Elt F) (Memref.whole cc0_scratch0).view RL
                (View.write (Elt F) (Memref.whole cc0_scratch0).view g (ReadAs.same.apply (View.read (Elt F) (inW off hoff).view X0)) Finset.univ))⟩,
              ⟨R0, loOf (View.readAt (Elt F) (Memref.whole cc0_scratch0).view RL
                (View.write (Elt F) (Memref.whole cc0_scratch0).view g (ReadAs.same.apply (View.read (Elt F) (inW off hoff).view X0)) Finset.univ))⟩])))
        Finset.univ i = packed X0 X4 i := by
  have hv : ∀ (a : Fin 64) (b : Fin 12800),
      (View.readAt (Elt F) (Memref.whole cc0_scratch0).view RL
        (View.write (Elt F) (Memref.whole cc0_scratch0).view g (ReadAs.same.apply (View.read (Elt F) (inW off hoff).view X0)) Finset.univ)) (ix2 a b)
        = X0 (ix2 a ⟨12800 * m + b.val, by omega⟩) :=
    fun a b => (vec0 X0 g off hoff a b).trans (ix2_congr X0 (by show off 0 + a.val = a.val; omega) (by show off 1 + b.val = 12800 * m + b.val; omega))
  intro i hi
  refine land_val X0 X4 o h m hm ho0 ho1 y _ (fun j => ?_) i hi
  exact (congrFun (read_all2 (c := c) _) j).trans (block0 X0 X4 z _ m hm hv j)

/-- The second block of a trip lands at the packed table. -/
theorem landed1 (g : Bf (F := F) c cc0_scratch1) (off : Fin 2 → Nat) (hoff : ∀ a, off a + S64x12800.size a ≤ S64x1000000.size a)
    (m : ℕ) (hm : m < 78) (e0 : off 0 = 0) (e1 : off 1 = 12800 * m)
    (z : Bf (F := F) c cc0_scratch3) (y : Bf (F := F) c main_v5)
    (o : Fin 2 → Nat) (h : ∀ a, o a + S6400x128.size a ≤ S500000x128.size a) (ho0 : o 0 = 6400 * m) (ho1 : o 1 = 0) :
    ∀ i : S500000x128.Idx, i ∈ (outW o h).view.set →
      View.write (Elt F) (outW o h).view y
        (ReadAs.same.apply (View.read (Elt F) (Memref.whole cc0_scratch3).view
          ((Memref.whole cc0_scratch3).view.writes (Elt F) z
            [⟨R64, k0_pay3 (View.readAt (Elt F) (Memref.whole cc0_scratch1).view RL
                (View.write (Elt F) (Memref.whole cc0_scratch1).view g (ReadAs.same.apply (View.read (Elt F) (inW off hoff).view X0)) Finset.univ))⟩,
              ⟨R0, k0_pay2 (View.readAt (Elt F) (Memref.whole cc0_scratch1).view RL
                (View.write (Elt F) (Memref.whole cc0_scratch1).view g (ReadAs.same.apply (View.read (Elt F) (inW off hoff).view X0)) Finset.univ))⟩])))
        Finset.univ i = packed X0 X4 i := by
  have hv : ∀ (a : Fin 64) (b : Fin 12800),
      (View.readAt (Elt F) (Memref.whole cc0_scratch1).view RL
        (View.write (Elt F) (Memref.whole cc0_scratch1).view g (ReadAs.same.apply (View.read (Elt F) (inW off hoff).view X0)) Finset.univ)) (ix2 a b)
        = X0 (ix2 a ⟨12800 * m + b.val, by omega⟩) :=
    fun a b => (vec1 X0 g off hoff a b).trans (ix2_congr X0 (by show off 0 + a.val = a.val; omega) (by show off 1 + b.val = 12800 * m + b.val; omega))
  intro i hi
  refine land_val X0 X4 o h m hm ho0 ho1 y _ (fun j => ?_) i hi
  exact (congrFun (read_all3 (c := c) _) j).trans (block1 X0 X4 z _ m hm hv j)

end Vals

/-! ## The loop's invariant -/

section Inv
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The chunk the coming trip transposes first is on its way into the first input buffer: the copy in flight, delivering the
    buffer at its landed contents and the window of the table it reads; the rest of the table's share. The window is the
    `2 n`-th chunk's and the landed contents are what the copy reads through it. -/
def inFly (n : ℕ) : sProp 𝕄 :=
  iprop(∃ (off : Fin 2 → Nat) (hoff : ∀ a, off a + S64x12800.size a ≤ S64x1000000.size a) (g0 : Bf (F := F) c cc0_scratch0),
    fly c cc0_scratch4 iprop(pt c cc0_scratch0 fullShare g0 ∗ ptOn c main_v0 (inW off hoff).view.set (tok q0 0) X0)
      ∗ ptOn c main_v0 (Finset.univ \ (inW off hoff).view.set) (tok q0 0) X0
      ∗ ⌜off = ![0, 12800 * (2 * n)] ∧ ∃ g : Bf (F := F) c cc0_scratch0,
          g0 = View.write (Elt F) (Memref.whole cc0_scratch0).view g (ReadAs.same.apply ((inW off hoff).view.read (Elt F) X0)) Finset.univ⌝)

/-- After the last trip no chunk is on its way. -/
def inIdle : sProp 𝕄 :=
  iprop((∃ g0, pt c cc0_scratch0 fullShare g0) ∗ pt c main_v0 (tok q0 0) X0 ∗ cell c cc0_scratch4 0)

/-- The two blocks of the trip before are on their way out: each copy in flight delivers its window of the result and the
    block buffer it reads; the result less the two windows. Each window lands at the packed table, and what is held of the
    result is the packed table on the rows below trip `n`'s. -/
def outFly (n : ℕ) : sProp 𝕄 :=
  iprop(∃ (oA oB : Fin 2 → Nat) (hA : ∀ a, oA a + S6400x128.size a ≤ S500000x128.size a) (hB : ∀ a, oB a + S6400x128.size a ≤ S500000x128.size a)
      (yA yB yR : Bf (F := F) c main_v5) (z0 : Bf (F := F) c cc0_scratch2) (z1 : Bf (F := F) c cc0_scratch3),
    fly c cc0_scratch6 iprop(ptOn c main_v5 (outW oA hA).view.set fullShare yA ∗ ptOn c cc0_scratch2 (Memref.whole cc0_scratch2).view.set fullShare z0)
      ∗ ptOn c cc0_scratch2 (Finset.univ \ (Memref.whole cc0_scratch2).view.set) fullShare z0
      ∗ fly c cc0_scratch7 iprop(ptOn c main_v5 (outW oB hB).view.set fullShare yB ∗ ptOn c cc0_scratch3 (Memref.whole cc0_scratch3).view.set fullShare z1)
      ∗ ptOn c cc0_scratch3 (Finset.univ \ (Memref.whole cc0_scratch3).view.set) fullShare z1
      ∗ ptOn c main_v5 ((Finset.univ \ (outW oA hA).view.set) \ (outW oB hB).view.set) fullShare yR
      ∗ ⌜(oA 0 + 6400 ≤ oB 0 ∧ oB 0 + 6400 ≤ 12800 * n)
          ∧ (∀ i : S500000x128.Idx, i ∈ (outW oA hA).view.set → yA i = packed X0 X4 i)
          ∧ (∀ i : S500000x128.Idx, i ∈ (outW oB hB).view.set → yB i = packed X0 X4 i)
          ∧ (∀ i : S500000x128.Idx, i ∉ (outW oA hA).view.set → i ∉ (outW oB hB).view.set → (i 0).val < 12800 * n → yR i = packed X0 X4 i)⌝)

/-- Before the first trip nothing is on its way out. -/
def outIdle : sProp 𝕄 :=
  iprop((∃ z0, pt c cc0_scratch2 fullShare z0) ∗ (∃ z1, pt c cc0_scratch3 fullShare z1) ∗ cell c cc0_scratch6 0 ∗ cell c cc0_scratch7 0
    ∗ pt c main_v5 fullShare Y)

/-- Before trip `n`: the first chunk of the trip on its way in (none after the last trip), the second input buffer and its
    semaphore free, the blocks of the trip before on their way out (none before the first), and what the core owes, its
    recorded waits those it came with and the kernel's own. -/
def inv (n : ℕ) : sProp 𝕄 :=
  iprop(□ Transfers.MayWaits (c.tc : Thread nD τ) none O
    ∗ (if n < 39 then inFly c q0 X0 n else inIdle c q0 X0)
    ∗ (∃ g1, pt c cc0_scratch1 fullShare g1) ∗ pt c main_v0 (tok q0 1) X0 ∗ cell c cc0_scratch5 0
    ∗ (if n = 0 then outIdle c Y else outFly c X0 X4 n)
    ∗ ∃ W', ⌜∀ p ∈ W', p ∈ W ∨ p.2 = none⌝ ∗ owes (c.tc : Thread nD τ) O W')

end Inv

/-! ## One trip -/

section Step
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The region of the loop at trip `k`, on the buffers the pipeline calls the kernel with. -/
abbrev trip (k : Fin k0_t1_loop.trips) : Prog (TpuEff nD τ sig (Elt F) Λ₀ .tc) Unit :=
  k0_t1_body (F := F) (Memref.whole main_v0) (Memref.isWhole_whole _) (Memref.whole main_v4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k ()

-- this declaration steps through one trip and then compares its closing facts with the terms that stepping
-- produced for the landed contents (a window written with the block buffer read whole, the buffer two stored halves of
-- the transposed chunk); together they need more than the default budget
set_option maxHeartbeats 1000000 in
/-- A trip that is neither the first nor the last. -/
theorem step_mid (k : Fin k0_t1_loop.trips) (hk0 : 0 < k.val) (hk38 : k.val < 38) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_neg (show ¬ k.val = 0 by omega), if_pos (show k.val + 1 < 39 by omega), if_neg (show ¬ k.val + 1 = 0 by omega)]
  unfold inFly outFly
  iintro ⟨#HMW, ⟨%off, %hoff, %g0, HF0, H0a, %hin⟩, ⟨%s1, Hx1⟩, H0b, Hs1, ⟨%oA, %oB, %hA, %hB, %yA, %yB, %yR, %z0, %z1, HF2, Hz0, HF3, Hz1, H5, %hf⟩, ⟨%W', %hW, HO⟩⟩
  obtain ⟨rfl, g, rfl⟩ := hin
  obtain ⟨⟨hsAB, hsB⟩, VA, VB, VR⟩ := hf
  have hc1 : cond1 k = 1#1 := cond1_pos hk0
  have hc2 : k0_cond2 k = 1#1 := cond2_pos hk38
  have hdAB : Disjoint (outW oA hA).view.set (outW oB hB).view.set := outW_disjoint _ _ _ _ (Or.inl hsAB)
  have hd2A : Disjoint ((Memref.whole main_v5).slice (Rect.unit (s := S500000x128) (k0_off2 k) S6400x128.size (k0_off2_inb k)) (fun _ => rfl)).view.set (outW oA hA).view.set := outW_disjoint _ _ _ _ (Or.inr (by rw [k0_off2_eq]; show oA 0 + 6400 ≤ 12800 * k.val; omega))
  have hd2B : Disjoint ((Memref.whole main_v5).slice (Rect.unit (s := S500000x128) (k0_off2 k) S6400x128.size (k0_off2_inb k)) (fun _ => rfl)).view.set (outW oB hB).view.set := outW_disjoint _ _ _ _ (Or.inr (by rw [k0_off2_eq]; exact hsB))
  have hd4A : Disjoint ((Memref.whole main_v5).slice (Rect.unit (s := S500000x128) (k0_off4 k) S6400x128.size (k0_off4_inb k)) (fun _ => rfl)).view.set (outW oA hA).view.set := outW_disjoint _ _ _ _ (Or.inr (by rw [k0_off4_eq]; show oA 0 + 6400 ≤ 12800 * k.val + 6400; omega))
  have hd4B : Disjoint ((Memref.whole main_v5).slice (Rect.unit (s := S500000x128) (k0_off4 k) S6400x128.size (k0_off4_inb k)) (fun _ => rfl)).view.set (outW oB hB).view.set := outW_disjoint _ _ _ _ (Or.inr (by rw [k0_off4_eq]; show oB 0 + 6400 ≤ 12800 * k.val + 6400; omega))
  unfold trip k0_t1_body
  sl_exec
  sl_step
  isplitr; · iexact HMW
  isplitl [HF0 H0a]
  · iexists (k0_off3 k), (k0_off3_inb k hc2), _
    isplitl [HF0]; · iexact HF0
    isplitl [H0a]; · iexact H0a
    ipureintro
    exact ⟨by rw [k0_off3_eq, show 25600 * k.val + 25600 = 12800 * (2 * (k.val + 1)) by omega], _, rfl⟩
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [HF2_dst HF3_dst H5]
    · iapply (rejoin_step hdAB hd2A.symm hd4A.symm hd2B.symm hd4B.symm)
      isplitl [HF2_dst]; · iexact HF2_dst
      isplitl [HF3_dst]; · iexact HF3_dst
      iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_step X0 X4 oA oB hA hB (k0_off2 k) (k0_off4 k) _ _ k.val (k0_off2_eq k) (k0_off4_eq k) yA yB yR _ _ VA VB VR
  iexists _
  isplitr
  swap; · iexact HO
  ipureintro; exact recorded_insert _ (recorded_insert _ (recorded_insert _ (recorded_insert _ hW)))

-- this declaration steps through one trip and then compares its closing facts with the terms that stepping
-- produced for the landed contents (a window written with the block buffer read whole, the buffer two stored halves of
-- the transposed chunk); together they need more than the default budget
set_option maxHeartbeats 1000000 in
/-- The first trip: nothing is on its way out yet, so neither block buffer is waited for. -/
theorem step_first (k : Fin k0_t1_loop.trips) (hk0 : k.val = 0) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_pos hk0, if_pos (show k.val + 1 < 39 by omega), if_neg (show ¬ k.val + 1 = 0 by omega)]
  unfold inFly outFly outIdle
  iintro ⟨#HMW, ⟨%off, %hoff, %g0, HF0, H0a, %hin⟩, ⟨%s1, Hx1⟩, H0b, Hs1, ⟨⟨%z0, Hz0⟩, ⟨%z1, Hz1⟩, HF2, HF3, H5⟩, ⟨%W', %hW, HO⟩⟩
  obtain ⟨rfl, g, rfl⟩ := hin
  have hc1 : ¬ cond1 k = 1#1 := cond1_neg hk0
  have hc2 : k0_cond2 k = 1#1 := cond2_pos (by omega)
  unfold trip k0_t1_body
  sl_exec (disch := first | sl_exact hc1 | sl_exact hc2)
  sl_step
  isplitr; · iexact HMW
  isplitl [HF0 H0a]
  · iexists (k0_off3 k), (k0_off3_inb k hc2), _
    isplitl [HF0]; · iexact HF0
    isplitl [H0a]; · iexact H0a
    ipureintro
    exact ⟨by rw [k0_off3_eq, show 25600 * k.val + 25600 = 12800 * (2 * (k.val + 1)) by omega], _, rfl⟩
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [H5]; · iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_first X0 X4 (k0_off2 k) (k0_off4 k) _ _ k.val hk0 (k0_off2_eq k) (k0_off4_eq k) _
  iexists _
  isplitr
  swap; · iexact HO
  ipureintro; exact recorded_insert _ (recorded_insert _ hW)

-- this declaration steps through one trip and then compares its closing facts with the terms that stepping
-- produced for the landed contents (a window written with the block buffer read whole, the buffer two stored halves of
-- the transposed chunk); together they need more than the default budget
set_option maxHeartbeats 1000000 in
/-- The last trip: no further chunk is started into the first input buffer. -/
theorem step_last (k : Fin k0_t1_loop.trips) (hk38 : k.val = 38) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_neg (show ¬ k.val = 0 by omega), if_neg (show ¬ k.val + 1 < 39 by omega), if_neg (show ¬ k.val + 1 = 0 by omega)]
  unfold inFly inIdle outFly
  iintro ⟨#HMW, ⟨%off, %hoff, %g0, HF0, H0a, %hin⟩, ⟨%s1, Hx1⟩, H0b, Hs1, ⟨%oA, %oB, %hA, %hB, %yA, %yB, %yR, %z0, %z1, HF2, Hz0, HF3, Hz1, H5, %hf⟩, ⟨%W', %hW, HO⟩⟩
  obtain ⟨rfl, g, rfl⟩ := hin
  obtain ⟨⟨hsAB, hsB⟩, VA, VB, VR⟩ := hf
  have hc1 : cond1 k = 1#1 := cond1_pos (by omega)
  have hc2 : ¬ k0_cond2 k = 1#1 := cond2_neg (by omega)
  have hdAB : Disjoint (outW oA hA).view.set (outW oB hB).view.set := outW_disjoint _ _ _ _ (Or.inl hsAB)
  have hd2A : Disjoint ((Memref.whole main_v5).slice (Rect.unit (s := S500000x128) (k0_off2 k) S6400x128.size (k0_off2_inb k)) (fun _ => rfl)).view.set (outW oA hA).view.set := outW_disjoint _ _ _ _ (Or.inr (by rw [k0_off2_eq]; show oA 0 + 6400 ≤ 12800 * k.val; omega))
  have hd2B : Disjoint ((Memref.whole main_v5).slice (Rect.unit (s := S500000x128) (k0_off2 k) S6400x128.size (k0_off2_inb k)) (fun _ => rfl)).view.set (outW oB hB).view.set := outW_disjoint _ _ _ _ (Or.inr (by rw [k0_off2_eq]; exact hsB))
  have hd4A : Disjoint ((Memref.whole main_v5).slice (Rect.unit (s := S500000x128) (k0_off4 k) S6400x128.size (k0_off4_inb k)) (fun _ => rfl)).view.set (outW oA hA).view.set := outW_disjoint _ _ _ _ (Or.inr (by rw [k0_off4_eq]; show oA 0 + 6400 ≤ 12800 * k.val + 6400; omega))
  have hd4B : Disjoint ((Memref.whole main_v5).slice (Rect.unit (s := S500000x128) (k0_off4 k) S6400x128.size (k0_off4_inb k)) (fun _ => rfl)).view.set (outW oB hB).view.set := outW_disjoint _ _ _ _ (Or.inr (by rw [k0_off4_eq]; show oB 0 + 6400 ≤ 12800 * k.val + 6400; omega))
  unfold trip k0_t1_body
  sl_exec (disch := first | sl_exact hc1 | sl_exact hc2)
  sl_step
  isplitr; · iexact HMW
  isplitl [HF0_dst H0a HF0]
  · isplitl [HF0_dst]; · iexists _; iexact HF0_dst
    isplitl [H0a]; · iexact H0a
    iexact HF0
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [HF2_dst HF3_dst H5]
    · iapply (rejoin_step hdAB hd2A.symm hd4A.symm hd2B.symm hd4B.symm)
      isplitl [HF2_dst]; · iexact HF2_dst
      isplitl [HF3_dst]; · iexact HF3_dst
      iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_step X0 X4 oA oB hA hB (k0_off2 k) (k0_off4 k) _ _ k.val (k0_off2_eq k) (k0_off4_eq k) yA yB yR _ _ VA VB VR
  iexists _
  isplitr
  swap; · iexact HO
  ipureintro; exact recorded_insert _ (recorded_insert _ (recorded_insert _ (recorded_insert _ hW)))

/-- One trip of the loop takes the invariant at its trip to the invariant at the next. -/
theorem step (k : Fin k0_t1_loop.trips) :
    inv c q0 X0 X4 Y O W k.val ⊢ wp frame (wpE (defs₀ (F := F)) 𝒱₀ (c.tc : Thread nD τ) none) Set.univ (trip k) (fun _ => inv c q0 X0 X4 Y O W (k.val + 1)) := by
  have htr : k.val < 39 := lt_of_lt_of_le k.isLt k0_t1_abs.2.1
  by_cases h0 : k.val = 0
  · exact step_first c q0 X0 X4 Y O W k h0
  by_cases h38 : k.val = 38
  · exact step_last c q0 X0 X4 Y O W k h38
  exact step_mid c q0 X0 X4 Y O W k (by omega) (by omega)

end Step

/-! ## The kernel -/

section Body
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The table's share as two read shares and the remainder. -/
theorem toks2 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 2} f) ∗ (ℓ ↦[S]{tok q 0} f) ∗ (ℓ ↦[S]{tok q 1} f)) := by
  have h := Transfers.pointsTo_toks (Ix := HIx 1) (Val := Elt F) (Name := ℕ) (U := UU) (Lvl := ℕ) (ℓ := ℓ) (S := S) (f := f) q 2
  rw [show (Finset.univ : Finset (Fin 2)) = insert (0 : Fin 2) {(1 : Fin 2)} from by decide, bigSep_insert (by decide), bigSep_singleton] at h
  exact h

/-- A resource set aside: held, and not to be taken for a copy's source. -/
@[irreducible] def aside (P : sProp 𝕄) : sProp 𝕄 := P
theorem aside_iff (P : sProp 𝕄) : aside P ⊣⊢ P := by unfold aside; exact ⟨.rfl, .rfl⟩

/-- The table's share handed in, its two read shares and the remainder handed to the rest of the proof. -/
theorem table_split (c : Dev nD) (q : PosShare TreeShare) (X0 : Bf (F := F) c main_v0) {G : sProp 𝕄} :
    iprop(pt c main_v0 q X0 ∗ (iprop(aside (pt c main_v0 (Transfers.shareDrop q 2) X0) ∗ pt c main_v0 (tok q 0) X0 ∗ pt c main_v0 (tok q 1) X0) -∗ G)) ⊢ G := by
  have h1 : pt c main_v0 q X0 ⊢ iprop(aside (pt c main_v0 (Transfers.shareDrop q 2) X0) ∗ pt c main_v0 (tok q 0) X0 ∗ pt c main_v0 (tok q 1) X0) :=
    (toks2 q).1.trans (sep_mono_left (aside_iff _).2)
  iintro ⟨H, HG⟩
  iapply HG
  iapply h1
  iexact H

/-- And back. -/
theorem table_join (c : Dev nD) (q : PosShare TreeShare) (X0 : Bf (F := F) c main_v0) :
    iprop(aside (pt c main_v0 (Transfers.shareDrop q 2) X0) ∗ pt c main_v0 (tok q 0) X0 ∗ pt c main_v0 (tok q 1) X0) ⊢ pt c main_v0 q X0 :=
  (sep_mono_left (aside_iff _).1).trans (toks2 q).2

/-- `rejoin_last`, to apply to a goal. -/
theorem rejoin_last_wand {ℓ : Loc nD τ sig} {A B : Finset (Idx ℓ)} {q : PosShare TreeShare} {fA fB f : Buf (Elt F) ℓ} (hAB : Disjoint A B) {G : sProp 𝕄} :
    iprop((ℓ ↦[A]{q} fA) ∗ (ℓ ↦[B]{q} fB) ∗ (ℓ ↦[(Finset.univ \ A) \ B]{q} f) ∗ ((ℓ ↦{q} (A.piecewise fA (B.piecewise fB f))) -∗ G)) ⊢ G := by
  iintro ⟨HA, HB, HR, HG⟩
  iapply HG
  iapply (rejoin_last hAB)
  isplitl [HA]; · iexact HA
  isplitl [HB]; · iexact HB
  iexact HR

theorem trips_eq : Scf.trips k0_t1_loop.lb k0_t1_loop.ub k0_t1_loop.st = 39 := by decide

/-- The invariant after the last trip: nothing on its way in, the last two blocks on their way out. -/
theorem inv_exit :
    inv c q0 X0 X4 Y O W (Scf.trips k0_t1_loop.lb k0_t1_loop.ub k0_t1_loop.st)
      ⊢ iprop(inIdle c q0 X0 ∗ (∃ g1, pt c cc0_scratch1 fullShare g1) ∗ pt c main_v0 (tok q0 1) X0 ∗ cell c cc0_scratch5 0
          ∗ outFly c X0 X4 39 ∗ ∃ W', ⌜∀ p ∈ W', p ∈ W ∨ p.2 = none⌝ ∗ owes (c.tc : Thread nD τ) O W') := by
  rw [trips_eq]; unfold inv
  rw [if_neg (by decide), if_neg (by decide)]
  iintro ⟨-, H⟩; iexact H

/-- The kernel, with what it leaves in the result: every operand and scratch buffer back, the result at the packed table,
    the four semaphores at zero, and the core's recorded waits those it came with and the kernel's own. -/
theorem pack_body (t : Fin cfg0.N) (q4 : PosShare TreeShare) :
    iprop(□ Transfers.MayWaits (c.tc : Thread nD τ) none O ∗ pt c main_v0 q0 X0 ∗ pt c main_v4 q4 X4 ∗ pt c main_v5 fullShare Y
        ∗ (∃ f, pt c cc0_scratch0 fullShare f) ∗ (∃ f, pt c cc0_scratch1 fullShare f) ∗ (∃ f, pt c cc0_scratch2 fullShare f) ∗ (∃ f, pt c cc0_scratch3 fullShare f)
        ∗ cell c cc0_scratch4 0 ∗ cell c cc0_scratch5 0 ∗ cell c cc0_scratch6 0 ∗ cell c cc0_scratch7 0 ∗ owes (c.tc : Thread nD τ) O W)
      ⊢ wp frame (wpE (defs₀ (F := F)) 𝒱₀ (c.tc : Thread nD τ) none) Set.univ (Gen.bodyAt0 t) (fun _ =>
          iprop(pt c main_v0 q0 X0 ∗ pt c main_v4 q4 X4 ∗ pt c main_v5 fullShare (packed X0 X4)
            ∗ (∃ f, pt c cc0_scratch0 fullShare f) ∗ (∃ f, pt c cc0_scratch1 fullShare f) ∗ (∃ f, pt c cc0_scratch2 fullShare f) ∗ (∃ f, pt c cc0_scratch3 fullShare f)
            ∗ cell c cc0_scratch4 0 ∗ cell c cc0_scratch5 0 ∗ cell c cc0_scratch6 0 ∗ cell c cc0_scratch7 0
            ∗ ∃ W', ⌜∀ p ∈ W', p ∈ W ∨ p.2 = none⌝ ∗ owes (c.tc : Thread nD τ) O W')) := by
  iintro ⟨#HMW, H0, H4, H5, ⟨%s0, Hx0⟩, ⟨%s1, Hx1⟩, ⟨%s2, Hz0⟩, ⟨%s3, Hz1⟩, Hs0, Hs1, Hs2, Hs3, HO⟩
  iapply (table_split c q0 X0)
  isplitl [H0]; · iexact H0
  iintro ⟨H0d, H0a, H0b⟩
  unfold bodyAt0
  simp only [cc0__pack_body_eq_skeleton]; unfold cc0__pack_body_skel
  sl_exec
  sl_for (fun n (_ : Unit) => inv c q0 X0 X4 Y O W n) $$ [Hs0 H0a Hx1 H0b Hs1 Hz0 Hz1 Hs2 Hs3 H5 HO]
  · intro k acc; exact step c q0 X0 X4 Y O W k
  · unfold inv; rw [if_pos (by decide), if_pos rfl]; unfold inFly outIdle
    isplitr; · iexact HMW
    isplitl [Hs0 H0a]
    · iexists ![0, 0], inb_S64x1000000_S64x12800_0_0, _
      isplitl [Hs0]; · iexact Hs0
      isplitl [H0a]; · iexact H0a
      ipureintro
      exact ⟨rfl, s0, rfl⟩
    isplitl [Hx1]; · iexists _; iexact Hx1
    isplitl [H0b]; · iexact H0b
    isplitl [Hs1]; · iexact Hs1
    isplitr [HO]
    · isplitl [Hz0]; · iexists _; iexact Hz0
      isplitl [Hz1]; · iexists _; iexact Hz1
      isplitl [Hs2]; · iexact Hs2
      isplitl [Hs3]; · iexact Hs3
      iexact H5
    iexists W; isplitr; · ipureintro; exact fun p hp => Or.inl hp
    iexact HO
  iintro %acc HI
  have hexit := inv_exit c q0 X0 X4 Y O W
  ihave HI' := hexit $$ HI
  unfold inIdle outFly
  icases HI' with ⟨⟨⟨%g0, Hx0⟩, H0a, Hs0⟩, ⟨%g1, Hx1⟩, H0b, Hs1, ⟨%oA, %oB, %hA, %hB, %yA, %yB, %yR, %z0, %z1, HF2, Hz0, HF3, Hz1, H5, %hf⟩, ⟨%W', %hW, HO⟩⟩
  obtain ⟨⟨hsAB, hsB⟩, VA, VB, VR⟩ := hf
  have hdAB : Disjoint (outW oA hA).view.set (outW oB hB).view.set := outW_disjoint _ _ _ _ (Or.inl hsAB)
  set_option sl_exec.maxSteps 2 in sl_exec
  iapply (rejoin_last_wand (ℓ := (Memref.whole main_v5).view.loc (c.tc : Thread nD τ)) hdAB)
  isplitl [HF2_dst]; · iexact HF2_dst
  isplitl [HF3_dst]; · iexact HF3_dst
  isplitl [H5]; · iexact H5
  iintro H5
  sl_exec
  sl_step
  have hfin := final_val X0 X4 oA oB hA hB yA yB yR VA VB VR
  isplitl [H0d H0a H0b]
  · iapply (table_join c q0 X0)
    isplitl [H0d]; · iexact H0d
    isplitl [H0a]; · iexact H0a
    iexact H0b
  isplitl [H4]; · iexact H4
  isplitl [H5]
  · rw [← hfin]; iexact H5
  isplitl [Hx0]; · iexists _; iexact Hx0
  isplitl [Hx1]; · iexists _; iexact Hx1
  isplitl [Hz0]; · iexists _; iexact Hz0
  isplitl [Hz1]; · iexists _; iexact Hz1
  isplitl [Hs0]; · iexact Hs0
  isplitl [Hs1]; · iexact Hs1
  isplitl [HF2]; · iexact HF2
  isplitl [HF3]; · iexact HF3
  iexists _
  isplitr
  swap; · iexact HO
  ipureintro; exact recorded_insert _ (recorded_insert _ (recorded_insert _ hW))

end Body

/-- The kernel's frame: the same with the result at some contents. -/
theorem pack_body_frame (c : Dev nD) (q0 : PosShare TreeShare) (X0 : Bf (F := F) c main_v0) (Y : Bf (F := F) c main_v5)
    (O : CellTallies nD τ sig (HIx 1)) (W : Waits sig (HIx 1)) (t : Fin cfg0.N) (q4 : PosShare TreeShare) (X4 : Bf (F := F) c main_v4) :
    iprop(□ Transfers.MayWaits (c.tc : Thread nD τ) none O ∗ pt c main_v0 q0 X0 ∗ pt c main_v4 q4 X4 ∗ pt c main_v5 fullShare Y
        ∗ (∃ f, pt c cc0_scratch0 fullShare f) ∗ (∃ f, pt c cc0_scratch1 fullShare f) ∗ (∃ f, pt c cc0_scratch2 fullShare f) ∗ (∃ f, pt c cc0_scratch3 fullShare f)
        ∗ cell c cc0_scratch4 0 ∗ cell c cc0_scratch5 0 ∗ cell c cc0_scratch6 0 ∗ cell c cc0_scratch7 0 ∗ owes (c.tc : Thread nD τ) O W)
      ⊢ wp frame (wpE (defs₀ (F := F)) 𝒱₀ (c.tc : Thread nD τ) none) Set.univ (Gen.bodyAt0 t) (fun _ =>
          iprop(pt c main_v0 q0 X0 ∗ pt c main_v4 q4 X4 ∗ (∃ f, pt c main_v5 fullShare f)
            ∗ (∃ f, pt c cc0_scratch0 fullShare f) ∗ (∃ f, pt c cc0_scratch1 fullShare f) ∗ (∃ f, pt c cc0_scratch2 fullShare f) ∗ (∃ f, pt c cc0_scratch3 fullShare f)
            ∗ cell c cc0_scratch4 0 ∗ cell c cc0_scratch5 0 ∗ cell c cc0_scratch6 0 ∗ cell c cc0_scratch7 0
            ∗ ∃ W', ⌜∀ p ∈ W', p ∈ W ∨ p.2 = none⌝ ∗ owes (c.tc : Thread nD τ) O W')) :=
  (pack_body c q0 X0 X4 Y O W t q4).trans (wp_mono _ _ _ fun _ => by
    iintro ⟨H0, H4, H5, Hr⟩
    isplitl [H0]; · iexact H0
    isplitl [H4]; · iexact H4
    isplitl [H5]; · iexists _; iexact H5
    iexact Hr)

end Cert.Proof.KI

end
-- ==== Proof.DatA.lean ====
/-
  The packing pipeline's proof data and body obligation. The pipeline has one point and no window: the three arrays
  its kernel touches stay whole in HBM and stand in the pipeline's invariant, beside the kernel's four DMA semaphores
  at zero and the core's scoped buffers. The core owes the same tallies before and after the point; the kernel's waits
  record pairs at the kernels' index only, which sits below every debt at a call's index.
-/
import proofs.«205037_g73117523247527_cont_9to1c4b_608_48_alg».proof.Proof.LaunchDefs
import proofs.«205037_g73117523247527_cont_9to1c4b_608_48_alg».proof.Proof.Pack

noncomputable section

namespace Cert.Proof.KI

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The packing pipeline's proof data -/

/-- The packing kernel's own semaphores: its four DMA semaphores. -/
def osemA : Fin 4 → SemLoc sig
  | 0 => .dma cc0_scratch4.sem
  | 1 => .dma cc0_scratch5.sem
  | 2 => .dma cc0_scratch6.sem
  | 3 => .dma cc0_scratch7.sem

/-- The pipeline's invariant on core `c` with the packed table at `Y`: the level facts (persistent: the evidence for
    the kernel's waits), the two sources and the packed table whole, the kernel's own semaphores at zero, and the core's
    scoped buffers (the kernel's four scratch buffers among them; the others only pass through). -/
def PhiA (c : Dev nD) (X0 : Bf (F := F) c main_v0) (X4 : Bf (F := F) c main_v4) (Y : Bf (F := F) c main_v5) : sProp 𝕄 :=
  iprop(levAts (K (F := F)).L (K (F := F)).lev ∗ pt c main_v0 fullShare X0 ∗ pt c main_v4 fullShare X4 ∗ pt c main_v5 fullShare Y
    ∗ Pipeline.ownSems0 (Ix := HIx 1) (Name := ℕ) (U := UU) (Lvl := ℕ) (Val := Elt F) (τ := τ) osemA c
    ∗ Pipeline.scopedRest (Ix := HIx 1) (Name := ℕ) (U := UU) (Lvl := ℕ) (Val := Elt F) cfg0.spec c)

/-- The packing pipeline's proof data on core `c`: no window; the invariant before the one point has the packed table
    at what it held, after it at the packing of the two sources; the core owes `O` throughout, its recorded pairs
    within `B`. -/
def dat0 (c : Dev nD) (X0 : Bf (F := F) c main_v0) (X4 : Bf (F := F) c main_v4) (Y : Bf (F := F) c main_v5)
    (O : CellTallies nD τ sig (HIx 1)) (B : Set (SemLoc sig × HIx 1)) :
    Pipeline.Dat τ (Elt F) (HIx 1) ℕ UU ℕ (Pipeline.pin (pcfgs (F := F)) adm 0) c where
  A w := w.elim0
  after w := w.elim0
  Φ t := match t with
    | ⟨0, _⟩ => PhiA c X0 X4 Y
    | ⟨_ + 1, _⟩ => PhiA c X0 X4 (packed X0 X4)
  q w := w.elim0
  owed _ := O
  recorded _ := B

/-- A pipeline of no window conjoins nothing over its windows. -/
theorem bigSep_noWin {M : Type} [URA M] (Φ : Fin 0 → sProp M) : bigSep Finset.univ Φ = (BI.emp : sProp M) :=
  bigSep_univ_eq_bigSepL [] (by decide) (by decide) Φ

/-- The packing kernel's own semaphores at zero, one by one. -/
theorem ownSemsA_eq (c : Dev nD) :
    (Pipeline.ownSems0 (Ix := HIx 1) (Name := ℕ) (U := UU) (Lvl := ℕ) (Val := Elt F) (τ := τ) osemA c : sProp 𝕄)
      = iprop(cell c cc0_scratch4 0 ∗ cell c cc0_scratch5 0 ∗ cell c cc0_scratch6 0 ∗ cell c cc0_scratch7 0) :=
  Pipeline.ownSems0_eq_of_list (Ix := HIx 1) (Name := ℕ) (U := UU) (Lvl := ℕ) (Val := Elt F) (τ := τ) c osemA [0, 1, 2, 3] (by decide) (by decide)

/-- The body obligation of the packing pipeline: at its one point the kernel's body runs from the invariant at what
    the packed table held to the invariant at the packing, owing the same, every pair its waits record at the kernels'
    index. -/
theorem body0 (c : Dev nD) (X0 : Bf (F := F) c main_v0) (X4 : Bf (F := F) c main_v4) (Y : Bf (F := F) c main_v5)
    (O : CellTallies nD τ sig (HIx 1)) (B : Set (SemLoc sig × HIx 1))
    (hO : ∀ g, O g none = 0) (hB : ∀ sm, (sm, (none : HIx 1)) ∈ B) :
    Pipeline.BodyObligationLoose (dat0 c X0 X4 Y O B) (defs₀ (F := F)) 𝒱₀ (none : HIx 1) Set.univ := fun t => by
  obtain rfl := fin_N0 t
  show iprop(PhiA c X0 X4 Y ∗ Pipeline.owesWithin c O ((dat0 c X0 X4 Y O B).bound none t0_0.castSucc)
        ∗ bigSep (Finset.univ : Finset (Fin 0)) _)
      ⊢ wp frame (wpE (defs₀ (F := F)) 𝒱₀ (c.tc : Thread nD τ) none) Set.univ (Gen.bodyAt0 (F := F) t0_0) (fun _ =>
          iprop(PhiA c X0 X4 (packed X0 X4) ∗ Pipeline.owesWithin c O ((dat0 c X0 X4 Y O B).bound none t0_0.succ)
            ∗ bigSep (Finset.univ : Finset (Fin 0)) _))
  rw [bigSep_noWin, bigSep_noWin]
  unfold PhiA
  iintro ⟨⟨#Hlev, H0, H4, H5, Hsem, Hscr⟩, ⟨%W, %hW, HO⟩, -⟩
  -- the kernel's waits are at the kernels' index, below everything the core owes
  ihave #Hmw := ((K (F := F)).mayWaits_none (thr := (c.tc : Thread nD τ)) hO) $$ Hlev
  -- the four semaphores and the four scratch buffers, one by one
  ihave Hsem' := (Entails.of_eq (ownSemsA_eq (F := F) c)) $$ Hsem
  icases Hsem' with ⟨S4, S5, S6, S7⟩
  ihave Hscr' := (Entails.of_eq (scopedRest0_eq (Ix := HIx 1) (Val := Elt F) (Name := ℕ) (U := UU) (Lvl := ℕ) c)) $$ Hscr
  icases Hscr' with ⟨B0, B1, B2, B3, Hstg⟩
  iapply (wp_wand_r frame _ Set.univ)
  isplitl [H0 H4 H5 S4 S5 S6 S7 B0 B1 B2 B3 HO]
  · iapply (pack_body (c := c) (q0 := fullShare) (X0 := X0) (X4 := X4) (Y := Y) (O := O) (W := W) (t := t0_0) (q4 := fullShare))
    isplitr
    · imodintro; iexact Hmw
    isplitl [H0]; · iexact H0
    isplitl [H4]; · iexact H4
    isplitl [H5]; · iexact H5
    isplitl [B0]; · iexact B0
    isplitl [B1]; · iexact B1
    isplitl [B2]; · iexact B2
    isplitl [B3]; · iexact B3
    isplitl [S4]; · iexact S4
    isplitl [S5]; · iexact S5
    isplitl [S6]; · iexact S6
    isplitl [S7]; · iexact S7
    iexact HO
  iintro %_ ⟨H0, H4, H5, B0, B1, B2, B3, S4, S5, S6, S7, ⟨%W', %hW', HO⟩⟩
  isplitl [H0 H4 H5 S4 S5 S6 S7 B0 B1 B2 B3 Hstg]
  · isplitr; · iexact Hlev
    isplitl [H0]; · iexact H0
    isplitl [H4]; · iexact H4
    isplitl [H5]; · iexact H5
    isplitl [S4 S5 S6 S7]
    · iapply (Entails.of_eq (ownSemsA_eq (F := F) c).symm)
      isplitl [S4]; · iexact S4
      isplitl [S5]; · iexact S5
      isplitl [S6]; · iexact S6
      iexact S7
    iapply (Entails.of_eq (scopedRest0_eq (Ix := HIx 1) (Val := Elt F) (Name := ℕ) (U := UU) (Lvl := ℕ) c).symm)
    isplitl [B0]; · iexact B0
    isplitl [B1]; · iexact B1
    isplitl [B2]; · iexact B2
    isplitl [B3]; · iexact B3
    iexact Hstg
  isplitl [HO]
  · iexists W'
    isplitr
    · ipureintro
      intro p hp
      rcases hW' p (Finset.mem_coe.mp hp) with h | h
      · exact hW (Finset.mem_coe.mpr h)
      · obtain ⟨sm, ι⟩ := p
        cases h
        exact Or.inl (hB sm)
    iexact HO
  iempintro

/-! ## The packing kernel's three arrays as device buffers -/

abbrev pk0 : DevRef τ sig := Proc.devRef .tc (main_v0 : Ref sig .tc)
abbrev pk4 : DevRef τ sig := Proc.devRef .tc (main_v4 : Ref sig .tc)
abbrev pk5 : DevRef τ sig := Proc.devRef .tc (main_v5 : Ref sig .tc)

/-- The packing pipeline's proof data over the contents the region finds, the tallies and the bound on the recorded
    pairs those of the TensorCore before the SparseCore call. -/
abbrev datA (V : Dev nD → Valuation τ sig (Elt F)) (c : Dev nD) :
    Pipeline.Dat τ (Elt F) (HIx 1) ℕ UU ℕ (Pipeline.pin (pcfgs (F := F)) adm 0) c :=
  dat0 c (V c pk0) (V c pk4) (V c pk5) ((K (F := F)).Otc c 0) (boundT (F := F) c 0)

end Cert.Proof.KI

end
-- ==== Proof.HostRead.lean ====
/-
  The buffers the host stretches leave for the kernels, read at one index: each is an input array at an index that
  arithmetic names — the transposed table, the packed tail of the table, the relation table two rows to one, the entity
  and relation indices' packed rows 128 to a row, and the five half-selectors of a sample in one word.
-/
import proofs.«205037_g73117523247527_cont_9to1c4b_608_48_alg».proof.Proof.Host
import proofs.«205037_g73117523247527_cont_9to1c4b_608_48_alg».proof.Proof.PackPick
import Idealize.ShloMosaic.Lib.Pipeline.Value
import Idealize.ShloMosaic.Lib.ValueIdxCoords

noncomputable section

namespace Cert.Proof.KI

open Cert.KernelIdeal Cert.KernelIdeal.Gen
open Idealize.ShloMosaic Idealize.ShloMosaic.ValueIdx
open Cert.Proof.IdxArith

variable {F : FTy → Type} [FloatOps F]

/-! ## Arrays at an index -/

section Arrays
variable {α : Type}

/-- Four arrays of 16384 one after another. -/
abbrev cat4 (a0 a1 a2 a3 : S16384.Idx → α) : S65536.Idx → α :=
  concatenate S65536 0 [⟨S16384, a0⟩, ⟨S16384, a1⟩, ⟨S16384, a2⟩, ⟨S16384, a3⟩]
    concatenates_S16384_S16384_S16384_S16384_S65536_d0

/-- The `k`-th of four. -/
abbrev pick4 (a0 a1 a2 a3 : α) : Fin 4 → α
  | 0 => a0 | 1 => a1 | 2 => a2 | 3 => a3

set_option maxRecDepth 8192 in
/-- Position `16384 k + i` of four arrays one after another is position `i` of the `k`-th. -/
theorem cat4_apply (a0 a1 a2 a3 : S16384.Idx → α) (k : Fin 4) (i : S16384.Idx) (j : S65536.Idx)
    (hj : (j 0).val = 16384 * k.val + (i 0).val) : cat4 a0 a1 a2 a3 j = pick4 a0 a1 a2 a3 k i := by
  have hne : ∀ b : Fin S16384.rank, b.cast (rfl : S16384.rank = S65536.rank) ≠ (0 : Fin S65536.rank) → (i b).val = (j (b.cast rfl)).val :=
    fun b hb => absurd (Subsingleton.elim _ _) hb
  match k with
  | 0 => exact concatenate_apply_piece 0 _ _ j 0 (by show 0 < 4; omega) S16384 a0 rfl rfl 0 rfl i hne (by rw [hj]; show 0 + (i 0).val = 16384 * 0 + (i 0).val; omega)
  | 1 => exact concatenate_apply_piece 0 _ _ j 1 (by show 1 < 4; omega) S16384 a1 rfl rfl 16384 rfl i hne (by rw [hj]; show 16384 + (i 0).val = 16384 * 1 + (i 0).val; omega)
  | 2 => exact concatenate_apply_piece 0 _ _ j 2 (by show 2 < 4; omega) S16384 a2 rfl rfl 32768 rfl i hne (by rw [hj]; show 32768 + (i 0).val = 16384 * 2 + (i 0).val; omega)
  | 3 => exact concatenate_apply_piece 0 _ _ j 3 (by show 3 < 4; omega) S16384 a3 rfl rfl 49152 (by first | decide | simp) i hne (by rw [hj]; show 49152 + (i 0).val = 16384 * 3 + (i 0).val; omega)

end Arrays

section Arrays2
variable {α : Type}

/-- Row `k` of four rows of 16384, at `i`, is position `16384 k + i` of the 65536. -/
theorem halfRow_apply (e : IVec S65536 32) (k : Nat) (hk : k < 4) (h : S4x16384.Slices ![k, 0] S1x16384) (i : S16384.Idx)
    (j : S65536.Idx) (hj : (j 0).val = 16384 * k + (i 0).val) : halfRow e k h i = e j := by
  have hi : (i 0).val < 16384 := (i 0).isLt
  show shapeCast S16384 _ _ i = e j
  refine (shapeCast_apply _ _ i (ix2 (n0 := 1) (n1 := 16384) u0 ⟨(i 0).val, hi⟩) (by
      rw [Shape.rowMajor_val_two, Shape.rowMajor_val_one]; show 0 * 16384 + (i 0).val = (i 0).val; omega)).trans ?_
  refine (extractStridedSlice_apply _ _ _ _ (ix2 (n0 := 4) (n1 := 16384) ⟨k, hk⟩ ⟨(i 0).val, hi⟩) (fun a => match a with
      | ⟨0, _⟩ => by show k = k + 0; omega
      | ⟨1, _⟩ => by show (i 0).val = 0 + (i 0).val; omega)).trans ?_
  exact shapeCast_apply _ _ _ j (by
      rw [Shape.rowMajor_val_one, Shape.rowMajor_val_two]; show (j 0).val = k * 16384 + (i 0).val; omega)

/-- 65536 entries 128 to a row: row `r`, column `c` is position `128 r + c`. -/
theorem rows512_apply (x : S65536.Idx → α) (r : Fin 512) (c : Fin 128) (j : S65536.Idx)
    (hj : (j 0).val = 128 * r.val + c.val) : shapeCast S512x128 x shapeCasts_S65536_S512x128 (ix2 r c) = x j :=
  shapeCast_apply _ _ _ j (by
    rw [Shape.rowMajor_val_one, Shape.rowMajor_val_two]; show (j 0).val = r.val * 128 + c.val; omega)

/-- 16384 entries 128 to a row: row `g`, column `c` is position `128 g + c`. -/
theorem rows128_apply (x : S16384.Idx → α) (g c : Fin 128) :
    shapeCast S128x128 x shapeCasts_S16384_S128x128 (ix2 g c)
      = x (ix1 ⟨128 * g.val + c.val, by have := g.isLt; have := c.isLt; omega⟩) :=
  shapeCast_apply _ _ _ _ (by
    rw [Shape.rowMajor_val_one, Shape.rowMajor_val_two]; show 128 * g.val + c.val = g.val * 128 + c.val; omega)

/-- 16384 entries one to a row. -/
theorem rows1_apply (x : S16384.Idx → α) (b : Fin 16384) :
    shapeCast S16384x1 x shapeCasts_S16384_S16384x1 (ix2 b u0) = x (ix1 b) :=
  shapeCast_apply _ _ _ _ (by
    rw [Shape.rowMajor_val_one, Shape.rowMajor_val_two]; show b.val = b.val * 1 + 0; omega)

/-- A table of 1000 rows of 64 read two rows to one: packed row `p`, column `c` is row `2 p + c / 64`, column
    `c % 64`. -/
theorem rel2_apply (R : S1000x64.Idx → α) (p : Fin 500) (c : Fin 128) :
    shapeCast S500x128 R shapeCasts_S1000x64_S500x128 (ix2 p c)
      = R (ix2 ⟨2 * p.val + c.val / 64, by have := p.isLt; have := c.isLt; omega⟩ ⟨c.val % 64, by omega⟩) :=
  shapeCast_apply _ _ _ _ (by
    rw [Shape.rowMajor_val_two, Shape.rowMajor_val_two]
    show (2 * p.val + c.val / 64) * 64 + c.val % 64 = p.val * 128 + c.val; omega)

/-- The transposed table at `(j, i)` is the table at `(i, j)`. -/
theorem tabT_apply (E : S1000000x64.Idx → α) (j : Fin 64) (i : Fin 1000000) :
    transpose S64x1000000 [1, 0] E transposes_S1000000x64_S64x1000000_1_0 (ix2 j i) = E (ix2 i j) :=
  transpose_apply _ _ _ _ _ (fun b => match b with | ⟨0, _⟩ => rfl | ⟨1, _⟩ => rfl)

/-- The table's last 1600 rows, the first 800 beside the last 800: row `j`, column `c` is row
    `998400 + j + 800 (c / 64)`, column `c % 64` of the table. -/
theorem tail_apply (E : S1000000x64.Idx → α) (j : Fin 800) (c : Fin 128) :
    concatenate S800x128 1
        [⟨S800x64, extractStridedSlice S800x64 ![0, 0]
            (extractStridedSlice S1600x64 ![998400, 0] E slices_S1000000x64_S1600x64_998400_0) slices_S1600x64_S800x64_0_0⟩,
         ⟨S800x64, extractStridedSlice S800x64 ![800, 0]
            (extractStridedSlice S1600x64 ![998400, 0] E slices_S1000000x64_S1600x64_998400_0) slices_S1600x64_S800x64_800_0⟩]
        concatenates_S800x64_S800x64_S800x128_d1 (ix2 j c)
      = E (ix2 ⟨998400 + j.val + 800 * (c.val / 64), by have := j.isLt; have := c.isLt; omega⟩ ⟨c.val % 64, by omega⟩) := by
  have hj := j.isLt
  have hc := c.isLt
  by_cases h64 : c.val < 64
  · refine (concatenate_pair_apply_left (t := S800x128) (s₁ := S800x64) (s₂ := S800x64) 1 _ _ _ (ix2 j c) rfl (ix2 (n0 := 800) (n1 := 64) j ⟨c.val, h64⟩)
      (fun b => match b with | ⟨0, _⟩ => rfl | ⟨1, _⟩ => rfl)).trans ?_
    refine (extractStridedSlice_apply _ _ _ _ (ix2 (n0 := 1600) (n1 := 64) ⟨j.val, by omega⟩ ⟨c.val, h64⟩) (fun a => match a with
      | ⟨0, _⟩ => by show j.val = 0 + j.val; omega
      | ⟨1, _⟩ => by show c.val = 0 + c.val; omega)).trans ?_
    exact extractStridedSlice_apply _ _ _ _ _ (fun a => match a with
      | ⟨0, _⟩ => by show 998400 + j.val + 800 * (c.val / 64) = 998400 + j.val; omega
      | ⟨1, _⟩ => by show c.val % 64 = 0 + c.val; omega)
  · refine (concatenate_pair_apply_right (t := S800x128) (s₁ := S800x64) (s₂ := S800x64) 1 _ _ _ (ix2 j c) rfl rfl (ix2 (n0 := 800) (n1 := 64) j ⟨c.val - 64, by omega⟩)
      (fun b hb => match b, hb with | ⟨0, _⟩, _ => rfl | ⟨1, _⟩, hb => absurd rfl hb)
      (by show c.val - 64 + 64 = c.val; omega)).trans ?_
    refine (extractStridedSlice_apply _ _ _ _ (ix2 (n0 := 1600) (n1 := 64) ⟨800 + j.val, by omega⟩ ⟨c.val - 64, by omega⟩) (fun a => match a with
      | ⟨0, _⟩ => by show 800 + j.val = 800 + j.val; omega
      | ⟨1, _⟩ => by show c.val - 64 = 0 + (c.val - 64); omega)).trans ?_
    exact extractStridedSlice_apply _ _ _ _ _ (fun a => match a with
      | ⟨0, _⟩ => by show 998400 + j.val + 800 * (c.val / 64) = 998400 + (800 + j.val); omega
      | ⟨1, _⟩ => by show c.val % 64 = 0 + (c.val - 64); omega)

end Arrays2

/-! ## The stretches' buffers at an index -/

section Reads
open StableHlo

variable (V : Valuation τ sig (Elt F))

/-- The transposed table the first pallas_call reads. -/
theorem A1_v0_read (j : Fin 64) (i : Fin 1000000) :
    after opsA1 V (Proc.devRef .tc main_v0) (ix2 j i) = V (Proc.devRef .tc main_arg0) (ix2 i j) := by
  rw [A1_v0]; exact tabT_apply _ j i

/-- The packed tail of the table the first pallas_call reads. -/
theorem A1_v4_read (j : Fin 800) (c : Fin 128) :
    after opsA1 V (Proc.devRef .tc main_v4) (ix2 j c)
      = V (Proc.devRef .tc main_arg0)
          (ix2 ⟨998400 + j.val + 800 * (c.val / 64), by have := j.isLt; have := c.isLt; omega⟩ ⟨c.val % 64, by omega⟩) := by
  rw [A1_v4]; exact tail_apply _ j c

/-- The relation table two rows to one. -/
theorem A2_v6_read (p : Fin 500) (c : Fin 128) :
    after opsA2 V (Proc.devRef .tc main_v6) (ix2 p c)
      = V (Proc.devRef .tc main_arg1)
          (ix2 ⟨2 * p.val + c.val / 64, by have := p.isLt; have := c.isLt; omega⟩ ⟨c.val % 64, by omega⟩) := by
  rw [A2_v6]; exact rel2_apply _ p c

/-- The halves of the entity indices: position `16384 k + i` is the half of input `k`'s index `i`. -/
theorem A2_v19_read (k : Fin 4) (i : S16384.Idx) (j : S65536.Idx) (hj : (j 0).val = 16384 * k.val + (i 0).val) :
    after opsA2 V (Proc.devRef .tc main_v19) j
      = eparW (pick4 (V (Proc.devRef .tc main_arg2)) (V (Proc.devRef .tc main_arg4)) (V (Proc.devRef .tc main_arg5))
          (V (Proc.devRef .tc main_arg6)) k i) := by
  rw [A2_v19]; exact congrArg eparW (cat4_apply _ _ _ _ k i j hj)

/-- The packed rows of the entity indices, 128 to a row: rows `128 k … 128 k + 127` are input `k`'s. -/
theorem A2_v24_read (k : Fin 4) (g c : Fin 128) (r : Fin 512) (hr : r.val = 128 * k.val + g.val) :
    after opsA2 V (Proc.devRef .tc main_v24) (ix2 r c)
      = epairW (pick4 (V (Proc.devRef .tc main_arg2)) (V (Proc.devRef .tc main_arg4)) (V (Proc.devRef .tc main_arg5))
          (V (Proc.devRef .tc main_arg6)) k (ix1 ⟨128 * g.val + c.val, by have := g.isLt; have := c.isLt; omega⟩)) := by
  have hk := k.isLt; have hg := g.isLt; have hc := c.isLt
  rw [A2_v24]
  refine (rows512_apply _ r c (ix1 ⟨16384 * k.val + (128 * g.val + c.val), by omega⟩)
    (by show 16384 * k.val + (128 * g.val + c.val) = 128 * r.val + c.val; omega)).trans ?_
  exact congrArg epairW (cat4_apply _ _ _ _ k _ _ rfl)

/-- The packed rows of the relation indices, 128 to a row. -/
theorem A2_v25_read (g c : Fin 128) :
    after opsA2 V (Proc.devRef .tc main_v25) (ix2 g c)
      = rpairW (V (Proc.devRef .tc main_arg3) (ix1 ⟨128 * g.val + c.val, by have := g.isLt; have := c.isLt; omega⟩)) := by
  rw [A2_v25]; exact rows128_apply _ g c

/-- The five half-selectors of sample `b` in one word, where the third stretch starts from the halves the second left:
    the halves of the four entity inputs' indices one after another at `main_v19`, of the relation indices at
    `main_v23`. -/
theorem B1_v48_read (a0 a1 a2 a3 a : IVec S16384 32)
    (h19 : V (Proc.devRef .tc main_v19) = fun i => eparW (cat4 a0 a1 a2 a3 i))
    (h23 : V (Proc.devRef .tc main_v23) = fun i => rparW (a i)) (b : Fin 16384) :
    after opsB1 V (Proc.devRef .tc main_v48) (ix2 b u0)
      = PackPick.pbits (a0 (ix1 b)) (a1 (ix1 b)) (a2 (ix1 b)) (a3 (ix1 b)) (a (ix1 b)) := by
  have hb := b.isLt
  have t : ∀ (k : Nat) (hk : k < 4) (h : S4x16384.Slices ![k, 0] S1x16384),
      halfRow (fun i => eparW (cat4 a0 a1 a2 a3 i)) k h (ix1 b) = eparW (pick4 a0 a1 a2 a3 ⟨k, hk⟩ (ix1 b)) := fun k hk h => by
    rw [halfRow_apply _ k hk h (ix1 b) (ix1 ⟨16384 * k + b.val, by omega⟩) rfl]
    exact congrArg eparW (cat4_apply a0 a1 a2 a3 ⟨k, hk⟩ (ix1 b) _ rfl)
  rw [B1_v48]
  refine (rows1_apply _ b).trans ?_
  show packW _ _ _ _ _ = _
  rw [h19, h23, t 0 (by omega), t 1 (by omega), t 2 (by omega), t 3 (by omega)]
  rfl

end Reads

end Cert.Proof.KI

end
-- ==== Proof.ChainA.lean ====
/-
  What the TensorCore's first host program leaves. It runs the first stretch of host operations, then the packing
  kernel, which overwrites the packed table's array with some contents, then the second stretch. From a start valuation
  and those contents: the arguments are where they were; the packed table holds what the kernel left; what the kernel
  read, and every other operand of the SparseCore call, is an input array at an index arithmetic names; and the halves
  the third stretch reads are the halves of the inputs' indices — so that after the SparseCore call, whatever it left in
  its five results, the word of five half-selectors the last kernel reads is the inputs' own.
-/
import proofs.«205037_g73117523247527_cont_9to1c4b_608_48_alg».proof.Proof.HostRead
import proofs.«205037_g73117523247527_cont_9to1c4b_608_48_alg».proof.Proof.HandOver

noncomputable section

namespace Cert.Proof.KI

open Cert.KernelIdeal Cert.KernelIdeal.Gen
open Idealize.ShloMosaic Idealize.ShloMosaic.ValueIdx
open Cert.Proof.IdxArith
open StableHlo

variable {F : FTy → Type} [FloatOps F]

/-! ## The valuation after the first host program -/

section One

variable (V0 : Valuation τ sig (Elt F)) (Pk : (Proc.devRef .tc main_v5 : DevRef τ sig).ty.Contents (Elt F))

/-- The buffers after the first stretch and the packing kernel: the first stretch's, the packed table at what the kernel
    left. -/
abbrev Vmid : Valuation τ sig (Elt F) := Function.update (after opsA1 V0) (Proc.devRef .tc main_v5) Pk

/-- The buffers after the first host program: the second stretch from there. -/
def VAof : Valuation τ sig (Elt F) := after opsA2 (Vmid V0 Pk)

theorem Vmid_arg0 : Vmid V0 Pk (Proc.devRef .tc main_arg0) = V0 (Proc.devRef .tc main_arg0) := by
  rw [Vmid, Function.update_of_ne (by decide), A1_arg0]
theorem Vmid_arg1 : Vmid V0 Pk (Proc.devRef .tc main_arg1) = V0 (Proc.devRef .tc main_arg1) := by
  rw [Vmid, Function.update_of_ne (by decide), A1_arg1]
theorem Vmid_arg2 : Vmid V0 Pk (Proc.devRef .tc main_arg2) = V0 (Proc.devRef .tc main_arg2) := by
  rw [Vmid, Function.update_of_ne (by decide), A1_arg2]
theorem Vmid_arg3 : Vmid V0 Pk (Proc.devRef .tc main_arg3) = V0 (Proc.devRef .tc main_arg3) := by
  rw [Vmid, Function.update_of_ne (by decide), A1_arg3]
theorem Vmid_arg4 : Vmid V0 Pk (Proc.devRef .tc main_arg4) = V0 (Proc.devRef .tc main_arg4) := by
  rw [Vmid, Function.update_of_ne (by decide), A1_arg4]
theorem Vmid_arg5 : Vmid V0 Pk (Proc.devRef .tc main_arg5) = V0 (Proc.devRef .tc main_arg5) := by
  rw [Vmid, Function.update_of_ne (by decide), A1_arg5]
theorem Vmid_arg6 : Vmid V0 Pk (Proc.devRef .tc main_arg6) = V0 (Proc.devRef .tc main_arg6) := by
  rw [Vmid, Function.update_of_ne (by decide), A1_arg6]

/-! ### The arguments are where they were -/

theorem VAof_arg0 : VAof V0 Pk (Proc.devRef .tc main_arg0) = V0 (Proc.devRef .tc main_arg0) := by
  rw [VAof, A2_arg0, Vmid_arg0]
theorem VAof_arg1 : VAof V0 Pk (Proc.devRef .tc main_arg1) = V0 (Proc.devRef .tc main_arg1) := by
  rw [VAof, A2_arg1, Vmid_arg1]
theorem VAof_arg2 : VAof V0 Pk (Proc.devRef .tc main_arg2) = V0 (Proc.devRef .tc main_arg2) := by
  rw [VAof, A2_arg2, Vmid_arg2]
theorem VAof_arg3 : VAof V0 Pk (Proc.devRef .tc main_arg3) = V0 (Proc.devRef .tc main_arg3) := by
  rw [VAof, A2_arg3, Vmid_arg3]
theorem VAof_arg4 : VAof V0 Pk (Proc.devRef .tc main_arg4) = V0 (Proc.devRef .tc main_arg4) := by
  rw [VAof, A2_arg4, Vmid_arg4]
theorem VAof_arg5 : VAof V0 Pk (Proc.devRef .tc main_arg5) = V0 (Proc.devRef .tc main_arg5) := by
  rw [VAof, A2_arg5, Vmid_arg5]
theorem VAof_arg6 : VAof V0 Pk (Proc.devRef .tc main_arg6) = V0 (Proc.devRef .tc main_arg6) := by
  rw [VAof, A2_arg6, Vmid_arg6]

/-! ### The packed table is what the kernel left; what the kernel read -/

theorem VAof_v5 : VAof V0 Pk (Proc.devRef .tc main_v5) = Pk := by
  rw [VAof, A2_v5, Vmid, Function.update_self]

/-- The transposed table the packing kernel reads. -/
theorem region_v0_read (j : Fin 64) (i : Fin 1000000) :
    after opsA1 V0 (Proc.devRef .tc main_v0) (ix2 j i) = V0 (Proc.devRef .tc main_arg0) (ix2 i j) := A1_v0_read V0 j i

/-- The packed tail of the table the packing kernel reads. -/
theorem region_v4_read (j : Fin 800) (c : Fin 128) :
    after opsA1 V0 (Proc.devRef .tc main_v4) (ix2 j c)
      = V0 (Proc.devRef .tc main_arg0)
          (ix2 ⟨998400 + j.val + 800 * (c.val / 64), by have := j.isLt; have := c.isLt; omega⟩ ⟨c.val % 64, by omega⟩) :=
  A1_v4_read V0 j c

/-! ### The SparseCore call's other operands -/

/-- The relation table two rows to one. -/
theorem VAof_v6_read (p : Fin 500) (c : Fin 128) :
    VAof V0 Pk (Proc.devRef .tc main_v6) (ix2 p c)
      = V0 (Proc.devRef .tc main_arg1)
          (ix2 ⟨2 * p.val + c.val / 64, by have := p.isLt; have := c.isLt; omega⟩ ⟨c.val % 64, by omega⟩) := by
  rw [VAof, A2_v6_read, Vmid_arg1]

/-- The packed rows of the entity indices, 128 to a row: rows `128 k … 128 k + 127` are input `k`'s. -/
theorem VAof_v24_read (k : Fin 4) (g c : Fin 128) (r : Fin 512) (hr : r.val = 128 * k.val + g.val) :
    VAof V0 Pk (Proc.devRef .tc main_v24) (ix2 r c)
      = epairW (pick4 (V0 (Proc.devRef .tc main_arg2)) (V0 (Proc.devRef .tc main_arg4)) (V0 (Proc.devRef .tc main_arg5))
          (V0 (Proc.devRef .tc main_arg6)) k (ix1 ⟨128 * g.val + c.val, by have := g.isLt; have := c.isLt; omega⟩)) := by
  rw [VAof, A2_v24_read _ k g c r hr, Vmid_arg2, Vmid_arg4, Vmid_arg5, Vmid_arg6]

/-- The packed rows of the relation indices, 128 to a row. -/
theorem VAof_v25_read (g c : Fin 128) :
    VAof V0 Pk (Proc.devRef .tc main_v25) (ix2 g c)
      = rpairW (V0 (Proc.devRef .tc main_arg3) (ix1 ⟨128 * g.val + c.val, by have := g.isLt; have := c.isLt; omega⟩)) := by
  rw [VAof, A2_v25_read, Vmid_arg3]

/-! ### What the third stretch reads -/

/-- The halves of the four entity inputs' indices one after another. -/
theorem VAof_v19 :
    VAof V0 Pk (Proc.devRef .tc main_v19)
      = fun i => eparW (cat4 (V0 (Proc.devRef .tc main_arg2)) (V0 (Proc.devRef .tc main_arg4))
          (V0 (Proc.devRef .tc main_arg5)) (V0 (Proc.devRef .tc main_arg6)) i) := by
  rw [VAof, A2_v19]
  show (fun i => eparW (cat4 (Vmid V0 Pk (Proc.devRef .tc main_arg2)) (Vmid V0 Pk (Proc.devRef .tc main_arg4))
    (Vmid V0 Pk (Proc.devRef .tc main_arg5)) (Vmid V0 Pk (Proc.devRef .tc main_arg6)) i)) = _
  rw [Vmid_arg2, Vmid_arg4, Vmid_arg5, Vmid_arg6]

/-- The halves of the relation indices. -/
theorem VAof_v23 :
    VAof V0 Pk (Proc.devRef .tc main_v23) = fun i => rparW (V0 (Proc.devRef .tc main_arg3) i) := by
  rw [VAof, A2_v23, Vmid_arg3]

end One

/-! ## After the SparseCore call -/

section Call

variable (V0 : Dev nD → Valuation τ sig (Elt F)) (Pk : (d : Dev nD) → (Proc.devRef .tc main_v5 : DevRef τ sig).ty.Contents (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- Whatever the SparseCore call left in its five results, the third stretch packs the inputs' own five half-selectors
    of sample `b` into the word the last kernel reads. -/
theorem chain_v48_read (d : Dev nD) (b : Fin 16384) :
    after opsB1 (VS (fun d => VAof (V0 d) (Pk d)) G0 G1 G2 G3 G4 d) (Proc.devRef .tc main_v48) (ix2 b u0)
      = PackPick.pbits (V0 d (Proc.devRef .tc main_arg2) (ix1 b)) (V0 d (Proc.devRef .tc main_arg4) (ix1 b))
          (V0 d (Proc.devRef .tc main_arg5) (ix1 b)) (V0 d (Proc.devRef .tc main_arg6) (ix1 b))
          (V0 d (Proc.devRef .tc main_arg3) (ix1 b)) :=
  B1_v48_read _ _ _ _ _ _
    (by rw [VS_of_ne _ G0 G1 G2 G3 G4 d (by decide) (by decide) (by decide) (by decide) (by decide)]; exact VAof_v19 (V0 d) (Pk d))
    (by rw [VS_of_ne _ G0 G1 G2 G3 G4 d (by decide) (by decide) (by decide) (by decide) (by decide)]; exact VAof_v23 (V0 d) (Pk d))
    b

end Call

end Cert.Proof.KI

end
-- ==== Proof.StretchA.lean ====
/-
  The first stretch of @main on the TensorCore, up to the SparseCore call: a line of host operations, the packing
  kernel's region, and a second line of host operations. Each line runs within the TensorCore's unscoped buffers held
  at a valuation. The packing pipeline has one point and no window: the three arrays its kernel touches stay whole in
  HBM, so they enter the region through its invariant, sorted out of the held set, while every other unscoped buffer
  bypasses the region; the kernel's four DMA semaphores are the region's own. The TensorCore owes the start signals of
  the SparseCore call throughout, all at the call's index; the kernel's waits record pairs at the kernels' index only,
  which sits below every such debt.
-/
import proofs.«205037_g73117523247527_cont_9to1c4b_608_48_alg».proof.Proof.DatA
import proofs.«205037_g73117523247527_cont_9to1c4b_608_48_alg».proof.Proof.ChainA

noncomputable section

namespace Cert.Proof.KI

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The three arrays of the packing kernel among the unscoped buffers -/

/-- The two sources and the packed table. -/
def TA3 : Finset (DevRef τ sig) := {pk0, pk4, pk5}

/-- They are unscoped buffers of the TensorCore. -/
theorem TA3_sub : (TA3 : Finset (DevRef τ sig)) ⊆ Pipeline.ucRefs τ sig := fun b hb => by
  simp only [TA3, Finset.mem_insert, Finset.mem_singleton] at hb
  rcases hb with rfl | rfl | rfl <;> exact Finset.mem_filter.mpr ⟨StableHlo.devRef_mem_tcRefs _, by decide⟩

/-- Held at a valuation, the three are each whole at its contents. -/
theorem held_TA3 (c : Dev nD) (W : Valuation τ sig (Elt F)) :
    (StableHlo.held (T c) TA3 W : sProp 𝕄)
      = iprop(pt c main_v0 fullShare (W pk0) ∗ pt c main_v4 fullShare (W pk4) ∗ pt c main_v5 fullShare (W pk5)) := by
  unfold StableHlo.held TA3
  rw [bigSep_insert (by decide), bigSep_insert (by decide), bigSep_singleton]
  rfl

/-- The buffers when the packing region is left: as it found them, but for the packed table. -/
def VP (V : Valuation τ sig (Elt F)) (c : Dev nD) : Valuation τ sig (Elt F) :=
  Function.update V pk5 (packed (c := c) (V pk0) (V pk4))

theorem VP_pk0 (V : Valuation τ sig (Elt F)) (c : Dev nD) : VP V c pk0 = V pk0 := Function.update_of_ne (by decide) _ _
theorem VP_pk4 (V : Valuation τ sig (Elt F)) (c : Dev nD) : VP V c pk4 = V pk4 := Function.update_of_ne (by decide) _ _
theorem VP_pk5 (V : Valuation τ sig (Elt F)) (c : Dev nD) : VP V c pk5 = packed (c := c) (V pk0) (V pk4) := Function.update_self _ _ _

/-- Off the three the region leaves the buffers as it found them. -/
theorem held_rest_VP (V : Valuation τ sig (Elt F)) (c : Dev nD) :
    (StableHlo.held (T c) (Pipeline.ucRefs τ sig \ TA3) (VP V c) : sProp 𝕄) = StableHlo.held (T c) (Pipeline.ucRefs τ sig \ TA3) V :=
  StableHlo.held_congr (T c) fun b hb => Function.update_of_ne (fun h => (Finset.mem_sdiff.mp hb).2 (by
    rw [h]; simp only [TA3, Finset.mem_insert, Finset.mem_singleton, or_true])) _ _

/-- The unscoped buffers at what the region leaves: the two sources as found, the packed table at the packing, the rest as found. -/
theorem held_VP (V : Valuation τ sig (Elt F)) (c : Dev nD) :
    (StableHlo.held (T c) (Pipeline.ucRefs τ sig) (VP V c) : sProp 𝕄)
      = iprop((pt c main_v0 fullShare (V pk0) ∗ pt c main_v4 fullShare (V pk4) ∗ pt c main_v5 fullShare (packed (c := c) (V pk0) (V pk4)))
          ∗ StableHlo.held (T c) (Pipeline.ucRefs τ sig \ TA3) V) := by
  rw [StableHlo.held_sub_split (T c) TA3_sub, held_TA3, held_rest_VP, VP_pk0, VP_pk4, VP_pk5]

/-! ## The packing kernel's region -/

/-- What the TensorCore owes is owed at a call's index, never at the kernels'. -/
theorem Otc_none (d : Dev nD) (n : ℕ) (g : GSem nD τ sig) : (K (F := F)).Otc d n g none = 0 := by
  by_contra h
  have := (K (F := F)).lev_of_Otc_pos (Nat.pos_of_ne_zero h)
  exact absurd this (by show ¬ (8 * n + 1 ≤ 0); omega)

/-- The kernel's four DMA semaphores are scoped, distinct, and no staging semaphore. -/
theorem ownSemFactsA : Pipeline.OwnSemFacts cfg0.spec osemA := by decide

/-- The first pipeline's summand of the launch's deal of staging cells' ghost state, and the second's. -/
theorem G_eq (d : Dev nD) :
    (G (F := F) d : sProp 𝕄) = iprop((Pipeline.cellsGhost (Pipeline.pin (pcfgs (F := F)) adm) EP 0 d
      ∗ Pipeline.toksInit (Pipeline.pin (pcfgs (F := F)) adm) EP 0 d) ∗ G1 (F := F) d) :=
  Pipeline.PerCore.ghostOn_erase (pcfgs (F := F)) (fun _ => adm) EP (Finset.mem_univ (0 : Fin 2)) d

/-- The region's record: entered from the unscoped buffers held at `V` and the TensorCore's debts before the call,
    left with the packed table at the packing. -/
def RegA (V : Dev nD → Valuation τ sig (Elt F))
    (dat1 : (c : Dev nD) → Pipeline.Dat τ (Elt F) (HIx 1) ℕ UU ℕ (Pipeline.pin (pcfgs (F := F)) adm 1) c) :
    Pipeline.RegionSeg (pcfgs (F := F)) adm (pdats (datA V) dat1) (none : HIx 1) (defs₀ (F := F)) 𝒱₀ (K (F := F)).L (K (F := F)).lev 0 where
  win := winFacts0.to₀
  block_pos := block_pos0
  stage_whole := stage_whole0
  K := Fin 4
  osem := osemA
  ho := ownSemFactsA
  hbody c := body0 c _ _ _ _ _ (Otc_none c 0) (none_mem_boundT c 0)
  hwaits c := Pipeline.cellsWaits_intro (Pipeline.pin (pcfgs (F := F)) adm) (pdats (datA V) dat1) (none : HIx 1) 0 c fun w => w.elim0
  pre c := iprop(StableHlo.held (T c) (Pipeline.ucRefs τ sig) (V c) ∗ owesT (F := F) c 0)
  post c := iprop(StableHlo.held (T c) (Pipeline.ucRefs τ sig) (VP (V c) c) ∗ owesT (F := F) c 0)
  X c := iprop(levAts (K (F := F)).L (K (F := F)).lev ∗ pt c main_v0 fullShare (V c pk0) ∗ pt c main_v4 fullShare (V c pk4)
    ∗ pt c main_v5 fullShare (V c pk5)
    ∗ Pipeline.ownSems0 (Ix := HIx 1) (Name := ℕ) (U := UU) (Lvl := ℕ) (Val := Elt F) (τ := τ) osemA c)
  Y c := iprop(pt c main_v0 fullShare (V c pk0) ∗ pt c main_v4 fullShare (V c pk4)
    ∗ pt c main_v5 fullShare (packed (V c pk0) (V c pk4)))
  Z c := StableHlo.held (T c) (Pipeline.ucRefs τ sig \ TA3) (V c)
  hentry c := by
    rw [StableHlo.held_sub_split (T c) TA3_sub, held_TA3]
    iintro ⟨⟨⟨⟨H0, H4, H5⟩, Hr⟩, HO⟩, Hos, #Hlev⟩
    imodintro
    isplitr
    · unfold Pipeline.Dat.arrays; rw [show (Finset.univ : Finset (Fin 0)) = ∅ from rfl, BI.bigSep_empty]; iempintro
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitr [Hr]
    · isplitr; · iexact Hlev
      isplitl [H0]; · iexact H0
      isplitl [H4]; · iexact H4
      isplitl [H5]; · iexact H5
      iexact Hos
    iexact Hr
  hin c := by
    rw [show (pdats (datA V) dat1 0 c).Φ 0 = PhiA c (V c pk0) (V c pk4) (V c pk5) from rfl]
    unfold PhiA
    iintro ⟨⟨Hlev, H0, H4, H5, Hos⟩, -, Hr⟩
    isplitl [Hlev]; · iexact Hlev
    isplitl [H0]; · iexact H0
    isplitl [H4]; · iexact H4
    isplitl [H5]; · iexact H5
    isplitl [Hos]; · iexact Hos
    iexact Hr
  hout c := by
    rw [show (pdats (datA V) dat1 0 c).Φ (Fin.last (Pipeline.pin (pcfgs (F := F)) adm 0).N)
      = PhiA c (V c pk0) (V c pk4) (packed (V c pk0) (V c pk4)) from rfl]
    unfold PhiA
    iintro ⟨-, H0, H4, H5, Hos, Hr⟩
    isplitl [H0 H4 H5]
    · isplitl [H0]; · iexact H0
      isplitl [H4]; · iexact H4
      iexact H5
    isplitl [Hos]; · iexact Hos
    iexact Hr
  hexit c := by
    rw [held_VP]
    iintro ⟨-, HO, HY, HZ⟩
    imodintro
    isplitr [HO]
    · isplitl [HY]; · iexact HY
      iexact HZ
    · icases HO with ⟨%W, %hW, HO⟩; iexists W; isplitr
      · ipureintro
        intro p hp
        rcases hW (Finset.mem_coe.mpr hp) with h | ⟨w, s, h⟩
        · exact h
        · exact w.elim0
      iexact HO

/-! ## The stretch -/

/-- The buffers at the end of the stretch: the first line, the packing, the second line. -/
def VA (m : (ℓ : Loc nD τ sig) → Buf (Elt F) ℓ) (d : Dev nD) : Valuation τ sig (Elt F) :=
  StableHlo.after opsA2 (VP (StableHlo.after opsA1 (StableHlo.launchContents m d)) d)

/-- The same buffers as the chain of host reads names them: the second line run from the first line's buffers with the
    packed table at the packing of the two sources the first line left. -/
theorem VA_eq (m : (ℓ : Loc nD τ sig) → Buf (Elt F) ℓ) (d : Dev nD) :
    VA m d = VAof (StableHlo.launchContents m d)
      (packed (c := d) (StableHlo.after opsA1 (StableHlo.launchContents m d) pk0) (StableHlo.after opsA1 (StableHlo.launchContents m d) pk4)) := rfl

-- the StableHLO rule, stated for any device, unifies at the thread `T d` only when unification may unfold plain
-- definitions in a metavariable's type
set_option backward.isDefEq.respectTransparency.types false in
/-- The stretch's run: the first line within the held buffers, the packing kernel's region by its record (on the first
    pipeline's summand of the staging cells' ghost state, the second's riding along), the second line within the held
    buffers again; what the TensorCore owes rides along. -/
theorem stretchA (m : (ℓ : Loc nD τ sig) → Buf (Elt F) ℓ)
    (dat1 : (c : Dev nD) → Pipeline.Dat τ (Elt F) (HIx 1) ℕ UU ℕ (Pipeline.pin (pcfgs (F := F)) adm 1) c) (d : Dev nD) :
    iprop(levAts (K (F := F)).L (K (F := F)).lev ∗ boundary (T d) ∗ StableHlo.held (T d) (Pipeline.ucRefs τ sig) (StableHlo.launchContents m d)
        ∗ owesT (F := F) d 0 ∗ G (F := F) d)
      ⊢ wp frame (wpE (D (F := F)) 𝒱 (T d) none) Set.univ (hostA (F := F))
          fun _ => iprop(boundary (T d) ∗ StableHlo.held (T d) (Pipeline.ucRefs τ sig) (VA m d) ∗ owesT (F := F) d 0 ∗ G1 (F := F) d) := by
  rw [G_eq, show (hostA (F := F)) = (StableHlo.seq opsA1 >>= fun _ => Prog.op (.customCall (Pipeline.entry 0) ()) fun _ =>
      (StableHlo.seq opsA2 >>= fun u => Pure.pure u)) from by rw [bind_pure]]
  iintro ⟨#Hlev, Hbd, Hh, Ho, ⟨HG, HG1⟩⟩
  iapply (StableHlo.wp_seq (defs := D (F := F)) 𝒱 none Set.univ d (Pipeline.ucRefs τ sig) _ opsA1
    (fun op h => Pipeline.sub_ucRefs op (opsA1_sub op h)) opsA1_fresh (StableHlo.launchContents m d)) $$ [Hbd Hh]
  · isplitl [Hbd] <;> iassumption
  iintro ⟨Hbd, Hh⟩
  iapply (Pipeline.RegionSeg.wp (pcfgs (F := F)) adm (pdats (datA fun c => StableHlo.after opsA1 (StableHlo.launchContents m c)) dat1)
    (none : HIx 1) cellOf_inj EP defs₀ 𝒱₀ (K (F := F)).L (K (F := F)).lev
    (RegA (fun c => StableHlo.after opsA1 (StableHlo.launchContents m c)) dat1) d none (fun _ h => nomatch h) _ _)
  rw [show (RegA (fun c => StableHlo.after opsA1 (StableHlo.launchContents m c)) dat1).post d
      = iprop(StableHlo.held (T d) (Pipeline.ucRefs τ sig) (VP (StableHlo.after opsA1 (StableHlo.launchContents m d)) d) ∗ owesT (F := F) d 0) from rfl,
    show (RegA (fun c => StableHlo.after opsA1 (StableHlo.launchContents m c)) dat1).pre d
      = iprop(StableHlo.held (T d) (Pipeline.ucRefs τ sig) (StableHlo.after opsA1 (StableHlo.launchContents m d)) ∗ owesT (F := F) d 0) from rfl]
  isplitr [Hbd Hh Ho HG]
  · iintro ⟨Hbd, Hh, Ho⟩
    iapply (StableHlo.wp_seq (defs := D (F := F)) 𝒱 none Set.univ d (Pipeline.ucRefs τ sig) (fun u => Pure.pure u) opsA2
      (fun op h => Pipeline.sub_ucRefs op (opsA2_sub op h)) opsA2_fresh (VP (StableHlo.after opsA1 (StableHlo.launchContents m d)) d)) $$ [Hbd Hh]
    · isplitl [Hbd] <;> iassumption
    iintro ⟨Hbd, Hh⟩
    rw [wp_pure]; imodintro
    isplitl [Hbd]; · iexact Hbd
    isplitl [Hh]; · iexact Hh
    isplitl [Ho]; · iexact Ho
    iexact HG1
  isplitl [Hbd]; · iexact Hbd
  isplitl [Hh Ho]
  · isplitl [Hh] <;> iassumption
  isplitr; · iexact Hlev
  iexact HG

end Cert.Proof.KI

end
-- ==== Proof.Loss.lean ====
/-
  The loss kernel (the third call of the program): a TensorCore pipeline over eight grid points. Each point
  loads five blocks of 2048 gathered rows and the block of parity words, computes the block's share of the margin
  loss, and adds it into a one-element output block that stays in its staging buffer across the whole grid: the
  body zeroes the block at the first point, adds at every point, and the pipeline writes it back after the last.
  This module holds the pipeline's proof data (what each staging buffer holds after the body, point by point),
  the body obligation, and the value the output array ends with.
-/
import proofs.«205037_g73117523247527_cont_9to1c4b_608_48_alg».proof.Proof.Common
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-! ## One point's share, over the body's payloads -/

/-- The share of the loss one grid point computes from its six blocks: the five row blocks (head, tail, negative
    head, negative tail, relation) and the block of parity words; the body's arithmetic, payload by payload. -/
def part2 (x0 x1 x2 x3 x4 : Vec F S2048x128 .f32) (x5 : Vec F S2048x1 .i32) : F .f32 :=
  k2_pay10 (k2_pay2 x5) (k2_pay3 x5 x0)
    (k2_pay6 (k2_pay4 x5 x1) (k2_pay5 x5 x1) (Scalar.ofBits .f32 0x2B8CBCCC#32))
    (k2_pay7 (k2_pay2 x5) x2) (k2_pay8 (k2_pay2 x5) x3) (k2_pay9 (k2_pay2 x5) x3) x4

/-! ## The body's branch -/

/-- The condition of the body's one conditional (the reset of the accumulator), from the grid coordinate. -/
abbrev cond2 (i : grid2.Coords) : Prop :=
  (Scalar.cmpi .ne (Scalar.extui (Scalar.cmpi .eq (BitVec.ofNat 32 (i 0).val) 0#32)) 0#32) = 1#1
/-- It holds at the first point only: decided over the grid. -/
theorem hcond2 : ∀ t : Fin cfg2.N, cond2 (grid2.coords t) ↔ t.val = 0 :=
  (by decide +kernel : ∀ t : Fin grid2.N, cond2 (grid2.coords t) ↔ t.val = 0)

/-- The offsets of every load and store of the body: the origin. -/
theorem hz2 : (![0, 0] : Fin 2 → Nat) = fun _ => 0 := funext fun a => by fin_cases a <;> rfl

/-! ## The body on any whole staging memrefs, in its two cases -/

set_option maxHeartbeats 1000000 in
/-- At the first point: whatever the output block held, the body leaves the point's share added to zero. -/
theorem run2_A (c : Dev nD) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1 .i32) (harg6 : arg6.IsWhole) (arg7 : Memref sig .tc .vmem S1x1 .f32) (harg7 : arg7.IsWhole) (hc : cond2 i)
    (x0 x1 x2 x3 x4 : Vec F S2048x128 .f32) (x5 : Vec F S2048x1 .i32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 (part2 x0 x1 x2 x3 x4 x5) (k2_pay11 (F := F)))) -∗ K ⟨⟩))
      ⊢ wp frame (wpE (defs₀ (F := F)) 𝒱₀ c none) E (cc2__loss_body i arg1 harg1 arg2 harg2 arg3 harg3 arg4 harg4 arg5 harg5 arg6 harg6 arg7 harg7) K := by
  simp only [cc2__loss_body_eq_skeleton]; unfold cc2__loss_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  sl_unfold_words
  rw [View.read_writes_eq_canon _ _ _ (fun y => ⟨_, List.Mem.head _, View.mem_set_unit_zero hz2 inb_S1x1_S1x1_0_0 y⟩),
    View.canon_cons_unit_zero (S := S1x1) hz2, View.readCov_unit_zero (S := S1x1) _ hz2]
  unfold part2
  simp only [View.readAt_eq_ld, harg1.read_unread, harg2.read_unread, harg3.read_unread, harg4.read_unread,
    harg5.read_unread, harg6.read_unread, View.ld_unit_zero (S := S2048x128) hz2, View.ld_unit_zero (S := S2048x1) hz2]

set_option maxHeartbeats 1000000 in
/-- At a later point: the body adds the point's share to what the output block held. -/
theorem run2_B (c : Dev nD) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1 .i32) (harg6 : arg6.IsWhole) (arg7 : Memref sig .tc .vmem S1x1 .f32) (harg7 : arg7.IsWhole) (hc : ¬cond2 i)
    (x0 x1 x2 x3 x4 : Vec F S2048x128 .f32) (x5 : Vec F S2048x1 .i32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 (part2 x0 x1 x2 x3 x4 x5) xo)) -∗ K ⟨⟩))
      ⊢ wp frame (wpE (defs₀ (F := F)) 𝒱₀ c none) E (cc2__loss_body i arg1 harg1 arg2 harg2 arg3 harg3 arg4 harg4 arg5 harg5 arg6 harg6 arg7 harg7) K := by
  simp only [cc2__loss_body_eq_skeleton]; unfold cc2__loss_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  sl_unfold_words
  rw [View.read_writes_eq_canon _ _ _ (fun y => ⟨_, List.Mem.head _, View.mem_set_unit_zero hz2 inb_S1x1_S1x1_0_0 y⟩),
    View.canon_unit_zero (S := S1x1) hz2]
  unfold part2
  simp only [View.readAt_eq_ld, harg1.read_unread, harg2.read_unread, harg3.read_unread, harg4.read_unread,
    harg5.read_unread, harg6.read_unread, harg7.read_unread, View.ld_unit_zero (S := S2048x128) hz2,
    View.ld_unit_zero (S := S2048x1) hz2, View.ld_unit_zero (S := S1x1) hz2]

/-! ## The pipeline's proof data -/

section Data

variable (V : (c : Dev nD) → (b : Ref sig .tc) → Buf (Elt F) ((c : Thread nD τ).loc b))
  (O : CellTallies nD τ sig (HIx 1)) (B : Set (SemLoc sig × HIx 1))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share of the loss computed at point `t`: `part2` of the point's six blocks. -/
def partAt (c : Dev nD) (t : Fin cfg2.N) : F .f32 :=
  part2 (iblk2 V c 0 t) (iblk2 V c 1 t) (iblk2 V c 2 t) (iblk2 V c 3 t) (iblk2 V c 4 t) (iblk2 V c 5 t)

/-- THE ACCUMULATION. What the output block's staging buffer holds after the body at position `n`: at the first
    point the point's share added to the zero block the body has just stored, at a later point the share added to
    what the point before left (the buffer is not written back between). -/
def acc2 (c : Dev nD) : (n : ℕ) → n < cfg2.N → Vec F S1x1 .f32
  | 0, hn => k2_pay1 (partAt V c ⟨0, hn⟩) (k2_pay11 (F := F))
  | n + 1, hn => k2_pay1 (partAt V c ⟨n + 1, hn⟩) (acc2 c n (Nat.lt_of_succ_lt hn))

theorem acc2_zero (c : Dev nD) (t : Fin cfg2.N) (h0 : t.val = 0) :
    acc2 V c t.val t.isLt = k2_pay1 (partAt V c t) (k2_pay11 (F := F)) := by
  obtain ⟨n, hn⟩ := t
  cases n with
  | zero => rfl
  | succ n => exact absurd h0 (Nat.succ_ne_zero n)

theorem acc2_succ (c : Dev nD) (t : Fin cfg2.N) (h0 : ¬t.val = 0) :
    acc2 V c t.val t.isLt = k2_pay1 (partAt V c t) (acc2 V c (t.val - 1) (Nat.lt_of_le_of_lt (Nat.sub_le _ _) t.isLt)) := by
  obtain ⟨n, hn⟩ := t
  cases n with
  | zero => exact absurd rfl h0
  | succ n => rfl

/-- The proof data of the loss pipeline on core `c`: the arrays as the region finds them (`V`); after the body at
    point `t` each input's buffer at its block and the output's at the running sum `acc2`; the invariant the core's
    scoped buffers that are no staging buffer of this pipeline; the tallies `O` the core owes throughout; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => acc2 V c t.val t.isLt
  Φ _ := Pipeline.scopedRest (Ix := HIx 1) (Name := ℕ) (U := UU) (Lvl := ℕ) (Val := Elt F) spec2 c
  q _ := fullShare
  owed _ := O
  recorded _ := B

/-- The proof data's arrays are the region-entry contents. -/
theorem A2_eq (c : Dev nD) (w : Fin cfg2.W) : (dat2 V O B c).A w = V c (Pipeline.arrRef spec2 w) := by
  dsimp only [dat2]

/-- What the body leaves, window by window. -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = acc2 V c t.val t.isLt := by dsimp only [dat2]

/-- Each input's current staging buffer holds its block at every point (every input is fetched at every point, and
    the body leaves it in place). -/
theorem before2_0 (c : Dev nD) (t : Fin cfg2.N) (d) : (dat2 V O B c).before 0 t d = iblk2 V c 0 t :=
  ((dat2 V O B c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V O B c).before 1 t d = iblk2 V c 1 t :=
  ((dat2 V O B c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V O B c).before 2 t d = iblk2 V c 2 t :=
  ((dat2 V O B c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V O B c).before 3 t d = iblk2 V c 3 t :=
  ((dat2 V O B c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V O B c).before 4 t d = iblk2 V c 4 t :=
  ((dat2 V O B c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 V O B c).before 5 t d = iblk2 V c 5 t :=
  ((dat2 V O B c).before_in_eq_fetched 5 rfl (fun _ => rfl) (fun _ _ _ => rfl)
    (fun t => by rw [after2_5]; unfold Dat.blockOf iblk2; rw [A2_eq]; try rfl) t d).trans
    (by unfold Dat.fetched Dat.blockOf iblk2; rw [A2_eq]; try rfl)

/-- At the first point the output block's buffer holds anything (it is fresh); -/
theorem before2_6_A (c : Dev nD) (t : Fin cfg2.N) (h0 : t.val = 0) (d) : (dat2 V O B c).before 6 t d = d :=
  Dat.before_out_reset _ 6 rfl t (.inl h0) d

/-- at a later point, what the body left at the point before: the block is written back after the last point only. -/
theorem before2_6_B (c : Dev nD) (t : Fin cfg2.N) (h0 : ¬t.val = 0) (d) :
    (dat2 V O B c).before 6 t d = acc2 V c (t.val - 1) (Nat.lt_of_le_of_lt (Nat.sub_le _ _) t.isLt) := by
  have hN : t.val < 8 := lt_of_lt_of_eq t.isLt (show cfg2.N = 8 from N_2)
  rw [Dat.before_out_kept _ 6 rfl t h0 (Bool.eq_false_iff.mpr fun h => by have := (flush2_6 _).mp h; dsimp only at this; omega)
    (fun _ => rfl) (fun _ _ => rfl)]
  dsimp only [dat2]

/-! ## The body obligation -/

/-- What the body is called with at point `t` (the body obligation's precondition, the windows one by one), -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t))

set_option maxHeartbeats 1000000 in
/-- The body at any point: the inputs' buffers hold their blocks; at the first point the body resets the output
    block, at a later one it finds what the point before left; the invariant and what the core owes pass through. -/
theorem sound_body2 (c : Dev nD) (t : Fin cfg2.N) :
    bodyPre2 V O B c t ⊢ wp frame (wpE (defs₀ (F := F)) 𝒱₀ c none) Set.univ (bodyAt2 t) (fun _ => bodyPost2 V O B c t) := by
  unfold bodyPre2 bodyPost2 bodyAt2
  simp only [before2_0, before2_1, before2_2, before2_3, before2_4, before2_5]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6]
  by_cases h0 : t.val = 0
  · rw [acc2_zero V c t h0]
    simp only [before2_6_A V O B c t h0]
    unfold partAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run2_A c (grid2.coords t) _ _ _ _ _ _ _ _ _ _ _ _ _ _ ((hcond2 t).mpr h0)
      (iblk2 V c 0 t) (iblk2 V c 1 t) (iblk2 V c 2 t) (iblk2 V c 3 t) (iblk2 V c 4 t) (iblk2 V c 5 t) d6 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_succ V c t h0]
    simp only [before2_6_B V O B c t h0]
    unfold partAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run2_B c (grid2.coords t) _ _ _ _ _ _ _ _ _ _ _ _ _ _ (fun h => h0 ((hcond2 t).mp h))
      (iblk2 V c 0 t) (iblk2 V c 1 t) (iblk2 V c 2 t) (iblk2 V c 3 t) (iblk2 V c 4 t) (iblk2 V c 5 t)
      (acc2 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point, -/
theorem body2_exact (c : Dev nD) : BodyObligation (dat2 V O B c) (defs₀ (F := F)) 𝒱₀ (none : HIx 1) Set.univ := fun t => by
  rw [bigSep_W2, bigSep_W2]
  exact sound_body2 V O B c t

/-- and in the form the region rule takes. -/
theorem body2 : ∀ c : Dev nD, BodyObligationLoose (dat2 V O B c) (defs₀ (F := F)) 𝒱₀ (none : HIx 1) Set.univ :=
  fun c => (body2_exact V O B c).loose

/-- The same data as the region rule's family wants it typed: the pipeline at its one (empty) table contents. -/
def pdat2 (a : (p : Fin 2) → (pcfgs (F := F) p).Adm) (c : Dev nD) :
    Dat τ (Elt F) (HIx 1) ℕ UU ℕ (Pipeline.pin (pcfgs (F := F)) a 1) c := dat2 V O B c

theorem pbody2 (a : (p : Fin 2) → (pcfgs (F := F) p).Adm) :
    ∀ c : Dev nD, BodyObligationLoose (pdat2 V O B a c) (defs₀ (F := F)) 𝒱₀ (none : HIx 1) Set.univ :=
  body2 V O B

end Data

end Cert.Proof.KI

end
-- ==== Proof.StretchB.lean ====
/-
  The second stretch of @main on the TensorCore, after the SparseCore call: a line of host operations, the loss
  kernel's region, and the closing reshape. The line runs within the TensorCore's unscoped buffers held at a valuation;
  the region is entered from what the line left, its seven arrays sorted out of the held set and the rest bypassing it,
  and left with the loss array at the contents the pipeline's write-back gives it; the reshape runs within the held
  set again. Throughout, the TensorCore owes nothing (every SparseCore call is behind it), which is the wait
  evidence of the region's staging cells.
-/
import proofs.«205037_g73117523247527_cont_9to1c4b_608_48_alg».proof.Proof.LaunchDefs
import proofs.«205037_g73117523247527_cont_9to1c4b_608_48_alg».proof.Proof.Loss

noncomputable section

namespace Cert.Proof.KI

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The valuations along the stretch -/

/-- The TensorCore's buffers as the loss region finds them: the stretch's first line has run. -/
abbrev VR (VS : Dev nD → Valuation τ sig (Elt F)) (c : Dev nD) (b : Ref sig .tc) : Buf (Elt F) ((c : Thread nD τ).loc b) :=
  StableHlo.after opsB1 (VS c) (Proc.devRef .tc b)

/-- The loss pipeline's proof data for the device `d`: the arrays read off `VR`, the tallies and the bound on the
    recorded pairs those of the TensorCore after the one SparseCore call. -/
abbrev datB (VS : Dev nD → Valuation τ sig (Elt F)) (d : Dev nD) :
    (c : Dev nD) → Pipeline.Dat τ (Elt F) (HIx 1) ℕ UU ℕ (Pipeline.pin (pcfgs (F := F)) adm 1) c :=
  pdat2 (VR VS) ((K (F := F)).Otc d 1) (boundT (F := F) d 1) adm

/-- The loss array when the region is left: the one-element block written back after the last point. -/
def outB (VS : Dev nD → Valuation τ sig (Elt F)) (d : Dev nD) : (Proc.devRef .tc main_v49 : DevRef τ sig).ty.Contents (Elt F) :=
  (datB VS d d).arrAt (6 : Fin cfg2.W) cfg2.N

/-- The buffers when the region is left: as it found them, but for the loss array. -/
def VM (VS : Dev nD → Valuation τ sig (Elt F)) (d : Dev nD) : Valuation τ sig (Elt F) :=
  Function.update (StableHlo.after opsB1 (VS d)) (Proc.devRef .tc main_v49) (outB VS d)

/-- The buffers at the end of the stretch: the closing line has run. -/
def VB (VS : Dev nD → Valuation τ sig (Elt F)) (d : Dev nD) : Valuation τ sig (Elt F) :=
  StableHlo.after opsB2 (VM VS d)

/-! ## The arrays when the region is left -/

/-- Every window but the last is an input. -/
theorem isOut2_of_ne : ∀ w : Fin cfg2.W, w ≠ 6 → (cfg2.win w).isOut = false := by decide

/-- The last window's array is the loss array. -/
theorem arrRef2_6 : Pipeline.arrRef spec2 (6 : Fin 7) = main_v49 := rfl

/-- At a window's array the buffers the region leaves hold what the pipeline's write-backs give: an input's array
    is never written, and the loss array is the one buffer updated. -/
theorem VM_arr (VS : Dev nD → Valuation τ sig (Elt F)) (c : Dev nD) (w : Fin cfg2.W) :
    VM VS c (Proc.devRef .tc (Pipeline.arrRef spec2 w)) = (datB VS c c).arrAt w cfg2.N := by
  by_cases hw : w = 6
  · subst hw
    unfold VM outB
    exact Function.update_self _ _ _
  · unfold VM
    rw [Function.update_of_ne (StableHlo.devRef_ne_of_ne fun h => hw (winFacts2.arr_inj (h.trans arrRef2_6.symm)))]
    exact ((datB VS c c).arrAt_in w (isOut2_of_ne w hw) cfg2.N).symm

/-- Off the windows' arrays the region leaves the buffers as it found them. -/
theorem VM_off (VS : Dev nD → Valuation τ sig (Elt F)) (c : Dev nD) (b : Ref sig .tc) (hb : b ∉ Finset.univ.image (Pipeline.arrRef spec2)) :
    VM VS c (Proc.devRef .tc b) = VR VS c b := by
  unfold VM
  exact Function.update_of_ne (StableHlo.devRef_ne_of_ne fun h => hb (Finset.mem_image.mpr ⟨6, Finset.mem_univ _, h.symm⟩)) _ _

/-- The unscoped buffers at what the region leaves are the windows' arrays at their final contents and the rest as
    the region found it. -/
theorem held_VM (dat0 : (c : Dev nD) → Pipeline.Dat τ (Elt F) (HIx 1) ℕ UU ℕ (Pipeline.pin (pcfgs (F := F)) adm 0) c)
    (VS : Dev nD → Valuation τ sig (Elt F)) (c : Dev nD) :
    (StableHlo.held (T c) (Pipeline.ucRefs τ sig) (VM VS c) : sProp 𝕄)
      = iprop((pdats dat0 (datB VS c) 1 c).arrays ((pdats dat0 (datB VS c) 1 c).arrAt · (Pipeline.pin (pcfgs (F := F)) adm 1).N)
          ∗ Pipeline.unscopedRest (Ix := HIx 1) (Name := ℕ) (U := UU) (Lvl := ℕ) spec2 c (VR VS c)) := by
  rw [← Pipeline.unscopedBufs_held (Ix := HIx 1) (Name := ℕ) (U := UU) (Lvl := ℕ) c (VM VS c),
    Pipeline.unscopedBufs_split (Pipeline.pin (pcfgs (F := F)) adm) 1 winFacts2.arr_unscoped winFacts2.arr_inj c,
    Pipeline.arrays_eq (Pipeline.pin (pcfgs (F := F)) adm) (pdats dat0 (datB VS c)) 1 c arr_whole2
      ((pdats dat0 (datB VS c) 1 c).share_full fun _ => rfl)]
  refine congrArg₂ _ (bigSep_congr fun w _ => ?_) ?_
  · rw [show VM VS c (Proc.devRef .tc (Pipeline.arrRef (Pipeline.pin (pcfgs (F := F)) adm 1).spec w))
        = (pdats dat0 (datB VS c) 1 c).arrAt w (Pipeline.pin (pcfgs (F := F)) adm 1).N from VM_arr VS c w]
  · unfold Pipeline.unscopedRest
    exact bigSep_congr fun b hb => by
      rw [show (fun b : Ref sig .tc => VM VS c (Proc.devRef .tc b)) b = VR VS c b from VM_off VS c b (Finset.mem_sdiff.mp hb).2]

/-! ## The loss kernel's region -/

/-- After the one SparseCore call the TensorCore owes nothing. -/
theorem Otc_one (d : Dev nD) : (K (F := F)).Otc d 1 = 0 := (K (F := F)).Otc_end d le_rfl

/-- The second pipeline's staging cells' ghost state is what the first region left of the launch's deal. -/
theorem G1_eq (d : Dev nD) :
    (G1 (F := F) d : sProp 𝕄) = iprop(Pipeline.cellsGhost (Pipeline.pin (pcfgs (F := F)) adm) EP 1 d
      ∗ Pipeline.toksInit (Pipeline.pin (pcfgs (F := F)) adm) EP 1 d) := by
  show Pipeline.PerCore.ghostOn _ _ _ (Finset.univ.erase (0 : Fin 2)) d = _
  rw [show Finset.univ.erase (0 : Fin 2) = {1} from by decide]
  unfold Pipeline.PerCore.ghostOn
  rw [bigSep_singleton]

/-- The region's record: the launch kit's layout; no semaphore of the kernel's own; the body obligation of the loss
    kernel; the wait evidence from the TensorCore owing nothing. The region is entered from the unscoped buffers held
    at what the first line left beside what the TensorCore owes: the seven windows' arrays go to the pipeline, the
    other unscoped buffers bypass it, nothing enters the invariant but the scoped buffers no window stages. It is
    left with the buffers held again, the loss array at the contents written back. -/
def R1 (dat0 : (c : Dev nD) → Pipeline.Dat τ (Elt F) (HIx 1) ℕ UU ℕ (Pipeline.pin (pcfgs (F := F)) adm 0) c)
    (VS : Dev nD → Valuation τ sig (Elt F)) (d : Dev nD) :
    Pipeline.RegionSeg (pcfgs (F := F)) adm (pdats dat0 (datB VS d)) (none : HIx 1) defs₀ 𝒱₀ (K (F := F)).L (K (F := F)).lev 1 where
  win := winFacts2.to₀
  block_pos := block_pos2
  stage_whole := stage_whole2
  K := PEmpty
  osem := fun k => k.elim
  ho := Pipeline.OwnSemFacts.none _
  hbody := pbody2 (VR VS) ((K (F := F)).Otc d 1) (boundT (F := F) d 1) adm
  hwaits := Pipeline.hwaits_of_owed_zero _ _ _ _ _ _ 1 fun _ _ => Otc_one d
  pre c := iprop(StableHlo.held (T c) (Pipeline.ucRefs τ sig) (StableHlo.after opsB1 (VS c)) ∗ owesT (F := F) c 1)
  post c := iprop(StableHlo.held (T c) (Pipeline.ucRefs τ sig) (VM VS c) ∗ owesT (F := F) c 1)
  X _ := iprop(emp)
  Y _ := iprop(emp)
  Z c := Pipeline.unscopedRest (Ix := HIx 1) (Name := ℕ) (U := UU) (Lvl := ℕ) spec2 c (VR VS c)
  hentry c := by
    obtain rfl : c = d := Subsingleton.elim c d
    rw [show StableHlo.held (T c) (Pipeline.ucRefs τ sig) (StableHlo.after opsB1 (VS c)) = unscopedBufs c (VR VS c)
      from (Pipeline.unscopedBufs_held (Ix := HIx 1) (Name := ℕ) (U := UU) (Lvl := ℕ) c _).symm]
    have hsplit := Pipeline.arrays_of_unscopedBufs (pcfgs (F := F)) adm (pdats dat0 (datB VS c)) (p := 1) winFacts2 arr_whole2 c
      ((pdats dat0 (datB VS c) 1 c).share_full fun _ => rfl) (VR VS c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitr; · iempintro
    iexact Hr
  hin c := by
    rw [show (pdats dat0 (datB VS d) 1 c).Φ 0
      = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats dat0 (datB VS d) 1 c).Φ (Fin.last (Pipeline.pin (pcfgs (F := F)) adm 1).N)
      = Pipeline.scopedRest (Ix := HIx 1) (Name := ℕ) (U := UU) (Lvl := ℕ) (Val := Elt F) spec2 c from rfl]
    iintro Hr
    isplitr; · iempintro
    isplitr; · iempintro
    iexact Hr
  hexit c := by
    obtain rfl : c = d := Subsingleton.elim c d
    rw [held_VM dat0 VS c]
    iintro ⟨Ha, HO, -, HZ⟩
    imodintro
    isplitr [HO]
    · isplitl [Ha]; · iexact Ha
      iexact HZ
    · icases HO with ⟨%W, %hW, HO⟩; iexists W; isplitr
      · ipureintro
        intro p hp
        rcases hW (Finset.mem_coe.mpr hp) with h | ⟨w, s, h⟩
        · exact h
        · rw [h]; exact Nat.zero_le _
      iexact HO

/-! ## The stretch -/

-- the StableHLO rule, stated for any device, unifies at the thread `T d` only when unification may unfold plain
-- definitions in a metavariable's type
set_option backward.isDefEq.respectTransparency.types false in
/-- The stretch's run: the first line within the held buffers, the loss kernel's region by its record, the closing
    line within the held buffers again; what the TensorCore owes rides along. -/
theorem stretchB (dat0 : (c : Dev nD) → Pipeline.Dat τ (Elt F) (HIx 1) ℕ UU ℕ (Pipeline.pin (pcfgs (F := F)) adm 0) c)
    (VS : Dev nD → Valuation τ sig (Elt F)) (d : Dev nD) :
    iprop(levAts (K (F := F)).L (K (F := F)).lev ∗ boundary (T d) ∗ StableHlo.held (T d) (Pipeline.ucRefs τ sig) (VS d)
        ∗ owesT (F := F) d 1 ∗ G1 (F := F) d)
      ⊢ wp frame (wpE (D (F := F)) 𝒱 (T d) none) Set.univ (hostB (F := F))
          fun _ => iprop(boundary (T d) ∗ StableHlo.held (T d) (Pipeline.ucRefs τ sig) (VB VS d) ∗ owesT (F := F) d 1) := by
  rw [G1_eq, show (hostB (F := F)) = (StableHlo.seq opsB1 >>= fun _ => Prog.op (.customCall (Pipeline.entry 1) ()) fun _ =>
      (StableHlo.seq opsB2 >>= fun u => Pure.pure u)) from by rw [bind_pure]]
  iintro ⟨#Hlev, Hbd, Hh, Ho, HG⟩
  iapply (StableHlo.wp_seq (defs := D (F := F)) 𝒱 none Set.univ d (Pipeline.ucRefs τ sig) _ opsB1
    (fun op h => Pipeline.sub_ucRefs op (opsB1_sub op h)) opsB1_fresh (VS d)) $$ [Hbd Hh]
  · isplitl [Hbd] <;> iassumption
  iintro ⟨Hbd, Hh⟩
  iapply (Pipeline.RegionSeg.wp (pcfgs (F := F)) adm (pdats dat0 (datB VS d)) (none : HIx 1) cellOf_inj EP defs₀ 𝒱₀
    (K (F := F)).L (K (F := F)).lev (R1 dat0 VS d) d none (fun _ h => nomatch h) _ _)
  rw [show (R1 dat0 VS d).post d = iprop(StableHlo.held (T d) (Pipeline.ucRefs τ sig) (VM VS d) ∗ owesT (F := F) d 1) from rfl,
    show (R1 dat0 VS d).pre d = iprop(StableHlo.held (T d) (Pipeline.ucRefs τ sig) (StableHlo.after opsB1 (VS d)) ∗ owesT (F := F) d 1) from rfl]
  isplitr [Hbd Hh Ho HG]
  · iintro ⟨Hbd, Hh, Ho⟩
    iapply (StableHlo.wp_seq (defs := D (F := F)) 𝒱 none Set.univ d (Pipeline.ucRefs τ sig) (fun u => Pure.pure u) opsB2
      (fun op h => Pipeline.sub_ucRefs op (opsB2_sub op h)) opsB2_fresh (VM VS d)) $$ [Hbd Hh]
    · isplitl [Hbd] <;> iassumption
    iintro ⟨Hbd, Hh⟩
    rw [wp_pure]; imodintro
    isplitl [Hbd]; · iexact Hbd
    isplitl [Hh]; · iexact Hh
    iexact Ho
  isplitl [Hbd]; · iexact Hbd
  isplitl [Hh Ho]
  · isplitl [Hh] <;> iassumption
  isplitr; · iexact Hlev
  iexact HG

end Cert.Proof.KI

end
-- ==== Proof.KeptB.lean ====
/-
  The program's arguments are unchanged through the SparseCore call and the second stretch of @main. The
  stretch is a line of host operations, the loss region, and a closing line. Neither line writes an argument;
  the region's one write is the loss array; and the SparseCore call changed only its five results. So at an
  argument the valuation at the end of the stretch is the valuation before the call.
-/
import proofs.«205037_g73117523247527_cont_9to1c4b_608_48_alg».proof.Proof.StretchB
import proofs.«205037_g73117523247527_cont_9to1c4b_608_48_alg».proof.Proof.HandOver
import proofs.«205037_g73117523247527_cont_9to1c4b_608_48_alg».proof.Proof.Host
import proofs.«205037_g73117523247527_cont_9to1c4b_608_48_alg».proof.Proof.Launch

noncomputable section

namespace Cert.Proof.KI

open Cert.KernelIdeal Cert.KernelIdeal.Gen

open Idealize.ShloMosaic
open Idealize.SL.Sem

variable {F : FTy → Type} [FloatOps F]

/-- An array that neither line of the stretch writes, and that is not the loss array, is where it was when the
    stretch began: the closing line leaves it, the region's one write is elsewhere, the first line leaves it. -/
theorem kept_through (W : Valuation τ sig (Elt F))
    (x : (Proc.devRef .tc main_v49 : DevRef τ sig).ty.Contents (Elt F)) (b : DevRef τ sig)
    (hne : b ≠ Proc.devRef .tc main_v49)
    (h1 : StableHlo.after opsB1 W b = W b)
    (h2 : ∀ V : Valuation τ sig (Elt F), StableHlo.after opsB2 V b = V b) :
    StableHlo.after opsB2 (Function.update (StableHlo.after opsB1 W) (Proc.devRef .tc main_v49) x) b = W b := by
  rw [h2, Function.update_of_ne hne, h1]

/-- The same of the valuation at the end of the stretch. -/
theorem keptB_of (VS : Dev nD → Valuation τ sig (Elt F)) (d : Dev nD) (b : DevRef τ sig)
    (hne : b ≠ Proc.devRef .tc main_v49)
    (h1 : StableHlo.after opsB1 (VS d) b = VS d b)
    (h2 : ∀ V : Valuation τ sig (Elt F), StableHlo.after opsB2 V b = V b) :
    VB VS d b = VS d b := by
  unfold VB VM
  exact kept_through (VS d) (outB VS d) b hne h1 h2

section Call
variable (VA : Dev nD → Valuation τ sig (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- Argument 0 is unchanged through the SparseCore call and the second stretch. -/
theorem keptB_arg0 (d : Dev nD) : VB (VS VA G0 G1 G2 G3 G4) d r_arg0 = VA d r_arg0 := by
  rw [keptB_of _ d r_arg0 (by decide) (B1_arg0 _) (fun V => B2_arg0 V)]
  exact VS_of_ne VA G0 G1 G2 G3 G4 d (by decide) (by decide) (by decide) (by decide) (by decide)

/-- Argument 1 is unchanged through the SparseCore call and the second stretch. -/
theorem keptB_arg1 (d : Dev nD) : VB (VS VA G0 G1 G2 G3 G4) d r_arg1 = VA d r_arg1 := by
  rw [keptB_of _ d r_arg1 (by decide) (B1_arg1 _) (fun V => B2_arg1 V)]
  exact VS_of_ne VA G0 G1 G2 G3 G4 d (by decide) (by decide) (by decide) (by decide) (by decide)

/-- Argument 2 is unchanged through the SparseCore call and the second stretch. -/
theorem keptB_arg2 (d : Dev nD) : VB (VS VA G0 G1 G2 G3 G4) d r_arg2 = VA d r_arg2 := by
  rw [keptB_of _ d r_arg2 (by decide) (B1_arg2 _) (fun V => B2_arg2 V)]
  exact VS_of_ne VA G0 G1 G2 G3 G4 d (by decide) (by decide) (by decide) (by decide) (by decide)

/-- Argument 3 is unchanged through the SparseCore call and the second stretch. -/
theorem keptB_arg3 (d : Dev nD) : VB (VS VA G0 G1 G2 G3 G4) d r_arg3 = VA d r_arg3 := by
  rw [keptB_of _ d r_arg3 (by decide) (B1_arg3 _) (fun V => B2_arg3 V)]
  exact VS_of_ne VA G0 G1 G2 G3 G4 d (by decide) (by decide) (by decide) (by decide) (by decide)

/-- Argument 4 is unchanged through the SparseCore call and the second stretch. -/
theorem keptB_arg4 (d : Dev nD) : VB (VS VA G0 G1 G2 G3 G4) d r_arg4 = VA d r_arg4 := by
  rw [keptB_of _ d r_arg4 (by decide) (B1_arg4 _) (fun V => B2_arg4 V)]
  exact VS_of_ne VA G0 G1 G2 G3 G4 d (by decide) (by decide) (by decide) (by decide) (by decide)

/-- Argument 5 is unchanged through the SparseCore call and the second stretch. -/
theorem keptB_arg5 (d : Dev nD) : VB (VS VA G0 G1 G2 G3 G4) d r_arg5 = VA d r_arg5 := by
  rw [keptB_of _ d r_arg5 (by decide) (B1_arg5 _) (fun V => B2_arg5 V)]
  exact VS_of_ne VA G0 G1 G2 G3 G4 d (by decide) (by decide) (by decide) (by decide) (by decide)

/-- Argument 6 is unchanged through the SparseCore call and the second stretch. -/
theorem keptB_arg6 (d : Dev nD) : VB (VS VA G0 G1 G2 G3 G4) d r_arg6 = VA d r_arg6 := by
  rw [keptB_of _ d r_arg6 (by decide) (B1_arg6 _) (fun V => B2_arg6 V)]
  exact VS_of_ne VA G0 G1 G2 G3 G4 d (by decide) (by decide) (by decide) (by decide) (by decide)

end Call

end Cert.Proof.KI

end
-- ==== Proof.Kept.lean ====
/-
  The program's arguments end where they began. The TensorCore runs the first host program (two lines of host
  operations around the packing kernel), the SparseCore call, and the second host program. `Wfin` is the valuation at
  the end, as a function of the launch contents, of what the packing kernel left in the packed table and of what the
  SparseCore call left in its five results. At each of the seven arguments it is the launch contents: the second
  program and the call keep an argument, and so does the first program.
-/
import proofs.«205037_g73117523247527_cont_9to1c4b_608_48_alg».proof.Proof.KeptB
import proofs.«205037_g73117523247527_cont_9to1c4b_608_48_alg».proof.Proof.ChainA

noncomputable section

namespace Cert.Proof.KI

open Cert.KernelIdeal Cert.KernelIdeal.Gen

open Idealize.ShloMosaic
open Idealize.SL.Sem

variable {F : FTy → Type} [FloatOps F]

section Run

variable (m : (ℓ : Loc nD τ sig) → Buf (Elt F) ℓ)
  (Pk : (d : Dev nD) → (Proc.devRef .tc main_v5 : DevRef τ sig).ty.Contents (Elt F))
  (G0 : (d : Dev nD) → Buf (Elt F) (locR0 d)) (G1 : (d : Dev nD) → Buf (Elt F) (locR1 d))
  (G2 : (d : Dev nD) → Buf (Elt F) (locR2 d)) (G3 : (d : Dev nD) → Buf (Elt F) (locR3 d))
  (G4 : (d : Dev nD) → Buf (Elt F) (locR4 d))

/-- The valuation at the end of the TensorCore's run: the second host program's, from the SparseCore call's, from the
    first host program's, from the launch contents. -/
def Wfin (d : Dev nD) : Valuation τ sig (Elt F) :=
  VB (VS (fun d => VAof (StableHlo.launchContents m d) (Pk d)) G0 G1 G2 G3 G4) d

/-- At every argument the final valuation is the launch contents. -/
theorem kept_all (d : Dev nD) :
    Wfin m Pk G0 G1 G2 G3 G4 d r_arg0 = m (d, r_arg0) ∧ Wfin m Pk G0 G1 G2 G3 G4 d r_arg1 = m (d, r_arg1)
      ∧ Wfin m Pk G0 G1 G2 G3 G4 d r_arg2 = m (d, r_arg2) ∧ Wfin m Pk G0 G1 G2 G3 G4 d r_arg3 = m (d, r_arg3)
      ∧ Wfin m Pk G0 G1 G2 G3 G4 d r_arg4 = m (d, r_arg4) ∧ Wfin m Pk G0 G1 G2 G3 G4 d r_arg5 = m (d, r_arg5)
      ∧ Wfin m Pk G0 G1 G2 G3 G4 d r_arg6 = m (d, r_arg6) :=
  ⟨(keptB_arg0 _ G0 G1 G2 G3 G4 d).trans (VAof_arg0 (StableHlo.launchContents m d) (Pk d)),
    (keptB_arg1 _ G0 G1 G2 G3 G4 d).trans (VAof_arg1 (StableHlo.launchContents m d) (Pk d)),
    (keptB_arg2 _ G0 G1 G2 G3 G4 d).trans (VAof_arg2 (StableHlo.launchContents m d) (Pk d)),
    (keptB_arg3 _ G0 G1 G2 G3 G4 d).trans (VAof_arg3 (StableHlo.launchContents m d) (Pk d)),
    (keptB_arg4 _ G0 G1 G2 G3 G4 d).trans (VAof_arg4 (StableHlo.launchContents m d) (Pk d)),
    (keptB_arg5 _ G0 G1 G2 G3 G4 d).trans (VAof_arg5 (StableHlo.launchContents m d) (Pk d)),
    (keptB_arg6 _ G0 G1 G2 G3 G4 d).trans (VAof_arg6 (StableHlo.launchContents m d) (Pk d))⟩

end Run

end Cert.Proof.KI

end
-- ==== Proof.Final.lean ====
/-
  The kernel's run: the launch applied to this program's stretches, hand-over and tiles. The first stretch ends at the
  valuation in which the packing region has left the packed table in main_v5 and the host arithmetic the index arrays;
  the SparseCore call updates the five results; the second stretch ends at the final valuation.
-/
import proofs.«205037_g73117523247527_cont_9to1c4b_608_48_alg».proof.Proof.Launch
import proofs.«205037_g73117523247527_cont_9to1c4b_608_48_alg».proof.Proof.HandOver
import proofs.«205037_g73117523247527_cont_9to1c4b_608_48_alg».proof.Proof.StretchA
import proofs.«205037_g73117523247527_cont_9to1c4b_608_48_alg».proof.Proof.StretchB
import proofs.«205037_g73117523247527_cont_9to1c4b_608_48_alg».proof.Proof.Kept

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 1) (Elt F) ℕ UU ℕ

variable (m : (ℓ : Loc nD τ sig) → Buf (Elt F) ℓ) (ρ : Dev nD → PrngReg)

/-- What the packing region leaves in main_v5: the packed table of the transposed entity table and its tail. -/
def PkOf (d : Dev nD) : (Proc.devRef .tc main_v5 : DevRef τ sig).ty.Contents (Elt F) :=
  packed (c := d) (StableHlo.after opsA1 (launchContents m d) pk0) (StableHlo.after opsA1 (launchContents m d) pk4)

/-- The valuation at the end of the first stretch. -/
abbrev VAf : Dev nD → Valuation τ sig (Elt F) := fun d => VAof (launchContents m d) (PkOf m d)

theorem VAf_eq (d : Dev nD) : VAf m d = VA m d := (VA_eq m d).symm

variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- The program's run, given the tiles' obligation at the call's payloads: every weakly fair execution terminates, and
    the final memory holds the result and the arguments at the final valuation. -/
theorem runKI [∀ e, Nonempty (Elt F e)]
    (htile : (K (F := F)).TileObl (D (F := F)) 𝒱 (Pc (VAf m) G0 G1 G2 G3 G4) v₀ 0) :
    θ_run (Cert.KernelIdeal.defs (F := F)) (Cert.KernelIdeal.threads (F := F)) ⟨m, fun _ => 0, ρ⟩ (QC8 (Wfin m (PkOf m) G0 G1 G2 G3 G4)) :=
  run_main m ρ (cSt (VAf m)) (cDn (VAf m) G0 G1 G2 G3 G4) (tGo (VAf m)) (tTd (VAf m) G0 G1 G2 G3 G4)
    (VAf m) (VS (VAf m) G0 G1 G2 G3 G4) (Wfin m (PkOf m) G0 G1 G2 G3 G4) T9 T9_sub
    (fun d => by rw [VAf_eq]; exact stretchA m (datB (VS (VAf m) G0 G1 G2 G3 G4) d) d)
    (fun d => stretchB (datA (VAf m)) (VS (VAf m) G0 G1 G2 G3 G4) d)
    (hand (VAf m) G0 G1 G2 G3 G4) (back (VAf m) G0 G1 G2 G3 G4) (hVS (VAf m) G0 G1 G2 G3 G4)
    htile (vecSplit (VAf m) G0 G1 G2 G3 G4)

end Cert.Proof.KI

end
-- ==== Proof.TileDefs.lean ====
/-
  The row gather's task, statement level: the place of a tile, the kernel's arrays as a vector subcore and as the
  TensorCore name them, the windows of the results a tile copies into, what a tile is handed and what it hands back.
  Definitions only.
-/
import proofs.«205037_g73117523247527_cont_9to1c4b_608_48_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The kernel's memrefs, as the body table passes them -/

abbrev eM : Memref sig .scVector .hbm S500000x128 .f32 := Memref.whole main_v5_scv
abbrev rM : Memref sig .scVector .hbm S500x128 .f32 := Memref.whole main_v6_scv
abbrev aM : Memref sig .scVector .hbm S512x128 .i32 := Memref.whole main_v24_scv
abbrev bM : Memref sig .scVector .hbm S128x128 .i32 := Memref.whole main_v25_scv
abbrev o0M : Memref sig .scVector .hbm S16384x128 .f32 := Memref.whole main_v26_0_scv
abbrev o1M : Memref sig .scVector .hbm S16384x128 .f32 := Memref.whole main_v26_1_scv
abbrev o2M : Memref sig .scVector .hbm S16384x128 .f32 := Memref.whole main_v26_2_scv
abbrev o3M : Memref sig .scVector .hbm S16384x128 .f32 := Memref.whole main_v26_3_scv
abbrev o4M : Memref sig .scVector .hbm S16384x128 .f32 := Memref.whole main_v26_4_scv
abbrev sIM : Memref sig .scVector .vmem S20x128 .i32 := Memref.whole cc1_scratch0
abbrev sAM : Memref sig .scVector .vmem S128x128 .f32 := Memref.whole cc1_scratch1
abbrev sBM : Memref sig .scVector .vmem S128x128 .f32 := Memref.whole cc1_scratch2

/-- The arrays as the TensorCore names them. -/
abbrev eLoc (d : Dev nD) : Loc nD τ sig := (SparseCore.T d).loc main_v5
abbrev rLoc (d : Dev nD) : Loc nD τ sig := (SparseCore.T d).loc main_v6
abbrev aLoc (d : Dev nD) : Loc nD τ sig := (SparseCore.T d).loc main_v24
abbrev bLoc (d : Dev nD) : Loc nD τ sig := (SparseCore.T d).loc main_v25
abbrev o0Loc (d : Dev nD) : Loc nD τ sig := (SparseCore.T d).loc main_v26_0
abbrev o1Loc (d : Dev nD) : Loc nD τ sig := (SparseCore.T d).loc main_v26_1
abbrev o2Loc (d : Dev nD) : Loc nD τ sig := (SparseCore.T d).loc main_v26_2
abbrev o3Loc (d : Dev nD) : Loc nD τ sig := (SparseCore.T d).loc main_v26_3
abbrev o4Loc (d : Dev nD) : Loc nD τ sig := (SparseCore.T d).loc main_v26_4

/-! ## The place -/

abbrev cV (L : grid1.Coords) : Fin τ.nSC := (L 0).castLE hcore1
abbrev jV (L : grid1.Coords) : Fin τ.nSub := (L 1).castLE hsub1
/-- The vector subcore at coordinates `L` of device `d`. -/
abbrev VT (d : Dev nD) (L : grid1.Coords) : Thread nD τ := V d (cV L) (jV L)

/-- The coordinates of the tile on SparseCore `c`, subcore `s` of the kernel's grid. -/
def coordsV (c : Fin (grid1.bound 0)) (s : Fin (grid1.bound 1)) : grid1.Coords :=
  fun | 0 => c | 1 => s | ⟨_ + 2, h⟩ => absurd h (Nat.not_lt.2 (Nat.le_add_left _ _))

/-! ## The windows of the results the tile copies into: window `j` of a result is its rows
    `(4 w + j) * 128 … + 128`, `w` the tile's number, spelt through the kernel's own offsets. -/

abbrev oC0_0 (L : grid1.Coords) : Memref sig .scVector .hbm S128x128 .f32 :=
  (Memref.whole main_v26_0_scv : Memref sig .scVector .hbm S16384x128 .f32).slice (Rect.unit (s := S16384x128) (k1_off3 L 0#32) S128x128.size (k1_off3_inb L 0)) (fun _ => rfl)
abbrev oC0_1 (L : grid1.Coords) : Memref sig .scVector .hbm S128x128 .f32 :=
  (Memref.whole main_v26_0_scv : Memref sig .scVector .hbm S16384x128 .f32).slice (Rect.unit (s := S16384x128) (k1_off3 L 1#32) S128x128.size (k1_off3_inb L 1)) (fun _ => rfl)
abbrev oC0_2 (L : grid1.Coords) : Memref sig .scVector .hbm S128x128 .f32 :=
  (Memref.whole main_v26_0_scv : Memref sig .scVector .hbm S16384x128 .f32).slice (Rect.unit (s := S16384x128) (k1_off3 L 2#32) S128x128.size (k1_off3_inb L 2)) (fun _ => rfl)
abbrev oC0_3 (L : grid1.Coords) : Memref sig .scVector .hbm S128x128 .f32 :=
  (Memref.whole main_v26_0_scv : Memref sig .scVector .hbm S16384x128 .f32).slice (Rect.unit (s := S16384x128) (k1_off3 L 3#32) S128x128.size (k1_off3_inb L 3)) (fun _ => rfl)
abbrev oC1_0 (L : grid1.Coords) : Memref sig .scVector .hbm S128x128 .f32 :=
  (Memref.whole main_v26_1_scv : Memref sig .scVector .hbm S16384x128 .f32).slice (Rect.unit (s := S16384x128) (k1_off3 L 0#32) S128x128.size (k1_off3_inb L 0)) (fun _ => rfl)
abbrev oC1_1 (L : grid1.Coords) : Memref sig .scVector .hbm S128x128 .f32 :=
  (Memref.whole main_v26_1_scv : Memref sig .scVector .hbm S16384x128 .f32).slice (Rect.unit (s := S16384x128) (k1_off3 L 1#32) S128x128.size (k1_off3_inb L 1)) (fun _ => rfl)
abbrev oC1_2 (L : grid1.Coords) : Memref sig .scVector .hbm S128x128 .f32 :=
  (Memref.whole main_v26_1_scv : Memref sig .scVector .hbm S16384x128 .f32).slice (Rect.unit (s := S16384x128) (k1_off3 L 2#32) S128x128.size (k1_off3_inb L 2)) (fun _ => rfl)
abbrev oC1_3 (L : grid1.Coords) : Memref sig .scVector .hbm S128x128 .f32 :=
  (Memref.whole main_v26_1_scv : Memref sig .scVector .hbm S16384x128 .f32).slice (Rect.unit (s := S16384x128) (k1_off3 L 3#32) S128x128.size (k1_off3_inb L 3)) (fun _ => rfl)
abbrev oC2_0 (L : grid1.Coords) : Memref sig .scVector .hbm S128x128 .f32 :=
  (Memref.whole main_v26_2_scv : Memref sig .scVector .hbm S16384x128 .f32).slice (Rect.unit (s := S16384x128) (k1_off3 L 0#32) S128x128.size (k1_off3_inb L 0)) (fun _ => rfl)
abbrev oC2_1 (L : grid1.Coords) : Memref sig .scVector .hbm S128x128 .f32 :=
  (Memref.whole main_v26_2_scv : Memref sig .scVector .hbm S16384x128 .f32).slice (Rect.unit (s := S16384x128) (k1_off3 L 1#32) S128x128.size (k1_off3_inb L 1)) (fun _ => rfl)
abbrev oC2_2 (L : grid1.Coords) : Memref sig .scVector .hbm S128x128 .f32 :=
  (Memref.whole main_v26_2_scv : Memref sig .scVector .hbm S16384x128 .f32).slice (Rect.unit (s := S16384x128) (k1_off3 L 2#32) S128x128.size (k1_off3_inb L 2)) (fun _ => rfl)
abbrev oC2_3 (L : grid1.Coords) : Memref sig .scVector .hbm S128x128 .f32 :=
  (Memref.whole main_v26_2_scv : Memref sig .scVector .hbm S16384x128 .f32).slice (Rect.unit (s := S16384x128) (k1_off3 L 3#32) S128x128.size (k1_off3_inb L 3)) (fun _ => rfl)
abbrev oC3_0 (L : grid1.Coords) : Memref sig .scVector .hbm S128x128 .f32 :=
  (Memref.whole main_v26_3_scv : Memref sig .scVector .hbm S16384x128 .f32).slice (Rect.unit (s := S16384x128) (k1_off3 L 0#32) S128x128.size (k1_off3_inb L 0)) (fun _ => rfl)
abbrev oC3_1 (L : grid1.Coords) : Memref sig .scVector .hbm S128x128 .f32 :=
  (Memref.whole main_v26_3_scv : Memref sig .scVector .hbm S16384x128 .f32).slice (Rect.unit (s := S16384x128) (k1_off3 L 1#32) S128x128.size (k1_off3_inb L 1)) (fun _ => rfl)
abbrev oC3_2 (L : grid1.Coords) : Memref sig .scVector .hbm S128x128 .f32 :=
  (Memref.whole main_v26_3_scv : Memref sig .scVector .hbm S16384x128 .f32).slice (Rect.unit (s := S16384x128) (k1_off3 L 2#32) S128x128.size (k1_off3_inb L 2)) (fun _ => rfl)
abbrev oC3_3 (L : grid1.Coords) : Memref sig .scVector .hbm S128x128 .f32 :=
  (Memref.whole main_v26_3_scv : Memref sig .scVector .hbm S16384x128 .f32).slice (Rect.unit (s := S16384x128) (k1_off3 L 3#32) S128x128.size (k1_off3_inb L 3)) (fun _ => rfl)
abbrev oC4_0 (L : grid1.Coords) : Memref sig .scVector .hbm S128x128 .f32 :=
  (Memref.whole main_v26_4_scv : Memref sig .scVector .hbm S16384x128 .f32).slice (Rect.unit (s := S16384x128) (k1_off3 L 0#32) S128x128.size (k1_off3_inb L 0)) (fun _ => rfl)
abbrev oC4_1 (L : grid1.Coords) : Memref sig .scVector .hbm S128x128 .f32 :=
  (Memref.whole main_v26_4_scv : Memref sig .scVector .hbm S16384x128 .f32).slice (Rect.unit (s := S16384x128) (k1_off3 L 1#32) S128x128.size (k1_off3_inb L 1)) (fun _ => rfl)
abbrev oC4_2 (L : grid1.Coords) : Memref sig .scVector .hbm S128x128 .f32 :=
  (Memref.whole main_v26_4_scv : Memref sig .scVector .hbm S16384x128 .f32).slice (Rect.unit (s := S16384x128) (k1_off3 L 2#32) S128x128.size (k1_off3_inb L 2)) (fun _ => rfl)
abbrev oC4_3 (L : grid1.Coords) : Memref sig .scVector .hbm S128x128 .f32 :=
  (Memref.whole main_v26_4_scv : Memref sig .scVector .hbm S16384x128 .f32).slice (Rect.unit (s := S16384x128) (k1_off3 L 3#32) S128x128.size (k1_off3_inb L 3)) (fun _ => rfl)

/-! ## What a result row holds: the table row its index word names -/

/-- Row `b` of entity result `k`: the row of the packed entity table named by word `(128 k + b / 128, b % 128)` of the
    entity index array (taken modulo the table's height, so that the function is total; the words are in range). -/
def gathE (d : Dev nD) (X5 : Buf (Elt F) (eLoc d)) (X24 : Buf (Elt F) (aLoc d)) (k : Fin 4) : S16384x128.Idx → Elt F .f32 := fun b =>
  X5 (fun
    | 0 => ⟨(X24 (fun
        | 0 => ⟨128 * k.val + (b 0).val / 128, by have h : (b 0).val < 16384 := (b 0).isLt; have hk := k.isLt; show _ < 512; omega⟩
        | 1 => ⟨(b 0).val % 128, Nat.mod_lt _ (by decide)⟩)).toNat % 500000, Nat.mod_lt _ (by decide)⟩
    | 1 => b 1)

/-- Row `b` of the relation result: the row of the packed relation table named by word `(b / 128, b % 128)` of the
    relation index array (modulo the table's height). -/
def gathR (d : Dev nD) (X6 : Buf (Elt F) (rLoc d)) (X25 : Buf (Elt F) (bLoc d)) : S16384x128.Idx → Elt F .f32 := fun b =>
  X6 (fun
    | 0 => ⟨(X25 (fun
        | 0 => ⟨(b 0).val / 128, by have h : (b 0).val < 16384 := (b 0).isLt; show _ < 128; omega⟩
        | 1 => ⟨(b 0).val % 128, Nat.mod_lt _ (by decide)⟩)).toNat % 500, Nat.mod_lt _ (by decide)⟩
    | 1 => b 1)

/-! ## What the tile is handed and what it hands back -/

/-- The tile's operands: a share `q` of each table and each index array, whole, at the contents the call finds; its
    four windows of each result, in full, at the contents the call finds. -/
def tileGo (d : Dev nD) (L : grid1.Coords) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) : sProp 𝕄 :=
  iprop((eLoc d ↦{q} X5) ∗ (rLoc d ↦{q} X6) ∗ (aLoc d ↦{q} X24) ∗ (bLoc d ↦{q} X25)
      ∗ (o0Loc d ↦[(oC0_0 L).view.set]{fullShare} Y0)
      ∗ (o0Loc d ↦[(oC0_1 L).view.set]{fullShare} Y0)
      ∗ (o0Loc d ↦[(oC0_2 L).view.set]{fullShare} Y0)
      ∗ (o0Loc d ↦[(oC0_3 L).view.set]{fullShare} Y0)
      ∗ (o1Loc d ↦[(oC1_0 L).view.set]{fullShare} Y1)
      ∗ (o1Loc d ↦[(oC1_1 L).view.set]{fullShare} Y1)
      ∗ (o1Loc d ↦[(oC1_2 L).view.set]{fullShare} Y1)
      ∗ (o1Loc d ↦[(oC1_3 L).view.set]{fullShare} Y1)
      ∗ (o2Loc d ↦[(oC2_0 L).view.set]{fullShare} Y2)
      ∗ (o2Loc d ↦[(oC2_1 L).view.set]{fullShare} Y2)
      ∗ (o2Loc d ↦[(oC2_2 L).view.set]{fullShare} Y2)
      ∗ (o2Loc d ↦[(oC2_3 L).view.set]{fullShare} Y2)
      ∗ (o3Loc d ↦[(oC3_0 L).view.set]{fullShare} Y3)
      ∗ (o3Loc d ↦[(oC3_1 L).view.set]{fullShare} Y3)
      ∗ (o3Loc d ↦[(oC3_2 L).view.set]{fullShare} Y3)
      ∗ (o3Loc d ↦[(oC3_3 L).view.set]{fullShare} Y3)
      ∗ (o4Loc d ↦[(oC4_0 L).view.set]{fullShare} Y4)
      ∗ (o4Loc d ↦[(oC4_1 L).view.set]{fullShare} Y4)
      ∗ (o4Loc d ↦[(oC4_2 L).view.set]{fullShare} Y4)
      ∗ (o4Loc d ↦[(oC4_3 L).view.set]{fullShare} Y4))

/-- The frame form of what it hands back: the shares unchanged, each window at some contents. -/
def tileTdF (d : Dev nD) (L : grid1.Coords) (q : PosShare TreeShare) (X5 : Buf (Elt F) (eLoc d)) (X6 : Buf (Elt F) (rLoc d)) (X24 : Buf (Elt F) (aLoc d)) (X25 : Buf (Elt F) (bLoc d)) : sProp 𝕄 :=
  iprop((eLoc d ↦{q} X5) ∗ (rLoc d ↦{q} X6) ∗ (aLoc d ↦{q} X24) ∗ (bLoc d ↦{q} X25)
      ∗ (∃ f, o0Loc d ↦[(oC0_0 L).view.set]{fullShare} f)
      ∗ (∃ f, o0Loc d ↦[(oC0_1 L).view.set]{fullShare} f)
      ∗ (∃ f, o0Loc d ↦[(oC0_2 L).view.set]{fullShare} f)
      ∗ (∃ f, o0Loc d ↦[(oC0_3 L).view.set]{fullShare} f)
      ∗ (∃ f, o1Loc d ↦[(oC1_0 L).view.set]{fullShare} f)
      ∗ (∃ f, o1Loc d ↦[(oC1_1 L).view.set]{fullShare} f)
      ∗ (∃ f, o1Loc d ↦[(oC1_2 L).view.set]{fullShare} f)
      ∗ (∃ f, o1Loc d ↦[(oC1_3 L).view.set]{fullShare} f)
      ∗ (∃ f, o2Loc d ↦[(oC2_0 L).view.set]{fullShare} f)
      ∗ (∃ f, o2Loc d ↦[(oC2_1 L).view.set]{fullShare} f)
      ∗ (∃ f, o2Loc d ↦[(oC2_2 L).view.set]{fullShare} f)
      ∗ (∃ f, o2Loc d ↦[(oC2_3 L).view.set]{fullShare} f)
      ∗ (∃ f, o3Loc d ↦[(oC3_0 L).view.set]{fullShare} f)
      ∗ (∃ f, o3Loc d ↦[(oC3_1 L).view.set]{fullShare} f)
      ∗ (∃ f, o3Loc d ↦[(oC3_2 L).view.set]{fullShare} f)
      ∗ (∃ f, o3Loc d ↦[(oC3_3 L).view.set]{fullShare} f)
      ∗ (∃ f, o4Loc d ↦[(oC4_0 L).view.set]{fullShare} f)
      ∗ (∃ f, o4Loc d ↦[(oC4_1 L).view.set]{fullShare} f)
      ∗ (∃ f, o4Loc d ↦[(oC4_2 L).view.set]{fullShare} f)
      ∗ (∃ f, o4Loc d ↦[(oC4_3 L).view.set]{fullShare} f))

/-- What it hands back: the shares unchanged, each window of a result at the gathered rows — one function of the whole
    result, the same for every tile. -/
def tileTd (d : Dev nD) (L : grid1.Coords) (q : PosShare TreeShare) (X5 : Buf (Elt F) (eLoc d)) (X6 : Buf (Elt F) (rLoc d)) (X24 : Buf (Elt F) (aLoc d)) (X25 : Buf (Elt F) (bLoc d)) : sProp 𝕄 :=
  iprop((eLoc d ↦{q} X5) ∗ (rLoc d ↦{q} X6) ∗ (aLoc d ↦{q} X24) ∗ (bLoc d ↦{q} X25)
      ∗ (o0Loc d ↦[(oC0_0 L).view.set]{fullShare} gathE d X5 X24 0)
      ∗ (o0Loc d ↦[(oC0_1 L).view.set]{fullShare} gathE d X5 X24 0)
      ∗ (o0Loc d ↦[(oC0_2 L).view.set]{fullShare} gathE d X5 X24 0)
      ∗ (o0Loc d ↦[(oC0_3 L).view.set]{fullShare} gathE d X5 X24 0)
      ∗ (o1Loc d ↦[(oC1_0 L).view.set]{fullShare} gathE d X5 X24 1)
      ∗ (o1Loc d ↦[(oC1_1 L).view.set]{fullShare} gathE d X5 X24 1)
      ∗ (o1Loc d ↦[(oC1_2 L).view.set]{fullShare} gathE d X5 X24 1)
      ∗ (o1Loc d ↦[(oC1_3 L).view.set]{fullShare} gathE d X5 X24 1)
      ∗ (o2Loc d ↦[(oC2_0 L).view.set]{fullShare} gathE d X5 X24 2)
      ∗ (o2Loc d ↦[(oC2_1 L).view.set]{fullShare} gathE d X5 X24 2)
      ∗ (o2Loc d ↦[(oC2_2 L).view.set]{fullShare} gathE d X5 X24 2)
      ∗ (o2Loc d ↦[(oC2_3 L).view.set]{fullShare} gathE d X5 X24 2)
      ∗ (o3Loc d ↦[(oC3_0 L).view.set]{fullShare} gathE d X5 X24 3)
      ∗ (o3Loc d ↦[(oC3_1 L).view.set]{fullShare} gathE d X5 X24 3)
      ∗ (o3Loc d ↦[(oC3_2 L).view.set]{fullShare} gathE d X5 X24 3)
      ∗ (o3Loc d ↦[(oC3_3 L).view.set]{fullShare} gathE d X5 X24 3)
      ∗ (o4Loc d ↦[(oC4_0 L).view.set]{fullShare} gathR d X6 X25)
      ∗ (o4Loc d ↦[(oC4_1 L).view.set]{fullShare} gathR d X6 X25)
      ∗ (o4Loc d ↦[(oC4_2 L).view.set]{fullShare} gathR d X6 X25)
      ∗ (o4Loc d ↦[(oC4_3 L).view.set]{fullShare} gathR d X6 X25))

end Cert.Proof.KI

end
-- ==== Proof.TileObl.lean ====
/-
  The launch's obligation for the row gather's tasks. The SparseCore call runs the gather kernel as the task of each
  of the 2 × 16 vector subcores; the launch asks, per subcore, that from the operands the call's split deals it the
  kernel's body, under the certificate's body table, runs to what the split gathers. Here that obligation is reduced
  to one task's body at a symbolic place: the body table's row on a vector subcore is the kernel at the subcore's
  coordinates; what the split deals a subcore (a leaf share of the four arrays read, four chunks of each result) is what
  the tile's body takes (the chunks being the windows the kernel's own offsets name); and what the body hands back, the
  windows at the gathered rows, is what the split gathers when the results after the call are the gathered rows.
-/
import proofs.«205037_g73117523247527_cont_9to1c4b_608_48_alg».proof.Proof.TileDefs
import proofs.«205037_g73117523247527_cont_9to1c4b_608_48_alg».proof.Proof.HandOver

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task's body as the launch's obligation -/

/-- The body table's row for the gather kernel on a vector subcore: the kernel at the subcore's coordinates when the
    kernel's grid holds it. -/
theorem defs₀_vector (c : Fin τ.nSC) (s : Fin τ.nSub) :
    defs₀ (F := F) (.scVector c s) 1 ()
      = SparseCore.onTile hcore1 hsub1 (fun c s => cc1_gk (coordsV c s)
            eM (Memref.isWhole_whole _) rM (Memref.isWhole_whole _) aM (Memref.isWhole_whole _) bM (Memref.isWhole_whole _)
            o0M (Memref.isWhole_whole _) o1M (Memref.isWhole_whole _) o2M (Memref.isWhole_whole _) o3M (Memref.isWhole_whole _) o4M (Memref.isWhole_whole _)
            sIM (Memref.isWhole_whole _) sAM (Memref.isWhole_whole _) sBM (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11
            cc1_scoped12 cc1_scoped13 cc1_scoped14 cc1_scoped15 cc1_scoped16 cc1_scoped17 cc1_scoped18 cc1_scoped19 cc1_scoped20 cc1_scoped21 cc1_scoped22
            cc1_scoped23 cc1_scoped24) ⟨⟩ c s := rfl

/-- One vector subcore's task, as its module proves it: with every word of the two index arrays in range of its table,
    from the level facts, anything of the launch's, the tile's operands (a share `q` of the four arrays it reads, its
    windows of the five results in full), its scoped storage and what it owes with nothing at the kernels' index, the
    kernel at the tile's coordinates runs to the operands back with the windows at the gathered rows, the scoped storage,
    and the same debts, its waits having recorded pairs at the kernels' index or the call's only. -/
def TileBody : Prop :=
  ∀ (d : Dev nD) (L : grid1.Coords) (hF : (K (F := F)).Facts) (X : sProp 𝕄) (q : PosShare TreeShare)
    (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0),
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eM (Memref.isWhole_whole _) rM (Memref.isWhole_whole _) aM (Memref.isWhole_whole _) bM (Memref.isWhole_whole _)
            o0M (Memref.isWhole_whole _) o1M (Memref.isWhole_whole _) o2M (Memref.isWhole_whole _) o3M (Memref.isWhole_whole _) o4M (Memref.isWhole_whole _)
            sIM (Memref.isWhole_whole _) sAM (Memref.isWhole_whole _) sBM (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11
            cc1_scoped12 cc1_scoped13 cc1_scoped14 cc1_scoped15 cc1_scoped16 cc1_scoped17 cc1_scoped18 cc1_scoped19 cc1_scoped20 cc1_scoped21 cc1_scoped22
            cc1_scoped23 cc1_scoped24)
          fun _ => iprop(tileTd d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W')

/-- THE TILES' OBLIGATION. The launch's obligation for the gather kernel's tasks, from one task's body (`hbody`): the
    task's operands as the call's split deals them are the tile's (`hgo`: the chunk a subcore is dealt is the window the
    kernel's offsets name), what the tile hands back is what the split gathers (`htd`), and the results after the call
    are the gathered rows. The kernel owes nothing for a protocol of its own; the index words the call finds are in
    range (`h24`, `h25`). -/
theorem tileObl (hF : (K (F := F)).Facts) (VA : Dev nD → Valuation τ sig (Elt F))
    (h24 : ∀ (d : Dev nD) (j : S512x128.Idx), ((VA d r24' : Buf (Elt F) (aLoc d)) j).toNat < 500000)
    (h25 : ∀ (d : Dev nD) (j : S128x128.Idx), ((VA d r25' : Buf (Elt F) (bLoc d)) j).toNat < 500)
    (hbody : TileBody (F := F))
    (hgo : ∀ (d : Dev nD) (L : grid1.Coords) (X5 : Buf (Elt F) (eLoc d)) (X6 : Buf (Elt F) (rLoc d)) (X24 : Buf (Elt F) (aLoc d)) (X25 : Buf (Elt F) (bLoc d))
      (Y0 : Buf (Elt F) (o0Loc d)) (Y1 : Buf (Elt F) (o1Loc d)) (Y2 : Buf (Elt F) (o2Loc d)) (Y3 : Buf (Elt F) (o3Loc d)) (Y4 : Buf (Elt F) (o4Loc d)),
      (tileGo d L (leafShare (coreOf L) (subOf L)) X5 X6 X24 X25 Y0 Y1 Y2 Y3 Y4 : sProp 𝕄)
        = subGo d (coreOf L) (subOf L) X5 X6 X24 X25 Y0 Y1 Y2 Y3 Y4)
    (htd : ∀ (d : Dev nD) (L : grid1.Coords) (X5 : Buf (Elt F) (eLoc d)) (X6 : Buf (Elt F) (rLoc d)) (X24 : Buf (Elt F) (aLoc d)) (X25 : Buf (Elt F) (bLoc d)),
      (tileTd d L (leafShare (coreOf L) (subOf L)) X5 X6 X24 X25 : sProp 𝕄)
        = subTd d (coreOf L) (subOf L) X5 X6 X24 X25 (gathE d X5 X24 0) (gathE d X5 X24 1) (gathE d X5 X24 2) (gathE d X5 X24 3) (gathR d X6 X25)) :
    (K (F := F)).TileObl (D (F := F)) 𝒱
      (Pc VA (fun d => gathE d (VA d r5') (VA d r24') 0) (fun d => gathE d (VA d r5') (VA d r24') 1)
        (fun d => gathE d (VA d r5') (VA d r24') 2) (fun d => gathE d (VA d r5') (VA d r24') 3)
        (fun d => gathR d (VA d r6') (VA d r25'))) v₀ 0 := by
  intro d c i O W hO _ _
  -- this kernel owes nothing for a protocol of its own
  simp only [show (Pc VA (fun d => gathE d (VA d r5') (VA d r24') 0) (fun d => gathE d (VA d r5') (VA d r24') 1)
      (fun d => gathE d (VA d r5') (VA d r24') 2) (fun d => gathE d (VA d r5') (VA d r24') 3)
      (fun d => gathR d (VA d r6') (VA d r25'))).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := hbody d (coordsV ⟨_, hc.1⟩ ⟨_, hc.2⟩) hF
    ((Pc VA (fun d => gathE d (VA d r5') (VA d r24') 0) (fun d => gathE d (VA d r5') (VA d r24') 1)
      (fun d => gathE d (VA d r5') (VA d r24') 2) (fun d => gathE d (VA d r5') (VA d r24') 3)
      (fun d => gathR d (VA d r6') (VA d r25'))).x 0 (VT d (coordsV ⟨_, hc.1⟩ ⟨_, hc.2⟩)))
    (leafShare (coreOf (coordsV ⟨_, hc.1⟩ ⟨_, hc.2⟩)) (subOf (coordsV ⟨_, hc.1⟩ ⟨_, hc.2⟩)))
    (VA d r5') (VA d r6') (VA d r24') (VA d r25') (VA d o0') (VA d o1') (VA d o2') (VA d o3') (VA d o4') (h24 d) (h25 d) O W hO
  rw [hgo, htd] at h
  exact h

end Cert.Proof.KI

end
-- ==== Proof.TileSplit.lean ====
/-
  The tile's own statement of what it is handed and hands back, and the split's, are one: the four windows of a result
  that the tile at `L` addresses through its computed offsets are the four chunks `8 s + 4 c + j` of subcore `s` of
  SparseCore `c`, `c` and `s` the tile's coordinates.
-/
import proofs.«205037_g73117523247527_cont_9to1c4b_608_48_alg».proof.Proof.TileDefs
import proofs.«205037_g73117523247527_cont_9to1c4b_608_48_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## At a tile's coordinates -/

/-- What the tile at `L` is handed, at the share of its place, is what the split hands subcore `L 1` of SparseCore `L 0`. -/
theorem tileGo_eq_subGo (d : Dev nD) (L : grid1.Coords) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    (tileGo d L (leafShare (coreOf L) (subOf L)) X5 X6 X24 X25 Y0 Y1 Y2 Y3 Y4 : sProp 𝕄)
      = subGo d (coreOf L) (subOf L) X5 X6 X24 X25 Y0 Y1 Y2 Y3 Y4 := by
  unfold tileGo subGo
  exact (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) (congrArg (fun I => (o0Loc d ↦[I]{fullShare} Y0 : sProp 𝕄)) (tile_window_r0 L 0))
    (congrArg₂ (fun x y : sProp 𝕄 => iprop(x ∗ y)) (congrArg (fun I => (o0Loc d ↦[I]{fullShare} Y0 : sProp 𝕄)) (tile_window_r0 L 1))
    (congrArg₂ (fun x y : sProp 𝕄 => iprop(x ∗ y)) (congrArg (fun I => (o0Loc d ↦[I]{fullShare} Y0 : sProp 𝕄)) (tile_window_r0 L 2))
    (congrArg₂ (fun x y : sProp 𝕄 => iprop(x ∗ y)) (congrArg (fun I => (o0Loc d ↦[I]{fullShare} Y0 : sProp 𝕄)) (tile_window_r0 L 3))
    (congrArg₂ (fun x y : sProp 𝕄 => iprop(x ∗ y)) (congrArg (fun I => (o1Loc d ↦[I]{fullShare} Y1 : sProp 𝕄)) (tile_window_r1 L 0))
    (congrArg₂ (fun x y : sProp 𝕄 => iprop(x ∗ y)) (congrArg (fun I => (o1Loc d ↦[I]{fullShare} Y1 : sProp 𝕄)) (tile_window_r1 L 1))
    (congrArg₂ (fun x y : sProp 𝕄 => iprop(x ∗ y)) (congrArg (fun I => (o1Loc d ↦[I]{fullShare} Y1 : sProp 𝕄)) (tile_window_r1 L 2))
    (congrArg₂ (fun x y : sProp 𝕄 => iprop(x ∗ y)) (congrArg (fun I => (o1Loc d ↦[I]{fullShare} Y1 : sProp 𝕄)) (tile_window_r1 L 3))
    (congrArg₂ (fun x y : sProp 𝕄 => iprop(x ∗ y)) (congrArg (fun I => (o2Loc d ↦[I]{fullShare} Y2 : sProp 𝕄)) (tile_window_r2 L 0))
    (congrArg₂ (fun x y : sProp 𝕄 => iprop(x ∗ y)) (congrArg (fun I => (o2Loc d ↦[I]{fullShare} Y2 : sProp 𝕄)) (tile_window_r2 L 1))
    (congrArg₂ (fun x y : sProp 𝕄 => iprop(x ∗ y)) (congrArg (fun I => (o2Loc d ↦[I]{fullShare} Y2 : sProp 𝕄)) (tile_window_r2 L 2))
    (congrArg₂ (fun x y : sProp 𝕄 => iprop(x ∗ y)) (congrArg (fun I => (o2Loc d ↦[I]{fullShare} Y2 : sProp 𝕄)) (tile_window_r2 L 3))
    (congrArg₂ (fun x y : sProp 𝕄 => iprop(x ∗ y)) (congrArg (fun I => (o3Loc d ↦[I]{fullShare} Y3 : sProp 𝕄)) (tile_window_r3 L 0))
    (congrArg₂ (fun x y : sProp 𝕄 => iprop(x ∗ y)) (congrArg (fun I => (o3Loc d ↦[I]{fullShare} Y3 : sProp 𝕄)) (tile_window_r3 L 1))
    (congrArg₂ (fun x y : sProp 𝕄 => iprop(x ∗ y)) (congrArg (fun I => (o3Loc d ↦[I]{fullShare} Y3 : sProp 𝕄)) (tile_window_r3 L 2))
    (congrArg₂ (fun x y : sProp 𝕄 => iprop(x ∗ y)) (congrArg (fun I => (o3Loc d ↦[I]{fullShare} Y3 : sProp 𝕄)) (tile_window_r3 L 3))
    (congrArg₂ (fun x y : sProp 𝕄 => iprop(x ∗ y)) (congrArg (fun I => (o4Loc d ↦[I]{fullShare} Y4 : sProp 𝕄)) (tile_window_r4 L 0))
    (congrArg₂ (fun x y : sProp 𝕄 => iprop(x ∗ y)) (congrArg (fun I => (o4Loc d ↦[I]{fullShare} Y4 : sProp 𝕄)) (tile_window_r4 L 1))
    (congrArg₂ (fun x y : sProp 𝕄 => iprop(x ∗ y)) (congrArg (fun I => (o4Loc d ↦[I]{fullShare} Y4 : sProp 𝕄)) (tile_window_r4 L 2))
    (congrArg (fun I => (o4Loc d ↦[I]{fullShare} Y4 : sProp 𝕄)) (tile_window_r4 L 3)))))))))))))))))))))))))

/-- What it hands back, each window at the gathered rows, is what the split takes back from that subcore at those
    contents. -/
theorem tileTd_eq_subTd (d : Dev nD) (L : grid1.Coords) (X5 : Buf (Elt F) (eLoc d)) (X6 : Buf (Elt F) (rLoc d)) (X24 : Buf (Elt F) (aLoc d)) (X25 : Buf (Elt F) (bLoc d)) :
    (tileTd d L (leafShare (coreOf L) (subOf L)) X5 X6 X24 X25 : sProp 𝕄)
      = subTd d (coreOf L) (subOf L) X5 X6 X24 X25 (gathE d X5 X24 0) (gathE d X5 X24 1) (gathE d X5 X24 2) (gathE d X5 X24 3) (gathR d X6 X25) := by
  show _ = subGo d (coreOf L) (subOf L) X5 X6 X24 X25 (gathE d X5 X24 0) (gathE d X5 X24 1) (gathE d X5 X24 2) (gathE d X5 X24 3) (gathR d X6 X25)
  unfold tileTd subGo
  exact (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) (congrArg (fun I => (o0Loc d ↦[I]{fullShare} (gathE d X5 X24 0) : sProp 𝕄)) (tile_window_r0 L 0))
    (congrArg₂ (fun x y : sProp 𝕄 => iprop(x ∗ y)) (congrArg (fun I => (o0Loc d ↦[I]{fullShare} (gathE d X5 X24 0) : sProp 𝕄)) (tile_window_r0 L 1))
    (congrArg₂ (fun x y : sProp 𝕄 => iprop(x ∗ y)) (congrArg (fun I => (o0Loc d ↦[I]{fullShare} (gathE d X5 X24 0) : sProp 𝕄)) (tile_window_r0 L 2))
    (congrArg₂ (fun x y : sProp 𝕄 => iprop(x ∗ y)) (congrArg (fun I => (o0Loc d ↦[I]{fullShare} (gathE d X5 X24 0) : sProp 𝕄)) (tile_window_r0 L 3))
    (congrArg₂ (fun x y : sProp 𝕄 => iprop(x ∗ y)) (congrArg (fun I => (o1Loc d ↦[I]{fullShare} (gathE d X5 X24 1) : sProp 𝕄)) (tile_window_r1 L 0))
    (congrArg₂ (fun x y : sProp 𝕄 => iprop(x ∗ y)) (congrArg (fun I => (o1Loc d ↦[I]{fullShare} (gathE d X5 X24 1) : sProp 𝕄)) (tile_window_r1 L 1))
    (congrArg₂ (fun x y : sProp 𝕄 => iprop(x ∗ y)) (congrArg (fun I => (o1Loc d ↦[I]{fullShare} (gathE d X5 X24 1) : sProp 𝕄)) (tile_window_r1 L 2))
    (congrArg₂ (fun x y : sProp 𝕄 => iprop(x ∗ y)) (congrArg (fun I => (o1Loc d ↦[I]{fullShare} (gathE d X5 X24 1) : sProp 𝕄)) (tile_window_r1 L 3))
    (congrArg₂ (fun x y : sProp 𝕄 => iprop(x ∗ y)) (congrArg (fun I => (o2Loc d ↦[I]{fullShare} (gathE d X5 X24 2) : sProp 𝕄)) (tile_window_r2 L 0))
    (congrArg₂ (fun x y : sProp 𝕄 => iprop(x ∗ y)) (congrArg (fun I => (o2Loc d ↦[I]{fullShare} (gathE d X5 X24 2) : sProp 𝕄)) (tile_window_r2 L 1))
    (congrArg₂ (fun x y : sProp 𝕄 => iprop(x ∗ y)) (congrArg (fun I => (o2Loc d ↦[I]{fullShare} (gathE d X5 X24 2) : sProp 𝕄)) (tile_window_r2 L 2))
    (congrArg₂ (fun x y : sProp 𝕄 => iprop(x ∗ y)) (congrArg (fun I => (o2Loc d ↦[I]{fullShare} (gathE d X5 X24 2) : sProp 𝕄)) (tile_window_r2 L 3))
    (congrArg₂ (fun x y : sProp 𝕄 => iprop(x ∗ y)) (congrArg (fun I => (o3Loc d ↦[I]{fullShare} (gathE d X5 X24 3) : sProp 𝕄)) (tile_window_r3 L 0))
    (congrArg₂ (fun x y : sProp 𝕄 => iprop(x ∗ y)) (congrArg (fun I => (o3Loc d ↦[I]{fullShare} (gathE d X5 X24 3) : sProp 𝕄)) (tile_window_r3 L 1))
    (congrArg₂ (fun x y : sProp 𝕄 => iprop(x ∗ y)) (congrArg (fun I => (o3Loc d ↦[I]{fullShare} (gathE d X5 X24 3) : sProp 𝕄)) (tile_window_r3 L 2))
    (congrArg₂ (fun x y : sProp 𝕄 => iprop(x ∗ y)) (congrArg (fun I => (o3Loc d ↦[I]{fullShare} (gathE d X5 X24 3) : sProp 𝕄)) (tile_window_r3 L 3))
    (congrArg₂ (fun x y : sProp 𝕄 => iprop(x ∗ y)) (congrArg (fun I => (o4Loc d ↦[I]{fullShare} (gathR d X6 X25) : sProp 𝕄)) (tile_window_r4 L 0))
    (congrArg₂ (fun x y : sProp 𝕄 => iprop(x ∗ y)) (congrArg (fun I => (o4Loc d ↦[I]{fullShare} (gathR d X6 X25) : sProp 𝕄)) (tile_window_r4 L 1))
    (congrArg₂ (fun x y : sProp 𝕄 => iprop(x ∗ y)) (congrArg (fun I => (o4Loc d ↦[I]{fullShare} (gathR d X6 X25) : sProp 𝕄)) (tile_window_r4 L 2))
    (congrArg (fun I => (o4Loc d ↦[I]{fullShare} (gathR d X6 X25) : sProp 𝕄)) (tile_window_r4 L 3)))))))))))))))))))))))))

/-! ## At a SparseCore and subcore of the call -/

/-- The SparseCore of the tile at coordinates `(c', s')`. -/
theorem coreOf_coordsV (c' : Fin (grid1.bound 0)) (s' : Fin (grid1.bound 1)) (c : Fin 2) (h : c'.val = c.val) : coreOf (coordsV c' s') = c :=
  Fin.ext h
/-- Its subcore. -/
theorem subOf_coordsV (c' : Fin (grid1.bound 0)) (s' : Fin (grid1.bound 1)) (s : Fin 16) (h : s'.val = s.val) : subOf (coordsV c' s') = s :=
  Fin.ext h

/-- The same two equations at the tile of SparseCore `c`, subcore `i` of the call, in the call's own index types. -/
theorem tileGo_at (d : Dev nD) (c : Fin ((K (F := F)).nCore 0)) (i : Fin ((K (F := F)).nSub 0))
    (hc : ((K (F := F)).core 0 c).val < grid1.bound 0) (hi : ((K (F := F)).sub 0 i).val < grid1.bound 1) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    (tileGo d (coordsV ⟨((K (F := F)).core 0 c).val, hc⟩ ⟨((K (F := F)).sub 0 i).val, hi⟩) (leafShare (Fin.cast nCore_zero c) (Fin.cast nSub_zero i))
        X5 X6 X24 X25 Y0 Y1 Y2 Y3 Y4 : sProp 𝕄)
      = subGo d (Fin.cast nCore_zero c) (Fin.cast nSub_zero i) X5 X6 X24 X25 Y0 Y1 Y2 Y3 Y4 := by
  have h := tileGo_eq_subGo d (coordsV ⟨((K (F := F)).core 0 c).val, hc⟩ ⟨((K (F := F)).sub 0 i).val, hi⟩) X5 X6 X24 X25 Y0 Y1 Y2 Y3 Y4
  have e1 : coreOf (coordsV ⟨((K (F := F)).core 0 c).val, hc⟩ ⟨((K (F := F)).sub 0 i).val, hi⟩) = Fin.cast nCore_zero c := Fin.ext rfl
  have e2 : subOf (coordsV ⟨((K (F := F)).core 0 c).val, hc⟩ ⟨((K (F := F)).sub 0 i).val, hi⟩) = Fin.cast nSub_zero i := Fin.ext rfl
  rw [e1, e2] at h
  exact h

theorem tileTd_at (d : Dev nD) (c : Fin ((K (F := F)).nCore 0)) (i : Fin ((K (F := F)).nSub 0))
    (hc : ((K (F := F)).core 0 c).val < grid1.bound 0) (hi : ((K (F := F)).sub 0 i).val < grid1.bound 1) (X5 : Buf (Elt F) (eLoc d)) (X6 : Buf (Elt F) (rLoc d)) (X24 : Buf (Elt F) (aLoc d)) (X25 : Buf (Elt F) (bLoc d)) :
    (tileTd d (coordsV ⟨((K (F := F)).core 0 c).val, hc⟩ ⟨((K (F := F)).sub 0 i).val, hi⟩) (leafShare (Fin.cast nCore_zero c) (Fin.cast nSub_zero i))
        X5 X6 X24 X25 : sProp 𝕄)
      = subTd d (Fin.cast nCore_zero c) (Fin.cast nSub_zero i) X5 X6 X24 X25 (gathE d X5 X24 0) (gathE d X5 X24 1) (gathE d X5 X24 2) (gathE d X5 X24 3) (gathR d X6 X25) := by
  have h := tileTd_eq_subTd d (coordsV ⟨((K (F := F)).core 0 c).val, hc⟩ ⟨((K (F := F)).sub 0 i).val, hi⟩) X5 X6 X24 X25
  have e1 : coreOf (coordsV ⟨((K (F := F)).core 0 c).val, hc⟩ ⟨((K (F := F)).sub 0 i).val, hi⟩) = Fin.cast nCore_zero c := Fin.ext rfl
  have e2 : subOf (coordsV ⟨((K (F := F)).core 0 c).val, hc⟩ ⟨((K (F := F)).sub 0 i).val, hi⟩) = Fin.cast nSub_zero i := Fin.ext rfl
  rw [e1, e2] at h
  exact h

end Cert.Proof.KI

end
-- ==== Proof.Tile.lean ====
/-
  The row gather as ONE vector subcore's task, at a symbolic place (device, SparseCore, subcore).

  The tile with number w = 2 * subcore + core fetches its index rows — rows k * 128 + 4 w … + 4 of the entity index
  array for k = 0..3 and rows 4 w … + 4 of the relation index array — into its index scratch (twenty rows of 128 words),
  then twenty times gathers 128 table rows named by one scratch row into one of two row buffers and copies that buffer
  out to rows (4 w + c) * 128 … + 128 of one of five results. Gather n + 1 is started before gather n is awaited, on
  the other buffer and the other semaphore: per semaphore one copy is outstanding at a time. Every tile reads the two
  tables and the two index arrays whole, under a share; it owns its 512 rows of each result in full, as the four
  128-row windows it copies into. Afterwards each window holds the gathered rows: row b of an entity result k is the
  packed entity table's row named by word (128 k + b / 128, b % 128) of the entity index array, and row b of the
  relation result the packed relation table's row named by word (b / 128, b % 128) of the relation index array —
  one function of the whole result, whatever the tile (`tile_body`); `tile_bodyF` forgets the contents.
-/
import proofs.«205037_g73117523247527_cont_9to1c4b_608_48_alg».proof.Proof.TileDefs
import Idealize.ShloMosaic.Lib.WritesUnit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The kernel's memrefs, spelt as the body table passes them (notations: the terms are the program's own) -/

local notation "eV" => (Memref.whole Cert.KernelIdeal.main_v5_scv : Memref Cert.KernelIdeal.sig Kind.scVector Space.hbm Cert.KernelIdeal.S500000x128 EltTy.f32)
local notation "rV" => (Memref.whole Cert.KernelIdeal.main_v6_scv : Memref Cert.KernelIdeal.sig Kind.scVector Space.hbm Cert.KernelIdeal.S500x128 EltTy.f32)
local notation "aV" => (Memref.whole Cert.KernelIdeal.main_v24_scv : Memref Cert.KernelIdeal.sig Kind.scVector Space.hbm Cert.KernelIdeal.S512x128 EltTy.i32)
local notation "bV" => (Memref.whole Cert.KernelIdeal.main_v25_scv : Memref Cert.KernelIdeal.sig Kind.scVector Space.hbm Cert.KernelIdeal.S128x128 EltTy.i32)
local notation "o0V" => (Memref.whole Cert.KernelIdeal.main_v26_0_scv : Memref Cert.KernelIdeal.sig Kind.scVector Space.hbm Cert.KernelIdeal.S16384x128 EltTy.f32)
local notation "o1V" => (Memref.whole Cert.KernelIdeal.main_v26_1_scv : Memref Cert.KernelIdeal.sig Kind.scVector Space.hbm Cert.KernelIdeal.S16384x128 EltTy.f32)
local notation "o2V" => (Memref.whole Cert.KernelIdeal.main_v26_2_scv : Memref Cert.KernelIdeal.sig Kind.scVector Space.hbm Cert.KernelIdeal.S16384x128 EltTy.f32)
local notation "o3V" => (Memref.whole Cert.KernelIdeal.main_v26_3_scv : Memref Cert.KernelIdeal.sig Kind.scVector Space.hbm Cert.KernelIdeal.S16384x128 EltTy.f32)
local notation "o4V" => (Memref.whole Cert.KernelIdeal.main_v26_4_scv : Memref Cert.KernelIdeal.sig Kind.scVector Space.hbm Cert.KernelIdeal.S16384x128 EltTy.f32)
local notation "sI" => (Memref.whole Cert.KernelIdeal.cc1_scratch0 : Memref Cert.KernelIdeal.sig Kind.scVector Space.vmem Cert.KernelIdeal.S20x128 EltTy.i32)
local notation "sA" => (Memref.whole Cert.KernelIdeal.cc1_scratch1 : Memref Cert.KernelIdeal.sig Kind.scVector Space.vmem Cert.KernelIdeal.S128x128 EltTy.f32)
local notation "sB" => (Memref.whole Cert.KernelIdeal.cc1_scratch2 : Memref Cert.KernelIdeal.sig Kind.scVector Space.vmem Cert.KernelIdeal.S128x128 EltTy.f32)

namespace Tile

/-! ## The tile's own cells and buffers among its scoped storage -/

/-- The DMA semaphores the kernel names: the two the gathers complete on, then one per synchronous copy. -/
def kSems : Finset (SemLoc sig) :=
  {SemLoc.dma cc1_scratch3.sem, SemLoc.dma cc1_scratch4.sem, SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem, SemLoc.dma cc1_scoped7.sem, SemLoc.dma cc1_scoped8.sem, SemLoc.dma cc1_scoped9.sem, SemLoc.dma cc1_scoped10.sem, SemLoc.dma cc1_scoped11.sem, SemLoc.dma cc1_scoped12.sem, SemLoc.dma cc1_scoped13.sem, SemLoc.dma cc1_scoped14.sem, SemLoc.dma cc1_scoped15.sem, SemLoc.dma cc1_scoped16.sem, SemLoc.dma cc1_scoped17.sem, SemLoc.dma cc1_scoped18.sem, SemLoc.dma cc1_scoped19.sem, SemLoc.dma cc1_scoped20.sem, SemLoc.dma cc1_scoped21.sem, SemLoc.dma cc1_scoped22.sem, SemLoc.dma cc1_scoped23.sem, SemLoc.dma cc1_scoped24.sem}

/-- A thread's cell at a semaphore. -/
def cellAt (thr : Thread nD τ) : SemLoc sig ↪ GSem nD τ sig := ⟨fun s => (thr, s), fun _ _ h => (Prod.mk.inj h).2⟩

theorem kSems_scoped : ∀ s ∈ kSems, (s : SemLoc sig).isScoped .scVector = true := by decide

theorem kSems_sub (d : Dev nD) (L : grid1.Coords) : kSems.map (cellAt (VT d L)) ⊆ ownCells (VT d L) := by
  intro g hg
  obtain ⟨s, hs, rfl⟩ := Finset.mem_map.mp hg
  exact mem_ownCells.mpr ⟨rfl, kSems_scoped s hs⟩

/-- The cells the kernel does not name. -/
abbrev restCells (d : Dev nD) (L : grid1.Coords) : Finset (GSem nD τ sig) := ownCells (VT d L) \ kSems.map (cellAt (VT d L))

/-- The tile's scoped cells at zero are the kernel's twenty-seven, one by one, and the rest. -/
theorem ownSems0_V (d : Dev nD) (L : grid1.Coords) :
    (ownSems0 (VT d L) : sProp 𝕄)
      = iprop((semVal (VT d L, SemLoc.dma cc1_scratch3.sem) 0
          ∗ semVal (VT d L, SemLoc.dma cc1_scratch4.sem) 0
          ∗ semVal (VT d L, SemLoc.dma cc1_scoped0.sem) 0
          ∗ semVal (VT d L, SemLoc.dma cc1_scoped1.sem) 0
          ∗ semVal (VT d L, SemLoc.dma cc1_scoped2.sem) 0
          ∗ semVal (VT d L, SemLoc.dma cc1_scoped3.sem) 0
          ∗ semVal (VT d L, SemLoc.dma cc1_scoped4.sem) 0
          ∗ semVal (VT d L, SemLoc.dma cc1_scoped5.sem) 0
          ∗ semVal (VT d L, SemLoc.dma cc1_scoped6.sem) 0
          ∗ semVal (VT d L, SemLoc.dma cc1_scoped7.sem) 0
          ∗ semVal (VT d L, SemLoc.dma cc1_scoped8.sem) 0
          ∗ semVal (VT d L, SemLoc.dma cc1_scoped9.sem) 0
          ∗ semVal (VT d L, SemLoc.dma cc1_scoped10.sem) 0
          ∗ semVal (VT d L, SemLoc.dma cc1_scoped11.sem) 0
          ∗ semVal (VT d L, SemLoc.dma cc1_scoped12.sem) 0
          ∗ semVal (VT d L, SemLoc.dma cc1_scoped13.sem) 0
          ∗ semVal (VT d L, SemLoc.dma cc1_scoped14.sem) 0
          ∗ semVal (VT d L, SemLoc.dma cc1_scoped15.sem) 0
          ∗ semVal (VT d L, SemLoc.dma cc1_scoped16.sem) 0
          ∗ semVal (VT d L, SemLoc.dma cc1_scoped17.sem) 0
          ∗ semVal (VT d L, SemLoc.dma cc1_scoped18.sem) 0
          ∗ semVal (VT d L, SemLoc.dma cc1_scoped19.sem) 0
          ∗ semVal (VT d L, SemLoc.dma cc1_scoped20.sem) 0
          ∗ semVal (VT d L, SemLoc.dma cc1_scoped21.sem) 0
          ∗ semVal (VT d L, SemLoc.dma cc1_scoped22.sem) 0
          ∗ semVal (VT d L, SemLoc.dma cc1_scoped23.sem) 0
          ∗ semVal (VT d L, SemLoc.dma cc1_scoped24.sem) 0)
          ∗ bigSep (restCells d L) fun g => semVal g 0) := by
  unfold SparseCore.Cfg.ownSems0
  rw [SparseCore.bigSep_sdiff_split' (kSems_sub d L), bigSep_map]
  congr 1
  unfold kSems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The three scratch buffers are among the subcore's own: they are them, at some contents, and the rest. -/
theorem ownBufs_V (d : Dev nD) (L : grid1.Coords) :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV L) (jV L)) (b := (Proc.scVector (cV L) (jV L)).devRef cc1_scratch2) rfl⟩⟩)]

/-! ## What the index scratch holds after the five fetches -/

section Idx

variable (d : Dev nD) (L : grid1.Coords)

/-- The offsets of the five fetched blocks in the index scratch: block `i` is rows `4 i … + 4`. -/
abbrev idxOff (i : Fin 5) : Fin 2 → ℕ := ![4 * i.val, 0]

theorem idxOff_inb : ∀ (i : Fin 5) (a : Fin 2), idxOff i a + S4x128.size a ≤ S20x128.size a := by decide

/-- An element of the index scratch after the five fetches, over whatever it held before: row `4 i + r` is row `r` of
    the `i`-th fetched block. -/
theorem read_idxScratch (g : Buf (Elt F) ((sI).view.loc (VT d L))) (p0 p1 p2 p3 p4 : S4x128.Idx → Elt F .i32)
    (y : S20x128.Idx) (i : Fin 5) (x : S4x128.Idx) (hx0 : (y 0).val = 4 * i.val + (x 0).val) (hx1 : (y 1).val = (x 1).val) :
    (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y
    = (![p0, p1, p2, p3, p4] : Fin 5 → S4x128.Idx → Elt F .i32) i x := by
  have hx : ∀ a : Fin 2, (y a).val = idxOff i a + (x a).val :=
    Fin.forall_fin_two.mpr ⟨hx0, by rw [hx1]; exact (Nat.zero_add _).symm⟩
  have hlt : (x 0).val < 4 := (x 0).isLt
  exact View.read_tilePieces (sI).view g S4x128.size idxOff idxOff_inb (![p0, p1, p2, p3, p4] : Fin 5 → S4x128.Idx → Elt F .i32) 5 le_rfl y i i.isLt x hx 0
    (fun i' hne => by
      have hv : i'.val ≠ i.val := fun e => hne (Fin.ext e)
      show (y 0).val < 4 * i'.val ∨ 4 * i'.val + 4 ≤ (y 0).val
      omega)

/-- Row `n` of the index scratch as a gather addresses it: a list of 128 words. -/
abbrev idxRow (n : ℕ) (hk : ∀ a, (![n, 0] : Fin 2 → ℕ) a + S1x128.size a ≤ S20x128.size a) : Memref sig .scVector .vmem S128 .i32 :=
  ((sI).slice (Rect.unit (s := S20x128) ![n, 0] S1x128.size hk) (fun _ => rfl)).squeeze S128 squeezes_S1x128_S128

/-- A word of row `n` of the scratch is the scratch's word at row `n`, some column. -/
theorem read_idxRow (n : ℕ) (hk) (c : Buf (Elt F) ((sI).view.loc (VT d L))) (x : S128.Idx) :
    ∃ y : S20x128.Idx, (y 0).val = n ∧ (idxRow n hk).view.read (Elt F) c x = (sI).view.read (Elt F) c y := by
  refine ⟨(Rect.unit (s := S20x128) ![n, 0] S1x128.size hk).emb ((Shape.reshapeEquiv squeezes_S1x128_S128.numel_eq) x), ?_, ?_⟩
  · have h1 : (((Shape.reshapeEquiv squeezes_S1x128_S128.numel_eq) x) 0).val < 1 := (((Shape.reshapeEquiv squeezes_S1x128_S128.numel_eq) x) 0).isLt
    show n + 1 * (((Shape.reshapeEquiv squeezes_S1x128_S128.numel_eq) x) 0).val = n
    omega
  · rw [View.read_apply, View.read_apply]; rfl

/-- The words of row `n` of the scratch after the five fetches are below `B` when the fetched block holding the row is. -/
theorem idxRow_lt (g : Buf (Elt F) ((sI).view.loc (VT d L))) (p0 p1 p2 p3 p4 : S4x128.Idx → Elt F .i32) (B : ℕ)
    (n : ℕ) (hk) (i : Fin 5) (hn : 4 * i.val ≤ n ∧ n < 4 * i.val + 4)
    (hp : ∀ z, (((![p0, p1, p2, p3, p4] : Fin 5 → S4x128.Idx → Elt F .i32) i) z).toNat < B) :
    ∀ x, ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) x).toNat < B := by
  intro x
  obtain ⟨y, hy0, hy⟩ := read_idxRow d L n hk ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) x
  rw [hy, read_idxScratch d L g p0 p1 p2 p3 p4 y i (fun | 0 => ⟨(y 0).val - 4 * i.val, by show (y 0).val - 4 * i.val < 4; omega⟩ | 1 => y 1)
    (by show (y 0).val = 4 * i.val + ((y 0).val - 4 * i.val); omega) rfl]
  exact hp _

/-- A word read through a window of the entity index array is a word of the array. -/
theorem readA_lt (X24 : Buf (Elt F) (aLoc d)) (B : ℕ) (h24 : ∀ j : S512x128.Idx, (X24 j).toNat < B) (w : BitVec 32) (h) (z : S4x128.Idx) :
    (ReadAs.same.apply (View.read (Elt F) ((aV).slice (Rect.unit (s := S512x128) (k1_off1 L w) S4x128.size h) (fun _ => rfl)).view X24) z).toNat < B := by
  rw [ReadAs.apply_same, (View.read_apply _ _).trans (cast_eq _ _)]; exact h24 _
/-- A word read through the window of the relation index array is a word of the array. -/
theorem readB_lt (X25 : Buf (Elt F) (bLoc d)) (B : ℕ) (h25 : ∀ j : S128x128.Idx, (X25 j).toNat < B) (h) (z : S4x128.Idx) :
    (ReadAs.same.apply (View.read (Elt F) ((bV).slice (Rect.unit (s := S128x128) (k1_off2 L) S4x128.size h) (fun _ => rfl)).view X25) z).toNat < B := by
  rw [ReadAs.apply_same, (View.read_apply _ _).trans (cast_eq _ _)]; exact h25 _

end Idx

/-! ## The values: what a gather delivers and what a window holds after its copy -/

section Val

variable (d : Dev nD) (L : grid1.Coords)

/-- The one coordinate of a list index at row-major position `t` is `t`. -/
theorem list_coord (t : Fin S128.numel) : ((S128.rowMajor.symm t) 0).val = t.val := by
  have h := Shape.rowMajor_val_one (d := ![128]) (S128.rowMajor.symm t)
  rw [← h]
  exact congrArg Fin.val (S128.rowMajor.apply_symm_apply t)

/-- The word at position `x` of row `n` of the index scratch is the scratch's word `(n, x)`. -/
theorem read_idxRow_at (n : ℕ) (hk) (c : Buf (Elt F) ((sI).view.loc (VT d L))) (x : S128.Idx) (y : S20x128.Idx)
    (hy0 : (y 0).val = n) (hy1 : (y 1).val = (x 0).val) :
    (idxRow n hk).view.read (Elt F) c x = (sI).view.read (Elt F) c y := by
  have e : (Rect.unit (s := S20x128) ![n, 0] S1x128.size hk).emb ((Shape.reshapeEquiv squeezes_S1x128_S128.numel_eq) x) = y := by
    rw [Shape.reshapeEquiv_cons_one]
    funext a
    apply Fin.ext
    match a with
    | 0 => show n + 1 * 0 = (y 0).val; omega
    | 1 => show 0 + 1 * (x 0).val = (y 1).val; omega
  rw [← e, View.read_apply, View.read_apply]; rfl

/-- A row buffer just written whole reads what was written. -/
theorem read_rowsBuf (M : Memref sig .scVector .vmem S128x128 .f32) (f : Buf (Elt F) (M.view.loc (VT d L)))
    (G : S128x128.Idx → Elt F .f32) (tl : List (View.Piece (Elt F) S128x128 .f32)) (z : S128x128.Idx) :
    M.view.read (Elt F) (M.view.writes (Elt F) f ((⟨Rect.whole S128x128, G⟩ : View.Piece (Elt F) S128x128 .f32) :: tl)) z = G z := by
  have h := View.read_writes_cons_emb M.view f (Rect.whole S128x128) G tl z
  rwa [Rect.emb_whole_apply] at h

/-- What the gather of the entity table by row `n` of the scratch delivers at `z`: column `z 1` of the table's row named by the
    scratch's word `(n, z 0)`. -/
theorem gatherE_val (X5 : Buf (Elt F) (eLoc d)) (n : ℕ) (hk) (C : Buf (Elt F) ((sI).view.loc (VT d L)))
    (hn : S128.numel = S128x128.size gathers_S500000x128_S128x128.axis')
    (hin : ∀ x, ((idxRow n hk).view.read (Elt F) C x).toNat < S500000x128.size gathers_S500000x128_S128x128.axis)
    (z : S128x128.Idx) (y : S20x128.Idx) (hy0 : (y 0).val = n) (hy1 : (y 1).val = (z 0).val) (t : S500000x128.Idx)
    (ht0 : (t 0).val = ((sI).view.read (Elt F) C y).toNat) (ht1 : (t 1).val = (z 1).val) :
    SparseCore.gatherPayload gathers_S500000x128_S128x128
      (View.read (Elt F) ((eV).slice (Rect.unit (s := S500000x128) ![0, 0] S500000x128.size inb_S500000x128_S500000x128_0_0) (fun _ => rfl)).view X5)
      (SparseCore.rows ((idxRow n hk).view.read (Elt F) C) hn hin) z
    = X5 t := by
  unfold SparseCore.gatherPayload
  rw [(View.read_apply _ _).trans (cast_eq _ _)]
  refine congrArg X5 ?_
  funext a
  apply Fin.ext
  match a with
  | 0 =>
    show 0 + 1 * ((gathers_S500000x128_S128x128.idx (SparseCore.rows ((idxRow n hk).view.read (Elt F) C) hn hin) z) gathers_S500000x128_S128x128.axis).val = (t 0).val
    rw [Nat.zero_add, Nat.one_mul, ht0, Shape.Gathers.idx_axis]
    show ((idxRow n hk).view.read (Elt F) C (S128.rowMajor.symm (Fin.cast _ (z 0)))).toNat = _
    rw [read_idxRow_at d L n hk C _ y hy0 (by rw [hy1, list_coord]; rfl)]
  | 1 =>
    show 0 + 1 * ((gathers_S500000x128_S128x128.idx (SparseCore.rows ((idxRow n hk).view.read (Elt F) C) hn hin) z) 1).val = (t 1).val
    rw [Nat.zero_add, Nat.one_mul, ht1]
    exact Shape.Gathers.idx_of_ne gathers_S500000x128_S128x128 _ z 1 (by decide)

/-- What the gather of the relation table by row `n` of the scratch delivers at `z`: column `z 1` of the table's row named by the
    scratch's word `(n, z 0)`. -/
theorem gatherR_val (X6 : Buf (Elt F) (rLoc d)) (n : ℕ) (hk) (C : Buf (Elt F) ((sI).view.loc (VT d L)))
    (hn : S128.numel = S128x128.size gathers_S500x128_S128x128.axis')
    (hin : ∀ x, ((idxRow n hk).view.read (Elt F) C x).toNat < S500x128.size gathers_S500x128_S128x128.axis)
    (z : S128x128.Idx) (y : S20x128.Idx) (hy0 : (y 0).val = n) (hy1 : (y 1).val = (z 0).val) (t : S500x128.Idx)
    (ht0 : (t 0).val = ((sI).view.read (Elt F) C y).toNat) (ht1 : (t 1).val = (z 1).val) :
    SparseCore.gatherPayload gathers_S500x128_S128x128
      (View.read (Elt F) ((rV).slice (Rect.unit (s := S500x128) ![0, 0] S500x128.size inb_S500x128_S500x128_0_0) (fun _ => rfl)).view X6)
      (SparseCore.rows ((idxRow n hk).view.read (Elt F) C) hn hin) z
    = X6 t := by
  unfold SparseCore.gatherPayload
  rw [(View.read_apply _ _).trans (cast_eq _ _)]
  refine congrArg X6 ?_
  funext a
  apply Fin.ext
  match a with
  | 0 =>
    show 0 + 1 * ((gathers_S500x128_S128x128.idx (SparseCore.rows ((idxRow n hk).view.read (Elt F) C) hn hin) z) gathers_S500x128_S128x128.axis).val = (t 0).val
    rw [Nat.zero_add, Nat.one_mul, ht0, Shape.Gathers.idx_axis]
    show ((idxRow n hk).view.read (Elt F) C (S128.rowMajor.symm (Fin.cast _ (z 0)))).toNat = _
    rw [read_idxRow_at d L n hk C _ y hy0 (by rw [hy1, list_coord]; rfl)]
  | 1 =>
    show 0 + 1 * ((gathers_S500x128_S128x128.idx (SparseCore.rows ((idxRow n hk).view.read (Elt F) C) hn hin) z) 1).val = (t 1).val
    rw [Nat.zero_add, Nat.one_mul, ht1]
    exact Shape.Gathers.idx_of_ne gathers_S500x128_S128x128 _ z 1 (by decide)

/-- A word fetched from the entity index array, by its place in the array. -/
theorem readA_at (X24 : Buf (Elt F) (aLoc d)) (r4 : Fin 4) (w : BitVec 32) (hw : w = BitVec.ofNat 32 (128 * r4.val)) (h)
    (x : S4x128.Idx) (u : S512x128.Idx)
    (hu0 : (u 0).val = 128 * r4.val + 8 * (L 1).val + 4 * (L 0).val + (x 0).val) (hu1 : (u 1).val = (x 1).val) :
    ReadAs.same.apply (View.read (Elt F) ((aV).slice (Rect.unit (s := S512x128) (k1_off1 L w) S4x128.size h) (fun _ => rfl)).view X24) x = X24 u := by
  subst hw
  rw [ReadAs.apply_same, (View.read_apply _ _).trans (cast_eq _ _)]
  refine congrArg X24 ?_
  funext a
  apply Fin.ext
  match a with
  | 0 =>
    show (k1_off1 L (BitVec.ofNat 32 (128 * r4.val))) 0 + 1 * (x 0).val = (u 0).val
    rw [k1_off1_eq L r4, hu0]
    show 128 * r4.val + 8 * (L 1).val + 4 * (L 0).val + 1 * (x 0).val = _
    omega
  | 1 =>
    show (k1_off1 L (BitVec.ofNat 32 (128 * r4.val))) 1 + 1 * (x 1).val = (u 1).val
    rw [k1_off1_eq L r4, hu1]
    show 0 + 1 * (x 1).val = _
    omega

/-- A word fetched from the relation index array, by its place in the array. -/
theorem readB_at (X25 : Buf (Elt F) (bLoc d)) (h) (x : S4x128.Idx) (u : S128x128.Idx)
    (hu0 : (u 0).val = 8 * (L 1).val + 4 * (L 0).val + (x 0).val) (hu1 : (u 1).val = (x 1).val) :
    ReadAs.same.apply (View.read (Elt F) ((bV).slice (Rect.unit (s := S128x128) (k1_off2 L) S4x128.size h) (fun _ => rfl)).view X25) x = X25 u := by
  rw [ReadAs.apply_same, (View.read_apply _ _).trans (cast_eq _ _)]
  refine congrArg X25 ?_
  funext a
  apply Fin.ext
  match a with
  | 0 =>
    show (k1_off2 L) 0 + 1 * (x 0).val = (u 0).val
    rw [k1_off2_eq L, hu0]
    show 8 * (L 1).val + 4 * (L 0).val + 1 * (x 0).val = _
    omega
  | 1 =>
    show (k1_off2 L) 1 + 1 * (x 1).val = (u 1).val
    rw [k1_off2_eq L, hu1]
    show 0 + 1 * (x 1).val = _
    omega

/-- The entity results' function at a row, by the places of the index word and of the table row. -/
theorem gathE_apply (X5 : Buf (Elt F) (eLoc d)) (X24 : Buf (Elt F) (aLoc d)) (k : Fin 4) (b : S16384x128.Idx)
    (t : S500000x128.Idx) (u : S512x128.Idx) (hu0 : (u 0).val = 128 * k.val + (b 0).val / 128) (hu1 : (u 1).val = (b 0).val % 128)
    (ht0 : (t 0).val = (X24 u).toNat % 500000) (ht1 : (t 1).val = (b 1).val) : gathE d X5 X24 k b = X5 t := by
  unfold gathE
  refine congrArg X5 ?_
  funext a
  apply Fin.ext
  match a with
  | 0 =>
    rw [ht0]
    refine congrArg (fun v => (X24 v).toNat % 500000) ?_
    funext a'
    apply Fin.ext
    match a' with
    | 0 => exact hu0.symm
    | 1 => exact hu1.symm
  | 1 => exact ht1.symm

/-- The relation result's function at a row, likewise. -/
theorem gathR_apply (X6 : Buf (Elt F) (rLoc d)) (X25 : Buf (Elt F) (bLoc d)) (b : S16384x128.Idx)
    (t : S500x128.Idx) (u : S128x128.Idx) (hu0 : (u 0).val = (b 0).val / 128) (hu1 : (u 1).val = (b 0).val % 128)
    (ht0 : (t 0).val = (X25 u).toNat % 500) (ht1 : (t 1).val = (b 1).val) : gathR d X6 X25 b = X6 t := by
  unfold gathR
  refine congrArg X6 ?_
  funext a
  apply Fin.ext
  match a with
  | 0 =>
    rw [ht0]
    refine congrArg (fun v => (X25 v).toNat % 500) ?_
    funext a'
    apply Fin.ext
    match a' with
    | 0 => exact hu0.symm
    | 1 => exact hu1.symm
  | 1 => exact ht1.symm

/-- Gather `4 k + j` (entity result `k`, window `j`) delivers, at `z`, the result's function at row
    `(4 w + j) * 128 + z 0`, column `z 1`. -/
theorem payE_val (k j : Fin 4) (X5 : Buf (Elt F) (eLoc d)) (X24 : Buf (Elt F) (aLoc d)) (h24 : ∀ u : S512x128.Idx, (X24 u).toNat < 500000)
    (g : Buf (Elt F) ((sI).view.loc (VT d L))) (p0 p1 p2 p3 p4 : S4x128.Idx → Elt F .i32)
    (hp : ∀ (x : S4x128.Idx) (u : S512x128.Idx), (u 0).val = 128 * k.val + 8 * (L 1).val + 4 * (L 0).val + (x 0).val → (u 1).val = (x 1).val →
      (![p0, p1, p2, p3, p4] : Fin 5 → S4x128.Idx → Elt F .i32) ⟨k.val, by have := k.isLt; omega⟩ x = X24 u)
    (n : ℕ) (hnk : n = 4 * k.val + j.val) (hk) (hn) (hin)
    (z : S128x128.Idx) (b : S16384x128.Idx) (hb0 : (b 0).val = 1024 * (L 1).val + 512 * (L 0).val + 128 * j.val + (z 0).val) (hb1 : (b 1).val = (z 1).val) :
    SparseCore.gatherPayload gathers_S500000x128_S128x128
      (View.read (Elt F) ((eV).slice (Rect.unit (s := S500000x128) ![0, 0] S500000x128.size inb_S500000x128_S500000x128_0_0) (fun _ => rfl)).view X5)
      (SparseCore.rows ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩])) hn hin) z
    = gathE d X5 X24 k b := by
  subst hnk
  have hz0 : (z 0).val < 128 := (z 0).isLt
  have hL0 : (L 0).val < 2 := (L 0).isLt
  have hL1 : (L 1).val < 16 := (L 1).isLt
  have hkk := k.isLt
  have hjj := j.isLt
  have hu0' : 128 * k.val + (b 0).val / 128 = 128 * k.val + 8 * (L 1).val + 4 * (L 0).val + j.val := by rw [hb0]; omega
  have hu1' : (b 0).val % 128 = (z 0).val := by rw [hb0]; omega
  let y : S20x128.Idx := fun | 0 => ⟨4 * k.val + j.val, by show _ < 20; omega⟩ | 1 => ⟨(z 0).val, hz0⟩
  let x : S4x128.Idx := fun | 0 => ⟨j.val, hjj⟩ | 1 => ⟨(z 0).val, hz0⟩
  let u : S512x128.Idx := fun | 0 => ⟨128 * k.val + (b 0).val / 128, by show _ < 512; omega⟩ | 1 => ⟨(b 0).val % 128, Nat.mod_lt _ (by decide)⟩
  have e1 : (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y = X24 u := by
    rw [read_idxScratch d L g p0 p1 p2 p3 p4 y ⟨k.val, by omega⟩ x rfl rfl]
    exact hp x u hu0' hu1'
  let t : S500000x128.Idx := fun | 0 => ⟨(X24 u).toNat % 500000, Nat.mod_lt _ (by decide)⟩ | 1 => b 1
  rw [gathE_apply d X5 X24 k b t u rfl rfl rfl rfl]
  exact gatherE_val d L X5 _ hk _ hn hin z y rfl rfl t (by show (X24 u).toNat % 500000 = _; rw [e1]; exact Nat.mod_eq_of_lt (h24 u)) hb1

/-- Gather `16 + j` (the relation result, window `j`) delivers, at `z`, the result's function at row
    `(4 w + j) * 128 + z 0`, column `z 1`. -/
theorem payR_val (j : Fin 4) (X6 : Buf (Elt F) (rLoc d)) (X25 : Buf (Elt F) (bLoc d)) (h25 : ∀ u : S128x128.Idx, (X25 u).toNat < 500)
    (g : Buf (Elt F) ((sI).view.loc (VT d L))) (p0 p1 p2 p3 p4 : S4x128.Idx → Elt F .i32)
    (hp : ∀ (x : S4x128.Idx) (u : S128x128.Idx), (u 0).val = 8 * (L 1).val + 4 * (L 0).val + (x 0).val → (u 1).val = (x 1).val → p4 x = X25 u)
    (n : ℕ) (hnk : n = 16 + j.val) (hk) (hn) (hin)
    (z : S128x128.Idx) (b : S16384x128.Idx) (hb0 : (b 0).val = 1024 * (L 1).val + 512 * (L 0).val + 128 * j.val + (z 0).val) (hb1 : (b 1).val = (z 1).val) :
    SparseCore.gatherPayload gathers_S500x128_S128x128
      (View.read (Elt F) ((rV).slice (Rect.unit (s := S500x128) ![0, 0] S500x128.size inb_S500x128_S500x128_0_0) (fun _ => rfl)).view X6)
      (SparseCore.rows ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩])) hn hin) z
    = gathR d X6 X25 b := by
  subst hnk
  have hz0 : (z 0).val < 128 := (z 0).isLt
  have hL0 : (L 0).val < 2 := (L 0).isLt
  have hL1 : (L 1).val < 16 := (L 1).isLt
  have hjj := j.isLt
  have hu0' : (b 0).val / 128 = 8 * (L 1).val + 4 * (L 0).val + j.val := by rw [hb0]; omega
  have hu1' : (b 0).val % 128 = (z 0).val := by rw [hb0]; omega
  let y : S20x128.Idx := fun | 0 => ⟨16 + j.val, by show _ < 20; omega⟩ | 1 => ⟨(z 0).val, hz0⟩
  let x : S4x128.Idx := fun | 0 => ⟨j.val, hjj⟩ | 1 => ⟨(z 0).val, hz0⟩
  let u : S128x128.Idx := fun | 0 => ⟨(b 0).val / 128, by show _ < 128; omega⟩ | 1 => ⟨(b 0).val % 128, Nat.mod_lt _ (by decide)⟩
  have e1 : (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y = X25 u := by
    rw [read_idxScratch d L g p0 p1 p2 p3 p4 y 4 x rfl rfl]
    exact hp x u hu0' hu1'
  let t : S500x128.Idx := fun | 0 => ⟨(X25 u).toNat % 500, Nat.mod_lt _ (by decide)⟩ | 1 => b 1
  rw [gathR_apply d X6 X25 b t u rfl rfl rfl rfl]
  exact gatherR_val d L X6 _ hk _ hn hin z y rfl rfl t (by show (X25 u).toNat % 500 = _; rw [e1]; exact Nat.mod_eq_of_lt (h25 u)) hb1

/-- A window of result 0 after the copy of a row buffer into it holds, on its own elements, a function `G` of the
    whole result that the buffer's contents agree with row by row. -/
theorem win0_val (j : Fin 4) (w : BitVec 32) (hw : w = BitVec.ofNat 32 j.val) (h) (Y : Buf (Elt F) (o0Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o0V).slice (Rect.unit (s := S16384x128) (k1_off3 L w) S128x128.size h) (fun _ => rfl)).view.set,
      (((o0V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o0V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 1 after the copy of a row buffer into it holds, on its own elements, a function `G` of the
    whole result that the buffer's contents agree with row by row. -/
theorem win1_val (j : Fin 4) (w : BitVec 32) (hw : w = BitVec.ofNat 32 j.val) (h) (Y : Buf (Elt F) (o1Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o1V).slice (Rect.unit (s := S16384x128) (k1_off3 L w) S128x128.size h) (fun _ => rfl)).view.set,
      (((o1V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o1V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 2 after the copy of a row buffer into it holds, on its own elements, a function `G` of the
    whole result that the buffer's contents agree with row by row. -/
theorem win2_val (j : Fin 4) (w : BitVec 32) (hw : w = BitVec.ofNat 32 j.val) (h) (Y : Buf (Elt F) (o2Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o2V).slice (Rect.unit (s := S16384x128) (k1_off3 L w) S128x128.size h) (fun _ => rfl)).view.set,
      (((o2V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o2V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 3 after the copy of a row buffer into it holds, on its own elements, a function `G` of the
    whole result that the buffer's contents agree with row by row. -/
theorem win3_val (j : Fin 4) (w : BitVec 32) (hw : w = BitVec.ofNat 32 j.val) (h) (Y : Buf (Elt F) (o3Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o3V).slice (Rect.unit (s := S16384x128) (k1_off3 L w) S128x128.size h) (fun _ => rfl)).view.set,
      (((o3V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o3V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 4 after the copy of a row buffer into it holds, on its own elements, a function `G` of the
    whole result that the buffer's contents agree with row by row. -/
theorem win4_val (j : Fin 4) (w : BitVec 32) (hw : w = BitVec.ofNat 32 j.val) (h) (Y : Buf (Elt F) (o4Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o4V).slice (Rect.unit (s := S16384x128) (k1_off3 L w) S128x128.size h) (fun _ => rfl)).view.set,
      (((o4V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o4V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

end Val

/-! ## The body, step by step -/

section Tile

variable [FloatOps F]
variable (d : Dev nD) (L : grid1.Coords)

set_option maxHeartbeats 32000000 in
set_option maxRecDepth 65536 in
/-- The kernel from the resources as the vector subcore addresses them, each table under two read shares (two gathers
    of one table are in flight at once), to the same resources back, each window of a result at the gathered rows. -/
theorem tile_run (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (fi : Buf (Elt F) ((sI).view.loc (VT d L))) (fa : Buf (Elt F) ((sA).view.loc (VT d L))) (fb : Buf (Elt F) ((sB).view.loc (VT d L)))
    (h24 : ∀ j : S512x128.Idx, (X24 j).toNat < 500000) (h25 : ∀ j : S128x128.Idx, (X25 j).toNat < 500)
    (O : CellTallies nD τ sig (HIx 1)) (W : Waits sig (HIx 1)) :
    (iprop(Transfers.MayWaits (VT d L) (default : HIx 1) O
        ∗ ((eV).view.loc (VT d L) ↦{q.left} X5)
        ∗ ((eV).view.loc (VT d L) ↦{q.right} X5)
        ∗ ((rV).view.loc (VT d L) ↦{q.left} X6)
        ∗ ((rV).view.loc (VT d L) ↦{q.right} X6)
        ∗ ((aV).view.loc (VT d L) ↦{q} X24)
        ∗ ((bV).view.loc (VT d L) ↦{q} X25)
        ∗ ((oC0_0 L).view.loc (VT d L) ↦[(oC0_0 L).view.set]{fullShare} Y0)
        ∗ ((oC0_1 L).view.loc (VT d L) ↦[(oC0_1 L).view.set]{fullShare} Y0)
        ∗ ((oC0_2 L).view.loc (VT d L) ↦[(oC0_2 L).view.set]{fullShare} Y0)
        ∗ ((oC0_3 L).view.loc (VT d L) ↦[(oC0_3 L).view.set]{fullShare} Y0)
        ∗ ((oC1_0 L).view.loc (VT d L) ↦[(oC1_0 L).view.set]{fullShare} Y1)
        ∗ ((oC1_1 L).view.loc (VT d L) ↦[(oC1_1 L).view.set]{fullShare} Y1)
        ∗ ((oC1_2 L).view.loc (VT d L) ↦[(oC1_2 L).view.set]{fullShare} Y1)
        ∗ ((oC1_3 L).view.loc (VT d L) ↦[(oC1_3 L).view.set]{fullShare} Y1)
        ∗ ((oC2_0 L).view.loc (VT d L) ↦[(oC2_0 L).view.set]{fullShare} Y2)
        ∗ ((oC2_1 L).view.loc (VT d L) ↦[(oC2_1 L).view.set]{fullShare} Y2)
        ∗ ((oC2_2 L).view.loc (VT d L) ↦[(oC2_2 L).view.set]{fullShare} Y2)
        ∗ ((oC2_3 L).view.loc (VT d L) ↦[(oC2_3 L).view.set]{fullShare} Y2)
        ∗ ((oC3_0 L).view.loc (VT d L) ↦[(oC3_0 L).view.set]{fullShare} Y3)
        ∗ ((oC3_1 L).view.loc (VT d L) ↦[(oC3_1 L).view.set]{fullShare} Y3)
        ∗ ((oC3_2 L).view.loc (VT d L) ↦[(oC3_2 L).view.set]{fullShare} Y3)
        ∗ ((oC3_3 L).view.loc (VT d L) ↦[(oC3_3 L).view.set]{fullShare} Y3)
        ∗ ((oC4_0 L).view.loc (VT d L) ↦[(oC4_0 L).view.set]{fullShare} Y4)
        ∗ ((oC4_1 L).view.loc (VT d L) ↦[(oC4_1 L).view.set]{fullShare} Y4)
        ∗ ((oC4_2 L).view.loc (VT d L) ↦[(oC4_2 L).view.set]{fullShare} Y4)
        ∗ ((oC4_3 L).view.loc (VT d L) ↦[(oC4_3 L).view.set]{fullShare} Y4)
        ∗ ((sI).view.loc (VT d L) ↦{fullShare} fi)
        ∗ ((sA).view.loc (VT d L) ↦{fullShare} fa)
        ∗ ((sB).view.loc (VT d L) ↦{fullShare} fb)
        ∗ semVal (VT d L, SemLoc.dma cc1_scratch3.sem) 0
        ∗ semVal (VT d L, SemLoc.dma cc1_scratch4.sem) 0
        ∗ semVal (VT d L, SemLoc.dma cc1_scoped0.sem) 0
        ∗ semVal (VT d L, SemLoc.dma cc1_scoped1.sem) 0
        ∗ semVal (VT d L, SemLoc.dma cc1_scoped2.sem) 0
        ∗ semVal (VT d L, SemLoc.dma cc1_scoped3.sem) 0
        ∗ semVal (VT d L, SemLoc.dma cc1_scoped4.sem) 0
        ∗ semVal (VT d L, SemLoc.dma cc1_scoped5.sem) 0
        ∗ semVal (VT d L, SemLoc.dma cc1_scoped6.sem) 0
        ∗ semVal (VT d L, SemLoc.dma cc1_scoped7.sem) 0
        ∗ semVal (VT d L, SemLoc.dma cc1_scoped8.sem) 0
        ∗ semVal (VT d L, SemLoc.dma cc1_scoped9.sem) 0
        ∗ semVal (VT d L, SemLoc.dma cc1_scoped10.sem) 0
        ∗ semVal (VT d L, SemLoc.dma cc1_scoped11.sem) 0
        ∗ semVal (VT d L, SemLoc.dma cc1_scoped12.sem) 0
        ∗ semVal (VT d L, SemLoc.dma cc1_scoped13.sem) 0
        ∗ semVal (VT d L, SemLoc.dma cc1_scoped14.sem) 0
        ∗ semVal (VT d L, SemLoc.dma cc1_scoped15.sem) 0
        ∗ semVal (VT d L, SemLoc.dma cc1_scoped16.sem) 0
        ∗ semVal (VT d L, SemLoc.dma cc1_scoped17.sem) 0
        ∗ semVal (VT d L, SemLoc.dma cc1_scoped18.sem) 0
        ∗ semVal (VT d L, SemLoc.dma cc1_scoped19.sem) 0
        ∗ semVal (VT d L, SemLoc.dma cc1_scoped20.sem) 0
        ∗ semVal (VT d L, SemLoc.dma cc1_scoped21.sem) 0
        ∗ semVal (VT d L, SemLoc.dma cc1_scoped22.sem) 0
        ∗ semVal (VT d L, SemLoc.dma cc1_scoped23.sem) 0
        ∗ semVal (VT d L, SemLoc.dma cc1_scoped24.sem) 0
        ∗ owes (VT d L) O W) : sProp 𝕄)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(((eV).view.loc (VT d L) ↦{q.left} X5)
            ∗ ((eV).view.loc (VT d L) ↦{q.right} X5)
            ∗ ((rV).view.loc (VT d L) ↦{q.left} X6)
            ∗ ((rV).view.loc (VT d L) ↦{q.right} X6)
            ∗ ((aV).view.loc (VT d L) ↦{q} X24)
            ∗ ((bV).view.loc (VT d L) ↦{q} X25)
            ∗ ((oC0_0 L).view.loc (VT d L) ↦[(oC0_0 L).view.set]{fullShare} gathE d X5 X24 0)
            ∗ ((oC0_1 L).view.loc (VT d L) ↦[(oC0_1 L).view.set]{fullShare} gathE d X5 X24 0)
            ∗ ((oC0_2 L).view.loc (VT d L) ↦[(oC0_2 L).view.set]{fullShare} gathE d X5 X24 0)
            ∗ ((oC0_3 L).view.loc (VT d L) ↦[(oC0_3 L).view.set]{fullShare} gathE d X5 X24 0)
            ∗ ((oC1_0 L).view.loc (VT d L) ↦[(oC1_0 L).view.set]{fullShare} gathE d X5 X24 1)
            ∗ ((oC1_1 L).view.loc (VT d L) ↦[(oC1_1 L).view.set]{fullShare} gathE d X5 X24 1)
            ∗ ((oC1_2 L).view.loc (VT d L) ↦[(oC1_2 L).view.set]{fullShare} gathE d X5 X24 1)
            ∗ ((oC1_3 L).view.loc (VT d L) ↦[(oC1_3 L).view.set]{fullShare} gathE d X5 X24 1)
            ∗ ((oC2_0 L).view.loc (VT d L) ↦[(oC2_0 L).view.set]{fullShare} gathE d X5 X24 2)
            ∗ ((oC2_1 L).view.loc (VT d L) ↦[(oC2_1 L).view.set]{fullShare} gathE d X5 X24 2)
            ∗ ((oC2_2 L).view.loc (VT d L) ↦[(oC2_2 L).view.set]{fullShare} gathE d X5 X24 2)
            ∗ ((oC2_3 L).view.loc (VT d L) ↦[(oC2_3 L).view.set]{fullShare} gathE d X5 X24 2)
            ∗ ((oC3_0 L).view.loc (VT d L) ↦[(oC3_0 L).view.set]{fullShare} gathE d X5 X24 3)
            ∗ ((oC3_1 L).view.loc (VT d L) ↦[(oC3_1 L).view.set]{fullShare} gathE d X5 X24 3)
            ∗ ((oC3_2 L).view.loc (VT d L) ↦[(oC3_2 L).view.set]{fullShare} gathE d X5 X24 3)
            ∗ ((oC3_3 L).view.loc (VT d L) ↦[(oC3_3 L).view.set]{fullShare} gathE d X5 X24 3)
            ∗ ((oC4_0 L).view.loc (VT d L) ↦[(oC4_0 L).view.set]{fullShare} gathR d X6 X25)
            ∗ ((oC4_1 L).view.loc (VT d L) ↦[(oC4_1 L).view.set]{fullShare} gathR d X6 X25)
            ∗ ((oC4_2 L).view.loc (VT d L) ↦[(oC4_2 L).view.set]{fullShare} gathR d X6 X25)
            ∗ ((oC4_3 L).view.loc (VT d L) ↦[(oC4_3 L).view.set]{fullShare} gathR d X6 X25)
            ∗ (∃ f, (sI).view.loc (VT d L) ↦{fullShare} f)
            ∗ (∃ f, (sA).view.loc (VT d L) ↦{fullShare} f)
            ∗ (∃ f, (sB).view.loc (VT d L) ↦{fullShare} f)
            ∗ semVal (VT d L, SemLoc.dma cc1_scratch3.sem) 0
            ∗ semVal (VT d L, SemLoc.dma cc1_scratch4.sem) 0
            ∗ semVal (VT d L, SemLoc.dma cc1_scoped0.sem) 0
            ∗ semVal (VT d L, SemLoc.dma cc1_scoped1.sem) 0
            ∗ semVal (VT d L, SemLoc.dma cc1_scoped2.sem) 0
            ∗ semVal (VT d L, SemLoc.dma cc1_scoped3.sem) 0
            ∗ semVal (VT d L, SemLoc.dma cc1_scoped4.sem) 0
            ∗ semVal (VT d L, SemLoc.dma cc1_scoped5.sem) 0
            ∗ semVal (VT d L, SemLoc.dma cc1_scoped6.sem) 0
            ∗ semVal (VT d L, SemLoc.dma cc1_scoped7.sem) 0
            ∗ semVal (VT d L, SemLoc.dma cc1_scoped8.sem) 0
            ∗ semVal (VT d L, SemLoc.dma cc1_scoped9.sem) 0
            ∗ semVal (VT d L, SemLoc.dma cc1_scoped10.sem) 0
            ∗ semVal (VT d L, SemLoc.dma cc1_scoped11.sem) 0
            ∗ semVal (VT d L, SemLoc.dma cc1_scoped12.sem) 0
            ∗ semVal (VT d L, SemLoc.dma cc1_scoped13.sem) 0
            ∗ semVal (VT d L, SemLoc.dma cc1_scoped14.sem) 0
            ∗ semVal (VT d L, SemLoc.dma cc1_scoped15.sem) 0
            ∗ semVal (VT d L, SemLoc.dma cc1_scoped16.sem) 0
            ∗ semVal (VT d L, SemLoc.dma cc1_scoped17.sem) 0
            ∗ semVal (VT d L, SemLoc.dma cc1_scoped18.sem) 0
            ∗ semVal (VT d L, SemLoc.dma cc1_scoped19.sem) 0
            ∗ semVal (VT d L, SemLoc.dma cc1_scoped20.sem) 0
            ∗ semVal (VT d L, SemLoc.dma cc1_scoped21.sem) 0
            ∗ semVal (VT d L, SemLoc.dma cc1_scoped22.sem) 0
            ∗ semVal (VT d L, SemLoc.dma cc1_scoped23.sem) 0
            ∗ semVal (VT d L, SemLoc.dma cc1_scoped24.sem) 0
            ∗ ∃ W', owes (VT d L) O W') := by
  iintro ⟨#Hmw, He0, He1, Hr0, Hr1, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, Hsi, Hsa, Hsb, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, HO⟩
  sl_unfold [cc1_gk]
  sl_exec
  -- the fetched blocks' words are words of the index arrays: in range
  have hp0 : ∀ z, (tile_run.sl.dma0 d L X24 z).toNat < 500000 := readA_lt d L X24 _ h24 _ _
  have hp1 : ∀ z, (tile_run.sl.dma0_1 d L X24 z).toNat < 500000 := readA_lt d L X24 _ h24 _ _
  have hp2 : ∀ z, (tile_run.sl.dma0_2 d L X24 z).toNat < 500000 := readA_lt d L X24 _ h24 _ _
  have hp3 : ∀ z, (tile_run.sl.dma0_3 d L X24 z).toNat < 500000 := readA_lt d L X24 _ h24 _ _
  have hp4 : ∀ z, (tile_run.sl.dma0_4 d L X25 z).toNat < 500 := readB_lt d L X25 _ h25 _
  -- so every row of the scratch is a list of offsets in range, whatever the scratch held before
  have hr0 := fun g => idxRow_lt d L g (tile_run.sl.dma0 d L X24) (tile_run.sl.dma0_1 d L X24) (tile_run.sl.dma0_2 d L X24) (tile_run.sl.dma0_3 d L X24) (tile_run.sl.dma0_4 d L X25) 500000 0 inb_S20x128_S1x128_0_0 0 (by decide) hp0
  have hr1 := fun g => idxRow_lt d L g (tile_run.sl.dma0 d L X24) (tile_run.sl.dma0_1 d L X24) (tile_run.sl.dma0_2 d L X24) (tile_run.sl.dma0_3 d L X24) (tile_run.sl.dma0_4 d L X25) 500000 1 inb_S20x128_S1x128_1_0 0 (by decide) hp0
  have hr2 := fun g => idxRow_lt d L g (tile_run.sl.dma0 d L X24) (tile_run.sl.dma0_1 d L X24) (tile_run.sl.dma0_2 d L X24) (tile_run.sl.dma0_3 d L X24) (tile_run.sl.dma0_4 d L X25) 500000 2 inb_S20x128_S1x128_2_0 0 (by decide) hp0
  have hr3 := fun g => idxRow_lt d L g (tile_run.sl.dma0 d L X24) (tile_run.sl.dma0_1 d L X24) (tile_run.sl.dma0_2 d L X24) (tile_run.sl.dma0_3 d L X24) (tile_run.sl.dma0_4 d L X25) 500000 3 inb_S20x128_S1x128_3_0 0 (by decide) hp0
  have hr4 := fun g => idxRow_lt d L g (tile_run.sl.dma0 d L X24) (tile_run.sl.dma0_1 d L X24) (tile_run.sl.dma0_2 d L X24) (tile_run.sl.dma0_3 d L X24) (tile_run.sl.dma0_4 d L X25) 500000 4 inb_S20x128_S1x128_4_0 1 (by decide) hp1
  have hr5 := fun g => idxRow_lt d L g (tile_run.sl.dma0 d L X24) (tile_run.sl.dma0_1 d L X24) (tile_run.sl.dma0_2 d L X24) (tile_run.sl.dma0_3 d L X24) (tile_run.sl.dma0_4 d L X25) 500000 5 inb_S20x128_S1x128_5_0 1 (by decide) hp1
  have hr6 := fun g => idxRow_lt d L g (tile_run.sl.dma0 d L X24) (tile_run.sl.dma0_1 d L X24) (tile_run.sl.dma0_2 d L X24) (tile_run.sl.dma0_3 d L X24) (tile_run.sl.dma0_4 d L X25) 500000 6 inb_S20x128_S1x128_6_0 1 (by decide) hp1
  have hr7 := fun g => idxRow_lt d L g (tile_run.sl.dma0 d L X24) (tile_run.sl.dma0_1 d L X24) (tile_run.sl.dma0_2 d L X24) (tile_run.sl.dma0_3 d L X24) (tile_run.sl.dma0_4 d L X25) 500000 7 inb_S20x128_S1x128_7_0 1 (by decide) hp1
  have hr8 := fun g => idxRow_lt d L g (tile_run.sl.dma0 d L X24) (tile_run.sl.dma0_1 d L X24) (tile_run.sl.dma0_2 d L X24) (tile_run.sl.dma0_3 d L X24) (tile_run.sl.dma0_4 d L X25) 500000 8 inb_S20x128_S1x128_8_0 2 (by decide) hp2
  have hr9 := fun g => idxRow_lt d L g (tile_run.sl.dma0 d L X24) (tile_run.sl.dma0_1 d L X24) (tile_run.sl.dma0_2 d L X24) (tile_run.sl.dma0_3 d L X24) (tile_run.sl.dma0_4 d L X25) 500000 9 inb_S20x128_S1x128_9_0 2 (by decide) hp2
  have hr10 := fun g => idxRow_lt d L g (tile_run.sl.dma0 d L X24) (tile_run.sl.dma0_1 d L X24) (tile_run.sl.dma0_2 d L X24) (tile_run.sl.dma0_3 d L X24) (tile_run.sl.dma0_4 d L X25) 500000 10 inb_S20x128_S1x128_10_0 2 (by decide) hp2
  have hr11 := fun g => idxRow_lt d L g (tile_run.sl.dma0 d L X24) (tile_run.sl.dma0_1 d L X24) (tile_run.sl.dma0_2 d L X24) (tile_run.sl.dma0_3 d L X24) (tile_run.sl.dma0_4 d L X25) 500000 11 inb_S20x128_S1x128_11_0 2 (by decide) hp2
  have hr12 := fun g => idxRow_lt d L g (tile_run.sl.dma0 d L X24) (tile_run.sl.dma0_1 d L X24) (tile_run.sl.dma0_2 d L X24) (tile_run.sl.dma0_3 d L X24) (tile_run.sl.dma0_4 d L X25) 500000 12 inb_S20x128_S1x128_12_0 3 (by decide) hp3
  have hr13 := fun g => idxRow_lt d L g (tile_run.sl.dma0 d L X24) (tile_run.sl.dma0_1 d L X24) (tile_run.sl.dma0_2 d L X24) (tile_run.sl.dma0_3 d L X24) (tile_run.sl.dma0_4 d L X25) 500000 13 inb_S20x128_S1x128_13_0 3 (by decide) hp3
  have hr14 := fun g => idxRow_lt d L g (tile_run.sl.dma0 d L X24) (tile_run.sl.dma0_1 d L X24) (tile_run.sl.dma0_2 d L X24) (tile_run.sl.dma0_3 d L X24) (tile_run.sl.dma0_4 d L X25) 500000 14 inb_S20x128_S1x128_14_0 3 (by decide) hp3
  have hr15 := fun g => idxRow_lt d L g (tile_run.sl.dma0 d L X24) (tile_run.sl.dma0_1 d L X24) (tile_run.sl.dma0_2 d L X24) (tile_run.sl.dma0_3 d L X24) (tile_run.sl.dma0_4 d L X25) 500000 15 inb_S20x128_S1x128_15_0 3 (by decide) hp3
  have hr16 := fun g => idxRow_lt d L g (tile_run.sl.dma0 d L X24) (tile_run.sl.dma0_1 d L X24) (tile_run.sl.dma0_2 d L X24) (tile_run.sl.dma0_3 d L X24) (tile_run.sl.dma0_4 d L X25) 500 16 inb_S20x128_S1x128_16_0 4 (by decide) hp4
  have hr17 := fun g => idxRow_lt d L g (tile_run.sl.dma0 d L X24) (tile_run.sl.dma0_1 d L X24) (tile_run.sl.dma0_2 d L X24) (tile_run.sl.dma0_3 d L X24) (tile_run.sl.dma0_4 d L X25) 500 17 inb_S20x128_S1x128_17_0 4 (by decide) hp4
  have hr18 := fun g => idxRow_lt d L g (tile_run.sl.dma0 d L X24) (tile_run.sl.dma0_1 d L X24) (tile_run.sl.dma0_2 d L X24) (tile_run.sl.dma0_3 d L X24) (tile_run.sl.dma0_4 d L X25) 500 18 inb_S20x128_S1x128_18_0 4 (by decide) hp4
  have hr19 := fun g => idxRow_lt d L g (tile_run.sl.dma0 d L X24) (tile_run.sl.dma0_1 d L X24) (tile_run.sl.dma0_2 d L X24) (tile_run.sl.dma0_3 d L X24) (tile_run.sl.dma0_4 d L X25) 500 19 inb_S20x128_S1x128_19_0 4 (by decide) hp4
  sl_exec
  -- each window now holds its gathered rows: the buffer copied into it held the gather's payload (s1), the payload is
  -- the table's rows named by the fetched index words, and those are the result's function at the window's rows (s2)
  have s1_0_0 : ∀ z, (tile_run.sl.dma0_5 d L X5 X24 X25 fa hr0) z = (tile_run.sl.gather0 d L X5 X24 X25 hr0) z := fun z => read_rowsBuf d L sA fa _ _ z
  have s2_0_0 : ∀ (z : S128x128.Idx) (b : S16384x128.Idx), (b 0).val = 1024 * (L 1).val + 512 * (L 0).val + 128 * (0 : Fin 4).val + (z 0).val → (b 1).val = (z 1).val → (tile_run.sl.gather0 d L X5 X24 X25 hr0) z = (gathE d X5 X24 0) b :=
    fun z b hb0 hb1 => payE_val d L 0 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 0 rfl inb_S20x128_S1x128_0_0 rfl (hr0 _) z b hb0 hb1
  ihave Ho0_0' := (Entails.of_eq (pointsTo_congr (win0_val d L 0 0#32 rfl (k1_off3_inb L 0) Y0 (tile_run.sl.dma0_5 d L X5 X24 X25 fa hr0) (gathE d X5 X24 0)
    (fun z b hb0 hb1 => (s1_0_0 z).trans (s2_0_0 z b hb0 hb1))))) $$ Ho0_0
  have s1_0_1 : ∀ z, (tile_run.sl.dma0_6 d L X5 X24 X25 fb hr1) z = (tile_run.sl.gather1 d L X5 X24 X25 hr1) z := fun z => read_rowsBuf d L sB fb _ _ z
  have s2_0_1 : ∀ (z : S128x128.Idx) (b : S16384x128.Idx), (b 0).val = 1024 * (L 1).val + 512 * (L 0).val + 128 * (1 : Fin 4).val + (z 0).val → (b 1).val = (z 1).val → (tile_run.sl.gather1 d L X5 X24 X25 hr1) z = (gathE d X5 X24 0) b :=
    fun z b hb0 hb1 => payE_val d L 0 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 1 rfl inb_S20x128_S1x128_1_0 rfl (hr1 _) z b hb0 hb1
  ihave Ho0_1' := (Entails.of_eq (pointsTo_congr (win0_val d L 1 1#32 rfl (k1_off3_inb L 1) Y0 (tile_run.sl.dma0_6 d L X5 X24 X25 fb hr1) (gathE d X5 X24 0)
    (fun z b hb0 hb1 => (s1_0_1 z).trans (s2_0_1 z b hb0 hb1))))) $$ Ho0_1
  have s1_0_2 : ∀ z, (tile_run.sl.dma0_7 d L X5 X24 X25 fa hr0 hr2) z = (tile_run.sl.gather3 d L X5 X24 X25 hr2) z := fun z => read_rowsBuf d L sA fa _ _ z
  have s2_0_2 : ∀ (z : S128x128.Idx) (b : S16384x128.Idx), (b 0).val = 1024 * (L 1).val + 512 * (L 0).val + 128 * (2 : Fin 4).val + (z 0).val → (b 1).val = (z 1).val → (tile_run.sl.gather3 d L X5 X24 X25 hr2) z = (gathE d X5 X24 0) b :=
    fun z b hb0 hb1 => payE_val d L 0 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 2 rfl inb_S20x128_S1x128_2_0 rfl (hr2 _) z b hb0 hb1
  ihave Ho0_2' := (Entails.of_eq (pointsTo_congr (win0_val d L 2 2#32 rfl (k1_off3_inb L 2) Y0 (tile_run.sl.dma0_7 d L X5 X24 X25 fa hr0 hr2) (gathE d X5 X24 0)
    (fun z b hb0 hb1 => (s1_0_2 z).trans (s2_0_2 z b hb0 hb1))))) $$ Ho0_2
  have s1_0_3 : ∀ z, (tile_run.sl.dma0_8 d L X5 X24 X25 fb hr1 hr3) z = (tile_run.sl.gather5 d L X5 X24 X25 hr3) z := fun z => read_rowsBuf d L sB fb _ _ z
  have s2_0_3 : ∀ (z : S128x128.Idx) (b : S16384x128.Idx), (b 0).val = 1024 * (L 1).val + 512 * (L 0).val + 128 * (3 : Fin 4).val + (z 0).val → (b 1).val = (z 1).val → (tile_run.sl.gather5 d L X5 X24 X25 hr3) z = (gathE d X5 X24 0) b :=
    fun z b hb0 hb1 => payE_val d L 0 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 3 rfl inb_S20x128_S1x128_3_0 rfl (hr3 _) z b hb0 hb1
  ihave Ho0_3' := (Entails.of_eq (pointsTo_congr (win0_val d L 3 3#32 rfl (k1_off3_inb L 3) Y0 (tile_run.sl.dma0_8 d L X5 X24 X25 fb hr1 hr3) (gathE d X5 X24 0)
    (fun z b hb0 hb1 => (s1_0_3 z).trans (s2_0_3 z b hb0 hb1))))) $$ Ho0_3
  have s1_1_0 : ∀ z, (tile_run.sl.dma0_9 d L X5 X24 X25 fa hr0 hr2 hr4) z = (tile_run.sl.gather7 d L X5 X24 X25 hr4) z := fun z => read_rowsBuf d L sA fa _ _ z
  have s2_1_0 : ∀ (z : S128x128.Idx) (b : S16384x128.Idx), (b 0).val = 1024 * (L 1).val + 512 * (L 0).val + 128 * (0 : Fin 4).val + (z 0).val → (b 1).val = (z 1).val → (tile_run.sl.gather7 d L X5 X24 X25 hr4) z = (gathE d X5 X24 1) b :=
    fun z b hb0 hb1 => payE_val d L 1 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 4 rfl inb_S20x128_S1x128_4_0 rfl (hr4 _) z b hb0 hb1
  ihave Ho1_0' := (Entails.of_eq (pointsTo_congr (win1_val d L 0 0#32 rfl (k1_off3_inb L 0) Y1 (tile_run.sl.dma0_9 d L X5 X24 X25 fa hr0 hr2 hr4) (gathE d X5 X24 1)
    (fun z b hb0 hb1 => (s1_1_0 z).trans (s2_1_0 z b hb0 hb1))))) $$ Ho1_0
  have s1_1_1 : ∀ z, (tile_run.sl.dma0_10 d L X5 X24 X25 fb hr1 hr3 hr5) z = (tile_run.sl.gather9 d L X5 X24 X25 hr5) z := fun z => read_rowsBuf d L sB fb _ _ z
  have s2_1_1 : ∀ (z : S128x128.Idx) (b : S16384x128.Idx), (b 0).val = 1024 * (L 1).val + 512 * (L 0).val + 128 * (1 : Fin 4).val + (z 0).val → (b 1).val = (z 1).val → (tile_run.sl.gather9 d L X5 X24 X25 hr5) z = (gathE d X5 X24 1) b :=
    fun z b hb0 hb1 => payE_val d L 1 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 5 rfl inb_S20x128_S1x128_5_0 rfl (hr5 _) z b hb0 hb1
  ihave Ho1_1' := (Entails.of_eq (pointsTo_congr (win1_val d L 1 1#32 rfl (k1_off3_inb L 1) Y1 (tile_run.sl.dma0_10 d L X5 X24 X25 fb hr1 hr3 hr5) (gathE d X5 X24 1)
    (fun z b hb0 hb1 => (s1_1_1 z).trans (s2_1_1 z b hb0 hb1))))) $$ Ho1_1
  have s1_1_2 : ∀ z, (tile_run.sl.dma0_11 d L X5 X24 X25 fa hr0 hr2 hr4 hr6) z = (tile_run.sl.gather11 d L X5 X24 X25 hr6) z := fun z => read_rowsBuf d L sA fa _ _ z
  have s2_1_2 : ∀ (z : S128x128.Idx) (b : S16384x128.Idx), (b 0).val = 1024 * (L 1).val + 512 * (L 0).val + 128 * (2 : Fin 4).val + (z 0).val → (b 1).val = (z 1).val → (tile_run.sl.gather11 d L X5 X24 X25 hr6) z = (gathE d X5 X24 1) b :=
    fun z b hb0 hb1 => payE_val d L 1 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 6 rfl inb_S20x128_S1x128_6_0 rfl (hr6 _) z b hb0 hb1
  ihave Ho1_2' := (Entails.of_eq (pointsTo_congr (win1_val d L 2 2#32 rfl (k1_off3_inb L 2) Y1 (tile_run.sl.dma0_11 d L X5 X24 X25 fa hr0 hr2 hr4 hr6) (gathE d X5 X24 1)
    (fun z b hb0 hb1 => (s1_1_2 z).trans (s2_1_2 z b hb0 hb1))))) $$ Ho1_2
  have s1_1_3 : ∀ z, (tile_run.sl.dma0_12 d L X5 X24 X25 fb hr1 hr3 hr5 hr7) z = (tile_run.sl.gather13 d L X5 X24 X25 hr7) z := fun z => read_rowsBuf d L sB fb _ _ z
  have s2_1_3 : ∀ (z : S128x128.Idx) (b : S16384x128.Idx), (b 0).val = 1024 * (L 1).val + 512 * (L 0).val + 128 * (3 : Fin 4).val + (z 0).val → (b 1).val = (z 1).val → (tile_run.sl.gather13 d L X5 X24 X25 hr7) z = (gathE d X5 X24 1) b :=
    fun z b hb0 hb1 => payE_val d L 1 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 7 rfl inb_S20x128_S1x128_7_0 rfl (hr7 _) z b hb0 hb1
  ihave Ho1_3' := (Entails.of_eq (pointsTo_congr (win1_val d L 3 3#32 rfl (k1_off3_inb L 3) Y1 (tile_run.sl.dma0_12 d L X5 X24 X25 fb hr1 hr3 hr5 hr7) (gathE d X5 X24 1)
    (fun z b hb0 hb1 => (s1_1_3 z).trans (s2_1_3 z b hb0 hb1))))) $$ Ho1_3
  have s1_2_0 : ∀ z, (tile_run.sl.dma0_13 d L X5 X24 X25 fa hr0 hr2 hr4 hr6 hr8) z = (tile_run.sl.gather15 d L X5 X24 X25 hr8) z := fun z => read_rowsBuf d L sA fa _ _ z
  have s2_2_0 : ∀ (z : S128x128.Idx) (b : S16384x128.Idx), (b 0).val = 1024 * (L 1).val + 512 * (L 0).val + 128 * (0 : Fin 4).val + (z 0).val → (b 1).val = (z 1).val → (tile_run.sl.gather15 d L X5 X24 X25 hr8) z = (gathE d X5 X24 2) b :=
    fun z b hb0 hb1 => payE_val d L 2 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 8 rfl inb_S20x128_S1x128_8_0 rfl (hr8 _) z b hb0 hb1
  ihave Ho2_0' := (Entails.of_eq (pointsTo_congr (win2_val d L 0 0#32 rfl (k1_off3_inb L 0) Y2 (tile_run.sl.dma0_13 d L X5 X24 X25 fa hr0 hr2 hr4 hr6 hr8) (gathE d X5 X24 2)
    (fun z b hb0 hb1 => (s1_2_0 z).trans (s2_2_0 z b hb0 hb1))))) $$ Ho2_0
  have s1_2_1 : ∀ z, (tile_run.sl.dma0_14 d L X5 X24 X25 fb hr1 hr3 hr5 hr7 hr9) z = (tile_run.sl.gather17 d L X5 X24 X25 hr9) z := fun z => read_rowsBuf d L sB fb _ _ z
  have s2_2_1 : ∀ (z : S128x128.Idx) (b : S16384x128.Idx), (b 0).val = 1024 * (L 1).val + 512 * (L 0).val + 128 * (1 : Fin 4).val + (z 0).val → (b 1).val = (z 1).val → (tile_run.sl.gather17 d L X5 X24 X25 hr9) z = (gathE d X5 X24 2) b :=
    fun z b hb0 hb1 => payE_val d L 2 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 9 rfl inb_S20x128_S1x128_9_0 rfl (hr9 _) z b hb0 hb1
  ihave Ho2_1' := (Entails.of_eq (pointsTo_congr (win2_val d L 1 1#32 rfl (k1_off3_inb L 1) Y2 (tile_run.sl.dma0_14 d L X5 X24 X25 fb hr1 hr3 hr5 hr7 hr9) (gathE d X5 X24 2)
    (fun z b hb0 hb1 => (s1_2_1 z).trans (s2_2_1 z b hb0 hb1))))) $$ Ho2_1
  have s1_2_2 : ∀ z, (tile_run.sl.dma0_15 d L X5 X24 X25 fa hr0 hr2 hr4 hr6 hr8 hr10) z = (tile_run.sl.gather19 d L X5 X24 X25 hr10) z := fun z => read_rowsBuf d L sA fa _ _ z
  have s2_2_2 : ∀ (z : S128x128.Idx) (b : S16384x128.Idx), (b 0).val = 1024 * (L 1).val + 512 * (L 0).val + 128 * (2 : Fin 4).val + (z 0).val → (b 1).val = (z 1).val → (tile_run.sl.gather19 d L X5 X24 X25 hr10) z = (gathE d X5 X24 2) b :=
    fun z b hb0 hb1 => payE_val d L 2 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 10 rfl inb_S20x128_S1x128_10_0 rfl (hr10 _) z b hb0 hb1
  ihave Ho2_2' := (Entails.of_eq (pointsTo_congr (win2_val d L 2 2#32 rfl (k1_off3_inb L 2) Y2 (tile_run.sl.dma0_15 d L X5 X24 X25 fa hr0 hr2 hr4 hr6 hr8 hr10) (gathE d X5 X24 2)
    (fun z b hb0 hb1 => (s1_2_2 z).trans (s2_2_2 z b hb0 hb1))))) $$ Ho2_2
  have s1_2_3 : ∀ z, (tile_run.sl.dma0_16 d L X5 X24 X25 fb hr1 hr3 hr5 hr7 hr9 hr11) z = (tile_run.sl.gather21 d L X5 X24 X25 hr11) z := fun z => read_rowsBuf d L sB fb _ _ z
  have s2_2_3 : ∀ (z : S128x128.Idx) (b : S16384x128.Idx), (b 0).val = 1024 * (L 1).val + 512 * (L 0).val + 128 * (3 : Fin 4).val + (z 0).val → (b 1).val = (z 1).val → (tile_run.sl.gather21 d L X5 X24 X25 hr11) z = (gathE d X5 X24 2) b :=
    fun z b hb0 hb1 => payE_val d L 2 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 11 rfl inb_S20x128_S1x128_11_0 rfl (hr11 _) z b hb0 hb1
  ihave Ho2_3' := (Entails.of_eq (pointsTo_congr (win2_val d L 3 3#32 rfl (k1_off3_inb L 3) Y2 (tile_run.sl.dma0_16 d L X5 X24 X25 fb hr1 hr3 hr5 hr7 hr9 hr11) (gathE d X5 X24 2)
    (fun z b hb0 hb1 => (s1_2_3 z).trans (s2_2_3 z b hb0 hb1))))) $$ Ho2_3
  have s1_3_0 : ∀ z, (tile_run.sl.dma0_17 d L X5 X24 X25 fa hr0 hr2 hr4 hr6 hr8 hr10 hr12) z = (tile_run.sl.gather23 d L X5 X24 X25 hr12) z := fun z => read_rowsBuf d L sA fa _ _ z
  have s2_3_0 : ∀ (z : S128x128.Idx) (b : S16384x128.Idx), (b 0).val = 1024 * (L 1).val + 512 * (L 0).val + 128 * (0 : Fin 4).val + (z 0).val → (b 1).val = (z 1).val → (tile_run.sl.gather23 d L X5 X24 X25 hr12) z = (gathE d X5 X24 3) b :=
    fun z b hb0 hb1 => payE_val d L 3 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 12 rfl inb_S20x128_S1x128_12_0 rfl (hr12 _) z b hb0 hb1
  ihave Ho3_0' := (Entails.of_eq (pointsTo_congr (win3_val d L 0 0#32 rfl (k1_off3_inb L 0) Y3 (tile_run.sl.dma0_17 d L X5 X24 X25 fa hr0 hr2 hr4 hr6 hr8 hr10 hr12) (gathE d X5 X24 3)
    (fun z b hb0 hb1 => (s1_3_0 z).trans (s2_3_0 z b hb0 hb1))))) $$ Ho3_0
  have s1_3_1 : ∀ z, (tile_run.sl.dma0_18 d L X5 X24 X25 fb hr1 hr3 hr5 hr7 hr9 hr11 hr13) z = (tile_run.sl.gather25 d L X5 X24 X25 hr13) z := fun z => read_rowsBuf d L sB fb _ _ z
  have s2_3_1 : ∀ (z : S128x128.Idx) (b : S16384x128.Idx), (b 0).val = 1024 * (L 1).val + 512 * (L 0).val + 128 * (1 : Fin 4).val + (z 0).val → (b 1).val = (z 1).val → (tile_run.sl.gather25 d L X5 X24 X25 hr13) z = (gathE d X5 X24 3) b :=
    fun z b hb0 hb1 => payE_val d L 3 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 13 rfl inb_S20x128_S1x128_13_0 rfl (hr13 _) z b hb0 hb1
  ihave Ho3_1' := (Entails.of_eq (pointsTo_congr (win3_val d L 1 1#32 rfl (k1_off3_inb L 1) Y3 (tile_run.sl.dma0_18 d L X5 X24 X25 fb hr1 hr3 hr5 hr7 hr9 hr11 hr13) (gathE d X5 X24 3)
    (fun z b hb0 hb1 => (s1_3_1 z).trans (s2_3_1 z b hb0 hb1))))) $$ Ho3_1
  have s1_3_2 : ∀ z, (tile_run.sl.dma0_19 d L X5 X24 X25 fa hr0 hr2 hr4 hr6 hr8 hr10 hr12 hr14) z = (tile_run.sl.gather27 d L X5 X24 X25 hr14) z := fun z => read_rowsBuf d L sA fa _ _ z
  have s2_3_2 : ∀ (z : S128x128.Idx) (b : S16384x128.Idx), (b 0).val = 1024 * (L 1).val + 512 * (L 0).val + 128 * (2 : Fin 4).val + (z 0).val → (b 1).val = (z 1).val → (tile_run.sl.gather27 d L X5 X24 X25 hr14) z = (gathE d X5 X24 3) b :=
    fun z b hb0 hb1 => payE_val d L 3 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 14 rfl inb_S20x128_S1x128_14_0 rfl (hr14 _) z b hb0 hb1
  ihave Ho3_2' := (Entails.of_eq (pointsTo_congr (win3_val d L 2 2#32 rfl (k1_off3_inb L 2) Y3 (tile_run.sl.dma0_19 d L X5 X24 X25 fa hr0 hr2 hr4 hr6 hr8 hr10 hr12 hr14) (gathE d X5 X24 3)
    (fun z b hb0 hb1 => (s1_3_2 z).trans (s2_3_2 z b hb0 hb1))))) $$ Ho3_2
  have s1_3_3 : ∀ z, (tile_run.sl.dma0_20 d L X5 X24 X25 fb hr1 hr3 hr5 hr7 hr9 hr11 hr13 hr15) z = (tile_run.sl.gather29 d L X5 X24 X25 hr15) z := fun z => read_rowsBuf d L sB fb _ _ z
  have s2_3_3 : ∀ (z : S128x128.Idx) (b : S16384x128.Idx), (b 0).val = 1024 * (L 1).val + 512 * (L 0).val + 128 * (3 : Fin 4).val + (z 0).val → (b 1).val = (z 1).val → (tile_run.sl.gather29 d L X5 X24 X25 hr15) z = (gathE d X5 X24 3) b :=
    fun z b hb0 hb1 => payE_val d L 3 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 15 rfl inb_S20x128_S1x128_15_0 rfl (hr15 _) z b hb0 hb1
  ihave Ho3_3' := (Entails.of_eq (pointsTo_congr (win3_val d L 3 3#32 rfl (k1_off3_inb L 3) Y3 (tile_run.sl.dma0_20 d L X5 X24 X25 fb hr1 hr3 hr5 hr7 hr9 hr11 hr13 hr15) (gathE d X5 X24 3)
    (fun z b hb0 hb1 => (s1_3_3 z).trans (s2_3_3 z b hb0 hb1))))) $$ Ho3_3
  have s1_4_0 : ∀ z, (tile_run.sl.dma0_21 d L X5 X6 X24 X25 fa hr0 hr2 hr4 hr6 hr8 hr10 hr12 hr14 hr16) z = (tile_run.sl.gather31 d L X6 X24 X25 hr16) z := fun z => read_rowsBuf d L sA fa _ _ z
  have s2_4_0 : ∀ (z : S128x128.Idx) (b : S16384x128.Idx), (b 0).val = 1024 * (L 1).val + 512 * (L 0).val + 128 * (0 : Fin 4).val + (z 0).val → (b 1).val = (z 1).val → (tile_run.sl.gather31 d L X6 X24 X25 hr16) z = (gathR d X6 X25) b :=
    fun z b hb0 hb1 => payR_val d L 0 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 16 rfl inb_S20x128_S1x128_16_0 rfl (hr16 _) z b hb0 hb1
  ihave Ho4_0' := (Entails.of_eq (pointsTo_congr (win4_val d L 0 0#32 rfl (k1_off3_inb L 0) Y4 (tile_run.sl.dma0_21 d L X5 X6 X24 X25 fa hr0 hr2 hr4 hr6 hr8 hr10 hr12 hr14 hr16) (gathR d X6 X25)
    (fun z b hb0 hb1 => (s1_4_0 z).trans (s2_4_0 z b hb0 hb1))))) $$ Ho4_0
  have s1_4_1 : ∀ z, (tile_run.sl.dma0_22 d L X5 X6 X24 X25 fb hr1 hr3 hr5 hr7 hr9 hr11 hr13 hr15 hr17) z = (tile_run.sl.gather33 d L X6 X24 X25 hr17) z := fun z => read_rowsBuf d L sB fb _ _ z
  have s2_4_1 : ∀ (z : S128x128.Idx) (b : S16384x128.Idx), (b 0).val = 1024 * (L 1).val + 512 * (L 0).val + 128 * (1 : Fin 4).val + (z 0).val → (b 1).val = (z 1).val → (tile_run.sl.gather33 d L X6 X24 X25 hr17) z = (gathR d X6 X25) b :=
    fun z b hb0 hb1 => payR_val d L 1 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 17 rfl inb_S20x128_S1x128_17_0 rfl (hr17 _) z b hb0 hb1
  ihave Ho4_1' := (Entails.of_eq (pointsTo_congr (win4_val d L 1 1#32 rfl (k1_off3_inb L 1) Y4 (tile_run.sl.dma0_22 d L X5 X6 X24 X25 fb hr1 hr3 hr5 hr7 hr9 hr11 hr13 hr15 hr17) (gathR d X6 X25)
    (fun z b hb0 hb1 => (s1_4_1 z).trans (s2_4_1 z b hb0 hb1))))) $$ Ho4_1
  have s1_4_2 : ∀ z, (tile_run.sl.dma0_23 d L X5 X6 X24 X25 fa hr0 hr2 hr4 hr6 hr8 hr10 hr12 hr14 hr16 hr18) z = (tile_run.sl.gather35 d L X6 X24 X25 hr18) z := fun z => read_rowsBuf d L sA fa _ _ z
  have s2_4_2 : ∀ (z : S128x128.Idx) (b : S16384x128.Idx), (b 0).val = 1024 * (L 1).val + 512 * (L 0).val + 128 * (2 : Fin 4).val + (z 0).val → (b 1).val = (z 1).val → (tile_run.sl.gather35 d L X6 X24 X25 hr18) z = (gathR d X6 X25) b :=
    fun z b hb0 hb1 => payR_val d L 2 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 18 rfl inb_S20x128_S1x128_18_0 rfl (hr18 _) z b hb0 hb1
  ihave Ho4_2' := (Entails.of_eq (pointsTo_congr (win4_val d L 2 2#32 rfl (k1_off3_inb L 2) Y4 (tile_run.sl.dma0_23 d L X5 X6 X24 X25 fa hr0 hr2 hr4 hr6 hr8 hr10 hr12 hr14 hr16 hr18) (gathR d X6 X25)
    (fun z b hb0 hb1 => (s1_4_2 z).trans (s2_4_2 z b hb0 hb1))))) $$ Ho4_2
  have s1_4_3 : ∀ z, (tile_run.sl.dma0_24 d L X5 X6 X24 X25 fb hr1 hr3 hr5 hr7 hr9 hr11 hr13 hr15 hr17 hr19) z = (tile_run.sl.gather37 d L X6 X24 X25 hr19) z := fun z => read_rowsBuf d L sB fb _ _ z
  have s2_4_3 : ∀ (z : S128x128.Idx) (b : S16384x128.Idx), (b 0).val = 1024 * (L 1).val + 512 * (L 0).val + 128 * (3 : Fin 4).val + (z 0).val → (b 1).val = (z 1).val → (tile_run.sl.gather37 d L X6 X24 X25 hr19) z = (gathR d X6 X25) b :=
    fun z b hb0 hb1 => payR_val d L 3 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 19 rfl inb_S20x128_S1x128_19_0 rfl (hr19 _) z b hb0 hb1
  ihave Ho4_3' := (Entails.of_eq (pointsTo_congr (win4_val d L 3 3#32 rfl (k1_off3_inb L 3) Y4 (tile_run.sl.dma0_24 d L X5 X6 X24 X25 fb hr1 hr3 hr5 hr7 hr9 hr11 hr13 hr15 hr17 hr19) (gathR d X6 X25)
    (fun z b hb0 hb1 => (s1_4_3 z).trans (s2_4_3 z b hb0 hb1))))) $$ Ho4_3
  sl_step
  sl_close

end Tile

/-! ## The task, from what the launch deals the tile to what it hands back -/

section Body

variable [FloatOps F]
variable (d : Dev nD) (L : grid1.Coords)

set_option maxHeartbeats 4000000 in
/-- The operands as the vector subcore addresses them (the same assertion: the arrays are the TensorCore's). -/
def tileGoX (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) : sProp 𝕄 :=
  iprop(((eV).view.loc (VT d L) ↦{q} X5)
      ∗ ((rV).view.loc (VT d L) ↦{q} X6)
      ∗ ((aV).view.loc (VT d L) ↦{q} X24)
      ∗ ((bV).view.loc (VT d L) ↦{q} X25)
      ∗ ((oC0_0 L).view.loc (VT d L) ↦[(oC0_0 L).view.set]{fullShare} Y0)
      ∗ ((oC0_1 L).view.loc (VT d L) ↦[(oC0_1 L).view.set]{fullShare} Y0)
      ∗ ((oC0_2 L).view.loc (VT d L) ↦[(oC0_2 L).view.set]{fullShare} Y0)
      ∗ ((oC0_3 L).view.loc (VT d L) ↦[(oC0_3 L).view.set]{fullShare} Y0)
      ∗ ((oC1_0 L).view.loc (VT d L) ↦[(oC1_0 L).view.set]{fullShare} Y1)
      ∗ ((oC1_1 L).view.loc (VT d L) ↦[(oC1_1 L).view.set]{fullShare} Y1)
      ∗ ((oC1_2 L).view.loc (VT d L) ↦[(oC1_2 L).view.set]{fullShare} Y1)
      ∗ ((oC1_3 L).view.loc (VT d L) ↦[(oC1_3 L).view.set]{fullShare} Y1)
      ∗ ((oC2_0 L).view.loc (VT d L) ↦[(oC2_0 L).view.set]{fullShare} Y2)
      ∗ ((oC2_1 L).view.loc (VT d L) ↦[(oC2_1 L).view.set]{fullShare} Y2)
      ∗ ((oC2_2 L).view.loc (VT d L) ↦[(oC2_2 L).view.set]{fullShare} Y2)
      ∗ ((oC2_3 L).view.loc (VT d L) ↦[(oC2_3 L).view.set]{fullShare} Y2)
      ∗ ((oC3_0 L).view.loc (VT d L) ↦[(oC3_0 L).view.set]{fullShare} Y3)
      ∗ ((oC3_1 L).view.loc (VT d L) ↦[(oC3_1 L).view.set]{fullShare} Y3)
      ∗ ((oC3_2 L).view.loc (VT d L) ↦[(oC3_2 L).view.set]{fullShare} Y3)
      ∗ ((oC3_3 L).view.loc (VT d L) ↦[(oC3_3 L).view.set]{fullShare} Y3)
      ∗ ((oC4_0 L).view.loc (VT d L) ↦[(oC4_0 L).view.set]{fullShare} Y4)
      ∗ ((oC4_1 L).view.loc (VT d L) ↦[(oC4_1 L).view.set]{fullShare} Y4)
      ∗ ((oC4_2 L).view.loc (VT d L) ↦[(oC4_2 L).view.set]{fullShare} Y4)
      ∗ ((oC4_3 L).view.loc (VT d L) ↦[(oC4_3 L).view.set]{fullShare} Y4))
set_option maxHeartbeats 4000000 in
def tileTdX (q : PosShare TreeShare) (X5 : Buf (Elt F) (eLoc d)) (X6 : Buf (Elt F) (rLoc d)) (X24 : Buf (Elt F) (aLoc d)) (X25 : Buf (Elt F) (bLoc d)) : sProp 𝕄 :=
  iprop(((eV).view.loc (VT d L) ↦{q} X5)
      ∗ ((rV).view.loc (VT d L) ↦{q} X6)
      ∗ ((aV).view.loc (VT d L) ↦{q} X24)
      ∗ ((bV).view.loc (VT d L) ↦{q} X25)
      ∗ ((oC0_0 L).view.loc (VT d L) ↦[(oC0_0 L).view.set]{fullShare} gathE d X5 X24 0)
      ∗ ((oC0_1 L).view.loc (VT d L) ↦[(oC0_1 L).view.set]{fullShare} gathE d X5 X24 0)
      ∗ ((oC0_2 L).view.loc (VT d L) ↦[(oC0_2 L).view.set]{fullShare} gathE d X5 X24 0)
      ∗ ((oC0_3 L).view.loc (VT d L) ↦[(oC0_3 L).view.set]{fullShare} gathE d X5 X24 0)
      ∗ ((oC1_0 L).view.loc (VT d L) ↦[(oC1_0 L).view.set]{fullShare} gathE d X5 X24 1)
      ∗ ((oC1_1 L).view.loc (VT d L) ↦[(oC1_1 L).view.set]{fullShare} gathE d X5 X24 1)
      ∗ ((oC1_2 L).view.loc (VT d L) ↦[(oC1_2 L).view.set]{fullShare} gathE d X5 X24 1)
      ∗ ((oC1_3 L).view.loc (VT d L) ↦[(oC1_3 L).view.set]{fullShare} gathE d X5 X24 1)
      ∗ ((oC2_0 L).view.loc (VT d L) ↦[(oC2_0 L).view.set]{fullShare} gathE d X5 X24 2)
      ∗ ((oC2_1 L).view.loc (VT d L) ↦[(oC2_1 L).view.set]{fullShare} gathE d X5 X24 2)
      ∗ ((oC2_2 L).view.loc (VT d L) ↦[(oC2_2 L).view.set]{fullShare} gathE d X5 X24 2)
      ∗ ((oC2_3 L).view.loc (VT d L) ↦[(oC2_3 L).view.set]{fullShare} gathE d X5 X24 2)
      ∗ ((oC3_0 L).view.loc (VT d L) ↦[(oC3_0 L).view.set]{fullShare} gathE d X5 X24 3)
      ∗ ((oC3_1 L).view.loc (VT d L) ↦[(oC3_1 L).view.set]{fullShare} gathE d X5 X24 3)
      ∗ ((oC3_2 L).view.loc (VT d L) ↦[(oC3_2 L).view.set]{fullShare} gathE d X5 X24 3)
      ∗ ((oC3_3 L).view.loc (VT d L) ↦[(oC3_3 L).view.set]{fullShare} gathE d X5 X24 3)
      ∗ ((oC4_0 L).view.loc (VT d L) ↦[(oC4_0 L).view.set]{fullShare} gathR d X6 X25)
      ∗ ((oC4_1 L).view.loc (VT d L) ↦[(oC4_1 L).view.set]{fullShare} gathR d X6 X25)
      ∗ ((oC4_2 L).view.loc (VT d L) ↦[(oC4_2 L).view.set]{fullShare} gathR d X6 X25)
      ∗ ((oC4_3 L).view.loc (VT d L) ↦[(oC4_3 L).view.set]{fullShare} gathR d X6 X25))

set_option maxHeartbeats 4000000 in
omit [FloatOps F] in
theorem tileGo_eq (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    tileGo d L q X5 X6 X24 X25 Y0 Y1 Y2 Y3 Y4 = tileGoX d L q X5 X6 X24 X25 Y0 Y1 Y2 Y3 Y4 := rfl
set_option maxHeartbeats 4000000 in
omit [FloatOps F] in
theorem tileTd_eq (q : PosShare TreeShare) (X5 : Buf (Elt F) (eLoc d)) (X6 : Buf (Elt F) (rLoc d)) (X24 : Buf (Elt F) (aLoc d)) (X25 : Buf (Elt F) (bLoc d)) :
    tileTd d L q X5 X6 X24 X25 = tileTdX d L q X5 X6 X24 X25 := rfl

omit [FloatOps F] in
/-- A wait index of a program with one SparseCore call is no call's or call 0's. -/
theorem hix_cases (x : HIx 1) : x = none ∨ x = some (0 : Fin 1) := by
  cases x with
  | none => exact .inl rfl
  | some r => exact .inr (congrArg some (Fin.fin_one_eq_zero r))

omit [FloatOps F] in
theorem pts_sI (f : Buf (Elt F) ((VT d L).loc cc1_scratch0)) :
    ((VT d L).loc cc1_scratch0 ↦{fullShare} f : sProp 𝕄) = ((sI).view.loc (VT d L) ↦{fullShare} f) := rfl
omit [FloatOps F] in
theorem pts_sA (f : Buf (Elt F) ((VT d L).loc cc1_scratch1)) :
    ((VT d L).loc cc1_scratch1 ↦{fullShare} f : sProp 𝕄) = ((sA).view.loc (VT d L) ↦{fullShare} f) := rfl
omit [FloatOps F] in
theorem pts_sB (f : Buf (Elt F) ((VT d L).loc cc1_scratch2)) :
    ((VT d L).loc cc1_scratch2 ↦{fullShare} f : sProp 𝕄) = ((sB).view.loc (VT d L) ↦{fullShare} f) := rfl

set_option maxHeartbeats 4000000 in
set_option maxRecDepth 16384 in
/-- The task on the vector subcore at `L` of device `d`: the operands back, each window of a result at the gathered rows. `X` is whatever else the launch hands the thread; the kernel
    does not use it. -/
theorem _root_.Cert.Proof.KI.tile_body (hF : (K (F := F)).Facts) (X : sProp 𝕄) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0) :
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(tileTd d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V,
    tileGo_eq, tileTd_eq]
  unfold tileGoX tileTdX
  iintro ⟨#Hlv, -, ⟨He, Hr, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3⟩, ⟨⟨%fi, Hsi⟩, ⟨%fa, Hsa⟩, ⟨%fb, Hsb⟩, Hbufs⟩, ⟨⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26⟩, Hsems⟩, HO⟩
  ihave Hmw := (show levAts (K (F := F)).L (K (F := F)).lev ⊢ Transfers.MayWaits (VT d L) (default : HIx 1) O from
    (K (F := F)).mayWaits_none (thr := VT d L) hO) $$ Hlv
  -- each table under two read shares: two gathers of one table are in flight at once
  ihave He' := (pointsTo_share (PosShare.mem_left_op_right q)).1 $$ He
  icases He' with ⟨He0, He1⟩
  ihave Hr' := (pointsTo_share (PosShare.mem_left_op_right q)).1 $$ Hr
  icases Hr' with ⟨Hr0, Hr1⟩
  ihave Hsi' := (Entails.of_eq (pts_sI (F := F) d L fi)) $$ Hsi
  ihave Hsa' := (Entails.of_eq (pts_sA (F := F) d L fa)) $$ Hsa
  ihave Hsb' := (Entails.of_eq (pts_sB (F := F) d L fb)) $$ Hsb
  iapply (wp_wand_r Idealize.ShloMosaic.frame (wpE (defs₀ (F := F)) 𝒱₀ (VT d L) none) Set.univ)
  isplitl [He0 He1 Hr0 Hr1 Ha Hb Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3 Hsi' Hsa' Hsb' Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 HO]
  · iapply (tile_run d L q X5 X6 X24 X25 Y0 Y1 Y2 Y3 Y4 fi fa fb h24 h25 O W)
    isplitr; · iexact Hmw
    isplitl [He0]; · iexact He0
    isplitl [He1]; · iexact He1
    isplitl [Hr0]; · iexact Hr0
    isplitl [Hr1]; · iexact Hr1
    isplitl [Ha]; · iexact Ha
    isplitl [Hb]; · iexact Hb
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    isplitl [Ho4_3]; · iexact Ho4_3
    isplitl [Hsi']; · iexact Hsi'
    isplitl [Hsa']; · iexact Hsa'
    isplitl [Hsb']; · iexact Hsb'
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    iexact HO
  iintro %_ ⟨He0, He1, Hr0, Hr1, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, ⟨%gi, Hsi⟩, ⟨%ga, Hsa⟩, ⟨%gb, Hsb⟩, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, ⟨%W', HO⟩⟩
  ihave He := (pointsTo_share (PosShare.mem_left_op_right q)).2 $$ [He0 He1]
  · isplitl [He0] <;> iassumption
  ihave Hr := (pointsTo_share (PosShare.mem_left_op_right q)).2 $$ [Hr0 Hr1]
  · isplitl [Hr0] <;> iassumption
  isplitl [He Hr Ha Hb Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3]
  · isplitl [He]; · iexact He
    isplitl [Hr]; · iexact Hr
    isplitl [Ha]; · iexact Ha
    isplitl [Hb]; · iexact Hb
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    iexact Ho4_3
  isplitl [Hsi Hsa Hsb Hbufs]
  · isplitl [Hsi]; · iexists gi; iapply (Entails.of_eq (pts_sI (F := F) d L gi).symm); iexact Hsi
    isplitl [Hsa]; · iexists ga; iapply (Entails.of_eq (pts_sA (F := F) d L ga).symm); iexact Hsa
    isplitl [Hsb]; · iexists gb; iapply (Entails.of_eq (pts_sB (F := F) d L gb).symm); iexact Hsb
    iexact Hbufs
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hsems]
  · isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      iexact Hc26
    iexact Hsems
  iexists W'; isplitr
  · ipureintro; exact fun p _ => Or.inr (hix_cases p.2)
  · iexact HO

end Body

section Frame

variable [FloatOps F]
variable (d : Dev nD) (L : grid1.Coords)

omit [FloatOps F] in
/-- What the tile hands back, its windows' contents forgotten. -/
theorem tileTd_frame (q : PosShare TreeShare) (X5 : Buf (Elt F) (eLoc d)) (X6 : Buf (Elt F) (rLoc d)) (X24 : Buf (Elt F) (aLoc d)) (X25 : Buf (Elt F) (bLoc d)) :
    tileTd d L q X5 X6 X24 X25 ⊢ tileTdF d L q X5 X6 X24 X25 := by
  unfold tileTd tileTdF
  iintro ⟨He, Hr, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3⟩
  isplitl [He]; · iexact He
  isplitl [Hr]; · iexact Hr
  isplitl [Ha]; · iexact Ha
  isplitl [Hb]; · iexact Hb
  isplitl [Ho0_0]; · iexists _; iexact Ho0_0
  isplitl [Ho0_1]; · iexists _; iexact Ho0_1
  isplitl [Ho0_2]; · iexists _; iexact Ho0_2
  isplitl [Ho0_3]; · iexists _; iexact Ho0_3
  isplitl [Ho1_0]; · iexists _; iexact Ho1_0
  isplitl [Ho1_1]; · iexists _; iexact Ho1_1
  isplitl [Ho1_2]; · iexists _; iexact Ho1_2
  isplitl [Ho1_3]; · iexists _; iexact Ho1_3
  isplitl [Ho2_0]; · iexists _; iexact Ho2_0
  isplitl [Ho2_1]; · iexists _; iexact Ho2_1
  isplitl [Ho2_2]; · iexists _; iexact Ho2_2
  isplitl [Ho2_3]; · iexists _; iexact Ho2_3
  isplitl [Ho3_0]; · iexists _; iexact Ho3_0
  isplitl [Ho3_1]; · iexists _; iexact Ho3_1
  isplitl [Ho3_2]; · iexists _; iexact Ho3_2
  isplitl [Ho3_3]; · iexists _; iexact Ho3_3
  isplitl [Ho4_0]; · iexists _; iexact Ho4_0
  isplitl [Ho4_1]; · iexists _; iexact Ho4_1
  isplitl [Ho4_2]; · iexists _; iexact Ho4_2
  iexists _; iexact Ho4_3

/-- The frame form of the task. -/
theorem _root_.Cert.Proof.KI.tile_bodyF (hF : (K (F := F)).Facts) (X : sProp 𝕄) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0) :
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(tileTdF d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W') :=
  (tile_body d L hF X q X5 X6 X24 X25 Y0 Y1 Y2 Y3 Y4 h24 h25 O W hO).trans
    (wp_mono Idealize.ShloMosaic.frame _ _ fun _ => sep_mono_left (tileTd_frame d L q X5 X6 X24 X25))

end Frame

end Tile

end Cert.Proof.KI

end
-- ==== Proof.LibFinite.lean ====
/-
  Finiteness of arrays of extended reals through the operations of a layered network.

  In the extended reals the distributive law x·(a + b) = x·a + x·b fails at the infinities, and holds whenever
  x, a and b are real numbers. This file says what it means for an extended real, and for every entry of an array, to be
  a real number, and shows that the property passes from the operands to the result of each operation the network uses:
  sums, products, maxima, finite sums, matrix products, re-indexings (broadcasts, reshapes, gathers, selections),
  accumulating scatters, and a quotient by a real number that is at least one.
-/
import Idealize.ShloMosaic.PureOps.Ideal
import Idealize.ShloMosaic.PureOps.Ideal.Laws
import Idealize.ShloMosaic.Lib.ValueIdx
import Idealize.ShloMosaic.Lib.IdealHost
import Mathlib.Data.EReal.Basic
import Mathlib.Data.EReal.Operations
import Mathlib.Data.EReal.Inv
import Mathlib.Algebra.BigOperators.Group.Finset.Basic

noncomputable section

open scoped BigOperators

namespace Cert.Fin

open Idealize.ShloMosaic Idealize.ShloMosaic.ValueIdx

/-! ### Scalars -/

/-- An extended real is finite when it is neither infinity: it is a real number. -/
def IsFin (x : EReal) : Prop := x ≠ ⊤ ∧ x ≠ ⊥

/-- Finite means: the image of a real number. -/
theorem isFin_iff (x : EReal) : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

theorem IsFin.coe (r : ℝ) : IsFin (r : EReal) := ⟨EReal.coe_ne_top r, EReal.coe_ne_bot r⟩

theorem IsFin.zero : IsFin (0 : EReal) := by
  rw [← EReal.coe_zero]; exact IsFin.coe 0

theorem IsFin.one : IsFin (1 : EReal) := by
  rw [← EReal.coe_one]; exact IsFin.coe 1

/-- The sum of two real numbers is a real number. -/
theorem IsFin.add {x y : EReal} (hx : IsFin x) (hy : IsFin y) : IsFin (x + y) := by
  obtain ⟨r, rfl⟩ := (isFin_iff x).1 hx
  obtain ⟨s, rfl⟩ := (isFin_iff y).1 hy
  rw [← EReal.coe_add]; exact IsFin.coe _

/-- The product of two real numbers is a real number. -/
theorem IsFin.mul {x y : EReal} (hx : IsFin x) (hy : IsFin y) : IsFin (x * y) := by
  obtain ⟨r, rfl⟩ := (isFin_iff x).1 hx
  obtain ⟨s, rfl⟩ := (isFin_iff y).1 hy
  rw [← EReal.coe_mul]; exact IsFin.coe _

/-- The greater of two real numbers is one of them. -/
theorem IsFin.max {x y : EReal} (hx : IsFin x) (hy : IsFin y) : IsFin (max x y) := by
  rcases max_choice x y with h | h <;> rw [h] <;> assumption

/-- A finite sum of real numbers is a real number. -/
theorem IsFin.sum {ι : Type*} (s : Finset ι) (f : ι → EReal) (h : ∀ i ∈ s, IsFin (f i)) : IsFin (∑ i ∈ s, f i) := by
  classical
  induction s using Finset.induction_on with
  | empty => rw [Finset.sum_empty]; exact IsFin.zero
  | insert a s ha ih =>
    rw [Finset.sum_insert ha]
    exact IsFin.add (h a (Finset.mem_insert_self a s)) (ih fun i hi => h i (Finset.mem_insert_of_mem hi))

/-- THE DISTRIBUTIVE LAW, where all three are real numbers. -/
theorem mul_add_of_isFin {x a b : EReal} (hx : IsFin x) (ha : IsFin a) (hb : IsFin b) :
    x * (a + b) = x * a + x * b := by
  obtain ⟨r, rfl⟩ := (isFin_iff x).1 hx
  obtain ⟨s, rfl⟩ := (isFin_iff a).1 ha
  obtain ⟨t, rfl⟩ := (isFin_iff b).1 hb
  rw [← EReal.coe_add, ← EReal.coe_mul, ← EReal.coe_mul, ← EReal.coe_mul, ← EReal.coe_add, mul_add]

/-! ### Arrays -/

/-- Every entry of the array is a real number. -/
def IsFinV {s : Shape} (v : s.Idx → EReal) : Prop := ∀ i, IsFin (v i)

variable {s : Shape}

/-- An entrywise sum of finite arrays is finite. -/
theorem IsFinV.addf (a b : FVec Ideal s .f32) (ha : IsFinV a) (hb : IsFinV b) : IsFinV (addf a b) :=
  fun i => IsFin.add (ha i) (hb i)

/-- An entrywise maximum of finite arrays is finite. -/
theorem IsFinV.maximumf (a b : FVec Ideal s .f32) (ha : IsFinV a) (hb : IsFinV b) : IsFinV (maximumf a b) :=
  fun i => IsFin.max (ha i) (hb i)

/-- The array whose every entry is zero is finite. -/
theorem IsFinV.constant_zero (s : Shape) : IsFinV (constant (F := Ideal) s .f32 0x00000000#32) := by
  intro i
  rw [constant_apply, Ideal.ofBits_zero_f32]
  exact IsFin.zero

/-- The array whose every entry is one is finite. -/
theorem IsFinV.constant_one (s : Shape) : IsFinV (constant (F := Ideal) s .f32 0x3F800000#32) := by
  intro i
  rw [constant_apply, Ideal.ofBits_one_f32]
  exact IsFin.one

/-- A broadcast along axes reads, at every index, some entry of its operand. -/
theorem IsFinV.broadcastInDim {t : Shape} (dims : Fin s.rank → Fin t.rank) (h : s.BroadcastsInDim t dims)
    (x : s.Idx → EReal) (hx : IsFinV x) : IsFinV (broadcastInDim t dims h x) :=
  fun _ => hx _

/-- A reshape reads, at every index, some entry of its operand. -/
theorem IsFinV.shapeCast {t : Shape} (x : s.Idx → EReal) (h : s.ShapeCasts t) (hx : IsFinV x) :
    IsFinV (shapeCast t x h) :=
  fun _ => hx _

/-- The splat of a real number is finite. -/
theorem IsFinV.broadcast (t : Shape) {x : EReal} (hx : IsFin x) : IsFinV (broadcast t x) :=
  fun _ => hx

/-- A selection reads, at every index, the entry of one of its two operands there. -/
theorem IsFinV.select (c : IVec s 1) (a b : s.Idx → EReal) (ha : IsFinV a) (hb : IsFinV b) : IsFinV (select c a b) := by
  intro i
  rw [select_apply]
  unfold Scalar.select
  split
  · exact ha i
  · exact hb i

/-- A gather reads, at every index, some entry of its operand. -/
theorem IsFinV.gather {si t : Shape} {w : Nat} (d : GatherDims s si t) (x : s.Idx → EReal) (idx : IVec si w)
    (hx : IsFinV x) : IsFinV (Host.gather d x idx) :=
  fun _ => hx _

/-- An accumulating scatter at an index: the operand's entry plus the sum of the updates that land there. -/
theorem scatterAdd_apply {si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- An accumulating scatter of finite updates into a finite array is finite: each entry is a finite sum. -/
theorem IsFinV.scatterAdd {si u : Shape} {w : Nat} (d : ScatterDims s si u) (x : FVec Ideal s .f32) (idx : IVec si w)
    (upd : FVec Ideal u .f32) (hx : IsFinV x) (hu : IsFinV upd) : IsFinV (Host.scatterAdd d x idx upd) := by
  intro i
  rw [scatterAdd_apply]
  exact IsFin.add (hx i) (IsFin.sum _ _ fun j _ => hu j)

/-- An accumulating scatter of updates that are not negative into an array that is not negative is not negative. -/
theorem scatterAdd_ge {si u : Shape} {w : Nat} (d : ScatterDims s si u) (x : FVec Ideal s .f32) (idx : IVec si w)
    (upd : FVec Ideal u .f32) (hx : ∀ i, 0 ≤ x i) (hu : ∀ j, 0 ≤ upd j) :
    ∀ i, 0 ≤ Host.scatterAdd (F := Ideal) d x idx upd i := by
  intro i
  rw [scatterAdd_apply]
  exact add_nonneg (hx i) (Finset.sum_nonneg fun j _ => hu j)

/-- The quotient of a real number by a real number that is at least one is a real number. -/
theorem IsFin.div {x y : EReal} (hx : IsFin x) (hy : IsFin y) (h1 : (1 : EReal) ≤ y) : IsFin (Ideal.div x y) := by
  obtain ⟨r, rfl⟩ := (isFin_iff y).1 hy
  have h1r : (1 : ℝ) ≤ r := by exact_mod_cast h1
  have hr : r ≠ 0 := ne_of_gt (lt_of_lt_of_le one_pos h1r)
  rw [Ideal.div_coe hr]
  exact IsFin.mul hx (IsFin.coe _)

/-- An entrywise quotient of a finite array by a finite array whose entries are at least one is finite. -/
theorem IsFinV.divf (a b : FVec Ideal s .f32) (ha : IsFinV a) (hb : IsFinV b) (h1 : ∀ i, (1 : EReal) ≤ b i) :
    IsFinV (Host.divf a b) := by
  intro i
  rw [hostDivf_apply]
  exact IsFin.div (ha i) (hb i) (h1 i)

/-- A maximum with an array of ones is at least one everywhere. -/
theorem one_le_maximumf_of_eq_one (a b : FVec Ideal s .f32) (hb : ∀ i, b i = 1) :
    ∀ i, (1 : EReal) ≤ maximumf a b i := by
  intro i
  rw [maximumf_apply, hb i]
  exact le_max_right _ _

/-- A maximum with the constant array of ones is at least one everywhere. -/
theorem one_le_maximumf_one (a : FVec Ideal s .f32) :
    ∀ i, (1 : EReal) ≤ maximumf a (constant s .f32 0x3F800000#32) i :=
  one_le_maximumf_of_eq_one a _ fun i => by rw [constant_apply, Ideal.ofBits_one_f32]

/-- A matrix product of finite arrays is finite: each entry is a finite sum of products. -/
theorem IsFinV.dotGeneral {sl sr so : Shape} (d : DotDims sl sr so) (l : FVec Ideal sl .f32) (r : FVec Ideal sr .f32)
    (hl : IsFinV l) (hr : IsFinV r) : IsFinV (Host.dotGeneral (F := Ideal) d none l r) := by
  intro j
  show IsFin (FloatOps.dotGeneral d none .single l r j)
  rw [Ideal.dotGeneral_apply]
  exact IsFin.sum _ _ fun k _ => IsFin.mul (hl _) (hr _)

end Cert.Fin

end
-- ==== Proof.PreFacts.lean ====
/-
  What the precondition says. The printed predicate is a conjunction of seven `all`s: every entry of
  the two float tables is below `+∞` in absolute value, and every entry of each of the five index
  arrays lies between `0` and the last row of the table it indexes (`999999` for the four entity index
  arrays, `999` for the relation index array), read signed. The claim states that the predicate's one
  word is `1`; a conjunction of one-bit words is `1` exactly when each is, and an `all` is `1` exactly
  when every entry it folds is. The index conjuncts compare words and so say the same at every float
  instance; at the ideal values the float conjuncts say that every entry is a real: `max x (-x) < ⊤`
  keeps `x` off both infinities.
-/
import proofs.«205037_g73117523247527_cont_9to1c4b_608_48_alg».proof.Pre_input_domain
import proofs.«205037_g73117523247527_cont_9to1c4b_608_48_alg».proof.Proof.LibFinite
import Idealize.ShloMosaic.Lib.ReduceAll

noncomputable section

namespace Cert.Proof.PreFacts

open Idealize.ShloMosaic Cert.Pre_input_domain

/-- A shape of rank zero has one index. -/
instance : Subsingleton S_.Idx := ⟨fun _ _ => funext fun d => d.elim0⟩

/-- The one index of the predicate's result. -/
def j0 : S_.Idx := fun a => a.elim0

/-- A word between two words, as the predicate tests it: both signed comparisons hold. -/
theorem range_of_bits {w lo hi : BitVec 32}
    (h : IntOp.andi (IntOp.cmpi .sge w lo) (IntOp.cmpi .sle w hi) = 1#1) :
    lo.toInt ≤ w.toInt ∧ w.toInt ≤ hi.toInt := by
  obtain ⟨h1, h2⟩ := IntOp.andi_eq_one.1 h
  exact ⟨IntOp.cmpi_sge.1 h1, IntOp.cmpi_sle.1 h2⟩

theorem toInt_zero : (0#32 : BitVec 32).toInt = 0 := by decide
theorem toInt_999999 : (999999#32 : BitVec 32).toInt = 999999 := by decide
theorem toInt_999 : (999#32 : BitVec 32).toInt = 999 := by decide

section Generic
variable [Facts] {F : FTy → Type} [FloatOps F]
  (a0 : FVec F S1000000x64 .f32) (a1 : FVec F S1000x64 .f32)
  (a2 a3 a4 a5 a6 : IVec S16384 32)

/-- The seven conjuncts of the predicate, entry by entry. -/
theorem parts_of_pre (h : fn (F := F) a0 a1 a2 a3 a4 a5 a6 = fun _ => 1#1) :
    (∀ i, FloatOps.cmpf .olt (FloatOps.hostAbsf (a0 i)) (FloatOps.ofBits (F := F) .f32 0x7F800000#32) = 1#1) ∧
    (∀ i, FloatOps.cmpf .olt (FloatOps.hostAbsf (a1 i)) (FloatOps.ofBits (F := F) .f32 0x7F800000#32) = 1#1) ∧
    (∀ i, 0 ≤ (a2 i).toInt ∧ (a2 i).toInt ≤ 999999) ∧
    (∀ i, 0 ≤ (a3 i).toInt ∧ (a3 i).toInt ≤ 999) ∧
    (∀ i, 0 ≤ (a4 i).toInt ∧ (a4 i).toInt ≤ 999999) ∧
    (∀ i, 0 ≤ (a5 i).toInt ∧ (a5 i).toInt ≤ 999999) ∧
    (∀ i, 0 ≤ (a6 i).toInt ∧ (a6 i).toInt ≤ 999999) := by
  have e := congrFun h j0
  dsimp only [fn, fn_part1, fn_part2, andi] at e
  simp only [IntOp.andi_eq_one] at e
  obtain ⟨⟨⟨⟨⟨⟨h3, h7⟩, h14⟩, h21⟩, h28⟩, h35⟩, h42⟩ := e
  refine ⟨fun i => ?_, fun i => ?_, fun i => ?_, fun i => ?_, fun i => ?_, fun i => ?_, fun i => ?_⟩
  · exact Host.reduce_andi_all _ _ _ _ j0 h3 i
  · exact Host.reduce_andi_all _ _ _ _ j0 h7 i
  · have hr := range_of_bits (w := a2 i) (lo := 0#32) (hi := 999999#32) (Host.reduce_andi_all _ _ _ _ j0 h14 i)
    rw [toInt_zero, toInt_999999] at hr; exact hr
  · have hr := range_of_bits (w := a3 i) (lo := 0#32) (hi := 999#32) (Host.reduce_andi_all _ _ _ _ j0 h21 i)
    rw [toInt_zero, toInt_999] at hr; exact hr
  · have hr := range_of_bits (w := a4 i) (lo := 0#32) (hi := 999999#32) (Host.reduce_andi_all _ _ _ _ j0 h28 i)
    rw [toInt_zero, toInt_999999] at hr; exact hr
  · have hr := range_of_bits (w := a5 i) (lo := 0#32) (hi := 999999#32) (Host.reduce_andi_all _ _ _ _ j0 h35 i)
    rw [toInt_zero, toInt_999999] at hr; exact hr
  · have hr := range_of_bits (w := a6 i) (lo := 0#32) (hi := 999999#32) (Host.reduce_andi_all _ _ _ _ j0 h42 i)
    rw [toInt_zero, toInt_999999] at hr; exact hr

/-- The index arrays are in range: the four entity index arrays in `[0, 999999]`, the relation index
    array in `[0, 999]`. -/
theorem idx_of_pre (h : fn (F := F) a0 a1 a2 a3 a4 a5 a6 = fun _ => 1#1) :
    (∀ i, 0 ≤ (a2 i).toInt ∧ (a2 i).toInt ≤ 999999) ∧
    (∀ i, 0 ≤ (a3 i).toInt ∧ (a3 i).toInt ≤ 999) ∧
    (∀ i, 0 ≤ (a4 i).toInt ∧ (a4 i).toInt ≤ 999999) ∧
    (∀ i, 0 ≤ (a5 i).toInt ∧ (a5 i).toInt ≤ 999999) ∧
    (∀ i, 0 ≤ (a6 i).toInt ∧ (a6 i).toInt ≤ 999999) :=
  (parts_of_pre a0 a1 a2 a3 a4 a5 a6 h).2.2

end Generic

/-! ## At the ideal values: every table entry is a real -/

/-- The word `0x7F800000` is `+∞`. -/
theorem ofBits_inf : Ideal.ofBits .f32 0x7F800000#32 = ⊤ := by
  simp [Ideal.ofBits, Ideal.ieee]

/-- An extended real whose absolute value is below `+∞` is a real. -/
theorem isFin_of_abs_lt_top {x : EReal} (h : max x (-x) < ⊤) : Cert.Fin.IsFin x := by
  rw [max_lt_iff] at h
  refine ⟨h.1.ne, ?_⟩
  rintro rfl
  rw [EReal.neg_bot] at h
  exact lt_irrefl _ h.2

/-- The float conjunct at one entry, at the ideal values. -/
theorem isFin_of_bit {x : EReal}
    (h : FloatOps.cmpf (F := Ideal) (φ := .f32) .olt (FloatOps.hostAbsf (F := Ideal) (φ := .f32) x)
      (FloatOps.ofBits (F := Ideal) .f32 0x7F800000#32) = 1#1) : Cert.Fin.IsFin x := by
  have h' : BitVec.ofBool (decide (max x (-x) < Ideal.ofBits .f32 0x7F800000#32)) = 1#1 := h
  rw [ofBits_inf] at h'
  have hlt : max x (-x) < ⊤ := by
    by_contra hn
    rw [decide_eq_false hn] at h'
    exact absurd h' (by decide)
  exact isFin_of_abs_lt_top hlt

section Ideal
variable [Facts]
  (a0 : FVec Ideal S1000000x64 .f32) (a1 : FVec Ideal S1000x64 .f32)
  (a2 a3 a4 a5 a6 : IVec S16384 32)

/-- Every entry of the two float tables is a real. -/
theorem fin_of_pre (h : fn (F := Ideal) a0 a1 a2 a3 a4 a5 a6 = fun _ => 1#1) :
    (∀ i, Cert.Fin.IsFin (a0 i)) ∧ (∀ i, Cert.Fin.IsFin (a1 i)) :=
  ⟨fun i => isFin_of_bit ((parts_of_pre a0 a1 a2 a3 a4 a5 a6 h).1 i),
   fun i => isFin_of_bit ((parts_of_pre a0 a1 a2 a3 a4 a5 a6 h).2.1 i)⟩

end Ideal

end Cert.Proof.PreFacts

end
-- ==== Proof.IdxOK.lean ====
/-
  The row gather's indices name rows of the tables they index. The first host program turns every entity index into
  the row of the packed entity table that holds it and every relation index into the row of the packed relation table;
  an entity index between 0 and 999999 lands below 500000 and a relation index between 0 and 999 below 500, which are
  the two tables' row counts. The index inputs are in those ranges by the precondition, at every float instance: it
  compares words only.
-/
import proofs.«205037_g73117523247527_cont_9to1c4b_608_48_alg».proof.Proof.ChainA
import proofs.«205037_g73117523247527_cont_9to1c4b_608_48_alg».proof.Proof.IdxArith
import proofs.«205037_g73117523247527_cont_9to1c4b_608_48_alg».proof.Proof.PreFacts

noncomputable section

namespace Cert.Proof.KI

open Cert.KernelIdeal Cert.KernelIdeal.Gen
open Idealize.ShloMosaic Idealize.ShloMosaic.ValueIdx
open Cert.Proof.IdxArith
open StableHlo

variable {F : FTy → Type} [FloatOps F]

/-! ## From the inputs' ranges -/

/-- One of four arrays whose entries all lie in a range has its entries in that range. -/
theorem pick4_range {lo hi : Int} (a0 a1 a2 a3 : S16384.Idx → BitVec 32)
    (h0 : ∀ i, lo ≤ (a0 i).toInt ∧ (a0 i).toInt ≤ hi) (h1 : ∀ i, lo ≤ (a1 i).toInt ∧ (a1 i).toInt ≤ hi)
    (h2 : ∀ i, lo ≤ (a2 i).toInt ∧ (a2 i).toInt ≤ hi) (h3 : ∀ i, lo ≤ (a3 i).toInt ∧ (a3 i).toInt ≤ hi)
    (k : Fin 4) (i : S16384.Idx) : lo ≤ (pick4 a0 a1 a2 a3 k i).toInt ∧ (pick4 a0 a1 a2 a3 k i).toInt ≤ hi := by
  match k with
  | 0 => exact h0 i
  | 1 => exact h1 i
  | 2 => exact h2 i
  | 3 => exact h3 i

section Range

variable (V0 : Valuation τ sig (Elt F)) (Pk : (Proc.devRef .tc main_v5 : DevRef τ sig).ty.Contents (Elt F))

/-- Every entity-row index the gather reads is a row of the packed entity table: row `r` of the 512 rows of indices
    is row `r % 128` of input `r / 128`'s. -/
theorem v24_lt (h2 : ∀ i : S16384.Idx, 0 ≤ (V0 (Proc.devRef .tc main_arg2) i).toInt ∧ (V0 (Proc.devRef .tc main_arg2) i).toInt ≤ 999999)
    (h4 : ∀ i : S16384.Idx, 0 ≤ (V0 (Proc.devRef .tc main_arg4) i).toInt ∧ (V0 (Proc.devRef .tc main_arg4) i).toInt ≤ 999999)
    (h5 : ∀ i : S16384.Idx, 0 ≤ (V0 (Proc.devRef .tc main_arg5) i).toInt ∧ (V0 (Proc.devRef .tc main_arg5) i).toInt ≤ 999999)
    (h6 : ∀ i : S16384.Idx, 0 ≤ (V0 (Proc.devRef .tc main_arg6) i).toInt ∧ (V0 (Proc.devRef .tc main_arg6) i).toInt ≤ 999999) :
    ∀ x : S512x128.Idx, (VAof V0 Pk (Proc.devRef .tc main_v24) x).toNat < 500000 := by
  intro x
  obtain ⟨r, c, rfl⟩ : ∃ (r : Fin 512) (c : Fin 128), x = ix2 r c := ⟨x 0, x 1, eq_ix2 x⟩
  have hr := r.isLt
  rw [VAof_v24_read V0 Pk ⟨r.val / 128, by omega⟩ ⟨r.val % 128, by omega⟩ c r
    (by show r.val = 128 * (r.val / 128) + r.val % 128; omega)]
  have hw := pick4_range _ _ _ _ h2 h4 h5 h6 ⟨r.val / 128, by omega⟩
    (ix1 ⟨128 * (r.val % 128) + c.val, by have := c.isLt; omega⟩)
  exact (epair_spec _ hw.1 hw.2).1

/-- Every relation-row index the gather reads is a row of the packed relation table. -/
theorem v25_lt (h3 : ∀ i : S16384.Idx, 0 ≤ (V0 (Proc.devRef .tc main_arg3) i).toInt ∧ (V0 (Proc.devRef .tc main_arg3) i).toInt ≤ 999) :
    ∀ x : S128x128.Idx, (VAof V0 Pk (Proc.devRef .tc main_v25) x).toNat < 500 := by
  intro x
  obtain ⟨g, c, rfl⟩ : ∃ (g c : Fin 128), x = ix2 g c := ⟨x 0, x 1, eq_ix2 x⟩
  rw [VAof_v25_read V0 Pk g c]
  exact (rpair_spec _ (h3 _).1 (h3 _).2).1

end Range

/-! ## From the precondition -/

section Pre

variable [Cert.Pre_input_domain.Facts]

/-- At a launch memory whose index inputs satisfy the precondition on every device, on device `d` both index arrays
    the gather reads are in range, whatever the packing kernel left in the packed table. -/
theorem idx_ok (m : (ℓ : Loc nD τ sig) → Buf (Elt F) ℓ)
    (hfn : ∀ c : Dev nD, Cert.Pre_input_domain.fn (F := F) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) = fun _ => 1#1)
    (Pk : (d : Dev nD) → (Proc.devRef .tc main_v5 : DevRef τ sig).ty.Contents (Elt F)) (d : Dev nD) :
    (∀ x : S512x128.Idx, (VAof (launchContents m d) (Pk d) (Proc.devRef .tc main_v24) x).toNat < 500000)
      ∧ (∀ x : S128x128.Idx, (VAof (launchContents m d) (Pk d) (Proc.devRef .tc main_v25) x).toNat < 500) := by
  obtain ⟨h2, h3, h4, h5, h6⟩ := Cert.Proof.PreFacts.idx_of_pre _ _ _ _ _ _ _ (hfn d)
  exact ⟨v24_lt (launchContents m d) (Pk d) (fun i => h2 i) (fun i => h4 i) (fun i => h5 i) (fun i => h6 i),
    v25_lt (launchContents m d) (Pk d) (fun i => h3 i)⟩

end Pre

end Cert.Proof.KI

end
-- ==== Proof.GathRead.lean ====
/-
  What the row gather leaves, read at a row and a column. A result row of an entity result is the packed entity table's
  row named by an index word, taken modulo the table's height so that the function is total; where the word is below
  the height the modulus is the word itself, and the row is the table's own. Likewise for the relation result. Then the
  five results over the valuation the first host program leaves, and their reads in the form the value chain asks for.
-/
import proofs.«205037_g73117523247527_cont_9to1c4b_608_48_alg».proof.Proof.TileDefs
import proofs.«205037_g73117523247527_cont_9to1c4b_608_48_alg».proof.Proof.ChainA
import proofs.«205037_g73117523247527_cont_9to1c4b_608_48_alg».proof.Proof.HandOver

noncomputable section

namespace Cert.Proof.KI

open Cert.KernelIdeal Cert.KernelIdeal.Gen
open Idealize.ShloMosaic Idealize.ShloMosaic.ValueIdx

variable {F : FTy → Type}

/-! ## A gathered row where its index word is in range -/

/-- An entity result at row `b`, column `col`: the packed table at the row the index word names, when the word is below
    the table's height. -/
theorem gathE_apply (d : Dev nD) (X5 : Buf (Elt F) (eLoc d)) (X24 : Buf (Elt F) (aLoc d)) (k : Fin 4) (b : Fin 16384) (col : Fin 128)
    (h : BitVec.toNat (X24 (ix2 (⟨128 * k.val + b.val / 128, by have := b.isLt; have := k.isLt; omega⟩ : Fin 512) (⟨b.val % 128, by omega⟩ : Fin 128))) < 500000) :
    gathE d X5 X24 k (ix2 b col) = X5 (ix2 ⟨_, h⟩ col) := by
  unfold gathE
  refine congrArg X5 ?_
  funext a
  match a with
  | ⟨0, _⟩ =>
    apply Fin.ext
    show BitVec.toNat (X24 _) % 500000 = BitVec.toNat (X24 _)
    have e : ∀ i : (aLoc d).2.ty.shape.Idx, i = ix2 (⟨128 * k.val + b.val / 128, by have := b.isLt; have := k.isLt; omega⟩ : Fin 512) (⟨b.val % 128, by omega⟩ : Fin 128) → BitVec.toNat (X24 i) % 500000 = BitVec.toNat (X24 (ix2 (⟨128 * k.val + b.val / 128, by have := b.isLt; have := k.isLt; omega⟩ : Fin 512) (⟨b.val % 128, by omega⟩ : Fin 128))) :=
      fun i hi => by rw [hi]; exact Nat.mod_eq_of_lt h
    refine e _ ?_
    funext a'
    match a' with
    | ⟨0, _⟩ => rfl
    | ⟨1, _⟩ => rfl
  | ⟨1, _⟩ => rfl

/-- The relation result at row `b`, column `col`: the packed relation table at the row the index word names, when the
    word is below the table's height. -/
theorem gathR_apply (d : Dev nD) (X6 : Buf (Elt F) (rLoc d)) (X25 : Buf (Elt F) (bLoc d)) (b : Fin 16384) (col : Fin 128)
    (h : BitVec.toNat (X25 (ix2 (⟨b.val / 128, by have := b.isLt; omega⟩ : Fin 128) (⟨b.val % 128, by omega⟩ : Fin 128))) < 500) :
    gathR d X6 X25 (ix2 b col) = X6 (ix2 ⟨_, h⟩ col) := by
  unfold gathR
  refine congrArg X6 ?_
  funext a
  match a with
  | ⟨0, _⟩ =>
    apply Fin.ext
    show BitVec.toNat (X25 _) % 500 = BitVec.toNat (X25 _)
    have e : ∀ i : (bLoc d).2.ty.shape.Idx, i = ix2 (⟨b.val / 128, by have := b.isLt; omega⟩ : Fin 128) (⟨b.val % 128, by omega⟩ : Fin 128) → BitVec.toNat (X25 i) % 500 = BitVec.toNat (X25 (ix2 (⟨b.val / 128, by have := b.isLt; omega⟩ : Fin 128) (⟨b.val % 128, by omega⟩ : Fin 128))) :=
      fun i hi => by rw [hi]; exact Nat.mod_eq_of_lt h
    refine e _ ?_
    funext a'
    match a' with
    | ⟨0, _⟩ => rfl
    | ⟨1, _⟩ => rfl
  | ⟨1, _⟩ => rfl

/-! ## The five results over a valuation -/

/-- Entity result 0 over the buffers `VA`: gathered from the packed entity table by the first quarter of the index words. -/
def G0Of (VA : Dev nD → Valuation τ sig (Elt F)) (d : Dev nD) : Buf (Elt F) (locR0 d) := gathE d (VA d r5') (VA d r24') 0
/-- Entity result 1: by the second quarter. -/
def G1Of (VA : Dev nD → Valuation τ sig (Elt F)) (d : Dev nD) : Buf (Elt F) (locR1 d) := gathE d (VA d r5') (VA d r24') 1
/-- Entity result 2: by the third quarter. -/
def G2Of (VA : Dev nD → Valuation τ sig (Elt F)) (d : Dev nD) : Buf (Elt F) (locR2 d) := gathE d (VA d r5') (VA d r24') 2
/-- Entity result 3: by the last quarter. -/
def G3Of (VA : Dev nD → Valuation τ sig (Elt F)) (d : Dev nD) : Buf (Elt F) (locR3 d) := gathE d (VA d r5') (VA d r24') 3
/-- The relation result: gathered from the packed relation table by the relation index words. -/
def G4Of (VA : Dev nD → Valuation τ sig (Elt F)) (d : Dev nD) : Buf (Elt F) (locR4 d) := gathR d (VA d r6') (VA d r25')

/-! ## Their reads over what the first host program leaves -/

variable [FloatOps F]

theorem hG0_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 0 + b.val / 128, by have := b.isLt; omega⟩ : Fin 512) (⟨b.val % 128, by omega⟩ : Fin 128))) < 500000),
      G0Of (fun d => VAof (StableHlo.launchContents m d) (Pk d)) d (ix2 b col)
        = VAof (StableHlo.launchContents m d) (Pk d) (Proc.devRef .tc main_v5) (ix2 ⟨_, h⟩ col) :=
  fun d b col h => gathE_apply d _ _ 0 b col h

theorem hG1_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 1 + b.val / 128, by have := b.isLt; omega⟩ : Fin 512) (⟨b.val % 128, by omega⟩ : Fin 128))) < 500000),
      G1Of (fun d => VAof (StableHlo.launchContents m d) (Pk d)) d (ix2 b col)
        = VAof (StableHlo.launchContents m d) (Pk d) (Proc.devRef .tc main_v5) (ix2 ⟨_, h⟩ col) :=
  fun d b col h => gathE_apply d _ _ 1 b col h

theorem hG2_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 2 + b.val / 128, by have := b.isLt; omega⟩ : Fin 512) (⟨b.val % 128, by omega⟩ : Fin 128))) < 500000),
      G2Of (fun d => VAof (StableHlo.launchContents m d) (Pk d)) d (ix2 b col)
        = VAof (StableHlo.launchContents m d) (Pk d) (Proc.devRef .tc main_v5) (ix2 ⟨_, h⟩ col) :=
  fun d b col h => gathE_apply d _ _ 2 b col h

theorem hG3_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 3 + b.val / 128, by have := b.isLt; omega⟩ : Fin 512) (⟨b.val % 128, by omega⟩ : Fin 128))) < 500000),
      G3Of (fun d => VAof (StableHlo.launchContents m d) (Pk d)) d (ix2 b col)
        = VAof (StableHlo.launchContents m d) (Pk d) (Proc.devRef .tc main_v5) (ix2 ⟨_, h⟩ col) :=
  fun d b col h => gathE_apply d _ _ 3 b col h

theorem hG4_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v25) (ix2 (⟨b.val / 128, by have := b.isLt; omega⟩ : Fin 128) (⟨b.val % 128, by omega⟩ : Fin 128))) < 500),
      G4Of (fun d => VAof (StableHlo.launchContents m d) (Pk d)) d (ix2 b col)
        = VAof (StableHlo.launchContents m d) (Pk d) (Proc.devRef .tc main_v6) (ix2 ⟨_, h⟩ col) :=
  fun d b col h => gathR_apply d _ _ b col h

end Cert.Proof.KI

end
-- ==== Proof.Close.lean ====
/-
  The run from the precondition: the precondition puts every gather index in range, which is what the tiles ask; the
  gathered arrays are then named functions of the first stretch's valuation.
-/
import proofs.«205037_g73117523247527_cont_9to1c4b_608_48_alg».proof.Proof.Final
import proofs.«205037_g73117523247527_cont_9to1c4b_608_48_alg».proof.Proof.TileObl
import proofs.«205037_g73117523247527_cont_9to1c4b_608_48_alg».proof.Proof.TileSplit
import proofs.«205037_g73117523247527_cont_9to1c4b_608_48_alg».proof.Proof.Tile
import proofs.«205037_g73117523247527_cont_9to1c4b_608_48_alg».proof.Proof.IdxOK
import proofs.«205037_g73117523247527_cont_9to1c4b_608_48_alg».proof.Proof.GathRead

noncomputable section

namespace Cert.Proof.KI

open Cert.KernelIdeal Cert.KernelIdeal.Gen

open Idealize.ShloMosaic
open Idealize.SL.Sem

variable {F : FTy → Type} [FloatOps F]

variable (m : (ℓ : Loc nD τ sig) → Buf (Elt F) ℓ) (ρ : Dev nD → PrngReg)

/-- The final valuation of the program from the launch memory `m`. -/
abbrev Wend : Dev nD → Valuation τ sig (Elt F) :=
  Wfin m (PkOf m) (G0Of (VAf m)) (G1Of (VAf m)) (G2Of (VAf m)) (G3Of (VAf m)) (G4Of (VAf m))

/-- Under the precondition the program runs to the end, and the final memory holds the result and the arguments at
    the final valuation. -/
theorem run_of_pre [Cert.Pre_input_domain.Facts] [∀ e, Nonempty (Elt F e)]
    (hfn : ∀ c : Dev nD, Cert.Pre_input_domain.fn (F := F) (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) (m (c, Proc.devRef .tc main_arg6)) = fun _ => 1#1) :
    θ_run (Cert.KernelIdeal.defs (F := F)) (Cert.KernelIdeal.threads (F := F)) ⟨m, fun _ => 0, ρ⟩ (QC8 (Wend m)) :=
  runKI m ρ _ _ _ _ _ (tileObl facts (VAf m) (fun d => (idx_ok m hfn (PkOf m) d).1) (fun d => (idx_ok m hfn (PkOf m) d).2)
    (fun d L hF X q X5 X6 X24 X25 Y0 Y1 Y2 Y3 Y4 h24 h25 O W hO => tile_body d L hF X q X5 X6 X24 X25 Y0 Y1 Y2 Y3 Y4 h24 h25 O W hO)
    tileGo_eq_subGo tileTd_eq_subTd)

theorem kept_end (d : Dev nD) :
    Wend m d r_arg0 = m (d, r_arg0) ∧ Wend m d r_arg1 = m (d, r_arg1) ∧ Wend m d r_arg2 = m (d, r_arg2) ∧ Wend m d r_arg3 = m (d, r_arg3)
      ∧ Wend m d r_arg4 = m (d, r_arg4) ∧ Wend m d r_arg5 = m (d, r_arg5) ∧ Wend m d r_arg6 = m (d, r_arg6) :=
  kept_all m (PkOf m) _ _ _ _ _ d

end Cert.Proof.KI

end
-- ==== Proof.BCommon.lean ====
/-
  What every module of this proof shares: the program as the SparseCore launch theorem sees it (its configuration, the
  body table of its three kernels, the variants), and the resource algebra — the launch handshakes' rounds, the
  TensorCore pipelines' rounds, and the counters of the kernels' own copies, side by side.
-/
import proofs.«205037_g73117523247527_cont_9to1c4b_608_48_alg».proof.Defs
import proofs.«205037_g73117523247527_cont_9to1c4b_608_48_alg».proof.Proof.Gen.Kernel
import proofs.«205037_g73117523247527_cont_9to1c4b_608_48_alg».proof.Proof.Gen.Kernel.Skeleton
import proofs.«205037_g73117523247527_cont_9to1c4b_608_48_alg».proof.Proof.Gen.Kernel.Launch
import proofs.«205037_g73117523247527_cont_9to1c4b_608_48_alg».proof.Proof.Gen.Kernel.Points
import proofs.«205037_g73117523247527_cont_9to1c4b_608_48_alg».proof.Proof.Gen.Kernel.Loops
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two TensorCore pipelines over the kernels' own. -/
abbrev ΛP : Labels := Pipeline.Sig Λ₀ (Fin 2) fun p => (pcfgs (F := F) p).Adm
/-- The one SparseCore call (the row gather on 2 × 16 vector subcores). -/
abbrev K : SparseCore.Cfg τ sig (ΛP (F := F)) 1 := sc (F := F)
theorem nCore_zero : (K (F := F)).nCore 0 = 2 := rfl
theorem nSub_zero : (K (F := F)).nSub 0 = 16 := rfl
/-- The body table under the pipelines' labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The TensorCore pipelines' rounds. -/
abbrev UP : Type := URounds (GSem nD τ sig) Unit
/-- Handshakes, then pipelines beside the copies' counters. -/
abbrev UU : Type := UH × (UP × Counters)

/-- The handshakes' rounds are the left factor. -/
abbrev EH : Emb UH (MT nD τ sig (HIx 1) (Elt F) ℕ UU ℕ) := embL
/-- The pipelines' rounds are the left factor of the right factor. -/
def EP : Emb UP (MT nD τ sig (HIx 1) (Elt F) ℕ UU ℕ) :=
  (Emb.inl : Emb UP (UP × Counters)).trans ((Emb.inr : Emb (UP × Counters) UU).trans
    (uEmb (nD := nD) (sig := sig) (Ix := HIx 1) (Val := Elt F) (Name := ℕ) (U := UU) (Lvl := ℕ)).toEmb)

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KB

end
-- ==== Proof.BHostOps.lean ====
/-
  The host operations of @main, stretch by stretch, in program order: each list is the run of consecutive
  StableHLO operations between two lines of @main that are no host operation (in order: Prog.lift (.customCall (SparseCore.inner (Pipeline.entry 0)) ()) ; sc.run d 0 ; Prog.lift (.customCall (SparseCore.inner (Pipeline.entry 1)) ())),
  every operation spelt as the program prints it, a module-local function's operations listed at its call over
  that call's buffer record. A table: nothing is proved here.
-/
import proofs.«205037_g73117523247527_cont_9to1c4b_608_48_alg».proof.Proof.BCommon

noncomputable section

namespace Cert.Proof.KB

open Cert.Kernel Cert.Kernel.Gen
open Idealize.ShloMosaic

variable {F : FTy → Type} [FloatOps F]

/-- 5 operations. -/
abbrev opsA1 : List (HloOp τ sig (Elt F)) :=
  [ StableHlo.unary main_arg0 main_v0 ((transpose S64x1000000 [1, 0] · transposes_S1000000x64_S64x1000000_1_0) : (⟨S1000000x64, .f32⟩ : BufTy).Contents (Elt F) → (⟨S64x1000000, .f32⟩ : BufTy).Contents (Elt F)),
    StableHlo.unary main_arg0 main_v1 ((extractStridedSlice S1600x64 ![998400, 0] · slices_S1000000x64_S1600x64_998400_0) : (⟨S1000000x64, .f32⟩ : BufTy).Contents (Elt F) → (⟨S1600x64, .f32⟩ : BufTy).Contents (Elt F)),
    StableHlo.unary main_v1 main_v2 ((extractStridedSlice S800x64 ![0, 0] · slices_S1600x64_S800x64_0_0) : (⟨S1600x64, .f32⟩ : BufTy).Contents (Elt F) → (⟨S800x64, .f32⟩ : BufTy).Contents (Elt F)),
    StableHlo.unary main_v1 main_v3 ((extractStridedSlice S800x64 ![800, 0] · slices_S1600x64_S800x64_800_0) : (⟨S1600x64, .f32⟩ : BufTy).Contents (Elt F) → (⟨S800x64, .f32⟩ : BufTy).Contents (Elt F)),
    StableHlo.binary main_v2 main_v3 main_v4 ((fun a b => concatenate S800x128 1 [⟨S800x64, a⟩, ⟨S800x64, b⟩] concatenates_S800x64_S800x64_S800x128_d1) : (⟨S800x64, .f32⟩ : BufTy).Contents (Elt F) → (⟨S800x64, .f32⟩ : BufTy).Contents (Elt F) → (⟨S800x128, .f32⟩ : BufTy).Contents (Elt F)) ]

/-- 100 operations. -/
abbrev opsA2 : List (HloOp τ sig (Elt F)) :=
  [ StableHlo.reshape main_arg1 main_v6 rfl shapeCasts_S1000x64_S500x128,
    StableHlo.nary ![main_arg2, main_arg4, main_arg5, main_arg6] main_v7 (fun u => concatenate S65536 0 [⟨S16384, u 0⟩, ⟨S16384, u 1⟩, ⟨S16384, u 2⟩, ⟨S16384, u 3⟩] concatenates_S16384_S16384_S16384_S16384_S65536_d0),
    StableHlo.nullary main_c (constantI S_ 32 12800#32),
    StableHlo.TRef.unary (.of main_c : StableHlo.TRef sig ⟨S_, .i32⟩) main_call0.v0 id,
    StableHlo.TRef.unary main_call0.v0 main_call0.v1 (broadcastInDim S65536 ![] bcast_S_S65536),
    StableHlo.TRef.binary (.of main_v7 : StableHlo.TRef sig ⟨S65536, .i32⟩) main_call0.v1 main_call0.v2 Host.divsi,
    StableHlo.TRef.unary (.of main_v7 : StableHlo.TRef sig ⟨S65536, .i32⟩) main_call0.v3 signi,
    StableHlo.TRef.unary main_call0.v0 main_call0.v4 signi,
    StableHlo.TRef.unary main_call0.v4 main_call0.v5 (broadcastInDim S65536 ![] bcast_S_S65536),
    StableHlo.TRef.binary main_call0.v3 main_call0.v5 main_call0.v6 (cmpi .ne),
    StableHlo.TRef.unary main_call0.v0 main_call0.v7 (broadcastInDim S65536 ![] bcast_S_S65536),
    StableHlo.TRef.binary (.of main_v7 : StableHlo.TRef sig ⟨S65536, .i32⟩) main_call0.v7 main_call0.v8 Host.remsi,
    StableHlo.TRef.nullary main_call0.c (constantI S_ 32 0#32),
    StableHlo.TRef.unary main_call0.c main_call0.v9 (broadcastInDim S65536 ![] bcast_S_S65536),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S65536 ![] bcast_S_S65536),
    StableHlo.TRef.binary main_call0.v2 main_call0.v12 main_call0.v13 subi,
    StableHlo.TRef.ternary main_call0.v11 main_call0.v13 main_call0.v2 main_call0.call0.v0 select,
    StableHlo.nullary main_c_0 (constantI S_ 32 12800#32),
    StableHlo.TRef.unary (.of main_c_0 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S65536 ![] bcast_S_S65536),
    StableHlo.TRef.binary (.of main_v7 : StableHlo.TRef sig ⟨S65536, .i32⟩) main_call1.v3 main_call1.v4 Host.remsi,
    StableHlo.TRef.nullary main_call1.c_1 (constantI S_ 32 0#32),
    StableHlo.TRef.unary main_call1.c_1 main_call1.v5 (broadcastInDim S65536 ![] bcast_S_S65536),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S65536 ![] bcast_S_S65536),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S65536 ![] bcast_S_S65536),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S65536 ![] bcast_S_S65536),
    StableHlo.TRef.binary main_call1.v4 main_call1.v13 main_call1.v14 addi,
    StableHlo.TRef.ternary main_call1.v12 main_call1.v14 main_call1.v4 main_call1.v15 select,
    StableHlo.nullary main_c_1 (constantI S_ 32 78#32),
    StableHlo.unary main_c_1 main_v10 (broadcastInDim S65536 ![] bcast_S_S65536 : (⟨S_, .i32⟩ : BufTy).Contents (Elt F) → (⟨S65536, .i32⟩ : BufTy).Contents (Elt F)),
    StableHlo.binary main_v8 main_v10 main_v11 (cmpi .sge : (⟨S65536, .i32⟩ : BufTy).Contents (Elt F) → (⟨S65536, .i32⟩ : BufTy).Contents (Elt F) → (⟨S65536, .i1⟩ : BufTy).Contents (Elt F)),
    StableHlo.nullary main_c_2 (constantI S_ 32 800#32),
    StableHlo.nullary main_c_3 (constantI S_ 32 6400#32),
    StableHlo.TRef.unary (.of main_c_2 : StableHlo.TRef sig ⟨S_, .i32⟩) main_call2.v0 (broadcastInDim S65536 ![] bcast_S_S65536),
    StableHlo.TRef.unary (.of main_c_3 : StableHlo.TRef sig ⟨S_, .i32⟩) main_call2.v1 (broadcastInDim S65536 ![] bcast_S_S65536),
    StableHlo.TRef.ternary (.of main_v11 : StableHlo.TRef sig ⟨S65536, .i1⟩) main_call2.v0 main_call2.v1 main_call2.v2 select,
    StableHlo.nullary main_c_4 (constantI S_ 32 78#32),
    StableHlo.unary main_c_4 main_v13 (broadcastInDim S65536 ![] bcast_S_S65536 : (⟨S_, .i32⟩ : BufTy).Contents (Elt F) → (⟨S65536, .i32⟩ : BufTy).Contents (Elt F)),
    StableHlo.binary main_v8 main_v13 main_v14 (minsi : (⟨S65536, .i32⟩ : BufTy).Contents (Elt F) → (⟨S65536, .i32⟩ : BufTy).Contents (Elt F) → (⟨S65536, .i32⟩ : BufTy).Contents (Elt F)),
    StableHlo.nullary main_c_5 (constantI S_ 32 6400#32),
    StableHlo.unary main_c_5 main_v15 (broadcastInDim S65536 ![] bcast_S_S65536 : (⟨S_, .i32⟩ : BufTy).Contents (Elt F) → (⟨S65536, .i32⟩ : BufTy).Contents (Elt F)),
    StableHlo.binary main_v14 main_v15 main_v16 (muli : (⟨S65536, .i32⟩ : BufTy).Contents (Elt F) → (⟨S65536, .i32⟩ : BufTy).Contents (Elt F) → (⟨S65536, .i32⟩ : BufTy).Contents (Elt F)),
    StableHlo.TRef.unary (.of main_v12 : StableHlo.TRef sig ⟨S65536, .i32⟩) main_call3.v0 id,
    StableHlo.TRef.nullary main_call3.c (constantI S_ 32 0#32),
    StableHlo.TRef.unary main_call3.c main_call3.v1 (broadcastInDim S65536 ![] bcast_S_S65536),
    StableHlo.TRef.binary main_call3.v0 main_call3.v1 main_call3.v2 (cmpi .eq),
    StableHlo.TRef.nullary main_call3.c_0 (constantI S_ 32 1#32),
    StableHlo.TRef.unary main_call3.c_0 main_call3.v3 (broadcastInDim S65536 ![] bcast_S_S65536),
    StableHlo.TRef.ternary main_call3.v2 main_call3.v3 main_call3.v0 main_call3.call0.v0 select,
    StableHlo.TRef.binary (.of main_v9 : StableHlo.TRef sig ⟨S65536, .i32⟩) main_call3.call0.v0 main_call3.v5 Host.remsi,
    StableHlo.TRef.nullary main_call3.c_1 (constantI S_ 32 0#32),
    StableHlo.TRef.unary main_call3.c_1 main_call3.v6 (broadcastInDim S65536 ![] bcast_S_S65536),
    StableHlo.TRef.binary main_call3.v5 main_call3.v6 main_call3.v7 (cmpi .ne),
    StableHlo.TRef.nullary main_call3.c_2 (constantI S_ 32 0#32),
    StableHlo.TRef.unary main_call3.c_2 main_call3.v8 (broadcastInDim S65536 ![] bcast_S_S65536),
    StableHlo.TRef.binary main_call3.v5 main_call3.v8 main_call3.v9 (cmpi .slt),
    StableHlo.TRef.nullary main_call3.c_3 (constantI S_ 32 0#32),
    StableHlo.TRef.unary main_call3.c_3 main_call3.v10 (broadcastInDim S65536 ![] bcast_S_S65536),
    StableHlo.TRef.binary main_call3.call0.v0 main_call3.v10 main_call3.v11 (cmpi .slt),
    StableHlo.TRef.binary main_call3.v9 main_call3.v11 main_call3.v12 (cmpi .ne),
    StableHlo.TRef.binary main_call3.v12 main_call3.v7 main_call3.v13 andi,
    StableHlo.TRef.binary main_call3.v5 main_call3.call0.v0 main_call3.v14 addi,
    StableHlo.TRef.ternary main_call3.v13 main_call3.v14 main_call3.v5 main_call3.v15 select,
    StableHlo.binary main_v16 main_v17 main_v18 (addi : (⟨S65536, .i32⟩ : BufTy).Contents (Elt F) → (⟨S65536, .i32⟩ : BufTy).Contents (Elt F) → (⟨S65536, .i32⟩ : BufTy).Contents (Elt F)),
    StableHlo.TRef.unary (.of main_v12 : StableHlo.TRef sig ⟨S65536, .i32⟩) main_call4.v0 id,
    StableHlo.TRef.binary (.of main_v9 : StableHlo.TRef sig ⟨S65536, .i32⟩) main_call4.v0 main_call4.v1 Host.divsi,
    StableHlo.TRef.unary (.of main_v9 : StableHlo.TRef sig ⟨S65536, .i32⟩) main_call4.v2 signi,
    StableHlo.TRef.unary main_call4.v0 main_call4.v3 signi,
    StableHlo.TRef.binary main_call4.v2 main_call4.v3 main_call4.v4 (cmpi .ne),
    StableHlo.TRef.binary (.of main_v9 : StableHlo.TRef sig ⟨S65536, .i32⟩) main_call4.v0 main_call4.v5 Host.remsi,
    StableHlo.TRef.nullary main_call4.c (constantI S_ 32 0#32),
    StableHlo.TRef.unary main_call4.c main_call4.v6 (broadcastInDim S65536 ![] bcast_S_S65536),
    StableHlo.TRef.binary main_call4.v5 main_call4.v6 main_call4.v7 (cmpi .ne),
    StableHlo.TRef.binary main_call4.v4 main_call4.v7 main_call4.v8 andi,
    StableHlo.TRef.nullary main_call4.c_0 (constantI S_ 32 1#32),
    StableHlo.TRef.unary main_call4.c_0 main_call4.v9 (broadcastInDim S65536 ![] bcast_S_S65536),
    StableHlo.TRef.binary main_call4.v1 main_call4.v9 main_call4.v10 subi,
    StableHlo.TRef.ternary main_call4.v8 main_call4.v10 main_call4.v1 main_call4.call0.v0 select,
    StableHlo.nullary main_c_6 (constantI S_ 32 1#32),
    StableHlo.unary main_c_6 main_v20 (broadcastInDim S16384 ![] bcast_S_S16384 : (⟨S_, .i32⟩ : BufTy).Contents (Elt F) → (⟨S16384, .i32⟩ : BufTy).Contents (Elt F)),
    StableHlo.binary main_arg3 main_v20 main_v21 (Host.shrsi : (⟨S16384, .i32⟩ : BufTy).Contents (Elt F) → (⟨S16384, .i32⟩ : BufTy).Contents (Elt F) → (⟨S16384, .i32⟩ : BufTy).Contents (Elt F)),
    StableHlo.nullary main_c_7 (constantI S_ 32 1#32),
    StableHlo.unary main_c_7 main_v22 (broadcastInDim S16384 ![] bcast_S_S16384 : (⟨S_, .i32⟩ : BufTy).Contents (Elt F) → (⟨S16384, .i32⟩ : BufTy).Contents (Elt F)),
    StableHlo.binary main_arg3 main_v22 main_v23 (andi : (⟨S16384, .i32⟩ : BufTy).Contents (Elt F) → (⟨S16384, .i32⟩ : BufTy).Contents (Elt F) → (⟨S16384, .i32⟩ : BufTy).Contents (Elt F)),
    StableHlo.reshape main_v18 main_v24 rfl shapeCasts_S65536_S512x128,
    StableHlo.reshape main_v21 main_v25 rfl shapeCasts_S16384_S128x128 ]

/-- 26 operations. -/
abbrev opsB1 : List (HloOp τ sig (Elt F)) :=
  [ StableHlo.reshape main_v19 main_v27 rfl shapeCasts_S65536_S4x16384,
    StableHlo.unary main_v27 main_v28 ((extractStridedSlice S1x16384 ![0, 0] · slices_S4x16384_S1x16384_0_0) : (⟨S4x16384, .i32⟩ : BufTy).Contents (Elt F) → (⟨S1x16384, .i32⟩ : BufTy).Contents (Elt F)),
    StableHlo.reshape main_v28 main_v29 rfl shapeCasts_S1x16384_S16384,
    StableHlo.unary main_v27 main_v30 ((extractStridedSlice S1x16384 ![1, 0] · slices_S4x16384_S1x16384_1_0) : (⟨S4x16384, .i32⟩ : BufTy).Contents (Elt F) → (⟨S1x16384, .i32⟩ : BufTy).Contents (Elt F)),
    StableHlo.reshape main_v30 main_v31 rfl shapeCasts_S1x16384_S16384,
    StableHlo.nullary main_c_8 (constantI S_ 32 1#32),
    StableHlo.unary main_c_8 main_v32 (broadcastInDim S16384 ![] bcast_S_S16384 : (⟨S_, .i32⟩ : BufTy).Contents (Elt F) → (⟨S16384, .i32⟩ : BufTy).Contents (Elt F)),
    StableHlo.binary main_v31 main_v32 main_v33 (Host.shli : (⟨S16384, .i32⟩ : BufTy).Contents (Elt F) → (⟨S16384, .i32⟩ : BufTy).Contents (Elt F) → (⟨S16384, .i32⟩ : BufTy).Contents (Elt F)),
    StableHlo.binary main_v29 main_v33 main_v34 (ori : (⟨S16384, .i32⟩ : BufTy).Contents (Elt F) → (⟨S16384, .i32⟩ : BufTy).Contents (Elt F) → (⟨S16384, .i32⟩ : BufTy).Contents (Elt F)),
    StableHlo.unary main_v27 main_v35 ((extractStridedSlice S1x16384 ![2, 0] · slices_S4x16384_S1x16384_2_0) : (⟨S4x16384, .i32⟩ : BufTy).Contents (Elt F) → (⟨S1x16384, .i32⟩ : BufTy).Contents (Elt F)),
    StableHlo.reshape main_v35 main_v36 rfl shapeCasts_S1x16384_S16384,
    StableHlo.nullary main_c_9 (constantI S_ 32 2#32),
    StableHlo.unary main_c_9 main_v37 (broadcastInDim S16384 ![] bcast_S_S16384 : (⟨S_, .i32⟩ : BufTy).Contents (Elt F) → (⟨S16384, .i32⟩ : BufTy).Contents (Elt F)),
    StableHlo.binary main_v36 main_v37 main_v38 (Host.shli : (⟨S16384, .i32⟩ : BufTy).Contents (Elt F) → (⟨S16384, .i32⟩ : BufTy).Contents (Elt F) → (⟨S16384, .i32⟩ : BufTy).Contents (Elt F)),
    StableHlo.binary main_v34 main_v38 main_v39 (ori : (⟨S16384, .i32⟩ : BufTy).Contents (Elt F) → (⟨S16384, .i32⟩ : BufTy).Contents (Elt F) → (⟨S16384, .i32⟩ : BufTy).Contents (Elt F)),
    StableHlo.unary main_v27 main_v40 ((extractStridedSlice S1x16384 ![3, 0] · slices_S4x16384_S1x16384_3_0) : (⟨S4x16384, .i32⟩ : BufTy).Contents (Elt F) → (⟨S1x16384, .i32⟩ : BufTy).Contents (Elt F)),
    StableHlo.reshape main_v40 main_v41 rfl shapeCasts_S1x16384_S16384,
    StableHlo.nullary main_c_10 (constantI S_ 32 3#32),
    StableHlo.unary main_c_10 main_v42 (broadcastInDim S16384 ![] bcast_S_S16384 : (⟨S_, .i32⟩ : BufTy).Contents (Elt F) → (⟨S16384, .i32⟩ : BufTy).Contents (Elt F)),
    StableHlo.binary main_v41 main_v42 main_v43 (Host.shli : (⟨S16384, .i32⟩ : BufTy).Contents (Elt F) → (⟨S16384, .i32⟩ : BufTy).Contents (Elt F) → (⟨S16384, .i32⟩ : BufTy).Contents (Elt F)),
    StableHlo.binary main_v39 main_v43 main_v44 (ori : (⟨S16384, .i32⟩ : BufTy).Contents (Elt F) → (⟨S16384, .i32⟩ : BufTy).Contents (Elt F) → (⟨S16384, .i32⟩ : BufTy).Contents (Elt F)),
    StableHlo.nullary main_c_11 (constantI S_ 32 4#32),
    StableHlo.unary main_c_11 main_v45 (broadcastInDim S16384 ![] bcast_S_S16384 : (⟨S_, .i32⟩ : BufTy).Contents (Elt F) → (⟨S16384, .i32⟩ : BufTy).Contents (Elt F)),
    StableHlo.binary main_v23 main_v45 main_v46 (Host.shli : (⟨S16384, .i32⟩ : BufTy).Contents (Elt F) → (⟨S16384, .i32⟩ : BufTy).Contents (Elt F) → (⟨S16384, .i32⟩ : BufTy).Contents (Elt F)),
    StableHlo.binary main_v44 main_v46 main_v47 (ori : (⟨S16384, .i32⟩ : BufTy).Contents (Elt F) → (⟨S16384, .i32⟩ : BufTy).Contents (Elt F) → (⟨S16384, .i32⟩ : BufTy).Contents (Elt F)),
    StableHlo.reshape main_v47 main_v48 rfl shapeCasts_S16384_S16384x1 ]

/-- 1 operations. -/
abbrev opsB2 : List (HloOp τ sig (Elt F)) :=
  [ StableHlo.reshape main_v49 main_v50 rfl shapeCasts_S1x1_S_ ]

end Cert.Proof.KB

end
-- ==== Proof.BHost.lean ====
/-
  @main's host side. The TensorCore's program is two host programs around the SparseCore call, each a stretch of
  StableHLO operations, a pallas_call's entry, and another stretch; here: that equation, the side facts a run of a
  stretch asks of its operations (they touch TensorCore references only and write no buffer fresh), and what the
  stretches leave in the buffers the kernels read.
-/
import proofs.«205037_g73117523247527_cont_9to1c4b_608_48_alg».proof.Proof.BHostOps
import proofs.«205037_g73117523247527_cont_9to1c4b_608_48_alg».proof.Proof.IdxArith

noncomputable section

namespace Cert.Proof.KB

open Cert.Kernel Cert.Kernel.Gen
open Idealize.ShloMosaic
open Idealize.SL.Sem

variable {F : FTy → Type} [FloatOps F]

/-! ## @main as two host programs around the SparseCore call -/

/-- The TensorCore's host program up to the SparseCore call, at the pipelines' labels: the first stretch, the first
    pallas_call's entry, the second stretch. -/
abbrev hostA : Prog (TpuEff nD τ sig (Elt F) (ΛP (F := F)) .tc) PUnit :=
  StableHlo.seq opsA1 >>= fun _ => Prog.op (.customCall (Pipeline.entry 0) ()) fun _ => StableHlo.seq opsA2

/-- The TensorCore's host program after the SparseCore call: the third stretch, the last pallas_call's entry, the
    closing reshape. -/
abbrev hostB : Prog (TpuEff nD τ sig (Elt F) (ΛP (F := F)) .tc) PUnit :=
  StableHlo.seq opsB1 >>= fun _ => Prog.op (.customCall (Pipeline.entry 1) ()) fun _ => StableHlo.seq opsB2

set_option maxRecDepth 8192 in
set_option maxHeartbeats 4000000 in
/-- @main is the two host programs around the SparseCore call: the module-local functions unfolded at their calls and
    the records at their fields, both sides are one chain of steps once sequencing is reassociated. -/
theorem main_eq (d : Dev nD) :
    main (F := F) d
      = (SparseCore.liftProg (hostA (F := F)) >>= fun _ => (sc (F := F)).run d 0 >>= fun _ => SparseCore.liftProg (hostB (F := F))) := by
  simp only [main, main_part0, main_part1, fn_floor_divide.body, fn_remainder.body, fn_where_1.body, fn_remainder_2.body,
    fn_floor_divide_3.body, fn_where.body, fn_where_0.body, hostA, hostB, opsA1, opsA2, opsB1, opsB2, StableHlo.seq,
    SparseCore.liftProg, inlProg_bind, inlProg_op, inlProg_ret, Prog.lift, bind_assoc, pure_bind]
  rfl

/-! ## What a run of a stretch asks of its operations -/

section Side
open StableHlo

/-- A property of every element of a literal list, from the conjunction over the list. -/
private theorem forall_mem_of_forall {α : Type} {p : α → Prop} {l : List α} (h : l.Forall p) : ∀ x ∈ l, p x :=
  List.forall_iff_forall_mem.mp h

/-- The first stretch touches TensorCore references only. -/
theorem opsA1_sub : ∀ op ∈ (opsA1 : List (HloOp τ sig (Elt F))), op.bufs ⊆ tcRefs τ sig := by
  refine forall_mem_of_forall ?_
  simp only [opsA1, List.Forall, nullary_bufs_sub, unary_bufs_sub, binary_bufs_sub, ternary_bufs_sub, reshape_bufs_sub,
    nary_bufs_sub, and_self]
/-- The second stretch touches TensorCore references only. -/
theorem opsA2_sub : ∀ op ∈ (opsA2 : List (HloOp τ sig (Elt F))), op.bufs ⊆ tcRefs τ sig := by
  refine forall_mem_of_forall ?_
  simp only [opsA2, List.Forall, nullary_bufs_sub, unary_bufs_sub, binary_bufs_sub, ternary_bufs_sub, reshape_bufs_sub,
    nary_bufs_sub, and_self]
/-- The third stretch touches TensorCore references only. -/
theorem opsB1_sub : ∀ op ∈ (opsB1 : List (HloOp τ sig (Elt F))), op.bufs ⊆ tcRefs τ sig := by
  refine forall_mem_of_forall ?_
  simp only [opsB1, List.Forall, nullary_bufs_sub, unary_bufs_sub, binary_bufs_sub, ternary_bufs_sub, reshape_bufs_sub,
    nary_bufs_sub, and_self]
/-- The closing reshape touches TensorCore references only. -/
theorem opsB2_sub : ∀ op ∈ (opsB2 : List (HloOp τ sig (Elt F))), op.bufs ⊆ tcRefs τ sig := by
  refine forall_mem_of_forall ?_
  simp only [opsB2, List.Forall, nullary_bufs_sub, unary_bufs_sub, binary_bufs_sub, ternary_bufs_sub, reshape_bufs_sub,
    nary_bufs_sub, and_self]

/-- No operation of the first stretch writes a buffer fresh. -/
theorem opsA1_fresh : ∀ op ∈ (opsA1 : List (HloOp τ sig (Elt F))), op.fresh = ∅ := by
  refine forall_mem_of_forall ?_
  simp only [opsA1, List.Forall]
  repeat' constructor
/-- No operation of the second stretch writes a buffer fresh. -/
theorem opsA2_fresh : ∀ op ∈ (opsA2 : List (HloOp τ sig (Elt F))), op.fresh = ∅ := by
  refine forall_mem_of_forall ?_
  simp only [opsA2, List.Forall]
  repeat' constructor
/-- No operation of the third stretch writes a buffer fresh. -/
theorem opsB1_fresh : ∀ op ∈ (opsB1 : List (HloOp τ sig (Elt F))), op.fresh = ∅ := by
  refine forall_mem_of_forall ?_
  simp only [opsB1, List.Forall]
  repeat' constructor
/-- The closing reshape writes no buffer fresh. -/
theorem opsB2_fresh : ∀ op ∈ (opsB2 : List (HloOp τ sig (Elt F))), op.fresh = ∅ := by
  refine forall_mem_of_forall ?_
  simp only [opsB2, List.Forall]
  repeat' constructor

end Side

/-! ## What the stretches compute

For a stretch run from contents `V`: the buffers the kernels read, as pure terms of `V` at the buffers the stretch
reads; and the buffers it leaves alone. -/

section Values
open StableHlo
open Cert.Proof.IdxArith

/-- The contents of the buffers after a stretch, in one pass: each operation's result at its own buffer is its
    function's value, at any other reference what was there (the references told apart by computation); a concatenate of
    four references reads each operand at its own reference; the typed references' transports are the identity at
    literal references. -/
macro "host_results" : tactic =>
  `(tactic| (simp (disch := decide) only [StableHlo.after_cons, StableHlo.after_nil,
      StableHlo.nullary_result', StableHlo.unary_result', StableHlo.binary_result', StableHlo.ternary_result',
      StableHlo.reshape_result', StableHlo.nary4_result',
      StableHlo.nullary_result_ne', StableHlo.unary_result_ne', StableHlo.binary_result_ne', StableHlo.ternary_result_ne',
      StableHlo.reshape_result_ne', StableHlo.nary_result_ne',
      StableHlo.TRef.ofBuf, StableHlo.TRef.toBuf, cast_eq, id_eq]))

variable (V : Valuation τ sig (Elt F))

/-- The four entity-index inputs one after another, as the second stretch concatenates them. -/
abbrev entCat : IVec S65536 32 :=
  concatenate S65536 0 [⟨S16384, V (Proc.devRef .tc main_arg2)⟩, ⟨S16384, V (Proc.devRef .tc main_arg4)⟩,
    ⟨S16384, V (Proc.devRef .tc main_arg5)⟩, ⟨S16384, V (Proc.devRef .tc main_arg6)⟩]
    concatenates_S16384_S16384_S16384_S16384_S65536_d0

/-! ### The first stretch -/

/-- The entity table transposed. -/
theorem A1_v0 :
    after opsA1 V (Proc.devRef .tc main_v0)
      = transpose S64x1000000 [1, 0] (V (Proc.devRef .tc main_arg0)) transposes_S1000000x64_S64x1000000_1_0 := by
  host_results

/-- The table's last 1600 rows, the first 800 beside the last 800. -/
theorem A1_v4 :
    after opsA1 V (Proc.devRef .tc main_v4)
      = concatenate S800x128 1
          [⟨S800x64, extractStridedSlice S800x64 ![0, 0]
              (extractStridedSlice S1600x64 ![998400, 0] (V (Proc.devRef .tc main_arg0)) slices_S1000000x64_S1600x64_998400_0)
              slices_S1600x64_S800x64_0_0⟩,
           ⟨S800x64, extractStridedSlice S800x64 ![800, 0]
              (extractStridedSlice S1600x64 ![998400, 0] (V (Proc.devRef .tc main_arg0)) slices_S1000000x64_S1600x64_998400_0)
              slices_S1600x64_S800x64_800_0⟩]
          concatenates_S800x64_S800x64_S800x128_d1 := by
  host_results
  rfl

theorem A1_arg0 :
    after opsA1 V (Proc.devRef .tc main_arg0) = V (Proc.devRef .tc main_arg0) := by host_results
theorem A1_arg1 :
    after opsA1 V (Proc.devRef .tc main_arg1) = V (Proc.devRef .tc main_arg1) := by host_results
theorem A1_arg2 :
    after opsA1 V (Proc.devRef .tc main_arg2) = V (Proc.devRef .tc main_arg2) := by host_results
theorem A1_arg3 :
    after opsA1 V (Proc.devRef .tc main_arg3) = V (Proc.devRef .tc main_arg3) := by host_results
theorem A1_arg4 :
    after opsA1 V (Proc.devRef .tc main_arg4) = V (Proc.devRef .tc main_arg4) := by host_results
theorem A1_arg5 :
    after opsA1 V (Proc.devRef .tc main_arg5) = V (Proc.devRef .tc main_arg5) := by host_results
theorem A1_arg6 :
    after opsA1 V (Proc.devRef .tc main_arg6) = V (Proc.devRef .tc main_arg6) := by host_results

/-! ### The second stretch -/

/-- The relation table, two rows to one. -/
theorem A2_v6 :
    after opsA2 V (Proc.devRef .tc main_v6)
      = shapeCast S500x128 (V (Proc.devRef .tc main_arg1)) shapeCasts_S1000x64_S500x128 := by
  host_results
  rfl

set_option maxRecDepth 8192 in
set_option maxHeartbeats 2000000 in
/-- Every entity index's packed row. -/
theorem A2_v18 : after opsA2 V (Proc.devRef .tc main_v18) = fun i => epairW (entCat V i) := by
  host_results
  rfl

set_option maxRecDepth 8192 in
set_option maxHeartbeats 2000000 in
/-- Every entity index's half of its packed row. -/
theorem A2_v19 : after opsA2 V (Proc.devRef .tc main_v19) = fun i => eparW (entCat V i) := by
  host_results
  rfl

/-- Every relation index's packed row. -/
theorem A2_v21 : after opsA2 V (Proc.devRef .tc main_v21) = fun i => rpairW (V (Proc.devRef .tc main_arg3) i) := by
  host_results
  rfl

/-- Every relation index's half of its packed row. -/
theorem A2_v23 : after opsA2 V (Proc.devRef .tc main_v23) = fun i => rparW (V (Proc.devRef .tc main_arg3) i) := by
  host_results
  rfl

set_option maxRecDepth 8192 in
set_option maxHeartbeats 2000000 in
/-- The entity indices' packed rows, 128 to a row. -/
theorem A2_v24 :
    after opsA2 V (Proc.devRef .tc main_v24)
      = shapeCast S512x128 (fun i => epairW (entCat V i)) shapeCasts_S65536_S512x128 := by
  host_results
  rfl

/-- The relation indices' packed rows, 128 to a row. -/
theorem A2_v25 :
    after opsA2 V (Proc.devRef .tc main_v25)
      = shapeCast S128x128 (fun i => rpairW (V (Proc.devRef .tc main_arg3) i)) shapeCasts_S16384_S128x128 := by
  host_results
  rfl

theorem A2_arg0 :
    after opsA2 V (Proc.devRef .tc main_arg0) = V (Proc.devRef .tc main_arg0) := by host_results
theorem A2_arg1 :
    after opsA2 V (Proc.devRef .tc main_arg1) = V (Proc.devRef .tc main_arg1) := by host_results
theorem A2_arg2 :
    after opsA2 V (Proc.devRef .tc main_arg2) = V (Proc.devRef .tc main_arg2) := by host_results
theorem A2_arg3 :
    after opsA2 V (Proc.devRef .tc main_arg3) = V (Proc.devRef .tc main_arg3) := by host_results
theorem A2_arg4 :
    after opsA2 V (Proc.devRef .tc main_arg4) = V (Proc.devRef .tc main_arg4) := by host_results
theorem A2_arg5 :
    after opsA2 V (Proc.devRef .tc main_arg5) = V (Proc.devRef .tc main_arg5) := by host_results
theorem A2_arg6 :
    after opsA2 V (Proc.devRef .tc main_arg6) = V (Proc.devRef .tc main_arg6) := by host_results
theorem A2_v0 :
    after opsA2 V (Proc.devRef .tc main_v0) = V (Proc.devRef .tc main_v0) := by host_results
theorem A2_v4 :
    after opsA2 V (Proc.devRef .tc main_v4) = V (Proc.devRef .tc main_v4) := by host_results
theorem A2_v5 :
    after opsA2 V (Proc.devRef .tc main_v5) = V (Proc.devRef .tc main_v5) := by host_results

/-! ### The third stretch -/

/-- Row `k` of the 65536 halves read as four rows of 16384: the halves of input `k`'s indices. -/
abbrev halfRow (e : IVec S65536 32) (k : Nat) (h : S4x16384.Slices ![k, 0] S1x16384) : IVec S16384 32 :=
  shapeCast S16384 (extractStridedSlice S1x16384 ![k, 0] (shapeCast S4x16384 e shapeCasts_S65536_S4x16384) h)
    shapeCasts_S1x16384_S16384

/-- The five half-selectors of each sample in one word, before the closing reshape. -/
theorem B1_v47 :
    after opsB1 V (Proc.devRef .tc main_v47)
      = fun i => packW (halfRow (V (Proc.devRef .tc main_v19)) 0 slices_S4x16384_S1x16384_0_0 i)
          (halfRow (V (Proc.devRef .tc main_v19)) 1 slices_S4x16384_S1x16384_1_0 i)
          (halfRow (V (Proc.devRef .tc main_v19)) 2 slices_S4x16384_S1x16384_2_0 i)
          (halfRow (V (Proc.devRef .tc main_v19)) 3 slices_S4x16384_S1x16384_3_0 i)
          (V (Proc.devRef .tc main_v23) i) := by
  host_results
  rfl

/-- The five half-selectors of each sample in one word, one to a row. -/
theorem B1_v48 :
    after opsB1 V (Proc.devRef .tc main_v48)
      = shapeCast S16384x1
          (fun i => packW (halfRow (V (Proc.devRef .tc main_v19)) 0 slices_S4x16384_S1x16384_0_0 i)
            (halfRow (V (Proc.devRef .tc main_v19)) 1 slices_S4x16384_S1x16384_1_0 i)
            (halfRow (V (Proc.devRef .tc main_v19)) 2 slices_S4x16384_S1x16384_2_0 i)
            (halfRow (V (Proc.devRef .tc main_v19)) 3 slices_S4x16384_S1x16384_3_0 i)
            (V (Proc.devRef .tc main_v23) i))
          shapeCasts_S16384_S16384x1 := by
  host_results
  rfl

theorem B1_arg0 :
    after opsB1 V (Proc.devRef .tc main_arg0) = V (Proc.devRef .tc main_arg0) := by host_results
theorem B1_arg1 :
    after opsB1 V (Proc.devRef .tc main_arg1) = V (Proc.devRef .tc main_arg1) := by host_results
theorem B1_arg2 :
    after opsB1 V (Proc.devRef .tc main_arg2) = V (Proc.devRef .tc main_arg2) := by host_results
theorem B1_arg3 :
    after opsB1 V (Proc.devRef .tc main_arg3) = V (Proc.devRef .tc main_arg3) := by host_results
theorem B1_arg4 :
    after opsB1 V (Proc.devRef .tc main_arg4) = V (Proc.devRef .tc main_arg4) := by host_results
theorem B1_arg5 :
    after opsB1 V (Proc.devRef .tc main_arg5) = V (Proc.devRef .tc main_arg5) := by host_results
theorem B1_arg6 :
    after opsB1 V (Proc.devRef .tc main_arg6) = V (Proc.devRef .tc main_arg6) := by host_results
theorem B1_v26_0 :
    after opsB1 V (Proc.devRef .tc main_v26_0) = V (Proc.devRef .tc main_v26_0) := by host_results
theorem B1_v26_1 :
    after opsB1 V (Proc.devRef .tc main_v26_1) = V (Proc.devRef .tc main_v26_1) := by host_results
theorem B1_v26_2 :
    after opsB1 V (Proc.devRef .tc main_v26_2) = V (Proc.devRef .tc main_v26_2) := by host_results
theorem B1_v26_3 :
    after opsB1 V (Proc.devRef .tc main_v26_3) = V (Proc.devRef .tc main_v26_3) := by host_results
theorem B1_v26_4 :
    after opsB1 V (Proc.devRef .tc main_v26_4) = V (Proc.devRef .tc main_v26_4) := by host_results

/-! ### The closing reshape -/

/-- The loss, as a scalar. -/
theorem B2_v50 :
    after opsB2 V (Proc.devRef .tc main_v50) = shapeCast S_ (V (Proc.devRef .tc main_v49)) shapeCasts_S1x1_S_ := by
  host_results
  rfl

theorem B2_arg0 :
    after opsB2 V (Proc.devRef .tc main_arg0) = V (Proc.devRef .tc main_arg0) := by host_results
theorem B2_arg1 :
    after opsB2 V (Proc.devRef .tc main_arg1) = V (Proc.devRef .tc main_arg1) := by host_results
theorem B2_arg2 :
    after opsB2 V (Proc.devRef .tc main_arg2) = V (Proc.devRef .tc main_arg2) := by host_results
theorem B2_arg3 :
    after opsB2 V (Proc.devRef .tc main_arg3) = V (Proc.devRef .tc main_arg3) := by host_results
theorem B2_arg4 :
    after opsB2 V (Proc.devRef .tc main_arg4) = V (Proc.devRef .tc main_arg4) := by host_results
theorem B2_arg5 :
    after opsB2 V (Proc.devRef .tc main_arg5) = V (Proc.devRef .tc main_arg5) := by host_results
theorem B2_arg6 :
    after opsB2 V (Proc.devRef .tc main_arg6) = V (Proc.devRef .tc main_arg6) := by host_results

end Values

end Cert.Proof.KB

end
-- ==== Proof.BLaunchDefs.lean ====
/-
  Definitions the launch and its stretches share: what the SparseCore call carries, the launch element, the two
  pipelines' tables and proof-data family, and the TensorCore's state between calls split into what it owes and the rest.
-/
import proofs.«205037_g73117523247527_cont_9to1c4b_608_48_alg».proof.Proof.BCommon
import proofs.«205037_g73117523247527_cont_9to1c4b_608_48_alg».proof.Proof.BHost
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What the one SparseCore call carries: per SparseCore its operands' shares and result rows (`st`, `dn`), per vector
    subcore its task's (`go`, `td`); nothing of the launch's is consumed by the kernel (`x`). -/
def P (st dn : Dev nD → Fin 2 → sProp (MT nD τ sig (HIx 1) (Elt F) ℕ UU ℕ)) (go td : Dev nD → Fin 2 → Fin 16 → sProp (MT nD τ sig (HIx 1) (Elt F) ℕ UU ℕ)) :
    (K (F := F)).Pay (nD := nD) (Val := Elt F) (Name := ℕ) (U := UU) where
  st := fun q d c => match q with | 0 => st d (Fin.cast nCore_zero c)
  dn := fun q d c => match q with | 0 => dn d (Fin.cast nCore_zero c)
  go := fun q d c i => match q with | 0 => go d (Fin.cast nCore_zero c) (Fin.cast nSub_zero i)
  td := fun q d c i => match q with | 0 => td d (Fin.cast nCore_zero c) (Fin.cast nSub_zero i)
  x := fun _ _ => iprop(emp)

/-- The launch element: the handshakes' rounds, the pipelines' staging cells' rounds, no copy counted yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- The tables of the two pipelines: neither prefetches anything. -/
abbrev adm : (p : Fin 2) → (pcfgs (F := F) p).Adm := fun p => (cfgs p).toPCfg_adm

/-- The proof data of the two pipelines as one family, a literal match on the pipeline. -/
def pdats (dat0 : (c : Dev nD) → Pipeline.Dat τ (Elt F) (HIx 1) ℕ UU ℕ (Pipeline.pin (pcfgs (F := F)) adm 0) c)
    (dat1 : (c : Dev nD) → Pipeline.Dat τ (Elt F) (HIx 1) ℕ UU ℕ (Pipeline.pin (pcfgs (F := F)) adm 1) c) :
    (p : Fin 2) → (c : Dev nD) → Pipeline.Dat τ (Elt F) (HIx 1) ℕ UU ℕ (Pipeline.pin (pcfgs (F := F)) adm p) c
  | ⟨0, _⟩ => dat0
  | ⟨1, _⟩ => dat1

/-- What @main starts from beside the launch's deal: the two pipelines' staging cells' ghost state; -/
abbrev G (d : Dev nD) : sProp 𝕄 := Pipeline.ghostOn (pcfgs (F := F)) adm EP Finset.univ d
/-- and what is left of it after the first region: the second pipeline's. -/
abbrev G1 (d : Dev nD) : sProp 𝕄 := Pipeline.ghostOn (pcfgs (F := F)) adm EP (Finset.univ.erase 0) d

/-- What the TensorCore owes before call `n`, its recorded pairs bounded (the first conjunct of the launch's state of it). -/
abbrev owesT (d : Dev nD) (n : ℕ) : sProp 𝕄 :=
  iprop(∃ W, ⌜(K (F := F)).WBelow (T d) W (8 * n)⌝ ∗ owes (T d) ((K (F := F)).Otc d n) W)

/-- The rest of the launch's state of the TensorCore before call `n`. -/
abbrev restT (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : ((K (F := F)).tcSt EH d n : sProp 𝕄) = iprop(owesT (F := F) d n ∗ restT (F := F) d n) := rfl

/-- The bound on the pairs the TensorCore's waits may have recorded before call `n`. -/
def boundT (d : Dev nD) (n : ℕ) : Set (SemLoc sig × HIx 1) := {p | (K (F := F)).lev (T d, p.1) p.2 ≤ 8 * n}

theorem none_mem_boundT (d : Dev nD) (n : ℕ) (sm : SemLoc sig) : (sm, (none : HIx 1)) ∈ boundT (F := F) d n := Nat.zero_le _

end Cert.Proof.KB

end
-- ==== Proof.BLaunch.lean ====
/-
  The launch: from the launch element and the stretches of @main on the TensorCore to the program's run. @main is
  host operations and the packing region; the SparseCore call, to which the nine arrays it touches are handed and from
  which they are taken back; host operations and the loss region. The stretches, the hand-over and the tiles' obligations
  enter as hypotheses; this module composes them.
-/
import proofs.«205037_g73117523247527_cont_9to1c4b_608_48_alg».proof.Proof.BLaunchDefs

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type}

local notation "𝕄" => MT nD τ sig (HIx 1) (Elt F) ℕ UU ℕ

variable (m : (ℓ : Loc nD τ sig) → Buf (Elt F) ℓ) (ρ : Dev nD → PrngReg)
variable (st dn : Dev nD → Fin 2 → sProp (MT nD τ sig (HIx 1) (Elt F) ℕ UU ℕ)) (go td : Dev nD → Fin 2 → Fin 16 → sProp (MT nD τ sig (HIx 1) (Elt F) ℕ UU ℕ))

/-! ## The launch element -/

theorem bigSep_emp' {I : Type} (s : Finset I) : (bigSep s fun _ => iprop(emp)) = (iprop(emp) : sProp 𝕄) := BI.bigSep_emp_const s
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P st dn go td).x q thr) := by
  unfold u₀
  iintro Hu
  ihave H := (ownU_pair _ _) $$ Hu
  icases H with ⟨HH, HR⟩
  ihave H2 := (show (BI.own ((embR (nD := nD) (τ := τ) (sig := sig) (Ix := HIx 1) (Val := Elt F) (Name := ℕ) (A := UH) (B := UP × Counters) (Lvl := ℕ))
      (initOf (Pipeline.cells (nD := nD) (τ := τ) cfgs cellOf_inj) (Pipeline.launchToks (nD := nD) (τ := τ) cfgs cellOf_inj), (1 : Counters))) : sProp 𝕄)
      ⊢ iprop(BI.own (EP (initOf (Pipeline.cells (nD := nD) (τ := τ) cfgs cellOf_inj) (Pipeline.launchToks (nD := nD) (τ := τ) cfgs cellOf_inj))) ∗ BI.own (((Emb.inr : Emb Counters (UP × Counters)).trans embR) (1 : Counters)))
      from own_pair_emb _ _ _) $$ HR
  icases H2 with ⟨HP, -⟩
  imod (Pipeline.fund_ghost (nD := nD) (τ := τ) (Val := Elt F) (Ix := HIx 1) (Name := ℕ) (U := UU) (Lvl := ℕ) cfgs EP cellOf_inj) $$ HP with ⟨Hcells, Htoks⟩
  imodintro
  isplitl [HH]; · iexact HH
  isplitl [Hcells Htoks]
  · unfold G Pipeline.ghostOn Pipeline.PerCore.ghostOn
    simp only [bigSep_sep']
    isplitl [Hcells]
    · iexact Hcells
    · iexact Htoks
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## @main on the TensorCore -/

variable [FloatOps F]

variable (VA VS VB : Dev nD → Valuation τ sig (Elt F)) (T9 : Finset (DevRef τ sig)) (hT9 : T9 ⊆ Pipeline.ucRefs τ sig)
variable (FIN : Dev nD → sProp (MT nD τ sig (HIx 1) (Elt F) ℕ UU ℕ))

variable (stretchA : ∀ d : Dev nD, iprop(levAts (K (F := F)).L (K (F := F)).lev ∗ boundary (T d) ∗ (held (T d) (Pipeline.ucRefs τ sig) (launchContents m d) : sProp (MT nD τ sig (HIx 1) (Elt F) ℕ UU ℕ)) ∗ owesT (F := F) d 0 ∗ G (F := F) d)
    ⊢ wp frame (wpE (D (F := F)) 𝒱 (T d) none) Set.univ (hostA (F := F)) fun _ =>
        iprop(boundary (T d) ∗ (held (T d) (Pipeline.ucRefs τ sig) (VA d) : sProp (MT nD τ sig (HIx 1) (Elt F) ℕ UU ℕ)) ∗ owesT (F := F) d 0 ∗ G1 (F := F) d))
variable (stretchB : ∀ d : Dev nD, iprop(levAts (K (F := F)).L (K (F := F)).lev ∗ boundary (T d) ∗ (held (T d) (Pipeline.ucRefs τ sig) (VS d) : sProp (MT nD τ sig (HIx 1) (Elt F) ℕ UU ℕ)) ∗ owesT (F := F) d 1 ∗ G1 (F := F) d)
    ⊢ wp frame (wpE (D (F := F)) 𝒱 (T d) none) Set.univ (hostB (F := F)) fun _ =>
        iprop(boundary (T d) ∗ (held (T d) (Pipeline.ucRefs τ sig) (VB d) : sProp (MT nD τ sig (HIx 1) (Elt F) ℕ UU ℕ)) ∗ owesT (F := F) d 1))
variable (hand : ∀ d : Dev nD, (held (T d) T9 (VA d) : sProp (MT nD τ sig (HIx 1) (Elt F) ℕ UU ℕ)) ⊢ bigSep Finset.univ fun c : Fin ((K (F := F)).nCore 0) => (P st dn go td).st 0 d c)
variable (back : ∀ d : Dev nD, (bigSep Finset.univ fun c : Fin ((K (F := F)).nCore 0) => (P st dn go td).dn 0 d c) ⊢ (held (T d) T9 (VS d) : sProp (MT nD τ sig (HIx 1) (Elt F) ℕ UU ℕ)))
variable (hVS : ∀ d, ∀ b ∈ Pipeline.ucRefs τ sig \ T9, VS d b = VA d b)
variable (hFIN : ∀ d : Dev nD, (held (T d) (Pipeline.ucRefs τ sig) (VB d) : sProp (MT nD τ sig (HIx 1) (Elt F) ℕ UU ℕ)) ⊢ FIN d)

include stretchA stretchB hand back hVS hFIN hT9 in
theorem hmain (κ : GSem nD τ sig → ℕ) (d : Dev nD) :
    iprop((K (F := F)).ctx EH (P st dn go td) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [show (unscopedBufs d (fun b => m ((SparseCore.T d).loc b)) : sProp 𝕄) = held (T d) (Pipeline.ucRefs τ sig) (launchContents m d) from
    Pipeline.unscopedBufs_held d (launchContents m d), main_eq, wp_bind, tcSt_eq, tcSt_eq]
  iintro ⟨#Hctx, ⟨HO, Hrest⟩, ⟨Hb, Hheld, -, -⟩, HG⟩
  ihave #Hlev := (SparseCore.Cfg.ctx_levAts (K := K (F := F)) (EH := EH) (P := P st dn go td) κ) $$ Hctx
  -- the first stretch: host operations, the packing region, host operations
  iapply ((K (F := F)).wp_liftProg (D (F := F)) 𝒱 (T d) Set.univ none (hostA (F := F)) _)
  iapply (wp_wand_r frame _ Set.univ)
  isplitl [Hb Hheld HO HG]
  · iapply (stretchA d)
    isplitr; · iexact Hlev
    isplitl [Hb]; · iexact Hb
    isplitl [Hheld]; · iexact Hheld
    isplitl [HO]; · iexact HO
    iexact HG
  iintro %_ ⟨Hb, Hheld, HO, HG1⟩
  rw [wp_bind]
  -- the SparseCore call: the nine arrays handed over and taken back
  ihave Hh := (Entails.of_eq (StableHlo.held_sub_split (Ix := HIx 1) (Name := ℕ) (U := UU) (Lvl := ℕ) (T d) hT9 (VA d))) $$ Hheld
  icases Hh with ⟨H9, Hoth⟩
  iapply ((K (F := F)).wp_run (D (F := F)) 𝒱 (EH := EH) (P := P st dn go td) κ d 0)
  simp only [Fin.val_zero, Nat.zero_add]
  isplitr; · iexact Hctx
  isplitl [HO Hrest]
  · rw [tcSt_eq]; isplitl [HO] <;> iassumption
  isplitl [H9]; · iapply (hand d); iexact H9
  iintro ⟨Hst, Hdn⟩
  ihave H9 := (back d) $$ Hdn
  ihave Hst' := (Entails.of_eq (tcSt_eq (F := F) d 1)) $$ Hst
  icases Hst' with ⟨HO, Hrest⟩
  -- the second stretch: host operations, the loss region, the reshape
  iapply ((K (F := F)).wp_liftProg (D (F := F)) 𝒱 (T d) Set.univ none (hostB (F := F)) _)
  iapply (wp_wand_r frame _ Set.univ)
  isplitl [Hb H9 Hoth HO HG1]
  · iapply (stretchB d)
    isplitr; · iexact Hlev
    isplitl [Hb]; · iexact Hb
    isplitl [H9 Hoth]
    · rw [StableHlo.held_sub_split (T d) hT9 (VS d), StableHlo.held_congr (T d) (hVS d)]
      isplitl [H9] <;> iassumption
    isplitl [HO]; · iexact HO
    iexact HG1
  iintro %_ ⟨-, Hheld, HO⟩
  isplitl [HO Hrest]
  · isplitl [HO] <;> iassumption
  iapply (hFIN d); iexact Hheld

/-! ## What the final memory says -/

abbrev r_v50 : DevRef τ sig := Proc.devRef .tc (main_v50 : Ref sig .tc)
abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_arg3 : DevRef τ sig := Proc.devRef .tc (main_arg3 : Ref sig .tc)
abbrev r_arg4 : DevRef τ sig := Proc.devRef .tc (main_arg4 : Ref sig .tc)
abbrev r_arg5 : DevRef τ sig := Proc.devRef .tc (main_arg5 : Ref sig .tc)
abbrev r_arg6 : DevRef τ sig := Proc.devRef .tc (main_arg6 : Ref sig .tc)

/-- The result and the seven arguments. -/
def R8 : Finset (DevRef τ sig) := {r_v50, r_arg0, r_arg1, r_arg2, r_arg3, r_arg4, r_arg5, r_arg6}

theorem R8_sub : R8 ⊆ Pipeline.ucRefs τ sig := by decide

/-- What @main leaves the claim: the result and the seven arguments at the final valuation. -/
def FIN8 (W : Dev nD → Valuation τ sig (Elt F)) (d : Dev nD) : sProp 𝕄 := held (T d) R8 (W d)

theorem held_R8 (d : Dev nD) (W : Valuation τ sig (Elt F)) :
    (held (T d) R8 W : sProp 𝕄) = iprop(((d, r_v50) ↦{fullShare} W r_v50) ∗ ((d, r_arg0) ↦{fullShare} W r_arg0) ∗ ((d, r_arg1) ↦{fullShare} W r_arg1)
      ∗ ((d, r_arg2) ↦{fullShare} W r_arg2) ∗ ((d, r_arg3) ↦{fullShare} W r_arg3) ∗ ((d, r_arg4) ↦{fullShare} W r_arg4)
      ∗ ((d, r_arg5) ↦{fullShare} W r_arg5) ∗ ((d, r_arg6) ↦{fullShare} W r_arg6)) := by
  unfold held R8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hFIN8 (W : Dev nD → Valuation τ sig (Elt F)) (d : Dev nD) : (held (T d) (Pipeline.ucRefs τ sig) (W d) : sProp 𝕄) ⊢ FIN8 W d := by
  unfold FIN8
  rw [StableHlo.held_sub_split (T d) R8_sub (W d)]
  exact sep_elim_left

/-- The final memory holds the result and the arguments at the final valuation. -/
def fq8 (W : Dev nD → Valuation τ sig (Elt F)) (d : Dev nD) (s' : Phys nD τ sig (Elt F)) : Prop :=
  s'.mem.mem (d, r_v50) = W d r_v50 ∧ s'.mem.mem (d, r_arg0) = W d r_arg0 ∧ s'.mem.mem (d, r_arg1) = W d r_arg1 ∧ s'.mem.mem (d, r_arg2) = W d r_arg2
    ∧ s'.mem.mem (d, r_arg3) = W d r_arg3 ∧ s'.mem.mem (d, r_arg4) = W d r_arg4 ∧ s'.mem.mem (d, r_arg5) = W d r_arg5 ∧ s'.mem.mem (d, r_arg6) = W d r_arg6

theorem hfin8 (W : Dev nD → Valuation τ sig (Elt F)) (d : Dev nD) (s' : Phys nD τ sig (Elt F)) : iprop(FIN8 W d ∗ SI s') ⊢ (⌜fq8 W d s'⌝ : sProp 𝕄) := by
  unfold FIN8
  rw [held_R8]
  iintro ⟨⟨H0, H1, H2, H3, H4, H5, H6, H7⟩, HSI⟩
  ihave H := (persistent_entails_right (SI_pointsTo_agree (st := s') (ℓ := (d, r_v50)) (I := Finset.univ) (q := fullShare) (f := W d r_v50))) $$ [HSI H0]
  · isplitl [HSI] <;> iassumption
  icases H with ⟨%h0, HSI, -⟩
  ihave H := (persistent_entails_right (SI_pointsTo_agree (st := s') (ℓ := (d, r_arg0)) (I := Finset.univ) (q := fullShare) (f := W d r_arg0))) $$ [HSI H1]
  · isplitl [HSI] <;> iassumption
  icases H with ⟨%h1, HSI, -⟩
  ihave H := (persistent_entails_right (SI_pointsTo_agree (st := s') (ℓ := (d, r_arg1)) (I := Finset.univ) (q := fullShare) (f := W d r_arg1))) $$ [HSI H2]
  · isplitl [HSI] <;> iassumption
  icases H with ⟨%h2, HSI, -⟩
  ihave H := (persistent_entails_right (SI_pointsTo_agree (st := s') (ℓ := (d, r_arg2)) (I := Finset.univ) (q := fullShare) (f := W d r_arg2))) $$ [HSI H3]
  · isplitl [HSI] <;> iassumption
  icases H with ⟨%h3, HSI, -⟩
  ihave H := (persistent_entails_right (SI_pointsTo_agree (st := s') (ℓ := (d, r_arg3)) (I := Finset.univ) (q := fullShare) (f := W d r_arg3))) $$ [HSI H4]
  · isplitl [HSI] <;> iassumption
  icases H with ⟨%h4, HSI, -⟩
  ihave H := (persistent_entails_right (SI_pointsTo_agree (st := s') (ℓ := (d, r_arg4)) (I := Finset.univ) (q := fullShare) (f := W d r_arg4))) $$ [HSI H5]
  · isplitl [HSI] <;> iassumption
  icases H with ⟨%h5, HSI, -⟩
  ihave H := (persistent_entails_right (SI_pointsTo_agree (st := s') (ℓ := (d, r_arg5)) (I := Finset.univ) (q := fullShare) (f := W d r_arg5))) $$ [HSI H6]
  · isplitl [HSI] <;> iassumption
  icases H with ⟨%h6, HSI, -⟩
  ihave H := (SI_pointsTo_agree (st := s') (ℓ := (d, r_arg6)) (I := Finset.univ) (q := fullShare) (f := W d r_arg6)) $$ [HSI H7]
  · isplitl [HSI] <;> iassumption
  icases H with %h7
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h6 i (Finset.mem_univ i), funext fun i => h7 i (Finset.mem_univ i)⟩

/-! ## The program's run -/

/-- The run's post: on every device the result and the arguments at the final valuation. -/
def QC8 (W : Dev nD → Valuation τ sig (Elt F)) : PUnit × MemSt nD τ sig (Elt F) → Prop := fun r => ∀ c : Dev nD,
  r.2.mem (c, r_v50) = W c r_v50 ∧ r.2.mem (c, r_arg0) = W c r_arg0 ∧ r.2.mem (c, r_arg1) = W c r_arg1 ∧ r.2.mem (c, r_arg2) = W c r_arg2
    ∧ r.2.mem (c, r_arg3) = W c r_arg3 ∧ r.2.mem (c, r_arg4) = W c r_arg4 ∧ r.2.mem (c, r_arg5) = W c r_arg5 ∧ r.2.mem (c, r_arg6) = W c r_arg6

include stretchA stretchB hand back hVS hT9 in
theorem run_main [∀ e, Nonempty (Elt F e)] [(P st dn go td).IsStorable]
    (htile : (K (F := F)).TileObl (D (F := F)) 𝒱 (P st dn go td) v₀ 0) (hsplit : (K (F := F)).VecSplit' (P st dn go td) 0) :
    θ_run (Cert.Kernel.defs (F := F)) (Cert.Kernel.threads (F := F)) ⟨m, fun _ => 0, ρ⟩ (QC8 VB) :=
  SparseCore.Cfg.θ_run_sc (K := K (F := F)) (D := D (F := F)) (𝒱 := 𝒱) (EH := EH) (P := P st dn go td) facts v₀
    (fun q hq => match q with | 0 => nomatch hq)
    (fun q _ => match q with | 0 => htile)
    (fun q _ => match q with | 0 => SparseCore.Cfg.VecSplit.of_plain hsplit)
    m ρ main (fun d => G (F := F) d) (FIN8 VB) (u₀ (F := F)) (sep_elim_left.trans (hu₀ st dn go td))
    (hmain m ρ st dn go td VA VS VB T9 hT9 (FIN8 VB) stretchA stretchB hand back hVS (hFIN8 VB)) (fq8 VB) (hfin8 VB) (QC8 VB) (fun _ h => h)

end Cert.Proof.KB

end
-- ==== Proof.BSplit.lean ====
/-
  How the SparseCore call's operands are dealt to its 2 × 16 vector subcores and gathered again.

  Four arrays are only read, each by every subcore: the packed entity table (500000 × 128), the relation table
  (500 × 128) and the two index arrays (512 × 128 and 128 × 128). Each of them is held whole by every subcore at a share:
  the full share is cut into two pieces, one per SparseCore, and each piece into sixteen, one per subcore. The five
  results (16384 × 128 each) are cut into 128 chunks of 128 rows; subcore `s` of SparseCore `c` owns, in full, the four
  chunks `8 s + 4 c + j`, `j < 4`, of every result. The shares of one array compose to the full share, the 128 chunks
  are pairwise disjoint and cover a result; so the nine arrays held whole ARE the thirty-two subcores' holdings, and the
  way back is the same equation read from right to left, at whatever contents the results then have.
-/
import proofs.«205037_g73117523247527_cont_9to1c4b_608_48_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## General facts -/

/-- Equal assertions entail one another. -/
theorem entails_of_eq {P Q : sProp 𝕄} (h : P = Q) : P ⊢ Q := by subst h; exact BI.Entails.refl _

/-- Separating conjunction is associative, as an equation. -/
theorem sep_assoc_eq (P Q R : sProp 𝕄) : (iprop((P ∗ Q) ∗ R) : sProp 𝕄) = iprop(P ∗ Q ∗ R) :=
  BI.Entails.antisymm _root_.Idealize.SL.BI.sep_assoc _root_.Idealize.SL.BI.sep_assoc'

/-- A family over four indices, written out. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- Elements held at a share are held, at once, at the shares of a cut in two stages: the share cut into `m` pieces,
    every piece cut into `n`. -/
theorem pointsTo_cut_twice {ℓ : Loc nD τ sig} (I : Finset (Idx ℓ)) (f : Buf (Elt F) ℓ) (q : PosShare TreeShare)
    {m n : ℕ} (hm : 0 < m) (hn : 0 < n) :
    (ℓ ↦[I]{q} f : sProp 𝕄)
      = bigSep Finset.univ fun a : Fin m => bigSep Finset.univ fun b : Fin n => ℓ ↦[I]{pieceOf (pieceOf q m hm a) n hn b} f := by
  rw [pointsTo_piecesOf I f hm q]
  exact bigSep_congr fun a _ => pointsTo_piecesOf I f hn _

/-- A buffer held whole is held piece by piece, over pairwise disjoint pieces that cover it. -/
theorem pointsTo_cover {ℓ : Loc nD τ sig} {J : Type} [Fintype J] (A : J → Finset (Idx ℓ))
    (hd : ∀ t ∈ (Finset.univ : Finset J), ∀ t' ∈ (Finset.univ : Finset J), t ≠ t' → Disjoint (A t) (A t'))
    (hc : (Finset.univ : Finset J).biUnion A = Finset.univ) (q : PosShare TreeShare) (f : Buf (Elt F) ℓ) :
    (ℓ ↦{q} f : sProp 𝕄) = bigSep Finset.univ fun t => ℓ ↦[A t]{q} f := by
  rw [← pointsTo_biUnion Finset.univ A hd, hc]

/-! ## The shares of the arrays that are only read -/

/-- The share of subcore `s` of SparseCore `c`: piece `s` of the sixteen that piece `c` of the two pieces of the
    full share is cut into. -/
def leafShare (c : Fin 2) (s : Fin 16) : PosShare TreeShare := pieceOf (pieceOf fullShare 2 (by decide) c) 16 (by decide) s

/-- A buffer held whole at the full share is held whole by every subcore at its share. -/
theorem whole_shares {ℓ : Loc nD τ sig} (X : Buf (Elt F) ℓ) :
    (ℓ ↦{fullShare} X : sProp 𝕄) = bigSep Finset.univ fun c : Fin 2 => bigSep Finset.univ fun s : Fin 16 => ℓ ↦{leafShare c s} X :=
  pointsTo_cut_twice Finset.univ X fullShare (by decide) (by decide)

/-! ## The chunks of a result -/

theorem chunkDiv : 128 ∣ S16384x128.size 0 := ⟨128, rfl⟩
/-- Rows `[128 g, 128 g + 128)` of a 16384 × 128 array. -/
abbrev chunkRect (g : Fin 128) : Rect S16384x128 := Rect.part (s := S16384x128) (a₀ := 0) chunkDiv g

local notation "r0V" => (Memref.whole Cert.Kernel.main_v26_0_scv : Memref Cert.Kernel.sig Kind.scVector Space.hbm Cert.Kernel.S16384x128 EltTy.f32)
local notation "r1V" => (Memref.whole Cert.Kernel.main_v26_1_scv : Memref Cert.Kernel.sig Kind.scVector Space.hbm Cert.Kernel.S16384x128 EltTy.f32)
local notation "r2V" => (Memref.whole Cert.Kernel.main_v26_2_scv : Memref Cert.Kernel.sig Kind.scVector Space.hbm Cert.Kernel.S16384x128 EltTy.f32)
local notation "r3V" => (Memref.whole Cert.Kernel.main_v26_3_scv : Memref Cert.Kernel.sig Kind.scVector Space.hbm Cert.Kernel.S16384x128 EltTy.f32)
local notation "r4V" => (Memref.whole Cert.Kernel.main_v26_4_scv : Memref Cert.Kernel.sig Kind.scVector Space.hbm Cert.Kernel.S16384x128 EltTy.f32)

/-- The elements of chunk `g`, as the set of that slice of a whole result. -/
abbrev chunkSet (g : Fin 128) : Finset S16384x128.Idx := ((r0V).view.slice (chunkRect g)).set

theorem chunkSet_eq (g : Fin 128) : chunkSet g = (chunkRect g).set := by
  show ((View.whole (main_v26_0_scv : Ref sig .scVector)).slice (chunkRect g)).set = _
  rw [View.set_slice]; exact Finset.map_refl
/-- The same slice of any of the other results has the same elements. -/
theorem chunkSet_r1 (g : Fin 128) : ((r1V).view.slice (chunkRect g)).set = chunkSet g := by
  rw [chunkSet_eq]
  show ((View.whole (main_v26_1_scv : Ref sig .scVector)).slice (chunkRect g)).set = _
  rw [View.set_slice]; exact Finset.map_refl
theorem chunkSet_r2 (g : Fin 128) : ((r2V).view.slice (chunkRect g)).set = chunkSet g := by
  rw [chunkSet_eq]
  show ((View.whole (main_v26_2_scv : Ref sig .scVector)).slice (chunkRect g)).set = _
  rw [View.set_slice]; exact Finset.map_refl
theorem chunkSet_r3 (g : Fin 128) : ((r3V).view.slice (chunkRect g)).set = chunkSet g := by
  rw [chunkSet_eq]
  show ((View.whole (main_v26_3_scv : Ref sig .scVector)).slice (chunkRect g)).set = _
  rw [View.set_slice]; exact Finset.map_refl
theorem chunkSet_r4 (g : Fin 128) : ((r4V).view.slice (chunkRect g)).set = chunkSet g := by
  rw [chunkSet_eq]
  show ((View.whole (main_v26_4_scv : Ref sig .scVector)).slice (chunkRect g)).set = _
  rw [View.set_slice]; exact Finset.map_refl

theorem chunks_disjoint : ∀ g ∈ (Finset.univ : Finset (Fin 128)), ∀ g' ∈ (Finset.univ : Finset (Fin 128)), g ≠ g' → Disjoint (chunkSet g) (chunkSet g') :=
  fun g _ g' _ h => by rw [chunkSet_eq, chunkSet_eq]; exact Rect.part_disjoint chunkDiv h
theorem chunks_cover : (Finset.univ : Finset (Fin 128)).biUnion chunkSet = Finset.univ :=
  (Finset.biUnion_congr rfl fun g _ => chunkSet_eq g).trans (Rect.biUnion_part chunkDiv)

/-- Chunk `8 s + 4 c + j`: the `j`-th of the four chunks of subcore `s` of SparseCore `c`. -/
def chunkIx (c : Fin 2) (s : Fin 16) (j : Fin 4) : Fin 128 :=
  ⟨8 * s.val + 4 * c.val + j.val, by have := c.isLt; have := s.isLt; have := j.isLt; omega⟩

theorem chunkIx_val (c : Fin 2) (s : Fin 16) (j : Fin 4) : (chunkIx c s j).val = 8 * s.val + 4 * c.val + j.val := rfl

/-- Every chunk is exactly one subcore's, at exactly one place among its four. -/
def chunkEquiv : Fin 2 × Fin 16 × Fin 4 ≃ Fin 128 where
  toFun p := chunkIx p.1 p.2.1 p.2.2
  invFun g := (⟨g.val / 4 % 2, Nat.mod_lt _ (by decide)⟩, ⟨g.val / 8, by have := g.isLt; omega⟩, ⟨g.val % 4, Nat.mod_lt _ (by decide)⟩)
  left_inv := by
    rintro ⟨c, s, j⟩
    have hc := c.isLt; have hs := s.isLt; have hj := j.isLt
    refine Prod.ext (Fin.ext ?_) (Prod.ext (Fin.ext ?_) (Fin.ext ?_))
    · show (8 * s.val + 4 * c.val + j.val) / 4 % 2 = c.val; omega
    · show (8 * s.val + 4 * c.val + j.val) / 8 = s.val; omega
    · show (8 * s.val + 4 * c.val + j.val) % 4 = j.val; omega
  right_inv := by
    intro g
    refine Fin.ext ?_
    show 8 * (g.val / 8) + 4 * (g.val / 4 % 2) + g.val % 4 = g.val
    omega

/-- A family over the 128 chunks, dealt to the subcores. -/
theorem chunks_tiles (Φ : Fin 128 → sProp 𝕄) :
    bigSep Finset.univ Φ
      = bigSep Finset.univ fun c : Fin 2 => bigSep Finset.univ fun s : Fin 16 => bigSep Finset.univ fun j : Fin 4 => Φ (chunkIx c s j) := by
  rw [bigSep_univ_equiv chunkEquiv Φ, bigSep_univ_prod]
  refine bigSep_congr fun c _ => ?_
  rw [bigSep_univ_prod]
  rfl

/-- Two unit-stride rectangles at equal offsets and of equal sizes are one rectangle. -/
theorem rect_unit_congr {sh : Shape} {off off' size size' : Fin sh.rank → ℕ} (ho : off = off') (hs : size = size')
    (p : ∀ a, off a + size a ≤ sh.size a) (p' : ∀ a, off' a + size' a ≤ sh.size a) : Rect.unit off size p = Rect.unit off' size' p' := by
  subst ho; subst hs; rfl

/-- The window of 128 rows at row `128 g` is chunk `g`. -/
theorem window_rect (g : Fin 128) (off : Fin 2 → ℕ) (hoff : off = ![128 * g.val, 0]) (inb : ∀ a, off a + S128x128.size a ≤ S16384x128.size a) :
    Rect.unit (s := S16384x128) off S128x128.size inb = chunkRect g := by
  refine rect_unit_congr ?_ ?_ inb _
  · rw [hoff]; funext a
    match a with
    | 0 => show 128 * g.val = g.val * 128; exact Nat.mul_comm _ _
    | 1 => rfl
  · funext a
    match a with
    | 0 => rfl
    | 1 => rfl

/-- Such a window of a whole result has chunk `g`'s elements. -/
theorem window_set_r0 (g : Fin 128) (off : Fin 2 → ℕ) (hoff : off = ![128 * g.val, 0]) (inb : ∀ a, off a + S128x128.size a ≤ S16384x128.size a) :
    ((r0V).slice (Rect.unit (s := S16384x128) off S128x128.size inb) (fun _ => rfl)).view.set = chunkSet g := by
  show ((r0V).view.slice (Rect.unit (s := S16384x128) off S128x128.size inb)).set = ((r0V).view.slice (chunkRect g)).set
  rw [window_rect g off hoff inb]
theorem window_set_r1 (g : Fin 128) (off : Fin 2 → ℕ) (hoff : off = ![128 * g.val, 0]) (inb : ∀ a, off a + S128x128.size a ≤ S16384x128.size a) :
    ((r1V).slice (Rect.unit (s := S16384x128) off S128x128.size inb) (fun _ => rfl)).view.set = chunkSet g := by
  show ((r1V).view.slice (Rect.unit (s := S16384x128) off S128x128.size inb)).set = _
  rw [window_rect g off hoff inb]; exact chunkSet_r1 g
theorem window_set_r2 (g : Fin 128) (off : Fin 2 → ℕ) (hoff : off = ![128 * g.val, 0]) (inb : ∀ a, off a + S128x128.size a ≤ S16384x128.size a) :
    ((r2V).slice (Rect.unit (s := S16384x128) off S128x128.size inb) (fun _ => rfl)).view.set = chunkSet g := by
  show ((r2V).view.slice (Rect.unit (s := S16384x128) off S128x128.size inb)).set = _
  rw [window_rect g off hoff inb]; exact chunkSet_r2 g
theorem window_set_r3 (g : Fin 128) (off : Fin 2 → ℕ) (hoff : off = ![128 * g.val, 0]) (inb : ∀ a, off a + S128x128.size a ≤ S16384x128.size a) :
    ((r3V).slice (Rect.unit (s := S16384x128) off S128x128.size inb) (fun _ => rfl)).view.set = chunkSet g := by
  show ((r3V).view.slice (Rect.unit (s := S16384x128) off S128x128.size inb)).set = _
  rw [window_rect g off hoff inb]; exact chunkSet_r3 g
theorem window_set_r4 (g : Fin 128) (off : Fin 2 → ℕ) (hoff : off = ![128 * g.val, 0]) (inb : ∀ a, off a + S128x128.size a ≤ S16384x128.size a) :
    ((r4V).slice (Rect.unit (s := S16384x128) off S128x128.size inb) (fun _ => rfl)).view.set = chunkSet g := by
  show ((r4V).view.slice (Rect.unit (s := S16384x128) off S128x128.size inb)).set = _
  rw [window_rect g off hoff inb]; exact chunkSet_r4 g

/-- The SparseCore and the subcore of a tile of the call's grid. -/
abbrev coreOf (L : grid1.Coords) : Fin 2 := Fin.cast (rfl : grid1.bound 0 = 2) (L 0)
abbrev subOf (L : grid1.Coords) : Fin 16 := Fin.cast (rfl : grid1.bound 1 = 16) (L 1)

/-- The row offset the tile at `L` computes for its `j`-th window is its `j`-th chunk's. -/
theorem tile_off (L : grid1.Coords) (j : Fin 4) :
    k1_off3 L (BitVec.ofNat 32 j.val) = ![128 * (chunkIx (coreOf L) (subOf L) j).val, 0] := by
  have h : 1024 * (L 1).val + 512 * (L 0).val + 128 * j.val = 128 * (chunkIx (coreOf L) (subOf L) j).val := by
    rw [chunkIx_val]; show _ = 128 * (8 * (L 1).val + 4 * (L 0).val + j.val); omega
  rw [k1_off3_eq L j, h]

/-- The `j`-th window of the tile at `L` in each result has the elements of the tile's `j`-th chunk. -/
theorem tile_window_r0 (L : grid1.Coords) (j : Fin 4) :
    ((r0V).slice (Rect.unit (s := S16384x128) (k1_off3 L (BitVec.ofNat 32 j.val)) S128x128.size (k1_off3_inb L j)) (fun _ => rfl)).view.set
      = chunkSet (chunkIx (coreOf L) (subOf L) j) :=
  window_set_r0 _ _ (tile_off L j) _
theorem tile_window_r1 (L : grid1.Coords) (j : Fin 4) :
    ((r1V).slice (Rect.unit (s := S16384x128) (k1_off3 L (BitVec.ofNat 32 j.val)) S128x128.size (k1_off3_inb L j)) (fun _ => rfl)).view.set
      = chunkSet (chunkIx (coreOf L) (subOf L) j) :=
  window_set_r1 _ _ (tile_off L j) _
theorem tile_window_r2 (L : grid1.Coords) (j : Fin 4) :
    ((r2V).slice (Rect.unit (s := S16384x128) (k1_off3 L (BitVec.ofNat 32 j.val)) S128x128.size (k1_off3_inb L j)) (fun _ => rfl)).view.set
      = chunkSet (chunkIx (coreOf L) (subOf L) j) :=
  window_set_r2 _ _ (tile_off L j) _
theorem tile_window_r3 (L : grid1.Coords) (j : Fin 4) :
    ((r3V).slice (Rect.unit (s := S16384x128) (k1_off3 L (BitVec.ofNat 32 j.val)) S128x128.size (k1_off3_inb L j)) (fun _ => rfl)).view.set
      = chunkSet (chunkIx (coreOf L) (subOf L) j) :=
  window_set_r3 _ _ (tile_off L j) _
theorem tile_window_r4 (L : grid1.Coords) (j : Fin 4) :
    ((r4V).slice (Rect.unit (s := S16384x128) (k1_off3 L (BitVec.ofNat 32 j.val)) S128x128.size (k1_off3_inb L j)) (fun _ => rfl)).view.set
      = chunkSet (chunkIx (coreOf L) (subOf L) j) :=
  window_set_r4 _ _ (tile_off L j) _

/-- A result held whole is, chunk place by chunk place, every subcore's chunk at that place. -/
theorem whole_chunks_flat {ℓ : Loc nD τ sig} (A : Fin 128 → Finset (Idx ℓ))
    (hd : ∀ g ∈ (Finset.univ : Finset (Fin 128)), ∀ g' ∈ (Finset.univ : Finset (Fin 128)), g ≠ g' → Disjoint (A g) (A g'))
    (hc : (Finset.univ : Finset (Fin 128)).biUnion A = Finset.univ) (Y : Buf (Elt F) ℓ) :
    (ℓ ↦{fullShare} Y : sProp 𝕄) = iprop(
      (bigSep Finset.univ fun c : Fin 2 => bigSep Finset.univ fun s : Fin 16 => ℓ ↦[A (chunkIx c s 0)]{fullShare} Y)
      ∗ (bigSep Finset.univ fun c : Fin 2 => bigSep Finset.univ fun s : Fin 16 => ℓ ↦[A (chunkIx c s 1)]{fullShare} Y)
      ∗ (bigSep Finset.univ fun c : Fin 2 => bigSep Finset.univ fun s : Fin 16 => ℓ ↦[A (chunkIx c s 2)]{fullShare} Y)
      ∗ (bigSep Finset.univ fun c : Fin 2 => bigSep Finset.univ fun s : Fin 16 => ℓ ↦[A (chunkIx c s 3)]{fullShare} Y)) := by
  rw [pointsTo_cover A hd hc, chunks_tiles]
  simp only [bigSep_fin_four, bigSep_sep']

/-! ## What a subcore holds, what a SparseCore holds -/

abbrev loc5 (d : Dev nD) : Loc nD τ sig := (SparseCore.T d).loc main_v5
abbrev loc6 (d : Dev nD) : Loc nD τ sig := (SparseCore.T d).loc main_v6
abbrev loc24 (d : Dev nD) : Loc nD τ sig := (SparseCore.T d).loc main_v24
abbrev loc25 (d : Dev nD) : Loc nD τ sig := (SparseCore.T d).loc main_v25
abbrev locR0 (d : Dev nD) : Loc nD τ sig := (SparseCore.T d).loc main_v26_0
abbrev locR1 (d : Dev nD) : Loc nD τ sig := (SparseCore.T d).loc main_v26_1
abbrev locR2 (d : Dev nD) : Loc nD τ sig := (SparseCore.T d).loc main_v26_2
abbrev locR3 (d : Dev nD) : Loc nD τ sig := (SparseCore.T d).loc main_v26_3
abbrev locR4 (d : Dev nD) : Loc nD τ sig := (SparseCore.T d).loc main_v26_4

section Holdings

variable (d : Dev nD) (c : Fin 2) (s : Fin 16)
variable (X5 : Buf (Elt F) (loc5 d)) (X6 : Buf (Elt F) (loc6 d)) (X24 : Buf (Elt F) (loc24 d)) (X25 : Buf (Elt F) (loc25 d))
variable (Y0 : Buf (Elt F) (locR0 d)) (Y1 : Buf (Elt F) (locR1 d)) (Y2 : Buf (Elt F) (locR2 d)) (Y3 : Buf (Elt F) (locR3 d)) (Y4 : Buf (Elt F) (locR4 d))
variable (G0 : Buf (Elt F) (locR0 d)) (G1 : Buf (Elt F) (locR1 d)) (G2 : Buf (Elt F) (locR2 d)) (G3 : Buf (Elt F) (locR3 d)) (G4 : Buf (Elt F) (locR4 d))

/-- What subcore `s` of SparseCore `c` is handed: its share of each array that is only read, whole; its four chunks of each
    result, in full, the results at contents `Y0 … Y4` (result by result, chunk by chunk). -/
def subGo : sProp 𝕄 :=
  iprop((loc5 d ↦{leafShare c s} X5) ∗ (loc6 d ↦{leafShare c s} X6) ∗ (loc24 d ↦{leafShare c s} X24) ∗ (loc25 d ↦{leafShare c s} X25)
    ∗ (locR0 d ↦[chunkSet (chunkIx c s 0)]{fullShare} Y0) ∗ (locR0 d ↦[chunkSet (chunkIx c s 1)]{fullShare} Y0) ∗ (locR0 d ↦[chunkSet (chunkIx c s 2)]{fullShare} Y0) ∗ (locR0 d ↦[chunkSet (chunkIx c s 3)]{fullShare} Y0)
    ∗ (locR1 d ↦[chunkSet (chunkIx c s 0)]{fullShare} Y1) ∗ (locR1 d ↦[chunkSet (chunkIx c s 1)]{fullShare} Y1) ∗ (locR1 d ↦[chunkSet (chunkIx c s 2)]{fullShare} Y1) ∗ (locR1 d ↦[chunkSet (chunkIx c s 3)]{fullShare} Y1)
    ∗ (locR2 d ↦[chunkSet (chunkIx c s 0)]{fullShare} Y2) ∗ (locR2 d ↦[chunkSet (chunkIx c s 1)]{fullShare} Y2) ∗ (locR2 d ↦[chunkSet (chunkIx c s 2)]{fullShare} Y2) ∗ (locR2 d ↦[chunkSet (chunkIx c s 3)]{fullShare} Y2)
    ∗ (locR3 d ↦[chunkSet (chunkIx c s 0)]{fullShare} Y3) ∗ (locR3 d ↦[chunkSet (chunkIx c s 1)]{fullShare} Y3) ∗ (locR3 d ↦[chunkSet (chunkIx c s 2)]{fullShare} Y3) ∗ (locR3 d ↦[chunkSet (chunkIx c s 3)]{fullShare} Y3)
    ∗ (locR4 d ↦[chunkSet (chunkIx c s 0)]{fullShare} Y4) ∗ (locR4 d ↦[chunkSet (chunkIx c s 1)]{fullShare} Y4) ∗ (locR4 d ↦[chunkSet (chunkIx c s 2)]{fullShare} Y4) ∗ locR4 d ↦[chunkSet (chunkIx c s 3)]{fullShare} Y4)

/-- What it hands back: the same, its chunks of the results at the contents `G0 … G4`. -/
abbrev subTd : sProp 𝕄 := subGo d c s X5 X6 X24 X25 G0 G1 G2 G3 G4

/-- What SparseCore `c` is handed: its sixteen subcores' holdings. -/
def coreSt : sProp 𝕄 := bigSep Finset.univ fun s : Fin 16 => subGo d c s X5 X6 X24 X25 Y0 Y1 Y2 Y3 Y4

/-- What it hands back. -/
abbrev coreDn : sProp 𝕄 := coreSt d c X5 X6 X24 X25 G0 G1 G2 G3 G4

theorem coreSt_eq : coreSt d c X5 X6 X24 X25 Y0 Y1 Y2 Y3 Y4 = bigSep Finset.univ fun s : Fin 16 => subGo d c s X5 X6 X24 X25 Y0 Y1 Y2 Y3 Y4 := rfl

set_option synthInstance.maxSize 4096 in
set_option synthInstance.maxHeartbeats 400000 in
instance subGo_storable : BI.Storable (upEmb : UEmb _ 𝕄) (subGo d c s X5 X6 X24 X25 Y0 Y1 Y2 Y3 Y4) := by
  unfold subGo; infer_instance
instance coreSt_storable : BI.Storable (upEmb : UEmb _ 𝕄) (coreSt d c X5 X6 X24 X25 Y0 Y1 Y2 Y3 Y4) := by
  unfold coreSt; infer_instance

/-- A SparseCore's holding is its subcores' holdings, and their holdings at the end are its own. -/
theorem split_core :
    coreSt d c X5 X6 X24 X25 Y0 Y1 Y2 Y3 Y4 ⊢ |={Set.univ}=> iprop(
      (bigSep Finset.univ fun s : Fin 16 => subGo d c s X5 X6 X24 X25 Y0 Y1 Y2 Y3 Y4)
      ∗ ((bigSep Finset.univ fun s : Fin 16 => subTd d c s X5 X6 X24 X25 G0 G1 G2 G3 G4) -∗ coreDn d c X5 X6 X24 X25 G0 G1 G2 G3 G4)) := by
  unfold coreDn coreSt
  iintro H; imodintro
  isplitl [H]; · iexact H
  iintro H'; iexact H'

/-- The nine arrays held whole at the full share are the two SparseCores' holdings. -/
theorem whole_eq_cores :
    (iprop((loc5 d ↦{fullShare} X5) ∗ (loc6 d ↦{fullShare} X6) ∗ (loc24 d ↦{fullShare} X24) ∗ (loc25 d ↦{fullShare} X25)
      ∗ (locR0 d ↦{fullShare} Y0) ∗ (locR1 d ↦{fullShare} Y1) ∗ (locR2 d ↦{fullShare} Y2) ∗ (locR3 d ↦{fullShare} Y3) ∗ (locR4 d ↦{fullShare} Y4)) : sProp 𝕄)
      = bigSep Finset.univ fun c : Fin 2 => coreSt d c X5 X6 X24 X25 Y0 Y1 Y2 Y3 Y4 := by
  rw [whole_shares X5, whole_shares X6, whole_shares X24, whole_shares X25,
    whole_chunks_flat (ℓ := locR0 d) chunkSet chunks_disjoint chunks_cover Y0, whole_chunks_flat (ℓ := locR1 d) chunkSet chunks_disjoint chunks_cover Y1,
    whole_chunks_flat (ℓ := locR2 d) chunkSet chunks_disjoint chunks_cover Y2, whole_chunks_flat (ℓ := locR3 d) chunkSet chunks_disjoint chunks_cover Y3,
    whole_chunks_flat (ℓ := locR4 d) chunkSet chunks_disjoint chunks_cover Y4]
  unfold coreSt subGo
  simp only [bigSep_sep', sep_assoc_eq]

/-- What the TensorCore holds at the call is what the two SparseCores are handed. -/
theorem hand_over :
    (iprop((loc5 d ↦{fullShare} X5) ∗ (loc6 d ↦{fullShare} X6) ∗ (loc24 d ↦{fullShare} X24) ∗ (loc25 d ↦{fullShare} X25)
      ∗ (locR0 d ↦{fullShare} Y0) ∗ (locR1 d ↦{fullShare} Y1) ∗ (locR2 d ↦{fullShare} Y2) ∗ (locR3 d ↦{fullShare} Y3) ∗ (locR4 d ↦{fullShare} Y4)) : sProp 𝕄)
      ⊢ bigSep Finset.univ fun c : Fin 2 => coreSt d c X5 X6 X24 X25 Y0 Y1 Y2 Y3 Y4 :=
  entails_of_eq (whole_eq_cores d X5 X6 X24 X25 Y0 Y1 Y2 Y3 Y4)

/-- What the two SparseCores hand back is the nine arrays whole at the full share: the arrays that were only read at
    their contents, the results at `G0 … G4`. -/
theorem take_back :
    (bigSep Finset.univ fun c : Fin 2 => coreDn d c X5 X6 X24 X25 G0 G1 G2 G3 G4)
      ⊢ (iprop((loc5 d ↦{fullShare} X5) ∗ (loc6 d ↦{fullShare} X6) ∗ (loc24 d ↦{fullShare} X24) ∗ (loc25 d ↦{fullShare} X25)
      ∗ (locR0 d ↦{fullShare} G0) ∗ (locR1 d ↦{fullShare} G1) ∗ (locR2 d ↦{fullShare} G2) ∗ (locR3 d ↦{fullShare} G3) ∗ (locR4 d ↦{fullShare} G4)) : sProp 𝕄) :=
  entails_of_eq (whole_eq_cores d X5 X6 X24 X25 G0 G1 G2 G3 G4).symm

end Holdings

/-! ## The call's own index types -/

/-- A family over the call's SparseCores is one over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
/-- A family over the call's subcores is one over `Fin 16`. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A split stated over `Fin 2` and `Fin 16` is one over the call's own SparseCores and subcores. -/
theorem split_call (st dn : Dev nD → Fin 2 → sProp 𝕄) (go td : Dev nD → Fin 2 → Fin 16 → sProp 𝕄)
    (h : ∀ d c, st d c ⊢ |={Set.univ}=> iprop((bigSep Finset.univ fun s : Fin 16 => go d c s) ∗ ((bigSep Finset.univ fun s : Fin 16 => td d c s) -∗ dn d c)))
    (d : Dev nD) (c : Fin ((K (F := F)).nCore 0)) :
    st d (Fin.cast nCore_zero c) ⊢ |={Set.univ}=> iprop(
      (bigSep Finset.univ fun i : Fin ((K (F := F)).nSub 0) => go d (Fin.cast nCore_zero c) (Fin.cast nSub_zero i))
      ∗ ((bigSep Finset.univ fun i : Fin ((K (F := F)).nSub 0) => td d (Fin.cast nCore_zero c) (Fin.cast nSub_zero i)) -∗ dn d (Fin.cast nCore_zero c))) := by
  rw [bigSep_subs (F := F) (fun s => go d (Fin.cast nCore_zero c) s), bigSep_subs (F := F) (fun s => td d (Fin.cast nCore_zero c) s)]
  exact h d _

end Cert.Proof.KB

end
-- ==== Proof.BHandOver.lean ====
/-
  The TensorCore's side of the SparseCore call. Before the call the TensorCore holds its nine arrays whole, at a
  valuation; that is what the call hands the two SparseCores. After it the SparseCores hand back the same arrays, the
  four that were only read unchanged and the five results at their new contents; that is the nine arrays held at the
  valuation updated at the five results. Every other array is untouched by the update.
-/
import proofs.«205037_g73117523247527_cont_9to1c4b_608_48_alg».proof.Proof.BSplit
import proofs.«205037_g73117523247527_cont_9to1c4b_608_48_alg».proof.Proof.BLaunchDefs

noncomputable section

namespace Cert.Proof.KB

open Cert.Kernel Cert.Kernel.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The nine arrays of the call -/

abbrev r5' : DevRef τ sig := Proc.devRef .tc (main_v5 : Ref sig .tc)
abbrev r6' : DevRef τ sig := Proc.devRef .tc (main_v6 : Ref sig .tc)
abbrev r24' : DevRef τ sig := Proc.devRef .tc (main_v24 : Ref sig .tc)
abbrev r25' : DevRef τ sig := Proc.devRef .tc (main_v25 : Ref sig .tc)
abbrev o0' : DevRef τ sig := Proc.devRef .tc (main_v26_0 : Ref sig .tc)
abbrev o1' : DevRef τ sig := Proc.devRef .tc (main_v26_1 : Ref sig .tc)
abbrev o2' : DevRef τ sig := Proc.devRef .tc (main_v26_2 : Ref sig .tc)
abbrev o3' : DevRef τ sig := Proc.devRef .tc (main_v26_3 : Ref sig .tc)
abbrev o4' : DevRef τ sig := Proc.devRef .tc (main_v26_4 : Ref sig .tc)

/-- The four arrays the call only reads and its five results. -/
def T9 : Finset (DevRef τ sig) := {r5', r6', r24', r25', o0', o1', o2', o3', o4'}

theorem mem_T9 {b : DevRef τ sig} :
    b ∈ T9 ↔ b = r5' ∨ b = r6' ∨ b = r24' ∨ b = r25' ∨ b = o0' ∨ b = o1' ∨ b = o2' ∨ b = o3' ∨ b = o4' := by
  unfold T9; simp only [Finset.mem_insert, Finset.mem_singleton]

/-- All nine are arrays of the TensorCore that no region scopes. -/
theorem T9_sub : T9 ⊆ Pipeline.ucRefs τ sig := by
  intro b hb
  rcases mem_T9.mp hb with rfl | rfl | rfl | rfl | rfl | rfl | rfl | rfl | rfl <;>
    exact Finset.mem_filter.mpr ⟨StableHlo.devRef_mem_tcRefs _, by decide⟩

/-- The nine arrays held at a valuation, one by one. -/
theorem held_T9 (d : Dev nD) (W : Valuation τ sig (Elt F)) :
    (held (SparseCore.T d) T9 W : sProp 𝕄)
      = iprop((loc5 d ↦{fullShare} W r5') ∗ (loc6 d ↦{fullShare} W r6') ∗ (loc24 d ↦{fullShare} W r24') ∗ (loc25 d ↦{fullShare} W r25')
        ∗ (locR0 d ↦{fullShare} W o0') ∗ (locR1 d ↦{fullShare} W o1') ∗ (locR2 d ↦{fullShare} W o2') ∗ (locR3 d ↦{fullShare} W o3')
        ∗ locR4 d ↦{fullShare} W o4') := by
  unfold held T9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The valuation after the call -/

section Call

variable (VA : Dev nD → Valuation τ sig (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- The valuation with the five results at their new contents. -/
def VS (d : Dev nD) : Valuation τ sig (Elt F) :=
  Function.update (Function.update (Function.update (Function.update (Function.update (VA d) o0' (G0 d)) o1' (G1 d)) o2' (G2 d)) o3' (G3 d)) o4' (G4 d)

/-- Away from the five results nothing changed. -/
theorem VS_of_ne (d : Dev nD) {b : DevRef τ sig} (h0 : b ≠ o0') (h1 : b ≠ o1') (h2 : b ≠ o2') (h3 : b ≠ o3') (h4 : b ≠ o4') :
    VS VA G0 G1 G2 G3 G4 d b = VA d b := by
  unfold VS
  rw [Function.update_of_ne h4, Function.update_of_ne h3, Function.update_of_ne h2, Function.update_of_ne h1, Function.update_of_ne h0]

theorem VS_r5 (d : Dev nD) : VS VA G0 G1 G2 G3 G4 d r5' = VA d r5' := VS_of_ne VA G0 G1 G2 G3 G4 d (by decide) (by decide) (by decide) (by decide) (by decide)
theorem VS_r6 (d : Dev nD) : VS VA G0 G1 G2 G3 G4 d r6' = VA d r6' := VS_of_ne VA G0 G1 G2 G3 G4 d (by decide) (by decide) (by decide) (by decide) (by decide)
theorem VS_r24 (d : Dev nD) : VS VA G0 G1 G2 G3 G4 d r24' = VA d r24' := VS_of_ne VA G0 G1 G2 G3 G4 d (by decide) (by decide) (by decide) (by decide) (by decide)
theorem VS_r25 (d : Dev nD) : VS VA G0 G1 G2 G3 G4 d r25' = VA d r25' := VS_of_ne VA G0 G1 G2 G3 G4 d (by decide) (by decide) (by decide) (by decide) (by decide)
theorem VS_o0 (d : Dev nD) : VS VA G0 G1 G2 G3 G4 d o0' = G0 d := by
  unfold VS
  rw [Function.update_of_ne (show o0' ≠ o4' by decide), Function.update_of_ne (show o0' ≠ o3' by decide),
    Function.update_of_ne (show o0' ≠ o2' by decide), Function.update_of_ne (show o0' ≠ o1' by decide), Function.update_self]
theorem VS_o1 (d : Dev nD) : VS VA G0 G1 G2 G3 G4 d o1' = G1 d := by
  unfold VS
  rw [Function.update_of_ne (show o1' ≠ o4' by decide), Function.update_of_ne (show o1' ≠ o3' by decide),
    Function.update_of_ne (show o1' ≠ o2' by decide), Function.update_self]
theorem VS_o2 (d : Dev nD) : VS VA G0 G1 G2 G3 G4 d o2' = G2 d := by
  unfold VS
  rw [Function.update_of_ne (show o2' ≠ o4' by decide), Function.update_of_ne (show o2' ≠ o3' by decide), Function.update_self]
theorem VS_o3 (d : Dev nD) : VS VA G0 G1 G2 G3 G4 d o3' = G3 d := by
  unfold VS
  rw [Function.update_of_ne (show o3' ≠ o4' by decide), Function.update_self]
theorem VS_o4 (d : Dev nD) : VS VA G0 G1 G2 G3 G4 d o4' = G4 d := by
  unfold VS
  rw [Function.update_self]

/-- Every unscoped array outside the nine is where it was. -/
theorem hVS : ∀ d, ∀ b ∈ Pipeline.ucRefs τ sig \ T9, VS VA G0 G1 G2 G3 G4 d b = VA d b := by
  intro d b hb
  have hn : b ∉ T9 := (Finset.mem_sdiff.mp hb).2
  have hn' := fun h => hn (mem_T9.mpr h)
  exact VS_of_ne VA G0 G1 G2 G3 G4 d (fun h => hn' (by simp [h])) (fun h => hn' (by simp [h])) (fun h => hn' (by simp [h]))
    (fun h => hn' (by simp [h])) (fun h => hn' (by simp [h]))

/-! ## What the call carries -/

/-- What the call hands SparseCore `c`, -/
def cSt (d : Dev nD) (c : Fin 2) : sProp 𝕄 := coreSt d c (VA d r5') (VA d r6') (VA d r24') (VA d r25') (VA d o0') (VA d o1') (VA d o2') (VA d o3') (VA d o4')
/-- what it gets back, -/
def cDn (d : Dev nD) (c : Fin 2) : sProp 𝕄 := coreDn d c (VA d r5') (VA d r6') (VA d r24') (VA d r25') (G0 d) (G1 d) (G2 d) (G3 d) (G4 d)
/-- what subcore `s` of it is handed, -/
def tGo (d : Dev nD) (c : Fin 2) (s : Fin 16) : sProp 𝕄 := subGo d c s (VA d r5') (VA d r6') (VA d r24') (VA d r25') (VA d o0') (VA d o1') (VA d o2') (VA d o3') (VA d o4')
/-- and what that hands back. -/
def tTd (d : Dev nD) (c : Fin 2) (s : Fin 16) : sProp 𝕄 := subTd d c s (VA d r5') (VA d r6') (VA d r24') (VA d r25') (G0 d) (G1 d) (G2 d) (G3 d) (G4 d)

/-- The call's payloads. -/
abbrev Pc : (K (F := F)).Pay (nD := nD) (Val := Elt F) (Name := ℕ) (U := UU) := P (cSt VA) (cDn VA G0 G1 G2 G3 G4) (tGo VA) (tTd VA G0 G1 G2 G3 G4)

instance Pc_storable : (Pc VA G0 G1 G2 G3 G4).IsStorable where
  st q d c := match q with
    | 0 => (coreSt_storable d (Fin.cast nCore_zero c) (VA d r5') (VA d r6') (VA d r24') (VA d r25') (VA d o0') (VA d o1') (VA d o2') (VA d o3') (VA d o4') : BI.Storable (upEmb : UEmb _ 𝕄) _)
  dn q d c := match q with
    | 0 => (coreSt_storable d (Fin.cast nCore_zero c) (VA d r5') (VA d r6') (VA d r24') (VA d r25') (G0 d) (G1 d) (G2 d) (G3 d) (G4 d) : BI.Storable (upEmb : UEmb _ 𝕄) _)
  go q d c i := match q with
    | 0 => (subGo_storable d (Fin.cast nCore_zero c) (Fin.cast nSub_zero i) (VA d r5') (VA d r6') (VA d r24') (VA d r25') (VA d o0') (VA d o1') (VA d o2') (VA d o3') (VA d o4') : BI.Storable (upEmb : UEmb _ 𝕄) _)
  td q d c i := match q with
    | 0 => (subGo_storable d (Fin.cast nCore_zero c) (Fin.cast nSub_zero i) (VA d r5') (VA d r6') (VA d r24') (VA d r25') (G0 d) (G1 d) (G2 d) (G3 d) (G4 d) : BI.Storable (upEmb : UEmb _ 𝕄) _)

/-- The nine arrays the TensorCore holds are what the call hands the SparseCores. -/
theorem hand (d : Dev nD) :
    (held (SparseCore.T d) T9 (VA d) : sProp 𝕄) ⊢ bigSep Finset.univ fun c : Fin ((K (F := F)).nCore 0) => (Pc VA G0 G1 G2 G3 G4).st 0 d c := by
  show _ ⊢ bigSep Finset.univ fun c : Fin ((K (F := F)).nCore 0) => cSt VA d (Fin.cast nCore_zero c)
  rw [bigSep_cores (F := F) (fun c => cSt VA d c), held_T9]
  exact hand_over d (VA d r5') (VA d r6') (VA d r24') (VA d r25') (VA d o0') (VA d o1') (VA d o2') (VA d o3') (VA d o4')

/-- What the SparseCores hand back is the nine arrays held at the valuation after the call. -/
theorem back (d : Dev nD) :
    (bigSep Finset.univ fun c : Fin ((K (F := F)).nCore 0) => (Pc VA G0 G1 G2 G3 G4).dn 0 d c) ⊢ (held (SparseCore.T d) T9 (VS VA G0 G1 G2 G3 G4 d) : sProp 𝕄) := by
  show (bigSep Finset.univ fun c : Fin ((K (F := F)).nCore 0) => cDn VA G0 G1 G2 G3 G4 d (Fin.cast nCore_zero c)) ⊢ _
  rw [bigSep_cores (F := F) (fun c => cDn VA G0 G1 G2 G3 G4 d c), held_T9, VS_r5, VS_r6, VS_r24, VS_r25, VS_o0, VS_o1, VS_o2, VS_o3, VS_o4]
  exact take_back d (VA d r5') (VA d r6') (VA d r24') (VA d r25') (G0 d) (G1 d) (G2 d) (G3 d) (G4 d)

/-- Each SparseCore's operands split into its subcores' and gather again. -/
theorem vecSplit : (K (F := F)).VecSplit' (Pc VA G0 G1 G2 G3 G4) 0 := fun d c =>
  split_call (cSt VA) (cDn VA G0 G1 G2 G3 G4) (tGo VA) (tTd VA G0 G1 G2 G3 G4)
    (fun d c => split_core d c (VA d r5') (VA d r6') (VA d r24') (VA d r25') (VA d o0') (VA d o1') (VA d o2') (VA d o3') (VA d o4') (G0 d) (G1 d) (G2 d) (G3 d) (G4 d)) d c

end Call

end Cert.Proof.KB

end
-- ==== Proof.BPackedDef.lean ====
/-
  What the packing kernel leaves, as an array: packed row `r` before the tail reads the transposed
  entity table at entity `(r / 6400) · 12800 + (c / 64) · 6400 + r % 6400`, entry `c % 64`, where `c` is the
  column; a packed row of the tail is a row of the tail array as it stands. With the transposed table
  and the tail array read off the entity table, this is the entity table packed two rows to one.
-/
import proofs.«205037_g73117523247527_cont_9to1c4b_608_48_alg».proof.Proof.PackPick
import Idealize.ShloMosaic.Lib.ValueIdx

namespace Cert.Proof.KB

open Idealize.ShloMosaic Idealize.ShloMosaic.ValueIdx Cert.Proof

variable {α : Type}

/-- The packed entity table from the transposed table `X0` and the tail array `X4`. -/
def packedVal (X0 : (⟨2, ![64, 1000000]⟩ : Shape).Idx → α) (X4 : (⟨2, ![800, 128]⟩ : Shape).Idx → α) :
    (⟨2, ![500000, 128]⟩ : Shape).Idx → α :=
  fun x =>
    if h : (x 0).val < 499200 then
      X0 (ix2 ⟨(x 1).val % 64, by omega⟩
        ⟨(x 0).val / 6400 * 12800 + (x 1).val / 64 * 6400 + (x 0).val % 6400, by
          have h1 := idx2_lt1 x
          omega⟩)
    else
      X4 (ix2 ⟨(x 0).val - 499200, by
          have h0 := idx2_lt0 x
          omega⟩
        ⟨(x 1).val, idx2_lt1 x⟩)

/-- Entries of an array at equal coordinates are equal. -/
theorem ix2_congr {n0 n1 : ℕ} (T : (⟨2, ![n0, n1]⟩ : Shape).Idx → α) {a a' : Fin n0} {b b' : Fin n1}
    (ha : a.val = a'.val) (hb : b.val = b'.val) : T (ix2 a b) = T (ix2 a' b') := by
  rw [Fin.ext ha, Fin.ext hb]

section Apply
variable (X0 : (⟨2, ![64, 1000000]⟩ : Shape).Idx → α) (X4 : (⟨2, ![800, 128]⟩ : Shape).Idx → α)
  (r : Fin 500000) (col : Fin 128)

/-- A packed row before the tail reads the transposed table. -/
theorem packedVal_apply_lo (h : r.val < 499200) :
    packedVal X0 X4 (ix2 r col)
      = X0 (ix2 ⟨col.val % 64, by omega⟩
          ⟨r.val / 6400 * 12800 + col.val / 64 * 6400 + r.val % 6400, by omega⟩) := by
  unfold packedVal
  rw [dif_pos (show ((ix2 r col : (⟨2, ![500000, 128]⟩ : Shape).Idx) 0).val < 499200 from h)]

/-- A packed row of the tail is the tail array's row. -/
theorem packedVal_apply_hi (h : ¬ r.val < 499200) :
    packedVal X0 X4 (ix2 r col) = X4 (ix2 ⟨r.val - 499200, by omega⟩ col) := by
  unfold packedVal
  rw [dif_neg (show ¬ ((ix2 r col : (⟨2, ![500000, 128]⟩ : Shape).Idx) 0).val < 499200 from h)]

end Apply

/-- With the transposed table and the tail array read off the entity table, the packed array is the entity
    table packed two rows to one. -/
theorem packedVal_eq_packedE (E : (⟨2, ![1000000, 64]⟩ : Shape).Idx → α)
    (X0 : (⟨2, ![64, 1000000]⟩ : Shape).Idx → α) (X4 : (⟨2, ![800, 128]⟩ : Shape).Idx → α)
    (h0 : ∀ (j : Fin 64) (i : Fin 1000000), X0 (ix2 j i) = E (ix2 i j))
    (h4 : ∀ (j : Fin 800) (c : Fin 128),
      X4 (ix2 j c) = E (ix2 ⟨998400 + j.val + 800 * (c.val / 64), by omega⟩ ⟨c.val % 64, by omega⟩))
    (r : Fin 500000) (col : Fin 128) :
    packedVal X0 X4 (ix2 r col) = PackPick.packedE (fun i j => E (ix2 i j)) r col := by
  have hr := r.isLt
  have hc := col.isLt
  rw [PackPick.packedE_eq]
  by_cases h : r.val < 499200
  · rw [packedVal_apply_lo X0 X4 r col h, h0]
    exact ix2_congr E (by dsimp only; unfold PackPick.entIdx; rw [if_pos h]) rfl
  · rw [packedVal_apply_hi X0 X4 r col h, h4]
    exact ix2_congr E (by dsimp only; unfold PackPick.entIdx; rw [if_neg h]; omega) rfl

end Cert.Proof.KB
-- ==== Proof.BPack.lean ====
/-
  TensorCore kernel 0 of the program, the packing of the entity table: the transposed table `x` (64 × 1000000) is read in
  78 chunks of 12800 columns by the kernel's own copies into two buffers in turn, each chunk is transposed and its two halves
  of 6400 rows laid side by side into a 6400 × 128 block, and the block is copied out into 6400 rows of the result `o`
  (500000 × 128); the last 800 rows of `o` are a copy of the second operand. One copy is outstanding on each of the four
  semaphores at a time and no buffer is touched while a copy into or out of it is pending. The counted loop of 39 trips
  (two chunks a trip) is gone through once, at a symbolic trip, by an invariant that carries the copies in flight from
  one trip to the next.
-/
import proofs.«205037_g73117523247527_cont_9to1c4b_608_48_alg».proof.Proof.BCommon
import proofs.«205037_g73117523247527_cont_9to1c4b_608_48_alg».proof.Proof.BPackedDef
import Idealize.ShloMosaic.Lib.ValueIdx
import Idealize.ShloMosaic.Lib.ValueLayout
import Idealize.ShloMosaic.Lib.Pipeline.Value

noncomputable section

namespace Cert.Proof.KB

open Cert.Kernel Cert.Kernel.Gen
open Idealize.ShloMosaic Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Names -/

/-- The contents type of buffer `b` on core `c`. -/
abbrev Bf (c : Dev nD) (b : Ref sig .tc) : Type := Buf (Elt F) ((Memref.whole b).view.loc (c.tc : Thread nD τ))
/-- Buffer `b` of core `c` held whole at share `q` and contents `f`. -/
abbrev pt (c : Dev nD) (b : Ref sig .tc) (q : PosShare TreeShare) (f : Bf (F := F) c b) : sProp 𝕄 :=
  (Memref.whole b).view.loc (c.tc : Thread nD τ) ↦{q} f
/-- Elements `S` of buffer `b` of core `c` held at share `q` and contents `f`. -/
abbrev ptOn (c : Dev nD) (b : Ref sig .tc) (S : Finset (Idx ((Memref.whole b).view.loc (c.tc : Thread nD τ)))) (q : PosShare TreeShare) (f : Bf (F := F) c b) : sProp 𝕄 :=
  (Memref.whole b).view.loc (c.tc : Thread nD τ) ↦[S]{q} f
/-- The counter of one of the kernel's own DMA semaphores. -/
abbrev cell (c : Dev nD) (a : DmaSems sig S_) (v : ℕ) : sProp 𝕄 := semVal ((c.tc : Thread nD τ), SemLoc.dma a.sem) v
/-- A copy of the kernel's in flight on its semaphore `a`, delivering `D` at its wait. -/
abbrev fly (c : Dev nD) (a : DmaSems sig S_) (D : sProp 𝕄) : sProp 𝕄 :=
  Transfers.Flight countersEmb (c.tc : Thread nD τ) (SemLoc.dma a.sem) default 102400 D
/-- The two read shares of the table, one for each semaphore its chunks are copied on. -/
abbrev tok (q : PosShare TreeShare) (i : Fin 2) : PosShare TreeShare := Transfers.shareTok q 2 i

/-- The trip's first guard (`k > 0`), as the region computes it from the induction variable. -/
def cond1 (k : Fin k0_t1_loop.trips) : BitVec 1 :=
  Scalar.cmpi .ne (Scalar.extui (Scalar.cmpi .sgt (Scalar.addi 0#32 (Scalar.muli (Scf.iv 0#32 1#32 k) 1#32)) 0#32) : BitVec 32) 0#32
theorem cond1_iff : ∀ k : Fin k0_t1_loop.trips, cond1 k = 1#1 ↔ 0 < k.val := by decide +kernel
theorem cond2_iff : ∀ k : Fin k0_t1_loop.trips, k0_cond2 k = 1#1 ↔ k.val < 38 := by decide +kernel
theorem cond1_pos {k : Fin k0_t1_loop.trips} (h : 0 < k.val) : cond1 k = 1#1 := (cond1_iff k).2 h
theorem cond1_neg {k : Fin k0_t1_loop.trips} (h : k.val = 0) : ¬ cond1 k = 1#1 := fun e => absurd ((cond1_iff k).1 e) (by omega)
theorem cond2_pos {k : Fin k0_t1_loop.trips} (h : k.val < 38) : k0_cond2 k = 1#1 := (cond2_iff k).2 h
theorem cond2_neg {k : Fin k0_t1_loop.trips} (h : ¬ k.val < 38) : ¬ k0_cond2 k = 1#1 := fun e => h ((cond2_iff k).1 e)
/-- A window of the transposed table as the kernel slices it: 64 rows, 12800 columns from `off`. -/
abbrev inW (off : Fin 2 → Nat) (h : ∀ a, off a + S64x12800.size a ≤ S64x1000000.size a) : Memref sig .tc .hbm S64x12800 .f32 :=
  (Memref.whole main_v0).slice (Rect.unit (s := S64x1000000) off S64x12800.size h) (fun _ => rfl)

/-- A window of the packed table as the kernel slices it: 6400 rows from `off`, all 128 columns. -/
abbrev outW (off : Fin 2 → Nat) (h : ∀ a, off a + S6400x128.size a ≤ S500000x128.size a) : Memref sig .tc .hbm S6400x128 .f32 :=
  (Memref.whole main_v5).slice (Rect.unit (s := S500000x128) off S6400x128.size h) (fun _ => rfl)

/-- Two such windows whose row ranges do not meet share no element. -/
theorem outW_disjoint (o₁ o₂ : Fin 2 → Nat) (h₁ : ∀ a, o₁ a + S6400x128.size a ≤ S500000x128.size a) (h₂ : ∀ a, o₂ a + S6400x128.size a ≤ S500000x128.size a)
    (hsep : o₁ 0 + 6400 ≤ o₂ 0 ∨ o₂ 0 + 6400 ≤ o₁ 0) : Disjoint (outW o₁ h₁).view.set (outW o₂ h₂).view.set :=
  View.disjoint_slice_of_sep (Memref.whole main_v5).view _ _ 0 rfl rfl hsep

/-! ## Pieces of one array put back together -/

section Join
variable {ℓ : Loc nD τ sig} {A B A' B' : Finset (Idx ℓ)} {q : PosShare TreeShare} {fA fB f : Buf (Elt F) ℓ}

/-- Two landed windows `A`, `B` rejoin what is held of the array less them and less two later windows `A'`, `B'`. -/
theorem rejoin_step (hAB : Disjoint A B) (hAA' : Disjoint A A') (hAB' : Disjoint A B') (hBA' : Disjoint B A') (hBB' : Disjoint B B') :
    iprop((ℓ ↦[A]{q} fA) ∗ (ℓ ↦[B]{q} fB) ∗ (ℓ ↦[(((Finset.univ \ A) \ B) \ A') \ B']{q} f))
      ⊢ (ℓ ↦[(Finset.univ \ A') \ B']{q} (A.piecewise fA (B.piecewise fB f)) : sProp 𝕄) := by
  have hset : (((Finset.univ \ A) \ B) \ A') \ B' = (((Finset.univ \ A') \ B') \ A) \ B := by
    ext i; simp only [Finset.mem_sdiff, Finset.mem_univ, true_and]; tauto
  have hA : A ⊆ (Finset.univ \ A') \ B' := fun i hi =>
    Finset.mem_sdiff.2 ⟨Finset.mem_sdiff.2 ⟨Finset.mem_univ _, Finset.disjoint_left.1 hAA' hi⟩, Finset.disjoint_left.1 hAB' hi⟩
  have hB : B ⊆ ((Finset.univ \ A') \ B') \ A := fun i hi =>
    Finset.mem_sdiff.2 ⟨Finset.mem_sdiff.2 ⟨Finset.mem_sdiff.2 ⟨Finset.mem_univ _, Finset.disjoint_left.1 hBA' hi⟩, Finset.disjoint_left.1 hBB' hi⟩,
      Finset.disjoint_right.1 hAB hi⟩
  rw [hset]
  iintro ⟨HA, HB, HR⟩
  iapply (pointsTo_join_subset hA)
  isplitl [HA]; · iexact HA
  iapply (pointsTo_join_subset hB)
  isplitl [HB]; · iexact HB
  iexact HR

/-- Two landed windows rejoin what is held of the array less them: the array whole. -/
theorem rejoin_last (hAB : Disjoint A B) :
    iprop((ℓ ↦[A]{q} fA) ∗ (ℓ ↦[B]{q} fB) ∗ (ℓ ↦[(Finset.univ \ A) \ B]{q} f))
      ⊢ (ℓ ↦{q} (A.piecewise fA (B.piecewise fB f)) : sProp 𝕄) := by
  have hB : B ⊆ Finset.univ \ A := fun i hi => Finset.mem_sdiff.2 ⟨Finset.mem_univ _, Finset.disjoint_right.1 hAB hi⟩
  iintro ⟨HA, HB, HR⟩
  iapply (pointsTo_join_subset (Finset.subset_univ A))
  isplitl [HA]; · iexact HA
  iapply (pointsTo_join_subset hB)
  isplitl [HB]; · iexact HB
  iexact HR

end Join

/-- A wait of the kernel's own records a pair at the kernel's index. -/
theorem recorded_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.1 hp with rfl | hp
  · exact Or.inr rfl
  · exact h p hp

/-! ## What the kernel computes -/

/-- The packed table as one function of the transposed table `X0` (64 × 1000000) and the tail `X4` (800 × 128): row
    `r < 499200` of the result, with `b = r / 6400` and `j = r % 6400`, holds columns `12800 b + j` and
    `12800 b + 6400 + j` of `X0` side by side (64 words each); row `499200 + j` holds row `j` of `X4`. -/
def packed {c : Dev nD} (X0 : Bf (F := F) c main_v0) (X4 : Bf (F := F) c main_v4) : Bf (F := F) c main_v5 := packedVal X0 X4

/-! ## Values -/

/-- The low half of a chunk transposed: entry `(a, b)` is the chunk's `(b, a)`. -/
theorem lo_apply (v : Vec F S64x12800 .f32) (a : Fin 6400) (b : Fin 64) :
    k0_pay5 v (ix2 a b) = v (ix2 b ⟨a.val, by omega⟩) := by
  unfold k0_pay5 k0_pay4
  dsimp only
  rw [shapeCast_self]
  rw [extractStridedSlice_apply ![0, 0] _ _ (ix2 a b) (ix2 (⟨a.val, by omega⟩ : Fin 12800) b)
    (fun d => match d with | ⟨0, _⟩ => by simp | ⟨1, _⟩ => by simp)]
  exact transpose_ix2_apply v _ _ b

/-- The high half: entry `(a, b)` is the chunk's `(b, 6400 + a)`. -/
theorem hi_apply (v : Vec F S64x12800 .f32) (a : Fin 6400) (b : Fin 64) :
    k0_pay6 v (ix2 a b) = v (ix2 b ⟨6400 + a.val, by omega⟩) := by
  unfold k0_pay6 k0_pay4
  dsimp only
  rw [shapeCast_self]
  rw [extractStridedSlice_apply ![6400, 0] _ _ (ix2 a b) (ix2 (⟨6400 + a.val, by omega⟩ : Fin 12800) b)
    (fun d => match d with | ⟨0, _⟩ => by simp | ⟨1, _⟩ => by simp)]
  exact transpose_ix2_apply v _ _ b

/-- The same two halves as the second buffer's trip spells them. -/
theorem lo_apply' (v : Vec F S64x12800 .f32) (a : Fin 6400) (b : Fin 64) :
    k0_pay2 v (ix2 a b) = v (ix2 b ⟨a.val, by omega⟩) := by
  unfold k0_pay2 k0_pay1
  dsimp only
  rw [shapeCast_self]
  rw [extractStridedSlice_apply ![0, 0] _ _ (ix2 a b) (ix2 (⟨a.val, by omega⟩ : Fin 12800) b)
    (fun d => match d with | ⟨0, _⟩ => by simp | ⟨1, _⟩ => by simp)]
  exact transpose_ix2_apply v _ _ b

theorem hi_apply' (v : Vec F S64x12800 .f32) (a : Fin 6400) (b : Fin 64) :
    k0_pay3 v (ix2 a b) = v (ix2 b ⟨6400 + a.val, by omega⟩) := by
  unfold k0_pay3 k0_pay1
  dsimp only
  rw [shapeCast_self]
  rw [extractStridedSlice_apply ![6400, 0] _ _ (ix2 a b) (ix2 (⟨6400 + a.val, by omega⟩ : Fin 12800) b)
    (fun d => match d with | ⟨0, _⟩ => by simp | ⟨1, _⟩ => by simp)]
  exact transpose_ix2_apply v _ _ b

/-- A unit-stride window of a whole buffer reads the buffer at the window's indices. -/
theorem read_window {κ : Kind} (b : Ref sig κ) (r : Rect b.ty.shape) (f : b.ty.Contents (Elt F)) (j : r.shape.Idx) :
    ((View.whole b).slice r).read (Elt F) f j = f (r.emb j) := by
  rw [View.read_apply]; simp

section Vals
variable {c : Dev nD} (X0 : Bf (F := F) c main_v0) (X4 : Bf (F := F) c main_v4)

/-- A window of the table reads the table at the window's indices. -/
theorem inW_read (off : Fin 2 → Nat) (hoff : ∀ a, off a + S64x12800.size a ≤ S64x1000000.size a) (a : Fin 64) (b : Fin 12800) :
    (inW off hoff).view.read (Elt F) X0 (ix2 a b)
      = X0 (ix2 ⟨off 0 + a.val, by have := hoff 0; simp at this; omega⟩ ⟨off 1 + b.val, by have := hoff 1; simp at this; omega⟩) := by
  have h := read_window (F := F) main_v0 (Rect.unit (s := S64x1000000) off S64x12800.size hoff) X0 (ix2 a b)
  refine Eq.trans h ?_
  refine congrArg X0 (funext fun d => Fin.ext ?_)
  match d with
  | ⟨0, _⟩ => show off 0 + 1 * a.val = off 0 + a.val; omega
  | ⟨1, _⟩ => show off 1 + 1 * b.val = off 1 + b.val; omega

/-- The input buffer read whole, once a chunk has landed in it: the table at the chunk's window. -/
theorem vec0 (g : Bf (F := F) c cc0_scratch0) (off : Fin 2 → Nat) (hoff : ∀ a, off a + S64x12800.size a ≤ S64x1000000.size a) (a : Fin 64) (b : Fin 12800) :
    View.readAt (Elt F) (Memref.whole cc0_scratch0).view (Rect.unit (s := S64x12800) ![0, 0] S64x12800.size inb_S64x12800_S64x12800_0_0).toLoadRect
        (View.write (Elt F) (Memref.whole cc0_scratch0).view g (ReadAs.same.apply ((inW off hoff).view.read (Elt F) X0)) Finset.univ) (ix2 a b)
      = X0 (ix2 ⟨off 0 + a.val, by have := hoff 0; simp at this; omega⟩ ⟨off 1 + b.val, by have := hoff 1; simp at this; omega⟩) := by
  have h := read_window (F := F) cc0_scratch0 (Rect.unit (s := S64x12800) ![0, 0] S64x12800.size inb_S64x12800_S64x12800_0_0)
    (View.write (Elt F) (View.whole cc0_scratch0) g (ReadAs.same.apply ((inW off hoff).view.read (Elt F) X0)) Finset.univ) (ix2 a b)
  refine Eq.trans h ?_
  rw [View.write_whole_univ]
  have e : (Rect.unit (s := S64x12800) ![0, 0] S64x12800.size inb_S64x12800_S64x12800_0_0).emb (ix2 a b) = ix2 a b :=
    funext fun d => Fin.ext (match d with
      | ⟨0, _⟩ => by show 0 + 1 * a.val = a.val; omega
      | ⟨1, _⟩ => by show 0 + 1 * b.val = b.val; omega)
  rw [e]
  exact inW_read X0 off hoff a b

/-- The input buffer read whole, once a chunk has landed in it: the table at the chunk's window. -/
theorem vec1 (g : Bf (F := F) c cc0_scratch1) (off : Fin 2 → Nat) (hoff : ∀ a, off a + S64x12800.size a ≤ S64x1000000.size a) (a : Fin 64) (b : Fin 12800) :
    View.readAt (Elt F) (Memref.whole cc0_scratch1).view (Rect.unit (s := S64x12800) ![0, 0] S64x12800.size inb_S64x12800_S64x12800_0_0).toLoadRect
        (View.write (Elt F) (Memref.whole cc0_scratch1).view g (ReadAs.same.apply ((inW off hoff).view.read (Elt F) X0)) Finset.univ) (ix2 a b)
      = X0 (ix2 ⟨off 0 + a.val, by have := hoff 0; simp at this; omega⟩ ⟨off 1 + b.val, by have := hoff 1; simp at this; omega⟩) := by
  have h := read_window (F := F) cc0_scratch1 (Rect.unit (s := S64x12800) ![0, 0] S64x12800.size inb_S64x12800_S64x12800_0_0)
    (View.write (Elt F) (View.whole cc0_scratch1) g (ReadAs.same.apply ((inW off hoff).view.read (Elt F) X0)) Finset.univ) (ix2 a b)
  refine Eq.trans h ?_
  rw [View.write_whole_univ]
  have e : (Rect.unit (s := S64x12800) ![0, 0] S64x12800.size inb_S64x12800_S64x12800_0_0).emb (ix2 a b) = ix2 a b :=
    funext fun d => Fin.ext (match d with
      | ⟨0, _⟩ => by show 0 + 1 * a.val = a.val; omega
      | ⟨1, _⟩ => by show 0 + 1 * b.val = b.val; omega)
  rw [e]
  exact inW_read X0 off hoff a b

/-- The block the kernel makes of chunk `m`: rows `[6400 m, 6400 m + 6400)` of the packed table. -/
theorem block0 (z : Bf (F := F) c cc0_scratch2) (v : Vec F S64x12800 .f32) (m : ℕ) (hm : m < 78)
    (hv : ∀ (a : Fin 64) (b : Fin 12800), v (ix2 a b) = X0 (ix2 a ⟨12800 * m + b.val, by omega⟩)) (j : S6400x128.Idx) :
    (Memref.whole cc0_scratch2).view.writes (Elt F) z
        [⟨Rect.unit (s := S6400x128) ![0, 64] S6400x64.size inb_S6400x128_S6400x64_0_64, k0_pay6 v⟩,
          ⟨Rect.unit (s := S6400x128) ![0, 0] S6400x64.size inb_S6400x128_S6400x64_0_0, k0_pay5 v⟩] j
      = packed X0 X4 (ix2 ⟨6400 * m + (j 0).val, by have := idx2_lt0 j; omega⟩ ⟨(j 1).val, idx2_lt1 j⟩) := by
  let G : S6400x128.Idx → Elt F .f32 := fun j => packed X0 X4 (ix2 ⟨6400 * m + (j 0).val, by have := idx2_lt0 j; omega⟩ ⟨(j 1).val, idx2_lt1 j⟩)
  let L : List (View.Piece (Elt F) S6400x128 .f32) :=
    [⟨Rect.unit (s := S6400x128) ![0, 64] S6400x64.size inb_S6400x128_S6400x64_0_64, k0_pay6 v⟩,
      ⟨Rect.unit (s := S6400x128) ![0, 0] S6400x64.size inb_S6400x128_S6400x64_0_0, k0_pay5 v⟩]
  have hp : ∀ p ∈ L, ∀ x : p.1.shape.Idx, p.2 x = G (p.1.emb x) := by
    intro p hp x
    simp only [L, List.mem_cons, List.mem_nil_iff, or_false] at hp
    rcases hp with rfl | rfl
    · obtain ⟨a, b, rfl⟩ : ∃ (a : Fin 6400) (b : Fin 64), x = ix2 a b := ⟨x 0, x 1, eq_ix2 x⟩
      show k0_pay6 v (ix2 a b) = packedVal X0 X4 _
      rw [hi_apply, hv, packedVal_apply_lo X0 X4 _ _ (show 6400 * m + (0 + 1 * a.val) < 499200 by omega)]
      exact ix2_congr X0 (show b.val = (64 + 1 * b.val) % 64 by omega)
        (show 12800 * m + (6400 + a.val) = (6400 * m + (0 + 1 * a.val)) / 6400 * 12800 + (64 + 1 * b.val) / 64 * 6400 + (6400 * m + (0 + 1 * a.val)) % 6400 by omega)
    · obtain ⟨a, b, rfl⟩ : ∃ (a : Fin 6400) (b : Fin 64), x = ix2 a b := ⟨x 0, x 1, eq_ix2 x⟩
      show k0_pay5 v (ix2 a b) = packedVal X0 X4 _
      rw [lo_apply, hv, packedVal_apply_lo X0 X4 _ _ (show 6400 * m + (0 + 1 * a.val) < 499200 by omega)]
      exact ix2_congr X0 (show b.val = (0 + 1 * b.val) % 64 by omega)
        (show 12800 * m + a.val = (6400 * m + (0 + 1 * a.val)) / 6400 * 12800 + (0 + 1 * b.val) / 64 * 6400 + (6400 * m + (0 + 1 * a.val)) % 6400 by omega)
  have hc : ∃ p ∈ L, j ∈ p.1.set := by
    have h0 := idx2_lt0 j
    have h1 := idx2_lt1 j
    by_cases hc : (j 1).val < 64
    · refine ⟨⟨Rect.unit (s := S6400x128) ![0, 0] S6400x64.size inb_S6400x128_S6400x64_0_0, k0_pay5 v⟩, List.mem_cons_of_mem _ List.mem_cons_self, ?_⟩
      show j ∈ (Rect.unit (s := S6400x128) ![0, 0] S6400x64.size inb_S6400x128_S6400x64_0_0).set
      refine Rect.mem_set_unit.2 fun a => ?_
      match a with
      | ⟨0, _⟩ => exact ⟨Nat.zero_le _, by show (j 0).val < 0 + 6400; omega⟩
      | ⟨1, _⟩ => exact ⟨Nat.zero_le _, by show (j 1).val < 0 + 64; omega⟩
    · refine ⟨⟨Rect.unit (s := S6400x128) ![0, 64] S6400x64.size inb_S6400x128_S6400x64_0_64, k0_pay6 v⟩, List.mem_cons_self, ?_⟩
      show j ∈ (Rect.unit (s := S6400x128) ![0, 64] S6400x64.size inb_S6400x128_S6400x64_0_64).set
      refine Rect.mem_set_unit.2 fun a => ?_
      match a with
      | ⟨0, _⟩ => exact ⟨Nat.zero_le _, by show (j 0).val < 0 + 6400; omega⟩
      | ⟨1, _⟩ => exact ⟨by show 64 ≤ (j 1).val; omega, by show (j 1).val < 64 + 64; omega⟩
  have key := View.read_writes_apply_of_pieces (View.whole cc0_scratch2) z G L hp j hc
  rw [View.read_whole] at key
  exact key

/-- The block the kernel makes of chunk `m`: rows `[6400 m, 6400 m + 6400)` of the packed table. -/
theorem block1 (z : Bf (F := F) c cc0_scratch3) (v : Vec F S64x12800 .f32) (m : ℕ) (hm : m < 78)
    (hv : ∀ (a : Fin 64) (b : Fin 12800), v (ix2 a b) = X0 (ix2 a ⟨12800 * m + b.val, by omega⟩)) (j : S6400x128.Idx) :
    (Memref.whole cc0_scratch3).view.writes (Elt F) z
        [⟨Rect.unit (s := S6400x128) ![0, 64] S6400x64.size inb_S6400x128_S6400x64_0_64, k0_pay3 v⟩,
          ⟨Rect.unit (s := S6400x128) ![0, 0] S6400x64.size inb_S6400x128_S6400x64_0_0, k0_pay2 v⟩] j
      = packed X0 X4 (ix2 ⟨6400 * m + (j 0).val, by have := idx2_lt0 j; omega⟩ ⟨(j 1).val, idx2_lt1 j⟩) := by
  let G : S6400x128.Idx → Elt F .f32 := fun j => packed X0 X4 (ix2 ⟨6400 * m + (j 0).val, by have := idx2_lt0 j; omega⟩ ⟨(j 1).val, idx2_lt1 j⟩)
  let L : List (View.Piece (Elt F) S6400x128 .f32) :=
    [⟨Rect.unit (s := S6400x128) ![0, 64] S6400x64.size inb_S6400x128_S6400x64_0_64, k0_pay3 v⟩,
      ⟨Rect.unit (s := S6400x128) ![0, 0] S6400x64.size inb_S6400x128_S6400x64_0_0, k0_pay2 v⟩]
  have hp : ∀ p ∈ L, ∀ x : p.1.shape.Idx, p.2 x = G (p.1.emb x) := by
    intro p hp x
    simp only [L, List.mem_cons, List.mem_nil_iff, or_false] at hp
    rcases hp with rfl | rfl
    · obtain ⟨a, b, rfl⟩ : ∃ (a : Fin 6400) (b : Fin 64), x = ix2 a b := ⟨x 0, x 1, eq_ix2 x⟩
      show k0_pay3 v (ix2 a b) = packedVal X0 X4 _
      rw [hi_apply', hv, packedVal_apply_lo X0 X4 _ _ (show 6400 * m + (0 + 1 * a.val) < 499200 by omega)]
      exact ix2_congr X0 (show b.val = (64 + 1 * b.val) % 64 by omega)
        (show 12800 * m + (6400 + a.val) = (6400 * m + (0 + 1 * a.val)) / 6400 * 12800 + (64 + 1 * b.val) / 64 * 6400 + (6400 * m + (0 + 1 * a.val)) % 6400 by omega)
    · obtain ⟨a, b, rfl⟩ : ∃ (a : Fin 6400) (b : Fin 64), x = ix2 a b := ⟨x 0, x 1, eq_ix2 x⟩
      show k0_pay2 v (ix2 a b) = packedVal X0 X4 _
      rw [lo_apply', hv, packedVal_apply_lo X0 X4 _ _ (show 6400 * m + (0 + 1 * a.val) < 499200 by omega)]
      exact ix2_congr X0 (show b.val = (0 + 1 * b.val) % 64 by omega)
        (show 12800 * m + a.val = (6400 * m + (0 + 1 * a.val)) / 6400 * 12800 + (0 + 1 * b.val) / 64 * 6400 + (6400 * m + (0 + 1 * a.val)) % 6400 by omega)
  have hc : ∃ p ∈ L, j ∈ p.1.set := by
    have h0 := idx2_lt0 j
    have h1 := idx2_lt1 j
    by_cases hc : (j 1).val < 64
    · refine ⟨⟨Rect.unit (s := S6400x128) ![0, 0] S6400x64.size inb_S6400x128_S6400x64_0_0, k0_pay2 v⟩, List.mem_cons_of_mem _ List.mem_cons_self, ?_⟩
      show j ∈ (Rect.unit (s := S6400x128) ![0, 0] S6400x64.size inb_S6400x128_S6400x64_0_0).set
      refine Rect.mem_set_unit.2 fun a => ?_
      match a with
      | ⟨0, _⟩ => exact ⟨Nat.zero_le _, by show (j 0).val < 0 + 6400; omega⟩
      | ⟨1, _⟩ => exact ⟨Nat.zero_le _, by show (j 1).val < 0 + 64; omega⟩
    · refine ⟨⟨Rect.unit (s := S6400x128) ![0, 64] S6400x64.size inb_S6400x128_S6400x64_0_64, k0_pay3 v⟩, List.mem_cons_self, ?_⟩
      show j ∈ (Rect.unit (s := S6400x128) ![0, 64] S6400x64.size inb_S6400x128_S6400x64_0_64).set
      refine Rect.mem_set_unit.2 fun a => ?_
      match a with
      | ⟨0, _⟩ => exact ⟨Nat.zero_le _, by show (j 0).val < 0 + 6400; omega⟩
      | ⟨1, _⟩ => exact ⟨by show 64 ≤ (j 1).val; omega, by show (j 1).val < 64 + 64; omega⟩
  have key := View.read_writes_apply_of_pieces (View.whole cc0_scratch3) z G L hp j hc
  rw [View.read_whole] at key
  exact key

/-- Rows `[o 0, o 0 + 6400)` of the result lie in the window at `o` (all 128 columns). -/
theorem mem_outW (o : Fin 2 → Nat) (h : ∀ a, o a + S6400x128.size a ≤ S500000x128.size a) (ho1 : o 1 = 0) (i : S500000x128.Idx)
    (h1 : o 0 ≤ (i 0).val) (h2 : (i 0).val < o 0 + 6400) : i ∈ (outW o h).view.set := by
  have e : (outW o h).view.set = (Rect.unit (s := S500000x128) o S6400x128.size h).set := View.set_slice_whole main_v5 _
  rw [e]
  refine Rect.mem_set_unit.2 fun a => ?_
  match a with
  | ⟨0, _⟩ => exact ⟨h1, h2⟩
  | ⟨1, _⟩ => exact ⟨by show o 1 ≤ (i 1).val; omega, by have := idx2_lt1 i; show (i 1).val < o 1 + 128; omega⟩

/-- What a copy of the block of chunk `m` leaves on its window of the result: the packed table there. -/
theorem land_val (o : Fin 2 → Nat) (h : ∀ a, o a + S6400x128.size a ≤ S500000x128.size a) (m : ℕ) (hm : m < 78) (ho0 : o 0 = 6400 * m) (ho1 : o 1 = 0)
    (y : Bf (F := F) c main_v5) (w : S6400x128.Idx → Elt F .f32)
    (hw : ∀ j : S6400x128.Idx, w j = packed X0 X4 (ix2 ⟨6400 * m + (j 0).val, by have := idx2_lt0 j; omega⟩ ⟨(j 1).val, idx2_lt1 j⟩)) :
    ∀ i : S500000x128.Idx, i ∈ (outW o h).view.set → View.write (Elt F) (outW o h).view y w Finset.univ i = packed X0 X4 i := by
  intro i hi
  obtain ⟨j, -, rfl⟩ := Finset.mem_map.mp hi
  rw [View.write_emb_of_mem _ _ (Finset.mem_univ j)]
  simp only [cast_eq]
  rw [hw]
  refine congrArg (packed X0 X4) (funext fun d => Fin.ext ?_)
  match d with
  | ⟨0, _⟩ => show 6400 * m + (j 0).val = o 0 + 1 * (j 0).val; omega
  | ⟨1, _⟩ => show (j 1).val = o 1 + 1 * (j 1).val; omega

/-- The result's contents off the two windows in flight, after a trip: rows below the trip's are the packed table's. -/
theorem rest_step (oA oB : Fin 2 → Nat) (hA : ∀ a, oA a + S6400x128.size a ≤ S500000x128.size a) (hB : ∀ a, oB a + S6400x128.size a ≤ S500000x128.size a)
    (o2 o4 : Fin 2 → Nat) (h2 : ∀ a, o2 a + S6400x128.size a ≤ S500000x128.size a) (h4 : ∀ a, o4 a + S6400x128.size a ≤ S500000x128.size a)
    (k : ℕ) (e2 : o2 = ![12800 * k, 0]) (e4 : o4 = ![12800 * k + 6400, 0])
    (yA yB yR : Bf (F := F) c main_v5) (w2 w4 : S6400x128.Idx → Elt F .f32)
    (VA : ∀ i : S500000x128.Idx, i ∈ (outW oA hA).view.set → yA i = packed X0 X4 i) (VB : ∀ i : S500000x128.Idx, i ∈ (outW oB hB).view.set → yB i = packed X0 X4 i)
    (VR : ∀ i : S500000x128.Idx, i ∉ (outW oA hA).view.set → i ∉ (outW oB hB).view.set → (i 0).val < 12800 * k → yR i = packed X0 X4 i) :
    ∀ i : S500000x128.Idx, i ∉ (outW o2 h2).view.set → i ∉ (outW o4 h4).view.set → (i 0).val < 12800 * (k + 1) →
      ((outW oA hA).view.set).piecewise yA (((outW oB hB).view.set).piecewise yB
        (View.write (Elt F) (outW o4 h4).view (View.write (Elt F) (outW o2 h2).view yR w2 Finset.univ) w4 Finset.univ)) i = packed X0 X4 i := by
  intro i hi2 hi4 hlt
  by_cases hiA : i ∈ (outW oA hA).view.set
  · rw [Finset.piecewise_eq_of_mem _ _ _ hiA]; exact VA i hiA
  rw [Finset.piecewise_eq_of_notMem _ _ _ hiA]
  by_cases hiB : i ∈ (outW oB hB).view.set
  · rw [Finset.piecewise_eq_of_mem _ _ _ hiB]; exact VB i hiB
  rw [Finset.piecewise_eq_of_notMem _ _ _ hiB]
  have n4 : i ∉ (outW o4 h4).view.setOn Finset.univ := by rw [View.setOn_univ]; exact hi4
  have n2 : i ∉ (outW o2 h2).view.setOn Finset.univ := by rw [View.setOn_univ]; exact hi2
  refine Eq.trans (View.write_of_not_mem (v := (outW o4 h4).view) _ w4 Finset.univ n4) ?_
  refine Eq.trans (View.write_of_not_mem (v := (outW o2 h2).view) yR w2 Finset.univ n2) ?_
  refine VR i hiA hiB ?_
  by_contra hge
  have hge : 12800 * k ≤ (i 0).val := by omega
  by_cases hmid : (i 0).val < 12800 * k + 6400
  · exact hi2 (mem_outW o2 h2 (by rw [e2]; rfl) i (by rw [e2]; exact hge) (by rw [e2]; exact hmid))
  · exact hi4 (mem_outW o4 h4 (by rw [e4]; rfl) i (by rw [e4]; show 12800 * k + 6400 ≤ (i 0).val; omega) (by rw [e4]; show (i 0).val < 12800 * k + 6400 + 6400; omega))

/-- The same after the first trip: no row lies below the first two windows. -/
theorem rest_first (o2 o4 : Fin 2 → Nat) (h2 : ∀ a, o2 a + S6400x128.size a ≤ S500000x128.size a) (h4 : ∀ a, o4 a + S6400x128.size a ≤ S500000x128.size a)
    (k : ℕ) (hk : k = 0) (e2 : o2 = ![12800 * k, 0]) (e4 : o4 = ![12800 * k + 6400, 0]) (y : Bf (F := F) c main_v5) :
    ∀ i : S500000x128.Idx, i ∉ (outW o2 h2).view.set → i ∉ (outW o4 h4).view.set → (i 0).val < 12800 * (k + 1) → y i = packed X0 X4 i := by
  subst hk
  intro i hi2 hi4 hlt
  exfalso
  by_cases hmid : (i 0).val < 6400
  · exact hi2 (mem_outW o2 h2 (by rw [e2]; rfl) i (by rw [e2]; exact Nat.zero_le _) (by rw [e2]; show (i 0).val < 12800 * 0 + 6400; omega))
  · exact hi4 (mem_outW o4 h4 (by rw [e4]; rfl) i (by rw [e4]; show 12800 * 0 + 6400 ≤ (i 0).val; omega) (by rw [e4]; show (i 0).val < 12800 * 0 + 6400 + 6400; omega))

/-- After the last trip and the tail copy the result is the packed table. -/
theorem final_val (oA oB : Fin 2 → Nat) (hA : ∀ a, oA a + S6400x128.size a ≤ S500000x128.size a) (hB : ∀ a, oB a + S6400x128.size a ≤ S500000x128.size a)
    (yA yB yR : Bf (F := F) c main_v5)
    (VA : ∀ i : S500000x128.Idx, i ∈ (outW oA hA).view.set → yA i = packed X0 X4 i) (VB : ∀ i : S500000x128.Idx, i ∈ (outW oB hB).view.set → yB i = packed X0 X4 i)
    (VR : ∀ i : S500000x128.Idx, i ∉ (outW oA hA).view.set → i ∉ (outW oB hB).view.set → (i 0).val < 12800 * 39 → yR i = packed X0 X4 i) :
    (Memref.whole main_v5).view.writes (Elt F) (((outW oA hA).view.set).piecewise yA (((outW oB hB).view.set).piecewise yB yR))
        [⟨Rect.unit (s := S500000x128) ![499200, 0] S800x128.size inb_S500000x128_S800x128_499200_0,
          ReadAs.same.apply ((Memref.whole main_v4).view.read (Elt F) X4)⟩]
      = packed X0 X4 := by
  funext i
  have h0 := idx2_lt0 i
  have h1 := idx2_lt1 i
  show ((View.whole main_v5).slice (Rect.unit (s := S500000x128) ![499200, 0] S800x128.size inb_S500000x128_S800x128_499200_0)).write (Elt F)
      (((outW oA hA).view.set).piecewise yA (((outW oB hB).view.set).piecewise yB yR)) X4 Finset.univ i = packed X0 X4 i
  by_cases hi : (i 0).val < 499200
  · have hn : i ∉ ((View.whole main_v5).slice (Rect.unit (s := S500000x128) ![499200, 0] S800x128.size inb_S500000x128_S800x128_499200_0)).setOn Finset.univ := by
      rw [View.setOn_univ, View.set_slice_whole]
      intro hm
      have := (Rect.mem_set_unit.1 hm 0).1
      have : 499200 ≤ (i 0).val := this
      omega
    refine Eq.trans (View.write_of_not_mem _ X4 Finset.univ hn) ?_
    by_cases hiA : i ∈ (outW oA hA).view.set
    · rw [Finset.piecewise_eq_of_mem _ _ _ hiA]; exact VA i hiA
    rw [Finset.piecewise_eq_of_notMem _ _ _ hiA]
    by_cases hiB : i ∈ (outW oB hB).view.set
    · rw [Finset.piecewise_eq_of_mem _ _ _ hiB]; exact VB i hiB
    rw [Finset.piecewise_eq_of_notMem _ _ _ hiB]
    exact VR i hiA hiB (by omega)
  · have hm : i ∈ (Rect.unit (s := S500000x128) ![499200, 0] S800x128.size inb_S500000x128_S800x128_499200_0).set :=
      Rect.mem_set_unit.2 fun a => match a with
        | ⟨0, _⟩ => ⟨by show 499200 ≤ (i 0).val; omega, by show (i 0).val < 499200 + 800; omega⟩
        | ⟨1, _⟩ => ⟨Nat.zero_le _, by show (i 1).val < 0 + 128; omega⟩
    obtain ⟨j, rfl⟩ := (Rect.unit (s := S500000x128) ![499200, 0] S800x128.size inb_S500000x128_S800x128_499200_0).exists_idx_of_mem hm
    refine Eq.trans (View.write_emb_of_mem (v := (View.whole main_v5).slice (Rect.unit (s := S500000x128) ![499200, 0] S800x128.size inb_S500000x128_S800x128_499200_0)) _ X4 (Finset.mem_univ j)) ?_
    simp only [cast_eq]
    obtain ⟨a, b, rfl⟩ : ∃ (a : Fin 800) (b : Fin 128), j = ix2 a b := ⟨j 0, j 1, eq_ix2 j⟩
    show X4 (ix2 a b) = packedVal X0 X4 _
    have e : (Rect.unit (s := S500000x128) ![499200, 0] S800x128.size inb_S500000x128_S800x128_499200_0).idx (ix2 a b)
        = ix2 (⟨499200 + a.val, by omega⟩ : Fin 500000) b :=
      funext fun d => Fin.ext (match d with
        | ⟨0, _⟩ => by show 499200 + 1 * a.val = 499200 + a.val; omega
        | ⟨1, _⟩ => by show 0 + 1 * b.val = b.val; omega)
    rw [e, packedVal_apply_hi X0 X4 _ _ (show ¬ (499200 + a.val) < 499200 by omega)]
    exact ix2_congr X4 (show a.val = 499200 + a.val - 499200 by omega) rfl

/-! ### The same facts with the contents written out as the trip's operations leave them -/

/-- The whole-buffer load's rectangle, and the two half-block store rectangles, as the program spells them. -/
abbrev RL : LoadRect S64x12800 := (Rect.unit (s := S64x12800) ![0, 0] S64x12800.size inb_S64x12800_S64x12800_0_0).toLoadRect
abbrev R0 : Rect S6400x128 := Rect.unit (s := S6400x128) ![0, 0] S6400x64.size inb_S6400x128_S6400x64_0_0
abbrev R64 : Rect S6400x128 := Rect.unit (s := S6400x128) ![0, 64] S6400x64.size inb_S6400x128_S6400x64_0_64
/-- The two halves of a chunk transposed, spelt out. -/
abbrev hiOf (v : Vec F S64x12800 .f32) : FVec F S6400x64 .f32 :=
  shapeCast S6400x64 (extractStridedSlice S6400x64 ![6400, 0] (transpose S12800x64 [1, 0] v transposes_S64x12800_p1_0_S12800x64) slices_S12800x64_o6400_0_S6400x64) shapeCasts_S6400x64_S6400x64
abbrev loOf (v : Vec F S64x12800 .f32) : FVec F S6400x64 .f32 :=
  shapeCast S6400x64 (extractStridedSlice S6400x64 ![0, 0] (transpose S12800x64 [1, 0] v transposes_S64x12800_p1_0_S12800x64) slices_S12800x64_o0_0_S6400x64) shapeCasts_S6400x64_S6400x64
theorem hiOf_eq (v : Vec F S64x12800 .f32) : hiOf v = k0_pay6 v := rfl
theorem loOf_eq (v : Vec F S64x12800 .f32) : loOf v = k0_pay5 v := rfl

/-- What a block buffer read whole hands a copy is the buffer's contents. -/
theorem read_all2 (f : Bf (F := F) c cc0_scratch2) :
    (ReadAs.same.apply (View.read (Elt F) (Memref.whole cc0_scratch2).view f) : S6400x128.Idx → Elt F .f32) = f := rfl
theorem read_all3 (f : Bf (F := F) c cc0_scratch3) :
    (ReadAs.same.apply (View.read (Elt F) (Memref.whole cc0_scratch3).view f) : S6400x128.Idx → Elt F .f32) = f := rfl

/-- The first block of a trip lands at the packed table. -/
theorem landed0 (g : Bf (F := F) c cc0_scratch0) (off : Fin 2 → Nat) (hoff : ∀ a, off a + S64x12800.size a ≤ S64x1000000.size a)
    (m : ℕ) (hm : m < 78) (e0 : off 0 = 0) (e1 : off 1 = 12800 * m)
    (z : Bf (F := F) c cc0_scratch2) (y : Bf (F := F) c main_v5)
    (o : Fin 2 → Nat) (h : ∀ a, o a + S6400x128.size a ≤ S500000x128.size a) (ho0 : o 0 = 6400 * m) (ho1 : o 1 = 0) :
    ∀ i : S500000x128.Idx, i ∈ (outW o h).view.set →
      View.write (Elt F) (outW o h).view y
        (ReadAs.same.apply (View.read (Elt F) (Memref.whole cc0_scratch2).view
          ((Memref.whole cc0_scratch2).view.writes (Elt F) z
            [⟨R64, hiOf (View.readAt (Elt F) (Memref.whole cc0_scratch0).view RL
                (View.write (Elt F) (Memref.whole cc0_scratch0).view g (ReadAs.same.apply (View.read (Elt F) (inW off hoff).view X0)) Finset.univ))⟩,
              ⟨R0, loOf (View.readAt (Elt F) (Memref.whole cc0_scratch0).view RL
                (View.write (Elt F) (Memref.whole cc0_scratch0).view g (ReadAs.same.apply (View.read (Elt F) (inW off hoff).view X0)) Finset.univ))⟩])))
        Finset.univ i = packed X0 X4 i := by
  have hv : ∀ (a : Fin 64) (b : Fin 12800),
      (View.readAt (Elt F) (Memref.whole cc0_scratch0).view RL
        (View.write (Elt F) (Memref.whole cc0_scratch0).view g (ReadAs.same.apply (View.read (Elt F) (inW off hoff).view X0)) Finset.univ)) (ix2 a b)
        = X0 (ix2 a ⟨12800 * m + b.val, by omega⟩) :=
    fun a b => (vec0 X0 g off hoff a b).trans (ix2_congr X0 (by show off 0 + a.val = a.val; omega) (by show off 1 + b.val = 12800 * m + b.val; omega))
  intro i hi
  refine land_val X0 X4 o h m hm ho0 ho1 y _ (fun j => ?_) i hi
  exact (congrFun (read_all2 (c := c) _) j).trans (block0 X0 X4 z _ m hm hv j)

/-- The second block of a trip lands at the packed table. -/
theorem landed1 (g : Bf (F := F) c cc0_scratch1) (off : Fin 2 → Nat) (hoff : ∀ a, off a + S64x12800.size a ≤ S64x1000000.size a)
    (m : ℕ) (hm : m < 78) (e0 : off 0 = 0) (e1 : off 1 = 12800 * m)
    (z : Bf (F := F) c cc0_scratch3) (y : Bf (F := F) c main_v5)
    (o : Fin 2 → Nat) (h : ∀ a, o a + S6400x128.size a ≤ S500000x128.size a) (ho0 : o 0 = 6400 * m) (ho1 : o 1 = 0) :
    ∀ i : S500000x128.Idx, i ∈ (outW o h).view.set →
      View.write (Elt F) (outW o h).view y
        (ReadAs.same.apply (View.read (Elt F) (Memref.whole cc0_scratch3).view
          ((Memref.whole cc0_scratch3).view.writes (Elt F) z
            [⟨R64, k0_pay3 (View.readAt (Elt F) (Memref.whole cc0_scratch1).view RL
                (View.write (Elt F) (Memref.whole cc0_scratch1).view g (ReadAs.same.apply (View.read (Elt F) (inW off hoff).view X0)) Finset.univ))⟩,
              ⟨R0, k0_pay2 (View.readAt (Elt F) (Memref.whole cc0_scratch1).view RL
                (View.write (Elt F) (Memref.whole cc0_scratch1).view g (ReadAs.same.apply (View.read (Elt F) (inW off hoff).view X0)) Finset.univ))⟩])))
        Finset.univ i = packed X0 X4 i := by
  have hv : ∀ (a : Fin 64) (b : Fin 12800),
      (View.readAt (Elt F) (Memref.whole cc0_scratch1).view RL
        (View.write (Elt F) (Memref.whole cc0_scratch1).view g (ReadAs.same.apply (View.read (Elt F) (inW off hoff).view X0)) Finset.univ)) (ix2 a b)
        = X0 (ix2 a ⟨12800 * m + b.val, by omega⟩) :=
    fun a b => (vec1 X0 g off hoff a b).trans (ix2_congr X0 (by show off 0 + a.val = a.val; omega) (by show off 1 + b.val = 12800 * m + b.val; omega))
  intro i hi
  refine land_val X0 X4 o h m hm ho0 ho1 y _ (fun j => ?_) i hi
  exact (congrFun (read_all3 (c := c) _) j).trans (block1 X0 X4 z _ m hm hv j)

end Vals

/-! ## The loop's invariant -/

section Inv
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The chunk the coming trip transposes first is on its way into the first input buffer: the copy in flight, delivering the
    buffer at its landed contents and the window of the table it reads; the rest of the table's share. The window is the
    `2 n`-th chunk's and the landed contents are what the copy reads through it. -/
def inFly (n : ℕ) : sProp 𝕄 :=
  iprop(∃ (off : Fin 2 → Nat) (hoff : ∀ a, off a + S64x12800.size a ≤ S64x1000000.size a) (g0 : Bf (F := F) c cc0_scratch0),
    fly c cc0_scratch4 iprop(pt c cc0_scratch0 fullShare g0 ∗ ptOn c main_v0 (inW off hoff).view.set (tok q0 0) X0)
      ∗ ptOn c main_v0 (Finset.univ \ (inW off hoff).view.set) (tok q0 0) X0
      ∗ ⌜off = ![0, 12800 * (2 * n)] ∧ ∃ g : Bf (F := F) c cc0_scratch0,
          g0 = View.write (Elt F) (Memref.whole cc0_scratch0).view g (ReadAs.same.apply ((inW off hoff).view.read (Elt F) X0)) Finset.univ⌝)

/-- After the last trip no chunk is on its way. -/
def inIdle : sProp 𝕄 :=
  iprop((∃ g0, pt c cc0_scratch0 fullShare g0) ∗ pt c main_v0 (tok q0 0) X0 ∗ cell c cc0_scratch4 0)

/-- The two blocks of the trip before are on their way out: each copy in flight delivers its window of the result and the
    block buffer it reads; the result less the two windows. Each window lands at the packed table, and what is held of the
    result is the packed table on the rows below trip `n`'s. -/
def outFly (n : ℕ) : sProp 𝕄 :=
  iprop(∃ (oA oB : Fin 2 → Nat) (hA : ∀ a, oA a + S6400x128.size a ≤ S500000x128.size a) (hB : ∀ a, oB a + S6400x128.size a ≤ S500000x128.size a)
      (yA yB yR : Bf (F := F) c main_v5) (z0 : Bf (F := F) c cc0_scratch2) (z1 : Bf (F := F) c cc0_scratch3),
    fly c cc0_scratch6 iprop(ptOn c main_v5 (outW oA hA).view.set fullShare yA ∗ ptOn c cc0_scratch2 (Memref.whole cc0_scratch2).view.set fullShare z0)
      ∗ ptOn c cc0_scratch2 (Finset.univ \ (Memref.whole cc0_scratch2).view.set) fullShare z0
      ∗ fly c cc0_scratch7 iprop(ptOn c main_v5 (outW oB hB).view.set fullShare yB ∗ ptOn c cc0_scratch3 (Memref.whole cc0_scratch3).view.set fullShare z1)
      ∗ ptOn c cc0_scratch3 (Finset.univ \ (Memref.whole cc0_scratch3).view.set) fullShare z1
      ∗ ptOn c main_v5 ((Finset.univ \ (outW oA hA).view.set) \ (outW oB hB).view.set) fullShare yR
      ∗ ⌜(oA 0 + 6400 ≤ oB 0 ∧ oB 0 + 6400 ≤ 12800 * n)
          ∧ (∀ i : S500000x128.Idx, i ∈ (outW oA hA).view.set → yA i = packed X0 X4 i)
          ∧ (∀ i : S500000x128.Idx, i ∈ (outW oB hB).view.set → yB i = packed X0 X4 i)
          ∧ (∀ i : S500000x128.Idx, i ∉ (outW oA hA).view.set → i ∉ (outW oB hB).view.set → (i 0).val < 12800 * n → yR i = packed X0 X4 i)⌝)

/-- Before the first trip nothing is on its way out. -/
def outIdle : sProp 𝕄 :=
  iprop((∃ z0, pt c cc0_scratch2 fullShare z0) ∗ (∃ z1, pt c cc0_scratch3 fullShare z1) ∗ cell c cc0_scratch6 0 ∗ cell c cc0_scratch7 0
    ∗ pt c main_v5 fullShare Y)

/-- Before trip `n`: the first chunk of the trip on its way in (none after the last trip), the second input buffer and its
    semaphore free, the blocks of the trip before on their way out (none before the first), and what the core owes, its
    recorded waits those it came with and the kernel's own. -/
def inv (n : ℕ) : sProp 𝕄 :=
  iprop(□ Transfers.MayWaits (c.tc : Thread nD τ) none O
    ∗ (if n < 39 then inFly c q0 X0 n else inIdle c q0 X0)
    ∗ (∃ g1, pt c cc0_scratch1 fullShare g1) ∗ pt c main_v0 (tok q0 1) X0 ∗ cell c cc0_scratch5 0
    ∗ (if n = 0 then outIdle c Y else outFly c X0 X4 n)
    ∗ ∃ W', ⌜∀ p ∈ W', p ∈ W ∨ p.2 = none⌝ ∗ owes (c.tc : Thread nD τ) O W')

end Inv

/-! ## One trip -/

section Step
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The region of the loop at trip `k`, on the buffers the pipeline calls the kernel with. -/
abbrev trip (k : Fin k0_t1_loop.trips) : Prog (TpuEff nD τ sig (Elt F) Λ₀ .tc) Unit :=
  k0_t1_body (F := F) (Memref.whole main_v0) (Memref.isWhole_whole _) (Memref.whole main_v4) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k ()

-- this declaration steps through one trip and then compares its closing facts with the terms that stepping
-- produced for the landed contents (a window written with the block buffer read whole, the buffer two stored halves of
-- the transposed chunk); together they need more than the default budget
set_option maxHeartbeats 1000000 in
/-- A trip that is neither the first nor the last. -/
theorem step_mid (k : Fin k0_t1_loop.trips) (hk0 : 0 < k.val) (hk38 : k.val < 38) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_neg (show ¬ k.val = 0 by omega), if_pos (show k.val + 1 < 39 by omega), if_neg (show ¬ k.val + 1 = 0 by omega)]
  unfold inFly outFly
  iintro ⟨#HMW, ⟨%off, %hoff, %g0, HF0, H0a, %hin⟩, ⟨%s1, Hx1⟩, H0b, Hs1, ⟨%oA, %oB, %hA, %hB, %yA, %yB, %yR, %z0, %z1, HF2, Hz0, HF3, Hz1, H5, %hf⟩, ⟨%W', %hW, HO⟩⟩
  obtain ⟨rfl, g, rfl⟩ := hin
  obtain ⟨⟨hsAB, hsB⟩, VA, VB, VR⟩ := hf
  have hc1 : cond1 k = 1#1 := cond1_pos hk0
  have hc2 : k0_cond2 k = 1#1 := cond2_pos hk38
  have hdAB : Disjoint (outW oA hA).view.set (outW oB hB).view.set := outW_disjoint _ _ _ _ (Or.inl hsAB)
  have hd2A : Disjoint ((Memref.whole main_v5).slice (Rect.unit (s := S500000x128) (k0_off2 k) S6400x128.size (k0_off2_inb k)) (fun _ => rfl)).view.set (outW oA hA).view.set := outW_disjoint _ _ _ _ (Or.inr (by rw [k0_off2_eq]; show oA 0 + 6400 ≤ 12800 * k.val; omega))
  have hd2B : Disjoint ((Memref.whole main_v5).slice (Rect.unit (s := S500000x128) (k0_off2 k) S6400x128.size (k0_off2_inb k)) (fun _ => rfl)).view.set (outW oB hB).view.set := outW_disjoint _ _ _ _ (Or.inr (by rw [k0_off2_eq]; exact hsB))
  have hd4A : Disjoint ((Memref.whole main_v5).slice (Rect.unit (s := S500000x128) (k0_off4 k) S6400x128.size (k0_off4_inb k)) (fun _ => rfl)).view.set (outW oA hA).view.set := outW_disjoint _ _ _ _ (Or.inr (by rw [k0_off4_eq]; show oA 0 + 6400 ≤ 12800 * k.val + 6400; omega))
  have hd4B : Disjoint ((Memref.whole main_v5).slice (Rect.unit (s := S500000x128) (k0_off4 k) S6400x128.size (k0_off4_inb k)) (fun _ => rfl)).view.set (outW oB hB).view.set := outW_disjoint _ _ _ _ (Or.inr (by rw [k0_off4_eq]; show oB 0 + 6400 ≤ 12800 * k.val + 6400; omega))
  unfold trip k0_t1_body
  sl_exec
  sl_step
  isplitr; · iexact HMW
  isplitl [HF0 H0a]
  · iexists (k0_off3 k), (k0_off3_inb k hc2), _
    isplitl [HF0]; · iexact HF0
    isplitl [H0a]; · iexact H0a
    ipureintro
    exact ⟨by rw [k0_off3_eq, show 25600 * k.val + 25600 = 12800 * (2 * (k.val + 1)) by omega], _, rfl⟩
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [HF2_dst HF3_dst H5]
    · iapply (rejoin_step hdAB hd2A.symm hd4A.symm hd2B.symm hd4B.symm)
      isplitl [HF2_dst]; · iexact HF2_dst
      isplitl [HF3_dst]; · iexact HF3_dst
      iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_step X0 X4 oA oB hA hB (k0_off2 k) (k0_off4 k) _ _ k.val (k0_off2_eq k) (k0_off4_eq k) yA yB yR _ _ VA VB VR
  iexists _
  isplitr
  swap; · iexact HO
  ipureintro; exact recorded_insert _ (recorded_insert _ (recorded_insert _ (recorded_insert _ hW)))

-- this declaration steps through one trip and then compares its closing facts with the terms that stepping
-- produced for the landed contents (a window written with the block buffer read whole, the buffer two stored halves of
-- the transposed chunk); together they need more than the default budget
set_option maxHeartbeats 1000000 in
/-- The first trip: nothing is on its way out yet, so neither block buffer is waited for. -/
theorem step_first (k : Fin k0_t1_loop.trips) (hk0 : k.val = 0) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_pos hk0, if_pos (show k.val + 1 < 39 by omega), if_neg (show ¬ k.val + 1 = 0 by omega)]
  unfold inFly outFly outIdle
  iintro ⟨#HMW, ⟨%off, %hoff, %g0, HF0, H0a, %hin⟩, ⟨%s1, Hx1⟩, H0b, Hs1, ⟨⟨%z0, Hz0⟩, ⟨%z1, Hz1⟩, HF2, HF3, H5⟩, ⟨%W', %hW, HO⟩⟩
  obtain ⟨rfl, g, rfl⟩ := hin
  have hc1 : ¬ cond1 k = 1#1 := cond1_neg hk0
  have hc2 : k0_cond2 k = 1#1 := cond2_pos (by omega)
  unfold trip k0_t1_body
  sl_exec (disch := first | sl_exact hc1 | sl_exact hc2)
  sl_step
  isplitr; · iexact HMW
  isplitl [HF0 H0a]
  · iexists (k0_off3 k), (k0_off3_inb k hc2), _
    isplitl [HF0]; · iexact HF0
    isplitl [H0a]; · iexact H0a
    ipureintro
    exact ⟨by rw [k0_off3_eq, show 25600 * k.val + 25600 = 12800 * (2 * (k.val + 1)) by omega], _, rfl⟩
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [H5]; · iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_first X0 X4 (k0_off2 k) (k0_off4 k) _ _ k.val hk0 (k0_off2_eq k) (k0_off4_eq k) _
  iexists _
  isplitr
  swap; · iexact HO
  ipureintro; exact recorded_insert _ (recorded_insert _ hW)

-- this declaration steps through one trip and then compares its closing facts with the terms that stepping
-- produced for the landed contents (a window written with the block buffer read whole, the buffer two stored halves of
-- the transposed chunk); together they need more than the default budget
set_option maxHeartbeats 1000000 in
/-- The last trip: no further chunk is started into the first input buffer. -/
theorem step_last (k : Fin k0_t1_loop.trips) (hk38 : k.val = 38) :
    inv c q0 X0 X4 Y O W k.val ⊢ wp frame (wpE (defs₀ (F := F)) 𝒱₀ (c.tc : Thread nD τ) none) Set.univ (trip k) (fun _ => inv c q0 X0 X4 Y O W (k.val + 1)) := by
  unfold inv
  rw [if_pos (show k.val < 39 by omega), if_neg (show ¬ k.val = 0 by omega), if_neg (show ¬ k.val + 1 < 39 by omega), if_neg (show ¬ k.val + 1 = 0 by omega)]
  unfold inFly inIdle outFly
  iintro ⟨#HMW, ⟨%off, %hoff, %g0, HF0, H0a, %hin⟩, ⟨%s1, Hx1⟩, H0b, Hs1, ⟨%oA, %oB, %hA, %hB, %yA, %yB, %yR, %z0, %z1, HF2, Hz0, HF3, Hz1, H5, %hf⟩, ⟨%W', %hW, HO⟩⟩
  obtain ⟨rfl, g, rfl⟩ := hin
  obtain ⟨⟨hsAB, hsB⟩, VA, VB, VR⟩ := hf
  have hc1 : cond1 k = 1#1 := cond1_pos (by omega)
  have hc2 : ¬ k0_cond2 k = 1#1 := cond2_neg (by omega)
  have hdAB : Disjoint (outW oA hA).view.set (outW oB hB).view.set := outW_disjoint _ _ _ _ (Or.inl hsAB)
  have hd2A : Disjoint ((Memref.whole main_v5).slice (Rect.unit (s := S500000x128) (k0_off2 k) S6400x128.size (k0_off2_inb k)) (fun _ => rfl)).view.set (outW oA hA).view.set := outW_disjoint _ _ _ _ (Or.inr (by rw [k0_off2_eq]; show oA 0 + 6400 ≤ 12800 * k.val; omega))
  have hd2B : Disjoint ((Memref.whole main_v5).slice (Rect.unit (s := S500000x128) (k0_off2 k) S6400x128.size (k0_off2_inb k)) (fun _ => rfl)).view.set (outW oB hB).view.set := outW_disjoint _ _ _ _ (Or.inr (by rw [k0_off2_eq]; exact hsB))
  have hd4A : Disjoint ((Memref.whole main_v5).slice (Rect.unit (s := S500000x128) (k0_off4 k) S6400x128.size (k0_off4_inb k)) (fun _ => rfl)).view.set (outW oA hA).view.set := outW_disjoint _ _ _ _ (Or.inr (by rw [k0_off4_eq]; show oA 0 + 6400 ≤ 12800 * k.val + 6400; omega))
  have hd4B : Disjoint ((Memref.whole main_v5).slice (Rect.unit (s := S500000x128) (k0_off4 k) S6400x128.size (k0_off4_inb k)) (fun _ => rfl)).view.set (outW oB hB).view.set := outW_disjoint _ _ _ _ (Or.inr (by rw [k0_off4_eq]; show oB 0 + 6400 ≤ 12800 * k.val + 6400; omega))
  unfold trip k0_t1_body
  sl_exec (disch := first | sl_exact hc1 | sl_exact hc2)
  sl_step
  isplitr; · iexact HMW
  isplitl [HF0_dst H0a HF0]
  · isplitl [HF0_dst]; · iexists _; iexact HF0_dst
    isplitl [H0a]; · iexact H0a
    iexact HF0
  isplitl [Hx1]; · iexists _; iexact Hx1
  isplitl [H0b]; · iexact H0b
  isplitl [Hs1]; · iexact Hs1
  isplitr [HO]
  · iexists (k0_off2 k), (k0_off4 k), (k0_off2_inb k), (k0_off4_inb k), _, _, _, _, _
    isplitl [HF2]; · iexact HF2
    isplitl [Hz0]; · iexact Hz0
    isplitl [HF3]; · iexact HF3
    isplitl [Hz1]; · iexact Hz1
    isplitl [HF2_dst HF3_dst H5]
    · iapply (rejoin_step hdAB hd2A.symm hd4A.symm hd2B.symm hd4B.symm)
      isplitl [HF2_dst]; · iexact HF2_dst
      isplitl [HF3_dst]; · iexact HF3_dst
      iexact H5
    ipureintro
    sl_unfold_run_names
    refine ⟨⟨by rw [k0_off2_eq, k0_off4_eq]; exact le_rfl, by rw [k0_off4_eq]; show 12800 * k.val + 6400 + 6400 ≤ 12800 * (k.val + 1); omega⟩, ?_, ?_, ?_⟩
    · exact landed0 X0 X4 g _ hoff (2 * k.val) (by omega) rfl rfl z0 _ (k0_off2 k) (k0_off2_inb k)
        (by rw [k0_off2_eq]; show 12800 * k.val = 6400 * (2 * k.val); omega) (by rw [k0_off2_eq]; rfl)
    · exact landed1 X0 X4 s1 (k0_off1 k) (k0_off1_inb k) (2 * k.val + 1) (by omega)
        (congrFun (k0_off1_eq k) 0) (by have e1 : k0_off1 k 1 = 25600 * k.val + 12800 := congrFun (k0_off1_eq k) 1; omega)
        z1 _ (k0_off4 k) (k0_off4_inb k)
        (by rw [k0_off4_eq]; show 12800 * k.val + 6400 = 6400 * (2 * k.val + 1); omega) (by rw [k0_off4_eq]; rfl)
    · exact rest_step X0 X4 oA oB hA hB (k0_off2 k) (k0_off4 k) _ _ k.val (k0_off2_eq k) (k0_off4_eq k) yA yB yR _ _ VA VB VR
  iexists _
  isplitr
  swap; · iexact HO
  ipureintro; exact recorded_insert _ (recorded_insert _ (recorded_insert _ (recorded_insert _ hW)))

/-- One trip of the loop takes the invariant at its trip to the invariant at the next. -/
theorem step (k : Fin k0_t1_loop.trips) :
    inv c q0 X0 X4 Y O W k.val ⊢ wp frame (wpE (defs₀ (F := F)) 𝒱₀ (c.tc : Thread nD τ) none) Set.univ (trip k) (fun _ => inv c q0 X0 X4 Y O W (k.val + 1)) := by
  have htr : k.val < 39 := lt_of_lt_of_le k.isLt k0_t1_abs.2.1
  by_cases h0 : k.val = 0
  · exact step_first c q0 X0 X4 Y O W k h0
  by_cases h38 : k.val = 38
  · exact step_last c q0 X0 X4 Y O W k h38
  exact step_mid c q0 X0 X4 Y O W k (by omega) (by omega)

end Step

/-! ## The kernel -/

section Body
variable (c : Dev nD) (q0 : PosShare TreeShare) (X0 : Bf (F := F) c main_v0) (X4 : Bf (F := F) c main_v4) (Y : Bf (F := F) c main_v5)
  (O : CellTallies nD τ sig (HIx 1)) (W : Waits sig (HIx 1))

/-- The table's share as two read shares and the remainder. -/
theorem toks2 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 2} f) ∗ (ℓ ↦[S]{tok q 0} f) ∗ (ℓ ↦[S]{tok q 1} f)) := by
  have h := Transfers.pointsTo_toks (Ix := HIx 1) (Val := Elt F) (Name := ℕ) (U := UU) (Lvl := ℕ) (ℓ := ℓ) (S := S) (f := f) q 2
  rw [show (Finset.univ : Finset (Fin 2)) = insert (0 : Fin 2) {(1 : Fin 2)} from by decide, bigSep_insert (by decide), bigSep_singleton] at h
  exact h

/-- A resource set aside: held, and not to be taken for a copy's source. -/
@[irreducible] def aside (P : sProp 𝕄) : sProp 𝕄 := P
theorem aside_iff (P : sProp 𝕄) : aside P ⊣⊢ P := by unfold aside; exact ⟨.rfl, .rfl⟩

/-- The table's share handed in, its two read shares and the remainder handed to the rest of the proof. -/
theorem table_split (c : Dev nD) (q : PosShare TreeShare) (X0 : Bf (F := F) c main_v0) {G : sProp 𝕄} :
    iprop(pt c main_v0 q X0 ∗ (iprop(aside (pt c main_v0 (Transfers.shareDrop q 2) X0) ∗ pt c main_v0 (tok q 0) X0 ∗ pt c main_v0 (tok q 1) X0) -∗ G)) ⊢ G := by
  have h1 : pt c main_v0 q X0 ⊢ iprop(aside (pt c main_v0 (Transfers.shareDrop q 2) X0) ∗ pt c main_v0 (tok q 0) X0 ∗ pt c main_v0 (tok q 1) X0) :=
    (toks2 q).1.trans (sep_mono_left (aside_iff _).2)
  iintro ⟨H, HG⟩
  iapply HG
  iapply h1
  iexact H

/-- And back. -/
theorem table_join (c : Dev nD) (q : PosShare TreeShare) (X0 : Bf (F := F) c main_v0) :
    iprop(aside (pt c main_v0 (Transfers.shareDrop q 2) X0) ∗ pt c main_v0 (tok q 0) X0 ∗ pt c main_v0 (tok q 1) X0) ⊢ pt c main_v0 q X0 :=
  (sep_mono_left (aside_iff _).1).trans (toks2 q).2

/-- `rejoin_last`, to apply to a goal. -/
theorem rejoin_last_wand {ℓ : Loc nD τ sig} {A B : Finset (Idx ℓ)} {q : PosShare TreeShare} {fA fB f : Buf (Elt F) ℓ} (hAB : Disjoint A B) {G : sProp 𝕄} :
    iprop((ℓ ↦[A]{q} fA) ∗ (ℓ ↦[B]{q} fB) ∗ (ℓ ↦[(Finset.univ \ A) \ B]{q} f) ∗ ((ℓ ↦{q} (A.piecewise fA (B.piecewise fB f))) -∗ G)) ⊢ G := by
  iintro ⟨HA, HB, HR, HG⟩
  iapply HG
  iapply (rejoin_last hAB)
  isplitl [HA]; · iexact HA
  isplitl [HB]; · iexact HB
  iexact HR

theorem trips_eq : Scf.trips k0_t1_loop.lb k0_t1_loop.ub k0_t1_loop.st = 39 := by decide

/-- The invariant after the last trip: nothing on its way in, the last two blocks on their way out. -/
theorem inv_exit :
    inv c q0 X0 X4 Y O W (Scf.trips k0_t1_loop.lb k0_t1_loop.ub k0_t1_loop.st)
      ⊢ iprop(inIdle c q0 X0 ∗ (∃ g1, pt c cc0_scratch1 fullShare g1) ∗ pt c main_v0 (tok q0 1) X0 ∗ cell c cc0_scratch5 0
          ∗ outFly c X0 X4 39 ∗ ∃ W', ⌜∀ p ∈ W', p ∈ W ∨ p.2 = none⌝ ∗ owes (c.tc : Thread nD τ) O W') := by
  rw [trips_eq]; unfold inv
  rw [if_neg (by decide), if_neg (by decide)]
  iintro ⟨-, H⟩; iexact H

/-- The kernel, with what it leaves in the result: every operand and scratch buffer back, the result at the packed table,
    the four semaphores at zero, and the core's recorded waits those it came with and the kernel's own. -/
theorem pack_body (t : Fin cfg0.N) (q4 : PosShare TreeShare) :
    iprop(□ Transfers.MayWaits (c.tc : Thread nD τ) none O ∗ pt c main_v0 q0 X0 ∗ pt c main_v4 q4 X4 ∗ pt c main_v5 fullShare Y
        ∗ (∃ f, pt c cc0_scratch0 fullShare f) ∗ (∃ f, pt c cc0_scratch1 fullShare f) ∗ (∃ f, pt c cc0_scratch2 fullShare f) ∗ (∃ f, pt c cc0_scratch3 fullShare f)
        ∗ cell c cc0_scratch4 0 ∗ cell c cc0_scratch5 0 ∗ cell c cc0_scratch6 0 ∗ cell c cc0_scratch7 0 ∗ owes (c.tc : Thread nD τ) O W)
      ⊢ wp frame (wpE (defs₀ (F := F)) 𝒱₀ (c.tc : Thread nD τ) none) Set.univ (Gen.bodyAt0 t) (fun _ =>
          iprop(pt c main_v0 q0 X0 ∗ pt c main_v4 q4 X4 ∗ pt c main_v5 fullShare (packed X0 X4)
            ∗ (∃ f, pt c cc0_scratch0 fullShare f) ∗ (∃ f, pt c cc0_scratch1 fullShare f) ∗ (∃ f, pt c cc0_scratch2 fullShare f) ∗ (∃ f, pt c cc0_scratch3 fullShare f)
            ∗ cell c cc0_scratch4 0 ∗ cell c cc0_scratch5 0 ∗ cell c cc0_scratch6 0 ∗ cell c cc0_scratch7 0
            ∗ ∃ W', ⌜∀ p ∈ W', p ∈ W ∨ p.2 = none⌝ ∗ owes (c.tc : Thread nD τ) O W')) := by
  iintro ⟨#HMW, H0, H4, H5, ⟨%s0, Hx0⟩, ⟨%s1, Hx1⟩, ⟨%s2, Hz0⟩, ⟨%s3, Hz1⟩, Hs0, Hs1, Hs2, Hs3, HO⟩
  iapply (table_split c q0 X0)
  isplitl [H0]; · iexact H0
  iintro ⟨H0d, H0a, H0b⟩
  unfold bodyAt0
  simp only [cc0__pack_body_eq_skeleton]; unfold cc0__pack_body_skel
  sl_exec
  sl_for (fun n (_ : Unit) => inv c q0 X0 X4 Y O W n) $$ [Hs0 H0a Hx1 H0b Hs1 Hz0 Hz1 Hs2 Hs3 H5 HO]
  · intro k acc; exact step c q0 X0 X4 Y O W k
  · unfold inv; rw [if_pos (by decide), if_pos rfl]; unfold inFly outIdle
    isplitr; · iexact HMW
    isplitl [Hs0 H0a]
    · iexists ![0, 0], inb_S64x1000000_S64x12800_0_0, _
      isplitl [Hs0]; · iexact Hs0
      isplitl [H0a]; · iexact H0a
      ipureintro
      exact ⟨rfl, s0, rfl⟩
    isplitl [Hx1]; · iexists _; iexact Hx1
    isplitl [H0b]; · iexact H0b
    isplitl [Hs1]; · iexact Hs1
    isplitr [HO]
    · isplitl [Hz0]; · iexists _; iexact Hz0
      isplitl [Hz1]; · iexists _; iexact Hz1
      isplitl [Hs2]; · iexact Hs2
      isplitl [Hs3]; · iexact Hs3
      iexact H5
    iexists W; isplitr; · ipureintro; exact fun p hp => Or.inl hp
    iexact HO
  iintro %acc HI
  have hexit := inv_exit c q0 X0 X4 Y O W
  ihave HI' := hexit $$ HI
  unfold inIdle outFly
  icases HI' with ⟨⟨⟨%g0, Hx0⟩, H0a, Hs0⟩, ⟨%g1, Hx1⟩, H0b, Hs1, ⟨%oA, %oB, %hA, %hB, %yA, %yB, %yR, %z0, %z1, HF2, Hz0, HF3, Hz1, H5, %hf⟩, ⟨%W', %hW, HO⟩⟩
  obtain ⟨⟨hsAB, hsB⟩, VA, VB, VR⟩ := hf
  have hdAB : Disjoint (outW oA hA).view.set (outW oB hB).view.set := outW_disjoint _ _ _ _ (Or.inl hsAB)
  set_option sl_exec.maxSteps 2 in sl_exec
  iapply (rejoin_last_wand (ℓ := (Memref.whole main_v5).view.loc (c.tc : Thread nD τ)) hdAB)
  isplitl [HF2_dst]; · iexact HF2_dst
  isplitl [HF3_dst]; · iexact HF3_dst
  isplitl [H5]; · iexact H5
  iintro H5
  sl_exec
  sl_step
  have hfin := final_val X0 X4 oA oB hA hB yA yB yR VA VB VR
  isplitl [H0d H0a H0b]
  · iapply (table_join c q0 X0)
    isplitl [H0d]; · iexact H0d
    isplitl [H0a]; · iexact H0a
    iexact H0b
  isplitl [H4]; · iexact H4
  isplitl [H5]
  · rw [← hfin]; iexact H5
  isplitl [Hx0]; · iexists _; iexact Hx0
  isplitl [Hx1]; · iexists _; iexact Hx1
  isplitl [Hz0]; · iexists _; iexact Hz0
  isplitl [Hz1]; · iexists _; iexact Hz1
  isplitl [Hs0]; · iexact Hs0
  isplitl [Hs1]; · iexact Hs1
  isplitl [HF2]; · iexact HF2
  isplitl [HF3]; · iexact HF3
  iexists _
  isplitr
  swap; · iexact HO
  ipureintro; exact recorded_insert _ (recorded_insert _ (recorded_insert _ hW))

end Body

/-- The kernel's frame: the same with the result at some contents. -/
theorem pack_body_frame (c : Dev nD) (q0 : PosShare TreeShare) (X0 : Bf (F := F) c main_v0) (Y : Bf (F := F) c main_v5)
    (O : CellTallies nD τ sig (HIx 1)) (W : Waits sig (HIx 1)) (t : Fin cfg0.N) (q4 : PosShare TreeShare) (X4 : Bf (F := F) c main_v4) :
    iprop(□ Transfers.MayWaits (c.tc : Thread nD τ) none O ∗ pt c main_v0 q0 X0 ∗ pt c main_v4 q4 X4 ∗ pt c main_v5 fullShare Y
        ∗ (∃ f, pt c cc0_scratch0 fullShare f) ∗ (∃ f, pt c cc0_scratch1 fullShare f) ∗ (∃ f, pt c cc0_scratch2 fullShare f) ∗ (∃ f, pt c cc0_scratch3 fullShare f)
        ∗ cell c cc0_scratch4 0 ∗ cell c cc0_scratch5 0 ∗ cell c cc0_scratch6 0 ∗ cell c cc0_scratch7 0 ∗ owes (c.tc : Thread nD τ) O W)
      ⊢ wp frame (wpE (defs₀ (F := F)) 𝒱₀ (c.tc : Thread nD τ) none) Set.univ (Gen.bodyAt0 t) (fun _ =>
          iprop(pt c main_v0 q0 X0 ∗ pt c main_v4 q4 X4 ∗ (∃ f, pt c main_v5 fullShare f)
            ∗ (∃ f, pt c cc0_scratch0 fullShare f) ∗ (∃ f, pt c cc0_scratch1 fullShare f) ∗ (∃ f, pt c cc0_scratch2 fullShare f) ∗ (∃ f, pt c cc0_scratch3 fullShare f)
            ∗ cell c cc0_scratch4 0 ∗ cell c cc0_scratch5 0 ∗ cell c cc0_scratch6 0 ∗ cell c cc0_scratch7 0
            ∗ ∃ W', ⌜∀ p ∈ W', p ∈ W ∨ p.2 = none⌝ ∗ owes (c.tc : Thread nD τ) O W')) :=
  (pack_body c q0 X0 X4 Y O W t q4).trans (wp_mono _ _ _ fun _ => by
    iintro ⟨H0, H4, H5, Hr⟩
    isplitl [H0]; · iexact H0
    isplitl [H4]; · iexact H4
    isplitl [H5]; · iexists _; iexact H5
    iexact Hr)

end Cert.Proof.KB

end
-- ==== Proof.BDatA.lean ====
/-
  The packing pipeline's proof data and body obligation. The pipeline has one point and no window: the three arrays
  its kernel touches stay whole in HBM and stand in the pipeline's invariant, beside the kernel's four DMA semaphores
  at zero and the core's scoped buffers. The core owes the same tallies before and after the point; the kernel's waits
  record pairs at the kernels' index only, which sits below every debt at a call's index.
-/
import proofs.«205037_g73117523247527_cont_9to1c4b_608_48_alg».proof.Proof.BLaunchDefs
import proofs.«205037_g73117523247527_cont_9to1c4b_608_48_alg».proof.Proof.BPack

noncomputable section

namespace Cert.Proof.KB

open Cert.Kernel Cert.Kernel.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The packing pipeline's proof data -/

/-- The packing kernel's own semaphores: its four DMA semaphores. -/
def osemA : Fin 4 → SemLoc sig
  | 0 => .dma cc0_scratch4.sem
  | 1 => .dma cc0_scratch5.sem
  | 2 => .dma cc0_scratch6.sem
  | 3 => .dma cc0_scratch7.sem

/-- The pipeline's invariant on core `c` with the packed table at `Y`: the level facts (persistent: the evidence for
    the kernel's waits), the two sources and the packed table whole, the kernel's own semaphores at zero, and the core's
    scoped buffers (the kernel's four scratch buffers among them; the others only pass through). -/
def PhiA (c : Dev nD) (X0 : Bf (F := F) c main_v0) (X4 : Bf (F := F) c main_v4) (Y : Bf (F := F) c main_v5) : sProp 𝕄 :=
  iprop(levAts (K (F := F)).L (K (F := F)).lev ∗ pt c main_v0 fullShare X0 ∗ pt c main_v4 fullShare X4 ∗ pt c main_v5 fullShare Y
    ∗ Pipeline.ownSems0 (Ix := HIx 1) (Name := ℕ) (U := UU) (Lvl := ℕ) (Val := Elt F) (τ := τ) osemA c
    ∗ Pipeline.scopedRest (Ix := HIx 1) (Name := ℕ) (U := UU) (Lvl := ℕ) (Val := Elt F) cfg0.spec c)

/-- The packing pipeline's proof data on core `c`: no window; the invariant before the one point has the packed table
    at what it held, after it at the packing of the two sources; the core owes `O` throughout, its recorded pairs
    within `B`. -/
def dat0 (c : Dev nD) (X0 : Bf (F := F) c main_v0) (X4 : Bf (F := F) c main_v4) (Y : Bf (F := F) c main_v5)
    (O : CellTallies nD τ sig (HIx 1)) (B : Set (SemLoc sig × HIx 1)) :
    Pipeline.Dat τ (Elt F) (HIx 1) ℕ UU ℕ (Pipeline.pin (pcfgs (F := F)) adm 0) c where
  A w := w.elim0
  after w := w.elim0
  Φ t := match t with
    | ⟨0, _⟩ => PhiA c X0 X4 Y
    | ⟨_ + 1, _⟩ => PhiA c X0 X4 (packed X0 X4)
  q w := w.elim0
  owed _ := O
  recorded _ := B

/-- A pipeline of no window conjoins nothing over its windows. -/
theorem bigSep_noWin {M : Type} [URA M] (Φ : Fin 0 → sProp M) : bigSep Finset.univ Φ = (BI.emp : sProp M) :=
  bigSep_univ_eq_bigSepL [] (by decide) (by decide) Φ

/-- The packing kernel's own semaphores at zero, one by one. -/
theorem ownSemsA_eq (c : Dev nD) :
    (Pipeline.ownSems0 (Ix := HIx 1) (Name := ℕ) (U := UU) (Lvl := ℕ) (Val := Elt F) (τ := τ) osemA c : sProp 𝕄)
      = iprop(cell c cc0_scratch4 0 ∗ cell c cc0_scratch5 0 ∗ cell c cc0_scratch6 0 ∗ cell c cc0_scratch7 0) :=
  Pipeline.ownSems0_eq_of_list (Ix := HIx 1) (Name := ℕ) (U := UU) (Lvl := ℕ) (Val := Elt F) (τ := τ) c osemA [0, 1, 2, 3] (by decide) (by decide)

/-- The body obligation of the packing pipeline: at its one point the kernel's body runs from the invariant at what
    the packed table held to the invariant at the packing, owing the same, every pair its waits record at the kernels'
    index. -/
theorem body0 (c : Dev nD) (X0 : Bf (F := F) c main_v0) (X4 : Bf (F := F) c main_v4) (Y : Bf (F := F) c main_v5)
    (O : CellTallies nD τ sig (HIx 1)) (B : Set (SemLoc sig × HIx 1))
    (hO : ∀ g, O g none = 0) (hB : ∀ sm, (sm, (none : HIx 1)) ∈ B) :
    Pipeline.BodyObligationLoose (dat0 c X0 X4 Y O B) (defs₀ (F := F)) 𝒱₀ (none : HIx 1) Set.univ := fun t => by
  obtain rfl := fin_N0 t
  show iprop(PhiA c X0 X4 Y ∗ Pipeline.owesWithin c O ((dat0 c X0 X4 Y O B).bound none t0_0.castSucc)
        ∗ bigSep (Finset.univ : Finset (Fin 0)) _)
      ⊢ wp frame (wpE (defs₀ (F := F)) 𝒱₀ (c.tc : Thread nD τ) none) Set.univ (Gen.bodyAt0 (F := F) t0_0) (fun _ =>
          iprop(PhiA c X0 X4 (packed X0 X4) ∗ Pipeline.owesWithin c O ((dat0 c X0 X4 Y O B).bound none t0_0.succ)
            ∗ bigSep (Finset.univ : Finset (Fin 0)) _))
  rw [bigSep_noWin, bigSep_noWin]
  unfold PhiA
  iintro ⟨⟨#Hlev, H0, H4, H5, Hsem, Hscr⟩, ⟨%W, %hW, HO⟩, -⟩
  -- the kernel's waits are at the kernels' index, below everything the core owes
  ihave #Hmw := ((K (F := F)).mayWaits_none (thr := (c.tc : Thread nD τ)) hO) $$ Hlev
  -- the four semaphores and the four scratch buffers, one by one
  ihave Hsem' := (Entails.of_eq (ownSemsA_eq (F := F) c)) $$ Hsem
  icases Hsem' with ⟨S4, S5, S6, S7⟩
  ihave Hscr' := (Entails.of_eq (scopedRest0_eq (Ix := HIx 1) (Val := Elt F) (Name := ℕ) (U := UU) (Lvl := ℕ) c)) $$ Hscr
  icases Hscr' with ⟨B0, B1, B2, B3, Hstg⟩
  iapply (wp_wand_r frame _ Set.univ)
  isplitl [H0 H4 H5 S4 S5 S6 S7 B0 B1 B2 B3 HO]
  · iapply (pack_body (c := c) (q0 := fullShare) (X0 := X0) (X4 := X4) (Y := Y) (O := O) (W := W) (t := t0_0) (q4 := fullShare))
    isplitr
    · imodintro; iexact Hmw
    isplitl [H0]; · iexact H0
    isplitl [H4]; · iexact H4
    isplitl [H5]; · iexact H5
    isplitl [B0]; · iexact B0
    isplitl [B1]; · iexact B1
    isplitl [B2]; · iexact B2
    isplitl [B3]; · iexact B3
    isplitl [S4]; · iexact S4
    isplitl [S5]; · iexact S5
    isplitl [S6]; · iexact S6
    isplitl [S7]; · iexact S7
    iexact HO
  iintro %_ ⟨H0, H4, H5, B0, B1, B2, B3, S4, S5, S6, S7, ⟨%W', %hW', HO⟩⟩
  isplitl [H0 H4 H5 S4 S5 S6 S7 B0 B1 B2 B3 Hstg]
  · isplitr; · iexact Hlev
    isplitl [H0]; · iexact H0
    isplitl [H4]; · iexact H4
    isplitl [H5]; · iexact H5
    isplitl [S4 S5 S6 S7]
    · iapply (Entails.of_eq (ownSemsA_eq (F := F) c).symm)
      isplitl [S4]; · iexact S4
      isplitl [S5]; · iexact S5
      isplitl [S6]; · iexact S6
      iexact S7
    iapply (Entails.of_eq (scopedRest0_eq (Ix := HIx 1) (Val := Elt F) (Name := ℕ) (U := UU) (Lvl := ℕ) c).symm)
    isplitl [B0]; · iexact B0
    isplitl [B1]; · iexact B1
    isplitl [B2]; · iexact B2
    isplitl [B3]; · iexact B3
    iexact Hstg
  isplitl [HO]
  · iexists W'
    isplitr
    · ipureintro
      intro p hp
      rcases hW' p (Finset.mem_coe.mp hp) with h | h
      · exact hW (Finset.mem_coe.mpr h)
      · obtain ⟨sm, ι⟩ := p
        cases h
        exact Or.inl (hB sm)
    iexact HO
  iempintro

/-! ## The packing kernel's three arrays as device buffers -/

abbrev pk0 : DevRef τ sig := Proc.devRef .tc (main_v0 : Ref sig .tc)
abbrev pk4 : DevRef τ sig := Proc.devRef .tc (main_v4 : Ref sig .tc)
abbrev pk5 : DevRef τ sig := Proc.devRef .tc (main_v5 : Ref sig .tc)

/-- The packing pipeline's proof data over the contents the region finds, the tallies and the bound on the recorded
    pairs those of the TensorCore before the SparseCore call. -/
abbrev datA (V : Dev nD → Valuation τ sig (Elt F)) (c : Dev nD) :
    Pipeline.Dat τ (Elt F) (HIx 1) ℕ UU ℕ (Pipeline.pin (pcfgs (F := F)) adm 0) c :=
  dat0 c (V c pk0) (V c pk4) (V c pk5) ((K (F := F)).Otc c 0) (boundT (F := F) c 0)

end Cert.Proof.KB

end
-- ==== Proof.BHostRead.lean ====
/-
  The buffers the host stretches leave for the kernels, read at one index: each is an input array at an index that
  arithmetic names — the transposed table, the packed tail of the table, the relation table two rows to one, the entity
  and relation indices' packed rows 128 to a row, and the five half-selectors of a sample in one word.
-/
import proofs.«205037_g73117523247527_cont_9to1c4b_608_48_alg».proof.Proof.BHost
import proofs.«205037_g73117523247527_cont_9to1c4b_608_48_alg».proof.Proof.PackPick
import Idealize.ShloMosaic.Lib.Pipeline.Value
import Idealize.ShloMosaic.Lib.ValueIdxCoords

noncomputable section

namespace Cert.Proof.KB

open Cert.Kernel Cert.Kernel.Gen
open Idealize.ShloMosaic Idealize.ShloMosaic.ValueIdx
open Cert.Proof.IdxArith

variable {F : FTy → Type} [FloatOps F]

/-! ## Arrays at an index -/

section Arrays
variable {α : Type}

/-- Four arrays of 16384 one after another. -/
abbrev cat4 (a0 a1 a2 a3 : S16384.Idx → α) : S65536.Idx → α :=
  concatenate S65536 0 [⟨S16384, a0⟩, ⟨S16384, a1⟩, ⟨S16384, a2⟩, ⟨S16384, a3⟩]
    concatenates_S16384_S16384_S16384_S16384_S65536_d0

/-- The `k`-th of four. -/
abbrev pick4 (a0 a1 a2 a3 : α) : Fin 4 → α
  | 0 => a0 | 1 => a1 | 2 => a2 | 3 => a3

set_option maxRecDepth 8192 in
/-- Position `16384 k + i` of four arrays one after another is position `i` of the `k`-th. -/
theorem cat4_apply (a0 a1 a2 a3 : S16384.Idx → α) (k : Fin 4) (i : S16384.Idx) (j : S65536.Idx)
    (hj : (j 0).val = 16384 * k.val + (i 0).val) : cat4 a0 a1 a2 a3 j = pick4 a0 a1 a2 a3 k i := by
  have hne : ∀ b : Fin S16384.rank, b.cast (rfl : S16384.rank = S65536.rank) ≠ (0 : Fin S65536.rank) → (i b).val = (j (b.cast rfl)).val :=
    fun b hb => absurd (Subsingleton.elim _ _) hb
  match k with
  | 0 => exact concatenate_apply_piece 0 _ _ j 0 (by show 0 < 4; omega) S16384 a0 rfl rfl 0 rfl i hne (by rw [hj]; show 0 + (i 0).val = 16384 * 0 + (i 0).val; omega)
  | 1 => exact concatenate_apply_piece 0 _ _ j 1 (by show 1 < 4; omega) S16384 a1 rfl rfl 16384 rfl i hne (by rw [hj]; show 16384 + (i 0).val = 16384 * 1 + (i 0).val; omega)
  | 2 => exact concatenate_apply_piece 0 _ _ j 2 (by show 2 < 4; omega) S16384 a2 rfl rfl 32768 rfl i hne (by rw [hj]; show 32768 + (i 0).val = 16384 * 2 + (i 0).val; omega)
  | 3 => exact concatenate_apply_piece 0 _ _ j 3 (by show 3 < 4; omega) S16384 a3 rfl rfl 49152 (by first | decide | simp) i hne (by rw [hj]; show 49152 + (i 0).val = 16384 * 3 + (i 0).val; omega)

end Arrays

section Arrays2
variable {α : Type}

/-- Row `k` of four rows of 16384, at `i`, is position `16384 k + i` of the 65536. -/
theorem halfRow_apply (e : IVec S65536 32) (k : Nat) (hk : k < 4) (h : S4x16384.Slices ![k, 0] S1x16384) (i : S16384.Idx)
    (j : S65536.Idx) (hj : (j 0).val = 16384 * k + (i 0).val) : halfRow e k h i = e j := by
  have hi : (i 0).val < 16384 := (i 0).isLt
  show shapeCast S16384 _ _ i = e j
  refine (shapeCast_apply _ _ i (ix2 (n0 := 1) (n1 := 16384) u0 ⟨(i 0).val, hi⟩) (by
      rw [Shape.rowMajor_val_two, Shape.rowMajor_val_one]; show 0 * 16384 + (i 0).val = (i 0).val; omega)).trans ?_
  refine (extractStridedSlice_apply _ _ _ _ (ix2 (n0 := 4) (n1 := 16384) ⟨k, hk⟩ ⟨(i 0).val, hi⟩) (fun a => match a with
      | ⟨0, _⟩ => by show k = k + 0; omega
      | ⟨1, _⟩ => by show (i 0).val = 0 + (i 0).val; omega)).trans ?_
  exact shapeCast_apply _ _ _ j (by
      rw [Shape.rowMajor_val_one, Shape.rowMajor_val_two]; show (j 0).val = k * 16384 + (i 0).val; omega)

/-- 65536 entries 128 to a row: row `r`, column `c` is position `128 r + c`. -/
theorem rows512_apply (x : S65536.Idx → α) (r : Fin 512) (c : Fin 128) (j : S65536.Idx)
    (hj : (j 0).val = 128 * r.val + c.val) : shapeCast S512x128 x shapeCasts_S65536_S512x128 (ix2 r c) = x j :=
  shapeCast_apply _ _ _ j (by
    rw [Shape.rowMajor_val_one, Shape.rowMajor_val_two]; show (j 0).val = r.val * 128 + c.val; omega)

/-- 16384 entries 128 to a row: row `g`, column `c` is position `128 g + c`. -/
theorem rows128_apply (x : S16384.Idx → α) (g c : Fin 128) :
    shapeCast S128x128 x shapeCasts_S16384_S128x128 (ix2 g c)
      = x (ix1 ⟨128 * g.val + c.val, by have := g.isLt; have := c.isLt; omega⟩) :=
  shapeCast_apply _ _ _ _ (by
    rw [Shape.rowMajor_val_one, Shape.rowMajor_val_two]; show 128 * g.val + c.val = g.val * 128 + c.val; omega)

/-- 16384 entries one to a row. -/
theorem rows1_apply (x : S16384.Idx → α) (b : Fin 16384) :
    shapeCast S16384x1 x shapeCasts_S16384_S16384x1 (ix2 b u0) = x (ix1 b) :=
  shapeCast_apply _ _ _ _ (by
    rw [Shape.rowMajor_val_one, Shape.rowMajor_val_two]; show b.val = b.val * 1 + 0; omega)

/-- A table of 1000 rows of 64 read two rows to one: packed row `p`, column `c` is row `2 p + c / 64`, column
    `c % 64`. -/
theorem rel2_apply (R : S1000x64.Idx → α) (p : Fin 500) (c : Fin 128) :
    shapeCast S500x128 R shapeCasts_S1000x64_S500x128 (ix2 p c)
      = R (ix2 ⟨2 * p.val + c.val / 64, by have := p.isLt; have := c.isLt; omega⟩ ⟨c.val % 64, by omega⟩) :=
  shapeCast_apply _ _ _ _ (by
    rw [Shape.rowMajor_val_two, Shape.rowMajor_val_two]
    show (2 * p.val + c.val / 64) * 64 + c.val % 64 = p.val * 128 + c.val; omega)

/-- The transposed table at `(j, i)` is the table at `(i, j)`. -/
theorem tabT_apply (E : S1000000x64.Idx → α) (j : Fin 64) (i : Fin 1000000) :
    transpose S64x1000000 [1, 0] E transposes_S1000000x64_S64x1000000_1_0 (ix2 j i) = E (ix2 i j) :=
  transpose_apply _ _ _ _ _ (fun b => match b with | ⟨0, _⟩ => rfl | ⟨1, _⟩ => rfl)

/-- The table's last 1600 rows, the first 800 beside the last 800: row `j`, column `c` is row
    `998400 + j + 800 (c / 64)`, column `c % 64` of the table. -/
theorem tail_apply (E : S1000000x64.Idx → α) (j : Fin 800) (c : Fin 128) :
    concatenate S800x128 1
        [⟨S800x64, extractStridedSlice S800x64 ![0, 0]
            (extractStridedSlice S1600x64 ![998400, 0] E slices_S1000000x64_S1600x64_998400_0) slices_S1600x64_S800x64_0_0⟩,
         ⟨S800x64, extractStridedSlice S800x64 ![800, 0]
            (extractStridedSlice S1600x64 ![998400, 0] E slices_S1000000x64_S1600x64_998400_0) slices_S1600x64_S800x64_800_0⟩]
        concatenates_S800x64_S800x64_S800x128_d1 (ix2 j c)
      = E (ix2 ⟨998400 + j.val + 800 * (c.val / 64), by have := j.isLt; have := c.isLt; omega⟩ ⟨c.val % 64, by omega⟩) := by
  have hj := j.isLt
  have hc := c.isLt
  by_cases h64 : c.val < 64
  · refine (concatenate_pair_apply_left (t := S800x128) (s₁ := S800x64) (s₂ := S800x64) 1 _ _ _ (ix2 j c) rfl (ix2 (n0 := 800) (n1 := 64) j ⟨c.val, h64⟩)
      (fun b => match b with | ⟨0, _⟩ => rfl | ⟨1, _⟩ => rfl)).trans ?_
    refine (extractStridedSlice_apply _ _ _ _ (ix2 (n0 := 1600) (n1 := 64) ⟨j.val, by omega⟩ ⟨c.val, h64⟩) (fun a => match a with
      | ⟨0, _⟩ => by show j.val = 0 + j.val; omega
      | ⟨1, _⟩ => by show c.val = 0 + c.val; omega)).trans ?_
    exact extractStridedSlice_apply _ _ _ _ _ (fun a => match a with
      | ⟨0, _⟩ => by show 998400 + j.val + 800 * (c.val / 64) = 998400 + j.val; omega
      | ⟨1, _⟩ => by show c.val % 64 = 0 + c.val; omega)
  · refine (concatenate_pair_apply_right (t := S800x128) (s₁ := S800x64) (s₂ := S800x64) 1 _ _ _ (ix2 j c) rfl rfl (ix2 (n0 := 800) (n1 := 64) j ⟨c.val - 64, by omega⟩)
      (fun b hb => match b, hb with | ⟨0, _⟩, _ => rfl | ⟨1, _⟩, hb => absurd rfl hb)
      (by show c.val - 64 + 64 = c.val; omega)).trans ?_
    refine (extractStridedSlice_apply _ _ _ _ (ix2 (n0 := 1600) (n1 := 64) ⟨800 + j.val, by omega⟩ ⟨c.val - 64, by omega⟩) (fun a => match a with
      | ⟨0, _⟩ => by show 800 + j.val = 800 + j.val; omega
      | ⟨1, _⟩ => by show c.val - 64 = 0 + (c.val - 64); omega)).trans ?_
    exact extractStridedSlice_apply _ _ _ _ _ (fun a => match a with
      | ⟨0, _⟩ => by show 998400 + j.val + 800 * (c.val / 64) = 998400 + (800 + j.val); omega
      | ⟨1, _⟩ => by show c.val % 64 = 0 + (c.val - 64); omega)

end Arrays2

/-! ## The stretches' buffers at an index -/

section Reads
open StableHlo

variable (V : Valuation τ sig (Elt F))

/-- The transposed table the first pallas_call reads. -/
theorem A1_v0_read (j : Fin 64) (i : Fin 1000000) :
    after opsA1 V (Proc.devRef .tc main_v0) (ix2 j i) = V (Proc.devRef .tc main_arg0) (ix2 i j) := by
  rw [A1_v0]; exact tabT_apply _ j i

/-- The packed tail of the table the first pallas_call reads. -/
theorem A1_v4_read (j : Fin 800) (c : Fin 128) :
    after opsA1 V (Proc.devRef .tc main_v4) (ix2 j c)
      = V (Proc.devRef .tc main_arg0)
          (ix2 ⟨998400 + j.val + 800 * (c.val / 64), by have := j.isLt; have := c.isLt; omega⟩ ⟨c.val % 64, by omega⟩) := by
  rw [A1_v4]; exact tail_apply _ j c

/-- The relation table two rows to one. -/
theorem A2_v6_read (p : Fin 500) (c : Fin 128) :
    after opsA2 V (Proc.devRef .tc main_v6) (ix2 p c)
      = V (Proc.devRef .tc main_arg1)
          (ix2 ⟨2 * p.val + c.val / 64, by have := p.isLt; have := c.isLt; omega⟩ ⟨c.val % 64, by omega⟩) := by
  rw [A2_v6]; exact rel2_apply _ p c

/-- The halves of the entity indices: position `16384 k + i` is the half of input `k`'s index `i`. -/
theorem A2_v19_read (k : Fin 4) (i : S16384.Idx) (j : S65536.Idx) (hj : (j 0).val = 16384 * k.val + (i 0).val) :
    after opsA2 V (Proc.devRef .tc main_v19) j
      = eparW (pick4 (V (Proc.devRef .tc main_arg2)) (V (Proc.devRef .tc main_arg4)) (V (Proc.devRef .tc main_arg5))
          (V (Proc.devRef .tc main_arg6)) k i) := by
  rw [A2_v19]; exact congrArg eparW (cat4_apply _ _ _ _ k i j hj)

/-- The packed rows of the entity indices, 128 to a row: rows `128 k … 128 k + 127` are input `k`'s. -/
theorem A2_v24_read (k : Fin 4) (g c : Fin 128) (r : Fin 512) (hr : r.val = 128 * k.val + g.val) :
    after opsA2 V (Proc.devRef .tc main_v24) (ix2 r c)
      = epairW (pick4 (V (Proc.devRef .tc main_arg2)) (V (Proc.devRef .tc main_arg4)) (V (Proc.devRef .tc main_arg5))
          (V (Proc.devRef .tc main_arg6)) k (ix1 ⟨128 * g.val + c.val, by have := g.isLt; have := c.isLt; omega⟩)) := by
  have hk := k.isLt; have hg := g.isLt; have hc := c.isLt
  rw [A2_v24]
  refine (rows512_apply _ r c (ix1 ⟨16384 * k.val + (128 * g.val + c.val), by omega⟩)
    (by show 16384 * k.val + (128 * g.val + c.val) = 128 * r.val + c.val; omega)).trans ?_
  exact congrArg epairW (cat4_apply _ _ _ _ k _ _ rfl)

/-- The packed rows of the relation indices, 128 to a row. -/
theorem A2_v25_read (g c : Fin 128) :
    after opsA2 V (Proc.devRef .tc main_v25) (ix2 g c)
      = rpairW (V (Proc.devRef .tc main_arg3) (ix1 ⟨128 * g.val + c.val, by have := g.isLt; have := c.isLt; omega⟩)) := by
  rw [A2_v25]; exact rows128_apply _ g c

/-- The five half-selectors of sample `b` in one word, where the third stretch starts from the halves the second left:
    the halves of the four entity inputs' indices one after another at `main_v19`, of the relation indices at
    `main_v23`. -/
theorem B1_v48_read (a0 a1 a2 a3 a : IVec S16384 32)
    (h19 : V (Proc.devRef .tc main_v19) = fun i => eparW (cat4 a0 a1 a2 a3 i))
    (h23 : V (Proc.devRef .tc main_v23) = fun i => rparW (a i)) (b : Fin 16384) :
    after opsB1 V (Proc.devRef .tc main_v48) (ix2 b u0)
      = PackPick.pbits (a0 (ix1 b)) (a1 (ix1 b)) (a2 (ix1 b)) (a3 (ix1 b)) (a (ix1 b)) := by
  have hb := b.isLt
  have t : ∀ (k : Nat) (hk : k < 4) (h : S4x16384.Slices ![k, 0] S1x16384),
      halfRow (fun i => eparW (cat4 a0 a1 a2 a3 i)) k h (ix1 b) = eparW (pick4 a0 a1 a2 a3 ⟨k, hk⟩ (ix1 b)) := fun k hk h => by
    rw [halfRow_apply _ k hk h (ix1 b) (ix1 ⟨16384 * k + b.val, by omega⟩) rfl]
    exact congrArg eparW (cat4_apply a0 a1 a2 a3 ⟨k, hk⟩ (ix1 b) _ rfl)
  rw [B1_v48]
  refine (rows1_apply _ b).trans ?_
  show packW _ _ _ _ _ = _
  rw [h19, h23, t 0 (by omega), t 1 (by omega), t 2 (by omega), t 3 (by omega)]
  rfl

end Reads

end Cert.Proof.KB

end
-- ==== Proof.BChainA.lean ====
/-
  What the TensorCore's first host program leaves. It runs the first stretch of host operations, then the packing
  kernel, which overwrites the packed table's array with some contents, then the second stretch. From a start valuation
  and those contents: the arguments are where they were; the packed table holds what the kernel left; what the kernel
  read, and every other operand of the SparseCore call, is an input array at an index arithmetic names; and the halves
  the third stretch reads are the halves of the inputs' indices — so that after the SparseCore call, whatever it left in
  its five results, the word of five half-selectors the last kernel reads is the inputs' own.
-/
import proofs.«205037_g73117523247527_cont_9to1c4b_608_48_alg».proof.Proof.BHostRead
import proofs.«205037_g73117523247527_cont_9to1c4b_608_48_alg».proof.Proof.BHandOver

noncomputable section

namespace Cert.Proof.KB

open Cert.Kernel Cert.Kernel.Gen
open Idealize.ShloMosaic Idealize.ShloMosaic.ValueIdx
open Cert.Proof.IdxArith
open StableHlo

variable {F : FTy → Type} [FloatOps F]

/-! ## The valuation after the first host program -/

section One

variable (V0 : Valuation τ sig (Elt F)) (Pk : (Proc.devRef .tc main_v5 : DevRef τ sig).ty.Contents (Elt F))

/-- The buffers after the first stretch and the packing kernel: the first stretch's, the packed table at what the kernel
    left. -/
abbrev Vmid : Valuation τ sig (Elt F) := Function.update (after opsA1 V0) (Proc.devRef .tc main_v5) Pk

/-- The buffers after the first host program: the second stretch from there. -/
def VAof : Valuation τ sig (Elt F) := after opsA2 (Vmid V0 Pk)

theorem Vmid_arg0 : Vmid V0 Pk (Proc.devRef .tc main_arg0) = V0 (Proc.devRef .tc main_arg0) := by
  rw [Vmid, Function.update_of_ne (by decide), A1_arg0]
theorem Vmid_arg1 : Vmid V0 Pk (Proc.devRef .tc main_arg1) = V0 (Proc.devRef .tc main_arg1) := by
  rw [Vmid, Function.update_of_ne (by decide), A1_arg1]
theorem Vmid_arg2 : Vmid V0 Pk (Proc.devRef .tc main_arg2) = V0 (Proc.devRef .tc main_arg2) := by
  rw [Vmid, Function.update_of_ne (by decide), A1_arg2]
theorem Vmid_arg3 : Vmid V0 Pk (Proc.devRef .tc main_arg3) = V0 (Proc.devRef .tc main_arg3) := by
  rw [Vmid, Function.update_of_ne (by decide), A1_arg3]
theorem Vmid_arg4 : Vmid V0 Pk (Proc.devRef .tc main_arg4) = V0 (Proc.devRef .tc main_arg4) := by
  rw [Vmid, Function.update_of_ne (by decide), A1_arg4]
theorem Vmid_arg5 : Vmid V0 Pk (Proc.devRef .tc main_arg5) = V0 (Proc.devRef .tc main_arg5) := by
  rw [Vmid, Function.update_of_ne (by decide), A1_arg5]
theorem Vmid_arg6 : Vmid V0 Pk (Proc.devRef .tc main_arg6) = V0 (Proc.devRef .tc main_arg6) := by
  rw [Vmid, Function.update_of_ne (by decide), A1_arg6]

/-! ### The arguments are where they were -/

theorem VAof_arg0 : VAof V0 Pk (Proc.devRef .tc main_arg0) = V0 (Proc.devRef .tc main_arg0) := by
  rw [VAof, A2_arg0, Vmid_arg0]
theorem VAof_arg1 : VAof V0 Pk (Proc.devRef .tc main_arg1) = V0 (Proc.devRef .tc main_arg1) := by
  rw [VAof, A2_arg1, Vmid_arg1]
theorem VAof_arg2 : VAof V0 Pk (Proc.devRef .tc main_arg2) = V0 (Proc.devRef .tc main_arg2) := by
  rw [VAof, A2_arg2, Vmid_arg2]
theorem VAof_arg3 : VAof V0 Pk (Proc.devRef .tc main_arg3) = V0 (Proc.devRef .tc main_arg3) := by
  rw [VAof, A2_arg3, Vmid_arg3]
theorem VAof_arg4 : VAof V0 Pk (Proc.devRef .tc main_arg4) = V0 (Proc.devRef .tc main_arg4) := by
  rw [VAof, A2_arg4, Vmid_arg4]
theorem VAof_arg5 : VAof V0 Pk (Proc.devRef .tc main_arg5) = V0 (Proc.devRef .tc main_arg5) := by
  rw [VAof, A2_arg5, Vmid_arg5]
theorem VAof_arg6 : VAof V0 Pk (Proc.devRef .tc main_arg6) = V0 (Proc.devRef .tc main_arg6) := by
  rw [VAof, A2_arg6, Vmid_arg6]

/-! ### The packed table is what the kernel left; what the kernel read -/

theorem VAof_v5 : VAof V0 Pk (Proc.devRef .tc main_v5) = Pk := by
  rw [VAof, A2_v5, Vmid, Function.update_self]

/-- The transposed table the packing kernel reads. -/
theorem region_v0_read (j : Fin 64) (i : Fin 1000000) :
    after opsA1 V0 (Proc.devRef .tc main_v0) (ix2 j i) = V0 (Proc.devRef .tc main_arg0) (ix2 i j) := A1_v0_read V0 j i

/-- The packed tail of the table the packing kernel reads. -/
theorem region_v4_read (j : Fin 800) (c : Fin 128) :
    after opsA1 V0 (Proc.devRef .tc main_v4) (ix2 j c)
      = V0 (Proc.devRef .tc main_arg0)
          (ix2 ⟨998400 + j.val + 800 * (c.val / 64), by have := j.isLt; have := c.isLt; omega⟩ ⟨c.val % 64, by omega⟩) :=
  A1_v4_read V0 j c

/-! ### The SparseCore call's other operands -/

/-- The relation table two rows to one. -/
theorem VAof_v6_read (p : Fin 500) (c : Fin 128) :
    VAof V0 Pk (Proc.devRef .tc main_v6) (ix2 p c)
      = V0 (Proc.devRef .tc main_arg1)
          (ix2 ⟨2 * p.val + c.val / 64, by have := p.isLt; have := c.isLt; omega⟩ ⟨c.val % 64, by omega⟩) := by
  rw [VAof, A2_v6_read, Vmid_arg1]

/-- The packed rows of the entity indices, 128 to a row: rows `128 k … 128 k + 127` are input `k`'s. -/
theorem VAof_v24_read (k : Fin 4) (g c : Fin 128) (r : Fin 512) (hr : r.val = 128 * k.val + g.val) :
    VAof V0 Pk (Proc.devRef .tc main_v24) (ix2 r c)
      = epairW (pick4 (V0 (Proc.devRef .tc main_arg2)) (V0 (Proc.devRef .tc main_arg4)) (V0 (Proc.devRef .tc main_arg5))
          (V0 (Proc.devRef .tc main_arg6)) k (ix1 ⟨128 * g.val + c.val, by have := g.isLt; have := c.isLt; omega⟩)) := by
  rw [VAof, A2_v24_read _ k g c r hr, Vmid_arg2, Vmid_arg4, Vmid_arg5, Vmid_arg6]

/-- The packed rows of the relation indices, 128 to a row. -/
theorem VAof_v25_read (g c : Fin 128) :
    VAof V0 Pk (Proc.devRef .tc main_v25) (ix2 g c)
      = rpairW (V0 (Proc.devRef .tc main_arg3) (ix1 ⟨128 * g.val + c.val, by have := g.isLt; have := c.isLt; omega⟩)) := by
  rw [VAof, A2_v25_read, Vmid_arg3]

/-! ### What the third stretch reads -/

/-- The halves of the four entity inputs' indices one after another. -/
theorem VAof_v19 :
    VAof V0 Pk (Proc.devRef .tc main_v19)
      = fun i => eparW (cat4 (V0 (Proc.devRef .tc main_arg2)) (V0 (Proc.devRef .tc main_arg4))
          (V0 (Proc.devRef .tc main_arg5)) (V0 (Proc.devRef .tc main_arg6)) i) := by
  rw [VAof, A2_v19]
  show (fun i => eparW (cat4 (Vmid V0 Pk (Proc.devRef .tc main_arg2)) (Vmid V0 Pk (Proc.devRef .tc main_arg4))
    (Vmid V0 Pk (Proc.devRef .tc main_arg5)) (Vmid V0 Pk (Proc.devRef .tc main_arg6)) i)) = _
  rw [Vmid_arg2, Vmid_arg4, Vmid_arg5, Vmid_arg6]

/-- The halves of the relation indices. -/
theorem VAof_v23 :
    VAof V0 Pk (Proc.devRef .tc main_v23) = fun i => rparW (V0 (Proc.devRef .tc main_arg3) i) := by
  rw [VAof, A2_v23, Vmid_arg3]

end One

/-! ## After the SparseCore call -/

section Call

variable (V0 : Dev nD → Valuation τ sig (Elt F)) (Pk : (d : Dev nD) → (Proc.devRef .tc main_v5 : DevRef τ sig).ty.Contents (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- Whatever the SparseCore call left in its five results, the third stretch packs the inputs' own five half-selectors
    of sample `b` into the word the last kernel reads. -/
theorem chain_v48_read (d : Dev nD) (b : Fin 16384) :
    after opsB1 (VS (fun d => VAof (V0 d) (Pk d)) G0 G1 G2 G3 G4 d) (Proc.devRef .tc main_v48) (ix2 b u0)
      = PackPick.pbits (V0 d (Proc.devRef .tc main_arg2) (ix1 b)) (V0 d (Proc.devRef .tc main_arg4) (ix1 b))
          (V0 d (Proc.devRef .tc main_arg5) (ix1 b)) (V0 d (Proc.devRef .tc main_arg6) (ix1 b))
          (V0 d (Proc.devRef .tc main_arg3) (ix1 b)) :=
  B1_v48_read _ _ _ _ _ _
    (by rw [VS_of_ne _ G0 G1 G2 G3 G4 d (by decide) (by decide) (by decide) (by decide) (by decide)]; exact VAof_v19 (V0 d) (Pk d))
    (by rw [VS_of_ne _ G0 G1 G2 G3 G4 d (by decide) (by decide) (by decide) (by decide) (by decide)]; exact VAof_v23 (V0 d) (Pk d))
    b

end Call

end Cert.Proof.KB

end
-- ==== Proof.BStretchA.lean ====
/-
  The first stretch of @main on the TensorCore, up to the SparseCore call: a line of host operations, the packing
  kernel's region, and a second line of host operations. Each line runs within the TensorCore's unscoped buffers held
  at a valuation. The packing pipeline has one point and no window: the three arrays its kernel touches stay whole in
  HBM, so they enter the region through its invariant, sorted out of the held set, while every other unscoped buffer
  bypasses the region; the kernel's four DMA semaphores are the region's own. The TensorCore owes the start signals of
  the SparseCore call throughout, all at the call's index; the kernel's waits record pairs at the kernels' index only,
  which sits below every such debt.
-/
import proofs.«205037_g73117523247527_cont_9to1c4b_608_48_alg».proof.Proof.BDatA
import proofs.«205037_g73117523247527_cont_9to1c4b_608_48_alg».proof.Proof.BChainA

noncomputable section

namespace Cert.Proof.KB

open Cert.Kernel Cert.Kernel.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The three arrays of the packing kernel among the unscoped buffers -/

/-- The two sources and the packed table. -/
def TA3 : Finset (DevRef τ sig) := {pk0, pk4, pk5}

/-- They are unscoped buffers of the TensorCore. -/
theorem TA3_sub : (TA3 : Finset (DevRef τ sig)) ⊆ Pipeline.ucRefs τ sig := fun b hb => by
  simp only [TA3, Finset.mem_insert, Finset.mem_singleton] at hb
  rcases hb with rfl | rfl | rfl <;> exact Finset.mem_filter.mpr ⟨StableHlo.devRef_mem_tcRefs _, by decide⟩

/-- Held at a valuation, the three are each whole at its contents. -/
theorem held_TA3 (c : Dev nD) (W : Valuation τ sig (Elt F)) :
    (StableHlo.held (T c) TA3 W : sProp 𝕄)
      = iprop(pt c main_v0 fullShare (W pk0) ∗ pt c main_v4 fullShare (W pk4) ∗ pt c main_v5 fullShare (W pk5)) := by
  unfold StableHlo.held TA3
  rw [bigSep_insert (by decide), bigSep_insert (by decide), bigSep_singleton]
  rfl

/-- The buffers when the packing region is left: as it found them, but for the packed table. -/
def VP (V : Valuation τ sig (Elt F)) (c : Dev nD) : Valuation τ sig (Elt F) :=
  Function.update V pk5 (packed (c := c) (V pk0) (V pk4))

theorem VP_pk0 (V : Valuation τ sig (Elt F)) (c : Dev nD) : VP V c pk0 = V pk0 := Function.update_of_ne (by decide) _ _
theorem VP_pk4 (V : Valuation τ sig (Elt F)) (c : Dev nD) : VP V c pk4 = V pk4 := Function.update_of_ne (by decide) _ _
theorem VP_pk5 (V : Valuation τ sig (Elt F)) (c : Dev nD) : VP V c pk5 = packed (c := c) (V pk0) (V pk4) := Function.update_self _ _ _

/-- Off the three the region leaves the buffers as it found them. -/
theorem held_rest_VP (V : Valuation τ sig (Elt F)) (c : Dev nD) :
    (StableHlo.held (T c) (Pipeline.ucRefs τ sig \ TA3) (VP V c) : sProp 𝕄) = StableHlo.held (T c) (Pipeline.ucRefs τ sig \ TA3) V :=
  StableHlo.held_congr (T c) fun b hb => Function.update_of_ne (fun h => (Finset.mem_sdiff.mp hb).2 (by
    rw [h]; simp only [TA3, Finset.mem_insert, Finset.mem_singleton, or_true])) _ _

/-- The unscoped buffers at what the region leaves: the two sources as found, the packed table at the packing, the rest as found. -/
theorem held_VP (V : Valuation τ sig (Elt F)) (c : Dev nD) :
    (StableHlo.held (T c) (Pipeline.ucRefs τ sig) (VP V c) : sProp 𝕄)
      = iprop((pt c main_v0 fullShare (V pk0) ∗ pt c main_v4 fullShare (V pk4) ∗ pt c main_v5 fullShare (packed (c := c) (V pk0) (V pk4)))
          ∗ StableHlo.held (T c) (Pipeline.ucRefs τ sig \ TA3) V) := by
  rw [StableHlo.held_sub_split (T c) TA3_sub, held_TA3, held_rest_VP, VP_pk0, VP_pk4, VP_pk5]

/-! ## The packing kernel's region -/

/-- What the TensorCore owes is owed at a call's index, never at the kernels'. -/
theorem Otc_none (d : Dev nD) (n : ℕ) (g : GSem nD τ sig) : (K (F := F)).Otc d n g none = 0 := by
  by_contra h
  have := (K (F := F)).lev_of_Otc_pos (Nat.pos_of_ne_zero h)
  exact absurd this (by show ¬ (8 * n + 1 ≤ 0); omega)

/-- The kernel's four DMA semaphores are scoped, distinct, and no staging semaphore. -/
theorem ownSemFactsA : Pipeline.OwnSemFacts cfg0.spec osemA := by decide

/-- The first pipeline's summand of the launch's deal of staging cells' ghost state, and the second's. -/
theorem G_eq (d : Dev nD) :
    (G (F := F) d : sProp 𝕄) = iprop((Pipeline.cellsGhost (Pipeline.pin (pcfgs (F := F)) adm) EP 0 d
      ∗ Pipeline.toksInit (Pipeline.pin (pcfgs (F := F)) adm) EP 0 d) ∗ G1 (F := F) d) :=
  Pipeline.PerCore.ghostOn_erase (pcfgs (F := F)) (fun _ => adm) EP (Finset.mem_univ (0 : Fin 2)) d

/-- The region's record: entered from the unscoped buffers held at `V` and the TensorCore's debts before the call,
    left with the packed table at the packing. -/
def RegA (V : Dev nD → Valuation τ sig (Elt F))
    (dat1 : (c : Dev nD) → Pipeline.Dat τ (Elt F) (HIx 1) ℕ UU ℕ (Pipeline.pin (pcfgs (F := F)) adm 1) c) :
    Pipeline.RegionSeg (pcfgs (F := F)) adm (pdats (datA V) dat1) (none : HIx 1) (defs₀ (F := F)) 𝒱₀ (K (F := F)).L (K (F := F)).lev 0 where
  win := winFacts0.to₀
  block_pos := block_pos0
  stage_whole := stage_whole0
  K := Fin 4
  osem := osemA
  ho := ownSemFactsA
  hbody c := body0 c _ _ _ _ _ (Otc_none c 0) (none_mem_boundT c 0)
  hwaits c := Pipeline.cellsWaits_intro (Pipeline.pin (pcfgs (F := F)) adm) (pdats (datA V) dat1) (none : HIx 1) 0 c fun w => w.elim0
  pre c := iprop(StableHlo.held (T c) (Pipeline.ucRefs τ sig) (V c) ∗ owesT (F := F) c 0)
  post c := iprop(StableHlo.held (T c) (Pipeline.ucRefs τ sig) (VP (V c) c) ∗ owesT (F := F) c 0)
  X c := iprop(levAts (K (F := F)).L (K (F := F)).lev ∗ pt c main_v0 fullShare (V c pk0) ∗ pt c main_v4 fullShare (V c pk4)
    ∗ pt c main_v5 fullShare (V c pk5)
    ∗ Pipeline.ownSems0 (Ix := HIx 1) (Name := ℕ) (U := UU) (Lvl := ℕ) (Val := Elt F) (τ := τ) osemA c)
  Y c := iprop(pt c main_v0 fullShare (V c pk0) ∗ pt c main_v4 fullShare (V c pk4)
    ∗ pt c main_v5 fullShare (packed (V c pk0) (V c pk4)))
  Z c := StableHlo.held (T c) (Pipeline.ucRefs τ sig \ TA3) (V c)
  hentry c := by
    rw [StableHlo.held_sub_split (T c) TA3_sub, held_TA3]
    iintro ⟨⟨⟨⟨H0, H4, H5⟩, Hr⟩, HO⟩, Hos, #Hlev⟩
    imodintro
    isplitr
    · unfold Pipeline.Dat.arrays; rw [show (Finset.univ : Finset (Fin 0)) = ∅ from rfl, BI.bigSep_empty]; iempintro
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitr [Hr]
    · isplitr; · iexact Hlev
      isplitl [H0]; · iexact H0
      isplitl [H4]; · iexact H4
      isplitl [H5]; · iexact H5
      iexact Hos
    iexact Hr
  hin c := by
    rw [show (pdats (datA V) dat1 0 c).Φ 0 = PhiA c (V c pk0) (V c pk4) (V c pk5) from rfl]
    unfold PhiA
    iintro ⟨⟨Hlev, H0, H4, H5, Hos⟩, -, Hr⟩
    isplitl [Hlev]; · iexact Hlev
    isplitl [H0]; · iexact H0
    isplitl [H4]; · iexact H4
    isplitl [H5]; · iexact H5
    isplitl [Hos]; · iexact Hos
    iexact Hr
  hout c := by
    rw [show (pdats (datA V) dat1 0 c).Φ (Fin.last (Pipeline.pin (pcfgs (F := F)) adm 0).N)
      = PhiA c (V c pk0) (V c pk4) (packed (V c pk0) (V c pk4)) from rfl]
    unfold PhiA
    iintro ⟨-, H0, H4, H5, Hos, Hr⟩
    isplitl [H0 H4 H5]
    · isplitl [H0]; · iexact H0
      isplitl [H4]; · iexact H4
      iexact H5
    isplitl [Hos]; · iexact Hos
    iexact Hr
  hexit c := by
    rw [held_VP]
    iintro ⟨-, HO, HY, HZ⟩
    imodintro
    isplitr [HO]
    · isplitl [HY]; · iexact HY
      iexact HZ
    · icases HO with ⟨%W, %hW, HO⟩; iexists W; isplitr
      · ipureintro
        intro p hp
        rcases hW (Finset.mem_coe.mpr hp) with h | ⟨w, s, h⟩
        · exact h
        · exact w.elim0
      iexact HO

/-! ## The stretch -/

/-- The buffers at the end of the stretch: the first line, the packing, the second line. -/
def VA (m : (ℓ : Loc nD τ sig) → Buf (Elt F) ℓ) (d : Dev nD) : Valuation τ sig (Elt F) :=
  StableHlo.after opsA2 (VP (StableHlo.after opsA1 (StableHlo.launchContents m d)) d)

/-- The same buffers as the chain of host reads names them: the second line run from the first line's buffers with the
    packed table at the packing of the two sources the first line left. -/
theorem VA_eq (m : (ℓ : Loc nD τ sig) → Buf (Elt F) ℓ) (d : Dev nD) :
    VA m d = VAof (StableHlo.launchContents m d)
      (packed (c := d) (StableHlo.after opsA1 (StableHlo.launchContents m d) pk0) (StableHlo.after opsA1 (StableHlo.launchContents m d) pk4)) := rfl

-- the StableHLO rule, stated for any device, unifies at the thread `T d` only when unification may unfold plain
-- definitions in a metavariable's type
set_option backward.isDefEq.respectTransparency.types false in
/-- The stretch's run: the first line within the held buffers, the packing kernel's region by its record (on the first
    pipeline's summand of the staging cells' ghost state, the second's riding along), the second line within the held
    buffers again; what the TensorCore owes rides along. -/
theorem stretchA (m : (ℓ : Loc nD τ sig) → Buf (Elt F) ℓ)
    (dat1 : (c : Dev nD) → Pipeline.Dat τ (Elt F) (HIx 1) ℕ UU ℕ (Pipeline.pin (pcfgs (F := F)) adm 1) c) (d : Dev nD) :
    iprop(levAts (K (F := F)).L (K (F := F)).lev ∗ boundary (T d) ∗ StableHlo.held (T d) (Pipeline.ucRefs τ sig) (StableHlo.launchContents m d)
        ∗ owesT (F := F) d 0 ∗ G (F := F) d)
      ⊢ wp frame (wpE (D (F := F)) 𝒱 (T d) none) Set.univ (hostA (F := F))
          fun _ => iprop(boundary (T d) ∗ StableHlo.held (T d) (Pipeline.ucRefs τ sig) (VA m d) ∗ owesT (F := F) d 0 ∗ G1 (F := F) d) := by
  rw [G_eq, show (hostA (F := F)) = (StableHlo.seq opsA1 >>= fun _ => Prog.op (.customCall (Pipeline.entry 0) ()) fun _ =>
      (StableHlo.seq opsA2 >>= fun u => Pure.pure u)) from by rw [bind_pure]]
  iintro ⟨#Hlev, Hbd, Hh, Ho, ⟨HG, HG1⟩⟩
  iapply (StableHlo.wp_seq (defs := D (F := F)) 𝒱 none Set.univ d (Pipeline.ucRefs τ sig) _ opsA1
    (fun op h => Pipeline.sub_ucRefs op (opsA1_sub op h)) opsA1_fresh (StableHlo.launchContents m d)) $$ [Hbd Hh]
  · isplitl [Hbd] <;> iassumption
  iintro ⟨Hbd, Hh⟩
  iapply (Pipeline.RegionSeg.wp (pcfgs (F := F)) adm (pdats (datA fun c => StableHlo.after opsA1 (StableHlo.launchContents m c)) dat1)
    (none : HIx 1) cellOf_inj EP defs₀ 𝒱₀ (K (F := F)).L (K (F := F)).lev
    (RegA (fun c => StableHlo.after opsA1 (StableHlo.launchContents m c)) dat1) d none (fun _ h => nomatch h) _ _)
  rw [show (RegA (fun c => StableHlo.after opsA1 (StableHlo.launchContents m c)) dat1).post d
      = iprop(StableHlo.held (T d) (Pipeline.ucRefs τ sig) (VP (StableHlo.after opsA1 (StableHlo.launchContents m d)) d) ∗ owesT (F := F) d 0) from rfl,
    show (RegA (fun c => StableHlo.after opsA1 (StableHlo.launchContents m c)) dat1).pre d
      = iprop(StableHlo.held (T d) (Pipeline.ucRefs τ sig) (StableHlo.after opsA1 (StableHlo.launchContents m d)) ∗ owesT (F := F) d 0) from rfl]
  isplitr [Hbd Hh Ho HG]
  · iintro ⟨Hbd, Hh, Ho⟩
    iapply (StableHlo.wp_seq (defs := D (F := F)) 𝒱 none Set.univ d (Pipeline.ucRefs τ sig) (fun u => Pure.pure u) opsA2
      (fun op h => Pipeline.sub_ucRefs op (opsA2_sub op h)) opsA2_fresh (VP (StableHlo.after opsA1 (StableHlo.launchContents m d)) d)) $$ [Hbd Hh]
    · isplitl [Hbd] <;> iassumption
    iintro ⟨Hbd, Hh⟩
    rw [wp_pure]; imodintro
    isplitl [Hbd]; · iexact Hbd
    isplitl [Hh]; · iexact Hh
    isplitl [Ho]; · iexact Ho
    iexact HG1
  isplitl [Hbd]; · iexact Hbd
  isplitl [Hh Ho]
  · isplitl [Hh] <;> iassumption
  isplitr; · iexact Hlev
  iexact HG

end Cert.Proof.KB

end
-- ==== Proof.BLoss.lean ====
/-
  The loss kernel (the third call of the program): a TensorCore pipeline over eight grid points. Each point
  loads five blocks of 2048 gathered rows and the block of parity words, computes the block's share of the margin
  loss, and adds it into a one-element output block that stays in its staging buffer across the whole grid: the
  body zeroes the block at the first point, adds at every point, and the pipeline writes it back after the last.
  This module holds the pipeline's proof data (what each staging buffer holds after the body, point by point),
  the body obligation, and the value the output array ends with.
-/
import proofs.«205037_g73117523247527_cont_9to1c4b_608_48_alg».proof.Proof.BCommon
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

/-! ## One point's share, over the body's payloads -/

/-- The share of the loss one grid point computes from its six blocks: the five row blocks (head, tail, negative
    head, negative tail, relation) and the block of parity words; the body's arithmetic, payload by payload. -/
def part2 (x0 x1 x2 x3 x4 : Vec F S2048x128 .f32) (x5 : Vec F S2048x1 .i32) : F .f32 :=
  k2_pay10 (k2_pay2 x5) (k2_pay3 x5 x0)
    (k2_pay6 (k2_pay4 x5 x1) (k2_pay5 x5 x1) (Scalar.ofBits .f32 0x2B8CBCCC#32))
    (k2_pay7 (k2_pay2 x5) x2) (k2_pay8 (k2_pay2 x5) x3) (k2_pay9 (k2_pay2 x5) x3) x4

/-! ## The body's branch -/

/-- The condition of the body's one conditional (the reset of the accumulator), from the grid coordinate. -/
abbrev cond2 (i : grid2.Coords) : Prop :=
  (Scalar.cmpi .ne (Scalar.extui (Scalar.cmpi .eq (BitVec.ofNat 32 (i 0).val) 0#32)) 0#32) = 1#1
/-- It holds at the first point only: decided over the grid. -/
theorem hcond2 : ∀ t : Fin cfg2.N, cond2 (grid2.coords t) ↔ t.val = 0 :=
  (by decide +kernel : ∀ t : Fin grid2.N, cond2 (grid2.coords t) ↔ t.val = 0)

/-- The offsets of every load and store of the body: the origin. -/
theorem hz2 : (![0, 0] : Fin 2 → Nat) = fun _ => 0 := funext fun a => by fin_cases a <;> rfl

/-! ## The body on any whole staging memrefs, in its two cases -/

set_option maxHeartbeats 1000000 in
/-- At the first point: whatever the output block held, the body leaves the point's share added to zero. -/
theorem run2_A (c : Dev nD) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1 .i32) (harg6 : arg6.IsWhole) (arg7 : Memref sig .tc .vmem S1x1 .f32) (harg7 : arg7.IsWhole) (hc : cond2 i)
    (x0 x1 x2 x3 x4 : Vec F S2048x128 .f32) (x5 : Vec F S2048x1 .i32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 (part2 x0 x1 x2 x3 x4 x5) (k2_pay11 (F := F)))) -∗ K ⟨⟩))
      ⊢ wp frame (wpE (defs₀ (F := F)) 𝒱₀ c none) E (cc2__loss_body i arg1 harg1 arg2 harg2 arg3 harg3 arg4 harg4 arg5 harg5 arg6 harg6 arg7 harg7) K := by
  simp only [cc2__loss_body_eq_skeleton]; unfold cc2__loss_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  sl_unfold_words
  rw [View.read_writes_eq_canon _ _ _ (fun y => ⟨_, List.Mem.head _, View.mem_set_unit_zero hz2 inb_S1x1_S1x1_0_0 y⟩),
    View.canon_cons_unit_zero (S := S1x1) hz2, View.readCov_unit_zero (S := S1x1) _ hz2]
  unfold part2
  simp only [View.readAt_eq_ld, harg1.read_unread, harg2.read_unread, harg3.read_unread, harg4.read_unread,
    harg5.read_unread, harg6.read_unread, View.ld_unit_zero (S := S2048x128) hz2, View.ld_unit_zero (S := S2048x1) hz2]

set_option maxHeartbeats 1000000 in
/-- At a later point: the body adds the point's share to what the output block held. -/
theorem run2_B (c : Dev nD) (i : grid2.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x1 .i32) (harg6 : arg6.IsWhole) (arg7 : Memref sig .tc .vmem S1x1 .f32) (harg7 : arg7.IsWhole) (hc : ¬cond2 i)
    (x0 x1 x2 x3 x4 : Vec F S2048x128 .f32) (x5 : Vec F S2048x1 .i32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay1 (part2 x0 x1 x2 x3 x4 x5) xo)) -∗ K ⟨⟩))
      ⊢ wp frame (wpE (defs₀ (F := F)) 𝒱₀ c none) E (cc2__loss_body i arg1 harg1 arg2 harg2 arg3 harg3 arg4 harg4 arg5 harg5 arg6 harg6 arg7 harg7) K := by
  simp only [cc2__loss_body_eq_skeleton]; unfold cc2__loss_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  sl_unfold_words
  rw [View.read_writes_eq_canon _ _ _ (fun y => ⟨_, List.Mem.head _, View.mem_set_unit_zero hz2 inb_S1x1_S1x1_0_0 y⟩),
    View.canon_unit_zero (S := S1x1) hz2]
  unfold part2
  simp only [View.readAt_eq_ld, harg1.read_unread, harg2.read_unread, harg3.read_unread, harg4.read_unread,
    harg5.read_unread, harg6.read_unread, harg7.read_unread, View.ld_unit_zero (S := S2048x128) hz2,
    View.ld_unit_zero (S := S2048x1) hz2, View.ld_unit_zero (S := S1x1) hz2]

/-! ## The pipeline's proof data -/

section Data

variable (V : (c : Dev nD) → (b : Ref sig .tc) → Buf (Elt F) ((c : Thread nD τ).loc b))
  (O : CellTallies nD τ sig (HIx 1)) (B : Set (SemLoc sig × HIx 1))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The share of the loss computed at point `t`: `part2` of the point's six blocks. -/
def partAt (c : Dev nD) (t : Fin cfg2.N) : F .f32 :=
  part2 (iblk2 V c 0 t) (iblk2 V c 1 t) (iblk2 V c 2 t) (iblk2 V c 3 t) (iblk2 V c 4 t) (iblk2 V c 5 t)

/-- THE ACCUMULATION. What the output block's staging buffer holds after the body at position `n`: at the first
    point the point's share added to the zero block the body has just stored, at a later point the share added to
    what the point before left (the buffer is not written back between). -/
def acc2 (c : Dev nD) : (n : ℕ) → n < cfg2.N → Vec F S1x1 .f32
  | 0, hn => k2_pay1 (partAt V c ⟨0, hn⟩) (k2_pay11 (F := F))
  | n + 1, hn => k2_pay1 (partAt V c ⟨n + 1, hn⟩) (acc2 c n (Nat.lt_of_succ_lt hn))

theorem acc2_zero (c : Dev nD) (t : Fin cfg2.N) (h0 : t.val = 0) :
    acc2 V c t.val t.isLt = k2_pay1 (partAt V c t) (k2_pay11 (F := F)) := by
  obtain ⟨n, hn⟩ := t
  cases n with
  | zero => rfl
  | succ n => exact absurd h0 (Nat.succ_ne_zero n)

theorem acc2_succ (c : Dev nD) (t : Fin cfg2.N) (h0 : ¬t.val = 0) :
    acc2 V c t.val t.isLt = k2_pay1 (partAt V c t) (acc2 V c (t.val - 1) (Nat.lt_of_le_of_lt (Nat.sub_le _ _) t.isLt)) := by
  obtain ⟨n, hn⟩ := t
  cases n with
  | zero => exact absurd rfl h0
  | succ n => rfl

/-- The proof data of the loss pipeline on core `c`: the arrays as the region finds them (`V`); after the body at
    point `t` each input's buffer at its block and the output's at the running sum `acc2`; the invariant the core's
    scoped buffers that are no staging buffer of this pipeline; the tallies `O` the core owes throughout; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => acc2 V c t.val t.isLt
  Φ _ := Pipeline.scopedRest (Ix := HIx 1) (Name := ℕ) (U := UU) (Lvl := ℕ) (Val := Elt F) spec2 c
  q _ := fullShare
  owed _ := O
  recorded _ := B

/-- The proof data's arrays are the region-entry contents. -/
theorem A2_eq (c : Dev nD) (w : Fin cfg2.W) : (dat2 V O B c).A w = V c (Pipeline.arrRef spec2 w) := by
  dsimp only [dat2]

/-- What the body leaves, window by window. -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = acc2 V c t.val t.isLt := by dsimp only [dat2]

/-- Each input's current staging buffer holds its block at every point (every input is fetched at every point, and
    the body leaves it in place). -/
theorem before2_0 (c : Dev nD) (t : Fin cfg2.N) (d) : (dat2 V O B c).before 0 t d = iblk2 V c 0 t :=
  ((dat2 V O B c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V O B c).before 1 t d = iblk2 V c 1 t :=
  ((dat2 V O B c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V O B c).before 2 t d = iblk2 V c 2 t :=
  ((dat2 V O B c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V O B c).before 3 t d = iblk2 V c 3 t :=
  ((dat2 V O B c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)
theorem before2_4 (c : Dev nD) (t : Fin cfg2.N) (d) : (dat2 V O B c).before 4 t d = iblk2 V c 4 t :=
  ((dat2 V O B c).before_in_eq_fetched 4 rfl (fun _ => rfl) (fun _ _ _ => rfl)
    (fun t => by rw [after2_4]; unfold Dat.blockOf iblk2; rw [A2_eq]; try rfl) t d).trans
    (by unfold Dat.fetched Dat.blockOf iblk2; rw [A2_eq]; try rfl)
theorem before2_5 (c : Dev nD) (t : Fin cfg2.N) (d) : (dat2 V O B c).before 5 t d = iblk2 V c 5 t :=
  ((dat2 V O B c).before_in_eq_fetched 5 rfl (fun _ => rfl) (fun _ _ _ => rfl)
    (fun t => by rw [after2_5]; unfold Dat.blockOf iblk2; rw [A2_eq]; try rfl) t d).trans
    (by unfold Dat.fetched Dat.blockOf iblk2; rw [A2_eq]; try rfl)

/-- At the first point the output block's buffer holds anything (it is fresh); -/
theorem before2_6_A (c : Dev nD) (t : Fin cfg2.N) (h0 : t.val = 0) (d) : (dat2 V O B c).before 6 t d = d :=
  Dat.before_out_reset _ 6 rfl t (.inl h0) d

/-- at a later point, what the body left at the point before: the block is written back after the last point only. -/
theorem before2_6_B (c : Dev nD) (t : Fin cfg2.N) (h0 : ¬t.val = 0) (d) :
    (dat2 V O B c).before 6 t d = acc2 V c (t.val - 1) (Nat.lt_of_le_of_lt (Nat.sub_le _ _) t.isLt) := by
  have hN : t.val < 8 := lt_of_lt_of_eq t.isLt (show cfg2.N = 8 from N_2)
  rw [Dat.before_out_kept _ 6 rfl t h0 (Bool.eq_false_iff.mpr fun h => by have := (flush2_6 _).mp h; dsimp only at this; omega)
    (fun _ => rfl) (fun _ _ => rfl)]
  dsimp only [dat2]

/-! ## The body obligation -/

/-- What the body is called with at point `t` (the body obligation's precondition, the windows one by one), -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t))

set_option maxHeartbeats 1000000 in
/-- The body at any point: the inputs' buffers hold their blocks; at the first point the body resets the output
    block, at a later one it finds what the point before left; the invariant and what the core owes pass through. -/
theorem sound_body2 (c : Dev nD) (t : Fin cfg2.N) :
    bodyPre2 V O B c t ⊢ wp frame (wpE (defs₀ (F := F)) 𝒱₀ c none) Set.univ (bodyAt2 t) (fun _ => bodyPost2 V O B c t) := by
  unfold bodyPre2 bodyPost2 bodyAt2
  simp only [before2_0, before2_1, before2_2, before2_3, before2_4, before2_5]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6]
  by_cases h0 : t.val = 0
  · rw [acc2_zero V c t h0]
    simp only [before2_6_A V O B c t h0]
    unfold partAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run2_A c (grid2.coords t) _ _ _ _ _ _ _ _ _ _ _ _ _ _ ((hcond2 t).mpr h0)
      (iblk2 V c 0 t) (iblk2 V c 1 t) (iblk2 V c 2 t) (iblk2 V c 3 t) (iblk2 V c 4 t) (iblk2 V c 5 t) d6 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_succ V c t h0]
    simp only [before2_6_B V O B c t h0]
    unfold partAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run2_B c (grid2.coords t) _ _ _ _ _ _ _ _ _ _ _ _ _ _ (fun h => h0 ((hcond2 t).mp h))
      (iblk2 V c 0 t) (iblk2 V c 1 t) (iblk2 V c 2 t) (iblk2 V c 3 t) (iblk2 V c 4 t) (iblk2 V c 5 t)
      (acc2 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point, -/
theorem body2_exact (c : Dev nD) : BodyObligation (dat2 V O B c) (defs₀ (F := F)) 𝒱₀ (none : HIx 1) Set.univ := fun t => by
  rw [bigSep_W2, bigSep_W2]
  exact sound_body2 V O B c t

/-- and in the form the region rule takes. -/
theorem body2 : ∀ c : Dev nD, BodyObligationLoose (dat2 V O B c) (defs₀ (F := F)) 𝒱₀ (none : HIx 1) Set.univ :=
  fun c => (body2_exact V O B c).loose

/-- The same data as the region rule's family wants it typed: the pipeline at its one (empty) table contents. -/
def pdat2 (a : (p : Fin 2) → (pcfgs (F := F) p).Adm) (c : Dev nD) :
    Dat τ (Elt F) (HIx 1) ℕ UU ℕ (Pipeline.pin (pcfgs (F := F)) a 1) c := dat2 V O B c

theorem pbody2 (a : (p : Fin 2) → (pcfgs (F := F) p).Adm) :
    ∀ c : Dev nD, BodyObligationLoose (pdat2 V O B a c) (defs₀ (F := F)) 𝒱₀ (none : HIx 1) Set.univ :=
  body2 V O B

end Data

end Cert.Proof.KB

end
-- ==== Proof.BStretchB.lean ====
/-
  The second stretch of @main on the TensorCore, after the SparseCore call: a line of host operations, the loss
  kernel's region, and the closing reshape. The line runs within the TensorCore's unscoped buffers held at a valuation;
  the region is entered from what the line left, its seven arrays sorted out of the held set and the rest bypassing it,
  and left with the loss array at the contents the pipeline's write-back gives it; the reshape runs within the held
  set again. Throughout, the TensorCore owes nothing (every SparseCore call is behind it), which is the wait
  evidence of the region's staging cells.
-/
import proofs.«205037_g73117523247527_cont_9to1c4b_608_48_alg».proof.Proof.BLaunchDefs
import proofs.«205037_g73117523247527_cont_9to1c4b_608_48_alg».proof.Proof.BLoss

noncomputable section

namespace Cert.Proof.KB

open Cert.Kernel Cert.Kernel.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The valuations along the stretch -/

/-- The TensorCore's buffers as the loss region finds them: the stretch's first line has run. -/
abbrev VR (VS : Dev nD → Valuation τ sig (Elt F)) (c : Dev nD) (b : Ref sig .tc) : Buf (Elt F) ((c : Thread nD τ).loc b) :=
  StableHlo.after opsB1 (VS c) (Proc.devRef .tc b)

/-- The loss pipeline's proof data for the device `d`: the arrays read off `VR`, the tallies and the bound on the
    recorded pairs those of the TensorCore after the one SparseCore call. -/
abbrev datB (VS : Dev nD → Valuation τ sig (Elt F)) (d : Dev nD) :
    (c : Dev nD) → Pipeline.Dat τ (Elt F) (HIx 1) ℕ UU ℕ (Pipeline.pin (pcfgs (F := F)) adm 1) c :=
  pdat2 (VR VS) ((K (F := F)).Otc d 1) (boundT (F := F) d 1) adm

/-- The loss array when the region is left: the one-element block written back after the last point. -/
def outB (VS : Dev nD → Valuation τ sig (Elt F)) (d : Dev nD) : (Proc.devRef .tc main_v49 : DevRef τ sig).ty.Contents (Elt F) :=
  (datB VS d d).arrAt (6 : Fin cfg2.W) cfg2.N

/-- The buffers when the region is left: as it found them, but for the loss array. -/
def VM (VS : Dev nD → Valuation τ sig (Elt F)) (d : Dev nD) : Valuation τ sig (Elt F) :=
  Function.update (StableHlo.after opsB1 (VS d)) (Proc.devRef .tc main_v49) (outB VS d)

/-- The buffers at the end of the stretch: the closing line has run. -/
def VB (VS : Dev nD → Valuation τ sig (Elt F)) (d : Dev nD) : Valuation τ sig (Elt F) :=
  StableHlo.after opsB2 (VM VS d)

/-! ## The arrays when the region is left -/

/-- Every window but the last is an input. -/
theorem isOut2_of_ne : ∀ w : Fin cfg2.W, w ≠ 6 → (cfg2.win w).isOut = false := by decide

/-- The last window's array is the loss array. -/
theorem arrRef2_6 : Pipeline.arrRef spec2 (6 : Fin 7) = main_v49 := rfl

/-- At a window's array the buffers the region leaves hold what the pipeline's write-backs give: an input's array
    is never written, and the loss array is the one buffer updated. -/
theorem VM_arr (VS : Dev nD → Valuation τ sig (Elt F)) (c : Dev nD) (w : Fin cfg2.W) :
    VM VS c (Proc.devRef .tc (Pipeline.arrRef spec2 w)) = (datB VS c c).arrAt w cfg2.N := by
  by_cases hw : w = 6
  · subst hw
    unfold VM outB
    exact Function.update_self _ _ _
  · unfold VM
    rw [Function.update_of_ne (StableHlo.devRef_ne_of_ne fun h => hw (winFacts2.arr_inj (h.trans arrRef2_6.symm)))]
    exact ((datB VS c c).arrAt_in w (isOut2_of_ne w hw) cfg2.N).symm

/-- Off the windows' arrays the region leaves the buffers as it found them. -/
theorem VM_off (VS : Dev nD → Valuation τ sig (Elt F)) (c : Dev nD) (b : Ref sig .tc) (hb : b ∉ Finset.univ.image (Pipeline.arrRef spec2)) :
    VM VS c (Proc.devRef .tc b) = VR VS c b := by
  unfold VM
  exact Function.update_of_ne (StableHlo.devRef_ne_of_ne fun h => hb (Finset.mem_image.mpr ⟨6, Finset.mem_univ _, h.symm⟩)) _ _

/-- The unscoped buffers at what the region leaves are the windows' arrays at their final contents and the rest as
    the region found it. -/
theorem held_VM (dat0 : (c : Dev nD) → Pipeline.Dat τ (Elt F) (HIx 1) ℕ UU ℕ (Pipeline.pin (pcfgs (F := F)) adm 0) c)
    (VS : Dev nD → Valuation τ sig (Elt F)) (c : Dev nD) :
    (StableHlo.held (T c) (Pipeline.ucRefs τ sig) (VM VS c) : sProp 𝕄)
      = iprop((pdats dat0 (datB VS c) 1 c).arrays ((pdats dat0 (datB VS c) 1 c).arrAt · (Pipeline.pin (pcfgs (F := F)) adm 1).N)
          ∗ Pipeline.unscopedRest (Ix := HIx 1) (Name := ℕ) (U := UU) (Lvl := ℕ) spec2 c (VR VS c)) := by
  rw [← Pipeline.unscopedBufs_held (Ix := HIx 1) (Name := ℕ) (U := UU) (Lvl := ℕ) c (VM VS c),
    Pipeline.unscopedBufs_split (Pipeline.pin (pcfgs (F := F)) adm) 1 winFacts2.arr_unscoped winFacts2.arr_inj c,
    Pipeline.arrays_eq (Pipeline.pin (pcfgs (F := F)) adm) (pdats dat0 (datB VS c)) 1 c arr_whole2
      ((pdats dat0 (datB VS c) 1 c).share_full fun _ => rfl)]
  refine congrArg₂ _ (bigSep_congr fun w _ => ?_) ?_
  · rw [show VM VS c (Proc.devRef .tc (Pipeline.arrRef (Pipeline.pin (pcfgs (F := F)) adm 1).spec w))
        = (pdats dat0 (datB VS c) 1 c).arrAt w (Pipeline.pin (pcfgs (F := F)) adm 1).N from VM_arr VS c w]
  · unfold Pipeline.unscopedRest
    exact bigSep_congr fun b hb => by
      rw [show (fun b : Ref sig .tc => VM VS c (Proc.devRef .tc b)) b = VR VS c b from VM_off VS c b (Finset.mem_sdiff.mp hb).2]

/-! ## The loss kernel's region -/

/-- After the one SparseCore call the TensorCore owes nothing. -/
theorem Otc_one (d : Dev nD) : (K (F := F)).Otc d 1 = 0 := (K (F := F)).Otc_end d le_rfl

/-- The second pipeline's staging cells' ghost state is what the first region left of the launch's deal. -/
theorem G1_eq (d : Dev nD) :
    (G1 (F := F) d : sProp 𝕄) = iprop(Pipeline.cellsGhost (Pipeline.pin (pcfgs (F := F)) adm) EP 1 d
      ∗ Pipeline.toksInit (Pipeline.pin (pcfgs (F := F)) adm) EP 1 d) := by
  show Pipeline.PerCore.ghostOn _ _ _ (Finset.univ.erase (0 : Fin 2)) d = _
  rw [show Finset.univ.erase (0 : Fin 2) = {1} from by decide]
  unfold Pipeline.PerCore.ghostOn
  rw [bigSep_singleton]

/-- The region's record: the launch kit's layout; no semaphore of the kernel's own; the body obligation of the loss
    kernel; the wait evidence from the TensorCore owing nothing. The region is entered from the unscoped buffers held
    at what the first line left beside what the TensorCore owes: the seven windows' arrays go to the pipeline, the
    other unscoped buffers bypass it, nothing enters the invariant but the scoped buffers no window stages. It is
    left with the buffers held again, the loss array at the contents written back. -/
def R1 (dat0 : (c : Dev nD) → Pipeline.Dat τ (Elt F) (HIx 1) ℕ UU ℕ (Pipeline.pin (pcfgs (F := F)) adm 0) c)
    (VS : Dev nD → Valuation τ sig (Elt F)) (d : Dev nD) :
    Pipeline.RegionSeg (pcfgs (F := F)) adm (pdats dat0 (datB VS d)) (none : HIx 1) defs₀ 𝒱₀ (K (F := F)).L (K (F := F)).lev 1 where
  win := winFacts2.to₀
  block_pos := block_pos2
  stage_whole := stage_whole2
  K := PEmpty
  osem := fun k => k.elim
  ho := Pipeline.OwnSemFacts.none _
  hbody := pbody2 (VR VS) ((K (F := F)).Otc d 1) (boundT (F := F) d 1) adm
  hwaits := Pipeline.hwaits_of_owed_zero _ _ _ _ _ _ 1 fun _ _ => Otc_one d
  pre c := iprop(StableHlo.held (T c) (Pipeline.ucRefs τ sig) (StableHlo.after opsB1 (VS c)) ∗ owesT (F := F) c 1)
  post c := iprop(StableHlo.held (T c) (Pipeline.ucRefs τ sig) (VM VS c) ∗ owesT (F := F) c 1)
  X _ := iprop(emp)
  Y _ := iprop(emp)
  Z c := Pipeline.unscopedRest (Ix := HIx 1) (Name := ℕ) (U := UU) (Lvl := ℕ) spec2 c (VR VS c)
  hentry c := by
    obtain rfl : c = d := Subsingleton.elim c d
    rw [show StableHlo.held (T c) (Pipeline.ucRefs τ sig) (StableHlo.after opsB1 (VS c)) = unscopedBufs c (VR VS c)
      from (Pipeline.unscopedBufs_held (Ix := HIx 1) (Name := ℕ) (U := UU) (Lvl := ℕ) c _).symm]
    have hsplit := Pipeline.arrays_of_unscopedBufs (pcfgs (F := F)) adm (pdats dat0 (datB VS c)) (p := 1) winFacts2 arr_whole2 c
      ((pdats dat0 (datB VS c) 1 c).share_full fun _ => rfl) (VR VS c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr
      · ipureintro; exact fun p hp => Or.inl (hW p (Finset.mem_coe.mp hp))
      iexact HO
    isplitr; · iempintro
    iexact Hr
  hin c := by
    rw [show (pdats dat0 (datB VS d) 1 c).Φ 0
      = Pipeline.scopedRest (Ix := HIx 1) (Name := ℕ) (U := UU) (Lvl := ℕ) (Val := Elt F) spec2 c from rfl]
    iintro ⟨-, -, Hr⟩
    iexact Hr
  hout c := by
    rw [Pipeline.ownSems0_none, show (pdats dat0 (datB VS d) 1 c).Φ (Fin.last (Pipeline.pin (pcfgs (F := F)) adm 1).N)
      = Pipeline.scopedRest (Ix := HIx 1) (Name := ℕ) (U := UU) (Lvl := ℕ) (Val := Elt F) spec2 c from rfl]
    iintro Hr
    isplitr; · iempintro
    isplitr; · iempintro
    iexact Hr
  hexit c := by
    obtain rfl : c = d := Subsingleton.elim c d
    rw [held_VM dat0 VS c]
    iintro ⟨Ha, HO, -, HZ⟩
    imodintro
    isplitr [HO]
    · isplitl [Ha]; · iexact Ha
      iexact HZ
    · icases HO with ⟨%W, %hW, HO⟩; iexists W; isplitr
      · ipureintro
        intro p hp
        rcases hW (Finset.mem_coe.mpr hp) with h | ⟨w, s, h⟩
        · exact h
        · rw [h]; exact Nat.zero_le _
      iexact HO

/-! ## The stretch -/

-- the StableHLO rule, stated for any device, unifies at the thread `T d` only when unification may unfold plain
-- definitions in a metavariable's type
set_option backward.isDefEq.respectTransparency.types false in
/-- The stretch's run: the first line within the held buffers, the loss kernel's region by its record, the closing
    line within the held buffers again; what the TensorCore owes rides along. -/
theorem stretchB (dat0 : (c : Dev nD) → Pipeline.Dat τ (Elt F) (HIx 1) ℕ UU ℕ (Pipeline.pin (pcfgs (F := F)) adm 0) c)
    (VS : Dev nD → Valuation τ sig (Elt F)) (d : Dev nD) :
    iprop(levAts (K (F := F)).L (K (F := F)).lev ∗ boundary (T d) ∗ StableHlo.held (T d) (Pipeline.ucRefs τ sig) (VS d)
        ∗ owesT (F := F) d 1 ∗ G1 (F := F) d)
      ⊢ wp frame (wpE (D (F := F)) 𝒱 (T d) none) Set.univ (hostB (F := F))
          fun _ => iprop(boundary (T d) ∗ StableHlo.held (T d) (Pipeline.ucRefs τ sig) (VB VS d) ∗ owesT (F := F) d 1) := by
  rw [G1_eq, show (hostB (F := F)) = (StableHlo.seq opsB1 >>= fun _ => Prog.op (.customCall (Pipeline.entry 1) ()) fun _ =>
      (StableHlo.seq opsB2 >>= fun u => Pure.pure u)) from by rw [bind_pure]]
  iintro ⟨#Hlev, Hbd, Hh, Ho, HG⟩
  iapply (StableHlo.wp_seq (defs := D (F := F)) 𝒱 none Set.univ d (Pipeline.ucRefs τ sig) _ opsB1
    (fun op h => Pipeline.sub_ucRefs op (opsB1_sub op h)) opsB1_fresh (VS d)) $$ [Hbd Hh]
  · isplitl [Hbd] <;> iassumption
  iintro ⟨Hbd, Hh⟩
  iapply (Pipeline.RegionSeg.wp (pcfgs (F := F)) adm (pdats dat0 (datB VS d)) (none : HIx 1) cellOf_inj EP defs₀ 𝒱₀
    (K (F := F)).L (K (F := F)).lev (R1 dat0 VS d) d none (fun _ h => nomatch h) _ _)
  rw [show (R1 dat0 VS d).post d = iprop(StableHlo.held (T d) (Pipeline.ucRefs τ sig) (VM VS d) ∗ owesT (F := F) d 1) from rfl,
    show (R1 dat0 VS d).pre d = iprop(StableHlo.held (T d) (Pipeline.ucRefs τ sig) (StableHlo.after opsB1 (VS d)) ∗ owesT (F := F) d 1) from rfl]
  isplitr [Hbd Hh Ho HG]
  · iintro ⟨Hbd, Hh, Ho⟩
    iapply (StableHlo.wp_seq (defs := D (F := F)) 𝒱 none Set.univ d (Pipeline.ucRefs τ sig) (fun u => Pure.pure u) opsB2
      (fun op h => Pipeline.sub_ucRefs op (opsB2_sub op h)) opsB2_fresh (VM VS d)) $$ [Hbd Hh]
    · isplitl [Hbd] <;> iassumption
    iintro ⟨Hbd, Hh⟩
    rw [wp_pure]; imodintro
    isplitl [Hbd]; · iexact Hbd
    isplitl [Hh]; · iexact Hh
    iexact Ho
  isplitl [Hbd]; · iexact Hbd
  isplitl [Hh Ho]
  · isplitl [Hh] <;> iassumption
  isplitr; · iexact Hlev
  iexact HG

end Cert.Proof.KB

end
-- ==== Proof.BKeptB.lean ====
/-
  The program's arguments are unchanged through the SparseCore call and the second stretch of @main. The
  stretch is a line of host operations, the loss region, and a closing line. Neither line writes an argument;
  the region's one write is the loss array; and the SparseCore call changed only its five results. So at an
  argument the valuation at the end of the stretch is the valuation before the call.
-/
import proofs.«205037_g73117523247527_cont_9to1c4b_608_48_alg».proof.Proof.BStretchB
import proofs.«205037_g73117523247527_cont_9to1c4b_608_48_alg».proof.Proof.BHandOver
import proofs.«205037_g73117523247527_cont_9to1c4b_608_48_alg».proof.Proof.BHost
import proofs.«205037_g73117523247527_cont_9to1c4b_608_48_alg».proof.Proof.BLaunch

noncomputable section

namespace Cert.Proof.KB

open Cert.Kernel Cert.Kernel.Gen

open Idealize.ShloMosaic
open Idealize.SL.Sem

variable {F : FTy → Type} [FloatOps F]

/-- An array that neither line of the stretch writes, and that is not the loss array, is where it was when the
    stretch began: the closing line leaves it, the region's one write is elsewhere, the first line leaves it. -/
theorem kept_through (W : Valuation τ sig (Elt F))
    (x : (Proc.devRef .tc main_v49 : DevRef τ sig).ty.Contents (Elt F)) (b : DevRef τ sig)
    (hne : b ≠ Proc.devRef .tc main_v49)
    (h1 : StableHlo.after opsB1 W b = W b)
    (h2 : ∀ V : Valuation τ sig (Elt F), StableHlo.after opsB2 V b = V b) :
    StableHlo.after opsB2 (Function.update (StableHlo.after opsB1 W) (Proc.devRef .tc main_v49) x) b = W b := by
  rw [h2, Function.update_of_ne hne, h1]

/-- The same of the valuation at the end of the stretch. -/
theorem keptB_of (VS : Dev nD → Valuation τ sig (Elt F)) (d : Dev nD) (b : DevRef τ sig)
    (hne : b ≠ Proc.devRef .tc main_v49)
    (h1 : StableHlo.after opsB1 (VS d) b = VS d b)
    (h2 : ∀ V : Valuation τ sig (Elt F), StableHlo.after opsB2 V b = V b) :
    VB VS d b = VS d b := by
  unfold VB VM
  exact kept_through (VS d) (outB VS d) b hne h1 h2

section Call
variable (VA : Dev nD → Valuation τ sig (Elt F))
variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- Argument 0 is unchanged through the SparseCore call and the second stretch. -/
theorem keptB_arg0 (d : Dev nD) : VB (VS VA G0 G1 G2 G3 G4) d r_arg0 = VA d r_arg0 := by
  rw [keptB_of _ d r_arg0 (by decide) (B1_arg0 _) (fun V => B2_arg0 V)]
  exact VS_of_ne VA G0 G1 G2 G3 G4 d (by decide) (by decide) (by decide) (by decide) (by decide)

/-- Argument 1 is unchanged through the SparseCore call and the second stretch. -/
theorem keptB_arg1 (d : Dev nD) : VB (VS VA G0 G1 G2 G3 G4) d r_arg1 = VA d r_arg1 := by
  rw [keptB_of _ d r_arg1 (by decide) (B1_arg1 _) (fun V => B2_arg1 V)]
  exact VS_of_ne VA G0 G1 G2 G3 G4 d (by decide) (by decide) (by decide) (by decide) (by decide)

/-- Argument 2 is unchanged through the SparseCore call and the second stretch. -/
theorem keptB_arg2 (d : Dev nD) : VB (VS VA G0 G1 G2 G3 G4) d r_arg2 = VA d r_arg2 := by
  rw [keptB_of _ d r_arg2 (by decide) (B1_arg2 _) (fun V => B2_arg2 V)]
  exact VS_of_ne VA G0 G1 G2 G3 G4 d (by decide) (by decide) (by decide) (by decide) (by decide)

/-- Argument 3 is unchanged through the SparseCore call and the second stretch. -/
theorem keptB_arg3 (d : Dev nD) : VB (VS VA G0 G1 G2 G3 G4) d r_arg3 = VA d r_arg3 := by
  rw [keptB_of _ d r_arg3 (by decide) (B1_arg3 _) (fun V => B2_arg3 V)]
  exact VS_of_ne VA G0 G1 G2 G3 G4 d (by decide) (by decide) (by decide) (by decide) (by decide)

/-- Argument 4 is unchanged through the SparseCore call and the second stretch. -/
theorem keptB_arg4 (d : Dev nD) : VB (VS VA G0 G1 G2 G3 G4) d r_arg4 = VA d r_arg4 := by
  rw [keptB_of _ d r_arg4 (by decide) (B1_arg4 _) (fun V => B2_arg4 V)]
  exact VS_of_ne VA G0 G1 G2 G3 G4 d (by decide) (by decide) (by decide) (by decide) (by decide)

/-- Argument 5 is unchanged through the SparseCore call and the second stretch. -/
theorem keptB_arg5 (d : Dev nD) : VB (VS VA G0 G1 G2 G3 G4) d r_arg5 = VA d r_arg5 := by
  rw [keptB_of _ d r_arg5 (by decide) (B1_arg5 _) (fun V => B2_arg5 V)]
  exact VS_of_ne VA G0 G1 G2 G3 G4 d (by decide) (by decide) (by decide) (by decide) (by decide)

/-- Argument 6 is unchanged through the SparseCore call and the second stretch. -/
theorem keptB_arg6 (d : Dev nD) : VB (VS VA G0 G1 G2 G3 G4) d r_arg6 = VA d r_arg6 := by
  rw [keptB_of _ d r_arg6 (by decide) (B1_arg6 _) (fun V => B2_arg6 V)]
  exact VS_of_ne VA G0 G1 G2 G3 G4 d (by decide) (by decide) (by decide) (by decide) (by decide)

end Call

end Cert.Proof.KB

end
-- ==== Proof.BKept.lean ====
/-
  The program's arguments end where they began. The TensorCore runs the first host program (two lines of host
  operations around the packing kernel), the SparseCore call, and the second host program. `Wfin` is the valuation at
  the end, as a function of the launch contents, of what the packing kernel left in the packed table and of what the
  SparseCore call left in its five results. At each of the seven arguments it is the launch contents: the second
  program and the call keep an argument, and so does the first program.
-/
import proofs.«205037_g73117523247527_cont_9to1c4b_608_48_alg».proof.Proof.BKeptB
import proofs.«205037_g73117523247527_cont_9to1c4b_608_48_alg».proof.Proof.BChainA

noncomputable section

namespace Cert.Proof.KB

open Cert.Kernel Cert.Kernel.Gen

open Idealize.ShloMosaic
open Idealize.SL.Sem

variable {F : FTy → Type} [FloatOps F]

section Run

variable (m : (ℓ : Loc nD τ sig) → Buf (Elt F) ℓ)
  (Pk : (d : Dev nD) → (Proc.devRef .tc main_v5 : DevRef τ sig).ty.Contents (Elt F))
  (G0 : (d : Dev nD) → Buf (Elt F) (locR0 d)) (G1 : (d : Dev nD) → Buf (Elt F) (locR1 d))
  (G2 : (d : Dev nD) → Buf (Elt F) (locR2 d)) (G3 : (d : Dev nD) → Buf (Elt F) (locR3 d))
  (G4 : (d : Dev nD) → Buf (Elt F) (locR4 d))

/-- The valuation at the end of the TensorCore's run: the second host program's, from the SparseCore call's, from the
    first host program's, from the launch contents. -/
def Wfin (d : Dev nD) : Valuation τ sig (Elt F) :=
  VB (VS (fun d => VAof (StableHlo.launchContents m d) (Pk d)) G0 G1 G2 G3 G4) d

/-- At every argument the final valuation is the launch contents. -/
theorem kept_all (d : Dev nD) :
    Wfin m Pk G0 G1 G2 G3 G4 d r_arg0 = m (d, r_arg0) ∧ Wfin m Pk G0 G1 G2 G3 G4 d r_arg1 = m (d, r_arg1)
      ∧ Wfin m Pk G0 G1 G2 G3 G4 d r_arg2 = m (d, r_arg2) ∧ Wfin m Pk G0 G1 G2 G3 G4 d r_arg3 = m (d, r_arg3)
      ∧ Wfin m Pk G0 G1 G2 G3 G4 d r_arg4 = m (d, r_arg4) ∧ Wfin m Pk G0 G1 G2 G3 G4 d r_arg5 = m (d, r_arg5)
      ∧ Wfin m Pk G0 G1 G2 G3 G4 d r_arg6 = m (d, r_arg6) :=
  ⟨(keptB_arg0 _ G0 G1 G2 G3 G4 d).trans (VAof_arg0 (StableHlo.launchContents m d) (Pk d)),
    (keptB_arg1 _ G0 G1 G2 G3 G4 d).trans (VAof_arg1 (StableHlo.launchContents m d) (Pk d)),
    (keptB_arg2 _ G0 G1 G2 G3 G4 d).trans (VAof_arg2 (StableHlo.launchContents m d) (Pk d)),
    (keptB_arg3 _ G0 G1 G2 G3 G4 d).trans (VAof_arg3 (StableHlo.launchContents m d) (Pk d)),
    (keptB_arg4 _ G0 G1 G2 G3 G4 d).trans (VAof_arg4 (StableHlo.launchContents m d) (Pk d)),
    (keptB_arg5 _ G0 G1 G2 G3 G4 d).trans (VAof_arg5 (StableHlo.launchContents m d) (Pk d)),
    (keptB_arg6 _ G0 G1 G2 G3 G4 d).trans (VAof_arg6 (StableHlo.launchContents m d) (Pk d))⟩

end Run

end Cert.Proof.KB

end
-- ==== Proof.BFinal.lean ====
/-
  The kernel's run: the launch applied to this program's stretches, hand-over and tiles. The first stretch ends at the
  valuation in which the packing region has left the packed table in main_v5 and the host arithmetic the index arrays;
  the SparseCore call updates the five results; the second stretch ends at the final valuation.
-/
import proofs.«205037_g73117523247527_cont_9to1c4b_608_48_alg».proof.Proof.BLaunch
import proofs.«205037_g73117523247527_cont_9to1c4b_608_48_alg».proof.Proof.BHandOver
import proofs.«205037_g73117523247527_cont_9to1c4b_608_48_alg».proof.Proof.BStretchA
import proofs.«205037_g73117523247527_cont_9to1c4b_608_48_alg».proof.Proof.BStretchB
import proofs.«205037_g73117523247527_cont_9to1c4b_608_48_alg».proof.Proof.BKept

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 1) (Elt F) ℕ UU ℕ

variable (m : (ℓ : Loc nD τ sig) → Buf (Elt F) ℓ) (ρ : Dev nD → PrngReg)

/-- What the packing region leaves in main_v5: the packed table of the transposed entity table and its tail. -/
def PkOf (d : Dev nD) : (Proc.devRef .tc main_v5 : DevRef τ sig).ty.Contents (Elt F) :=
  packed (c := d) (StableHlo.after opsA1 (launchContents m d) pk0) (StableHlo.after opsA1 (launchContents m d) pk4)

/-- The valuation at the end of the first stretch. -/
abbrev VAf : Dev nD → Valuation τ sig (Elt F) := fun d => VAof (launchContents m d) (PkOf m d)

theorem VAf_eq (d : Dev nD) : VAf m d = VA m d := (VA_eq m d).symm

variable (G0 : (d : Dev nD) → Buf (Elt F) (locR0 d)) (G1 : (d : Dev nD) → Buf (Elt F) (locR1 d)) (G2 : (d : Dev nD) → Buf (Elt F) (locR2 d))
  (G3 : (d : Dev nD) → Buf (Elt F) (locR3 d)) (G4 : (d : Dev nD) → Buf (Elt F) (locR4 d))

/-- The program's run, given the tiles' obligation at the call's payloads: every weakly fair execution terminates, and
    the final memory holds the result and the arguments at the final valuation. -/
theorem runKI [∀ e, Nonempty (Elt F e)]
    (htile : (K (F := F)).TileObl (D (F := F)) 𝒱 (Pc (VAf m) G0 G1 G2 G3 G4) v₀ 0) :
    θ_run (Cert.Kernel.defs (F := F)) (Cert.Kernel.threads (F := F)) ⟨m, fun _ => 0, ρ⟩ (QC8 (Wfin m (PkOf m) G0 G1 G2 G3 G4)) :=
  run_main m ρ (cSt (VAf m)) (cDn (VAf m) G0 G1 G2 G3 G4) (tGo (VAf m)) (tTd (VAf m) G0 G1 G2 G3 G4)
    (VAf m) (VS (VAf m) G0 G1 G2 G3 G4) (Wfin m (PkOf m) G0 G1 G2 G3 G4) T9 T9_sub
    (fun d => by rw [VAf_eq]; exact stretchA m (datB (VS (VAf m) G0 G1 G2 G3 G4) d) d)
    (fun d => stretchB (datA (VAf m)) (VS (VAf m) G0 G1 G2 G3 G4) d)
    (hand (VAf m) G0 G1 G2 G3 G4) (back (VAf m) G0 G1 G2 G3 G4) (hVS (VAf m) G0 G1 G2 G3 G4)
    htile (vecSplit (VAf m) G0 G1 G2 G3 G4)

end Cert.Proof.KB

end
-- ==== Proof.BTileDefs.lean ====
/-
  The row gather's task, statement level: the place of a tile, the kernel's arrays as a vector subcore and as the
  TensorCore name them, the windows of the results a tile copies into, what a tile is handed and what it hands back.
  Definitions only.
-/
import proofs.«205037_g73117523247527_cont_9to1c4b_608_48_alg».proof.Proof.BCommon

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The kernel's memrefs, as the body table passes them -/

abbrev eM : Memref sig .scVector .hbm S500000x128 .f32 := Memref.whole main_v5_scv
abbrev rM : Memref sig .scVector .hbm S500x128 .f32 := Memref.whole main_v6_scv
abbrev aM : Memref sig .scVector .hbm S512x128 .i32 := Memref.whole main_v24_scv
abbrev bM : Memref sig .scVector .hbm S128x128 .i32 := Memref.whole main_v25_scv
abbrev o0M : Memref sig .scVector .hbm S16384x128 .f32 := Memref.whole main_v26_0_scv
abbrev o1M : Memref sig .scVector .hbm S16384x128 .f32 := Memref.whole main_v26_1_scv
abbrev o2M : Memref sig .scVector .hbm S16384x128 .f32 := Memref.whole main_v26_2_scv
abbrev o3M : Memref sig .scVector .hbm S16384x128 .f32 := Memref.whole main_v26_3_scv
abbrev o4M : Memref sig .scVector .hbm S16384x128 .f32 := Memref.whole main_v26_4_scv
abbrev sIM : Memref sig .scVector .vmem S20x128 .i32 := Memref.whole cc1_scratch0
abbrev sAM : Memref sig .scVector .vmem S128x128 .f32 := Memref.whole cc1_scratch1
abbrev sBM : Memref sig .scVector .vmem S128x128 .f32 := Memref.whole cc1_scratch2

/-- The arrays as the TensorCore names them. -/
abbrev eLoc (d : Dev nD) : Loc nD τ sig := (SparseCore.T d).loc main_v5
abbrev rLoc (d : Dev nD) : Loc nD τ sig := (SparseCore.T d).loc main_v6
abbrev aLoc (d : Dev nD) : Loc nD τ sig := (SparseCore.T d).loc main_v24
abbrev bLoc (d : Dev nD) : Loc nD τ sig := (SparseCore.T d).loc main_v25
abbrev o0Loc (d : Dev nD) : Loc nD τ sig := (SparseCore.T d).loc main_v26_0
abbrev o1Loc (d : Dev nD) : Loc nD τ sig := (SparseCore.T d).loc main_v26_1
abbrev o2Loc (d : Dev nD) : Loc nD τ sig := (SparseCore.T d).loc main_v26_2
abbrev o3Loc (d : Dev nD) : Loc nD τ sig := (SparseCore.T d).loc main_v26_3
abbrev o4Loc (d : Dev nD) : Loc nD τ sig := (SparseCore.T d).loc main_v26_4

/-! ## The place -/

abbrev cV (L : grid1.Coords) : Fin τ.nSC := (L 0).castLE hcore1
abbrev jV (L : grid1.Coords) : Fin τ.nSub := (L 1).castLE hsub1
/-- The vector subcore at coordinates `L` of device `d`. -/
abbrev VT (d : Dev nD) (L : grid1.Coords) : Thread nD τ := V d (cV L) (jV L)

/-- The coordinates of the tile on SparseCore `c`, subcore `s` of the kernel's grid. -/
def coordsV (c : Fin (grid1.bound 0)) (s : Fin (grid1.bound 1)) : grid1.Coords :=
  fun | 0 => c | 1 => s | ⟨_ + 2, h⟩ => absurd h (Nat.not_lt.2 (Nat.le_add_left _ _))

/-! ## The windows of the results the tile copies into: window `j` of a result is its rows
    `(4 w + j) * 128 … + 128`, `w` the tile's number, spelt through the kernel's own offsets. -/

abbrev oC0_0 (L : grid1.Coords) : Memref sig .scVector .hbm S128x128 .f32 :=
  (Memref.whole main_v26_0_scv : Memref sig .scVector .hbm S16384x128 .f32).slice (Rect.unit (s := S16384x128) (k1_off3 L 0#32) S128x128.size (k1_off3_inb L 0)) (fun _ => rfl)
abbrev oC0_1 (L : grid1.Coords) : Memref sig .scVector .hbm S128x128 .f32 :=
  (Memref.whole main_v26_0_scv : Memref sig .scVector .hbm S16384x128 .f32).slice (Rect.unit (s := S16384x128) (k1_off3 L 1#32) S128x128.size (k1_off3_inb L 1)) (fun _ => rfl)
abbrev oC0_2 (L : grid1.Coords) : Memref sig .scVector .hbm S128x128 .f32 :=
  (Memref.whole main_v26_0_scv : Memref sig .scVector .hbm S16384x128 .f32).slice (Rect.unit (s := S16384x128) (k1_off3 L 2#32) S128x128.size (k1_off3_inb L 2)) (fun _ => rfl)
abbrev oC0_3 (L : grid1.Coords) : Memref sig .scVector .hbm S128x128 .f32 :=
  (Memref.whole main_v26_0_scv : Memref sig .scVector .hbm S16384x128 .f32).slice (Rect.unit (s := S16384x128) (k1_off3 L 3#32) S128x128.size (k1_off3_inb L 3)) (fun _ => rfl)
abbrev oC1_0 (L : grid1.Coords) : Memref sig .scVector .hbm S128x128 .f32 :=
  (Memref.whole main_v26_1_scv : Memref sig .scVector .hbm S16384x128 .f32).slice (Rect.unit (s := S16384x128) (k1_off3 L 0#32) S128x128.size (k1_off3_inb L 0)) (fun _ => rfl)
abbrev oC1_1 (L : grid1.Coords) : Memref sig .scVector .hbm S128x128 .f32 :=
  (Memref.whole main_v26_1_scv : Memref sig .scVector .hbm S16384x128 .f32).slice (Rect.unit (s := S16384x128) (k1_off3 L 1#32) S128x128.size (k1_off3_inb L 1)) (fun _ => rfl)
abbrev oC1_2 (L : grid1.Coords) : Memref sig .scVector .hbm S128x128 .f32 :=
  (Memref.whole main_v26_1_scv : Memref sig .scVector .hbm S16384x128 .f32).slice (Rect.unit (s := S16384x128) (k1_off3 L 2#32) S128x128.size (k1_off3_inb L 2)) (fun _ => rfl)
abbrev oC1_3 (L : grid1.Coords) : Memref sig .scVector .hbm S128x128 .f32 :=
  (Memref.whole main_v26_1_scv : Memref sig .scVector .hbm S16384x128 .f32).slice (Rect.unit (s := S16384x128) (k1_off3 L 3#32) S128x128.size (k1_off3_inb L 3)) (fun _ => rfl)
abbrev oC2_0 (L : grid1.Coords) : Memref sig .scVector .hbm S128x128 .f32 :=
  (Memref.whole main_v26_2_scv : Memref sig .scVector .hbm S16384x128 .f32).slice (Rect.unit (s := S16384x128) (k1_off3 L 0#32) S128x128.size (k1_off3_inb L 0)) (fun _ => rfl)
abbrev oC2_1 (L : grid1.Coords) : Memref sig .scVector .hbm S128x128 .f32 :=
  (Memref.whole main_v26_2_scv : Memref sig .scVector .hbm S16384x128 .f32).slice (Rect.unit (s := S16384x128) (k1_off3 L 1#32) S128x128.size (k1_off3_inb L 1)) (fun _ => rfl)
abbrev oC2_2 (L : grid1.Coords) : Memref sig .scVector .hbm S128x128 .f32 :=
  (Memref.whole main_v26_2_scv : Memref sig .scVector .hbm S16384x128 .f32).slice (Rect.unit (s := S16384x128) (k1_off3 L 2#32) S128x128.size (k1_off3_inb L 2)) (fun _ => rfl)
abbrev oC2_3 (L : grid1.Coords) : Memref sig .scVector .hbm S128x128 .f32 :=
  (Memref.whole main_v26_2_scv : Memref sig .scVector .hbm S16384x128 .f32).slice (Rect.unit (s := S16384x128) (k1_off3 L 3#32) S128x128.size (k1_off3_inb L 3)) (fun _ => rfl)
abbrev oC3_0 (L : grid1.Coords) : Memref sig .scVector .hbm S128x128 .f32 :=
  (Memref.whole main_v26_3_scv : Memref sig .scVector .hbm S16384x128 .f32).slice (Rect.unit (s := S16384x128) (k1_off3 L 0#32) S128x128.size (k1_off3_inb L 0)) (fun _ => rfl)
abbrev oC3_1 (L : grid1.Coords) : Memref sig .scVector .hbm S128x128 .f32 :=
  (Memref.whole main_v26_3_scv : Memref sig .scVector .hbm S16384x128 .f32).slice (Rect.unit (s := S16384x128) (k1_off3 L 1#32) S128x128.size (k1_off3_inb L 1)) (fun _ => rfl)
abbrev oC3_2 (L : grid1.Coords) : Memref sig .scVector .hbm S128x128 .f32 :=
  (Memref.whole main_v26_3_scv : Memref sig .scVector .hbm S16384x128 .f32).slice (Rect.unit (s := S16384x128) (k1_off3 L 2#32) S128x128.size (k1_off3_inb L 2)) (fun _ => rfl)
abbrev oC3_3 (L : grid1.Coords) : Memref sig .scVector .hbm S128x128 .f32 :=
  (Memref.whole main_v26_3_scv : Memref sig .scVector .hbm S16384x128 .f32).slice (Rect.unit (s := S16384x128) (k1_off3 L 3#32) S128x128.size (k1_off3_inb L 3)) (fun _ => rfl)
abbrev oC4_0 (L : grid1.Coords) : Memref sig .scVector .hbm S128x128 .f32 :=
  (Memref.whole main_v26_4_scv : Memref sig .scVector .hbm S16384x128 .f32).slice (Rect.unit (s := S16384x128) (k1_off3 L 0#32) S128x128.size (k1_off3_inb L 0)) (fun _ => rfl)
abbrev oC4_1 (L : grid1.Coords) : Memref sig .scVector .hbm S128x128 .f32 :=
  (Memref.whole main_v26_4_scv : Memref sig .scVector .hbm S16384x128 .f32).slice (Rect.unit (s := S16384x128) (k1_off3 L 1#32) S128x128.size (k1_off3_inb L 1)) (fun _ => rfl)
abbrev oC4_2 (L : grid1.Coords) : Memref sig .scVector .hbm S128x128 .f32 :=
  (Memref.whole main_v26_4_scv : Memref sig .scVector .hbm S16384x128 .f32).slice (Rect.unit (s := S16384x128) (k1_off3 L 2#32) S128x128.size (k1_off3_inb L 2)) (fun _ => rfl)
abbrev oC4_3 (L : grid1.Coords) : Memref sig .scVector .hbm S128x128 .f32 :=
  (Memref.whole main_v26_4_scv : Memref sig .scVector .hbm S16384x128 .f32).slice (Rect.unit (s := S16384x128) (k1_off3 L 3#32) S128x128.size (k1_off3_inb L 3)) (fun _ => rfl)

/-! ## What a result row holds: the table row its index word names -/

/-- Row `b` of entity result `k`: the row of the packed entity table named by word `(128 k + b / 128, b % 128)` of the
    entity index array (taken modulo the table's height, so that the function is total; the words are in range). -/
def gathE (d : Dev nD) (X5 : Buf (Elt F) (eLoc d)) (X24 : Buf (Elt F) (aLoc d)) (k : Fin 4) : S16384x128.Idx → Elt F .f32 := fun b =>
  X5 (fun
    | 0 => ⟨(X24 (fun
        | 0 => ⟨128 * k.val + (b 0).val / 128, by have h : (b 0).val < 16384 := (b 0).isLt; have hk := k.isLt; show _ < 512; omega⟩
        | 1 => ⟨(b 0).val % 128, Nat.mod_lt _ (by decide)⟩)).toNat % 500000, Nat.mod_lt _ (by decide)⟩
    | 1 => b 1)

/-- Row `b` of the relation result: the row of the packed relation table named by word `(b / 128, b % 128)` of the
    relation index array (modulo the table's height). -/
def gathR (d : Dev nD) (X6 : Buf (Elt F) (rLoc d)) (X25 : Buf (Elt F) (bLoc d)) : S16384x128.Idx → Elt F .f32 := fun b =>
  X6 (fun
    | 0 => ⟨(X25 (fun
        | 0 => ⟨(b 0).val / 128, by have h : (b 0).val < 16384 := (b 0).isLt; show _ < 128; omega⟩
        | 1 => ⟨(b 0).val % 128, Nat.mod_lt _ (by decide)⟩)).toNat % 500, Nat.mod_lt _ (by decide)⟩
    | 1 => b 1)

/-! ## What the tile is handed and what it hands back -/

/-- The tile's operands: a share `q` of each table and each index array, whole, at the contents the call finds; its
    four windows of each result, in full, at the contents the call finds. -/
def tileGo (d : Dev nD) (L : grid1.Coords) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) : sProp 𝕄 :=
  iprop((eLoc d ↦{q} X5) ∗ (rLoc d ↦{q} X6) ∗ (aLoc d ↦{q} X24) ∗ (bLoc d ↦{q} X25)
      ∗ (o0Loc d ↦[(oC0_0 L).view.set]{fullShare} Y0)
      ∗ (o0Loc d ↦[(oC0_1 L).view.set]{fullShare} Y0)
      ∗ (o0Loc d ↦[(oC0_2 L).view.set]{fullShare} Y0)
      ∗ (o0Loc d ↦[(oC0_3 L).view.set]{fullShare} Y0)
      ∗ (o1Loc d ↦[(oC1_0 L).view.set]{fullShare} Y1)
      ∗ (o1Loc d ↦[(oC1_1 L).view.set]{fullShare} Y1)
      ∗ (o1Loc d ↦[(oC1_2 L).view.set]{fullShare} Y1)
      ∗ (o1Loc d ↦[(oC1_3 L).view.set]{fullShare} Y1)
      ∗ (o2Loc d ↦[(oC2_0 L).view.set]{fullShare} Y2)
      ∗ (o2Loc d ↦[(oC2_1 L).view.set]{fullShare} Y2)
      ∗ (o2Loc d ↦[(oC2_2 L).view.set]{fullShare} Y2)
      ∗ (o2Loc d ↦[(oC2_3 L).view.set]{fullShare} Y2)
      ∗ (o3Loc d ↦[(oC3_0 L).view.set]{fullShare} Y3)
      ∗ (o3Loc d ↦[(oC3_1 L).view.set]{fullShare} Y3)
      ∗ (o3Loc d ↦[(oC3_2 L).view.set]{fullShare} Y3)
      ∗ (o3Loc d ↦[(oC3_3 L).view.set]{fullShare} Y3)
      ∗ (o4Loc d ↦[(oC4_0 L).view.set]{fullShare} Y4)
      ∗ (o4Loc d ↦[(oC4_1 L).view.set]{fullShare} Y4)
      ∗ (o4Loc d ↦[(oC4_2 L).view.set]{fullShare} Y4)
      ∗ (o4Loc d ↦[(oC4_3 L).view.set]{fullShare} Y4))

/-- The frame form of what it hands back: the shares unchanged, each window at some contents. -/
def tileTdF (d : Dev nD) (L : grid1.Coords) (q : PosShare TreeShare) (X5 : Buf (Elt F) (eLoc d)) (X6 : Buf (Elt F) (rLoc d)) (X24 : Buf (Elt F) (aLoc d)) (X25 : Buf (Elt F) (bLoc d)) : sProp 𝕄 :=
  iprop((eLoc d ↦{q} X5) ∗ (rLoc d ↦{q} X6) ∗ (aLoc d ↦{q} X24) ∗ (bLoc d ↦{q} X25)
      ∗ (∃ f, o0Loc d ↦[(oC0_0 L).view.set]{fullShare} f)
      ∗ (∃ f, o0Loc d ↦[(oC0_1 L).view.set]{fullShare} f)
      ∗ (∃ f, o0Loc d ↦[(oC0_2 L).view.set]{fullShare} f)
      ∗ (∃ f, o0Loc d ↦[(oC0_3 L).view.set]{fullShare} f)
      ∗ (∃ f, o1Loc d ↦[(oC1_0 L).view.set]{fullShare} f)
      ∗ (∃ f, o1Loc d ↦[(oC1_1 L).view.set]{fullShare} f)
      ∗ (∃ f, o1Loc d ↦[(oC1_2 L).view.set]{fullShare} f)
      ∗ (∃ f, o1Loc d ↦[(oC1_3 L).view.set]{fullShare} f)
      ∗ (∃ f, o2Loc d ↦[(oC2_0 L).view.set]{fullShare} f)
      ∗ (∃ f, o2Loc d ↦[(oC2_1 L).view.set]{fullShare} f)
      ∗ (∃ f, o2Loc d ↦[(oC2_2 L).view.set]{fullShare} f)
      ∗ (∃ f, o2Loc d ↦[(oC2_3 L).view.set]{fullShare} f)
      ∗ (∃ f, o3Loc d ↦[(oC3_0 L).view.set]{fullShare} f)
      ∗ (∃ f, o3Loc d ↦[(oC3_1 L).view.set]{fullShare} f)
      ∗ (∃ f, o3Loc d ↦[(oC3_2 L).view.set]{fullShare} f)
      ∗ (∃ f, o3Loc d ↦[(oC3_3 L).view.set]{fullShare} f)
      ∗ (∃ f, o4Loc d ↦[(oC4_0 L).view.set]{fullShare} f)
      ∗ (∃ f, o4Loc d ↦[(oC4_1 L).view.set]{fullShare} f)
      ∗ (∃ f, o4Loc d ↦[(oC4_2 L).view.set]{fullShare} f)
      ∗ (∃ f, o4Loc d ↦[(oC4_3 L).view.set]{fullShare} f))

/-- What it hands back: the shares unchanged, each window of a result at the gathered rows — one function of the whole
    result, the same for every tile. -/
def tileTd (d : Dev nD) (L : grid1.Coords) (q : PosShare TreeShare) (X5 : Buf (Elt F) (eLoc d)) (X6 : Buf (Elt F) (rLoc d)) (X24 : Buf (Elt F) (aLoc d)) (X25 : Buf (Elt F) (bLoc d)) : sProp 𝕄 :=
  iprop((eLoc d ↦{q} X5) ∗ (rLoc d ↦{q} X6) ∗ (aLoc d ↦{q} X24) ∗ (bLoc d ↦{q} X25)
      ∗ (o0Loc d ↦[(oC0_0 L).view.set]{fullShare} gathE d X5 X24 0)
      ∗ (o0Loc d ↦[(oC0_1 L).view.set]{fullShare} gathE d X5 X24 0)
      ∗ (o0Loc d ↦[(oC0_2 L).view.set]{fullShare} gathE d X5 X24 0)
      ∗ (o0Loc d ↦[(oC0_3 L).view.set]{fullShare} gathE d X5 X24 0)
      ∗ (o1Loc d ↦[(oC1_0 L).view.set]{fullShare} gathE d X5 X24 1)
      ∗ (o1Loc d ↦[(oC1_1 L).view.set]{fullShare} gathE d X5 X24 1)
      ∗ (o1Loc d ↦[(oC1_2 L).view.set]{fullShare} gathE d X5 X24 1)
      ∗ (o1Loc d ↦[(oC1_3 L).view.set]{fullShare} gathE d X5 X24 1)
      ∗ (o2Loc d ↦[(oC2_0 L).view.set]{fullShare} gathE d X5 X24 2)
      ∗ (o2Loc d ↦[(oC2_1 L).view.set]{fullShare} gathE d X5 X24 2)
      ∗ (o2Loc d ↦[(oC2_2 L).view.set]{fullShare} gathE d X5 X24 2)
      ∗ (o2Loc d ↦[(oC2_3 L).view.set]{fullShare} gathE d X5 X24 2)
      ∗ (o3Loc d ↦[(oC3_0 L).view.set]{fullShare} gathE d X5 X24 3)
      ∗ (o3Loc d ↦[(oC3_1 L).view.set]{fullShare} gathE d X5 X24 3)
      ∗ (o3Loc d ↦[(oC3_2 L).view.set]{fullShare} gathE d X5 X24 3)
      ∗ (o3Loc d ↦[(oC3_3 L).view.set]{fullShare} gathE d X5 X24 3)
      ∗ (o4Loc d ↦[(oC4_0 L).view.set]{fullShare} gathR d X6 X25)
      ∗ (o4Loc d ↦[(oC4_1 L).view.set]{fullShare} gathR d X6 X25)
      ∗ (o4Loc d ↦[(oC4_2 L).view.set]{fullShare} gathR d X6 X25)
      ∗ (o4Loc d ↦[(oC4_3 L).view.set]{fullShare} gathR d X6 X25))

end Cert.Proof.KB

end
-- ==== Proof.BTileObl.lean ====
/-
  The launch's obligation for the row gather's tasks. The SparseCore call runs the gather kernel as the task of each
  of the 2 × 16 vector subcores; the launch asks, per subcore, that from the operands the call's split deals it the
  kernel's body, under the certificate's body table, runs to what the split gathers. Here that obligation is reduced
  to one task's body at a symbolic place: the body table's row on a vector subcore is the kernel at the subcore's
  coordinates; what the split deals a subcore (a leaf share of the four arrays read, four chunks of each result) is what
  the tile's body takes (the chunks being the windows the kernel's own offsets name); and what the body hands back, the
  windows at the gathered rows, is what the split gathers when the results after the call are the gathered rows.
-/
import proofs.«205037_g73117523247527_cont_9to1c4b_608_48_alg».proof.Proof.BTileDefs
import proofs.«205037_g73117523247527_cont_9to1c4b_608_48_alg».proof.Proof.BHandOver

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task's body as the launch's obligation -/

/-- The body table's row for the gather kernel on a vector subcore: the kernel at the subcore's coordinates when the
    kernel's grid holds it. -/
theorem defs₀_vector (c : Fin τ.nSC) (s : Fin τ.nSub) :
    defs₀ (F := F) (.scVector c s) 1 ()
      = SparseCore.onTile hcore1 hsub1 (fun c s => cc1_gk (coordsV c s)
            eM (Memref.isWhole_whole _) rM (Memref.isWhole_whole _) aM (Memref.isWhole_whole _) bM (Memref.isWhole_whole _)
            o0M (Memref.isWhole_whole _) o1M (Memref.isWhole_whole _) o2M (Memref.isWhole_whole _) o3M (Memref.isWhole_whole _) o4M (Memref.isWhole_whole _)
            sIM (Memref.isWhole_whole _) sAM (Memref.isWhole_whole _) sBM (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11
            cc1_scoped12 cc1_scoped13 cc1_scoped14 cc1_scoped15 cc1_scoped16 cc1_scoped17 cc1_scoped18 cc1_scoped19 cc1_scoped20 cc1_scoped21 cc1_scoped22
            cc1_scoped23 cc1_scoped24) ⟨⟩ c s := rfl

/-- One vector subcore's task, as its module proves it: with every word of the two index arrays in range of its table,
    from the level facts, anything of the launch's, the tile's operands (a share `q` of the four arrays it reads, its
    windows of the five results in full), its scoped storage and what it owes with nothing at the kernels' index, the
    kernel at the tile's coordinates runs to the operands back with the windows at the gathered rows, the scoped storage,
    and the same debts, its waits having recorded pairs at the kernels' index or the call's only. -/
def TileBody : Prop :=
  ∀ (d : Dev nD) (L : grid1.Coords) (hF : (K (F := F)).Facts) (X : sProp 𝕄) (q : PosShare TreeShare)
    (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0),
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eM (Memref.isWhole_whole _) rM (Memref.isWhole_whole _) aM (Memref.isWhole_whole _) bM (Memref.isWhole_whole _)
            o0M (Memref.isWhole_whole _) o1M (Memref.isWhole_whole _) o2M (Memref.isWhole_whole _) o3M (Memref.isWhole_whole _) o4M (Memref.isWhole_whole _)
            sIM (Memref.isWhole_whole _) sAM (Memref.isWhole_whole _) sBM (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11
            cc1_scoped12 cc1_scoped13 cc1_scoped14 cc1_scoped15 cc1_scoped16 cc1_scoped17 cc1_scoped18 cc1_scoped19 cc1_scoped20 cc1_scoped21 cc1_scoped22
            cc1_scoped23 cc1_scoped24)
          fun _ => iprop(tileTd d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W')

/-- THE TILES' OBLIGATION. The launch's obligation for the gather kernel's tasks, from one task's body (`hbody`): the
    task's operands as the call's split deals them are the tile's (`hgo`: the chunk a subcore is dealt is the window the
    kernel's offsets name), what the tile hands back is what the split gathers (`htd`), and the results after the call
    are the gathered rows. The kernel owes nothing for a protocol of its own; the index words the call finds are in
    range (`h24`, `h25`). -/
theorem tileObl (hF : (K (F := F)).Facts) (VA : Dev nD → Valuation τ sig (Elt F))
    (h24 : ∀ (d : Dev nD) (j : S512x128.Idx), ((VA d r24' : Buf (Elt F) (aLoc d)) j).toNat < 500000)
    (h25 : ∀ (d : Dev nD) (j : S128x128.Idx), ((VA d r25' : Buf (Elt F) (bLoc d)) j).toNat < 500)
    (hbody : TileBody (F := F))
    (hgo : ∀ (d : Dev nD) (L : grid1.Coords) (X5 : Buf (Elt F) (eLoc d)) (X6 : Buf (Elt F) (rLoc d)) (X24 : Buf (Elt F) (aLoc d)) (X25 : Buf (Elt F) (bLoc d))
      (Y0 : Buf (Elt F) (o0Loc d)) (Y1 : Buf (Elt F) (o1Loc d)) (Y2 : Buf (Elt F) (o2Loc d)) (Y3 : Buf (Elt F) (o3Loc d)) (Y4 : Buf (Elt F) (o4Loc d)),
      (tileGo d L (leafShare (coreOf L) (subOf L)) X5 X6 X24 X25 Y0 Y1 Y2 Y3 Y4 : sProp 𝕄)
        = subGo d (coreOf L) (subOf L) X5 X6 X24 X25 Y0 Y1 Y2 Y3 Y4)
    (htd : ∀ (d : Dev nD) (L : grid1.Coords) (X5 : Buf (Elt F) (eLoc d)) (X6 : Buf (Elt F) (rLoc d)) (X24 : Buf (Elt F) (aLoc d)) (X25 : Buf (Elt F) (bLoc d)),
      (tileTd d L (leafShare (coreOf L) (subOf L)) X5 X6 X24 X25 : sProp 𝕄)
        = subTd d (coreOf L) (subOf L) X5 X6 X24 X25 (gathE d X5 X24 0) (gathE d X5 X24 1) (gathE d X5 X24 2) (gathE d X5 X24 3) (gathR d X6 X25)) :
    (K (F := F)).TileObl (D (F := F)) 𝒱
      (Pc VA (fun d => gathE d (VA d r5') (VA d r24') 0) (fun d => gathE d (VA d r5') (VA d r24') 1)
        (fun d => gathE d (VA d r5') (VA d r24') 2) (fun d => gathE d (VA d r5') (VA d r24') 3)
        (fun d => gathR d (VA d r6') (VA d r25'))) v₀ 0 := by
  intro d c i O W hO _ _
  -- this kernel owes nothing for a protocol of its own
  simp only [show (Pc VA (fun d => gathE d (VA d r5') (VA d r24') 0) (fun d => gathE d (VA d r5') (VA d r24') 1)
      (fun d => gathE d (VA d r5') (VA d r24') 2) (fun d => gathE d (VA d r5') (VA d r24') 3)
      (fun d => gathR d (VA d r6') (VA d r25'))).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := hbody d (coordsV ⟨_, hc.1⟩ ⟨_, hc.2⟩) hF
    ((Pc VA (fun d => gathE d (VA d r5') (VA d r24') 0) (fun d => gathE d (VA d r5') (VA d r24') 1)
      (fun d => gathE d (VA d r5') (VA d r24') 2) (fun d => gathE d (VA d r5') (VA d r24') 3)
      (fun d => gathR d (VA d r6') (VA d r25'))).x 0 (VT d (coordsV ⟨_, hc.1⟩ ⟨_, hc.2⟩)))
    (leafShare (coreOf (coordsV ⟨_, hc.1⟩ ⟨_, hc.2⟩)) (subOf (coordsV ⟨_, hc.1⟩ ⟨_, hc.2⟩)))
    (VA d r5') (VA d r6') (VA d r24') (VA d r25') (VA d o0') (VA d o1') (VA d o2') (VA d o3') (VA d o4') (h24 d) (h25 d) O W hO
  rw [hgo, htd] at h
  exact h

end Cert.Proof.KB

end
-- ==== Proof.BTileSplit.lean ====
/-
  The tile's own statement of what it is handed and hands back, and the split's, are one: the four windows of a result
  that the tile at `L` addresses through its computed offsets are the four chunks `8 s + 4 c + j` of subcore `s` of
  SparseCore `c`, `c` and `s` the tile's coordinates.
-/
import proofs.«205037_g73117523247527_cont_9to1c4b_608_48_alg».proof.Proof.BTileDefs
import proofs.«205037_g73117523247527_cont_9to1c4b_608_48_alg».proof.Proof.BSplit

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## At a tile's coordinates -/

/-- What the tile at `L` is handed, at the share of its place, is what the split hands subcore `L 1` of SparseCore `L 0`. -/
theorem tileGo_eq_subGo (d : Dev nD) (L : grid1.Coords) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    (tileGo d L (leafShare (coreOf L) (subOf L)) X5 X6 X24 X25 Y0 Y1 Y2 Y3 Y4 : sProp 𝕄)
      = subGo d (coreOf L) (subOf L) X5 X6 X24 X25 Y0 Y1 Y2 Y3 Y4 := by
  unfold tileGo subGo
  exact (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) (congrArg (fun I => (o0Loc d ↦[I]{fullShare} Y0 : sProp 𝕄)) (tile_window_r0 L 0))
    (congrArg₂ (fun x y : sProp 𝕄 => iprop(x ∗ y)) (congrArg (fun I => (o0Loc d ↦[I]{fullShare} Y0 : sProp 𝕄)) (tile_window_r0 L 1))
    (congrArg₂ (fun x y : sProp 𝕄 => iprop(x ∗ y)) (congrArg (fun I => (o0Loc d ↦[I]{fullShare} Y0 : sProp 𝕄)) (tile_window_r0 L 2))
    (congrArg₂ (fun x y : sProp 𝕄 => iprop(x ∗ y)) (congrArg (fun I => (o0Loc d ↦[I]{fullShare} Y0 : sProp 𝕄)) (tile_window_r0 L 3))
    (congrArg₂ (fun x y : sProp 𝕄 => iprop(x ∗ y)) (congrArg (fun I => (o1Loc d ↦[I]{fullShare} Y1 : sProp 𝕄)) (tile_window_r1 L 0))
    (congrArg₂ (fun x y : sProp 𝕄 => iprop(x ∗ y)) (congrArg (fun I => (o1Loc d ↦[I]{fullShare} Y1 : sProp 𝕄)) (tile_window_r1 L 1))
    (congrArg₂ (fun x y : sProp 𝕄 => iprop(x ∗ y)) (congrArg (fun I => (o1Loc d ↦[I]{fullShare} Y1 : sProp 𝕄)) (tile_window_r1 L 2))
    (congrArg₂ (fun x y : sProp 𝕄 => iprop(x ∗ y)) (congrArg (fun I => (o1Loc d ↦[I]{fullShare} Y1 : sProp 𝕄)) (tile_window_r1 L 3))
    (congrArg₂ (fun x y : sProp 𝕄 => iprop(x ∗ y)) (congrArg (fun I => (o2Loc d ↦[I]{fullShare} Y2 : sProp 𝕄)) (tile_window_r2 L 0))
    (congrArg₂ (fun x y : sProp 𝕄 => iprop(x ∗ y)) (congrArg (fun I => (o2Loc d ↦[I]{fullShare} Y2 : sProp 𝕄)) (tile_window_r2 L 1))
    (congrArg₂ (fun x y : sProp 𝕄 => iprop(x ∗ y)) (congrArg (fun I => (o2Loc d ↦[I]{fullShare} Y2 : sProp 𝕄)) (tile_window_r2 L 2))
    (congrArg₂ (fun x y : sProp 𝕄 => iprop(x ∗ y)) (congrArg (fun I => (o2Loc d ↦[I]{fullShare} Y2 : sProp 𝕄)) (tile_window_r2 L 3))
    (congrArg₂ (fun x y : sProp 𝕄 => iprop(x ∗ y)) (congrArg (fun I => (o3Loc d ↦[I]{fullShare} Y3 : sProp 𝕄)) (tile_window_r3 L 0))
    (congrArg₂ (fun x y : sProp 𝕄 => iprop(x ∗ y)) (congrArg (fun I => (o3Loc d ↦[I]{fullShare} Y3 : sProp 𝕄)) (tile_window_r3 L 1))
    (congrArg₂ (fun x y : sProp 𝕄 => iprop(x ∗ y)) (congrArg (fun I => (o3Loc d ↦[I]{fullShare} Y3 : sProp 𝕄)) (tile_window_r3 L 2))
    (congrArg₂ (fun x y : sProp 𝕄 => iprop(x ∗ y)) (congrArg (fun I => (o3Loc d ↦[I]{fullShare} Y3 : sProp 𝕄)) (tile_window_r3 L 3))
    (congrArg₂ (fun x y : sProp 𝕄 => iprop(x ∗ y)) (congrArg (fun I => (o4Loc d ↦[I]{fullShare} Y4 : sProp 𝕄)) (tile_window_r4 L 0))
    (congrArg₂ (fun x y : sProp 𝕄 => iprop(x ∗ y)) (congrArg (fun I => (o4Loc d ↦[I]{fullShare} Y4 : sProp 𝕄)) (tile_window_r4 L 1))
    (congrArg₂ (fun x y : sProp 𝕄 => iprop(x ∗ y)) (congrArg (fun I => (o4Loc d ↦[I]{fullShare} Y4 : sProp 𝕄)) (tile_window_r4 L 2))
    (congrArg (fun I => (o4Loc d ↦[I]{fullShare} Y4 : sProp 𝕄)) (tile_window_r4 L 3)))))))))))))))))))))))))

/-- What it hands back, each window at the gathered rows, is what the split takes back from that subcore at those
    contents. -/
theorem tileTd_eq_subTd (d : Dev nD) (L : grid1.Coords) (X5 : Buf (Elt F) (eLoc d)) (X6 : Buf (Elt F) (rLoc d)) (X24 : Buf (Elt F) (aLoc d)) (X25 : Buf (Elt F) (bLoc d)) :
    (tileTd d L (leafShare (coreOf L) (subOf L)) X5 X6 X24 X25 : sProp 𝕄)
      = subTd d (coreOf L) (subOf L) X5 X6 X24 X25 (gathE d X5 X24 0) (gathE d X5 X24 1) (gathE d X5 X24 2) (gathE d X5 X24 3) (gathR d X6 X25) := by
  show _ = subGo d (coreOf L) (subOf L) X5 X6 X24 X25 (gathE d X5 X24 0) (gathE d X5 X24 1) (gathE d X5 X24 2) (gathE d X5 X24 3) (gathR d X6 X25)
  unfold tileTd subGo
  exact (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) rfl (congrArg₂ (fun x y : sProp 𝕄 => iprop(x ∗ y)) (congrArg (fun I => (o0Loc d ↦[I]{fullShare} (gathE d X5 X24 0) : sProp 𝕄)) (tile_window_r0 L 0))
    (congrArg₂ (fun x y : sProp 𝕄 => iprop(x ∗ y)) (congrArg (fun I => (o0Loc d ↦[I]{fullShare} (gathE d X5 X24 0) : sProp 𝕄)) (tile_window_r0 L 1))
    (congrArg₂ (fun x y : sProp 𝕄 => iprop(x ∗ y)) (congrArg (fun I => (o0Loc d ↦[I]{fullShare} (gathE d X5 X24 0) : sProp 𝕄)) (tile_window_r0 L 2))
    (congrArg₂ (fun x y : sProp 𝕄 => iprop(x ∗ y)) (congrArg (fun I => (o0Loc d ↦[I]{fullShare} (gathE d X5 X24 0) : sProp 𝕄)) (tile_window_r0 L 3))
    (congrArg₂ (fun x y : sProp 𝕄 => iprop(x ∗ y)) (congrArg (fun I => (o1Loc d ↦[I]{fullShare} (gathE d X5 X24 1) : sProp 𝕄)) (tile_window_r1 L 0))
    (congrArg₂ (fun x y : sProp 𝕄 => iprop(x ∗ y)) (congrArg (fun I => (o1Loc d ↦[I]{fullShare} (gathE d X5 X24 1) : sProp 𝕄)) (tile_window_r1 L 1))
    (congrArg₂ (fun x y : sProp 𝕄 => iprop(x ∗ y)) (congrArg (fun I => (o1Loc d ↦[I]{fullShare} (gathE d X5 X24 1) : sProp 𝕄)) (tile_window_r1 L 2))
    (congrArg₂ (fun x y : sProp 𝕄 => iprop(x ∗ y)) (congrArg (fun I => (o1Loc d ↦[I]{fullShare} (gathE d X5 X24 1) : sProp 𝕄)) (tile_window_r1 L 3))
    (congrArg₂ (fun x y : sProp 𝕄 => iprop(x ∗ y)) (congrArg (fun I => (o2Loc d ↦[I]{fullShare} (gathE d X5 X24 2) : sProp 𝕄)) (tile_window_r2 L 0))
    (congrArg₂ (fun x y : sProp 𝕄 => iprop(x ∗ y)) (congrArg (fun I => (o2Loc d ↦[I]{fullShare} (gathE d X5 X24 2) : sProp 𝕄)) (tile_window_r2 L 1))
    (congrArg₂ (fun x y : sProp 𝕄 => iprop(x ∗ y)) (congrArg (fun I => (o2Loc d ↦[I]{fullShare} (gathE d X5 X24 2) : sProp 𝕄)) (tile_window_r2 L 2))
    (congrArg₂ (fun x y : sProp 𝕄 => iprop(x ∗ y)) (congrArg (fun I => (o2Loc d ↦[I]{fullShare} (gathE d X5 X24 2) : sProp 𝕄)) (tile_window_r2 L 3))
    (congrArg₂ (fun x y : sProp 𝕄 => iprop(x ∗ y)) (congrArg (fun I => (o3Loc d ↦[I]{fullShare} (gathE d X5 X24 3) : sProp 𝕄)) (tile_window_r3 L 0))
    (congrArg₂ (fun x y : sProp 𝕄 => iprop(x ∗ y)) (congrArg (fun I => (o3Loc d ↦[I]{fullShare} (gathE d X5 X24 3) : sProp 𝕄)) (tile_window_r3 L 1))
    (congrArg₂ (fun x y : sProp 𝕄 => iprop(x ∗ y)) (congrArg (fun I => (o3Loc d ↦[I]{fullShare} (gathE d X5 X24 3) : sProp 𝕄)) (tile_window_r3 L 2))
    (congrArg₂ (fun x y : sProp 𝕄 => iprop(x ∗ y)) (congrArg (fun I => (o3Loc d ↦[I]{fullShare} (gathE d X5 X24 3) : sProp 𝕄)) (tile_window_r3 L 3))
    (congrArg₂ (fun x y : sProp 𝕄 => iprop(x ∗ y)) (congrArg (fun I => (o4Loc d ↦[I]{fullShare} (gathR d X6 X25) : sProp 𝕄)) (tile_window_r4 L 0))
    (congrArg₂ (fun x y : sProp 𝕄 => iprop(x ∗ y)) (congrArg (fun I => (o4Loc d ↦[I]{fullShare} (gathR d X6 X25) : sProp 𝕄)) (tile_window_r4 L 1))
    (congrArg₂ (fun x y : sProp 𝕄 => iprop(x ∗ y)) (congrArg (fun I => (o4Loc d ↦[I]{fullShare} (gathR d X6 X25) : sProp 𝕄)) (tile_window_r4 L 2))
    (congrArg (fun I => (o4Loc d ↦[I]{fullShare} (gathR d X6 X25) : sProp 𝕄)) (tile_window_r4 L 3)))))))))))))))))))))))))

/-! ## At a SparseCore and subcore of the call -/

/-- The SparseCore of the tile at coordinates `(c', s')`. -/
theorem coreOf_coordsV (c' : Fin (grid1.bound 0)) (s' : Fin (grid1.bound 1)) (c : Fin 2) (h : c'.val = c.val) : coreOf (coordsV c' s') = c :=
  Fin.ext h
/-- Its subcore. -/
theorem subOf_coordsV (c' : Fin (grid1.bound 0)) (s' : Fin (grid1.bound 1)) (s : Fin 16) (h : s'.val = s.val) : subOf (coordsV c' s') = s :=
  Fin.ext h

/-- The same two equations at the tile of SparseCore `c`, subcore `i` of the call, in the call's own index types. -/
theorem tileGo_at (d : Dev nD) (c : Fin ((K (F := F)).nCore 0)) (i : Fin ((K (F := F)).nSub 0))
    (hc : ((K (F := F)).core 0 c).val < grid1.bound 0) (hi : ((K (F := F)).sub 0 i).val < grid1.bound 1) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    (tileGo d (coordsV ⟨((K (F := F)).core 0 c).val, hc⟩ ⟨((K (F := F)).sub 0 i).val, hi⟩) (leafShare (Fin.cast nCore_zero c) (Fin.cast nSub_zero i))
        X5 X6 X24 X25 Y0 Y1 Y2 Y3 Y4 : sProp 𝕄)
      = subGo d (Fin.cast nCore_zero c) (Fin.cast nSub_zero i) X5 X6 X24 X25 Y0 Y1 Y2 Y3 Y4 := by
  have h := tileGo_eq_subGo d (coordsV ⟨((K (F := F)).core 0 c).val, hc⟩ ⟨((K (F := F)).sub 0 i).val, hi⟩) X5 X6 X24 X25 Y0 Y1 Y2 Y3 Y4
  have e1 : coreOf (coordsV ⟨((K (F := F)).core 0 c).val, hc⟩ ⟨((K (F := F)).sub 0 i).val, hi⟩) = Fin.cast nCore_zero c := Fin.ext rfl
  have e2 : subOf (coordsV ⟨((K (F := F)).core 0 c).val, hc⟩ ⟨((K (F := F)).sub 0 i).val, hi⟩) = Fin.cast nSub_zero i := Fin.ext rfl
  rw [e1, e2] at h
  exact h

theorem tileTd_at (d : Dev nD) (c : Fin ((K (F := F)).nCore 0)) (i : Fin ((K (F := F)).nSub 0))
    (hc : ((K (F := F)).core 0 c).val < grid1.bound 0) (hi : ((K (F := F)).sub 0 i).val < grid1.bound 1) (X5 : Buf (Elt F) (eLoc d)) (X6 : Buf (Elt F) (rLoc d)) (X24 : Buf (Elt F) (aLoc d)) (X25 : Buf (Elt F) (bLoc d)) :
    (tileTd d (coordsV ⟨((K (F := F)).core 0 c).val, hc⟩ ⟨((K (F := F)).sub 0 i).val, hi⟩) (leafShare (Fin.cast nCore_zero c) (Fin.cast nSub_zero i))
        X5 X6 X24 X25 : sProp 𝕄)
      = subTd d (Fin.cast nCore_zero c) (Fin.cast nSub_zero i) X5 X6 X24 X25 (gathE d X5 X24 0) (gathE d X5 X24 1) (gathE d X5 X24 2) (gathE d X5 X24 3) (gathR d X6 X25) := by
  have h := tileTd_eq_subTd d (coordsV ⟨((K (F := F)).core 0 c).val, hc⟩ ⟨((K (F := F)).sub 0 i).val, hi⟩) X5 X6 X24 X25
  have e1 : coreOf (coordsV ⟨((K (F := F)).core 0 c).val, hc⟩ ⟨((K (F := F)).sub 0 i).val, hi⟩) = Fin.cast nCore_zero c := Fin.ext rfl
  have e2 : subOf (coordsV ⟨((K (F := F)).core 0 c).val, hc⟩ ⟨((K (F := F)).sub 0 i).val, hi⟩) = Fin.cast nSub_zero i := Fin.ext rfl
  rw [e1, e2] at h
  exact h

end Cert.Proof.KB

end
-- ==== Proof.BTile.lean ====
/-
  The row gather as ONE vector subcore's task, at a symbolic place (device, SparseCore, subcore).

  The tile with number w = 2 * subcore + core fetches its index rows — rows k * 128 + 4 w … + 4 of the entity index
  array for k = 0..3 and rows 4 w … + 4 of the relation index array — into its index scratch (twenty rows of 128 words),
  then twenty times gathers 128 table rows named by one scratch row into one of two row buffers and copies that buffer
  out to rows (4 w + c) * 128 … + 128 of one of five results. Gather n + 1 is started before gather n is awaited, on
  the other buffer and the other semaphore: per semaphore one copy is outstanding at a time. Every tile reads the two
  tables and the two index arrays whole, under a share; it owns its 512 rows of each result in full, as the four
  128-row windows it copies into. Afterwards each window holds the gathered rows: row b of an entity result k is the
  packed entity table's row named by word (128 k + b / 128, b % 128) of the entity index array, and row b of the
  relation result the packed relation table's row named by word (b / 128, b % 128) of the relation index array —
  one function of the whole result, whatever the tile (`tile_body`); `tile_bodyF` forgets the contents.
-/
import proofs.«205037_g73117523247527_cont_9to1c4b_608_48_alg».proof.Proof.BTileDefs
import Idealize.ShloMosaic.Lib.WritesUnit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The kernel's memrefs, spelt as the body table passes them (notations: the terms are the program's own) -/

local notation "eV" => (Memref.whole Cert.Kernel.main_v5_scv : Memref Cert.Kernel.sig Kind.scVector Space.hbm Cert.Kernel.S500000x128 EltTy.f32)
local notation "rV" => (Memref.whole Cert.Kernel.main_v6_scv : Memref Cert.Kernel.sig Kind.scVector Space.hbm Cert.Kernel.S500x128 EltTy.f32)
local notation "aV" => (Memref.whole Cert.Kernel.main_v24_scv : Memref Cert.Kernel.sig Kind.scVector Space.hbm Cert.Kernel.S512x128 EltTy.i32)
local notation "bV" => (Memref.whole Cert.Kernel.main_v25_scv : Memref Cert.Kernel.sig Kind.scVector Space.hbm Cert.Kernel.S128x128 EltTy.i32)
local notation "o0V" => (Memref.whole Cert.Kernel.main_v26_0_scv : Memref Cert.Kernel.sig Kind.scVector Space.hbm Cert.Kernel.S16384x128 EltTy.f32)
local notation "o1V" => (Memref.whole Cert.Kernel.main_v26_1_scv : Memref Cert.Kernel.sig Kind.scVector Space.hbm Cert.Kernel.S16384x128 EltTy.f32)
local notation "o2V" => (Memref.whole Cert.Kernel.main_v26_2_scv : Memref Cert.Kernel.sig Kind.scVector Space.hbm Cert.Kernel.S16384x128 EltTy.f32)
local notation "o3V" => (Memref.whole Cert.Kernel.main_v26_3_scv : Memref Cert.Kernel.sig Kind.scVector Space.hbm Cert.Kernel.S16384x128 EltTy.f32)
local notation "o4V" => (Memref.whole Cert.Kernel.main_v26_4_scv : Memref Cert.Kernel.sig Kind.scVector Space.hbm Cert.Kernel.S16384x128 EltTy.f32)
local notation "sI" => (Memref.whole Cert.Kernel.cc1_scratch0 : Memref Cert.Kernel.sig Kind.scVector Space.vmem Cert.Kernel.S20x128 EltTy.i32)
local notation "sA" => (Memref.whole Cert.Kernel.cc1_scratch1 : Memref Cert.Kernel.sig Kind.scVector Space.vmem Cert.Kernel.S128x128 EltTy.f32)
local notation "sB" => (Memref.whole Cert.Kernel.cc1_scratch2 : Memref Cert.Kernel.sig Kind.scVector Space.vmem Cert.Kernel.S128x128 EltTy.f32)

namespace Tile

/-! ## The tile's own cells and buffers among its scoped storage -/

/-- The DMA semaphores the kernel names: the two the gathers complete on, then one per synchronous copy. -/
def kSems : Finset (SemLoc sig) :=
  {SemLoc.dma cc1_scratch3.sem, SemLoc.dma cc1_scratch4.sem, SemLoc.dma cc1_scoped0.sem, SemLoc.dma cc1_scoped1.sem, SemLoc.dma cc1_scoped2.sem, SemLoc.dma cc1_scoped3.sem, SemLoc.dma cc1_scoped4.sem, SemLoc.dma cc1_scoped5.sem, SemLoc.dma cc1_scoped6.sem, SemLoc.dma cc1_scoped7.sem, SemLoc.dma cc1_scoped8.sem, SemLoc.dma cc1_scoped9.sem, SemLoc.dma cc1_scoped10.sem, SemLoc.dma cc1_scoped11.sem, SemLoc.dma cc1_scoped12.sem, SemLoc.dma cc1_scoped13.sem, SemLoc.dma cc1_scoped14.sem, SemLoc.dma cc1_scoped15.sem, SemLoc.dma cc1_scoped16.sem, SemLoc.dma cc1_scoped17.sem, SemLoc.dma cc1_scoped18.sem, SemLoc.dma cc1_scoped19.sem, SemLoc.dma cc1_scoped20.sem, SemLoc.dma cc1_scoped21.sem, SemLoc.dma cc1_scoped22.sem, SemLoc.dma cc1_scoped23.sem, SemLoc.dma cc1_scoped24.sem}

/-- A thread's cell at a semaphore. -/
def cellAt (thr : Thread nD τ) : SemLoc sig ↪ GSem nD τ sig := ⟨fun s => (thr, s), fun _ _ h => (Prod.mk.inj h).2⟩

theorem kSems_scoped : ∀ s ∈ kSems, (s : SemLoc sig).isScoped .scVector = true := by decide

theorem kSems_sub (d : Dev nD) (L : grid1.Coords) : kSems.map (cellAt (VT d L)) ⊆ ownCells (VT d L) := by
  intro g hg
  obtain ⟨s, hs, rfl⟩ := Finset.mem_map.mp hg
  exact mem_ownCells.mpr ⟨rfl, kSems_scoped s hs⟩

/-- The cells the kernel does not name. -/
abbrev restCells (d : Dev nD) (L : grid1.Coords) : Finset (GSem nD τ sig) := ownCells (VT d L) \ kSems.map (cellAt (VT d L))

/-- The tile's scoped cells at zero are the kernel's twenty-seven, one by one, and the rest. -/
theorem ownSems0_V (d : Dev nD) (L : grid1.Coords) :
    (ownSems0 (VT d L) : sProp 𝕄)
      = iprop((semVal (VT d L, SemLoc.dma cc1_scratch3.sem) 0
          ∗ semVal (VT d L, SemLoc.dma cc1_scratch4.sem) 0
          ∗ semVal (VT d L, SemLoc.dma cc1_scoped0.sem) 0
          ∗ semVal (VT d L, SemLoc.dma cc1_scoped1.sem) 0
          ∗ semVal (VT d L, SemLoc.dma cc1_scoped2.sem) 0
          ∗ semVal (VT d L, SemLoc.dma cc1_scoped3.sem) 0
          ∗ semVal (VT d L, SemLoc.dma cc1_scoped4.sem) 0
          ∗ semVal (VT d L, SemLoc.dma cc1_scoped5.sem) 0
          ∗ semVal (VT d L, SemLoc.dma cc1_scoped6.sem) 0
          ∗ semVal (VT d L, SemLoc.dma cc1_scoped7.sem) 0
          ∗ semVal (VT d L, SemLoc.dma cc1_scoped8.sem) 0
          ∗ semVal (VT d L, SemLoc.dma cc1_scoped9.sem) 0
          ∗ semVal (VT d L, SemLoc.dma cc1_scoped10.sem) 0
          ∗ semVal (VT d L, SemLoc.dma cc1_scoped11.sem) 0
          ∗ semVal (VT d L, SemLoc.dma cc1_scoped12.sem) 0
          ∗ semVal (VT d L, SemLoc.dma cc1_scoped13.sem) 0
          ∗ semVal (VT d L, SemLoc.dma cc1_scoped14.sem) 0
          ∗ semVal (VT d L, SemLoc.dma cc1_scoped15.sem) 0
          ∗ semVal (VT d L, SemLoc.dma cc1_scoped16.sem) 0
          ∗ semVal (VT d L, SemLoc.dma cc1_scoped17.sem) 0
          ∗ semVal (VT d L, SemLoc.dma cc1_scoped18.sem) 0
          ∗ semVal (VT d L, SemLoc.dma cc1_scoped19.sem) 0
          ∗ semVal (VT d L, SemLoc.dma cc1_scoped20.sem) 0
          ∗ semVal (VT d L, SemLoc.dma cc1_scoped21.sem) 0
          ∗ semVal (VT d L, SemLoc.dma cc1_scoped22.sem) 0
          ∗ semVal (VT d L, SemLoc.dma cc1_scoped23.sem) 0
          ∗ semVal (VT d L, SemLoc.dma cc1_scoped24.sem) 0)
          ∗ bigSep (restCells d L) fun g => semVal g 0) := by
  unfold SparseCore.Cfg.ownSems0
  rw [SparseCore.bigSep_sdiff_split' (kSems_sub d L), bigSep_map]
  congr 1
  unfold kSems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The three scratch buffers are among the subcore's own: they are them, at some contents, and the rest. -/
theorem ownBufs_V (d : Dev nD) (L : grid1.Coords) :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV L) (jV L)) (b := (Proc.scVector (cV L) (jV L)).devRef cc1_scratch2) rfl⟩⟩)]

/-! ## What the index scratch holds after the five fetches -/

section Idx

variable (d : Dev nD) (L : grid1.Coords)

/-- The offsets of the five fetched blocks in the index scratch: block `i` is rows `4 i … + 4`. -/
abbrev idxOff (i : Fin 5) : Fin 2 → ℕ := ![4 * i.val, 0]

theorem idxOff_inb : ∀ (i : Fin 5) (a : Fin 2), idxOff i a + S4x128.size a ≤ S20x128.size a := by decide

/-- An element of the index scratch after the five fetches, over whatever it held before: row `4 i + r` is row `r` of
    the `i`-th fetched block. -/
theorem read_idxScratch (g : Buf (Elt F) ((sI).view.loc (VT d L))) (p0 p1 p2 p3 p4 : S4x128.Idx → Elt F .i32)
    (y : S20x128.Idx) (i : Fin 5) (x : S4x128.Idx) (hx0 : (y 0).val = 4 * i.val + (x 0).val) (hx1 : (y 1).val = (x 1).val) :
    (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y
    = (![p0, p1, p2, p3, p4] : Fin 5 → S4x128.Idx → Elt F .i32) i x := by
  have hx : ∀ a : Fin 2, (y a).val = idxOff i a + (x a).val :=
    Fin.forall_fin_two.mpr ⟨hx0, by rw [hx1]; exact (Nat.zero_add _).symm⟩
  have hlt : (x 0).val < 4 := (x 0).isLt
  exact View.read_tilePieces (sI).view g S4x128.size idxOff idxOff_inb (![p0, p1, p2, p3, p4] : Fin 5 → S4x128.Idx → Elt F .i32) 5 le_rfl y i i.isLt x hx 0
    (fun i' hne => by
      have hv : i'.val ≠ i.val := fun e => hne (Fin.ext e)
      show (y 0).val < 4 * i'.val ∨ 4 * i'.val + 4 ≤ (y 0).val
      omega)

/-- Row `n` of the index scratch as a gather addresses it: a list of 128 words. -/
abbrev idxRow (n : ℕ) (hk : ∀ a, (![n, 0] : Fin 2 → ℕ) a + S1x128.size a ≤ S20x128.size a) : Memref sig .scVector .vmem S128 .i32 :=
  ((sI).slice (Rect.unit (s := S20x128) ![n, 0] S1x128.size hk) (fun _ => rfl)).squeeze S128 squeezes_S1x128_S128

/-- A word of row `n` of the scratch is the scratch's word at row `n`, some column. -/
theorem read_idxRow (n : ℕ) (hk) (c : Buf (Elt F) ((sI).view.loc (VT d L))) (x : S128.Idx) :
    ∃ y : S20x128.Idx, (y 0).val = n ∧ (idxRow n hk).view.read (Elt F) c x = (sI).view.read (Elt F) c y := by
  refine ⟨(Rect.unit (s := S20x128) ![n, 0] S1x128.size hk).emb ((Shape.reshapeEquiv squeezes_S1x128_S128.numel_eq) x), ?_, ?_⟩
  · have h1 : (((Shape.reshapeEquiv squeezes_S1x128_S128.numel_eq) x) 0).val < 1 := (((Shape.reshapeEquiv squeezes_S1x128_S128.numel_eq) x) 0).isLt
    show n + 1 * (((Shape.reshapeEquiv squeezes_S1x128_S128.numel_eq) x) 0).val = n
    omega
  · rw [View.read_apply, View.read_apply]; rfl

/-- The words of row `n` of the scratch after the five fetches are below `B` when the fetched block holding the row is. -/
theorem idxRow_lt (g : Buf (Elt F) ((sI).view.loc (VT d L))) (p0 p1 p2 p3 p4 : S4x128.Idx → Elt F .i32) (B : ℕ)
    (n : ℕ) (hk) (i : Fin 5) (hn : 4 * i.val ≤ n ∧ n < 4 * i.val + 4)
    (hp : ∀ z, (((![p0, p1, p2, p3, p4] : Fin 5 → S4x128.Idx → Elt F .i32) i) z).toNat < B) :
    ∀ x, ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) x).toNat < B := by
  intro x
  obtain ⟨y, hy0, hy⟩ := read_idxRow d L n hk ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) x
  rw [hy, read_idxScratch d L g p0 p1 p2 p3 p4 y i (fun | 0 => ⟨(y 0).val - 4 * i.val, by show (y 0).val - 4 * i.val < 4; omega⟩ | 1 => y 1)
    (by show (y 0).val = 4 * i.val + ((y 0).val - 4 * i.val); omega) rfl]
  exact hp _

/-- A word read through a window of the entity index array is a word of the array. -/
theorem readA_lt (X24 : Buf (Elt F) (aLoc d)) (B : ℕ) (h24 : ∀ j : S512x128.Idx, (X24 j).toNat < B) (w : BitVec 32) (h) (z : S4x128.Idx) :
    (ReadAs.same.apply (View.read (Elt F) ((aV).slice (Rect.unit (s := S512x128) (k1_off1 L w) S4x128.size h) (fun _ => rfl)).view X24) z).toNat < B := by
  rw [ReadAs.apply_same, (View.read_apply _ _).trans (cast_eq _ _)]; exact h24 _
/-- A word read through the window of the relation index array is a word of the array. -/
theorem readB_lt (X25 : Buf (Elt F) (bLoc d)) (B : ℕ) (h25 : ∀ j : S128x128.Idx, (X25 j).toNat < B) (h) (z : S4x128.Idx) :
    (ReadAs.same.apply (View.read (Elt F) ((bV).slice (Rect.unit (s := S128x128) (k1_off2 L) S4x128.size h) (fun _ => rfl)).view X25) z).toNat < B := by
  rw [ReadAs.apply_same, (View.read_apply _ _).trans (cast_eq _ _)]; exact h25 _

end Idx

/-! ## The values: what a gather delivers and what a window holds after its copy -/

section Val

variable (d : Dev nD) (L : grid1.Coords)

/-- The one coordinate of a list index at row-major position `t` is `t`. -/
theorem list_coord (t : Fin S128.numel) : ((S128.rowMajor.symm t) 0).val = t.val := by
  have h := Shape.rowMajor_val_one (d := ![128]) (S128.rowMajor.symm t)
  rw [← h]
  exact congrArg Fin.val (S128.rowMajor.apply_symm_apply t)

/-- The word at position `x` of row `n` of the index scratch is the scratch's word `(n, x)`. -/
theorem read_idxRow_at (n : ℕ) (hk) (c : Buf (Elt F) ((sI).view.loc (VT d L))) (x : S128.Idx) (y : S20x128.Idx)
    (hy0 : (y 0).val = n) (hy1 : (y 1).val = (x 0).val) :
    (idxRow n hk).view.read (Elt F) c x = (sI).view.read (Elt F) c y := by
  have e : (Rect.unit (s := S20x128) ![n, 0] S1x128.size hk).emb ((Shape.reshapeEquiv squeezes_S1x128_S128.numel_eq) x) = y := by
    rw [Shape.reshapeEquiv_cons_one]
    funext a
    apply Fin.ext
    match a with
    | 0 => show n + 1 * 0 = (y 0).val; omega
    | 1 => show 0 + 1 * (x 0).val = (y 1).val; omega
  rw [← e, View.read_apply, View.read_apply]; rfl

/-- A row buffer just written whole reads what was written. -/
theorem read_rowsBuf (M : Memref sig .scVector .vmem S128x128 .f32) (f : Buf (Elt F) (M.view.loc (VT d L)))
    (G : S128x128.Idx → Elt F .f32) (tl : List (View.Piece (Elt F) S128x128 .f32)) (z : S128x128.Idx) :
    M.view.read (Elt F) (M.view.writes (Elt F) f ((⟨Rect.whole S128x128, G⟩ : View.Piece (Elt F) S128x128 .f32) :: tl)) z = G z := by
  have h := View.read_writes_cons_emb M.view f (Rect.whole S128x128) G tl z
  rwa [Rect.emb_whole_apply] at h

/-- What the gather of the entity table by row `n` of the scratch delivers at `z`: column `z 1` of the table's row named by the
    scratch's word `(n, z 0)`. -/
theorem gatherE_val (X5 : Buf (Elt F) (eLoc d)) (n : ℕ) (hk) (C : Buf (Elt F) ((sI).view.loc (VT d L)))
    (hn : S128.numel = S128x128.size gathers_S500000x128_S128x128.axis')
    (hin : ∀ x, ((idxRow n hk).view.read (Elt F) C x).toNat < S500000x128.size gathers_S500000x128_S128x128.axis)
    (z : S128x128.Idx) (y : S20x128.Idx) (hy0 : (y 0).val = n) (hy1 : (y 1).val = (z 0).val) (t : S500000x128.Idx)
    (ht0 : (t 0).val = ((sI).view.read (Elt F) C y).toNat) (ht1 : (t 1).val = (z 1).val) :
    SparseCore.gatherPayload gathers_S500000x128_S128x128
      (View.read (Elt F) ((eV).slice (Rect.unit (s := S500000x128) ![0, 0] S500000x128.size inb_S500000x128_S500000x128_0_0) (fun _ => rfl)).view X5)
      (SparseCore.rows ((idxRow n hk).view.read (Elt F) C) hn hin) z
    = X5 t := by
  unfold SparseCore.gatherPayload
  rw [(View.read_apply _ _).trans (cast_eq _ _)]
  refine congrArg X5 ?_
  funext a
  apply Fin.ext
  match a with
  | 0 =>
    show 0 + 1 * ((gathers_S500000x128_S128x128.idx (SparseCore.rows ((idxRow n hk).view.read (Elt F) C) hn hin) z) gathers_S500000x128_S128x128.axis).val = (t 0).val
    rw [Nat.zero_add, Nat.one_mul, ht0, Shape.Gathers.idx_axis]
    show ((idxRow n hk).view.read (Elt F) C (S128.rowMajor.symm (Fin.cast _ (z 0)))).toNat = _
    rw [read_idxRow_at d L n hk C _ y hy0 (by rw [hy1, list_coord]; rfl)]
  | 1 =>
    show 0 + 1 * ((gathers_S500000x128_S128x128.idx (SparseCore.rows ((idxRow n hk).view.read (Elt F) C) hn hin) z) 1).val = (t 1).val
    rw [Nat.zero_add, Nat.one_mul, ht1]
    exact Shape.Gathers.idx_of_ne gathers_S500000x128_S128x128 _ z 1 (by decide)

/-- What the gather of the relation table by row `n` of the scratch delivers at `z`: column `z 1` of the table's row named by the
    scratch's word `(n, z 0)`. -/
theorem gatherR_val (X6 : Buf (Elt F) (rLoc d)) (n : ℕ) (hk) (C : Buf (Elt F) ((sI).view.loc (VT d L)))
    (hn : S128.numel = S128x128.size gathers_S500x128_S128x128.axis')
    (hin : ∀ x, ((idxRow n hk).view.read (Elt F) C x).toNat < S500x128.size gathers_S500x128_S128x128.axis)
    (z : S128x128.Idx) (y : S20x128.Idx) (hy0 : (y 0).val = n) (hy1 : (y 1).val = (z 0).val) (t : S500x128.Idx)
    (ht0 : (t 0).val = ((sI).view.read (Elt F) C y).toNat) (ht1 : (t 1).val = (z 1).val) :
    SparseCore.gatherPayload gathers_S500x128_S128x128
      (View.read (Elt F) ((rV).slice (Rect.unit (s := S500x128) ![0, 0] S500x128.size inb_S500x128_S500x128_0_0) (fun _ => rfl)).view X6)
      (SparseCore.rows ((idxRow n hk).view.read (Elt F) C) hn hin) z
    = X6 t := by
  unfold SparseCore.gatherPayload
  rw [(View.read_apply _ _).trans (cast_eq _ _)]
  refine congrArg X6 ?_
  funext a
  apply Fin.ext
  match a with
  | 0 =>
    show 0 + 1 * ((gathers_S500x128_S128x128.idx (SparseCore.rows ((idxRow n hk).view.read (Elt F) C) hn hin) z) gathers_S500x128_S128x128.axis).val = (t 0).val
    rw [Nat.zero_add, Nat.one_mul, ht0, Shape.Gathers.idx_axis]
    show ((idxRow n hk).view.read (Elt F) C (S128.rowMajor.symm (Fin.cast _ (z 0)))).toNat = _
    rw [read_idxRow_at d L n hk C _ y hy0 (by rw [hy1, list_coord]; rfl)]
  | 1 =>
    show 0 + 1 * ((gathers_S500x128_S128x128.idx (SparseCore.rows ((idxRow n hk).view.read (Elt F) C) hn hin) z) 1).val = (t 1).val
    rw [Nat.zero_add, Nat.one_mul, ht1]
    exact Shape.Gathers.idx_of_ne gathers_S500x128_S128x128 _ z 1 (by decide)

/-- A word fetched from the entity index array, by its place in the array. -/
theorem readA_at (X24 : Buf (Elt F) (aLoc d)) (r4 : Fin 4) (w : BitVec 32) (hw : w = BitVec.ofNat 32 (128 * r4.val)) (h)
    (x : S4x128.Idx) (u : S512x128.Idx)
    (hu0 : (u 0).val = 128 * r4.val + 8 * (L 1).val + 4 * (L 0).val + (x 0).val) (hu1 : (u 1).val = (x 1).val) :
    ReadAs.same.apply (View.read (Elt F) ((aV).slice (Rect.unit (s := S512x128) (k1_off1 L w) S4x128.size h) (fun _ => rfl)).view X24) x = X24 u := by
  subst hw
  rw [ReadAs.apply_same, (View.read_apply _ _).trans (cast_eq _ _)]
  refine congrArg X24 ?_
  funext a
  apply Fin.ext
  match a with
  | 0 =>
    show (k1_off1 L (BitVec.ofNat 32 (128 * r4.val))) 0 + 1 * (x 0).val = (u 0).val
    rw [k1_off1_eq L r4, hu0]
    show 128 * r4.val + 8 * (L 1).val + 4 * (L 0).val + 1 * (x 0).val = _
    omega
  | 1 =>
    show (k1_off1 L (BitVec.ofNat 32 (128 * r4.val))) 1 + 1 * (x 1).val = (u 1).val
    rw [k1_off1_eq L r4, hu1]
    show 0 + 1 * (x 1).val = _
    omega

/-- A word fetched from the relation index array, by its place in the array. -/
theorem readB_at (X25 : Buf (Elt F) (bLoc d)) (h) (x : S4x128.Idx) (u : S128x128.Idx)
    (hu0 : (u 0).val = 8 * (L 1).val + 4 * (L 0).val + (x 0).val) (hu1 : (u 1).val = (x 1).val) :
    ReadAs.same.apply (View.read (Elt F) ((bV).slice (Rect.unit (s := S128x128) (k1_off2 L) S4x128.size h) (fun _ => rfl)).view X25) x = X25 u := by
  rw [ReadAs.apply_same, (View.read_apply _ _).trans (cast_eq _ _)]
  refine congrArg X25 ?_
  funext a
  apply Fin.ext
  match a with
  | 0 =>
    show (k1_off2 L) 0 + 1 * (x 0).val = (u 0).val
    rw [k1_off2_eq L, hu0]
    show 8 * (L 1).val + 4 * (L 0).val + 1 * (x 0).val = _
    omega
  | 1 =>
    show (k1_off2 L) 1 + 1 * (x 1).val = (u 1).val
    rw [k1_off2_eq L, hu1]
    show 0 + 1 * (x 1).val = _
    omega

/-- The entity results' function at a row, by the places of the index word and of the table row. -/
theorem gathE_apply (X5 : Buf (Elt F) (eLoc d)) (X24 : Buf (Elt F) (aLoc d)) (k : Fin 4) (b : S16384x128.Idx)
    (t : S500000x128.Idx) (u : S512x128.Idx) (hu0 : (u 0).val = 128 * k.val + (b 0).val / 128) (hu1 : (u 1).val = (b 0).val % 128)
    (ht0 : (t 0).val = (X24 u).toNat % 500000) (ht1 : (t 1).val = (b 1).val) : gathE d X5 X24 k b = X5 t := by
  unfold gathE
  refine congrArg X5 ?_
  funext a
  apply Fin.ext
  match a with
  | 0 =>
    rw [ht0]
    refine congrArg (fun v => (X24 v).toNat % 500000) ?_
    funext a'
    apply Fin.ext
    match a' with
    | 0 => exact hu0.symm
    | 1 => exact hu1.symm
  | 1 => exact ht1.symm

/-- The relation result's function at a row, likewise. -/
theorem gathR_apply (X6 : Buf (Elt F) (rLoc d)) (X25 : Buf (Elt F) (bLoc d)) (b : S16384x128.Idx)
    (t : S500x128.Idx) (u : S128x128.Idx) (hu0 : (u 0).val = (b 0).val / 128) (hu1 : (u 1).val = (b 0).val % 128)
    (ht0 : (t 0).val = (X25 u).toNat % 500) (ht1 : (t 1).val = (b 1).val) : gathR d X6 X25 b = X6 t := by
  unfold gathR
  refine congrArg X6 ?_
  funext a
  apply Fin.ext
  match a with
  | 0 =>
    rw [ht0]
    refine congrArg (fun v => (X25 v).toNat % 500) ?_
    funext a'
    apply Fin.ext
    match a' with
    | 0 => exact hu0.symm
    | 1 => exact hu1.symm
  | 1 => exact ht1.symm

/-- Gather `4 k + j` (entity result `k`, window `j`) delivers, at `z`, the result's function at row
    `(4 w + j) * 128 + z 0`, column `z 1`. -/
theorem payE_val (k j : Fin 4) (X5 : Buf (Elt F) (eLoc d)) (X24 : Buf (Elt F) (aLoc d)) (h24 : ∀ u : S512x128.Idx, (X24 u).toNat < 500000)
    (g : Buf (Elt F) ((sI).view.loc (VT d L))) (p0 p1 p2 p3 p4 : S4x128.Idx → Elt F .i32)
    (hp : ∀ (x : S4x128.Idx) (u : S512x128.Idx), (u 0).val = 128 * k.val + 8 * (L 1).val + 4 * (L 0).val + (x 0).val → (u 1).val = (x 1).val →
      (![p0, p1, p2, p3, p4] : Fin 5 → S4x128.Idx → Elt F .i32) ⟨k.val, by have := k.isLt; omega⟩ x = X24 u)
    (n : ℕ) (hnk : n = 4 * k.val + j.val) (hk) (hn) (hin)
    (z : S128x128.Idx) (b : S16384x128.Idx) (hb0 : (b 0).val = 1024 * (L 1).val + 512 * (L 0).val + 128 * j.val + (z 0).val) (hb1 : (b 1).val = (z 1).val) :
    SparseCore.gatherPayload gathers_S500000x128_S128x128
      (View.read (Elt F) ((eV).slice (Rect.unit (s := S500000x128) ![0, 0] S500000x128.size inb_S500000x128_S500000x128_0_0) (fun _ => rfl)).view X5)
      (SparseCore.rows ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩])) hn hin) z
    = gathE d X5 X24 k b := by
  subst hnk
  have hz0 : (z 0).val < 128 := (z 0).isLt
  have hL0 : (L 0).val < 2 := (L 0).isLt
  have hL1 : (L 1).val < 16 := (L 1).isLt
  have hkk := k.isLt
  have hjj := j.isLt
  have hu0' : 128 * k.val + (b 0).val / 128 = 128 * k.val + 8 * (L 1).val + 4 * (L 0).val + j.val := by rw [hb0]; omega
  have hu1' : (b 0).val % 128 = (z 0).val := by rw [hb0]; omega
  let y : S20x128.Idx := fun | 0 => ⟨4 * k.val + j.val, by show _ < 20; omega⟩ | 1 => ⟨(z 0).val, hz0⟩
  let x : S4x128.Idx := fun | 0 => ⟨j.val, hjj⟩ | 1 => ⟨(z 0).val, hz0⟩
  let u : S512x128.Idx := fun | 0 => ⟨128 * k.val + (b 0).val / 128, by show _ < 512; omega⟩ | 1 => ⟨(b 0).val % 128, Nat.mod_lt _ (by decide)⟩
  have e1 : (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y = X24 u := by
    rw [read_idxScratch d L g p0 p1 p2 p3 p4 y ⟨k.val, by omega⟩ x rfl rfl]
    exact hp x u hu0' hu1'
  let t : S500000x128.Idx := fun | 0 => ⟨(X24 u).toNat % 500000, Nat.mod_lt _ (by decide)⟩ | 1 => b 1
  rw [gathE_apply d X5 X24 k b t u rfl rfl rfl rfl]
  exact gatherE_val d L X5 _ hk _ hn hin z y rfl rfl t (by show (X24 u).toNat % 500000 = _; rw [e1]; exact Nat.mod_eq_of_lt (h24 u)) hb1

/-- Gather `16 + j` (the relation result, window `j`) delivers, at `z`, the result's function at row
    `(4 w + j) * 128 + z 0`, column `z 1`. -/
theorem payR_val (j : Fin 4) (X6 : Buf (Elt F) (rLoc d)) (X25 : Buf (Elt F) (bLoc d)) (h25 : ∀ u : S128x128.Idx, (X25 u).toNat < 500)
    (g : Buf (Elt F) ((sI).view.loc (VT d L))) (p0 p1 p2 p3 p4 : S4x128.Idx → Elt F .i32)
    (hp : ∀ (x : S4x128.Idx) (u : S128x128.Idx), (u 0).val = 8 * (L 1).val + 4 * (L 0).val + (x 0).val → (u 1).val = (x 1).val → p4 x = X25 u)
    (n : ℕ) (hnk : n = 16 + j.val) (hk) (hn) (hin)
    (z : S128x128.Idx) (b : S16384x128.Idx) (hb0 : (b 0).val = 1024 * (L 1).val + 512 * (L 0).val + 128 * j.val + (z 0).val) (hb1 : (b 1).val = (z 1).val) :
    SparseCore.gatherPayload gathers_S500x128_S128x128
      (View.read (Elt F) ((rV).slice (Rect.unit (s := S500x128) ![0, 0] S500x128.size inb_S500x128_S500x128_0_0) (fun _ => rfl)).view X6)
      (SparseCore.rows ((idxRow n hk).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩])) hn hin) z
    = gathR d X6 X25 b := by
  subst hnk
  have hz0 : (z 0).val < 128 := (z 0).isLt
  have hL0 : (L 0).val < 2 := (L 0).isLt
  have hL1 : (L 1).val < 16 := (L 1).isLt
  have hjj := j.isLt
  have hu0' : (b 0).val / 128 = 8 * (L 1).val + 4 * (L 0).val + j.val := by rw [hb0]; omega
  have hu1' : (b 0).val % 128 = (z 0).val := by rw [hb0]; omega
  let y : S20x128.Idx := fun | 0 => ⟨16 + j.val, by show _ < 20; omega⟩ | 1 => ⟨(z 0).val, hz0⟩
  let x : S4x128.Idx := fun | 0 => ⟨j.val, hjj⟩ | 1 => ⟨(z 0).val, hz0⟩
  let u : S128x128.Idx := fun | 0 => ⟨(b 0).val / 128, by show _ < 128; omega⟩ | 1 => ⟨(b 0).val % 128, Nat.mod_lt _ (by decide)⟩
  have e1 : (sI).view.read (Elt F) ((sI).view.writes (Elt F) g
      [⟨Rect.unit (s := S20x128) ![16, 0] S4x128.size inb_S20x128_S4x128_16_0, p4⟩,
       ⟨Rect.unit (s := S20x128) ![12, 0] S4x128.size inb_S20x128_S4x128_12_0, p3⟩,
       ⟨Rect.unit (s := S20x128) ![8, 0] S4x128.size inb_S20x128_S4x128_8_0, p2⟩,
       ⟨Rect.unit (s := S20x128) ![4, 0] S4x128.size inb_S20x128_S4x128_4_0, p1⟩,
       ⟨Rect.unit (s := S20x128) ![0, 0] S4x128.size inb_S20x128_S4x128_0_0, p0⟩]) y = X25 u := by
    rw [read_idxScratch d L g p0 p1 p2 p3 p4 y 4 x rfl rfl]
    exact hp x u hu0' hu1'
  let t : S500x128.Idx := fun | 0 => ⟨(X25 u).toNat % 500, Nat.mod_lt _ (by decide)⟩ | 1 => b 1
  rw [gathR_apply d X6 X25 b t u rfl rfl rfl rfl]
  exact gatherR_val d L X6 _ hk _ hn hin z y rfl rfl t (by show (X25 u).toNat % 500 = _; rw [e1]; exact Nat.mod_eq_of_lt (h25 u)) hb1

/-- A window of result 0 after the copy of a row buffer into it holds, on its own elements, a function `G` of the
    whole result that the buffer's contents agree with row by row. -/
theorem win0_val (j : Fin 4) (w : BitVec 32) (hw : w = BitVec.ofNat 32 j.val) (h) (Y : Buf (Elt F) (o0Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o0V).slice (Rect.unit (s := S16384x128) (k1_off3 L w) S128x128.size h) (fun _ => rfl)).view.set,
      (((o0V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o0V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 1 after the copy of a row buffer into it holds, on its own elements, a function `G` of the
    whole result that the buffer's contents agree with row by row. -/
theorem win1_val (j : Fin 4) (w : BitVec 32) (hw : w = BitVec.ofNat 32 j.val) (h) (Y : Buf (Elt F) (o1Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o1V).slice (Rect.unit (s := S16384x128) (k1_off3 L w) S128x128.size h) (fun _ => rfl)).view.set,
      (((o1V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o1V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 2 after the copy of a row buffer into it holds, on its own elements, a function `G` of the
    whole result that the buffer's contents agree with row by row. -/
theorem win2_val (j : Fin 4) (w : BitVec 32) (hw : w = BitVec.ofNat 32 j.val) (h) (Y : Buf (Elt F) (o2Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o2V).slice (Rect.unit (s := S16384x128) (k1_off3 L w) S128x128.size h) (fun _ => rfl)).view.set,
      (((o2V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o2V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 3 after the copy of a row buffer into it holds, on its own elements, a function `G` of the
    whole result that the buffer's contents agree with row by row. -/
theorem win3_val (j : Fin 4) (w : BitVec 32) (hw : w = BitVec.ofNat 32 j.val) (h) (Y : Buf (Elt F) (o3Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o3V).slice (Rect.unit (s := S16384x128) (k1_off3 L w) S128x128.size h) (fun _ => rfl)).view.set,
      (((o3V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o3V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

/-- A window of result 4 after the copy of a row buffer into it holds, on its own elements, a function `G` of the
    whole result that the buffer's contents agree with row by row. -/
theorem win4_val (j : Fin 4) (w : BitVec 32) (hw : w = BitVec.ofNat 32 j.val) (h) (Y : Buf (Elt F) (o4Loc d))
    (pay : S128x128.Idx → Elt F .f32) (G : S16384x128.Idx → Elt F .f32)
    (hpay : ∀ (z : S128x128.Idx) (b : S16384x128.Idx),
      (b 0).val = 1024 * (L 1).val + 512 * (L 0).val + 128 * j.val + (z 0).val → (b 1).val = (z 1).val → pay z = G b) :
    ∀ i ∈ ((o4V).slice (Rect.unit (s := S16384x128) (k1_off3 L w) S128x128.size h) (fun _ => rfl)).view.set,
      (((o4V).slice (Rect.unit (s := S16384x128) (k1_off3 L w) S128x128.size h) (fun _ => rfl)).view.writes (Elt F) Y
        [⟨Rect.whole S128x128, pay⟩]) i = G i := by
  subst hw
  intro i hi
  obtain ⟨z, -, rfl⟩ := Finset.mem_map.mp hi
  have h1 := congrFun (View.read_writes_whole ((o4V).slice (Rect.unit (s := S16384x128) (k1_off3 L (BitVec.ofNat 32 j.val)) S128x128.size h) (fun _ => rfl)).view Y pay) z
  rw [(View.read_apply _ _).trans (cast_eq _ _)] at h1
  refine h1.trans (hpay z _ ?_ ?_)
  · have e0 : (k1_off3 L (BitVec.ofNat 32 j.val)) 0 = 1024 * (L 1).val + 512 * (L 0).val + 128 * j.val := congrFun (k1_off3_eq L j) 0
    show (k1_off3 L (BitVec.ofNat 32 j.val)) 0 + 1 * (z 0).val = _
    omega
  · have e1 : (k1_off3 L (BitVec.ofNat 32 j.val)) 1 = 0 := congrFun (k1_off3_eq L j) 1
    show (k1_off3 L (BitVec.ofNat 32 j.val)) 1 + 1 * (z 1).val = _
    omega

end Val

/-! ## The body, step by step -/

section Tile

variable [FloatOps F]
variable (d : Dev nD) (L : grid1.Coords)

set_option maxHeartbeats 32000000 in
set_option maxRecDepth 65536 in
/-- The kernel from the resources as the vector subcore addresses them, each table under two read shares (two gathers
    of one table are in flight at once), to the same resources back, each window of a result at the gathered rows. -/
theorem tile_run (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (fi : Buf (Elt F) ((sI).view.loc (VT d L))) (fa : Buf (Elt F) ((sA).view.loc (VT d L))) (fb : Buf (Elt F) ((sB).view.loc (VT d L)))
    (h24 : ∀ j : S512x128.Idx, (X24 j).toNat < 500000) (h25 : ∀ j : S128x128.Idx, (X25 j).toNat < 500)
    (O : CellTallies nD τ sig (HIx 1)) (W : Waits sig (HIx 1)) :
    (iprop(Transfers.MayWaits (VT d L) (default : HIx 1) O
        ∗ ((eV).view.loc (VT d L) ↦{q.left} X5)
        ∗ ((eV).view.loc (VT d L) ↦{q.right} X5)
        ∗ ((rV).view.loc (VT d L) ↦{q.left} X6)
        ∗ ((rV).view.loc (VT d L) ↦{q.right} X6)
        ∗ ((aV).view.loc (VT d L) ↦{q} X24)
        ∗ ((bV).view.loc (VT d L) ↦{q} X25)
        ∗ ((oC0_0 L).view.loc (VT d L) ↦[(oC0_0 L).view.set]{fullShare} Y0)
        ∗ ((oC0_1 L).view.loc (VT d L) ↦[(oC0_1 L).view.set]{fullShare} Y0)
        ∗ ((oC0_2 L).view.loc (VT d L) ↦[(oC0_2 L).view.set]{fullShare} Y0)
        ∗ ((oC0_3 L).view.loc (VT d L) ↦[(oC0_3 L).view.set]{fullShare} Y0)
        ∗ ((oC1_0 L).view.loc (VT d L) ↦[(oC1_0 L).view.set]{fullShare} Y1)
        ∗ ((oC1_1 L).view.loc (VT d L) ↦[(oC1_1 L).view.set]{fullShare} Y1)
        ∗ ((oC1_2 L).view.loc (VT d L) ↦[(oC1_2 L).view.set]{fullShare} Y1)
        ∗ ((oC1_3 L).view.loc (VT d L) ↦[(oC1_3 L).view.set]{fullShare} Y1)
        ∗ ((oC2_0 L).view.loc (VT d L) ↦[(oC2_0 L).view.set]{fullShare} Y2)
        ∗ ((oC2_1 L).view.loc (VT d L) ↦[(oC2_1 L).view.set]{fullShare} Y2)
        ∗ ((oC2_2 L).view.loc (VT d L) ↦[(oC2_2 L).view.set]{fullShare} Y2)
        ∗ ((oC2_3 L).view.loc (VT d L) ↦[(oC2_3 L).view.set]{fullShare} Y2)
        ∗ ((oC3_0 L).view.loc (VT d L) ↦[(oC3_0 L).view.set]{fullShare} Y3)
        ∗ ((oC3_1 L).view.loc (VT d L) ↦[(oC3_1 L).view.set]{fullShare} Y3)
        ∗ ((oC3_2 L).view.loc (VT d L) ↦[(oC3_2 L).view.set]{fullShare} Y3)
        ∗ ((oC3_3 L).view.loc (VT d L) ↦[(oC3_3 L).view.set]{fullShare} Y3)
        ∗ ((oC4_0 L).view.loc (VT d L) ↦[(oC4_0 L).view.set]{fullShare} Y4)
        ∗ ((oC4_1 L).view.loc (VT d L) ↦[(oC4_1 L).view.set]{fullShare} Y4)
        ∗ ((oC4_2 L).view.loc (VT d L) ↦[(oC4_2 L).view.set]{fullShare} Y4)
        ∗ ((oC4_3 L).view.loc (VT d L) ↦[(oC4_3 L).view.set]{fullShare} Y4)
        ∗ ((sI).view.loc (VT d L) ↦{fullShare} fi)
        ∗ ((sA).view.loc (VT d L) ↦{fullShare} fa)
        ∗ ((sB).view.loc (VT d L) ↦{fullShare} fb)
        ∗ semVal (VT d L, SemLoc.dma cc1_scratch3.sem) 0
        ∗ semVal (VT d L, SemLoc.dma cc1_scratch4.sem) 0
        ∗ semVal (VT d L, SemLoc.dma cc1_scoped0.sem) 0
        ∗ semVal (VT d L, SemLoc.dma cc1_scoped1.sem) 0
        ∗ semVal (VT d L, SemLoc.dma cc1_scoped2.sem) 0
        ∗ semVal (VT d L, SemLoc.dma cc1_scoped3.sem) 0
        ∗ semVal (VT d L, SemLoc.dma cc1_scoped4.sem) 0
        ∗ semVal (VT d L, SemLoc.dma cc1_scoped5.sem) 0
        ∗ semVal (VT d L, SemLoc.dma cc1_scoped6.sem) 0
        ∗ semVal (VT d L, SemLoc.dma cc1_scoped7.sem) 0
        ∗ semVal (VT d L, SemLoc.dma cc1_scoped8.sem) 0
        ∗ semVal (VT d L, SemLoc.dma cc1_scoped9.sem) 0
        ∗ semVal (VT d L, SemLoc.dma cc1_scoped10.sem) 0
        ∗ semVal (VT d L, SemLoc.dma cc1_scoped11.sem) 0
        ∗ semVal (VT d L, SemLoc.dma cc1_scoped12.sem) 0
        ∗ semVal (VT d L, SemLoc.dma cc1_scoped13.sem) 0
        ∗ semVal (VT d L, SemLoc.dma cc1_scoped14.sem) 0
        ∗ semVal (VT d L, SemLoc.dma cc1_scoped15.sem) 0
        ∗ semVal (VT d L, SemLoc.dma cc1_scoped16.sem) 0
        ∗ semVal (VT d L, SemLoc.dma cc1_scoped17.sem) 0
        ∗ semVal (VT d L, SemLoc.dma cc1_scoped18.sem) 0
        ∗ semVal (VT d L, SemLoc.dma cc1_scoped19.sem) 0
        ∗ semVal (VT d L, SemLoc.dma cc1_scoped20.sem) 0
        ∗ semVal (VT d L, SemLoc.dma cc1_scoped21.sem) 0
        ∗ semVal (VT d L, SemLoc.dma cc1_scoped22.sem) 0
        ∗ semVal (VT d L, SemLoc.dma cc1_scoped23.sem) 0
        ∗ semVal (VT d L, SemLoc.dma cc1_scoped24.sem) 0
        ∗ owes (VT d L) O W) : sProp 𝕄)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(((eV).view.loc (VT d L) ↦{q.left} X5)
            ∗ ((eV).view.loc (VT d L) ↦{q.right} X5)
            ∗ ((rV).view.loc (VT d L) ↦{q.left} X6)
            ∗ ((rV).view.loc (VT d L) ↦{q.right} X6)
            ∗ ((aV).view.loc (VT d L) ↦{q} X24)
            ∗ ((bV).view.loc (VT d L) ↦{q} X25)
            ∗ ((oC0_0 L).view.loc (VT d L) ↦[(oC0_0 L).view.set]{fullShare} gathE d X5 X24 0)
            ∗ ((oC0_1 L).view.loc (VT d L) ↦[(oC0_1 L).view.set]{fullShare} gathE d X5 X24 0)
            ∗ ((oC0_2 L).view.loc (VT d L) ↦[(oC0_2 L).view.set]{fullShare} gathE d X5 X24 0)
            ∗ ((oC0_3 L).view.loc (VT d L) ↦[(oC0_3 L).view.set]{fullShare} gathE d X5 X24 0)
            ∗ ((oC1_0 L).view.loc (VT d L) ↦[(oC1_0 L).view.set]{fullShare} gathE d X5 X24 1)
            ∗ ((oC1_1 L).view.loc (VT d L) ↦[(oC1_1 L).view.set]{fullShare} gathE d X5 X24 1)
            ∗ ((oC1_2 L).view.loc (VT d L) ↦[(oC1_2 L).view.set]{fullShare} gathE d X5 X24 1)
            ∗ ((oC1_3 L).view.loc (VT d L) ↦[(oC1_3 L).view.set]{fullShare} gathE d X5 X24 1)
            ∗ ((oC2_0 L).view.loc (VT d L) ↦[(oC2_0 L).view.set]{fullShare} gathE d X5 X24 2)
            ∗ ((oC2_1 L).view.loc (VT d L) ↦[(oC2_1 L).view.set]{fullShare} gathE d X5 X24 2)
            ∗ ((oC2_2 L).view.loc (VT d L) ↦[(oC2_2 L).view.set]{fullShare} gathE d X5 X24 2)
            ∗ ((oC2_3 L).view.loc (VT d L) ↦[(oC2_3 L).view.set]{fullShare} gathE d X5 X24 2)
            ∗ ((oC3_0 L).view.loc (VT d L) ↦[(oC3_0 L).view.set]{fullShare} gathE d X5 X24 3)
            ∗ ((oC3_1 L).view.loc (VT d L) ↦[(oC3_1 L).view.set]{fullShare} gathE d X5 X24 3)
            ∗ ((oC3_2 L).view.loc (VT d L) ↦[(oC3_2 L).view.set]{fullShare} gathE d X5 X24 3)
            ∗ ((oC3_3 L).view.loc (VT d L) ↦[(oC3_3 L).view.set]{fullShare} gathE d X5 X24 3)
            ∗ ((oC4_0 L).view.loc (VT d L) ↦[(oC4_0 L).view.set]{fullShare} gathR d X6 X25)
            ∗ ((oC4_1 L).view.loc (VT d L) ↦[(oC4_1 L).view.set]{fullShare} gathR d X6 X25)
            ∗ ((oC4_2 L).view.loc (VT d L) ↦[(oC4_2 L).view.set]{fullShare} gathR d X6 X25)
            ∗ ((oC4_3 L).view.loc (VT d L) ↦[(oC4_3 L).view.set]{fullShare} gathR d X6 X25)
            ∗ (∃ f, (sI).view.loc (VT d L) ↦{fullShare} f)
            ∗ (∃ f, (sA).view.loc (VT d L) ↦{fullShare} f)
            ∗ (∃ f, (sB).view.loc (VT d L) ↦{fullShare} f)
            ∗ semVal (VT d L, SemLoc.dma cc1_scratch3.sem) 0
            ∗ semVal (VT d L, SemLoc.dma cc1_scratch4.sem) 0
            ∗ semVal (VT d L, SemLoc.dma cc1_scoped0.sem) 0
            ∗ semVal (VT d L, SemLoc.dma cc1_scoped1.sem) 0
            ∗ semVal (VT d L, SemLoc.dma cc1_scoped2.sem) 0
            ∗ semVal (VT d L, SemLoc.dma cc1_scoped3.sem) 0
            ∗ semVal (VT d L, SemLoc.dma cc1_scoped4.sem) 0
            ∗ semVal (VT d L, SemLoc.dma cc1_scoped5.sem) 0
            ∗ semVal (VT d L, SemLoc.dma cc1_scoped6.sem) 0
            ∗ semVal (VT d L, SemLoc.dma cc1_scoped7.sem) 0
            ∗ semVal (VT d L, SemLoc.dma cc1_scoped8.sem) 0
            ∗ semVal (VT d L, SemLoc.dma cc1_scoped9.sem) 0
            ∗ semVal (VT d L, SemLoc.dma cc1_scoped10.sem) 0
            ∗ semVal (VT d L, SemLoc.dma cc1_scoped11.sem) 0
            ∗ semVal (VT d L, SemLoc.dma cc1_scoped12.sem) 0
            ∗ semVal (VT d L, SemLoc.dma cc1_scoped13.sem) 0
            ∗ semVal (VT d L, SemLoc.dma cc1_scoped14.sem) 0
            ∗ semVal (VT d L, SemLoc.dma cc1_scoped15.sem) 0
            ∗ semVal (VT d L, SemLoc.dma cc1_scoped16.sem) 0
            ∗ semVal (VT d L, SemLoc.dma cc1_scoped17.sem) 0
            ∗ semVal (VT d L, SemLoc.dma cc1_scoped18.sem) 0
            ∗ semVal (VT d L, SemLoc.dma cc1_scoped19.sem) 0
            ∗ semVal (VT d L, SemLoc.dma cc1_scoped20.sem) 0
            ∗ semVal (VT d L, SemLoc.dma cc1_scoped21.sem) 0
            ∗ semVal (VT d L, SemLoc.dma cc1_scoped22.sem) 0
            ∗ semVal (VT d L, SemLoc.dma cc1_scoped23.sem) 0
            ∗ semVal (VT d L, SemLoc.dma cc1_scoped24.sem) 0
            ∗ ∃ W', owes (VT d L) O W') := by
  iintro ⟨#Hmw, He0, He1, Hr0, Hr1, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, Hsi, Hsa, Hsb, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, HO⟩
  sl_unfold [cc1_gk]
  sl_exec
  -- the fetched blocks' words are words of the index arrays: in range
  have hp0 : ∀ z, (tile_run.sl.dma0 d L X24 z).toNat < 500000 := readA_lt d L X24 _ h24 _ _
  have hp1 : ∀ z, (tile_run.sl.dma0_1 d L X24 z).toNat < 500000 := readA_lt d L X24 _ h24 _ _
  have hp2 : ∀ z, (tile_run.sl.dma0_2 d L X24 z).toNat < 500000 := readA_lt d L X24 _ h24 _ _
  have hp3 : ∀ z, (tile_run.sl.dma0_3 d L X24 z).toNat < 500000 := readA_lt d L X24 _ h24 _ _
  have hp4 : ∀ z, (tile_run.sl.dma0_4 d L X25 z).toNat < 500 := readB_lt d L X25 _ h25 _
  -- so every row of the scratch is a list of offsets in range, whatever the scratch held before
  have hr0 := fun g => idxRow_lt d L g (tile_run.sl.dma0 d L X24) (tile_run.sl.dma0_1 d L X24) (tile_run.sl.dma0_2 d L X24) (tile_run.sl.dma0_3 d L X24) (tile_run.sl.dma0_4 d L X25) 500000 0 inb_S20x128_S1x128_0_0 0 (by decide) hp0
  have hr1 := fun g => idxRow_lt d L g (tile_run.sl.dma0 d L X24) (tile_run.sl.dma0_1 d L X24) (tile_run.sl.dma0_2 d L X24) (tile_run.sl.dma0_3 d L X24) (tile_run.sl.dma0_4 d L X25) 500000 1 inb_S20x128_S1x128_1_0 0 (by decide) hp0
  have hr2 := fun g => idxRow_lt d L g (tile_run.sl.dma0 d L X24) (tile_run.sl.dma0_1 d L X24) (tile_run.sl.dma0_2 d L X24) (tile_run.sl.dma0_3 d L X24) (tile_run.sl.dma0_4 d L X25) 500000 2 inb_S20x128_S1x128_2_0 0 (by decide) hp0
  have hr3 := fun g => idxRow_lt d L g (tile_run.sl.dma0 d L X24) (tile_run.sl.dma0_1 d L X24) (tile_run.sl.dma0_2 d L X24) (tile_run.sl.dma0_3 d L X24) (tile_run.sl.dma0_4 d L X25) 500000 3 inb_S20x128_S1x128_3_0 0 (by decide) hp0
  have hr4 := fun g => idxRow_lt d L g (tile_run.sl.dma0 d L X24) (tile_run.sl.dma0_1 d L X24) (tile_run.sl.dma0_2 d L X24) (tile_run.sl.dma0_3 d L X24) (tile_run.sl.dma0_4 d L X25) 500000 4 inb_S20x128_S1x128_4_0 1 (by decide) hp1
  have hr5 := fun g => idxRow_lt d L g (tile_run.sl.dma0 d L X24) (tile_run.sl.dma0_1 d L X24) (tile_run.sl.dma0_2 d L X24) (tile_run.sl.dma0_3 d L X24) (tile_run.sl.dma0_4 d L X25) 500000 5 inb_S20x128_S1x128_5_0 1 (by decide) hp1
  have hr6 := fun g => idxRow_lt d L g (tile_run.sl.dma0 d L X24) (tile_run.sl.dma0_1 d L X24) (tile_run.sl.dma0_2 d L X24) (tile_run.sl.dma0_3 d L X24) (tile_run.sl.dma0_4 d L X25) 500000 6 inb_S20x128_S1x128_6_0 1 (by decide) hp1
  have hr7 := fun g => idxRow_lt d L g (tile_run.sl.dma0 d L X24) (tile_run.sl.dma0_1 d L X24) (tile_run.sl.dma0_2 d L X24) (tile_run.sl.dma0_3 d L X24) (tile_run.sl.dma0_4 d L X25) 500000 7 inb_S20x128_S1x128_7_0 1 (by decide) hp1
  have hr8 := fun g => idxRow_lt d L g (tile_run.sl.dma0 d L X24) (tile_run.sl.dma0_1 d L X24) (tile_run.sl.dma0_2 d L X24) (tile_run.sl.dma0_3 d L X24) (tile_run.sl.dma0_4 d L X25) 500000 8 inb_S20x128_S1x128_8_0 2 (by decide) hp2
  have hr9 := fun g => idxRow_lt d L g (tile_run.sl.dma0 d L X24) (tile_run.sl.dma0_1 d L X24) (tile_run.sl.dma0_2 d L X24) (tile_run.sl.dma0_3 d L X24) (tile_run.sl.dma0_4 d L X25) 500000 9 inb_S20x128_S1x128_9_0 2 (by decide) hp2
  have hr10 := fun g => idxRow_lt d L g (tile_run.sl.dma0 d L X24) (tile_run.sl.dma0_1 d L X24) (tile_run.sl.dma0_2 d L X24) (tile_run.sl.dma0_3 d L X24) (tile_run.sl.dma0_4 d L X25) 500000 10 inb_S20x128_S1x128_10_0 2 (by decide) hp2
  have hr11 := fun g => idxRow_lt d L g (tile_run.sl.dma0 d L X24) (tile_run.sl.dma0_1 d L X24) (tile_run.sl.dma0_2 d L X24) (tile_run.sl.dma0_3 d L X24) (tile_run.sl.dma0_4 d L X25) 500000 11 inb_S20x128_S1x128_11_0 2 (by decide) hp2
  have hr12 := fun g => idxRow_lt d L g (tile_run.sl.dma0 d L X24) (tile_run.sl.dma0_1 d L X24) (tile_run.sl.dma0_2 d L X24) (tile_run.sl.dma0_3 d L X24) (tile_run.sl.dma0_4 d L X25) 500000 12 inb_S20x128_S1x128_12_0 3 (by decide) hp3
  have hr13 := fun g => idxRow_lt d L g (tile_run.sl.dma0 d L X24) (tile_run.sl.dma0_1 d L X24) (tile_run.sl.dma0_2 d L X24) (tile_run.sl.dma0_3 d L X24) (tile_run.sl.dma0_4 d L X25) 500000 13 inb_S20x128_S1x128_13_0 3 (by decide) hp3
  have hr14 := fun g => idxRow_lt d L g (tile_run.sl.dma0 d L X24) (tile_run.sl.dma0_1 d L X24) (tile_run.sl.dma0_2 d L X24) (tile_run.sl.dma0_3 d L X24) (tile_run.sl.dma0_4 d L X25) 500000 14 inb_S20x128_S1x128_14_0 3 (by decide) hp3
  have hr15 := fun g => idxRow_lt d L g (tile_run.sl.dma0 d L X24) (tile_run.sl.dma0_1 d L X24) (tile_run.sl.dma0_2 d L X24) (tile_run.sl.dma0_3 d L X24) (tile_run.sl.dma0_4 d L X25) 500000 15 inb_S20x128_S1x128_15_0 3 (by decide) hp3
  have hr16 := fun g => idxRow_lt d L g (tile_run.sl.dma0 d L X24) (tile_run.sl.dma0_1 d L X24) (tile_run.sl.dma0_2 d L X24) (tile_run.sl.dma0_3 d L X24) (tile_run.sl.dma0_4 d L X25) 500 16 inb_S20x128_S1x128_16_0 4 (by decide) hp4
  have hr17 := fun g => idxRow_lt d L g (tile_run.sl.dma0 d L X24) (tile_run.sl.dma0_1 d L X24) (tile_run.sl.dma0_2 d L X24) (tile_run.sl.dma0_3 d L X24) (tile_run.sl.dma0_4 d L X25) 500 17 inb_S20x128_S1x128_17_0 4 (by decide) hp4
  have hr18 := fun g => idxRow_lt d L g (tile_run.sl.dma0 d L X24) (tile_run.sl.dma0_1 d L X24) (tile_run.sl.dma0_2 d L X24) (tile_run.sl.dma0_3 d L X24) (tile_run.sl.dma0_4 d L X25) 500 18 inb_S20x128_S1x128_18_0 4 (by decide) hp4
  have hr19 := fun g => idxRow_lt d L g (tile_run.sl.dma0 d L X24) (tile_run.sl.dma0_1 d L X24) (tile_run.sl.dma0_2 d L X24) (tile_run.sl.dma0_3 d L X24) (tile_run.sl.dma0_4 d L X25) 500 19 inb_S20x128_S1x128_19_0 4 (by decide) hp4
  sl_exec
  -- each window now holds its gathered rows: the buffer copied into it held the gather's payload (s1), the payload is
  -- the table's rows named by the fetched index words, and those are the result's function at the window's rows (s2)
  have s1_0_0 : ∀ z, (tile_run.sl.dma0_5 d L X5 X24 X25 fa hr0) z = (tile_run.sl.gather0 d L X5 X24 X25 hr0) z := fun z => read_rowsBuf d L sA fa _ _ z
  have s2_0_0 : ∀ (z : S128x128.Idx) (b : S16384x128.Idx), (b 0).val = 1024 * (L 1).val + 512 * (L 0).val + 128 * (0 : Fin 4).val + (z 0).val → (b 1).val = (z 1).val → (tile_run.sl.gather0 d L X5 X24 X25 hr0) z = (gathE d X5 X24 0) b :=
    fun z b hb0 hb1 => payE_val d L 0 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 0 rfl inb_S20x128_S1x128_0_0 rfl (hr0 _) z b hb0 hb1
  ihave Ho0_0' := (Entails.of_eq (pointsTo_congr (win0_val d L 0 0#32 rfl (k1_off3_inb L 0) Y0 (tile_run.sl.dma0_5 d L X5 X24 X25 fa hr0) (gathE d X5 X24 0)
    (fun z b hb0 hb1 => (s1_0_0 z).trans (s2_0_0 z b hb0 hb1))))) $$ Ho0_0
  have s1_0_1 : ∀ z, (tile_run.sl.dma0_6 d L X5 X24 X25 fb hr1) z = (tile_run.sl.gather1 d L X5 X24 X25 hr1) z := fun z => read_rowsBuf d L sB fb _ _ z
  have s2_0_1 : ∀ (z : S128x128.Idx) (b : S16384x128.Idx), (b 0).val = 1024 * (L 1).val + 512 * (L 0).val + 128 * (1 : Fin 4).val + (z 0).val → (b 1).val = (z 1).val → (tile_run.sl.gather1 d L X5 X24 X25 hr1) z = (gathE d X5 X24 0) b :=
    fun z b hb0 hb1 => payE_val d L 0 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 1 rfl inb_S20x128_S1x128_1_0 rfl (hr1 _) z b hb0 hb1
  ihave Ho0_1' := (Entails.of_eq (pointsTo_congr (win0_val d L 1 1#32 rfl (k1_off3_inb L 1) Y0 (tile_run.sl.dma0_6 d L X5 X24 X25 fb hr1) (gathE d X5 X24 0)
    (fun z b hb0 hb1 => (s1_0_1 z).trans (s2_0_1 z b hb0 hb1))))) $$ Ho0_1
  have s1_0_2 : ∀ z, (tile_run.sl.dma0_7 d L X5 X24 X25 fa hr0 hr2) z = (tile_run.sl.gather3 d L X5 X24 X25 hr2) z := fun z => read_rowsBuf d L sA fa _ _ z
  have s2_0_2 : ∀ (z : S128x128.Idx) (b : S16384x128.Idx), (b 0).val = 1024 * (L 1).val + 512 * (L 0).val + 128 * (2 : Fin 4).val + (z 0).val → (b 1).val = (z 1).val → (tile_run.sl.gather3 d L X5 X24 X25 hr2) z = (gathE d X5 X24 0) b :=
    fun z b hb0 hb1 => payE_val d L 0 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 2 rfl inb_S20x128_S1x128_2_0 rfl (hr2 _) z b hb0 hb1
  ihave Ho0_2' := (Entails.of_eq (pointsTo_congr (win0_val d L 2 2#32 rfl (k1_off3_inb L 2) Y0 (tile_run.sl.dma0_7 d L X5 X24 X25 fa hr0 hr2) (gathE d X5 X24 0)
    (fun z b hb0 hb1 => (s1_0_2 z).trans (s2_0_2 z b hb0 hb1))))) $$ Ho0_2
  have s1_0_3 : ∀ z, (tile_run.sl.dma0_8 d L X5 X24 X25 fb hr1 hr3) z = (tile_run.sl.gather5 d L X5 X24 X25 hr3) z := fun z => read_rowsBuf d L sB fb _ _ z
  have s2_0_3 : ∀ (z : S128x128.Idx) (b : S16384x128.Idx), (b 0).val = 1024 * (L 1).val + 512 * (L 0).val + 128 * (3 : Fin 4).val + (z 0).val → (b 1).val = (z 1).val → (tile_run.sl.gather5 d L X5 X24 X25 hr3) z = (gathE d X5 X24 0) b :=
    fun z b hb0 hb1 => payE_val d L 0 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 0 0#32 rfl (k1_off1_inb L 0) x u h0 h1) 3 rfl inb_S20x128_S1x128_3_0 rfl (hr3 _) z b hb0 hb1
  ihave Ho0_3' := (Entails.of_eq (pointsTo_congr (win0_val d L 3 3#32 rfl (k1_off3_inb L 3) Y0 (tile_run.sl.dma0_8 d L X5 X24 X25 fb hr1 hr3) (gathE d X5 X24 0)
    (fun z b hb0 hb1 => (s1_0_3 z).trans (s2_0_3 z b hb0 hb1))))) $$ Ho0_3
  have s1_1_0 : ∀ z, (tile_run.sl.dma0_9 d L X5 X24 X25 fa hr0 hr2 hr4) z = (tile_run.sl.gather7 d L X5 X24 X25 hr4) z := fun z => read_rowsBuf d L sA fa _ _ z
  have s2_1_0 : ∀ (z : S128x128.Idx) (b : S16384x128.Idx), (b 0).val = 1024 * (L 1).val + 512 * (L 0).val + 128 * (0 : Fin 4).val + (z 0).val → (b 1).val = (z 1).val → (tile_run.sl.gather7 d L X5 X24 X25 hr4) z = (gathE d X5 X24 1) b :=
    fun z b hb0 hb1 => payE_val d L 1 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 4 rfl inb_S20x128_S1x128_4_0 rfl (hr4 _) z b hb0 hb1
  ihave Ho1_0' := (Entails.of_eq (pointsTo_congr (win1_val d L 0 0#32 rfl (k1_off3_inb L 0) Y1 (tile_run.sl.dma0_9 d L X5 X24 X25 fa hr0 hr2 hr4) (gathE d X5 X24 1)
    (fun z b hb0 hb1 => (s1_1_0 z).trans (s2_1_0 z b hb0 hb1))))) $$ Ho1_0
  have s1_1_1 : ∀ z, (tile_run.sl.dma0_10 d L X5 X24 X25 fb hr1 hr3 hr5) z = (tile_run.sl.gather9 d L X5 X24 X25 hr5) z := fun z => read_rowsBuf d L sB fb _ _ z
  have s2_1_1 : ∀ (z : S128x128.Idx) (b : S16384x128.Idx), (b 0).val = 1024 * (L 1).val + 512 * (L 0).val + 128 * (1 : Fin 4).val + (z 0).val → (b 1).val = (z 1).val → (tile_run.sl.gather9 d L X5 X24 X25 hr5) z = (gathE d X5 X24 1) b :=
    fun z b hb0 hb1 => payE_val d L 1 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 5 rfl inb_S20x128_S1x128_5_0 rfl (hr5 _) z b hb0 hb1
  ihave Ho1_1' := (Entails.of_eq (pointsTo_congr (win1_val d L 1 1#32 rfl (k1_off3_inb L 1) Y1 (tile_run.sl.dma0_10 d L X5 X24 X25 fb hr1 hr3 hr5) (gathE d X5 X24 1)
    (fun z b hb0 hb1 => (s1_1_1 z).trans (s2_1_1 z b hb0 hb1))))) $$ Ho1_1
  have s1_1_2 : ∀ z, (tile_run.sl.dma0_11 d L X5 X24 X25 fa hr0 hr2 hr4 hr6) z = (tile_run.sl.gather11 d L X5 X24 X25 hr6) z := fun z => read_rowsBuf d L sA fa _ _ z
  have s2_1_2 : ∀ (z : S128x128.Idx) (b : S16384x128.Idx), (b 0).val = 1024 * (L 1).val + 512 * (L 0).val + 128 * (2 : Fin 4).val + (z 0).val → (b 1).val = (z 1).val → (tile_run.sl.gather11 d L X5 X24 X25 hr6) z = (gathE d X5 X24 1) b :=
    fun z b hb0 hb1 => payE_val d L 1 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 6 rfl inb_S20x128_S1x128_6_0 rfl (hr6 _) z b hb0 hb1
  ihave Ho1_2' := (Entails.of_eq (pointsTo_congr (win1_val d L 2 2#32 rfl (k1_off3_inb L 2) Y1 (tile_run.sl.dma0_11 d L X5 X24 X25 fa hr0 hr2 hr4 hr6) (gathE d X5 X24 1)
    (fun z b hb0 hb1 => (s1_1_2 z).trans (s2_1_2 z b hb0 hb1))))) $$ Ho1_2
  have s1_1_3 : ∀ z, (tile_run.sl.dma0_12 d L X5 X24 X25 fb hr1 hr3 hr5 hr7) z = (tile_run.sl.gather13 d L X5 X24 X25 hr7) z := fun z => read_rowsBuf d L sB fb _ _ z
  have s2_1_3 : ∀ (z : S128x128.Idx) (b : S16384x128.Idx), (b 0).val = 1024 * (L 1).val + 512 * (L 0).val + 128 * (3 : Fin 4).val + (z 0).val → (b 1).val = (z 1).val → (tile_run.sl.gather13 d L X5 X24 X25 hr7) z = (gathE d X5 X24 1) b :=
    fun z b hb0 hb1 => payE_val d L 1 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 1 128#32 rfl (k1_off1_inb L 1) x u h0 h1) 7 rfl inb_S20x128_S1x128_7_0 rfl (hr7 _) z b hb0 hb1
  ihave Ho1_3' := (Entails.of_eq (pointsTo_congr (win1_val d L 3 3#32 rfl (k1_off3_inb L 3) Y1 (tile_run.sl.dma0_12 d L X5 X24 X25 fb hr1 hr3 hr5 hr7) (gathE d X5 X24 1)
    (fun z b hb0 hb1 => (s1_1_3 z).trans (s2_1_3 z b hb0 hb1))))) $$ Ho1_3
  have s1_2_0 : ∀ z, (tile_run.sl.dma0_13 d L X5 X24 X25 fa hr0 hr2 hr4 hr6 hr8) z = (tile_run.sl.gather15 d L X5 X24 X25 hr8) z := fun z => read_rowsBuf d L sA fa _ _ z
  have s2_2_0 : ∀ (z : S128x128.Idx) (b : S16384x128.Idx), (b 0).val = 1024 * (L 1).val + 512 * (L 0).val + 128 * (0 : Fin 4).val + (z 0).val → (b 1).val = (z 1).val → (tile_run.sl.gather15 d L X5 X24 X25 hr8) z = (gathE d X5 X24 2) b :=
    fun z b hb0 hb1 => payE_val d L 2 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 8 rfl inb_S20x128_S1x128_8_0 rfl (hr8 _) z b hb0 hb1
  ihave Ho2_0' := (Entails.of_eq (pointsTo_congr (win2_val d L 0 0#32 rfl (k1_off3_inb L 0) Y2 (tile_run.sl.dma0_13 d L X5 X24 X25 fa hr0 hr2 hr4 hr6 hr8) (gathE d X5 X24 2)
    (fun z b hb0 hb1 => (s1_2_0 z).trans (s2_2_0 z b hb0 hb1))))) $$ Ho2_0
  have s1_2_1 : ∀ z, (tile_run.sl.dma0_14 d L X5 X24 X25 fb hr1 hr3 hr5 hr7 hr9) z = (tile_run.sl.gather17 d L X5 X24 X25 hr9) z := fun z => read_rowsBuf d L sB fb _ _ z
  have s2_2_1 : ∀ (z : S128x128.Idx) (b : S16384x128.Idx), (b 0).val = 1024 * (L 1).val + 512 * (L 0).val + 128 * (1 : Fin 4).val + (z 0).val → (b 1).val = (z 1).val → (tile_run.sl.gather17 d L X5 X24 X25 hr9) z = (gathE d X5 X24 2) b :=
    fun z b hb0 hb1 => payE_val d L 2 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 9 rfl inb_S20x128_S1x128_9_0 rfl (hr9 _) z b hb0 hb1
  ihave Ho2_1' := (Entails.of_eq (pointsTo_congr (win2_val d L 1 1#32 rfl (k1_off3_inb L 1) Y2 (tile_run.sl.dma0_14 d L X5 X24 X25 fb hr1 hr3 hr5 hr7 hr9) (gathE d X5 X24 2)
    (fun z b hb0 hb1 => (s1_2_1 z).trans (s2_2_1 z b hb0 hb1))))) $$ Ho2_1
  have s1_2_2 : ∀ z, (tile_run.sl.dma0_15 d L X5 X24 X25 fa hr0 hr2 hr4 hr6 hr8 hr10) z = (tile_run.sl.gather19 d L X5 X24 X25 hr10) z := fun z => read_rowsBuf d L sA fa _ _ z
  have s2_2_2 : ∀ (z : S128x128.Idx) (b : S16384x128.Idx), (b 0).val = 1024 * (L 1).val + 512 * (L 0).val + 128 * (2 : Fin 4).val + (z 0).val → (b 1).val = (z 1).val → (tile_run.sl.gather19 d L X5 X24 X25 hr10) z = (gathE d X5 X24 2) b :=
    fun z b hb0 hb1 => payE_val d L 2 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 10 rfl inb_S20x128_S1x128_10_0 rfl (hr10 _) z b hb0 hb1
  ihave Ho2_2' := (Entails.of_eq (pointsTo_congr (win2_val d L 2 2#32 rfl (k1_off3_inb L 2) Y2 (tile_run.sl.dma0_15 d L X5 X24 X25 fa hr0 hr2 hr4 hr6 hr8 hr10) (gathE d X5 X24 2)
    (fun z b hb0 hb1 => (s1_2_2 z).trans (s2_2_2 z b hb0 hb1))))) $$ Ho2_2
  have s1_2_3 : ∀ z, (tile_run.sl.dma0_16 d L X5 X24 X25 fb hr1 hr3 hr5 hr7 hr9 hr11) z = (tile_run.sl.gather21 d L X5 X24 X25 hr11) z := fun z => read_rowsBuf d L sB fb _ _ z
  have s2_2_3 : ∀ (z : S128x128.Idx) (b : S16384x128.Idx), (b 0).val = 1024 * (L 1).val + 512 * (L 0).val + 128 * (3 : Fin 4).val + (z 0).val → (b 1).val = (z 1).val → (tile_run.sl.gather21 d L X5 X24 X25 hr11) z = (gathE d X5 X24 2) b :=
    fun z b hb0 hb1 => payE_val d L 2 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 2 256#32 rfl (k1_off1_inb L 2) x u h0 h1) 11 rfl inb_S20x128_S1x128_11_0 rfl (hr11 _) z b hb0 hb1
  ihave Ho2_3' := (Entails.of_eq (pointsTo_congr (win2_val d L 3 3#32 rfl (k1_off3_inb L 3) Y2 (tile_run.sl.dma0_16 d L X5 X24 X25 fb hr1 hr3 hr5 hr7 hr9 hr11) (gathE d X5 X24 2)
    (fun z b hb0 hb1 => (s1_2_3 z).trans (s2_2_3 z b hb0 hb1))))) $$ Ho2_3
  have s1_3_0 : ∀ z, (tile_run.sl.dma0_17 d L X5 X24 X25 fa hr0 hr2 hr4 hr6 hr8 hr10 hr12) z = (tile_run.sl.gather23 d L X5 X24 X25 hr12) z := fun z => read_rowsBuf d L sA fa _ _ z
  have s2_3_0 : ∀ (z : S128x128.Idx) (b : S16384x128.Idx), (b 0).val = 1024 * (L 1).val + 512 * (L 0).val + 128 * (0 : Fin 4).val + (z 0).val → (b 1).val = (z 1).val → (tile_run.sl.gather23 d L X5 X24 X25 hr12) z = (gathE d X5 X24 3) b :=
    fun z b hb0 hb1 => payE_val d L 3 0 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 12 rfl inb_S20x128_S1x128_12_0 rfl (hr12 _) z b hb0 hb1
  ihave Ho3_0' := (Entails.of_eq (pointsTo_congr (win3_val d L 0 0#32 rfl (k1_off3_inb L 0) Y3 (tile_run.sl.dma0_17 d L X5 X24 X25 fa hr0 hr2 hr4 hr6 hr8 hr10 hr12) (gathE d X5 X24 3)
    (fun z b hb0 hb1 => (s1_3_0 z).trans (s2_3_0 z b hb0 hb1))))) $$ Ho3_0
  have s1_3_1 : ∀ z, (tile_run.sl.dma0_18 d L X5 X24 X25 fb hr1 hr3 hr5 hr7 hr9 hr11 hr13) z = (tile_run.sl.gather25 d L X5 X24 X25 hr13) z := fun z => read_rowsBuf d L sB fb _ _ z
  have s2_3_1 : ∀ (z : S128x128.Idx) (b : S16384x128.Idx), (b 0).val = 1024 * (L 1).val + 512 * (L 0).val + 128 * (1 : Fin 4).val + (z 0).val → (b 1).val = (z 1).val → (tile_run.sl.gather25 d L X5 X24 X25 hr13) z = (gathE d X5 X24 3) b :=
    fun z b hb0 hb1 => payE_val d L 3 1 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 13 rfl inb_S20x128_S1x128_13_0 rfl (hr13 _) z b hb0 hb1
  ihave Ho3_1' := (Entails.of_eq (pointsTo_congr (win3_val d L 1 1#32 rfl (k1_off3_inb L 1) Y3 (tile_run.sl.dma0_18 d L X5 X24 X25 fb hr1 hr3 hr5 hr7 hr9 hr11 hr13) (gathE d X5 X24 3)
    (fun z b hb0 hb1 => (s1_3_1 z).trans (s2_3_1 z b hb0 hb1))))) $$ Ho3_1
  have s1_3_2 : ∀ z, (tile_run.sl.dma0_19 d L X5 X24 X25 fa hr0 hr2 hr4 hr6 hr8 hr10 hr12 hr14) z = (tile_run.sl.gather27 d L X5 X24 X25 hr14) z := fun z => read_rowsBuf d L sA fa _ _ z
  have s2_3_2 : ∀ (z : S128x128.Idx) (b : S16384x128.Idx), (b 0).val = 1024 * (L 1).val + 512 * (L 0).val + 128 * (2 : Fin 4).val + (z 0).val → (b 1).val = (z 1).val → (tile_run.sl.gather27 d L X5 X24 X25 hr14) z = (gathE d X5 X24 3) b :=
    fun z b hb0 hb1 => payE_val d L 3 2 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 14 rfl inb_S20x128_S1x128_14_0 rfl (hr14 _) z b hb0 hb1
  ihave Ho3_2' := (Entails.of_eq (pointsTo_congr (win3_val d L 2 2#32 rfl (k1_off3_inb L 2) Y3 (tile_run.sl.dma0_19 d L X5 X24 X25 fa hr0 hr2 hr4 hr6 hr8 hr10 hr12 hr14) (gathE d X5 X24 3)
    (fun z b hb0 hb1 => (s1_3_2 z).trans (s2_3_2 z b hb0 hb1))))) $$ Ho3_2
  have s1_3_3 : ∀ z, (tile_run.sl.dma0_20 d L X5 X24 X25 fb hr1 hr3 hr5 hr7 hr9 hr11 hr13 hr15) z = (tile_run.sl.gather29 d L X5 X24 X25 hr15) z := fun z => read_rowsBuf d L sB fb _ _ z
  have s2_3_3 : ∀ (z : S128x128.Idx) (b : S16384x128.Idx), (b 0).val = 1024 * (L 1).val + 512 * (L 0).val + 128 * (3 : Fin 4).val + (z 0).val → (b 1).val = (z 1).val → (tile_run.sl.gather29 d L X5 X24 X25 hr15) z = (gathE d X5 X24 3) b :=
    fun z b hb0 hb1 => payE_val d L 3 3 X5 X24 h24 _ (tile_run.sl.dma0 d L X24) (tile_run.sl.dma0_1 d L X24) (tile_run.sl.dma0_2 d L X24) (tile_run.sl.dma0_3 d L X24) (tile_run.sl.dma0_4 d L X25) (fun x u h0 h1 => readA_at d L X24 3 384#32 rfl (k1_off1_inb L 3) x u h0 h1) 15 rfl inb_S20x128_S1x128_15_0 rfl (hr15 _) z b hb0 hb1
  ihave Ho3_3' := (Entails.of_eq (pointsTo_congr (win3_val d L 3 3#32 rfl (k1_off3_inb L 3) Y3 (tile_run.sl.dma0_20 d L X5 X24 X25 fb hr1 hr3 hr5 hr7 hr9 hr11 hr13 hr15) (gathE d X5 X24 3)
    (fun z b hb0 hb1 => (s1_3_3 z).trans (s2_3_3 z b hb0 hb1))))) $$ Ho3_3
  have s1_4_0 : ∀ z, (tile_run.sl.dma0_21 d L X5 X6 X24 X25 fa hr0 hr2 hr4 hr6 hr8 hr10 hr12 hr14 hr16) z = (tile_run.sl.gather31 d L X6 X24 X25 hr16) z := fun z => read_rowsBuf d L sA fa _ _ z
  have s2_4_0 : ∀ (z : S128x128.Idx) (b : S16384x128.Idx), (b 0).val = 1024 * (L 1).val + 512 * (L 0).val + 128 * (0 : Fin 4).val + (z 0).val → (b 1).val = (z 1).val → (tile_run.sl.gather31 d L X6 X24 X25 hr16) z = (gathR d X6 X25) b :=
    fun z b hb0 hb1 => payR_val d L 0 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 16 rfl inb_S20x128_S1x128_16_0 rfl (hr16 _) z b hb0 hb1
  ihave Ho4_0' := (Entails.of_eq (pointsTo_congr (win4_val d L 0 0#32 rfl (k1_off3_inb L 0) Y4 (tile_run.sl.dma0_21 d L X5 X6 X24 X25 fa hr0 hr2 hr4 hr6 hr8 hr10 hr12 hr14 hr16) (gathR d X6 X25)
    (fun z b hb0 hb1 => (s1_4_0 z).trans (s2_4_0 z b hb0 hb1))))) $$ Ho4_0
  have s1_4_1 : ∀ z, (tile_run.sl.dma0_22 d L X5 X6 X24 X25 fb hr1 hr3 hr5 hr7 hr9 hr11 hr13 hr15 hr17) z = (tile_run.sl.gather33 d L X6 X24 X25 hr17) z := fun z => read_rowsBuf d L sB fb _ _ z
  have s2_4_1 : ∀ (z : S128x128.Idx) (b : S16384x128.Idx), (b 0).val = 1024 * (L 1).val + 512 * (L 0).val + 128 * (1 : Fin 4).val + (z 0).val → (b 1).val = (z 1).val → (tile_run.sl.gather33 d L X6 X24 X25 hr17) z = (gathR d X6 X25) b :=
    fun z b hb0 hb1 => payR_val d L 1 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 17 rfl inb_S20x128_S1x128_17_0 rfl (hr17 _) z b hb0 hb1
  ihave Ho4_1' := (Entails.of_eq (pointsTo_congr (win4_val d L 1 1#32 rfl (k1_off3_inb L 1) Y4 (tile_run.sl.dma0_22 d L X5 X6 X24 X25 fb hr1 hr3 hr5 hr7 hr9 hr11 hr13 hr15 hr17) (gathR d X6 X25)
    (fun z b hb0 hb1 => (s1_4_1 z).trans (s2_4_1 z b hb0 hb1))))) $$ Ho4_1
  have s1_4_2 : ∀ z, (tile_run.sl.dma0_23 d L X5 X6 X24 X25 fa hr0 hr2 hr4 hr6 hr8 hr10 hr12 hr14 hr16 hr18) z = (tile_run.sl.gather35 d L X6 X24 X25 hr18) z := fun z => read_rowsBuf d L sA fa _ _ z
  have s2_4_2 : ∀ (z : S128x128.Idx) (b : S16384x128.Idx), (b 0).val = 1024 * (L 1).val + 512 * (L 0).val + 128 * (2 : Fin 4).val + (z 0).val → (b 1).val = (z 1).val → (tile_run.sl.gather35 d L X6 X24 X25 hr18) z = (gathR d X6 X25) b :=
    fun z b hb0 hb1 => payR_val d L 2 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 18 rfl inb_S20x128_S1x128_18_0 rfl (hr18 _) z b hb0 hb1
  ihave Ho4_2' := (Entails.of_eq (pointsTo_congr (win4_val d L 2 2#32 rfl (k1_off3_inb L 2) Y4 (tile_run.sl.dma0_23 d L X5 X6 X24 X25 fa hr0 hr2 hr4 hr6 hr8 hr10 hr12 hr14 hr16 hr18) (gathR d X6 X25)
    (fun z b hb0 hb1 => (s1_4_2 z).trans (s2_4_2 z b hb0 hb1))))) $$ Ho4_2
  have s1_4_3 : ∀ z, (tile_run.sl.dma0_24 d L X5 X6 X24 X25 fb hr1 hr3 hr5 hr7 hr9 hr11 hr13 hr15 hr17 hr19) z = (tile_run.sl.gather37 d L X6 X24 X25 hr19) z := fun z => read_rowsBuf d L sB fb _ _ z
  have s2_4_3 : ∀ (z : S128x128.Idx) (b : S16384x128.Idx), (b 0).val = 1024 * (L 1).val + 512 * (L 0).val + 128 * (3 : Fin 4).val + (z 0).val → (b 1).val = (z 1).val → (tile_run.sl.gather37 d L X6 X24 X25 hr19) z = (gathR d X6 X25) b :=
    fun z b hb0 hb1 => payR_val d L 3 X6 X25 h25 _ (tile_run.sl.dma0 d L X24) (tile_run.sl.dma0_1 d L X24) (tile_run.sl.dma0_2 d L X24) (tile_run.sl.dma0_3 d L X24) (tile_run.sl.dma0_4 d L X25) (fun x u h0 h1 => readB_at d L X25 (k1_off2_inb L) x u h0 h1) 19 rfl inb_S20x128_S1x128_19_0 rfl (hr19 _) z b hb0 hb1
  ihave Ho4_3' := (Entails.of_eq (pointsTo_congr (win4_val d L 3 3#32 rfl (k1_off3_inb L 3) Y4 (tile_run.sl.dma0_24 d L X5 X6 X24 X25 fb hr1 hr3 hr5 hr7 hr9 hr11 hr13 hr15 hr17 hr19) (gathR d X6 X25)
    (fun z b hb0 hb1 => (s1_4_3 z).trans (s2_4_3 z b hb0 hb1))))) $$ Ho4_3
  sl_step
  sl_close

end Tile

/-! ## The task, from what the launch deals the tile to what it hands back -/

section Body

variable [FloatOps F]
variable (d : Dev nD) (L : grid1.Coords)

set_option maxHeartbeats 4000000 in
/-- The operands as the vector subcore addresses them (the same assertion: the arrays are the TensorCore's). -/
def tileGoX (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) : sProp 𝕄 :=
  iprop(((eV).view.loc (VT d L) ↦{q} X5)
      ∗ ((rV).view.loc (VT d L) ↦{q} X6)
      ∗ ((aV).view.loc (VT d L) ↦{q} X24)
      ∗ ((bV).view.loc (VT d L) ↦{q} X25)
      ∗ ((oC0_0 L).view.loc (VT d L) ↦[(oC0_0 L).view.set]{fullShare} Y0)
      ∗ ((oC0_1 L).view.loc (VT d L) ↦[(oC0_1 L).view.set]{fullShare} Y0)
      ∗ ((oC0_2 L).view.loc (VT d L) ↦[(oC0_2 L).view.set]{fullShare} Y0)
      ∗ ((oC0_3 L).view.loc (VT d L) ↦[(oC0_3 L).view.set]{fullShare} Y0)
      ∗ ((oC1_0 L).view.loc (VT d L) ↦[(oC1_0 L).view.set]{fullShare} Y1)
      ∗ ((oC1_1 L).view.loc (VT d L) ↦[(oC1_1 L).view.set]{fullShare} Y1)
      ∗ ((oC1_2 L).view.loc (VT d L) ↦[(oC1_2 L).view.set]{fullShare} Y1)
      ∗ ((oC1_3 L).view.loc (VT d L) ↦[(oC1_3 L).view.set]{fullShare} Y1)
      ∗ ((oC2_0 L).view.loc (VT d L) ↦[(oC2_0 L).view.set]{fullShare} Y2)
      ∗ ((oC2_1 L).view.loc (VT d L) ↦[(oC2_1 L).view.set]{fullShare} Y2)
      ∗ ((oC2_2 L).view.loc (VT d L) ↦[(oC2_2 L).view.set]{fullShare} Y2)
      ∗ ((oC2_3 L).view.loc (VT d L) ↦[(oC2_3 L).view.set]{fullShare} Y2)
      ∗ ((oC3_0 L).view.loc (VT d L) ↦[(oC3_0 L).view.set]{fullShare} Y3)
      ∗ ((oC3_1 L).view.loc (VT d L) ↦[(oC3_1 L).view.set]{fullShare} Y3)
      ∗ ((oC3_2 L).view.loc (VT d L) ↦[(oC3_2 L).view.set]{fullShare} Y3)
      ∗ ((oC3_3 L).view.loc (VT d L) ↦[(oC3_3 L).view.set]{fullShare} Y3)
      ∗ ((oC4_0 L).view.loc (VT d L) ↦[(oC4_0 L).view.set]{fullShare} Y4)
      ∗ ((oC4_1 L).view.loc (VT d L) ↦[(oC4_1 L).view.set]{fullShare} Y4)
      ∗ ((oC4_2 L).view.loc (VT d L) ↦[(oC4_2 L).view.set]{fullShare} Y4)
      ∗ ((oC4_3 L).view.loc (VT d L) ↦[(oC4_3 L).view.set]{fullShare} Y4))
set_option maxHeartbeats 4000000 in
def tileTdX (q : PosShare TreeShare) (X5 : Buf (Elt F) (eLoc d)) (X6 : Buf (Elt F) (rLoc d)) (X24 : Buf (Elt F) (aLoc d)) (X25 : Buf (Elt F) (bLoc d)) : sProp 𝕄 :=
  iprop(((eV).view.loc (VT d L) ↦{q} X5)
      ∗ ((rV).view.loc (VT d L) ↦{q} X6)
      ∗ ((aV).view.loc (VT d L) ↦{q} X24)
      ∗ ((bV).view.loc (VT d L) ↦{q} X25)
      ∗ ((oC0_0 L).view.loc (VT d L) ↦[(oC0_0 L).view.set]{fullShare} gathE d X5 X24 0)
      ∗ ((oC0_1 L).view.loc (VT d L) ↦[(oC0_1 L).view.set]{fullShare} gathE d X5 X24 0)
      ∗ ((oC0_2 L).view.loc (VT d L) ↦[(oC0_2 L).view.set]{fullShare} gathE d X5 X24 0)
      ∗ ((oC0_3 L).view.loc (VT d L) ↦[(oC0_3 L).view.set]{fullShare} gathE d X5 X24 0)
      ∗ ((oC1_0 L).view.loc (VT d L) ↦[(oC1_0 L).view.set]{fullShare} gathE d X5 X24 1)
      ∗ ((oC1_1 L).view.loc (VT d L) ↦[(oC1_1 L).view.set]{fullShare} gathE d X5 X24 1)
      ∗ ((oC1_2 L).view.loc (VT d L) ↦[(oC1_2 L).view.set]{fullShare} gathE d X5 X24 1)
      ∗ ((oC1_3 L).view.loc (VT d L) ↦[(oC1_3 L).view.set]{fullShare} gathE d X5 X24 1)
      ∗ ((oC2_0 L).view.loc (VT d L) ↦[(oC2_0 L).view.set]{fullShare} gathE d X5 X24 2)
      ∗ ((oC2_1 L).view.loc (VT d L) ↦[(oC2_1 L).view.set]{fullShare} gathE d X5 X24 2)
      ∗ ((oC2_2 L).view.loc (VT d L) ↦[(oC2_2 L).view.set]{fullShare} gathE d X5 X24 2)
      ∗ ((oC2_3 L).view.loc (VT d L) ↦[(oC2_3 L).view.set]{fullShare} gathE d X5 X24 2)
      ∗ ((oC3_0 L).view.loc (VT d L) ↦[(oC3_0 L).view.set]{fullShare} gathE d X5 X24 3)
      ∗ ((oC3_1 L).view.loc (VT d L) ↦[(oC3_1 L).view.set]{fullShare} gathE d X5 X24 3)
      ∗ ((oC3_2 L).view.loc (VT d L) ↦[(oC3_2 L).view.set]{fullShare} gathE d X5 X24 3)
      ∗ ((oC3_3 L).view.loc (VT d L) ↦[(oC3_3 L).view.set]{fullShare} gathE d X5 X24 3)
      ∗ ((oC4_0 L).view.loc (VT d L) ↦[(oC4_0 L).view.set]{fullShare} gathR d X6 X25)
      ∗ ((oC4_1 L).view.loc (VT d L) ↦[(oC4_1 L).view.set]{fullShare} gathR d X6 X25)
      ∗ ((oC4_2 L).view.loc (VT d L) ↦[(oC4_2 L).view.set]{fullShare} gathR d X6 X25)
      ∗ ((oC4_3 L).view.loc (VT d L) ↦[(oC4_3 L).view.set]{fullShare} gathR d X6 X25))

set_option maxHeartbeats 4000000 in
omit [FloatOps F] in
theorem tileGo_eq (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d)) :
    tileGo d L q X5 X6 X24 X25 Y0 Y1 Y2 Y3 Y4 = tileGoX d L q X5 X6 X24 X25 Y0 Y1 Y2 Y3 Y4 := rfl
set_option maxHeartbeats 4000000 in
omit [FloatOps F] in
theorem tileTd_eq (q : PosShare TreeShare) (X5 : Buf (Elt F) (eLoc d)) (X6 : Buf (Elt F) (rLoc d)) (X24 : Buf (Elt F) (aLoc d)) (X25 : Buf (Elt F) (bLoc d)) :
    tileTd d L q X5 X6 X24 X25 = tileTdX d L q X5 X6 X24 X25 := rfl

omit [FloatOps F] in
/-- A wait index of a program with one SparseCore call is no call's or call 0's. -/
theorem hix_cases (x : HIx 1) : x = none ∨ x = some (0 : Fin 1) := by
  cases x with
  | none => exact .inl rfl
  | some r => exact .inr (congrArg some (Fin.fin_one_eq_zero r))

omit [FloatOps F] in
theorem pts_sI (f : Buf (Elt F) ((VT d L).loc cc1_scratch0)) :
    ((VT d L).loc cc1_scratch0 ↦{fullShare} f : sProp 𝕄) = ((sI).view.loc (VT d L) ↦{fullShare} f) := rfl
omit [FloatOps F] in
theorem pts_sA (f : Buf (Elt F) ((VT d L).loc cc1_scratch1)) :
    ((VT d L).loc cc1_scratch1 ↦{fullShare} f : sProp 𝕄) = ((sA).view.loc (VT d L) ↦{fullShare} f) := rfl
omit [FloatOps F] in
theorem pts_sB (f : Buf (Elt F) ((VT d L).loc cc1_scratch2)) :
    ((VT d L).loc cc1_scratch2 ↦{fullShare} f : sProp 𝕄) = ((sB).view.loc (VT d L) ↦{fullShare} f) := rfl

set_option maxHeartbeats 4000000 in
set_option maxRecDepth 16384 in
/-- The task on the vector subcore at `L` of device `d`: the operands back, each window of a result at the gathered rows. `X` is whatever else the launch hands the thread; the kernel
    does not use it. -/
theorem _root_.Cert.Proof.KB.tile_body (hF : (K (F := F)).Facts) (X : sProp 𝕄) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0) :
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(tileTd d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V,
    tileGo_eq, tileTd_eq]
  unfold tileGoX tileTdX
  iintro ⟨#Hlv, -, ⟨He, Hr, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3⟩, ⟨⟨%fi, Hsi⟩, ⟨%fa, Hsa⟩, ⟨%fb, Hsb⟩, Hbufs⟩, ⟨⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26⟩, Hsems⟩, HO⟩
  ihave Hmw := (show levAts (K (F := F)).L (K (F := F)).lev ⊢ Transfers.MayWaits (VT d L) (default : HIx 1) O from
    (K (F := F)).mayWaits_none (thr := VT d L) hO) $$ Hlv
  -- each table under two read shares: two gathers of one table are in flight at once
  ihave He' := (pointsTo_share (PosShare.mem_left_op_right q)).1 $$ He
  icases He' with ⟨He0, He1⟩
  ihave Hr' := (pointsTo_share (PosShare.mem_left_op_right q)).1 $$ Hr
  icases Hr' with ⟨Hr0, Hr1⟩
  ihave Hsi' := (Entails.of_eq (pts_sI (F := F) d L fi)) $$ Hsi
  ihave Hsa' := (Entails.of_eq (pts_sA (F := F) d L fa)) $$ Hsa
  ihave Hsb' := (Entails.of_eq (pts_sB (F := F) d L fb)) $$ Hsb
  iapply (wp_wand_r Idealize.ShloMosaic.frame (wpE (defs₀ (F := F)) 𝒱₀ (VT d L) none) Set.univ)
  isplitl [He0 He1 Hr0 Hr1 Ha Hb Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3 Hsi' Hsa' Hsb' Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 HO]
  · iapply (tile_run d L q X5 X6 X24 X25 Y0 Y1 Y2 Y3 Y4 fi fa fb h24 h25 O W)
    isplitr; · iexact Hmw
    isplitl [He0]; · iexact He0
    isplitl [He1]; · iexact He1
    isplitl [Hr0]; · iexact Hr0
    isplitl [Hr1]; · iexact Hr1
    isplitl [Ha]; · iexact Ha
    isplitl [Hb]; · iexact Hb
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    isplitl [Ho4_3]; · iexact Ho4_3
    isplitl [Hsi']; · iexact Hsi'
    isplitl [Hsa']; · iexact Hsa'
    isplitl [Hsb']; · iexact Hsb'
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    iexact HO
  iintro %_ ⟨He0, He1, Hr0, Hr1, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, ⟨%gi, Hsi⟩, ⟨%ga, Hsa⟩, ⟨%gb, Hsb⟩, Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, ⟨%W', HO⟩⟩
  ihave He := (pointsTo_share (PosShare.mem_left_op_right q)).2 $$ [He0 He1]
  · isplitl [He0] <;> iassumption
  ihave Hr := (pointsTo_share (PosShare.mem_left_op_right q)).2 $$ [Hr0 Hr1]
  · isplitl [Hr0] <;> iassumption
  isplitl [He Hr Ha Hb Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3]
  · isplitl [He]; · iexact He
    isplitl [Hr]; · iexact Hr
    isplitl [Ha]; · iexact Ha
    isplitl [Hb]; · iexact Hb
    isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    iexact Ho4_3
  isplitl [Hsi Hsa Hsb Hbufs]
  · isplitl [Hsi]; · iexists gi; iapply (Entails.of_eq (pts_sI (F := F) d L gi).symm); iexact Hsi
    isplitl [Hsa]; · iexists ga; iapply (Entails.of_eq (pts_sA (F := F) d L ga).symm); iexact Hsa
    isplitl [Hsb]; · iexists gb; iapply (Entails.of_eq (pts_sB (F := F) d L gb).symm); iexact Hsb
    iexact Hbufs
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hsems]
  · isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      iexact Hc26
    iexact Hsems
  iexists W'; isplitr
  · ipureintro; exact fun p _ => Or.inr (hix_cases p.2)
  · iexact HO

end Body

section Frame

variable [FloatOps F]
variable (d : Dev nD) (L : grid1.Coords)

omit [FloatOps F] in
/-- What the tile hands back, its windows' contents forgotten. -/
theorem tileTd_frame (q : PosShare TreeShare) (X5 : Buf (Elt F) (eLoc d)) (X6 : Buf (Elt F) (rLoc d)) (X24 : Buf (Elt F) (aLoc d)) (X25 : Buf (Elt F) (bLoc d)) :
    tileTd d L q X5 X6 X24 X25 ⊢ tileTdF d L q X5 X6 X24 X25 := by
  unfold tileTd tileTdF
  iintro ⟨He, Hr, Ha, Hb, Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3⟩
  isplitl [He]; · iexact He
  isplitl [Hr]; · iexact Hr
  isplitl [Ha]; · iexact Ha
  isplitl [Hb]; · iexact Hb
  isplitl [Ho0_0]; · iexists _; iexact Ho0_0
  isplitl [Ho0_1]; · iexists _; iexact Ho0_1
  isplitl [Ho0_2]; · iexists _; iexact Ho0_2
  isplitl [Ho0_3]; · iexists _; iexact Ho0_3
  isplitl [Ho1_0]; · iexists _; iexact Ho1_0
  isplitl [Ho1_1]; · iexists _; iexact Ho1_1
  isplitl [Ho1_2]; · iexists _; iexact Ho1_2
  isplitl [Ho1_3]; · iexists _; iexact Ho1_3
  isplitl [Ho2_0]; · iexists _; iexact Ho2_0
  isplitl [Ho2_1]; · iexists _; iexact Ho2_1
  isplitl [Ho2_2]; · iexists _; iexact Ho2_2
  isplitl [Ho2_3]; · iexists _; iexact Ho2_3
  isplitl [Ho3_0]; · iexists _; iexact Ho3_0
  isplitl [Ho3_1]; · iexists _; iexact Ho3_1
  isplitl [Ho3_2]; · iexists _; iexact Ho3_2
  isplitl [Ho3_3]; · iexists _; iexact Ho3_3
  isplitl [Ho4_0]; · iexists _; iexact Ho4_0
  isplitl [Ho4_1]; · iexists _; iexact Ho4_1
  isplitl [Ho4_2]; · iexists _; iexact Ho4_2
  iexists _; iexact Ho4_3

/-- The frame form of the task. -/
theorem _root_.Cert.Proof.KB.tile_bodyF (hF : (K (F := F)).Facts) (X : sProp 𝕄) (q : PosShare TreeShare) (X5 : Buf (Elt F) (eLoc d)) (X6 : Buf (Elt F) (rLoc d)) (X24 : Buf (Elt F) (aLoc d)) (X25 : Buf (Elt F) (bLoc d))
    (Y0 : Buf (Elt F) (o0Loc d)) (Y1 : Buf (Elt F) (o1Loc d)) (Y2 : Buf (Elt F) (o2Loc d)) (Y3 : Buf (Elt F) (o3Loc d)) (Y4 : Buf (Elt F) (o4Loc d))
    (h24 : ∀ j : S512x128.Idx, (X24 j).toNat < 500000) (h25 : ∀ j : S128x128.Idx, (X25 j).toNat < 500)
    (O : CellTallies nD τ sig (HIx 1)) (W : Waits sig (HIx 1)) (hO : ∀ g, O g none = 0) :
    iprop(levAts (K (F := F)).L (K (F := F)).lev ∗ X ∗ tileGo d L q X5 X6 X24 X25 Y0 Y1 Y2 Y3 Y4
        ∗ scopedBufs (VT d L) ∗ scopedSems0 (VT d L) ∗ owes (VT d L) O W)
      ⊢ wp frame (wpE (defs₀ (F := F)) 𝒱₀ (VT d L) none) Set.univ
          (cc1_gk L eV (Memref.isWhole_whole _) rV (Memref.isWhole_whole _) aV (Memref.isWhole_whole _) bV (Memref.isWhole_whole _)
            o0V (Memref.isWhole_whole _) o1V (Memref.isWhole_whole _) o2V (Memref.isWhole_whole _) o3V (Memref.isWhole_whole _) o4V (Memref.isWhole_whole _)
            sI (Memref.isWhole_whole _) sA (Memref.isWhole_whole _) sB (Memref.isWhole_whole _)
            cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24)
          fun _ => iprop(tileTdF d L q X5 X6 X24 X25 ∗ scopedBufs (VT d L) ∗ scopedSems0 (VT d L)
            ∗ ∃ W', ⌜∀ p ∈ W', p ∈ W ∨ p.2 = none ∨ p.2 = some (0 : Fin 1)⌝ ∗ owes (VT d L) O W') :=
  (tile_body d L hF X q X5 X6 X24 X25 Y0 Y1 Y2 Y3 Y4 h24 h25 O W hO).trans
    (wp_mono Idealize.ShloMosaic.frame _ _ fun _ => sep_mono_left (tileTd_frame d L q X5 X6 X24 X25))

end Frame

end Tile

end Cert.Proof.KB

end
-- ==== Proof.BIdxOK.lean ====
/-
  The row gather's indices name rows of the tables they index. The first host program turns every entity index into
  the row of the packed entity table that holds it and every relation index into the row of the packed relation table;
  an entity index between 0 and 999999 lands below 500000 and a relation index between 0 and 999 below 500, which are
  the two tables' row counts. The index inputs are in those ranges by the precondition, at every float instance: it
  compares words only.
-/
import proofs.«205037_g73117523247527_cont_9to1c4b_608_48_alg».proof.Proof.BChainA
import proofs.«205037_g73117523247527_cont_9to1c4b_608_48_alg».proof.Proof.IdxArith
import proofs.«205037_g73117523247527_cont_9to1c4b_608_48_alg».proof.Proof.PreFacts

noncomputable section

namespace Cert.Proof.KB

open Cert.Kernel Cert.Kernel.Gen
open Idealize.ShloMosaic Idealize.ShloMosaic.ValueIdx
open Cert.Proof.IdxArith
open StableHlo

variable {F : FTy → Type} [FloatOps F]

/-! ## From the inputs' ranges -/

/-- One of four arrays whose entries all lie in a range has its entries in that range. -/
theorem pick4_range {lo hi : Int} (a0 a1 a2 a3 : S16384.Idx → BitVec 32)
    (h0 : ∀ i, lo ≤ (a0 i).toInt ∧ (a0 i).toInt ≤ hi) (h1 : ∀ i, lo ≤ (a1 i).toInt ∧ (a1 i).toInt ≤ hi)
    (h2 : ∀ i, lo ≤ (a2 i).toInt ∧ (a2 i).toInt ≤ hi) (h3 : ∀ i, lo ≤ (a3 i).toInt ∧ (a3 i).toInt ≤ hi)
    (k : Fin 4) (i : S16384.Idx) : lo ≤ (pick4 a0 a1 a2 a3 k i).toInt ∧ (pick4 a0 a1 a2 a3 k i).toInt ≤ hi := by
  match k with
  | 0 => exact h0 i
  | 1 => exact h1 i
  | 2 => exact h2 i
  | 3 => exact h3 i

section Range

variable (V0 : Valuation τ sig (Elt F)) (Pk : (Proc.devRef .tc main_v5 : DevRef τ sig).ty.Contents (Elt F))

/-- Every entity-row index the gather reads is a row of the packed entity table: row `r` of the 512 rows of indices
    is row `r % 128` of input `r / 128`'s. -/
theorem v24_lt (h2 : ∀ i : S16384.Idx, 0 ≤ (V0 (Proc.devRef .tc main_arg2) i).toInt ∧ (V0 (Proc.devRef .tc main_arg2) i).toInt ≤ 999999)
    (h4 : ∀ i : S16384.Idx, 0 ≤ (V0 (Proc.devRef .tc main_arg4) i).toInt ∧ (V0 (Proc.devRef .tc main_arg4) i).toInt ≤ 999999)
    (h5 : ∀ i : S16384.Idx, 0 ≤ (V0 (Proc.devRef .tc main_arg5) i).toInt ∧ (V0 (Proc.devRef .tc main_arg5) i).toInt ≤ 999999)
    (h6 : ∀ i : S16384.Idx, 0 ≤ (V0 (Proc.devRef .tc main_arg6) i).toInt ∧ (V0 (Proc.devRef .tc main_arg6) i).toInt ≤ 999999) :
    ∀ x : S512x128.Idx, (VAof V0 Pk (Proc.devRef .tc main_v24) x).toNat < 500000 := by
  intro x
  obtain ⟨r, c, rfl⟩ : ∃ (r : Fin 512) (c : Fin 128), x = ix2 r c := ⟨x 0, x 1, eq_ix2 x⟩
  have hr := r.isLt
  rw [VAof_v24_read V0 Pk ⟨r.val / 128, by omega⟩ ⟨r.val % 128, by omega⟩ c r
    (by show r.val = 128 * (r.val / 128) + r.val % 128; omega)]
  have hw := pick4_range _ _ _ _ h2 h4 h5 h6 ⟨r.val / 128, by omega⟩
    (ix1 ⟨128 * (r.val % 128) + c.val, by have := c.isLt; omega⟩)
  exact (epair_spec _ hw.1 hw.2).1

/-- Every relation-row index the gather reads is a row of the packed relation table. -/
theorem v25_lt (h3 : ∀ i : S16384.Idx, 0 ≤ (V0 (Proc.devRef .tc main_arg3) i).toInt ∧ (V0 (Proc.devRef .tc main_arg3) i).toInt ≤ 999) :
    ∀ x : S128x128.Idx, (VAof V0 Pk (Proc.devRef .tc main_v25) x).toNat < 500 := by
  intro x
  obtain ⟨g, c, rfl⟩ : ∃ (g c : Fin 128), x = ix2 g c := ⟨x 0, x 1, eq_ix2 x⟩
  rw [VAof_v25_read V0 Pk g c]
  exact (rpair_spec _ (h3 _).1 (h3 _).2).1

end Range

/-! ## From the precondition -/

section Pre

variable [Cert.Pre_input_domain.Facts]

/-- At a launch memory whose index inputs satisfy the precondition on every device, on device `d` both index arrays
    the gather reads are in range, whatever the packing kernel left in the packed table. -/
theorem idx_ok (m : (ℓ : Loc nD τ sig) → Buf (Elt F) ℓ)
    (hfn : ∀ c : Dev nD, Cert.Pre_input_domain.fn (F := F) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) = fun _ => 1#1)
    (Pk : (d : Dev nD) → (Proc.devRef .tc main_v5 : DevRef τ sig).ty.Contents (Elt F)) (d : Dev nD) :
    (∀ x : S512x128.Idx, (VAof (launchContents m d) (Pk d) (Proc.devRef .tc main_v24) x).toNat < 500000)
      ∧ (∀ x : S128x128.Idx, (VAof (launchContents m d) (Pk d) (Proc.devRef .tc main_v25) x).toNat < 500) := by
  obtain ⟨h2, h3, h4, h5, h6⟩ := Cert.Proof.PreFacts.idx_of_pre _ _ _ _ _ _ _ (hfn d)
  exact ⟨v24_lt (launchContents m d) (Pk d) (fun i => h2 i) (fun i => h4 i) (fun i => h5 i) (fun i => h6 i),
    v25_lt (launchContents m d) (Pk d) (fun i => h3 i)⟩

end Pre

end Cert.Proof.KB

end
-- ==== Proof.BGathRead.lean ====
/-
  What the row gather leaves, read at a row and a column. A result row of an entity result is the packed entity table's
  row named by an index word, taken modulo the table's height so that the function is total; where the word is below
  the height the modulus is the word itself, and the row is the table's own. Likewise for the relation result. Then the
  five results over the valuation the first host program leaves, and their reads in the form the value chain asks for.
-/
import proofs.«205037_g73117523247527_cont_9to1c4b_608_48_alg».proof.Proof.BTileDefs
import proofs.«205037_g73117523247527_cont_9to1c4b_608_48_alg».proof.Proof.BChainA
import proofs.«205037_g73117523247527_cont_9to1c4b_608_48_alg».proof.Proof.BHandOver

noncomputable section

namespace Cert.Proof.KB

open Cert.Kernel Cert.Kernel.Gen
open Idealize.ShloMosaic Idealize.ShloMosaic.ValueIdx

variable {F : FTy → Type}

/-! ## A gathered row where its index word is in range -/

/-- An entity result at row `b`, column `col`: the packed table at the row the index word names, when the word is below
    the table's height. -/
theorem gathE_apply (d : Dev nD) (X5 : Buf (Elt F) (eLoc d)) (X24 : Buf (Elt F) (aLoc d)) (k : Fin 4) (b : Fin 16384) (col : Fin 128)
    (h : BitVec.toNat (X24 (ix2 (⟨128 * k.val + b.val / 128, by have := b.isLt; have := k.isLt; omega⟩ : Fin 512) (⟨b.val % 128, by omega⟩ : Fin 128))) < 500000) :
    gathE d X5 X24 k (ix2 b col) = X5 (ix2 ⟨_, h⟩ col) := by
  unfold gathE
  refine congrArg X5 ?_
  funext a
  match a with
  | ⟨0, _⟩ =>
    apply Fin.ext
    show BitVec.toNat (X24 _) % 500000 = BitVec.toNat (X24 _)
    have e : ∀ i : (aLoc d).2.ty.shape.Idx, i = ix2 (⟨128 * k.val + b.val / 128, by have := b.isLt; have := k.isLt; omega⟩ : Fin 512) (⟨b.val % 128, by omega⟩ : Fin 128) → BitVec.toNat (X24 i) % 500000 = BitVec.toNat (X24 (ix2 (⟨128 * k.val + b.val / 128, by have := b.isLt; have := k.isLt; omega⟩ : Fin 512) (⟨b.val % 128, by omega⟩ : Fin 128))) :=
      fun i hi => by rw [hi]; exact Nat.mod_eq_of_lt h
    refine e _ ?_
    funext a'
    match a' with
    | ⟨0, _⟩ => rfl
    | ⟨1, _⟩ => rfl
  | ⟨1, _⟩ => rfl

/-- The relation result at row `b`, column `col`: the packed relation table at the row the index word names, when the
    word is below the table's height. -/
theorem gathR_apply (d : Dev nD) (X6 : Buf (Elt F) (rLoc d)) (X25 : Buf (Elt F) (bLoc d)) (b : Fin 16384) (col : Fin 128)
    (h : BitVec.toNat (X25 (ix2 (⟨b.val / 128, by have := b.isLt; omega⟩ : Fin 128) (⟨b.val % 128, by omega⟩ : Fin 128))) < 500) :
    gathR d X6 X25 (ix2 b col) = X6 (ix2 ⟨_, h⟩ col) := by
  unfold gathR
  refine congrArg X6 ?_
  funext a
  match a with
  | ⟨0, _⟩ =>
    apply Fin.ext
    show BitVec.toNat (X25 _) % 500 = BitVec.toNat (X25 _)
    have e : ∀ i : (bLoc d).2.ty.shape.Idx, i = ix2 (⟨b.val / 128, by have := b.isLt; omega⟩ : Fin 128) (⟨b.val % 128, by omega⟩ : Fin 128) → BitVec.toNat (X25 i) % 500 = BitVec.toNat (X25 (ix2 (⟨b.val / 128, by have := b.isLt; omega⟩ : Fin 128) (⟨b.val % 128, by omega⟩ : Fin 128))) :=
      fun i hi => by rw [hi]; exact Nat.mod_eq_of_lt h
    refine e _ ?_
    funext a'
    match a' with
    | ⟨0, _⟩ => rfl
    | ⟨1, _⟩ => rfl
  | ⟨1, _⟩ => rfl

/-! ## The five results over a valuation -/

/-- Entity result 0 over the buffers `VA`: gathered from the packed entity table by the first quarter of the index words. -/
def G0Of (VA : Dev nD → Valuation τ sig (Elt F)) (d : Dev nD) : Buf (Elt F) (locR0 d) := gathE d (VA d r5') (VA d r24') 0
/-- Entity result 1: by the second quarter. -/
def G1Of (VA : Dev nD → Valuation τ sig (Elt F)) (d : Dev nD) : Buf (Elt F) (locR1 d) := gathE d (VA d r5') (VA d r24') 1
/-- Entity result 2: by the third quarter. -/
def G2Of (VA : Dev nD → Valuation τ sig (Elt F)) (d : Dev nD) : Buf (Elt F) (locR2 d) := gathE d (VA d r5') (VA d r24') 2
/-- Entity result 3: by the last quarter. -/
def G3Of (VA : Dev nD → Valuation τ sig (Elt F)) (d : Dev nD) : Buf (Elt F) (locR3 d) := gathE d (VA d r5') (VA d r24') 3
/-- The relation result: gathered from the packed relation table by the relation index words. -/
def G4Of (VA : Dev nD → Valuation τ sig (Elt F)) (d : Dev nD) : Buf (Elt F) (locR4 d) := gathR d (VA d r6') (VA d r25')

/-! ## Their reads over what the first host program leaves -/

variable [FloatOps F]

theorem hG0_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 0 + b.val / 128, by have := b.isLt; omega⟩ : Fin 512) (⟨b.val % 128, by omega⟩ : Fin 128))) < 500000),
      G0Of (fun d => VAof (StableHlo.launchContents m d) (Pk d)) d (ix2 b col)
        = VAof (StableHlo.launchContents m d) (Pk d) (Proc.devRef .tc main_v5) (ix2 ⟨_, h⟩ col) :=
  fun d b col h => gathE_apply d _ _ 0 b col h

theorem hG1_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 1 + b.val / 128, by have := b.isLt; omega⟩ : Fin 512) (⟨b.val % 128, by omega⟩ : Fin 128))) < 500000),
      G1Of (fun d => VAof (StableHlo.launchContents m d) (Pk d)) d (ix2 b col)
        = VAof (StableHlo.launchContents m d) (Pk d) (Proc.devRef .tc main_v5) (ix2 ⟨_, h⟩ col) :=
  fun d b col h => gathE_apply d _ _ 1 b col h

theorem hG2_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 2 + b.val / 128, by have := b.isLt; omega⟩ : Fin 512) (⟨b.val % 128, by omega⟩ : Fin 128))) < 500000),
      G2Of (fun d => VAof (StableHlo.launchContents m d) (Pk d)) d (ix2 b col)
        = VAof (StableHlo.launchContents m d) (Pk d) (Proc.devRef .tc main_v5) (ix2 ⟨_, h⟩ col) :=
  fun d b col h => gathE_apply d _ _ 2 b col h

theorem hG3_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v24) (ix2 (⟨128 * 3 + b.val / 128, by have := b.isLt; omega⟩ : Fin 512) (⟨b.val % 128, by omega⟩ : Fin 128))) < 500000),
      G3Of (fun d => VAof (StableHlo.launchContents m d) (Pk d)) d (ix2 b col)
        = VAof (StableHlo.launchContents m d) (Pk d) (Proc.devRef .tc main_v5) (ix2 ⟨_, h⟩ col) :=
  fun d b col h => gathE_apply d _ _ 3 b col h

theorem hG4_of (m : (ℓ : Loc nD τ sig) → Buf (Elt F) ℓ) (Pk : (d : Dev nD) → (Proc.devRef .tc main_v5 : DevRef τ sig).ty.Contents (Elt F)) :
    ∀ (d : Dev nD) (b : Fin 16384) (col : Fin 128)
      (h : BitVec.toNat (VAof (StableHlo.launchContents m d) (Pk d) (Proc.devRef .tc main_v25) (ix2 (⟨b.val / 128, by have := b.isLt; omega⟩ : Fin 128) (⟨b.val % 128, by omega⟩ : Fin 128))) < 500),
      G4Of (fun d => VAof (StableHlo.launchContents m d) (Pk d)) d (ix2 b col)
        = VAof (StableHlo.launchContents m d) (Pk d) (Proc.devRef .tc main_v6) (ix2 ⟨_, h⟩ col) :=
  fun d b col h => gathR_apply d _ _ b col h

end Cert.Proof.KB

end
-- ==== Proof.BClose.lean ====
/-
  The run from the precondition: the precondition puts every gather index in range, which is what the tiles ask; the
  gathered arrays are then named functions of the first stretch's valuation.
-/
import proofs.«205037_g73117523247527_cont_9to1c4b_608_48_alg».proof.Proof.BFinal
import proofs.«205037_g73117523247527_cont_9to1c4b_608_48_alg».proof.Proof.BTileObl
import proofs.«205037_g73117523247527_cont_9to1c4b_608_48_alg».proof.Proof.BTileSplit
import proofs.«205037_g73117523247527_cont_9to1c4b_608_48_alg».proof.Proof.BTile
import proofs.«205037_g73117523247527_cont_9to1c4b_608_48_alg».proof.Proof.BIdxOK
import proofs.«205037_g73117523247527_cont_9to1c4b_608_48_alg».proof.Proof.BGathRead

noncomputable section

namespace Cert.Proof.KB

open Cert.Kernel Cert.Kernel.Gen

open Idealize.ShloMosaic
open Idealize.SL.Sem

variable {F : FTy → Type} [FloatOps F]

variable (m : (ℓ : Loc nD τ sig) → Buf (Elt F) ℓ) (ρ : Dev nD → PrngReg)

/-- The final valuation of the program from the launch memory `m`. -/
abbrev Wend : Dev nD → Valuation τ sig (Elt F) :=
  Wfin m (PkOf m) (G0Of (VAf m)) (G1Of (VAf m)) (G2Of (VAf m)) (G3Of (VAf m)) (G4Of (VAf m))

/-- Under the precondition the program runs to the end, and the final memory holds the result and the arguments at
    the final valuation. -/
theorem run_of_pre [Cert.Pre_input_domain.Facts] [∀ e, Nonempty (Elt F e)]
    (hfn : ∀ c : Dev nD, Cert.Pre_input_domain.fn (F := F) (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)) (m (c, Proc.devRef .tc main_arg6)) = fun _ => 1#1) :
    θ_run (Cert.Kernel.defs (F := F)) (Cert.Kernel.threads (F := F)) ⟨m, fun _ => 0, ρ⟩ (QC8 (Wend m)) :=
  runKI m ρ _ _ _ _ _ (tileObl facts (VAf m) (fun d => (idx_ok m hfn (PkOf m) d).1) (fun d => (idx_ok m hfn (PkOf m) d).2)
    (fun d L hF X q X5 X6 X24 X25 Y0 Y1 Y2 Y3 Y4 h24 h25 O W hO => tile_body d L hF X q X5 X6 X24 X25 Y0 Y1 Y2 Y3 Y4 h24 h25 O W hO)
    tileGo_eq_subGo tileTd_eq_subTd)

theorem kept_end (d : Dev nD) :
    Wend m d r_arg0 = m (d, r_arg0) ∧ Wend m d r_arg1 = m (d, r_arg1) ∧ Wend m d r_arg2 = m (d, r_arg2) ∧ Wend m d r_arg3 = m (d, r_arg3)
      ∧ Wend m d r_arg4 = m (d, r_arg4) ∧ Wend m d r_arg5 = m (d, r_arg5) ∧ Wend m d r_arg6 = m (d, r_arg6) :=
  kept_all m (PkOf m) _ _ _ _ _ d

end Cert.Proof.KB

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.LossValue.lean ====
/-
  The value of the loss kernel's result. The output block stays in its staging buffer across the eight grid points
  and is written back once, after the last: so the result array ends holding the running sum after point 7, and on
  the extended reals that sum is the sum of the eight points' shares. A point's share is the sum over the block's
  2048 rows of the hinge of the margin plus the distance of the positive triple minus that of the negative one,
  scaled by 2^-14; each embedding row is picked out of a packed pair of rows by one bit of the row's parity word,
  and the four entity rows are normalised by the reciprocal of their length plus a small constant.
-/
import proofs.«205037_g73117523247527_cont_9to1c4b_608_48_alg».proof.Proof.Loss
import proofs.«205037_g73117523247527_cont_9to1c4b_608_48_alg».proof.Proof.LibKeepdims

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.ShloMosaic.Pipeline (Dat Cfg Window)

/-! ## The result array after the run -/

section Final

variable {F : FTy → Type} [FloatOps F]
variable (V : (c : Dev nD) → (b : Ref sig .tc) → Buf (Elt F) ((c : Thread nD τ).loc b))
  (O : CellTallies nD τ sig (HIx 1)) (B : Set (SemLoc sig × HIx 1))

/-- The running sum after the last point, as contents of the result array (its one block IS the array). -/
abbrev total2 (c : Dev nD) : Buf (Elt F) ((c : Thread nD τ).loc main_v49) :=
  acc2 V c 7 (by rw [show cfg2.N = 8 from N_2]; decide)

/-- Only the last point writes the block back. -/
theorem flush2_last (t : Fin cfg2.N) (hf : (cfg2.win 6).flush t = true) : t = t2_7 := by
  have hN : cfg2.N = 8 := N_2
  have h := (flush2_6 t).mp hf
  have := t.isLt
  exact Fin.ext (show t.val = 7 by omega)

/-- What that write-back writes: the block at index (0, 0) of the [1, 1] array, read through zero offsets, is the
    array. -/
theorem flushed2_eq (c : Dev nD) (t : Fin cfg2.N) (hf : (cfg2.win 6).flush t = true) :
    (dat2 V O B c).flushed 6 t = ((cfg2.win 6).blk t).view.read (Elt F) (total2 V c) := by
  obtain rfl := flush2_last t hf
  show (cfg2.win 6).cut (grid2.coords t2_7) ((dat2 V O B c).after 6 t2_7) = _
  rw [after2_6]
  have hz' : (fun a => win2_6.index t2_7 a * main_v49.ty.shape.size a) = fun _ => 0 :=
    funext fun a => by fin_cases a <;> decide
  exact (Memref.read_access_unit_zero (Elt F) main_v49 hz' (fun a => by rw [congrFun hz' a]; simp) (total2 V c)).symm

/-- So the result array ends holding the running sum after point 7: that point's block covers the array. -/
theorem final2 (c : Dev nD) : (dat2 V O B c).arrAt 6 cfg2.N = total2 V c :=
  (dat2 V O B c).arrAt_eq_of_cover 6 (total2 V c) (flushed2_eq V O B c) fun i =>
    ⟨t2_7, (flush2_6 t2_7).mpr rfl, by
      show i ∈ ((View.whole main_v49).slice (win2_6.rect t2_7)).set
      rw [View.set_slice_whole, Rect.mem_set_unit]
      intro a
      have h0 : (i 0 : Nat) < 1 := (i 0).isLt
      have h1 : (i 1 : Nat) < 1 := (i 1).isLt
      match a with
      | ⟨0, _⟩ =>
        show win2_6.index t2_7 0 * win2_6.size 0 ≤ (i 0 : Nat) ∧ (i 0 : Nat) < win2_6.index t2_7 0 * win2_6.size 0 + win2_6.xsize (grid2.coords t2_7) 0
        rw [show win2_6.index t2_7 0 * win2_6.size 0 = 0 from by decide +kernel, show win2_6.xsize (grid2.coords t2_7) 0 = 1 from by decide +kernel]
        omega
      | ⟨1, _⟩ =>
        show win2_6.index t2_7 1 * win2_6.size 1 ≤ (i 1 : Nat) ∧ (i 1 : Nat) < win2_6.index t2_7 1 * win2_6.size 1 + win2_6.xsize (grid2.coords t2_7) 1
        rw [show win2_6.index t2_7 1 * win2_6.size 1 = 0 from by decide +kernel, show win2_6.xsize (grid2.coords t2_7) 1 = 1 from by decide +kernel]
        omega⟩

end Final

/-! ## The body's share, cut into its three kinds of step -/

section Pieces

variable {F : FTy → Type} [FloatOps F]

/-- The row picked out of each packed pair: bit `k` of the row's parity word chooses the upper half of the
    128-wide row (columns 64..127) when set, the lower half otherwise. -/
def pickV (p : IVec S2048x1 32) (k : BitVec 32) (x : Vec F S2048x128 .f32) : FVec F S2048x64 .f32 :=
  select
    (broadcastTo S2048x64
      (shapeCast S2048x1 (cmpi .ne (andi (shrsi p (broadcast S2048x1 k)) (broadcast S2048x1 1#32)) (broadcast S2048x1 0#32))
        shapeCasts_S2048x1_S2048x1) broadcasts_S2048x1_S2048x64)
    (extractStridedSlice S2048x64 ![0, 64] (shapeCast S2048x128 x shapeCasts_S2048x128_S2048x128) slices_S2048x128_o0_64_S2048x64)
    (extractStridedSlice S2048x64 ![0, 0] (shapeCast S2048x128 x shapeCasts_S2048x128_S2048x128) slices_S2048x128_o0_0_S2048x64)

/-- A row scaled by the reciprocal of (its length plus the small constant). -/
def nrmV (v : FVec F S2048x64 .f32) : FVec F S2048x64 .f32 :=
  mulf v (broadcastTo S2048x64
    (divf (broadcast S2048x1 (Scalar.ofBits .f32 0x3F800000#32))
      (addf (sqrt (shapeCast S2048x1 (multiReduction .add [1] S2048 (mulf v v) 0x00000000#32 reduces_S2048x64_S2048 (.inl rfl) rfl) shapeCasts_S2048_S2048x1))
        (broadcast S2048x1 (Scalar.ofBits .f32 0x2B8CBCCC#32))))
    broadcasts_S2048x1_S2048x64)

/-- The hinge of margin plus positive distance minus negative distance, summed over the block's rows and scaled. -/
def lossV (h t hn tn r : FVec F S2048x64 .f32) : F .f32 :=
  Scalar.mulf
    (extractAt ![0, 0]
      (shapeCast S1x1
        (multiReduction .add [1] S1
          (shapeCast S1x2048
            (maximumf
              (subf
                (addf (broadcast S2048 (Scalar.ofBits .f32 0x3F800000#32))
                  (multiReduction .add [1] S2048 (absf (subf (addf h r) t)) 0x00000000#32 reduces_S2048x64_S2048 (.inl rfl) rfl))
                (multiReduction .add [1] S2048 (absf (subf (addf hn r) tn)) 0x00000000#32 reduces_S2048x64_S2048 (.inl rfl) rfl))
              (broadcast S2048 (Scalar.ofBits .f32 0x00000000#32)))
            shapeCasts_S2048_S1x2048)
          0x00000000#32 reduces_S1x2048_S1 (.inl rfl) rfl)
        shapeCasts_S1_S1x1)
      inpos_S1x1_p0_0)
    (Scalar.ofBits .f32 0x38800000#32)

/-- The point's share is the loss of the four normalised entity rows and the relation row, each picked by its bit. -/
theorem part2_eq (x0 x1 x2 x3 x4 : Vec F S2048x128 .f32) (x5 : Vec F S2048x1 .i32) :
    part2 x0 x1 x2 x3 x4 x5
      = lossV (nrmV (pickV (k2_pay2 x5) 0#32 x0)) (nrmV (pickV (k2_pay2 x5) 1#32 x1))
          (nrmV (pickV (k2_pay2 x5) 2#32 x2)) (nrmV (pickV (k2_pay2 x5) 3#32 x3)) (pickV (k2_pay2 x5) 4#32 x4) := rfl

end Pieces

/-! ## The three steps read at an index, on the extended reals -/

section AtIdeal

/-- Bit `k` of a parity word `w`, as the compare word the body computes: `((w >> k) & 1) ≠ 0`. -/
def pbit (k w : BitVec 32) : BitVec 1 := IntOp.cmpi .ne (IntOp.andi (IntOp.shrsi .vector w k) 1#32) 0#32

/-- The picked row at column `j`: column `64 + j` of the packed row when the bit is set, column `j` otherwise. -/
theorem pickV_apply (p : IVec S2048x1 32) (k : BitVec 32) (x : Vec Ideal S2048x128 .f32) (b : Fin 2048) (j : Fin 64) :
    pickV (F := Ideal) p k x (ix2 b j)
      = Scalar.select (pbit k (p (ix2 b (0 : Fin 1)))) (x (ix2 b ⟨64 + j.val, by omega⟩)) (x (ix2 b ⟨j.val, by omega⟩)) := by
  unfold pickV
  refine (select_apply _ _ _ (ix2 b j)).trans ?_
  refine congr (congr (congrArg Scalar.select ?_) ?_) ?_
  · refine (Cert.LibKeepdims.broadcastTo_a1_ab_apply _ _ b j).trans ?_
    rw [shapeCast_self]; rfl
  · rw [shapeCast_self]
    exact slice2_axis1_apply 64 x _ b j ⟨64 + j.val, by omega⟩ rfl
  · rw [shapeCast_self]
    exact slice2_axis1_apply 0 x _ b j ⟨j.val, by omega⟩ (Nat.zero_add _).symm

/-- A normalised row at column `j`: the entry times the reciprocal of (the root of the row's sum of squares plus the
    small constant). -/
theorem nrmV_apply (v : FVec Ideal S2048x64 .f32) (b : Fin 2048) (j : Fin 64) :
    nrmV v (ix2 b j) = v (ix2 b j) * Ideal.div (Ideal.ofBits .f32 0x3F800000#32)
        (Ideal.sqrt (∑ k : Fin 64, v (ix2 b k) * v (ix2 b k)) + Ideal.ofBits .f32 0x2B8CBCCC#32) := by
  unfold nrmV
  refine (mulf_apply _ _ _).trans ?_
  refine congrArg (v (ix2 b j) * ·) ?_
  refine (Cert.LibKeepdims.broadcastTo_a1_ab_apply _ _ b j).trans ?_
  refine (divf_apply _ _ _).trans ?_
  refine congrArg₂ Ideal.div rfl ?_
  refine (addf_apply _ _ _).trans ?_
  refine congrArg₂ (· + ·) ?_ rfl
  show Ideal.sqrt (shapeCast S2048x1 _ _ (ix2 b (0 : Fin 1))) = _
  refine congrArg Ideal.sqrt ?_
  refine (Cert.LibKeepdims.shapeCast_a_a1_apply _ _ b (0 : Fin 1)).trans ?_
  exact Cert.LibKeepdims.rowSum_apply _ _ _ _ _ b

/-- The one entry of a [1, 1] vector, extracted at position (0, 0). -/
theorem extractAt_00 (x : S1x1.Idx → EReal) : extractAt ![0, 0] x inpos_S1x1_p0_0 = x (ix2 (0 : Fin 1) (0 : Fin 1)) :=
  congrArg x (funext fun a => by match a with | ⟨0, _⟩ => rfl | ⟨1, _⟩ => rfl)

/-- The loss of five row blocks: over the rows, the hinge at zero of the margin plus the positive triple's distance
    minus the negative triple's, summed and scaled. -/
theorem lossV_eq (h t hn tn r : FVec Ideal S2048x64 .f32) :
    lossV h t hn tn r
      = (∑ b : Fin 2048, max (Ideal.ofBits .f32 0x3F800000#32
            + (∑ j : Fin 64, FloatOps.absf (h (ix2 b j) + r (ix2 b j) - t (ix2 b j)))
            - (∑ j : Fin 64, FloatOps.absf (hn (ix2 b j) + r (ix2 b j) - tn (ix2 b j)))) (Ideal.ofBits .f32 0x00000000#32))
        * Ideal.ofBits .f32 0x38800000#32 := by
  unfold lossV
  show (_ : EReal) * _ = _
  refine congrArg (· * Ideal.ofBits .f32 0x38800000#32) ?_
  refine (extractAt_00 _).trans ?_
  refine (Cert.LibKeepdims.shapeCast_a_a1_apply _ _ (0 : Fin 1) (0 : Fin 1)).trans ?_
  refine (Cert.LibKeepdims.rowSum_apply _ _ _ _ _ (0 : Fin 1)).trans ?_
  refine Finset.sum_congr rfl fun k _ => ?_
  refine (shapeCast_a_1a_apply _ _ (0 : Fin 1) k).trans ?_
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) rfl ?_
    exact Cert.LibKeepdims.rowSum_apply _ _ _ _ _ k
  · exact Cert.LibKeepdims.rowSum_apply _ _ _ _ _ k

/-! ## The share as a function of rows -/

/-- One packed row's pick: the half bit `k` of the parity word `w` selects. -/
def pickE (k w : BitVec 32) (row : Fin 128 → EReal) (j : Fin 64) : EReal :=
  Scalar.select (pbit k w) (row ⟨64 + j.val, by omega⟩) (row ⟨j.val, by omega⟩)

/-- A row over (its length plus the small constant 0x2B8CBCCC, about 1e-12). -/
def nrmE (v : Fin 64 → EReal) (j : Fin 64) : EReal :=
  v j * Ideal.div (Ideal.ofBits .f32 0x3F800000#32) (Ideal.sqrt (∑ k : Fin 64, v k * v k) + Ideal.ofBits .f32 0x2B8CBCCC#32)

/-- One row's hinge: margin 1 plus the positive triple's 1-norm distance minus the negative triple's, at least zero. -/
def hingeE (h t hn tn r : Fin 64 → EReal) : EReal :=
  max (Ideal.ofBits .f32 0x3F800000#32 + (∑ j : Fin 64, FloatOps.absf (F := Ideal) (φ := .f32) (h j + r j - t j))
      - (∑ j : Fin 64, FloatOps.absf (F := Ideal) (φ := .f32) (hn j + r j - tn j))) (Ideal.ofBits .f32 0x00000000#32)

/-- A block's share of the loss: its 2048 rows' hinges, summed, times 2^-14 (the word 0x38800000): bits 0 to 3 of
    the parity word pick head, tail, negative head and negative tail, which are normalised; bit 4 picks the relation. -/
def shareE (x0 x1 x2 x3 x4 : Fin 2048 → Fin 128 → EReal) (p : Fin 2048 → BitVec 32) : EReal :=
  (∑ b : Fin 2048, hingeE (nrmE (pickE 0#32 (p b) (x0 b))) (nrmE (pickE 1#32 (p b) (x1 b)))
      (nrmE (pickE 2#32 (p b) (x2 b))) (nrmE (pickE 3#32 (p b) (x3 b))) (pickE 4#32 (p b) (x4 b)))
    * Ideal.ofBits .f32 0x38800000#32

/-- The body's share of a point IS that function of its six blocks' rows. -/
theorem part2_apply (x0 x1 x2 x3 x4 : Vec Ideal S2048x128 .f32) (x5 : Vec Ideal S2048x1 .i32) :
    part2 (F := Ideal) x0 x1 x2 x3 x4 x5
      = shareE (fun b j => x0 (ix2 b j)) (fun b j => x1 (ix2 b j)) (fun b j => x2 (ix2 b j)) (fun b j => x3 (ix2 b j))
          (fun b j => x4 (ix2 b j)) (fun b => x5 (ix2 b (0 : Fin 1))) := by
  rw [part2_eq, lossV_eq]
  unfold shareE hingeE
  refine congrArg (· * Ideal.ofBits .f32 0x38800000#32) (Finset.sum_congr rfl fun b _ => ?_)
  have hp : k2_pay2 (F := Ideal) x5 (ix2 b (0 : Fin 1)) = x5 (ix2 b (0 : Fin 1)) := by
    unfold k2_pay2; rw [shapeCast_self]
  simp only [nrmV_apply, pickV_apply, hp]
  rfl

end AtIdeal

/-! ## The running sum is the sum of the shares -/

section Sum

variable (V : (c : Dev nD) → (b : Ref sig .tc) → Buf (Elt Ideal) ((c : Thread nD τ).loc b))

/-- The body's last step adds the point's share to the block's one entry. -/
theorem k2_pay1_apply (p : Ideal .f32) (x : Vec Ideal S1x1 .f32) (y : S1x1.Idx) : k2_pay1 (F := Ideal) p x y = x y + p := by
  unfold k2_pay1
  refine (addf_apply _ _ _).trans ?_
  rw [shapeCast_self]; rfl

/-- The block the first point stores is zero. -/
theorem k2_pay11_apply (y : S1x1.Idx) : k2_pay11 (F := Ideal) y = 0 := by
  unfold k2_pay11; exact Ideal.ofBits_zero_f32

/-- The share of position `n` of the grid (zero past the grid). -/
def partN (c : Dev nD) (n : ℕ) : EReal := if h : n < cfg2.N then partAt V c ⟨n, h⟩ else 0

/-- After position `n` the block's entry is the sum of the shares up to `n`: by induction on the position. -/
theorem acc2_apply (c : Dev nD) (y : S1x1.Idx) :
    ∀ (n : ℕ) (h : n < cfg2.N), acc2 V c n h y = ∑ k ∈ Finset.range (n + 1), partN V c k
  | 0, h => by
    rw [Finset.sum_range_one]; unfold partN; rw [dif_pos h]
    show k2_pay1 (F := Ideal) (partAt V c ⟨0, h⟩) (k2_pay11 (F := Ideal)) y = _
    rw [k2_pay1_apply, k2_pay11_apply, zero_add]
  | n + 1, h => by
    rw [Finset.sum_range_succ, ← acc2_apply c y n (Nat.lt_of_succ_lt h)]
    unfold partN; rw [dif_pos h]
    show k2_pay1 (F := Ideal) (partAt V c ⟨n + 1, h⟩) (acc2 V c n (Nat.lt_of_succ_lt h)) y = _
    rw [k2_pay1_apply]

/-- So after the last point it is the sum of all eight shares. -/
theorem acc2_last (c : Dev nD) (y : S1x1.Idx) (h7 : 7 < cfg2.N) :
    acc2 V c 7 h7 y = ∑ t : Fin cfg2.N, partAt V c t := by
  have hN : cfg2.N = 7 + 1 := N_2
  rw [acc2_apply V c y 7 h7, ← hN, ← Fin.sum_univ_eq_sum_range (fun k => partN V c k) cfg2.N]
  exact Finset.sum_congr rfl fun t _ => by unfold partN; rw [dif_pos t.isLt]

/-! ## The blocks, read off the arrays -/

/-- The printed index maps, decided over the grid: every input's block index is (the point, 0). -/
theorem idx2_in : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0) :=
  (by decide +kernel : ∀ t : Fin grid2.N, _)

/-- Row `2048 t + b` of a [16384, ·] array: the row of block `t` at offset `b`. -/
abbrev rowOf (t : Fin cfg2.N) (b : Fin 2048) : Fin 16384 :=
  ⟨t.val * 2048 + b.val, by have := t.isLt; have hN : cfg2.N = 8 := N_2; have := b.isLt; omega⟩

/-- Entry (b, j) of window 0's block at point `t` is entry (2048 t + b, j) of its array. -/
theorem iblk2_0_apply (c : Dev nD) (t : Fin cfg2.N) (b : Fin 2048) (j : Fin 128) :
    iblk2 V c 0 t (ix2 b j) = V c main_v26_0 (ix2 (rowOf t b) j) := by
  obtain ⟨e0, e1, e2, e3, e4, e5⟩ := idx2_in t
  show V c main_v26_0 (((cfg2.win 0).blk t).view.emb (ix2 b j)) = V c main_v26_0 (ix2 (rowOf t b) j)
  refine congrArg _ (funext fun a => Fin.ext ?_)
  match a with
  | ⟨0, _⟩ => show win2_0.index t (0 : Fin 2) * 2048 + 1 * b.val = t.val * 2048 + b.val; rw [e0.1]; omega
  | ⟨1, _⟩ => show win2_0.index t (1 : Fin 2) * 128 + 1 * j.val = j.val; rw [e0.2]; omega

/-- Entry (b, j) of window 1's block at point `t` is entry (2048 t + b, j) of its array. -/
theorem iblk2_1_apply (c : Dev nD) (t : Fin cfg2.N) (b : Fin 2048) (j : Fin 128) :
    iblk2 V c 1 t (ix2 b j) = V c main_v26_1 (ix2 (rowOf t b) j) := by
  obtain ⟨e0, e1, e2, e3, e4, e5⟩ := idx2_in t
  show V c main_v26_1 (((cfg2.win 1).blk t).view.emb (ix2 b j)) = V c main_v26_1 (ix2 (rowOf t b) j)
  refine congrArg _ (funext fun a => Fin.ext ?_)
  match a with
  | ⟨0, _⟩ => show win2_1.index t (0 : Fin 2) * 2048 + 1 * b.val = t.val * 2048 + b.val; rw [e1.1]; omega
  | ⟨1, _⟩ => show win2_1.index t (1 : Fin 2) * 128 + 1 * j.val = j.val; rw [e1.2]; omega

/-- Entry (b, j) of window 2's block at point `t` is entry (2048 t + b, j) of its array. -/
theorem iblk2_2_apply (c : Dev nD) (t : Fin cfg2.N) (b : Fin 2048) (j : Fin 128) :
    iblk2 V c 2 t (ix2 b j) = V c main_v26_2 (ix2 (rowOf t b) j) := by
  obtain ⟨e0, e1, e2, e3, e4, e5⟩ := idx2_in t
  show V c main_v26_2 (((cfg2.win 2).blk t).view.emb (ix2 b j)) = V c main_v26_2 (ix2 (rowOf t b) j)
  refine congrArg _ (funext fun a => Fin.ext ?_)
  match a with
  | ⟨0, _⟩ => show win2_2.index t (0 : Fin 2) * 2048 + 1 * b.val = t.val * 2048 + b.val; rw [e2.1]; omega
  | ⟨1, _⟩ => show win2_2.index t (1 : Fin 2) * 128 + 1 * j.val = j.val; rw [e2.2]; omega

/-- Entry (b, j) of window 3's block at point `t` is entry (2048 t + b, j) of its array. -/
theorem iblk2_3_apply (c : Dev nD) (t : Fin cfg2.N) (b : Fin 2048) (j : Fin 128) :
    iblk2 V c 3 t (ix2 b j) = V c main_v26_3 (ix2 (rowOf t b) j) := by
  obtain ⟨e0, e1, e2, e3, e4, e5⟩ := idx2_in t
  show V c main_v26_3 (((cfg2.win 3).blk t).view.emb (ix2 b j)) = V c main_v26_3 (ix2 (rowOf t b) j)
  refine congrArg _ (funext fun a => Fin.ext ?_)
  match a with
  | ⟨0, _⟩ => show win2_3.index t (0 : Fin 2) * 2048 + 1 * b.val = t.val * 2048 + b.val; rw [e3.1]; omega
  | ⟨1, _⟩ => show win2_3.index t (1 : Fin 2) * 128 + 1 * j.val = j.val; rw [e3.2]; omega

/-- Entry (b, j) of window 4's block at point `t` is entry (2048 t + b, j) of its array. -/
theorem iblk2_4_apply (c : Dev nD) (t : Fin cfg2.N) (b : Fin 2048) (j : Fin 128) :
    iblk2 V c 4 t (ix2 b j) = V c main_v26_4 (ix2 (rowOf t b) j) := by
  obtain ⟨e0, e1, e2, e3, e4, e5⟩ := idx2_in t
  show V c main_v26_4 (((cfg2.win 4).blk t).view.emb (ix2 b j)) = V c main_v26_4 (ix2 (rowOf t b) j)
  refine congrArg _ (funext fun a => Fin.ext ?_)
  match a with
  | ⟨0, _⟩ => show win2_4.index t (0 : Fin 2) * 2048 + 1 * b.val = t.val * 2048 + b.val; rw [e4.1]; omega
  | ⟨1, _⟩ => show win2_4.index t (1 : Fin 2) * 128 + 1 * j.val = j.val; rw [e4.2]; omega

/-- Entry (b, 0) of the parity words' block at point `t` is entry (2048 t + b, 0) of their array. -/
theorem iblk2_5_apply (c : Dev nD) (t : Fin cfg2.N) (b : Fin 2048) :
    iblk2 V c 5 t (ix2 b (0 : Fin 1)) = V c main_v48 (ix2 (rowOf t b) (0 : Fin 1)) := by
  obtain ⟨e0, e1, e2, e3, e4, e5⟩ := idx2_in t
  show V c main_v48 (((cfg2.win 5).blk t).view.emb (ix2 b (0 : Fin 1))) = V c main_v48 (ix2 (rowOf t b) (0 : Fin 1))
  refine congrArg _ (funext fun a => Fin.ext ?_)
  match a with
  | ⟨0, _⟩ => show win2_5.index t (0 : Fin 2) * 2048 + 1 * b.val = t.val * 2048 + b.val; rw [e5.1]; omega
  | ⟨1, _⟩ => show win2_5.index t (1 : Fin 2) * 1 + 1 * 0 = 0; rw [e5.2]

/-- A POINT'S SHARE over the arrays the region finds: `shareE` of rows 2048 t .. 2048 t + 2047 of the five gathered
    arrays and of the parity words. -/
theorem partAt_eq (c : Dev nD) (t : Fin cfg2.N) :
    partAt V c t
      = shareE (fun b j => V c main_v26_0 (ix2 (rowOf t b) j)) (fun b j => V c main_v26_1 (ix2 (rowOf t b) j))
          (fun b j => V c main_v26_2 (ix2 (rowOf t b) j)) (fun b j => V c main_v26_3 (ix2 (rowOf t b) j))
          (fun b j => V c main_v26_4 (ix2 (rowOf t b) j)) (fun b => V c main_v48 (ix2 (rowOf t b) (0 : Fin 1))) := by
  unfold partAt
  rw [part2_apply]
  simp only [iblk2_0_apply, iblk2_1_apply, iblk2_2_apply, iblk2_3_apply, iblk2_4_apply, iblk2_5_apply]

/-- THE RESULT: the loss array ends holding, at its one entry, the sum over the eight points of the points' shares. -/
theorem loss_value (O : CellTallies nD τ sig (HIx 1)) (B : Set (SemLoc sig × HIx 1)) (c : Dev nD) (y : S1x1.Idx) :
    (dat2 V O B c).arrAt 6 cfg2.N y = ∑ t : Fin cfg2.N, partAt V c t :=
  (congrFun (final2 V O B c) y).trans (acc2_last V c y _)

end Sum

end Cert.Proof.KI

end
-- ==== Proof.PickRow.lean ====
/-
  The half of a gathered packed row that the loss picks: bit `k` of the sample's packed word chooses
  the right half (columns 64 … 127) where it is set and the left half (columns 0 … 63) where it is not.
-/
import proofs.«205037_g73117523247527_cont_9to1c4b_608_48_alg».proof.Proof.IdxArith

namespace Cert.Proof.Spec

open Idealize.ShloMosaic

/-- Row `b` of the picked halves: entry `j` is column `64 + j` of the gathered row where bit `k` of the
    sample's packed word is set, column `j` where it is not. -/
def pickRow {α : Type} (k : BitVec 32) (G : Fin 16384 → Fin 128 → α) (pb : Fin 16384 → BitVec 32)
    (b : Fin 16384) (j : Fin 64) : α :=
  Scalar.select (Cert.Proof.IdxArith.readBitW k (pb b)) (G b ⟨64 + j.val, by omega⟩) (G b ⟨j.val, by omega⟩)

end Cert.Proof.Spec
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.Bridge.lean ====
/-
  The algebra that joins two arrangements of one loss at the ideal values, where a float is an
  extended real and every operation is exact.

  A row `x` of reals is normalised by its Euclidean norm plus a positive constant `ε`. One side
  divides each entry by `√(∑ x k ²) + ε`; the other multiplies it by the reciprocal `1 / (√(∑ x k ²) + ε)`.
  The denominator is a positive real, so both are the real `x j / (√(∑ x k ²) + ε)`.

  The loss is the mean over 16384 samples of the hinge `max (1 + a - b) 0`, where `a` and `b` are sums
  of absolute values of real entries. One side adds all samples and divides by `16384`; the other adds
  the samples of each of 8 blocks of 2048, multiplies the block's sum by `2⁻¹⁴ = 1 / 16384`, and adds the
  eight products from left to right starting from `0`. With every sample a real both are the real
  `(∑ s) / 16384`: the product distributes over the sum of the blocks, and the blocks partition the
  samples.

  Everything is stated for extended reals that are reals (neither `⊤` nor `⊥`); the laws are proved by
  naming the real each one is, pushing the inclusion of the reals out of the sums and products, and
  concluding in the reals.
-/
import proofs.«205037_g73117523247527_cont_9to1c4b_608_48_alg».proof.Proof.LibFinite
import proofs.«205037_g73117523247527_cont_9to1c4b_608_48_alg».proof.Proof.LibERealCoe

noncomputable section

open scoped BigOperators

namespace Cert.Proof.Bridge

open Idealize.ShloMosaic Cert.Fin

/-! ## Reals are closed under negation, subtraction and the absolute value -/

theorem isFin_neg {x : EReal} (hx : IsFin x) : IsFin (-x) := by
  obtain ⟨a, rfl⟩ := (isFin_iff x).1 hx
  rw [← EReal.coe_neg]; exact IsFin.coe _

theorem isFin_sub {x y : EReal} (hx : IsFin x) (hy : IsFin y) : IsFin (x - y) := by
  obtain ⟨a, rfl⟩ := (isFin_iff x).1 hx
  obtain ⟨b, rfl⟩ := (isFin_iff y).1 hy
  rw [← EReal.coe_sub]; exact IsFin.coe _

/-- The absolute value as the ideal values take it, `max x (-x)`, of a real. -/
theorem isFin_abs {x : EReal} (hx : IsFin x) : IsFin (max x (-x)) := IsFin.max hx (isFin_neg hx)

/-! ## The float constants -/

/-- The word `0x38800000` is `2⁻¹⁴ = 1 / 16384`: sign clear, exponent field `113 = 127 - 14`, no fraction. -/
theorem c_eq : Ideal.ofBits .f32 0x38800000#32 = (((1 : ℝ) / 16384 : ℝ) : EReal) := by
  simp [Ideal.ofBits, Ideal.ieee]
  exact_mod_cast (by norm_num : (8388608 : ℝ) * (2 ^ 37)⁻¹ = 16384⁻¹)

/-- The word `0x46800000` is `2¹⁴ = 16384`: sign clear, exponent field `141 = 127 + 14`, no fraction. -/
theorem n_eq : Ideal.ofBits .f32 0x46800000#32 = ((16384 : ℝ) : EReal) := by
  simp [Ideal.ofBits, Ideal.ieee]
  exact_mod_cast (by norm_num : (8388608 : ℝ) * (2 ^ 9)⁻¹ = 16384)

/-- The word `0x2B8CBCCC` is a positive real (its value is never needed). -/
theorem eps_eq : ∃ e : ℝ, 0 < e ∧ Ideal.ofBits .f32 0x2B8CBCCC#32 = (e : EReal) := by
  refine ⟨9223372 * (2 ^ 63)⁻¹, by positivity, ?_⟩
  simp [Ideal.ofBits, Ideal.ieee]

theorem isFin_ofBits_one : IsFin (Ideal.ofBits .f32 0x3F800000#32) := by
  rw [Ideal.ofBits_one_f32]; exact IsFin.one
theorem isFin_ofBits_zero : IsFin (Ideal.ofBits .f32 0x00000000#32) := by
  rw [Ideal.ofBits_zero_f32]; exact IsFin.zero
theorem isFin_ofBits_c : IsFin (Ideal.ofBits .f32 0x38800000#32) := by
  rw [c_eq]; exact IsFin.coe _
theorem isFin_ofBits_eps : IsFin (Ideal.ofBits .f32 0x2B8CBCCC#32) := by
  obtain ⟨e, -, h⟩ := eps_eq; rw [h]; exact IsFin.coe e

/-! ## Normalising a row -/

section Row
variable {ι : Type} [Fintype ι]

/-- The norm of a real row plus `ε` is a positive real. -/
theorem den_pos (x : ι → EReal) (hx : ∀ k, IsFin (x k)) :
    ∃ d : ℝ, 0 < d ∧ Ideal.sqrt (∑ k, x k * x k) + Ideal.ofBits .f32 0x2B8CBCCC#32 = (d : EReal) := by
  obtain ⟨e, he, heq⟩ := eps_eq
  choose r hr using fun k => (isFin_iff (x k)).1 (hx k)
  have hS : ∑ k, x k * x k = ((∑ k, r k * r k : ℝ) : EReal) := by
    rw [Cert.ERealCoe.coe_sum]
    exact Finset.sum_congr rfl fun k _ => by rw [hr k, EReal.coe_mul]
  have hS0 : 0 ≤ ∑ k, r k * r k := Finset.sum_nonneg fun k _ => mul_self_nonneg _
  refine ⟨Real.sqrt (∑ k, r k * r k) + e, add_pos_of_nonneg_of_pos (Real.sqrt_nonneg _) he, ?_⟩
  rw [hS, Ideal.sqrt_coe, if_neg (not_lt.mpr hS0), heq, EReal.coe_add]

/-- Multiplying an entry by the reciprocal of the norm plus `ε` is dividing it by the norm plus `ε`. -/
theorem nrm_eq (x : ι → EReal) (hx : ∀ k, IsFin (x k)) (j : ι) :
    x j * Ideal.div (Ideal.ofBits .f32 0x3F800000#32)
        (Ideal.sqrt (∑ k, x k * x k) + Ideal.ofBits .f32 0x2B8CBCCC#32)
      = Ideal.div (x j) (Ideal.sqrt (∑ k, x k * x k) + Ideal.ofBits .f32 0x2B8CBCCC#32) := by
  obtain ⟨d, hd, hden⟩ := den_pos x hx
  rw [hden, Ideal.ofBits_one_f32, Ideal.div_coe hd.ne', Ideal.div_coe hd.ne', one_mul]

/-- A normalised entry of a real row is a real. -/
theorem nrm_isFin (x : ι → EReal) (hx : ∀ k, IsFin (x k)) (j : ι) :
    IsFin (Ideal.div (x j) (Ideal.sqrt (∑ k, x k * x k) + Ideal.ofBits .f32 0x2B8CBCCC#32)) := by
  obtain ⟨d, hd, hden⟩ := den_pos x hx
  rw [hden, Ideal.div_coe hd.ne']
  exact IsFin.mul (hx j) (IsFin.coe _)

/-- The same where the sum of squares starts from the zero word, as a reduction with an initial value
    writes it. -/
theorem nrm_eq_init (x : ι → EReal) (hx : ∀ k, IsFin (x k)) (j : ι) :
    x j * Ideal.div (Ideal.ofBits .f32 0x3F800000#32)
        (Ideal.sqrt (∑ k, x k * x k) + Ideal.ofBits .f32 0x2B8CBCCC#32)
      = Ideal.div (x j)
          (Ideal.sqrt (Ideal.ofBits .f32 0x00000000#32 + ∑ k, x k * x k) + Ideal.ofBits .f32 0x2B8CBCCC#32) := by
  rw [Ideal.ofBits_zero_f32, zero_add]; exact nrm_eq x hx j

/-! ## The distances and the hinge -/

/-- A sum of absolute values of reals is a real. -/
theorem abs_sum_isFin (u : ι → EReal) (hu : ∀ j, IsFin (u j)) : IsFin (∑ j, max (u j) (-(u j))) :=
  IsFin.sum _ _ fun j _ => isFin_abs (hu j)

/-- The distance `∑ |h + r - t|` of real rows is a real. -/
theorem dist_isFin (h r t : ι → EReal) (hh : ∀ j, IsFin (h j)) (hr : ∀ j, IsFin (r j)) (ht : ∀ j, IsFin (t j)) :
    IsFin (∑ j, max (h j + r j - t j) (-(h j + r j - t j))) :=
  abs_sum_isFin _ fun j => isFin_sub (IsFin.add (hh j) (hr j)) (ht j)

end Row

/-- The hinge `max (1 + a - b) 0` of reals is a real. -/
theorem hinge_isFin {a b : EReal} (ha : IsFin a) (hb : IsFin b) : IsFin (max (1 + a - b) 0) :=
  IsFin.max (isFin_sub (IsFin.add IsFin.one ha) hb) IsFin.zero

/-- The same with `1` and `0` as their float words. -/
theorem hinge_isFin_ofBits {a b : EReal} (ha : IsFin a) (hb : IsFin b) :
    IsFin (max (Ideal.ofBits .f32 0x3F800000#32 + a - b) (Ideal.ofBits .f32 0x00000000#32)) := by
  rw [Ideal.ofBits_one_f32, Ideal.ofBits_zero_f32]; exact hinge_isFin ha hb

/-! ## The mean by blocks -/

/-- Adding terms one at a time from zero, left to right, is their sum. -/
theorem foldl_add_eq_sum {M : Type} [AddCommMonoid M] :
    ∀ (n : ℕ) (p : Fin n → M), Fin.foldl n (fun a t => a + p t) 0 = ∑ t, p t
  | 0, p => by rw [Fin.foldl_zero, Finset.univ_eq_empty, Finset.sum_empty]
  | n + 1, p => by
    rw [Fin.foldl_succ_last, foldl_add_eq_sum n fun t => p t.castSucc, Fin.sum_univ_castSucc]

/-- A sequence that starts at zero and adds one term at each step has reached their sum. -/
theorem acc_eq_sum {M : Type} [AddCommMonoid M] (p a : ℕ → M) (h0 : a 0 = 0)
    (hs : ∀ t, a (t + 1) = a t + p t) (n : ℕ) : a n = ∑ t ∈ Finset.range n, p t := by
  induction n with
  | zero => rw [h0, Finset.range_zero, Finset.sum_empty]
  | succ n ih => rw [hs, ih, Finset.sum_range_succ]

/-- Blocks that partition the samples: the sum of the blocks' sums, each times `2⁻¹⁴`, is the sum of all
    samples divided by `16384`. -/
theorem mean_blocks_equiv {τ ι β : Type} [Fintype τ] [Fintype ι] [Fintype β] (e : τ × ι ≃ β)
    (s : β → EReal) (hs : ∀ b, IsFin (s b)) :
    ∑ t, (∑ i, s (e (t, i))) * Ideal.ofBits .f32 0x38800000#32
      = Ideal.div (∑ b, s b) (Ideal.ofBits .f32 0x46800000#32) := by
  choose r hr using fun b => (isFin_iff (s b)).1 (hs b)
  have hsum : ∑ t, ∑ i, r (e (t, i)) = ∑ b, r b := by
    rw [← Fintype.sum_prod_type fun p : τ × ι => r (e p)]
    exact Equiv.sum_comp e r
  rw [c_eq, n_eq, Ideal.div_coe (by norm_num : (16384 : ℝ) ≠ 0)]
  simp only [hr]
  calc ∑ t, (∑ i, ((r (e (t, i)) : ℝ) : EReal)) * (((1 : ℝ) / 16384 : ℝ) : EReal)
      = ∑ t, (((∑ i, r (e (t, i))) * (1 / 16384) : ℝ) : EReal) :=
        Finset.sum_congr rfl fun t _ => by rw [← Cert.ERealCoe.coe_sum, ← EReal.coe_mul]
    _ = (((∑ t, ∑ i, r (e (t, i))) * (1 / 16384) : ℝ) : EReal) := by
        rw [← Cert.ERealCoe.coe_sum, Finset.sum_mul]
    _ = (∑ b, ((r b : ℝ) : EReal)) * (((1 : ℝ) / 16384 : ℝ) : EReal) := by
        rw [hsum, EReal.coe_mul, Cert.ERealCoe.coe_sum]

/-- Block `t` of 2048 consecutive samples, out of 8 blocks of 16384 samples, as an equivalence. -/
def blockEquiv : Fin 8 × Fin 2048 ≃ Fin 16384 := finProdFinEquiv

theorem blockEquiv_val (t : Fin 8) (i : Fin 2048) : (blockEquiv (t, i)).val = 2048 * t.val + i.val := by
  show i.val + 2048 * t.val = _
  omega

section Blocks
variable (idx : Fin 8 → Fin 2048 → Fin 16384) (hidx : ∀ t i, (idx t i).val = 2048 * t.val + i.val)
  (s : Fin 16384 → EReal) (hs : ∀ b, IsFin (s b))
include hidx hs

/-- The sum over the 8 blocks of (the block's sum times `2⁻¹⁴`) is the mean of the 16384 samples. -/
theorem mean_blocks_sum :
    ∑ t : Fin 8, (∑ i : Fin 2048, s (idx t i)) * Ideal.ofBits .f32 0x38800000#32
      = Ideal.div (∑ b, s b) (Ideal.ofBits .f32 0x46800000#32) := by
  have h : ∀ t i, idx t i = blockEquiv (t, i) := fun t i => Fin.ext (by rw [hidx, blockEquiv_val])
  simp only [h]
  exact mean_blocks_equiv blockEquiv s hs

/-- The eight block terms added from left to right starting from zero. -/
theorem mean_blocks :
    Fin.foldl 8 (fun a t => a + (∑ i : Fin 2048, s (idx t i)) * Ideal.ofBits .f32 0x38800000#32) 0
      = Ideal.div (∑ b, s b) (Ideal.ofBits .f32 0x46800000#32) := by
  rw [foldl_add_eq_sum]; exact mean_blocks_sum idx hidx s hs

/-- The same written out: `((0 + p 0) + p 1) + … + p 7`. -/
theorem mean_blocks_left :
    0 + (∑ i : Fin 2048, s (idx 0 i)) * Ideal.ofBits .f32 0x38800000#32
        + (∑ i : Fin 2048, s (idx 1 i)) * Ideal.ofBits .f32 0x38800000#32
        + (∑ i : Fin 2048, s (idx 2 i)) * Ideal.ofBits .f32 0x38800000#32
        + (∑ i : Fin 2048, s (idx 3 i)) * Ideal.ofBits .f32 0x38800000#32
        + (∑ i : Fin 2048, s (idx 4 i)) * Ideal.ofBits .f32 0x38800000#32
        + (∑ i : Fin 2048, s (idx 5 i)) * Ideal.ofBits .f32 0x38800000#32
        + (∑ i : Fin 2048, s (idx 6 i)) * Ideal.ofBits .f32 0x38800000#32
        + (∑ i : Fin 2048, s (idx 7 i)) * Ideal.ofBits .f32 0x38800000#32
      = Ideal.div (∑ b, s b) (Ideal.ofBits .f32 0x46800000#32) := by
  rw [zero_add, ← mean_blocks_sum idx hidx s hs, Fin.sum_univ_eight]

/-- The same against the real divisor and with the total starting from the zero word, as a
    reduction with an initial value writes it. -/
theorem mean_blocks_sum_init :
    ∑ t : Fin 8, (∑ i : Fin 2048, s (idx t i)) * Ideal.ofBits .f32 0x38800000#32
      = Ideal.div (Ideal.ofBits .f32 0x00000000#32 + ∑ b, s b) (Ideal.ofBits .f32 0x46800000#32) := by
  rw [Ideal.ofBits_zero_f32, zero_add]; exact mean_blocks_sum idx hidx s hs

end Blocks

end Cert.Proof.Bridge

end
-- ==== Proof.Spec.lean ====
/-
  The two sides of the claim as formulas over tables indexed by row and column, and their equality at
  the ideal values.

  The reference normalises every row of the entity table by its norm plus `ε`, takes the rows the five
  index arrays name, and returns the mean over the 16384 samples of the hinge
  `max (1 + ∑ |h + r - t| - ∑ |h' + r - t'|) 0`. The kernel takes the rows first and normalises each taken
  row (multiplying by the reciprocal of its norm plus `ε`), forms the same hinge, and accumulates, block
  of 2048 samples after block, the block's sum of hinges times `2⁻¹⁴`, from zero. Row by row the two
  normalisations agree, so the hinges agree; every hinge is a real; and the blocks' scaled sums add up
  to the mean.
-/
import proofs.«205037_g73117523247527_cont_9to1c4b_608_48_alg».proof.Proof.Bridge
import proofs.«205037_g73117523247527_cont_9to1c4b_608_48_alg».proof.Proof.LibFinite

noncomputable section

open scoped BigOperators

namespace Cert.Proof.Spec

open Idealize.ShloMosaic Cert.Fin

/-! ## The kernel's side over five families of taken rows -/

/-- A taken row, normalised by the reciprocal of its norm plus `ε`. -/
def kerRow (x : Fin 64 → EReal) (j : Fin 64) : EReal :=
  x j * Ideal.div (Ideal.ofBits .f32 0x3F800000#32) (Ideal.sqrt (∑ k, x k * x k) + Ideal.ofBits .f32 0x2B8CBCCC#32)

/-- The distance `∑ |a + r - t|`. -/
def kerDist (a r t : Fin 64 → EReal) : EReal := ∑ j, max (a j + r j - t j) (-(a j + r j - t j))

/-- The hinge of one sample from its five taken rows. -/
def kerHingeRows (h r t hn tn : Fin 64 → EReal) : EReal :=
  max (Ideal.ofBits .f32 0x3F800000#32 + kerDist (kerRow h) r (kerRow t) - kerDist (kerRow hn) r (kerRow tn)) (Ideal.ofBits .f32 0x00000000#32)

/-- Sample `i` of block `t`. -/
def blockIdx (t : Fin 8) (i : Fin 2048) : Fin 16384 := ⟨2048 * t.val + i.val, by omega⟩

/-- Block `t`'s sum of hinges, times `2⁻¹⁴`. -/
def kerPartRows (H Rr Tt HN TN : Fin 16384 → Fin 64 → EReal) (t : Fin 8) : EReal :=
  (∑ i : Fin 2048, kerHingeRows (H (blockIdx t i)) (Rr (blockIdx t i)) (Tt (blockIdx t i))
      (HN (blockIdx t i)) (TN (blockIdx t i))) * Ideal.ofBits .f32 0x38800000#32

/-- The eight blocks accumulated from the zero word, left to right. -/
def kerLossRows (H Rr Tt HN TN : Fin 16384 → Fin 64 → EReal) : EReal :=
  Ideal.ofBits .f32 0x00000000#32 + kerPartRows H Rr Tt HN TN 0 + kerPartRows H Rr Tt HN TN 1 + kerPartRows H Rr Tt HN TN 2
    + kerPartRows H Rr Tt HN TN 3 + kerPartRows H Rr Tt HN TN 4 + kerPartRows H Rr Tt HN TN 5
    + kerPartRows H Rr Tt HN TN 6 + kerPartRows H Rr Tt HN TN 7

/-- The accumulation as a fold over the blocks. -/
theorem kerLossRows_eq_foldl (H Rr Tt HN TN : Fin 16384 → Fin 64 → EReal) :
    kerLossRows H Rr Tt HN TN
      = Fin.foldl 8 (fun a t => a + kerPartRows H Rr Tt HN TN t) (Ideal.ofBits .f32 0x00000000#32) := by
  simp only [kerLossRows, Fin.foldl_succ, Fin.foldl_zero]
  rfl

variable (E : Fin 1000000 → Fin 64 → EReal) (R : Fin 1000 → Fin 64 → EReal)
  (ih : Fin 16384 → Fin 1000000) (ir : Fin 16384 → Fin 1000)
  (it inh int : Fin 16384 → Fin 1000000)

/-! ## The reference's side -/

/-- Row `i` of the normalised entity table. -/
def refRow (i : Fin 1000000) (j : Fin 64) : EReal :=
  Ideal.div (E i j) (Ideal.sqrt (Ideal.ofBits .f32 0x00000000#32 + ∑ k, E i k * E i k) + Ideal.ofBits .f32 0x2B8CBCCC#32)

/-- The distance `∑ |a + r - t|`, summed from the zero word. -/
def refDist (a r t : Fin 64 → EReal) : EReal :=
  Ideal.ofBits .f32 0x00000000#32 + ∑ j, max (a j + r j - t j) (-(a j + r j - t j))

/-- The hinge of sample `b`. -/
def refHinge (b : Fin 16384) : EReal :=
  max (Ideal.ofBits .f32 0x3F800000#32 + refDist (refRow E (ih b)) (R (ir b)) (refRow E (it b))
      - refDist (refRow E (inh b)) (R (ir b)) (refRow E (int b))) (Ideal.ofBits .f32 0x00000000#32)

/-- The mean of the hinges. -/
def refLoss : EReal :=
  Ideal.div (Ideal.ofBits .f32 0x00000000#32 + ∑ b : Fin 16384, refHinge E R ih ir it inh int b) (Ideal.ofBits .f32 0x46800000#32)

/-! ## The kernel's side over the tables and the index arrays -/

/-- The hinge of sample `b`. -/
def kerHinge (b : Fin 16384) : EReal :=
  kerHingeRows (E (ih b)) (R (ir b)) (E (it b)) (E (inh b)) (E (int b))

/-- Block `t`'s sum of hinges, times `2⁻¹⁴`. -/
def kerPart (t : Fin 8) : EReal :=
  kerPartRows (fun b => E (ih b)) (fun b => R (ir b)) (fun b => E (it b)) (fun b => E (inh b)) (fun b => E (int b)) t

/-- The eight blocks accumulated from the zero word, left to right. -/
def kerLoss : EReal :=
  kerLossRows (fun b => E (ih b)) (fun b => R (ir b)) (fun b => E (it b)) (fun b => E (inh b)) (fun b => E (int b))

theorem kerHinge_def (b : Fin 16384) :
    kerHinge E R ih ir it inh int b
      = max (Ideal.ofBits .f32 0x3F800000#32 + kerDist (kerRow (E (ih b))) (R (ir b)) (kerRow (E (it b)))
          - kerDist (kerRow (E (inh b))) (R (ir b)) (kerRow (E (int b)))) (Ideal.ofBits .f32 0x00000000#32) := rfl

theorem kerPart_def (t : Fin 8) :
    kerPart E R ih ir it inh int t
      = (∑ i : Fin 2048, kerHinge E R ih ir it inh int (blockIdx t i)) * Ideal.ofBits .f32 0x38800000#32 := rfl

theorem kerLoss_def :
    kerLoss E R ih ir it inh int
      = Ideal.ofBits .f32 0x00000000#32 + kerPart E R ih ir it inh int 0 + kerPart E R ih ir it inh int 1 + kerPart E R ih ir it inh int 2 + kerPart E R ih ir it inh int 3
        + kerPart E R ih ir it inh int 4 + kerPart E R ih ir it inh int 5 + kerPart E R ih ir it inh int 6 + kerPart E R ih ir it inh int 7 := rfl

/-- The accumulation as a fold over the blocks. -/
theorem kerLoss_eq_foldl :
    kerLoss E R ih ir it inh int
      = Fin.foldl 8 (fun a t => a + kerPart E R ih ir it inh int t) (Ideal.ofBits .f32 0x00000000#32) :=
  kerLossRows_eq_foldl _ _ _ _ _

/-! ## Their equality -/

section Eq
variable (hE : ∀ i j, IsFin (E i j)) (hR : ∀ i j, IsFin (R i j))
include hE

/-- Normalising a taken row is taking the normalised table's row. -/
theorem kerRow_eq_refRow (i : Fin 1000000) : kerRow (E i) = refRow E i :=
  funext fun j => Bridge.nrm_eq_init (E i) (hE i) j

/-- Every entry of the normalised table is a real. -/
theorem refRow_isFin (i : Fin 1000000) (j : Fin 64) : IsFin (refRow E i j) := by
  unfold refRow
  rw [Ideal.ofBits_zero_f32, zero_add]
  exact Bridge.nrm_isFin (E i) (hE i) j

omit hE in
/-- The two spellings of the distance agree. -/
theorem refDist_eq_kerDist (a r t : Fin 64 → EReal) : refDist a r t = kerDist a r t := by
  unfold refDist kerDist
  rw [Ideal.ofBits_zero_f32, zero_add]

include hR

/-- The distances of normalised rows and a relation row are reals. -/
theorem kerDist_isFin (i i' : Fin 1000000) (q : Fin 1000) :
    IsFin (kerDist (refRow E i) (R q) (refRow E i')) :=
  Bridge.dist_isFin _ _ _ (refRow_isFin E hE i) (hR q) (refRow_isFin E hE i')

/-- The two hinges agree, sample by sample. -/
theorem kerHinge_eq_refHinge (b : Fin 16384) :
    kerHinge E R ih ir it inh int b = refHinge E R ih ir it inh int b := by
  rw [kerHinge_def]
  unfold refHinge
  rw [kerRow_eq_refRow E hE, kerRow_eq_refRow E hE, kerRow_eq_refRow E hE, kerRow_eq_refRow E hE,
    refDist_eq_kerDist, refDist_eq_kerDist]

/-- Every hinge is a real. -/
theorem kerHinge_isFin (b : Fin 16384) : IsFin (kerHinge E R ih ir it inh int b) := by
  rw [kerHinge_def, kerRow_eq_refRow E hE, kerRow_eq_refRow E hE, kerRow_eq_refRow E hE,
    kerRow_eq_refRow E hE]
  exact Bridge.hinge_isFin_ofBits (kerDist_isFin E R hE hR _ _ _) (kerDist_isFin E R hE hR _ _ _)

/-- The kernel's accumulated loss is the reference's mean. -/
theorem kerLoss_eq_refLoss : kerLoss E R ih ir it inh int = refLoss E R ih ir it inh int := by
  have hsum : ∑ b, kerHinge E R ih ir it inh int b = ∑ b, refHinge E R ih ir it inh int b :=
    Finset.sum_congr rfl fun b _ => kerHinge_eq_refHinge E R ih ir it inh int hE hR b
  rw [kerLoss_def]
  simp only [kerPart_def]
  unfold refLoss
  rw [Ideal.ofBits_zero_f32,
    Bridge.mean_blocks_left blockIdx (fun _ _ => rfl) (kerHinge E R ih ir it inh int)
      (kerHinge_isFin E R ih ir it inh int hE hR), zero_add, hsum]

end Eq

end Cert.Proof.Spec

end
-- ==== Proof.LossTarget.lean ====
/-
  The loss kernel's result in the words of the specification: the result array's one entry is the specification's
  kernel-side loss of five families of rows, each the half of a packed row of a gathered array that one bit of the
  row's parity word selects. The running sum's own recursion is the specification's accumulation from the zero word,
  left to right over the eight blocks; a block's share is the specification's block sum, row for row.
-/
import proofs.«205037_g73117523247527_cont_9to1c4b_608_48_alg».proof.Proof.LossValue
import proofs.«205037_g73117523247527_cont_9to1c4b_608_48_alg».proof.Proof.PickRow
import proofs.«205037_g73117523247527_cont_9to1c4b_608_48_alg».proof.Proof.Spec

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.ShloMosaic.Pipeline (Dat Cfg Window)

section Target

variable (V : (c : Dev nD) → (b : Ref sig .tc) → Buf (Elt Ideal) ((c : Thread nD τ).loc b))

/-- The five gathered arrays as the region finds them, as rows of 128 columns, and the parity words. -/
abbrev G26_0 (c : Dev nD) : Fin 16384 → Fin 128 → EReal := fun b col => V c main_v26_0 (ix2 b col)
abbrev G26_1 (c : Dev nD) : Fin 16384 → Fin 128 → EReal := fun b col => V c main_v26_1 (ix2 b col)
abbrev G26_2 (c : Dev nD) : Fin 16384 → Fin 128 → EReal := fun b col => V c main_v26_2 (ix2 b col)
abbrev G26_3 (c : Dev nD) : Fin 16384 → Fin 128 → EReal := fun b col => V c main_v26_3 (ix2 b col)
abbrev G26_4 (c : Dev nD) : Fin 16384 → Fin 128 → EReal := fun b col => V c main_v26_4 (ix2 b col)
abbrev pb48 (c : Dev nD) : Fin 16384 → BitVec 32 := fun b => V c main_v48 (ix2 b (0 : Fin 1))

/-- A point's share in the specification's words: head, relation, tail, negative head, negative tail rows picked by bits
    0, 4, 1, 2, 3 of the parity words, over the rows of the point's block. -/
theorem partAt_spec (c : Dev nD) (t : Fin cfg2.N) (t' : Fin 8) (ht : t'.val = t.val) :
    partAt V c t = Cert.Proof.Spec.kerPartRows (Cert.Proof.Spec.pickRow 0#32 (G26_0 V c) (pb48 V c)) (Cert.Proof.Spec.pickRow 4#32 (G26_4 V c) (pb48 V c))
        (Cert.Proof.Spec.pickRow 1#32 (G26_1 V c) (pb48 V c)) (Cert.Proof.Spec.pickRow 2#32 (G26_2 V c) (pb48 V c)) (Cert.Proof.Spec.pickRow 3#32 (G26_3 V c) (pb48 V c)) t' := by
  rw [partAt_eq]
  unfold shareE Cert.Proof.Spec.kerPartRows
  refine congrArg (· * Ideal.ofBits .f32 0x38800000#32) (Finset.sum_congr rfl fun b _ => ?_)
  have hrow : rowOf t b = Cert.Proof.Spec.blockIdx t' b :=
    Fin.ext (by show t.val * 2048 + b.val = 2048 * t'.val + b.val; rw [ht]; omega)
  rw [← hrow]
  rfl

/-- The running sum after the last point, unrolled: the zero block, then the eight shares added in the grid's order. -/
theorem acc2_nest (c : Dev nD) (y : S1x1.Idx) (h7 : 7 < cfg2.N) :
    acc2 V c 7 h7 y
      = (((((((Ideal.ofBits .f32 0x00000000#32 + partAt V c t2_0) + partAt V c t2_1) + partAt V c t2_2) + partAt V c t2_3)
          + partAt V c t2_4) + partAt V c t2_5) + partAt V c t2_6) + partAt V c t2_7 := by
  show k2_pay1 (F := Ideal) (partAt V c t2_7) (k2_pay1 (F := Ideal) (partAt V c t2_6) (k2_pay1 (F := Ideal) (partAt V c t2_5)
    (k2_pay1 (F := Ideal) (partAt V c t2_4) (k2_pay1 (F := Ideal) (partAt V c t2_3) (k2_pay1 (F := Ideal) (partAt V c t2_2)
    (k2_pay1 (F := Ideal) (partAt V c t2_1) (k2_pay1 (F := Ideal) (partAt V c t2_0) (k2_pay11 (F := Ideal))))))))) y = _
  simp only [k2_pay1_apply]
  rfl

/-- THE RESULT in the specification's words: the loss array's one entry is the kernel-side loss of the picked rows. -/
theorem loss_target (O : CellTallies nD τ sig (HIx 1)) (B : Set (SemLoc sig × HIx 1)) (c : Dev nD) (y : S1x1.Idx) :
    (dat2 V O B c).arrAt 6 cfg2.N y
      = Cert.Proof.Spec.kerLossRows (Cert.Proof.Spec.pickRow 0#32 (G26_0 V c) (pb48 V c)) (Cert.Proof.Spec.pickRow 4#32 (G26_4 V c) (pb48 V c))
          (Cert.Proof.Spec.pickRow 1#32 (G26_1 V c) (pb48 V c)) (Cert.Proof.Spec.pickRow 2#32 (G26_2 V c) (pb48 V c)) (Cert.Proof.Spec.pickRow 3#32 (G26_3 V c) (pb48 V c)) := by
  refine (congrFun (final2 V O B c) y).trans ?_
  show acc2 V c 7 _ y = _
  rw [acc2_nest V c y]
  unfold Cert.Proof.Spec.kerLossRows
  rw [partAt_spec V c t2_0 0 rfl, partAt_spec V c t2_1 1 rfl, partAt_spec V c t2_2 2 rfl, partAt_spec V c t2_3 3 rfl,
    partAt_spec V c t2_4 4 rfl, partAt_spec V c t2_5 5 rfl, partAt_spec V c t2_6 6 rfl, partAt_spec V c t2_7 7 rfl]

end Target

end Cert.Proof.KI

end
-- ==== Proof.ChainB.lean ====
/-
  The program's result through its second stretch on the TensorCore, as a function of what the first stretch and the
  SparseCore call left: the closing reshape reads the loss array's one entry; the loss region leaves there the
  kernel-side loss of the rows it picks; the arrays it picks from are the call's five results, untouched by the
  stretch's host line; and the packed words that steer the picks are built by that line from the halves the first
  stretch computed, which the call does not touch.
-/
import proofs.«205037_g73117523247527_cont_9to1c4b_608_48_alg».proof.Proof.LossTarget
import proofs.«205037_g73117523247527_cont_9to1c4b_608_48_alg».proof.Proof.HandOver
import proofs.«205037_g73117523247527_cont_9to1c4b_608_48_alg».proof.Proof.HostRead
import proofs.«205037_g73117523247527_cont_9to1c4b_608_48_alg».proof.Proof.StretchB
set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore (T)
open Idealize.ShloMosaic.SparseCore.Cfg (HIx Pay)
open Idealize.ShloMosaic.Pipeline (Dat Cfg Window)

section ChainB

variable (VA : Dev nD → Valuation τ sig (Elt Ideal))
variable (G0 : (d : Dev nD) → Buf (Elt Ideal) (locR0 d)) (G1 : (d : Dev nD) → Buf (Elt Ideal) (locR1 d))
  (G2 : (d : Dev nD) → Buf (Elt Ideal) (locR2 d)) (G3 : (d : Dev nD) → Buf (Elt Ideal) (locR3 d))
  (G4 : (d : Dev nD) → Buf (Elt Ideal) (locR4 d))

/-- The packed word that steers sample `b`'s picks: the halves of its four entity indices (rows 0 to 3 of the halves
    the first stretch left, read as four rows of 16384) and of its relation index, one bit each. -/
def pbA (d : Dev nD) (b : Fin 16384) : BitVec 32 :=
  IdxArith.packW (halfRow (VA d (Proc.devRef .tc main_v19)) 0 slices_S4x16384_S1x16384_0_0 (ix1 b))
    (halfRow (VA d (Proc.devRef .tc main_v19)) 1 slices_S4x16384_S1x16384_1_0 (ix1 b))
    (halfRow (VA d (Proc.devRef .tc main_v19)) 2 slices_S4x16384_S1x16384_2_0 (ix1 b))
    (halfRow (VA d (Proc.devRef .tc main_v19)) 3 slices_S4x16384_S1x16384_3_0 (ix1 b))
    (VA d (Proc.devRef .tc main_v23) (ix1 b))

/-- The loss region finds the call's five results where the call left them: the host line before it does not write them. -/
theorem VR_v26_0 (d : Dev nD) : VR (VS VA G0 G1 G2 G3 G4) d main_v26_0 = G0 d :=
  (B1_v26_0 (VS VA G0 G1 G2 G3 G4 d)).trans (VS_o0 VA G0 G1 G2 G3 G4 d)
theorem VR_v26_1 (d : Dev nD) : VR (VS VA G0 G1 G2 G3 G4) d main_v26_1 = G1 d :=
  (B1_v26_1 (VS VA G0 G1 G2 G3 G4 d)).trans (VS_o1 VA G0 G1 G2 G3 G4 d)
theorem VR_v26_2 (d : Dev nD) : VR (VS VA G0 G1 G2 G3 G4) d main_v26_2 = G2 d :=
  (B1_v26_2 (VS VA G0 G1 G2 G3 G4 d)).trans (VS_o2 VA G0 G1 G2 G3 G4 d)
theorem VR_v26_3 (d : Dev nD) : VR (VS VA G0 G1 G2 G3 G4) d main_v26_3 = G3 d :=
  (B1_v26_3 (VS VA G0 G1 G2 G3 G4 d)).trans (VS_o3 VA G0 G1 G2 G3 G4 d)
theorem VR_v26_4 (d : Dev nD) : VR (VS VA G0 G1 G2 G3 G4) d main_v26_4 = G4 d :=
  (B1_v26_4 (VS VA G0 G1 G2 G3 G4 d)).trans (VS_o4 VA G0 G1 G2 G3 G4 d)

/-- The parity word the loss region finds for sample `b` is the packed word: the host line packs it from the halves,
    which the call did not touch. -/
theorem VR_v48_read (d : Dev nD) (b : Fin 16384) :
    VR (VS VA G0 G1 G2 G3 G4) d main_v48 (ix2 b (0 : Fin 1)) = pbA VA d b := by
  have h19 : VS VA G0 G1 G2 G3 G4 d (Proc.devRef .tc main_v19) = VA d (Proc.devRef .tc main_v19) :=
    VS_of_ne VA G0 G1 G2 G3 G4 d (by decide) (by decide) (by decide) (by decide) (by decide)
  have h23 : VS VA G0 G1 G2 G3 G4 d (Proc.devRef .tc main_v23) = VA d (Proc.devRef .tc main_v23) :=
    VS_of_ne VA G0 G1 G2 G3 G4 d (by decide) (by decide) (by decide) (by decide) (by decide)
  show StableHlo.after opsB1 (VS VA G0 G1 G2 G3 G4 d) (Proc.devRef .tc main_v48) (ix2 b u0) = _
  rw [B1_v48]
  refine (rows1_apply _ b).trans ?_
  show IdxArith.packW _ _ _ _ _ = _
  rw [h19, h23]
  rfl

/-- THE RESULT of the program through the second stretch: the scalar the closing reshape leaves is the kernel-side loss
    of the rows picked out of the call's five results by the packed words. -/
theorem chainB (d : Dev nD) :
    VB (VS VA G0 G1 G2 G3 G4) d (Proc.devRef .tc main_v50) ix0
      = Cert.Proof.Spec.kerLossRows
          (Cert.Proof.Spec.pickRow 0#32 (fun b col => G0 d (ix2 b col)) (pbA VA d))
          (Cert.Proof.Spec.pickRow 4#32 (fun b col => G4 d (ix2 b col)) (pbA VA d))
          (Cert.Proof.Spec.pickRow 1#32 (fun b col => G1 d (ix2 b col)) (pbA VA d))
          (Cert.Proof.Spec.pickRow 2#32 (fun b col => G2 d (ix2 b col)) (pbA VA d))
          (Cert.Proof.Spec.pickRow 3#32 (fun b col => G3 d (ix2 b col)) (pbA VA d)) := by
  unfold VB
  rw [B2_v50]
  refine (shapeCast_apply _ _ ix0 (ix2 u0 u0) ?_).trans ?_
  · rw [Shape.rowMajor_val_two]
    exact (Nat.lt_one_iff.mp (show ((S_ : Shape).rowMajor ix0).val < 1 from Fin.isLt _)).symm
  unfold VM
  rw [Function.update_self]
  unfold outB
  refine (loss_target (VR (VS VA G0 G1 G2 G3 G4)) ((K (F := Ideal)).Otc d 1) (boundT (F := Ideal) d 1) d (ix2 u0 u0)).trans ?_
  have e0 : G26_0 (VR (VS VA G0 G1 G2 G3 G4)) d = fun b col => G0 d (ix2 b col) :=
    funext fun b => funext fun col => congrFun (VR_v26_0 VA G0 G1 G2 G3 G4 d) (ix2 b col)
  have e1 : G26_1 (VR (VS VA G0 G1 G2 G3 G4)) d = fun b col => G1 d (ix2 b col) :=
    funext fun b => funext fun col => congrFun (VR_v26_1 VA G0 G1 G2 G3 G4 d) (ix2 b col)
  have e2 : G26_2 (VR (VS VA G0 G1 G2 G3 G4)) d = fun b col => G2 d (ix2 b col) :=
    funext fun b => funext fun col => congrFun (VR_v26_2 VA G0 G1 G2 G3 G4 d) (ix2 b col)
  have e3 : G26_3 (VR (VS VA G0 G1 G2 G3 G4)) d = fun b col => G3 d (ix2 b col) :=
    funext fun b => funext fun col => congrFun (VR_v26_3 VA G0 G1 G2 G3 G4 d) (ix2 b col)
  have e4 : G26_4 (VR (VS VA G0 G1 G2 G3 G4)) d = fun b col => G4 d (ix2 b col) :=
    funext fun b => funext fun col => congrFun (VR_v26_4 VA G0 G1 G2 G3 G4 d) (ix2 b col)
  have ep : pb48 (VR (VS VA G0 G1 G2 G3 G4)) d = pbA VA d := funext fun b => VR_v48_read VA G0 G1 G2 G3 G4 d b
  rw [e0, e1, e2, e3, e4, ep]

end ChainB

end Cert.Proof.KI

end
-- ==== Proof.Compose.lean ====
/-
  The composition, at the level of tables indexed by row and column: the gathered packed rows, each
  with the half its bit of the packed word picks, are the tables' own rows at the sample's indices; so
  the kernel's accumulated loss over the picked rows is the reference's mean over the normalised table.
-/
import proofs.«205037_g73117523247527_cont_9to1c4b_608_48_alg».proof.Proof.Spec
import proofs.«205037_g73117523247527_cont_9to1c4b_608_48_alg».proof.Proof.PackPick
import proofs.«205037_g73117523247527_cont_9to1c4b_608_48_alg».proof.Proof.PickRow

noncomputable section

namespace Cert.Proof.Compose

open Idealize.ShloMosaic Cert.Fin Cert.Proof Cert.Proof.Spec

section
variable (E : Fin 1000000 → Fin 64 → EReal) (R : Fin 1000 → Fin 64 → EReal)
  (w0 w1 w2 w3 r : Fin 16384 → BitVec 32)
  (h0 : ∀ b, 0 ≤ (w0 b).toInt ∧ (w0 b).toInt ≤ 999999)
  (h1 : ∀ b, 0 ≤ (w1 b).toInt ∧ (w1 b).toInt ≤ 999999)
  (h2 : ∀ b, 0 ≤ (w2 b).toInt ∧ (w2 b).toInt ≤ 999999)
  (h3 : ∀ b, 0 ≤ (w3 b).toInt ∧ (w3 b).toInt ≤ 999999)
  (hr : ∀ b, 0 ≤ (r b).toInt ∧ (r b).toInt ≤ 999)
  (G0 G1 G2 G3 G4 : Fin 16384 → Fin 128 → EReal) (pb : Fin 16384 → BitVec 32)
  (hG0 : ∀ b col, G0 b col
    = PackPick.packedE E ⟨(IdxArith.epairW (w0 b)).toNat, PackPick.epair_lt (h0 b).1 (h0 b).2⟩ col)
  (hG1 : ∀ b col, G1 b col
    = PackPick.packedE E ⟨(IdxArith.epairW (w1 b)).toNat, PackPick.epair_lt (h1 b).1 (h1 b).2⟩ col)
  (hG2 : ∀ b col, G2 b col
    = PackPick.packedE E ⟨(IdxArith.epairW (w2 b)).toNat, PackPick.epair_lt (h2 b).1 (h2 b).2⟩ col)
  (hG3 : ∀ b col, G3 b col
    = PackPick.packedE E ⟨(IdxArith.epairW (w3 b)).toNat, PackPick.epair_lt (h3 b).1 (h3 b).2⟩ col)
  (hG4 : ∀ b col, G4 b col
    = PackPick.packedR R ⟨(IdxArith.rpairW (r b)).toNat, PackPick.rpair_lt (hr b).1 (hr b).2⟩ col)
  (hpb : ∀ b, pb b = PackPick.pbits (w0 b) (w1 b) (w2 b) (w3 b) (r b))

include h0 h1 h2 h3 hr

include hG0 hpb in
/-- The rows picked by bit 0 are the entity rows at the first index array. -/
theorem pick0 : pickRow 0#32 G0 pb = fun b => E ⟨(w0 b).toNat, PackPick.ent_toNat_lt (h0 b).1 (h0 b).2⟩ :=
  funext fun b => funext fun j => by
    unfold pickRow
    rw [hG0, hG0, hpb]
    exact PackPick.pick_bit0 E (w0 b) (w1 b) (w2 b) (w3 b) (r b) (h0 b).1 (h0 b).2 (h1 b).1 (h1 b).2
      (h2 b).1 (h2 b).2 (h3 b).1 (h3 b).2 (hr b).1 (hr b).2 j

include hG1 hpb in
/-- The rows picked by bit 1 are the entity rows at the second index array. -/
theorem pick1 : pickRow 1#32 G1 pb = fun b => E ⟨(w1 b).toNat, PackPick.ent_toNat_lt (h1 b).1 (h1 b).2⟩ :=
  funext fun b => funext fun j => by
    unfold pickRow
    rw [hG1, hG1, hpb]
    exact PackPick.pick_bit1 E (w0 b) (w1 b) (w2 b) (w3 b) (r b) (h0 b).1 (h0 b).2 (h1 b).1 (h1 b).2
      (h2 b).1 (h2 b).2 (h3 b).1 (h3 b).2 (hr b).1 (hr b).2 j

include hG2 hpb in
/-- The rows picked by bit 2 are the entity rows at the third index array. -/
theorem pick2 : pickRow 2#32 G2 pb = fun b => E ⟨(w2 b).toNat, PackPick.ent_toNat_lt (h2 b).1 (h2 b).2⟩ :=
  funext fun b => funext fun j => by
    unfold pickRow
    rw [hG2, hG2, hpb]
    exact PackPick.pick_bit2 E (w0 b) (w1 b) (w2 b) (w3 b) (r b) (h0 b).1 (h0 b).2 (h1 b).1 (h1 b).2
      (h2 b).1 (h2 b).2 (h3 b).1 (h3 b).2 (hr b).1 (hr b).2 j

include hG3 hpb in
/-- The rows picked by bit 3 are the entity rows at the fourth index array. -/
theorem pick3 : pickRow 3#32 G3 pb = fun b => E ⟨(w3 b).toNat, PackPick.ent_toNat_lt (h3 b).1 (h3 b).2⟩ :=
  funext fun b => funext fun j => by
    unfold pickRow
    rw [hG3, hG3, hpb]
    exact PackPick.pick_bit3 E (w0 b) (w1 b) (w2 b) (w3 b) (r b) (h0 b).1 (h0 b).2 (h1 b).1 (h1 b).2
      (h2 b).1 (h2 b).2 (h3 b).1 (h3 b).2 (hr b).1 (hr b).2 j

include hG4 hpb in
/-- The rows picked by bit 4 are the relation rows at the relation index array. -/
theorem pick4 : pickRow 4#32 G4 pb = fun b => R ⟨(r b).toNat, PackPick.rel_toNat_lt (hr b).1 (hr b).2⟩ :=
  funext fun b => funext fun j => by
    unfold pickRow
    rw [hG4, hG4, hpb]
    exact PackPick.pick_bit4 R (w0 b) (w1 b) (w2 b) (w3 b) (r b) (h0 b).1 (h0 b).2 (h1 b).1 (h1 b).2
      (h2 b).1 (h2 b).2 (h3 b).1 (h3 b).2 (hr b).1 (hr b).2 j

variable (hE : ∀ i j, IsFin (E i j)) (hR : ∀ i j, IsFin (R i j))

include hG0 hG1 hG2 hG3 hG4 hpb hE hR in
/-- The kernel's accumulated loss over the picked rows is the reference's mean at the decoded indices. -/
theorem compose :
    kerLossRows (pickRow 0#32 G0 pb) (pickRow 4#32 G4 pb) (pickRow 1#32 G1 pb) (pickRow 2#32 G2 pb)
        (pickRow 3#32 G3 pb)
      = refLoss E R (fun b => ⟨(w0 b).toNat, PackPick.ent_toNat_lt (h0 b).1 (h0 b).2⟩)
          (fun b => ⟨(r b).toNat, PackPick.rel_toNat_lt (hr b).1 (hr b).2⟩)
          (fun b => ⟨(w1 b).toNat, PackPick.ent_toNat_lt (h1 b).1 (h1 b).2⟩)
          (fun b => ⟨(w2 b).toNat, PackPick.ent_toNat_lt (h2 b).1 (h2 b).2⟩)
          (fun b => ⟨(w3 b).toNat, PackPick.ent_toNat_lt (h3 b).1 (h3 b).2⟩) := by
  rw [pick0 E w0 w1 w2 w3 r h0 h1 h2 h3 hr G0 pb hG0 hpb, pick1 E w0 w1 w2 w3 r h0 h1 h2 h3 hr G1 pb hG1 hpb,
    pick2 E w0 w1 w2 w3 r h0 h1 h2 h3 hr G2 pb hG2 hpb, pick3 E w0 w1 w2 w3 r h0 h1 h2 h3 hr G3 pb hG3 hpb,
    pick4 R w0 w1 w2 w3 r h0 h1 h2 h3 hr G4 pb hG4 hpb]
  exact kerLoss_eq_refLoss E R _ _ _ _ _ hE hR

end

end Cert.Proof.Compose

end
-- ==== Proof.RefRun.lean ====
/-
  The run of the reference program: its @main, with the private functions @norm,
  @_take, @_take_0 and @_where unfolded at their calls, is a straight line of 146 host operations.
  The line is cut at the calls into seven windows; each window's effect on the buffers that later
  windows read is a pure function of what it reads, and the result buffer ends at their composite
  `val`, a pure function of the seven argument arrays, which end unchanged.
-/
import proofs.«205037_g73117523247527_cont_9to1c4b_608_48_alg».proof.Defs
import proofs.«205037_g73117523247527_cont_9to1c4b_608_48_alg».proof.Proof.Gen.ReferenceIdeal
import Idealize.ShloMosaic.Lib.StableHlo.Run
import Idealize.ShloMosaic.PureOps.Reduce
import proofs.«205037_g73117523247527_cont_9to1c4b_608_48_alg».proof.Proof.LibKeepdims
import Idealize.ShloMosaic.Lib.IdealHost
import proofs.«205037_g73117523247527_cont_9to1c4b_608_48_alg».proof.Proof.Spec

noncomputable section

namespace Cert.Proof.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The value, as pure functions of the arguments -/

/-- Each row's Euclidean norm, as a column: the square root of the row's sum of squares. -/
def rowNorm (E : FVec F S1000000x64 .f32) : FVec F S1000000x1 .f32 :=
  Host.sqrt (broadcastInDim S1000000x1 ![0] bcast_S1000000_S1000000x1_0
    (Host.reduceAdd (mulf E E) (constant S_ .f32 0x00000000#32) reducesTo_S1000000x64_S1000000_d1 h_S_))

/-- The table with each row divided by its norm plus the small constant. -/
def ent (E : FVec F S1000000x64 .f32) : FVec F S1000000x64 .f32 :=
  Host.divf E (broadcastInDim S1000000x64 ![0, 1] bcast_S1000000x1_S1000000x64_0_1
    (addf (rowNorm E) (broadcastInDim S1000000x1 ![] bcast_S_S1000000x1 (constant S_ .f32 0x2B8CBCCC#32))))

/-- An index counted from the end (a negative word) has the table's length added. -/
def wrap (len : BitVec 32) (n : IVec S16384 32) : IVec S16384 32 :=
  select (cmpi .slt n (broadcastInDim S16384 ![] bcast_S_S16384 (constantI S_ 32 0#32)))
    (addi n (broadcastInDim S16384 ![] bcast_S_S16384 (constantI S_ 32 len))) n

/-- The wrapped indices as a column: the gather's index table. -/
def idxCol (len : BitVec 32) (n : IVec S16384 32) : IVec S16384x1 32 :=
  broadcastInDim S16384x1 ![0] bcast_S16384_S16384x1_0 (wrap len n)

/-- Per index, whether it lies between zero and the table's last row. -/
def inb (last : BitVec 32) (i : IVec S16384x1 32) : IVec S16384 1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 last)))))
    (constantI S_ 1 1#1) reducesTo_S16384x1_S16384_d1 h_S_

/-- Rows of the million-row table at the indices `n`: the gathered row where the wrapped index names one, the
    fill word elsewhere. -/
def takeE (T : FVec F S1000000x64 .f32) (n : IVec S16384 32) : FVec F S16384x64 .f32 :=
  select (broadcastInDim S16384x64 ![0] bcast_S16384_S16384x64_0 (inb 999999#32 (idxCol 1000000#32 n)))
    (Host.gather gather_S1000000x64_S16384x1_S16384x64_1_0_n_n_0_1_164 T (idxCol 1000000#32 n))
    (broadcastInDim S16384x64 ![] bcast_S_S16384x64 (constant S_ .f32 0x7FC00000#32))

/-- The same of the thousand-row table. -/
def takeR (T : FVec F S1000x64 .f32) (n : IVec S16384 32) : FVec F S16384x64 .f32 :=
  select (broadcastInDim S16384x64 ![0] bcast_S16384_S16384x64_0 (inb 999#32 (idxCol 1000#32 n)))
    (Host.gather gather_S1000x64_S16384x1_S16384x64_1_0_n_n_0_1_164 T (idxCol 1000#32 n))
    (broadcastInDim S16384x64 ![] bcast_S_S16384x64 (constant S_ .f32 0x7FC00000#32))

/-- Per row, the sum over the columns of `|a + r - b|`. -/
def dist (a r b : FVec F S16384x64 .f32) : FVec F S16384 .f32 :=
  Host.reduceAdd (Host.absf (subf (addf a r) b)) (constant S_ .f32 0x00000000#32) reducesTo_S16384x64_S16384_d1 h_S_

/-- The mean over the rows of `max (1 + dist h r t - dist hn r tn) 0`. -/
def loss (h r t hn tn : FVec F S16384x64 .f32) : FVec F S_ .f32 :=
  Host.divf
    (Host.reduceAdd
      (maximumf
        (subf (addf (broadcastInDim S16384 ![] bcast_S_S16384 (constant S_ .f32 0x3F800000#32)) (dist h r t)) (dist hn r tn))
        (broadcastInDim S16384 ![] bcast_S_S16384 (constant S_ .f32 0x00000000#32)))
      (constant S_ .f32 0x00000000#32) reducesTo_S16384_S_d0 h_S_)
    (constant S_ .f32 0x46800000#32)

/-- The reference's result as a function of its seven arguments: the two tables, then the five index arrays. -/
def val (E : FVec F S1000000x64 .f32) (R : FVec F S1000x64 .f32) (ph pr pt nh nt : IVec S16384 32) : FVec F S_ .f32 :=
  loss (takeE (ent E) ph) (takeR R pr) (takeE (ent E) pt) (takeE (ent E) nh) (takeE (ent E) nt)

/-! ## The program as a line of operations, window by window -/

/-- @norm's five operations over the first argument, then @main's five that divide the table by the norms. -/
abbrev part0 : List (HloOp τ sig (Elt F)) :=
  [ TRef.binary (.of main_arg0 : TRef sig ⟨S1000000x64, .f32⟩) (.of main_arg0 : TRef sig ⟨S1000000x64, .f32⟩) main_call0.v0 mulf,
    TRef.nullary main_call0.cst (constant S_ .f32 0x00000000#32),
    TRef.binary main_call0.v0 main_call0.cst main_call0.v1 (fun x v => Host.reduceAdd x v reducesTo_S1000000x64_S1000000_d1 h_S_),
    TRef.unary main_call0.v1 main_call0.v2 (broadcastInDim S1000000x1 ![0] bcast_S1000000_S1000000x1_0),
    TRef.unary main_call0.v2 main_call0.v3 Host.sqrt,
    nullary main_cst (constant S_ .f32 0x2B8CBCCC#32),
    unary main_cst main_v1 (broadcastInDim S1000000x1 ![] bcast_S_S1000000x1 : (⟨S_, .f32⟩ : BufTy).Contents (Elt F) → (⟨S1000000x1, .f32⟩ : BufTy).Contents (Elt F)),
    binary main_v0 main_v1 main_v2 (addf : (⟨S1000000x1, .f32⟩ : BufTy).Contents (Elt F) → (⟨S1000000x1, .f32⟩ : BufTy).Contents (Elt F) → (⟨S1000000x1, .f32⟩ : BufTy).Contents (Elt F)),
    unary main_v2 main_v3 (broadcastInDim S1000000x64 ![0, 1] bcast_S1000000x1_S1000000x64_0_1 : (⟨S1000000x1, .f32⟩ : BufTy).Contents (Elt F) → (⟨S1000000x64, .f32⟩ : BufTy).Contents (Elt F)),
    binary main_arg0 main_v3 main_v4 (Host.divf : (⟨S1000000x64, .f32⟩ : BufTy).Contents (Elt F) → (⟨S1000000x64, .f32⟩ : BufTy).Contents (Elt F) → (⟨S1000000x64, .f32⟩ : BufTy).Contents (Elt F)) ]

/-- One call of @_take, over its table `T`, its indices `n` and the call's buffers `φ`: twenty-three operations
    (@_where's select is the seventh). -/
abbrev takeOps (T : TRef sig ⟨S1000000x64, .f32⟩) (n : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary n φ.v0 φ.v1 (cmpi .slt),
    TRef.nullary φ.c_0 (constantI S_ 32 1000000#32),
    TRef.unary φ.c_0 φ.v2 (broadcastInDim S16384 ![] bcast_S_S16384),
    TRef.binary n φ.v2 φ.v3 addi,
    TRef.ternary φ.v1 φ.v3 n φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary T φ.v5 φ.v13 (fun x i => Host.gather gather_S1000000x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select ]

/-- One call of @_take_0: the same over the thousand-row table. -/
abbrev take0Ops (T : TRef sig ⟨S1000x64, .f32⟩) (n : TRef sig ⟨S16384, .i32⟩) (φ : fn_take_0.Bufs) : List (HloOp τ sig (Elt F)) :=
  [ TRef.nullary φ.c (constantI S_ 32 0#32),
    TRef.unary φ.c φ.v0 (broadcastInDim S16384 ![] bcast_S_S16384),
    TRef.binary n φ.v0 φ.v1 (cmpi .slt),
    TRef.nullary φ.c_0 (constantI S_ 32 1000#32),
    TRef.unary φ.c_0 φ.v2 (broadcastInDim S16384 ![] bcast_S_S16384),
    TRef.binary n φ.v2 φ.v3 addi,
    TRef.ternary φ.v1 φ.v3 n φ.call0.v0 select,
    TRef.unary φ.call0.v0 φ.v5 (broadcastInDim S16384x1 ![0] bcast_S16384_S16384x1_0),
    TRef.nullary φ.c_1 (constantI S1 32 999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary T φ.v5 φ.v13 (fun x i => Host.gather gather_S1000x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select ]

/-- The five calls, each over its operands and its own buffers. -/
abbrev part1 : List (HloOp τ sig (Elt F)) := takeOps (.of main_v4) (.of main_arg2) main_call1
abbrev part2 : List (HloOp τ sig (Elt F)) := take0Ops (.of main_arg1) (.of main_arg3) main_call2
abbrev part3 : List (HloOp τ sig (Elt F)) := takeOps (.of main_v4) (.of main_arg4) main_call3
abbrev part4 : List (HloOp τ sig (Elt F)) := takeOps (.of main_v4) (.of main_arg5) main_call4
abbrev part5 : List (HloOp τ sig (Elt F)) := takeOps (.of main_v4) (.of main_arg6) main_call5

/-- @main's last twenty-one operations: the two distances, the hinge, the mean. -/
abbrev part6 : List (HloOp τ sig (Elt F)) :=
  [ binary main_v5 main_v6 main_v10 (addf : (⟨S16384x64, .f32⟩ : BufTy).Contents (Elt F) → (⟨S16384x64, .f32⟩ : BufTy).Contents (Elt F) → (⟨S16384x64, .f32⟩ : BufTy).Contents (Elt F)),
    binary main_v10 main_v7 main_v11 (subf : (⟨S16384x64, .f32⟩ : BufTy).Contents (Elt F) → (⟨S16384x64, .f32⟩ : BufTy).Contents (Elt F) → (⟨S16384x64, .f32⟩ : BufTy).Contents (Elt F)),
    unary main_v11 main_v12 (Host.absf : (⟨S16384x64, .f32⟩ : BufTy).Contents (Elt F) → (⟨S16384x64, .f32⟩ : BufTy).Contents (Elt F)),
    nullary main_cst_0 (constant S_ .f32 0x00000000#32),
    binary main_v12 main_cst_0 main_v13 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v8 main_v6 main_v14 (addf : (⟨S16384x64, .f32⟩ : BufTy).Contents (Elt F) → (⟨S16384x64, .f32⟩ : BufTy).Contents (Elt F) → (⟨S16384x64, .f32⟩ : BufTy).Contents (Elt F)),
    binary main_v14 main_v9 main_v15 (subf : (⟨S16384x64, .f32⟩ : BufTy).Contents (Elt F) → (⟨S16384x64, .f32⟩ : BufTy).Contents (Elt F) → (⟨S16384x64, .f32⟩ : BufTy).Contents (Elt F)),
    unary main_v15 main_v16 (Host.absf : (⟨S16384x64, .f32⟩ : BufTy).Contents (Elt F) → (⟨S16384x64, .f32⟩ : BufTy).Contents (Elt F)),
    nullary main_cst_1 (constant S_ .f32 0x00000000#32),
    binary main_v16 main_cst_1 main_v17 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_2 (constant S_ .f32 0x3F800000#32),
    unary main_cst_2 main_v18 (broadcastInDim S16384 ![] bcast_S_S16384 : (⟨S_, .f32⟩ : BufTy).Contents (Elt F) → (⟨S16384, .f32⟩ : BufTy).Contents (Elt F)),
    binary main_v18 main_v13 main_v19 (addf : (⟨S16384, .f32⟩ : BufTy).Contents (Elt F) → (⟨S16384, .f32⟩ : BufTy).Contents (Elt F) → (⟨S16384, .f32⟩ : BufTy).Contents (Elt F)),
    binary main_v19 main_v17 main_v20 (subf : (⟨S16384, .f32⟩ : BufTy).Contents (Elt F) → (⟨S16384, .f32⟩ : BufTy).Contents (Elt F) → (⟨S16384, .f32⟩ : BufTy).Contents (Elt F)),
    nullary main_cst_3 (constant S_ .f32 0x00000000#32),
    unary main_cst_3 main_v21 (broadcastInDim S16384 ![] bcast_S_S16384 : (⟨S_, .f32⟩ : BufTy).Contents (Elt F) → (⟨S16384, .f32⟩ : BufTy).Contents (Elt F)),
    binary main_v20 main_v21 main_v22 (maximumf : (⟨S16384, .f32⟩ : BufTy).Contents (Elt F) → (⟨S16384, .f32⟩ : BufTy).Contents (Elt F) → (⟨S16384, .f32⟩ : BufTy).Contents (Elt F)),
    nullary main_cst_4 (constant S_ .f32 0x00000000#32),
    binary main_v22 main_cst_4 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v23 main_cst_5 main_v24 (Host.divf : (⟨S_, .f32⟩ : BufTy).Contents (Elt F) → (⟨S_, .f32⟩ : BufTy).Contents (Elt F) → (⟨S_, .f32⟩ : BufTy).Contents (Elt F)) ]

/-- @main's 146 operations, in order. -/
abbrev ops : List (HloOp τ sig (Elt F)) :=
  part0 ++ (part1 ++ (part2 ++ (part3 ++ (part4 ++ (part5 ++ part6)))))

/-! ## @main is that line -/

theorem norm_eq (a : TRef sig ⟨S1000000x64, .f32⟩) (φ : fn_norm.Bufs) :
    fn_norm.body (F := F) a φ = seq
      [ TRef.binary a a φ.v0 mulf,
        TRef.nullary φ.cst (constant S_ .f32 0x00000000#32),
        TRef.binary φ.v0 φ.cst φ.v1 (fun x v => Host.reduceAdd x v reducesTo_S1000000x64_S1000000_d1 h_S_),
        TRef.unary φ.v1 φ.v2 (broadcastInDim S1000000x1 ![0] bcast_S1000000_S1000000x1_0),
        TRef.unary φ.v2 φ.v3 Host.sqrt ] := rfl

/-- @_take's body is its operations in order: @_where's body unfolded at its call, the sequencing reassociated. -/
theorem take_eq (T : TRef sig ⟨S1000000x64, .f32⟩) (n : TRef sig ⟨S16384, .i32⟩) (φ : fn_take.Bufs) :
    fn_take.body (F := F) T n φ = seq (takeOps T n φ) := by
  simp only [fn_take.body, fn_where.body, seq, bind_assoc, pure_bind]

theorem take0_eq (T : TRef sig ⟨S1000x64, .f32⟩) (n : TRef sig ⟨S16384, .i32⟩) (φ : fn_take_0.Bufs) :
    fn_take_0.body (F := F) T n φ = seq (take0Ops T n φ) := by
  simp only [fn_take_0.body, fn_where.body, seq, bind_assoc, pure_bind]

set_option maxRecDepth 8192 in
theorem main_eq (c : Dev nD) : main (F := F) c = seq ops := by
  simp only [ops, seq_append, part1, part2, part3, part4, part5, ← take_eq, ← take0_eq]
  simp only [main, norm_eq, part0, part6, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## What the operations touch -/

theorem part0_sub : (part0 : List (HloOp τ sig (Elt F))).Forall fun op => op.bufs ⊆ tcRefs τ sig :=
  ⟨binary_bufs_sub .., nullary_bufs_sub .., binary_bufs_sub .., unary_bufs_sub .., unary_bufs_sub ..,
    nullary_bufs_sub .., unary_bufs_sub .., binary_bufs_sub .., unary_bufs_sub .., binary_bufs_sub ..⟩

theorem takeOps_sub (T : TRef sig ⟨S1000000x64, .f32⟩) (n : TRef sig ⟨S16384, .i32⟩) (φ : fn_take.Bufs) :
    (takeOps (F := F) T n φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem take0Ops_sub (T : TRef sig ⟨S1000x64, .f32⟩) (n : TRef sig ⟨S16384, .i32⟩) (φ : fn_take_0.Bufs) :
    (take0Ops (F := F) T n φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem part6_sub : (part6 : List (HloOp τ sig (Elt F))).Forall fun op => op.bufs ⊆ tcRefs τ sig :=
  ⟨binary_bufs_sub .., binary_bufs_sub .., unary_bufs_sub .., nullary_bufs_sub .., binary_bufs_sub .., binary_bufs_sub ..,
    binary_bufs_sub .., unary_bufs_sub .., nullary_bufs_sub .., binary_bufs_sub .., nullary_bufs_sub .., unary_bufs_sub ..,
    binary_bufs_sub .., binary_bufs_sub .., nullary_bufs_sub .., unary_bufs_sub .., binary_bufs_sub .., nullary_bufs_sub ..,
    binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp part0_sub op h, List.forall_iff_forall_mem.mp (takeOps_sub _ _ _) op h,
      List.forall_iff_forall_mem.mp (take0Ops_sub _ _ _) op h, List.forall_iff_forall_mem.mp (takeOps_sub _ _ _) op h,
      List.forall_iff_forall_mem.mp (takeOps_sub _ _ _) op h, List.forall_iff_forall_mem.mp (takeOps_sub _ _ _) op h,
      List.forall_iff_forall_mem.mp part6_sub op h]

/-- Every operation determines its results. -/
theorem part0_fresh : ∀ op ∈ (part0 : List (HloOp τ sig (Elt F))), op.fresh = ∅ := by
  intro _ h; (repeat (cases h with | head => rfl | tail _ h => ?_)); exact nomatch h
theorem takeOps_fresh (T : TRef sig ⟨S1000000x64, .f32⟩) (n : TRef sig ⟨S16384, .i32⟩) (φ : fn_take.Bufs) :
    ∀ op ∈ takeOps (F := F) T n φ, op.fresh = ∅ := by
  intro _ h; (repeat (cases h with | head => rfl | tail _ h => ?_)); exact nomatch h
theorem take0Ops_fresh (T : TRef sig ⟨S1000x64, .f32⟩) (n : TRef sig ⟨S16384, .i32⟩) (φ : fn_take_0.Bufs) :
    ∀ op ∈ take0Ops (F := F) T n φ, op.fresh = ∅ := by
  intro _ h; (repeat (cases h with | head => rfl | tail _ h => ?_)); exact nomatch h
theorem part6_fresh : ∀ op ∈ (part6 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h | h | h | h
  exacts [part0_fresh op h, takeOps_fresh _ _ _ op h, take0Ops_fresh _ _ _ op h, takeOps_fresh _ _ _ op h,
    takeOps_fresh _ _ _ op h, takeOps_fresh _ _ _ op h, part6_fresh op h]

/-! ## What each window writes, and so what it keeps -/

/-- The buffers the first window writes. -/
abbrev W0 : List (Ref sig .tc) :=
  [main_call0_v0, main_call0_cst, main_call0_v1, main_call0_v2, main_v0, main_cst, main_v1, main_v2, main_v3, main_v4]

/-- The buffers one call of @_take writes: the call's own. -/
abbrev takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]

/-- The buffers one call of @_take_0 writes. -/
abbrev take0W (φ : fn_take_0.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]

/-- The buffers the last window writes. -/
abbrev W6 : List (Ref sig .tc) :=
  [main_v10, main_v11, main_v12, main_cst_0, main_v13, main_v14, main_v15, main_v16, main_cst_1, main_v17, main_cst_2,
    main_v18, main_v19, main_v20, main_cst_3, main_v21, main_v22, main_cst_4, main_v23, main_cst_5, main_v24]

/-- An operation's one written buffer is in the list that names it. -/
local macro "wr" : tactic =>
  `(tactic| (simp only [nullary_writes, unary_writes, binary_writes, ternary_writes, Finset.singleton_subset_iff,
      List.mem_toFinset]; exact List.mem_map_of_mem (by simp only [List.mem_cons, true_or, or_true])))

theorem part0_writes : (part0 : List (HloOp τ sig (Elt F))).Forall fun op =>
    op.writes ⊆ (W0.map (Proc.devRef (τ := τ) .tc)).toFinset := by
  simp only [List.Forall]
  refine ⟨?_, ?_, ?_, ?_, ?_, ?_, ?_, ?_, ?_, ?_⟩ <;> wr

theorem takeOps_writes (T : TRef sig ⟨S1000000x64, .f32⟩) (n : TRef sig ⟨S16384, .i32⟩) (φ : fn_take.Bufs) :
    (takeOps (F := F) T n φ).Forall fun op => op.writes ⊆ ((takeW φ).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> wr

theorem take0Ops_writes (T : TRef sig ⟨S1000x64, .f32⟩) (n : TRef sig ⟨S16384, .i32⟩) (φ : fn_take_0.Bufs) :
    (take0Ops (F := F) T n φ).Forall fun op => op.writes ⊆ ((take0W φ).map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> wr

theorem part6_writes : (part6 : List (HloOp τ sig (Elt F))).Forall fun op =>
    op.writes ⊆ (W6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;> wr

section Keep
variable (V : Valuation τ sig (Elt F)) {r : Ref sig .tc}

/-- A buffer a window does not write keeps its contents through it. -/
theorem keep0 (h : r ∉ W0) : after part0 V (no_index (Proc.devRef .tc r)) = V (Proc.devRef .tc r) :=
  after_of_writes_sub part0 V part0_writes h
theorem keep1 (h : r ∉ takeW main_call1) : after part1 V (no_index (Proc.devRef .tc r)) = V (Proc.devRef .tc r) :=
  after_of_writes_sub part1 V (takeOps_writes _ _ _) h
theorem keep2 (h : r ∉ take0W main_call2) : after part2 V (no_index (Proc.devRef .tc r)) = V (Proc.devRef .tc r) :=
  after_of_writes_sub part2 V (take0Ops_writes _ _ _) h
theorem keep3 (h : r ∉ takeW main_call3) : after part3 V (no_index (Proc.devRef .tc r)) = V (Proc.devRef .tc r) :=
  after_of_writes_sub part3 V (takeOps_writes _ _ _) h
theorem keep4 (h : r ∉ takeW main_call4) : after part4 V (no_index (Proc.devRef .tc r)) = V (Proc.devRef .tc r) :=
  after_of_writes_sub part4 V (takeOps_writes _ _ _) h
theorem keep5 (h : r ∉ takeW main_call5) : after part5 V (no_index (Proc.devRef .tc r)) = V (Proc.devRef .tc r) :=
  after_of_writes_sub part5 V (takeOps_writes _ _ _) h
theorem keep6 (h : r ∉ W6) : after part6 V (no_index (Proc.devRef .tc r)) = V (Proc.devRef .tc r) :=
  after_of_writes_sub part6 V part6_writes h

end Keep

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each window computes -/

section Windows
variable (V : Valuation τ sig (Elt F))

/-- The first window leaves the normalised table at `main_v4`. -/
theorem part0_v4 : after part0 V (no_index (Proc.devRef .tc main_v4)) = ent (V (Proc.devRef .tc main_arg0)) := by
  simp only [part0]
  after_results_simp
  rfl

set_option maxRecDepth 8192 in
set_option maxHeartbeats 2000000 in
/-- Each call leaves at its result the rows of its table at its indices. -/
theorem part1_v5 : after part1 V (no_index (Proc.devRef .tc main_v5))
    = takeE (V (Proc.devRef .tc main_v4)) (V (Proc.devRef .tc main_arg2)) := by
  simp only [part1, takeOps]
  after_results_simp
  simp only [TRef.toBuf, TRef.ofBuf, cast_eq]
  rfl

set_option maxRecDepth 8192 in
set_option maxHeartbeats 2000000 in
theorem part2_v6 : after part2 V (no_index (Proc.devRef .tc main_v6))
    = takeR (V (Proc.devRef .tc main_arg1)) (V (Proc.devRef .tc main_arg3)) := by
  simp only [part2, take0Ops]
  after_results_simp
  simp only [TRef.toBuf, TRef.ofBuf, cast_eq]
  rfl

set_option maxRecDepth 8192 in
set_option maxHeartbeats 2000000 in
theorem part3_v7 : after part3 V (no_index (Proc.devRef .tc main_v7))
    = takeE (V (Proc.devRef .tc main_v4)) (V (Proc.devRef .tc main_arg4)) := by
  simp only [part3, takeOps]
  after_results_simp
  simp only [TRef.toBuf, TRef.ofBuf, cast_eq]
  rfl

set_option maxRecDepth 8192 in
set_option maxHeartbeats 2000000 in
theorem part4_v8 : after part4 V (no_index (Proc.devRef .tc main_v8))
    = takeE (V (Proc.devRef .tc main_v4)) (V (Proc.devRef .tc main_arg5)) := by
  simp only [part4, takeOps]
  after_results_simp
  simp only [TRef.toBuf, TRef.ofBuf, cast_eq]
  rfl

set_option maxRecDepth 8192 in
set_option maxHeartbeats 2000000 in
theorem part5_v9 : after part5 V (no_index (Proc.devRef .tc main_v9))
    = takeE (V (Proc.devRef .tc main_v4)) (V (Proc.devRef .tc main_arg6)) := by
  simp only [part5, takeOps]
  after_results_simp
  simp only [TRef.toBuf, TRef.ofBuf, cast_eq]
  rfl

/-- The last window leaves the loss of the five gathered arrays at the result. -/
theorem part6_v24 : after part6 V (no_index (Proc.devRef .tc main_v24))
    = loss (V (Proc.devRef .tc main_v5)) (V (Proc.devRef .tc main_v6)) (V (Proc.devRef .tc main_v7))
        (V (Proc.devRef .tc main_v8)) (V (Proc.devRef .tc main_v9)) := by
  simp only [part6]
  after_results_simp
  rfl

end Windows

/-! ## The whole line -/

/-- The line runs window by window. -/
theorem after_ops (V : Valuation τ sig (Elt F)) :
    after ops V = after part6 (after part5 (after part4 (after part3 (after part2 (after part1 (after part0 V)))))) := by
  simp only [ops, after_app]

/-- The result buffer ends at `val` of the arguments: each window's result read through the windows after it, which
    keep it, down to the arguments, which every window keeps. -/
theorem ops_v24 (V : Valuation τ sig (Elt F)) :
    after ops V (Proc.devRef .tc main_v24)
      = val (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [after_ops]
  simp (disch := decide) only [part6_v24, part5_v9, part4_v8, part3_v7, part2_v6, part1_v5, part0_v4,
    keep0, keep1, keep2, keep3, keep4, keep5]
  rfl

/-- A buffer no window writes ends as it began. -/
theorem ops_keep (V : Valuation τ sig (Elt F)) {r : Ref sig .tc} (h0 : r ∉ W0) (h1 : r ∉ takeW main_call1)
    (h2 : r ∉ take0W main_call2) (h3 : r ∉ takeW main_call3) (h4 : r ∉ takeW main_call4) (h5 : r ∉ takeW main_call5)
    (h6 : r ∉ W6) : after ops V (Proc.devRef .tc r) = V (Proc.devRef .tc r) := by
  rw [after_ops]
  exact (keep6 _ h6).trans ((keep5 _ h5).trans ((keep4 _ h4).trans ((keep3 _ h3).trans ((keep2 _ h2).trans
    ((keep1 _ h1).trans (keep0 _ h0))))))

/-! ## The run -/

/-- On every device, for any float values, from any memory with zero counters: every weakly fair execution of
    @main terminates with the result at `val` of the arguments' launch contents and the arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v24).trans (ops_v24 _),
      (h c main_arg0).trans (ops_keep _ (by decide) (by decide) (by decide) (by decide) (by decide) (by decide) (by decide)),
      (h c main_arg1).trans (ops_keep _ (by decide) (by decide) (by decide) (by decide) (by decide) (by decide) (by decide)),
      (h c main_arg2).trans (ops_keep _ (by decide) (by decide) (by decide) (by decide) (by decide) (by decide) (by decide)),
      (h c main_arg3).trans (ops_keep _ (by decide) (by decide) (by decide) (by decide) (by decide) (by decide) (by decide)),
      (h c main_arg4).trans (ops_keep _ (by decide) (by decide) (by decide) (by decide) (by decide) (by decide) (by decide)),
      (h c main_arg5).trans (ops_keep _ (by decide) (by decide) (by decide) (by decide) (by decide) (by decide) (by decide)),
      (h c main_arg6).trans (ops_keep _ (by decide) (by decide) (by decide) (by decide) (by decide) (by decide) (by decide))⟩)
    (run_seq scopedRefs_eq scopedSems_eq defs main (fun _ => ops) main_eq (fun _ => ops_sub) m ρ (fun _ => ops_fresh))

/-- The same on the extended reals. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v24) = val (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  runF m ρ

/-- The reference runs and leaves its arguments unchanged: the run with the value dropped. -/
theorem frame [hReferenceIdeal : Cert.ReferenceIdeal.Facts] [hPre_input_domain : Cert.Pre_input_domain.Facts] :
    Cert.frame_ReferenceIdeal := fun m g _ =>
  (θ_run _ _ _).mono (fun _ h c => (h c).2) (run m g)

/-! ## The value read at its index, for indices in range

At the extended reals, with every index word naming a row of its table, the wrap and the range test of each
`take` are the identity, a gathered row is the table's row at the word, and the result reads as the mean over
the batch of the hinge of one plus the positive distance minus the negative one. -/

section Read

open Idealize.ShloMosaic.ValueIdx Cert.LibKeepdims

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- The row a signed index word names in a table of `N` rows, clamped into the table as a gather clamps it. -/
def clampRow (N : ℕ) (hN : 0 < N) (w : BitVec 32) : Fin N := ⟨min w.toInt.toNat (N - 1), by omega⟩

theorem clampRow_val {N : ℕ} (hN : 0 < N) {w : BitVec 32} (h0 : 0 ≤ w.toInt) (h1 : w.toInt < N) :
    (clampRow N hN w).val = w.toInt.toNat := by
  unfold clampRow
  simp only
  omega

/-- A word that is not negative is not wrapped. -/
theorem wrap_apply (len : BitVec 32) (n : IVec S16384 32) (b : Fin 16384) (h : 0 ≤ (n (ix1 b)).toInt) :
    wrap len n (ix1 b) = n (ix1 b) := by
  unfold wrap
  rw [select_apply]
  have hc : cmpi .slt n (broadcastInDim S16384 ![] bcast_S_S16384 (constantI S_ 32 0#32)) (ix1 b) = 0#1 := by
    show IntOp.cmpi .slt (n (ix1 b)) 0#32 = 0#1
    refine eq_zero_of_ne_one fun e => ?_
    have := IntOp.cmpi_slt.mp e
    rw [show (0#32 : BitVec 32).toInt = 0 from by decide] at this
    omega
  rw [hc, select_zero]

/-- The index column reads the wrapped word of its row. -/
theorem idxCol_apply (len : BitVec 32) (n : IVec S16384 32) (b : Fin 16384) (u : Fin 1) (h : 0 ≤ (n (ix1 b)).toInt) :
    idxCol len n (ix2 b u) = n (ix1 b) := by
  unfold idxCol
  rw [broadcastInDim_a_a1_apply, wrap_apply len n b h]

/-- With every word between zero and `last`, the range test is 1 at every row. -/
theorem inb_eq_one (len last : BitVec 32) (n : IVec S16384 32)
    (hn : ∀ b, 0 ≤ (n (ix1 b)).toInt ∧ (n (ix1 b)).toInt ≤ last.toInt) (j : S16384.Idx) :
    inb last (idxCol len n) j = 1#1 := by
  unfold inb
  rw [Host.reduce_eq_foldl]
  refine foldl_andi_one _ _ fun i _ => ?_
  rw [eq_ix2 i]
  show IntOp.andi (IntOp.cmpi .sge (idxCol len n (ix2 (i 0) (i 1))) 0#32)
    (IntOp.cmpi .sle (idxCol len n (ix2 (i 0) (i 1))) last) = 1#1
  rw [idxCol_apply len n (i 0) (i 1) (hn (i 0)).1, IntOp.andi_eq_one]
  refine ⟨IntOp.cmpi_sge.mpr ?_, IntOp.cmpi_sle.mpr (hn (i 0)).2⟩
  rw [show (0#32 : BitVec 32).toInt = 0 from by decide]
  exact (hn (i 0)).1

/-- The dimension numbers of `take` along axis 0: rows of an `[N, C]` table at an `[R, 1]` column of indices. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- That gather read at `(b, j)`: the table at the row the index word of `b` names, clamped, and column `j`. -/
theorem gather_rows_apply {α : Type} {N R C : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (b : Fin R) (j : Fin C) :
    Host.gather (rowDims N R C wf) x idx (ix2 b j) = x (ix2 (clampRow N hN (idx (ix2 b (0 : Fin 1)))) j) := by
  unfold Host.gather
  congr 1
  funext a
  refine Fin.ext ?_
  match a with
  | ⟨0, _⟩ =>
    show (rowDims N R C wf).start (ix2 b j) idx 0 + (rowDims N R C wf).batchCoord (ix2 b j) 0
      + (rowDims N R C wf).offCoord (ix2 b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 b j) ⟨List.idxOf (0 : Fin 2) (rowDims N R C wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show (rowDims N R C wf).start (ix2 b j) idx 1 + (rowDims N R C wf).batchCoord (ix2 b j) 1
      + (rowDims N R C wf).offCoord (ix2 b j) 1 = j.val
    rw [GatherDims.batchCoord_eq_zero _ _ _ List.not_mem_nil]
    unfold GatherDims.start
    rw [dif_neg (show (1 : Fin 2) ∉ ([0] : List (Fin 2)) from by decide)]
    simp only [Nat.add_zero, Nat.zero_add]
    rfl

/-- Rows of the million-row table at indices in range. -/
theorem takeE_apply {F : FTy → Type} [FloatOps F] (T : FVec F S1000000x64 .f32) (n : IVec S16384 32)
    (hn : ∀ b, 0 ≤ (n (ix1 b)).toInt ∧ (n (ix1 b)).toInt < 1000000) (b : Fin 16384) (j : Fin 64) :
    takeE T n (ix2 b j) = T (ix2 (clampRow 1000000 (by decide) (n (ix1 b))) j) := by
  unfold takeE
  rw [select_apply]
  have hm : broadcastInDim S16384x64 ![0] bcast_S16384_S16384x64_0 (inb 999999#32 (idxCol 1000000#32 n)) (ix2 b j) = 1#1 := by
    unfold broadcastInDim
    exact inb_eq_one _ _ n (fun b => ⟨(hn b).1, by
      have := (hn b).2; rw [show (999999#32 : BitVec 32).toInt = 999999 from by decide]; omega⟩) _
  rw [hm, select_one]
  show Host.gather (rowDims 1000000 16384 64 gather_S1000000x64_S16384x1_S16384x64_1_0_n_n_0_1_164_wf) T
    (idxCol 1000000#32 n) (ix2 b j) = _
  rw [gather_rows_apply (by decide), idxCol_apply _ n b 0 (hn b).1]

/-- Rows of the thousand-row table at indices in range. -/
theorem takeR_apply {F : FTy → Type} [FloatOps F] (T : FVec F S1000x64 .f32) (n : IVec S16384 32)
    (hn : ∀ b, 0 ≤ (n (ix1 b)).toInt ∧ (n (ix1 b)).toInt < 1000) (b : Fin 16384) (j : Fin 64) :
    takeR T n (ix2 b j) = T (ix2 (clampRow 1000 (by decide) (n (ix1 b))) j) := by
  unfold takeR
  rw [select_apply]
  have hm : broadcastInDim S16384x64 ![0] bcast_S16384_S16384x64_0 (inb 999#32 (idxCol 1000#32 n)) (ix2 b j) = 1#1 := by
    unfold broadcastInDim
    exact inb_eq_one _ _ n (fun b => ⟨(hn b).1, by
      have := (hn b).2; rw [show (999#32 : BitVec 32).toInt = 999 from by decide]; omega⟩) _
  rw [hm, select_one]
  show Host.gather (rowDims 1000 16384 64 gather_S1000x64_S16384x1_S16384x64_1_0_n_n_0_1_164_wf) T
    (idxCol 1000#32 n) (ix2 b j) = _
  rw [gather_rows_apply (by decide), idxCol_apply _ n b 0 (hn b).1]

end Read

section ReadIdeal

open Idealize.ShloMosaic.ValueIdx Cert.LibKeepdims

/-- The words of one and of the batch size as extended reals. -/
theorem ofBits_one : Ideal.ofBits .f32 0x3F800000#32 = 1 := by
  rw [show (1 : EReal) = ((1 : ℝ) : EReal) by norm_cast]
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

/-- A sum over the indices of a one-axis shape is the sum over the axis. -/
theorem sum_idx1 {M : Type} [AddCommMonoid M] {n : ℕ} (f : (⟨1, ![n]⟩ : Shape).Idx → M) :
    ∑ i, f i = ∑ b : Fin n, f (ix1 b) :=
  Fintype.sum_equiv ⟨fun i => i 0, ix1, fun i => (eq_ix1 i).symm, fun _ => rfl⟩ _ _ fun i => congrArg f (eq_ix1 i)

/-- The host's sum of a one-axis array into a scalar: the initial value plus the sum over the axis. -/
theorem hostSumAll_apply {n : ℕ} (X : FVec Ideal ⟨1, ![n]⟩ .f32) (init : (⟨0, ![]⟩ : Shape).Idx → Ideal .f32)
    (h' : (⟨1, ![n]⟩ : Shape).ReducesTo [0] ⟨0, ![]⟩) (hu : 0 < (⟨0, ![]⟩ : Shape).numel) (j : (⟨0, ![]⟩ : Shape).Idx) :
    Host.reduceAdd X init h' hu j = init ix0 + ∑ p : Fin n, X (ix1 p) := by
  unfold Host.reduceAdd
  refine (Ideal.hostReduceAdd_total h' (fun b => b.elim0) X _ j).trans ?_
  exact congrArg₂ (· + ·) (congrArg init (funext fun a => a.elim0)) (sum_idx1 X)

/-- The small constant added to a norm: the extended real its printed word denotes. -/
def eps : EReal := Ideal.ofBits .f32 0x2B8CBCCC#32

/-- Entry `(i, j)` of the normalised table: the entry over its row's norm plus the small constant. -/
def entAt (E : FVec Ideal S1000000x64 .f32) (i : Fin 1000000) (j : Fin 64) : EReal :=
  Ideal.div (E (ix2 i j)) (Ideal.sqrt (∑ k : Fin 64, E (ix2 i k) * E (ix2 i k)) + eps)

/-- The host's square root and absolute value at an index. -/
theorem hostSqrt_apply {s : Shape} {φ : FTy} (x : FVec Ideal s φ) (i : s.Idx) : Host.sqrt x i = Ideal.sqrt (x i) := rfl
theorem hostAbsf_apply {s : Shape} {φ : FTy} (x : FVec Ideal s φ) (i : s.Idx) : Host.absf x i = max (x i) (-(x i)) := rfl

set_option maxRecDepth 8192 in
theorem rowNorm_apply (E : FVec Ideal S1000000x64 .f32) (i : Fin 1000000) (u : Fin 1) :
    rowNorm E (ix2 i u) = Ideal.sqrt (∑ k : Fin 64, E (ix2 i k) * E (ix2 i k)) := by
  unfold rowNorm
  rw [hostSqrt_apply, broadcastInDim_a_a1_apply, hostRowSum_apply _ _ _ (by decide) _ i, constant_apply,
    Ideal.ofBits_zero_f32, zero_add]
  simp only [mulf_apply]

set_option maxRecDepth 8192 in
theorem ent_apply (E : FVec Ideal S1000000x64 .f32) (i : Fin 1000000) (j : Fin 64) :
    ent E (ix2 i j) = entAt E i j := by
  unfold ent entAt eps
  rw [hostDivf_apply, broadcastInDim_a1_ab_apply, addf_apply, Cert.LibKeepdims.broadcastInDim_scalar_apply, constant_apply,
    rowNorm_apply]

/-- The distance of a row: the sum over its columns of `|a + r - b|`, the absolute value as the larger of a number
    and its negative. -/
def l1 (a r b : Fin 64 → EReal) : EReal := ∑ j : Fin 64, max (a j + r j - b j) (-(a j + r j - b j))

set_option maxRecDepth 8192 in
theorem dist_apply (a r b : FVec Ideal S16384x64 .f32) (p : Fin 16384) :
    dist a r b (ix1 p) = l1 (fun j => a (ix2 p j)) (fun j => r (ix2 p j)) (fun j => b (ix2 p j)) := by
  unfold dist l1
  rw [hostRowSum_apply _ _ _ (by decide) _ p, constant_apply, Ideal.ofBits_zero_f32, zero_add]
  simp only [hostAbsf_apply, subf_apply, addf_apply]

set_option maxRecDepth 8192 in
theorem loss_apply (h r t hn tn : FVec Ideal S16384x64 .f32) :
    loss h r t hn tn ix0
      = Ideal.div (∑ p : Fin 16384, max (1 + dist h r t (ix1 p) - dist hn r tn (ix1 p)) 0) ((16384 : ℝ) : EReal) := by
  unfold loss
  rw [hostDivf_apply, constant_apply, ofBits_16384, hostSumAll_apply, constant_apply, Ideal.ofBits_zero_f32, zero_add]
  have hb : ∀ (c : S_.Idx → Ideal .f32) (p : Fin 16384),
      broadcastInDim S16384 ![] bcast_S_S16384 c (ix1 p) = c ix0 := fun c p => Cert.LibKeepdims.broadcastInDim_scalar_apply c _ _
  simp only [maximumf_apply, subf_apply, addf_apply, hb, constant_apply, ofBits_one, Ideal.ofBits_zero_f32]

/-- Entry `j` of the normalised row an index word names, and of the relation table's row. -/
def entRow (E : FVec Ideal S1000000x64 .f32) (w : BitVec 32) (j : Fin 64) : EReal :=
  entAt E (clampRow 1000000 (by decide) w) j
def relRow (R : FVec Ideal S1000x64 .f32) (w : BitVec 32) (j : Fin 64) : EReal :=
  R (ix2 (clampRow 1000 (by decide) w) j)

set_option maxRecDepth 8192 in
/-- THE VALUE READ AT ITS INDEX, every index word in range: the mean over the batch of the hinge
    `max (1 + l1 h r t - l1 hn r tn) 0` of the normalised rows `h`, `t`, `hn`, `tn` and the relation row `r`. -/
theorem val_apply (E : FVec Ideal S1000000x64 .f32) (R : FVec Ideal S1000x64 .f32) (ph pr pt nh nt : IVec S16384 32)
    (hph : ∀ b, 0 ≤ (ph (ix1 b)).toInt ∧ (ph (ix1 b)).toInt < 1000000)
    (hpr : ∀ b, 0 ≤ (pr (ix1 b)).toInt ∧ (pr (ix1 b)).toInt < 1000)
    (hpt : ∀ b, 0 ≤ (pt (ix1 b)).toInt ∧ (pt (ix1 b)).toInt < 1000000)
    (hnh : ∀ b, 0 ≤ (nh (ix1 b)).toInt ∧ (nh (ix1 b)).toInt < 1000000)
    (hnt : ∀ b, 0 ≤ (nt (ix1 b)).toInt ∧ (nt (ix1 b)).toInt < 1000000) :
    val (F := Ideal) E R ph pr pt nh nt ix0
      = Ideal.div (∑ p : Fin 16384,
          max (1 + l1 (entRow E (ph (ix1 p))) (relRow R (pr (ix1 p))) (entRow E (pt (ix1 p)))
                 - l1 (entRow E (nh (ix1 p))) (relRow R (pr (ix1 p))) (entRow E (nt (ix1 p)))) 0)
          ((16384 : ℝ) : EReal) := by
  unfold val
  rw [loss_apply]
  simp only [dist_apply, takeE_apply _ _ hph, takeR_apply _ _ hpr, takeE_apply _ _ hpt, takeE_apply _ _ hnh,
    takeE_apply _ _ hnt, ent_apply]
  rfl

end ReadIdeal

section ReadSpec

open Idealize.ShloMosaic.ValueIdx

/-- A word whose signed reading lies in `[0, hi]` names, read unsigned, a number below any `N` above `hi`. -/
theorem toNat_lt {w : BitVec 32} {hi : ℤ} {N : ℕ} (h : 0 ≤ w.toInt ∧ w.toInt ≤ hi) (hN : hi < N) : w.toNat < N := by
  have hl := w.isLt
  rw [BitVec.toInt_eq_toNat_cond] at h
  split at h <;> omega

/-- For such a word the clamped row is the word read unsigned. -/
theorem clampRow_eq {N : ℕ} (hN : 0 < N) {w : BitVec 32} {hi : ℤ} (h : 0 ≤ w.toInt ∧ w.toInt ≤ hi) (hlt : hi < N) :
    clampRow N hN w = ⟨w.toNat, toNat_lt h hlt⟩ := by
  refine Fin.ext ?_
  rw [clampRow_val hN h.1 (by omega)]
  have hl := w.isLt
  have h' := h
  rw [BitVec.toInt_eq_toNat_cond] at h' ⊢
  split at h' <;> simp only [] <;> omega

theorem entRow_eq (E : FVec Ideal S1000000x64 .f32) {w : BitVec 32} (h : 0 ≤ w.toInt ∧ w.toInt ≤ 999999) :
    entRow E w = Cert.Proof.Spec.refRow (fun i j => E (ix2 i j)) ⟨w.toNat, toNat_lt h (by norm_num)⟩ := by
  funext j
  unfold entRow entAt eps Cert.Proof.Spec.refRow
  rw [clampRow_eq (by decide) h (by norm_num), Ideal.ofBits_zero_f32, zero_add]

theorem relRow_eq (R : FVec Ideal S1000x64 .f32) {w : BitVec 32} (h : 0 ≤ w.toInt ∧ w.toInt ≤ 999) :
    relRow R w = (fun (i : Fin 1000) (j : Fin 64) => R (ix2 i j)) ⟨w.toNat, toNat_lt h (by norm_num)⟩ := by
  funext j
  unfold relRow
  rw [clampRow_eq (by decide) h (by norm_num)]

set_option maxRecDepth 8192 in
/-- THE VALUE AS THE REFERENCE'S FORMULA over the tables' entries and the rows the index words name. -/
theorem val_eq_refLoss (E : FVec Ideal S1000000x64 .f32) (R : FVec Ideal S1000x64 .f32) (ph pr pt nh nt : IVec S16384 32)
    (hph : ∀ i, 0 ≤ (ph i).toInt ∧ (ph i).toInt ≤ 999999) (hpr : ∀ i, 0 ≤ (pr i).toInt ∧ (pr i).toInt ≤ 999)
    (hpt : ∀ i, 0 ≤ (pt i).toInt ∧ (pt i).toInt ≤ 999999) (hnh : ∀ i, 0 ≤ (nh i).toInt ∧ (nh i).toInt ≤ 999999)
    (hnt : ∀ i, 0 ≤ (nt i).toInt ∧ (nt i).toInt ≤ 999999) :
    val (F := Ideal) E R ph pr pt nh nt ix0
      = Cert.Proof.Spec.refLoss (fun i j => E (ix2 i j)) (fun i j => R (ix2 i j))
          (fun b => ⟨(ph (ix1 b)).toNat, toNat_lt (hph (ix1 b)) (by norm_num)⟩)
          (fun b => ⟨(pr (ix1 b)).toNat, toNat_lt (hpr (ix1 b)) (by norm_num)⟩)
          (fun b => ⟨(pt (ix1 b)).toNat, toNat_lt (hpt (ix1 b)) (by norm_num)⟩)
          (fun b => ⟨(nh (ix1 b)).toNat, toNat_lt (hnh (ix1 b)) (by norm_num)⟩)
          (fun b => ⟨(nt (ix1 b)).toNat, toNat_lt (hnt (ix1 b)) (by norm_num)⟩) := by
  rw [val_apply E R ph pr pt nh nt (fun b => ⟨(hph _).1, by have := (hph (ix1 b)).2; omega⟩)
    (fun b => ⟨(hpr _).1, by have := (hpr (ix1 b)).2; omega⟩) (fun b => ⟨(hpt _).1, by have := (hpt (ix1 b)).2; omega⟩)
    (fun b => ⟨(hnh _).1, by have := (hnh (ix1 b)).2; omega⟩) (fun b => ⟨(hnt _).1, by have := (hnt (ix1 b)).2; omega⟩)]
  have e1 := fun p : Fin 16384 => entRow_eq E (hph (ix1 p))
  have e2 := fun p : Fin 16384 => relRow_eq R (hpr (ix1 p))
  have e3 := fun p : Fin 16384 => entRow_eq E (hpt (ix1 p))
  have e4 := fun p : Fin 16384 => entRow_eq E (hnh (ix1 p))
  have e5 := fun p : Fin 16384 => entRow_eq E (hnt (ix1 p))
  simp only [e1, e2, e3, e4, e5]
  unfold Cert.Proof.Spec.refLoss Cert.Proof.Spec.refHinge Cert.Proof.Spec.refDist l1
  simp only [Ideal.ofBits_zero_f32, zero_add, ofBits_one, ofBits_16384]

end ReadSpec

end Cert.Proof.RefRun

end
-- ==== Proof.FinalValue.lean ====
/-
  The value of the program at the ideal values. Through its second stretch the program's scalar is the kernel-side loss of
  the rows picked, by the bits of a packed word, out of the five arrays the SparseCore call left. The call gathered those
  arrays' rows out of the packed tables at the packed rows the first stretch computed from the index inputs; the packing
  kernel laid the entity table out two rows to one, the first stretch the relation table; and the packed word holds the
  halves of the same indices. So each picked row is the table's own row at the sample's index, and the kernel-side loss
  over those rows is the reference's formula, which is what the reference computes. The packing kernel's and the
  gather's own values enter as hypotheses.
-/
import proofs.«205037_g73117523247527_cont_9to1c4b_608_48_alg».proof.Proof.ChainA
import proofs.«205037_g73117523247527_cont_9to1c4b_608_48_alg».proof.Proof.ChainB
import proofs.«205037_g73117523247527_cont_9to1c4b_608_48_alg».proof.Proof.Compose
import proofs.«205037_g73117523247527_cont_9to1c4b_608_48_alg».proof.Proof.PreFacts
import proofs.«205037_g73117523247527_cont_9to1c4b_608_48_alg».proof.Proof.RefRun
import proofs.«205037_g73117523247527_cont_9to1c4b_608_48_alg».proof.Proof.Launch
import proofs.«205037_g73117523247527_cont_9to1c4b_608_48_alg».proof.Proof.PackedDef

noncomputable section

namespace Cert.Proof.KI

open Cert.KernelIdeal Cert.KernelIdeal.Gen
open Idealize.ShloMosaic Idealize.ShloMosaic.ValueIdx
open Cert.Proof.IdxArith

section Final

variable (m : (ℓ : Loc nD τ sig) → Buf (Elt Ideal) ℓ)
variable (Pk : (d : Dev nD) → (Proc.devRef .tc main_v5 : DevRef τ sig).ty.Contents (Elt Ideal))

/-- A gathered array of entity rows is the packed table's rows at the packed rows of input `k`'s indices: what the
    gather read (the packed table the packing kernel left, at the packed rows the first stretch computed) spelt over
    the inputs. -/
theorem ent_rows (d : Dev nD) (k : Fin 4) (G : Fin 16384 → Fin 128 → EReal)
    (hPk : ∀ (r : Fin 500000) (col : Fin 128), Pk d (ix2 r col) = PackPick.packedE (fun i j => m (d, r_arg0) (ix2 i j)) r col)
    (hG : ∀ (b : Fin 16384) (col : Fin 128)
      (h : BitVec.toNat (VAof (StableHlo.launchContents m d) (Pk d) (Proc.devRef .tc main_v24) (ix2 (⟨128 * k.val + b.val / 128, by have := b.isLt; have := k.isLt; omega⟩ : Fin 512) (⟨b.val % 128, by omega⟩ : Fin 128))) < 500000),
      G b col = VAof (StableHlo.launchContents m d) (Pk d) (Proc.devRef .tc main_v5) (ix2 ⟨_, h⟩ col))
    (w : Fin 16384 → BitVec 32)
    (hw : ∀ b, w b = pick4 (m (d, r_arg2)) (m (d, r_arg4)) (m (d, r_arg5)) (m (d, r_arg6)) k (ix1 b))
    (hr : ∀ b, 0 ≤ (w b).toInt ∧ (w b).toInt ≤ 999999) (b : Fin 16384) (col : Fin 128) :
    G b col = PackPick.packedE (fun i j => m (d, r_arg0) (ix2 i j)) ⟨(epairW (w b)).toNat, PackPick.epair_lt (hr b).1 (hr b).2⟩ col := by
  have hb := b.isLt
  have hk := k.isLt
  have e24 : VAof (StableHlo.launchContents m d) (Pk d) (Proc.devRef .tc main_v24) (ix2 (⟨128 * k.val + b.val / 128, by omega⟩ : Fin 512) (⟨b.val % 128, by omega⟩ : Fin 128)) = epairW (w b) := by
    rw [VAof_v24_read _ _ k ⟨b.val / 128, by omega⟩ ⟨b.val % 128, by omega⟩ _ rfl, hw]
    exact congrArg (fun x => epairW (pick4 (m (d, r_arg2)) (m (d, r_arg4)) (m (d, r_arg5)) (m (d, r_arg6)) k (ix1 x))) (Fin.ext (by show 128 * (b.val / 128) + b.val % 128 = b.val; omega))
  rw [hG b col (by rw [e24]; exact PackPick.epair_lt (hr b).1 (hr b).2), VAof_v5, hPk]
  exact congrArg (fun r => PackPick.packedE (fun i j => m (d, r_arg0) (ix2 i j)) r col) (Fin.ext (congrArg BitVec.toNat e24))

/-- The gathered array of relation rows is the packed relation table's rows at the packed rows of the relation
    indices. -/
theorem rel_rows (d : Dev nD) (G : Fin 16384 → Fin 128 → EReal)
    (hG : ∀ (b : Fin 16384) (col : Fin 128)
      (h : BitVec.toNat (VAof (StableHlo.launchContents m d) (Pk d) (Proc.devRef .tc main_v25) (ix2 (⟨b.val / 128, by have := b.isLt; omega⟩ : Fin 128) (⟨b.val % 128, by omega⟩ : Fin 128))) < 500),
      G b col = VAof (StableHlo.launchContents m d) (Pk d) (Proc.devRef .tc main_v6) (ix2 ⟨_, h⟩ col))
    (hr : ∀ b : Fin 16384, 0 ≤ (m (d, r_arg3) (ix1 b)).toInt ∧ (m (d, r_arg3) (ix1 b)).toInt ≤ 999) (b : Fin 16384) (col : Fin 128) :
    G b col = PackPick.packedR (fun i j => m (d, r_arg1) (ix2 i j)) ⟨(rpairW (m (d, r_arg3) (ix1 b))).toNat, PackPick.rpair_lt (hr b).1 (hr b).2⟩ col := by
  have hb := b.isLt
  have e25 : VAof (StableHlo.launchContents m d) (Pk d) (Proc.devRef .tc main_v25) (ix2 (⟨b.val / 128, by omega⟩ : Fin 128) (⟨b.val % 128, by omega⟩ : Fin 128)) = rpairW (m (d, r_arg3) (ix1 b)) := by
    rw [VAof_v25_read]
    exact congrArg (fun x => rpairW (m (d, r_arg3) (ix1 x))) (Fin.ext (by show 128 * (b.val / 128) + b.val % 128 = b.val; omega))
  rw [hG b col (by rw [e25]; exact PackPick.rpair_lt (hr b).1 (hr b).2), VAof_v6_read]
  unfold PackPick.packedR
  exact PackPick.table_congr (fun i j => m (d, r_arg1) (ix2 i j)) (congrArg (fun x : BitVec 32 => 2 * x.toNat + col.val / 64) e25) rfl

end Final

section Main

variable [Cert.Pre_input_domain.Facts]
variable (m : (ℓ : Loc nD τ sig) → Buf (Elt Ideal) ℓ)
variable (Pk : (d : Dev nD) → (Proc.devRef .tc main_v5 : DevRef τ sig).ty.Contents (Elt Ideal))
variable (G0 : (d : Dev nD) → Buf (Elt Ideal) (locR0 d)) (G1 : (d : Dev nD) → Buf (Elt Ideal) (locR1 d))
  (G2 : (d : Dev nD) → Buf (Elt Ideal) (locR2 d)) (G3 : (d : Dev nD) → Buf (Elt Ideal) (locR3 d))
  (G4 : (d : Dev nD) → Buf (Elt Ideal) (locR4 d))

/-- THE VALUE. Under the precondition, with the packing kernel's array the entity table packed two rows to one, and the
    SparseCore call's five results the packed tables' rows at the packed rows the first stretch left, the program's
    scalar is the reference's value of the same seven arguments. -/
theorem final_value (hpre : Cert.Pre_KernelIdeal m)
    (hPk : ∀ (d : Dev nD) (r : Fin 500000) (col : Fin 128),
      Pk d (ix2 r col) = PackPick.packedE (fun i j => m (d, r_arg0) (ix2 i j)) r col)
    (hG0 : ∀ (d : Dev nD) (b : Fin 16384) (col : Fin 128)
      (h : BitVec.toNat (VAof (StableHlo.launchContents m d) (Pk d) (Proc.devRef .tc main_v24) (ix2 (⟨128 * 0 + b.val / 128, by have := b.isLt; omega⟩ : Fin 512) (⟨b.val % 128, by omega⟩ : Fin 128))) < 500000),
      G0 d (ix2 b col) = VAof (StableHlo.launchContents m d) (Pk d) (Proc.devRef .tc main_v5) (ix2 ⟨_, h⟩ col))
    (hG1 : ∀ (d : Dev nD) (b : Fin 16384) (col : Fin 128)
      (h : BitVec.toNat (VAof (StableHlo.launchContents m d) (Pk d) (Proc.devRef .tc main_v24) (ix2 (⟨128 * 1 + b.val / 128, by have := b.isLt; omega⟩ : Fin 512) (⟨b.val % 128, by omega⟩ : Fin 128))) < 500000),
      G1 d (ix2 b col) = VAof (StableHlo.launchContents m d) (Pk d) (Proc.devRef .tc main_v5) (ix2 ⟨_, h⟩ col))
    (hG2 : ∀ (d : Dev nD) (b : Fin 16384) (col : Fin 128)
      (h : BitVec.toNat (VAof (StableHlo.launchContents m d) (Pk d) (Proc.devRef .tc main_v24) (ix2 (⟨128 * 2 + b.val / 128, by have := b.isLt; omega⟩ : Fin 512) (⟨b.val % 128, by omega⟩ : Fin 128))) < 500000),
      G2 d (ix2 b col) = VAof (StableHlo.launchContents m d) (Pk d) (Proc.devRef .tc main_v5) (ix2 ⟨_, h⟩ col))
    (hG3 : ∀ (d : Dev nD) (b : Fin 16384) (col : Fin 128)
      (h : BitVec.toNat (VAof (StableHlo.launchContents m d) (Pk d) (Proc.devRef .tc main_v24) (ix2 (⟨128 * 3 + b.val / 128, by have := b.isLt; omega⟩ : Fin 512) (⟨b.val % 128, by omega⟩ : Fin 128))) < 500000),
      G3 d (ix2 b col) = VAof (StableHlo.launchContents m d) (Pk d) (Proc.devRef .tc main_v5) (ix2 ⟨_, h⟩ col))
    (hG4 : ∀ (d : Dev nD) (b : Fin 16384) (col : Fin 128)
      (h : BitVec.toNat (VAof (StableHlo.launchContents m d) (Pk d) (Proc.devRef .tc main_v25) (ix2 (⟨b.val / 128, by have := b.isLt; omega⟩ : Fin 128) (⟨b.val % 128, by omega⟩ : Fin 128))) < 500),
      G4 d (ix2 b col) = VAof (StableHlo.launchContents m d) (Pk d) (Proc.devRef .tc main_v6) (ix2 ⟨_, h⟩ col))
    (d : Dev nD) :
    VB (VS (fun d => VAof (StableHlo.launchContents m d) (Pk d)) G0 G1 G2 G3 G4) d (Proc.devRef .tc main_v50)
      = Cert.Proof.RefRun.val (F := Ideal) (m (d, r_arg0)) (m (d, r_arg1)) (m (d, r_arg2)) (m (d, r_arg3)) (m (d, r_arg4))
          (m (d, r_arg5)) (m (d, r_arg6)) := by
  funext j
  obtain rfl : j = ix0 := eq_ix0 j
  have hp := hpre d
  obtain ⟨h2, h3, h4, h5, h6⟩ := PreFacts.idx_of_pre _ _ _ _ _ _ _ hp
  obtain ⟨hE, hR⟩ := PreFacts.fin_of_pre _ _ _ _ _ _ _ hp
  rw [chainB]
  have e0 := ent_rows m Pk d 0 (fun b col => G0 d (ix2 b col)) (hPk d) (hG0 d) (fun b => m (d, r_arg2) (ix1 b)) (fun b => rfl) (fun b => h2 (ix1 b))
  have e1 := ent_rows m Pk d 1 (fun b col => G1 d (ix2 b col)) (hPk d) (hG1 d) (fun b => m (d, r_arg4) (ix1 b)) (fun b => rfl) (fun b => h4 (ix1 b))
  have e2 := ent_rows m Pk d 2 (fun b col => G2 d (ix2 b col)) (hPk d) (hG2 d) (fun b => m (d, r_arg5) (ix1 b)) (fun b => rfl) (fun b => h5 (ix1 b))
  have e3 := ent_rows m Pk d 3 (fun b col => G3 d (ix2 b col)) (hPk d) (hG3 d) (fun b => m (d, r_arg6) (ix1 b)) (fun b => rfl) (fun b => h6 (ix1 b))
  have e4 := rel_rows m Pk d (fun b col => G4 d (ix2 b col)) (hG4 d) (fun b => h3 (ix1 b))
  have hpb : ∀ b, pbA (fun d => VAof (StableHlo.launchContents m d) (Pk d)) d b
      = PackPick.pbits (m (d, r_arg2) (ix1 b)) (m (d, r_arg4) (ix1 b)) (m (d, r_arg5) (ix1 b)) (m (d, r_arg6) (ix1 b)) (m (d, r_arg3) (ix1 b)) :=
    fun b => (VR_v48_read (fun d => VAof (StableHlo.launchContents m d) (Pk d)) G0 G1 G2 G3 G4 d b).symm.trans
      (chain_v48_read (StableHlo.launchContents m) Pk G0 G1 G2 G3 G4 d b)
  refine (Compose.compose (fun i j => m (d, r_arg0) (ix2 i j)) (fun i j => m (d, r_arg1) (ix2 i j))
    (fun b => m (d, r_arg2) (ix1 b)) (fun b => m (d, r_arg4) (ix1 b)) (fun b => m (d, r_arg5) (ix1 b))
    (fun b => m (d, r_arg6) (ix1 b)) (fun b => m (d, r_arg3) (ix1 b))
    (fun b => h2 (ix1 b)) (fun b => h4 (ix1 b)) (fun b => h5 (ix1 b)) (fun b => h6 (ix1 b)) (fun b => h3 (ix1 b))
    (fun b col => G0 d (ix2 b col)) (fun b col => G1 d (ix2 b col)) (fun b col => G2 d (ix2 b col))
    (fun b col => G3 d (ix2 b col)) (fun b col => G4 d (ix2 b col))
    (pbA (fun d => VAof (StableHlo.launchContents m d) (Pk d)) d) e0 e1 e2 e3 e4 hpb
    (fun i j => hE (ix2 i j)) (fun i j => hR (ix2 i j))).trans ?_
  exact (Cert.Proof.RefRun.val_eq_refLoss (m (d, r_arg0)) (m (d, r_arg1)) (m (d, r_arg2)) (m (d, r_arg3)) (m (d, r_arg4))
    (m (d, r_arg5)) (m (d, r_arg6)) h2 h3 h4 h5 h6).symm

/-- The packing kernel's array, when it is the packed array of what the first stretch left for it, is the entity table
    packed two rows to one. -/
theorem packed_of_region (d : Dev nD) (r : Fin 500000) (col : Fin 128) :
    packedVal (StableHlo.after opsA1 (StableHlo.launchContents m d) (Proc.devRef .tc main_v0))
        (StableHlo.after opsA1 (StableHlo.launchContents m d) (Proc.devRef .tc main_v4)) (ix2 r col)
      = PackPick.packedE (fun i j => m (d, r_arg0) (ix2 i j)) r col :=
  packedVal_eq_packedE (m (d, r_arg0)) _ _ (region_v0_read (StableHlo.launchContents m d))
    (region_v4_read (StableHlo.launchContents m d)) r col

end Main

end Cert.Proof.KI

end
-- ==== Proof.Assemble.lean ====
/-
  The closing glue. A run of the kernel's program whose post reads the result and the seven arguments off
  a final valuation, together with the fact that this valuation holds the launch memory's contents at the
  arguments, is the frame claim; with, besides, the fact that the valuation's result is the reference's
  value of those arguments, it is the algebraic claim, the reference's own run giving the other half from
  memories that agree on the arguments.
-/
import proofs.«205037_g73117523247527_cont_9to1c4b_608_48_alg».proof.Defs
import proofs.«205037_g73117523247527_cont_9to1c4b_608_48_alg».proof.Proof.Launch
import proofs.«205037_g73117523247527_cont_9to1c4b_608_48_alg».proof.Proof.BLaunch
import proofs.«205037_g73117523247527_cont_9to1c4b_608_48_alg».proof.Proof.RefRun

noncomputable section

namespace Cert.Proof.Assemble

open Idealize.ShloMosaic Idealize.SL.Sem

/-! ## The kernel at the ideal values -/

section KI
open Cert.KernelIdeal Cert.Proof.KI

variable [hKernelIdeal : Cert.KernelIdeal.Facts] [hPre_input_domain : Cert.Pre_input_domain.Facts]
  (W : ((ℓ : Loc nD τ sig) → Buf (Elt Ideal) ℓ) → Dev nD → Valuation τ sig (Elt Ideal))
  (run : ∀ (m : (ℓ : Loc nD τ sig) → Buf (Elt Ideal) ℓ) (ρ : Dev nD → PrngReg), Cert.Pre_KernelIdeal m →
    θ_run (Cert.KernelIdeal.defs (F := Ideal)) (Cert.KernelIdeal.threads (F := Ideal)) ⟨m, fun _ => 0, ρ⟩ (QC8 (W m)))
  (kept : ∀ (m : (ℓ : Loc nD τ sig) → Buf (Elt Ideal) ℓ) (c : Dev nD),
    W m c r_arg0 = m (c, r_arg0) ∧ W m c r_arg1 = m (c, r_arg1) ∧ W m c r_arg2 = m (c, r_arg2) ∧ W m c r_arg3 = m (c, r_arg3)
      ∧ W m c r_arg4 = m (c, r_arg4) ∧ W m c r_arg5 = m (c, r_arg5) ∧ W m c r_arg6 = m (c, r_arg6))

include run kept in
/-- The kernel runs and leaves its arguments unchanged. -/
theorem frameKI_of : Cert.frame_KernelIdeal := fun m g hpre =>
  (θ_run _ _ _).mono (fun _ h c => by
    obtain ⟨-, h0, h1, h2, h3, h4, h5, h6⟩ := h c
    obtain ⟨k0, k1, k2, k3, k4, k5, k6⟩ := kept m c
    exact ⟨h0.trans k0, h1.trans k1, h2.trans k2, h3.trans k3, h4.trans k4, h5.trans k5, h6.trans k6⟩)
    (run m g hpre)

variable [hReferenceIdeal : Cert.ReferenceIdeal.Facts]
  (hval : ∀ (m : (ℓ : Loc nD τ sig) → Buf (Elt Ideal) ℓ), Cert.Pre_KernelIdeal m → ∀ c : Dev nD,
    W m c r_v50 = Cert.Proof.RefRun.val (F := Ideal) (m (c, r_arg0)) (m (c, r_arg1)) (m (c, r_arg2)) (m (c, r_arg3))
      (m (c, r_arg4)) (m (c, r_arg5)) (m (c, r_arg6)))

include run kept hval in
/-- From memories that agree on the arguments the kernel and the reference both run, leave their arguments
    unchanged, and end with equal results. -/
theorem algebraic_of : Cert.algebraic_KernelIdeal_ReferenceIdeal := by
  intro m g m' g' hpre hagree
  refine ⟨fun c => W m c r_v50, ?_, ?_⟩
  · exact (θ_run _ _ _).mono (fun _ h c => by
      obtain ⟨hv, h0, h1, h2, h3, h4, h5, h6⟩ := h c
      obtain ⟨k0, k1, k2, k3, k4, k5, k6⟩ := kept m c
      exact ⟨hv, h0.trans k0, h1.trans k1, h2.trans k2, h3.trans k3, h4.trans k4, h5.trans k5, h6.trans k6⟩)
      (run m g hpre)
  · exact (θ_run _ _ _).mono (fun _ h c => by
      obtain ⟨hv, h0, h1, h2, h3, h4, h5, h6⟩ := h c
      obtain ⟨a0, a1, a2, a3, a4, a5, a6⟩ := hagree c
      refine ⟨?_, h0, h1, h2, h3, h4, h5, h6⟩
      rw [hv, a0, a1, a2, a3, a4, a5, a6]
      exact (hval m hpre c).symm)
      (Cert.Proof.RefRun.run m' g')

end KI

/-! ## The kernel at the float words -/

section KB
open Cert.Kernel Cert.Proof.KB

variable [hKernel : Cert.Kernel.Facts] [hPre_input_domain : Cert.Pre_input_domain.Facts]
  (W : ((ℓ : Loc nD τ sig) → Buf (Elt Bits) ℓ) → Dev nD → Valuation τ sig (Elt Bits))
  (run : ∀ (m : (ℓ : Loc nD τ sig) → Buf (Elt Bits) ℓ) (ρ : Dev nD → PrngReg), Cert.Pre_Kernel m →
    θ_run (Cert.Kernel.defs (F := Bits)) (Cert.Kernel.threads (F := Bits)) ⟨m, fun _ => 0, ρ⟩ (QC8 (W m)))
  (kept : ∀ (m : (ℓ : Loc nD τ sig) → Buf (Elt Bits) ℓ) (c : Dev nD),
    W m c r_arg0 = m (c, r_arg0) ∧ W m c r_arg1 = m (c, r_arg1) ∧ W m c r_arg2 = m (c, r_arg2) ∧ W m c r_arg3 = m (c, r_arg3)
      ∧ W m c r_arg4 = m (c, r_arg4) ∧ W m c r_arg5 = m (c, r_arg5) ∧ W m c r_arg6 = m (c, r_arg6))

include run kept in
/-- The kernel runs and leaves its arguments unchanged. -/
theorem frameK_of : Cert.frame_Kernel := fun m g hpre =>
  (θ_run _ _ _).mono (fun _ h c => by
    obtain ⟨-, h0, h1, h2, h3, h4, h5, h6⟩ := h c
    obtain ⟨k0, k1, k2, k3, k4, k5, k6⟩ := kept m c
    exact ⟨h0.trans k0, h1.trans k1, h2.trans k2, h3.trans k3, h4.trans k4, h5.trans k5, h6.trans k6⟩)
    (run m g hpre)

end KB

end Cert.Proof.Assemble

end
-- ==== Proof.lean ====
/-
  The claim. The kernel packs two entity rows side by side into one row of a half-height table (transposing the table
  block by block through its own double-buffered copies), computes from every entity index the packed row and the
  half it sits in, gathers the packed rows on the SparseCore's thirty-two vector subcores, and in a last kernel picks
  each half by its parity bit, normalises the picked rows, forms the two distances and the hinge, and accumulates
  the mean block by block. The reference normalises the whole table, takes the rows, and takes one mean. Over the
  extended reals, with finite tables and indices in range, the picked half of a gathered packed row IS the entity's
  own row; a product with the reciprocal of a positive real is the quotient by it; and the blockwise sums of finite
  terms scaled by 2^-14 add up to the whole sum divided by 16384. The frames are the launch of the SparseCore program
  with both TensorCore regions entered from its @main, once for each instance of the printed program.
-/
import proofs.«205037_g73117523247527_cont_9to1c4b_608_48_alg».proof.Defs
import proofs.«205037_g73117523247527_cont_9to1c4b_608_48_alg».proof.Proof.Gen.Kernel
import proofs.«205037_g73117523247527_cont_9to1c4b_608_48_alg».proof.Proof.Gen.KernelIdeal
import proofs.«205037_g73117523247527_cont_9to1c4b_608_48_alg».proof.Proof.Gen.ReferenceIdeal
import proofs.«205037_g73117523247527_cont_9to1c4b_608_48_alg».proof.Proof.Gen.Pre_input_domain
import proofs.«205037_g73117523247527_cont_9to1c4b_608_48_alg».proof.Proof.Close
import proofs.«205037_g73117523247527_cont_9to1c4b_608_48_alg».proof.Proof.BClose
import proofs.«205037_g73117523247527_cont_9to1c4b_608_48_alg».proof.Proof.FinalValue
import proofs.«205037_g73117523247527_cont_9to1c4b_608_48_alg».proof.Proof.Assemble
import proofs.«205037_g73117523247527_cont_9to1c4b_608_48_alg».proof.Proof.RefRun

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Assemble.frameK_of (fun m => KB.Wend m) (fun m ρ hpre => KB.run_of_pre m ρ (fun c => hpre c)) (fun m c => KB.kept_end m c),
    Assemble.frameKI_of (fun m => KI.Wend m) (fun m ρ hpre => KI.run_of_pre m ρ (fun c => hpre c)) (fun m c => KI.kept_end m c),
    RefRun.frame, trivial,
    Assemble.algebraic_of (fun m => KI.Wend m) (fun m ρ hpre => KI.run_of_pre m ρ (fun c => hpre c)) (fun m c => KI.kept_end m c)
      (fun m hpre c => KI.final_value m (KI.PkOf m) _ _ _ _ _ hpre (fun d r col => KI.packed_of_region m d r col)
        (KI.hG0_of m (KI.PkOf m)) (KI.hG1_of m (KI.PkOf m)) (KI.hG2_of m (KI.PkOf m)) (KI.hG3_of m (KI.PkOf m)) (KI.hG4_of m (KI.PkOf m)) c)⟩

end Cert.Proof

end
